-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v289)) (v1 : (c : Dev Cert.KernelIdeal.nD) → Buf (Elt Ideal) ((c.tc : Thread Cert.KernelIdeal.nD Cert.KernelIdeal.τ).loc Cert.KernelIdeal.main_v291)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v289) = v0 c
          ∧ r.2.mem ((c.tc : Thread Cert.KernelIdeal.nD Cert.KernelIdeal.τ).loc Cert.KernelIdeal.main_v291) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1128) = v0 c
          ∧ r.2.mem ((c.tc : Thread Cert.ReferenceIdeal.nD Cert.ReferenceIdeal.τ).loc Cert.ReferenceIdeal.main_v1130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32767x512 : Shape := ⟨2, ![32767, 512]⟩
abbrev S512x1024 : Shape := ⟨2, ![512, 1024]⟩
abbrev S512 : Shape := ⟨1, ![512]⟩
abbrev S_ : Shape := ⟨0, ![]⟩

class Facts : Prop where
  bcast_S_S32767x512 : S_.BroadcastsInDim S32767x512 (![] : Fin 0 → Fin S32767x512.rank)
  reducesTo_S32767x512_S_d0_1 : S32767x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x1024 .f32) (main_arg8 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32767x512 .f32) (main_arg1 : FVec F S512x1024 .f32) (main_arg2 : FVec F S512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) : IVec S_ 1 :=
  let main_v0 : FVec F S32767x512 .f32 := Host.absf main_arg0
  let main_cst : FVec F S_ .f32 := constant S_ .f32 0x7F800000#32
  let main_v1 : FVec F S32767x512 .f32 := broadcastInDim S32767x512 ![] bcast_S_S32767x512 main_cst
  let main_v2 : IVec S32767x512 1 := cmpf .olt main_v0 main_v1
  let main_c : IVec S_ 1 := constantI S_ 1 1#1
  let main_v3 : IVec S_ 1 := (fun x v => Host.reduce IntOp.andi x v reducesTo_S32767x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_v13 main_v16
-- ==== Kernel.lean ====
abbrev S32767x512 : Shape := ⟨2, ![32767, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S_ : Shape := ⟨0, ![]⟩
abbrev S16384x512 : Shape := ⟨2, ![16384, 512]⟩
abbrev S1024x512 : Shape := ⟨2, ![1024, 512]⟩
abbrev S1 : Shape := ⟨1, ![1]⟩
abbrev S8192x512 : Shape := ⟨2, ![8192, 512]⟩
abbrev S8192x2x512 : Shape := ⟨3, ![8192, 2, 512]⟩
abbrev S8192x1x512 : Shape := ⟨3, ![8192, 1, 512]⟩
abbrev S4096x512 : Shape := ⟨2, ![4096, 512]⟩
abbrev S4096x2x512 : Shape := ⟨3, ![4096, 2, 512]⟩
abbrev S4096x1x512 : Shape := ⟨3, ![4096, 1, 512]⟩
abbrev S2048x512 : Shape := ⟨2, ![2048, 512]⟩
abbrev S2048x2x512 : Shape := ⟨3, ![2048, 2, 512]⟩
abbrev S2048x1x512 : Shape := ⟨3, ![2048, 1, 512]⟩
abbrev S1024x2x512 : Shape := ⟨3, ![1024, 2, 512]⟩
abbrev S1024x1x512 : Shape := ⟨3, ![1024, 1, 512]⟩
abbrev S512x2x512 : Shape := ⟨3, ![512, 2, 512]⟩
abbrev S512x1x512 : Shape := ⟨3, ![512, 1, 512]⟩
abbrev S256x512 : Shape := ⟨2, ![256, 512]⟩
abbrev S256x2x512 : Shape := ⟨3, ![256, 2, 512]⟩
abbrev S256x1x512 : Shape := ⟨3, ![256, 1, 512]⟩
abbrev S128x512 : Shape := ⟨2, ![128, 512]⟩
abbrev S128x2x512 : Shape := ⟨3, ![128, 2, 512]⟩
abbrev S128x1x512 : Shape := ⟨3, ![128, 1, 512]⟩
abbrev S64x512 : Shape := ⟨2, ![64, 512]⟩
abbrev S64x2x512 : Shape := ⟨3, ![64, 2, 512]⟩
abbrev S64x1x512 : Shape := ⟨3, ![64, 1, 512]⟩
abbrev S32x512 : Shape := ⟨2, ![32, 512]⟩
abbrev S32x2x512 : Shape := ⟨3, ![32, 2, 512]⟩
abbrev S32x1x512 : Shape := ⟨3, ![32, 1, 512]⟩
abbrev S16x512 : Shape := ⟨2, ![16, 512]⟩
abbrev S16x2x512 : Shape := ⟨3, ![16, 2, 512]⟩
abbrev S16x1x512 : Shape := ⟨3, ![16, 1, 512]⟩
abbrev S8x512 : Shape := ⟨2, ![8, 512]⟩
abbrev S8x2x512 : Shape := ⟨3, ![8, 2, 512]⟩
abbrev S8x1x512 : Shape := ⟨3, ![8, 1, 512]⟩
abbrev S4x512 : Shape := ⟨2, ![4, 512]⟩
abbrev S4x2x512 : Shape := ⟨3, ![4, 2, 512]⟩
abbrev S4x1x512 : Shape := ⟨3, ![4, 1, 512]⟩
abbrev S2x512 : Shape := ⟨2, ![2, 512]⟩
abbrev S2x2x512 : Shape := ⟨3, ![2, 2, 512]⟩
abbrev S2x1x512 : Shape := ⟨3, ![2, 1, 512]⟩
abbrev S1x2x512 : Shape := ⟨3, ![1, 2, 512]⟩
abbrev S1x1x512 : Shape := ⟨3, ![1, 1, 512]⟩

abbrev nBuf : Space → Nat
  | .hbm => 348
  | .vmem => 299
  | .smem => 0
  | _ => 0

abbrev hbmTy0_0 (i : Nat) : BufTy := match i % 128 with
  | 0 => ⟨S32767x512, .f32⟩
  | 1 => ⟨S512x1024, .f32⟩
  | 2 => ⟨S512, .f32⟩
  | 3 => ⟨S512x1024, .f32⟩
  | 4 => ⟨S512, .f32⟩
  | 5 => ⟨S512x1024, .f32⟩
  | 6 => ⟨S512, .f32⟩
  | 7 => ⟨S512x1024, .f32⟩
  | 8 => ⟨S512, .f32⟩
  | 9 => ⟨S512x512, .f32⟩
  | 10 => ⟨S512x512, .f32⟩
  | 11 => ⟨S512x512, .bf16⟩
  | 12 => ⟨S512x512, .f32⟩
  | 13 => ⟨S512x512, .f32⟩
  | 14 => ⟨S512x512, .bf16⟩
  | 15 => ⟨S512x512, .f32⟩
  | 16 => ⟨S512x512, .f32⟩
  | 17 => ⟨S512x512, .bf16⟩
  | 18 => ⟨S512x512, .f32⟩
  | 19 => ⟨S512x512, .f32⟩
  | 20 => ⟨S512x512, .bf16⟩
  | 21 => ⟨S512x512, .f32⟩
  | 22 => ⟨S512x512, .f32⟩
  | 23 => ⟨S512x512, .bf16⟩
  | 24 => ⟨S512x512, .f32⟩
  | 25 => ⟨S512x512, .f32⟩
  | 26 => ⟨S512x512, .bf16⟩
  | 27 => ⟨S512x512, .f32⟩
  | 28 => ⟨S512x512, .f32⟩
  | 29 => ⟨S512x512, .bf16⟩
  | 30 => ⟨S512x512, .f32⟩
  | 31 => ⟨S512x512, .f32⟩
  | 32 => ⟨S512x512, .bf16⟩
  | 33 => ⟨S1x512, .f32⟩
  | 34 => ⟨S1x512, .f32⟩
  | 35 => ⟨S1x512, .f32⟩
  | 36 => ⟨S1x512, .f32⟩
  | 37 => ⟨S_, .f32⟩
  | 38 => ⟨S32767x512, .f32⟩
  | 39 => ⟨S_, .f32⟩
  | 40 => ⟨S32767x512, .f32⟩
  | 41 => ⟨S16384x512, .f32⟩
  | 42 => ⟨S16384x512, .f32⟩
  | 43 => ⟨S16384x512, .f32⟩
  | 44 => ⟨S_, .i32⟩
  | 45 => ⟨S1, .i32⟩
  | 46 => ⟨S32767x512, .f32⟩
  | 47 => ⟨S_, .i32⟩
  | 48 => ⟨S1, .i32⟩
  | 49 => ⟨S32767x512, .f32⟩
  | 50 => ⟨S8192x512, .f32⟩
  | 51 => ⟨S16384x512, .f32⟩
  | 52 => ⟨S8192x2x512, .f32⟩
  | 53 => ⟨S16384x512, .f32⟩
  | 54 => ⟨S8192x2x512, .f32⟩
  | 55 => ⟨S8192x1x512, .f32⟩
  | 56 => ⟨S8192x512, .f32⟩
  | 57 => ⟨S8192x1x512, .f32⟩
  | 58 => ⟨S8192x512, .f32⟩
  | 59 => ⟨S8192x1x512, .f32⟩
  | 60 => ⟨S8192x512, .f32⟩
  | 61 => ⟨S8192x1x512, .f32⟩
  | 62 => ⟨S8192x512, .f32⟩
  | 63 => ⟨S8192x512, .f32⟩
  | 64 => ⟨S8192x512, .f32⟩
  | 65 => ⟨S_, .i32⟩
  | 66 => ⟨S1, .i32⟩
  | 67 => ⟨S32767x512, .f32⟩
  | 68 => ⟨S_, .i32⟩
  | 69 => ⟨S1, .i32⟩
  | 70 => ⟨S32767x512, .f32⟩
  | 71 => ⟨S4096x512, .f32⟩
  | 72 => ⟨S8192x512, .f32⟩
  | 73 => ⟨S4096x2x512, .f32⟩
  | 74 => ⟨S8192x512, .f32⟩
  | 75 => ⟨S4096x2x512, .f32⟩
  | 76 => ⟨S4096x1x512, .f32⟩
  | 77 => ⟨S4096x512, .f32⟩
  | 78 => ⟨S4096x1x512, .f32⟩
  | 79 => ⟨S4096x512, .f32⟩
  | 80 => ⟨S4096x1x512, .f32⟩
  | 81 => ⟨S4096x512, .f32⟩
  | 82 => ⟨S4096x1x512, .f32⟩
  | 83 => ⟨S4096x512, .f32⟩
  | 84 => ⟨S4096x512, .f32⟩
  | 85 => ⟨S4096x512, .f32⟩
  | 86 => ⟨S_, .i32⟩
  | 87 => ⟨S1, .i32⟩
  | 88 => ⟨S32767x512, .f32⟩
  | 89 => ⟨S_, .i32⟩
  | 90 => ⟨S1, .i32⟩
  | 91 => ⟨S32767x512, .f32⟩
  | 92 => ⟨S2048x512, .f32⟩
  | 93 => ⟨S4096x512, .f32⟩
  | 94 => ⟨S2048x2x512, .f32⟩
  | 95 => ⟨S4096x512, .f32⟩
  | 96 => ⟨S2048x2x512, .f32⟩
  | 97 => ⟨S2048x1x512, .f32⟩
  | 98 => ⟨S2048x512, .f32⟩
  | 99 => ⟨S2048x1x512, .f32⟩
  | 100 => ⟨S2048x512, .f32⟩
  | 101 => ⟨S2048x1x512, .f32⟩
  | 102 => ⟨S2048x512, .f32⟩
  | 103 => ⟨S2048x1x512, .f32⟩
  | 104 => ⟨S2048x512, .f32⟩
  | 105 => ⟨S2048x512, .f32⟩
  | 106 => ⟨S2048x512, .f32⟩
  | 107 => ⟨S_, .i32⟩
  | 108 => ⟨S1, .i32⟩
  | 109 => ⟨S32767x512, .f32⟩
  | 110 => ⟨S_, .i32⟩
  | 111 => ⟨S1, .i32⟩
  | 112 => ⟨S32767x512, .f32⟩
  | 113 => ⟨S1024x512, .f32⟩
  | 114 => ⟨S2048x512, .f32⟩
  | 115 => ⟨S1024x2x512, .f32⟩
  | 116 => ⟨S2048x512, .f32⟩
  | 117 => ⟨S1024x2x512, .f32⟩
  | 118 => ⟨S1024x1x512, .f32⟩
  | 119 => ⟨S1024x512, .f32⟩
  | 120 => ⟨S1024x1x512, .f32⟩
  | 121 => ⟨S1024x512, .f32⟩
  | 122 => ⟨S1024x1x512, .f32⟩
  | 123 => ⟨S1024x512, .f32⟩
  | 124 => ⟨S1024x1x512, .f32⟩
  | 125 => ⟨S1024x512, .f32⟩
  | 126 => ⟨S1024x512, .f32⟩
  | 127 => ⟨S1024x512, .f32⟩
  | _ => ⟨S32767x512, .f32⟩

abbrev hbmTy0_1 (i : Nat) : BufTy := match i % 128 with
  | 0 => ⟨S_, .i32⟩
  | 1 => ⟨S1, .i32⟩
  | 2 => ⟨S32767x512, .f32⟩
  | 3 => ⟨S_, .i32⟩
  | 4 => ⟨S1, .i32⟩
  | 5 => ⟨S32767x512, .f32⟩
  | 6 => ⟨S512x512, .f32⟩
  | 7 => ⟨S1024x512, .f32⟩
  | 8 => ⟨S512x2x512, .f32⟩
  | 9 => ⟨S1024x512, .f32⟩
  | 10 => ⟨S512x2x512, .f32⟩
  | 11 => ⟨S512x1x512, .f32⟩
  | 12 => ⟨S512x512, .f32⟩
  | 13 => ⟨S512x1x512, .f32⟩
  | 14 => ⟨S512x512, .f32⟩
  | 15 => ⟨S512x1x512, .f32⟩
  | 16 => ⟨S512x512, .f32⟩
  | 17 => ⟨S512x1x512, .f32⟩
  | 18 => ⟨S512x512, .f32⟩
  | 19 => ⟨S512x512, .f32⟩
  | 20 => ⟨S512x512, .f32⟩
  | 21 => ⟨S_, .i32⟩
  | 22 => ⟨S1, .i32⟩
  | 23 => ⟨S32767x512, .f32⟩
  | 24 => ⟨S_, .i32⟩
  | 25 => ⟨S1, .i32⟩
  | 26 => ⟨S32767x512, .f32⟩
  | 27 => ⟨S256x512, .f32⟩
  | 28 => ⟨S512x512, .f32⟩
  | 29 => ⟨S256x2x512, .f32⟩
  | 30 => ⟨S512x512, .f32⟩
  | 31 => ⟨S256x2x512, .f32⟩
  | 32 => ⟨S256x1x512, .f32⟩
  | 33 => ⟨S256x512, .f32⟩
  | 34 => ⟨S256x1x512, .f32⟩
  | 35 => ⟨S256x512, .f32⟩
  | 36 => ⟨S256x1x512, .f32⟩
  | 37 => ⟨S256x512, .f32⟩
  | 38 => ⟨S256x1x512, .f32⟩
  | 39 => ⟨S256x512, .f32⟩
  | 40 => ⟨S256x512, .f32⟩
  | 41 => ⟨S256x512, .f32⟩
  | 42 => ⟨S_, .i32⟩
  | 43 => ⟨S1, .i32⟩
  | 44 => ⟨S32767x512, .f32⟩
  | 45 => ⟨S_, .i32⟩
  | 46 => ⟨S1, .i32⟩
  | 47 => ⟨S32767x512, .f32⟩
  | 48 => ⟨S128x512, .f32⟩
  | 49 => ⟨S256x512, .f32⟩
  | 50 => ⟨S128x2x512, .f32⟩
  | 51 => ⟨S256x512, .f32⟩
  | 52 => ⟨S128x2x512, .f32⟩
  | 53 => ⟨S128x1x512, .f32⟩
  | 54 => ⟨S128x512, .f32⟩
  | 55 => ⟨S128x1x512, .f32⟩
  | 56 => ⟨S128x512, .f32⟩
  | 57 => ⟨S128x1x512, .f32⟩
  | 58 => ⟨S128x512, .f32⟩
  | 59 => ⟨S128x1x512, .f32⟩
  | 60 => ⟨S128x512, .f32⟩
  | 61 => ⟨S128x512, .f32⟩
  | 62 => ⟨S128x512, .f32⟩
  | 63 => ⟨S_, .i32⟩
  | 64 => ⟨S1, .i32⟩
  | 65 => ⟨S32767x512, .f32⟩
  | 66 => ⟨S_, .i32⟩
  | 67 => ⟨S1, .i32⟩
  | 68 => ⟨S32767x512, .f32⟩
  | 69 => ⟨S64x512, .f32⟩
  | 70 => ⟨S128x512, .f32⟩
  | 71 => ⟨S64x2x512, .f32⟩
  | 72 => ⟨S128x512, .f32⟩
  | 73 => ⟨S64x2x512, .f32⟩
  | 74 => ⟨S64x1x512, .f32⟩
  | 75 => ⟨S64x512, .f32⟩
  | 76 => ⟨S64x1x512, .f32⟩
  | 77 => ⟨S64x512, .f32⟩
  | 78 => ⟨S64x1x512, .f32⟩
  | 79 => ⟨S64x512, .f32⟩
  | 80 => ⟨S64x1x512, .f32⟩
  | 81 => ⟨S64x512, .f32⟩
  | 82 => ⟨S64x512, .f32⟩
  | 83 => ⟨S64x512, .f32⟩
  | 84 => ⟨S_, .i32⟩
  | 85 => ⟨S1, .i32⟩
  | 86 => ⟨S32767x512, .f32⟩
  | 87 => ⟨S_, .i32⟩
  | 88 => ⟨S1, .i32⟩
  | 89 => ⟨S32767x512, .f32⟩
  | 90 => ⟨S32x512, .f32⟩
  | 91 => ⟨S64x512, .f32⟩
  | 92 => ⟨S32x2x512, .f32⟩
  | 93 => ⟨S64x512, .f32⟩
  | 94 => ⟨S32x2x512, .f32⟩
  | 95 => ⟨S32x1x512, .f32⟩
  | 96 => ⟨S32x512, .f32⟩
  | 97 => ⟨S32x1x512, .f32⟩
  | 98 => ⟨S32x512, .f32⟩
  | 99 => ⟨S32x1x512, .f32⟩
  | 100 => ⟨S32x512, .f32⟩
  | 101 => ⟨S32x1x512, .f32⟩
  | 102 => ⟨S32x512, .f32⟩
  | 103 => ⟨S32x512, .f32⟩
  | 104 => ⟨S32x512, .f32⟩
  | 105 => ⟨S_, .i32⟩
  | 106 => ⟨S1, .i32⟩
  | 107 => ⟨S32767x512, .f32⟩
  | 108 => ⟨S_, .i32⟩
  | 109 => ⟨S1, .i32⟩
  | 110 => ⟨S32767x512, .f32⟩
  | 111 => ⟨S16x512, .f32⟩
  | 112 => ⟨S32x512, .f32⟩
  | 113 => ⟨S16x2x512, .f32⟩
  | 114 => ⟨S32x512, .f32⟩
  | 115 => ⟨S16x2x512, .f32⟩
  | 116 => ⟨S16x1x512, .f32⟩
  | 117 => ⟨S16x512, .f32⟩
  | 118 => ⟨S16x1x512, .f32⟩
  | 119 => ⟨S16x512, .f32⟩
  | 120 => ⟨S16x1x512, .f32⟩
  | 121 => ⟨S16x512, .f32⟩
  | 122 => ⟨S16x1x512, .f32⟩
  | 123 => ⟨S16x512, .f32⟩
  | 124 => ⟨S16x512, .f32⟩
  | 125 => ⟨S16x512, .f32⟩
  | 126 => ⟨S_, .i32⟩
  | 127 => ⟨S1, .i32⟩
  | _ => ⟨S32767x512, .f32⟩

abbrev hbmTy0_2 (i : Nat) : BufTy := match i % 128 with
  | 0 => ⟨S32767x512, .f32⟩
  | 1 => ⟨S_, .i32⟩
  | 2 => ⟨S1, .i32⟩
  | 3 => ⟨S32767x512, .f32⟩
  | 4 => ⟨S8x512, .f32⟩
  | 5 => ⟨S16x512, .f32⟩
  | 6 => ⟨S8x2x512, .f32⟩
  | 7 => ⟨S16x512, .f32⟩
  | 8 => ⟨S8x2x512, .f32⟩
  | 9 => ⟨S8x1x512, .f32⟩
  | 10 => ⟨S8x512, .f32⟩
  | 11 => ⟨S8x1x512, .f32⟩
  | 12 => ⟨S8x512, .f32⟩
  | 13 => ⟨S8x1x512, .f32⟩
  | 14 => ⟨S8x512, .f32⟩
  | 15 => ⟨S8x1x512, .f32⟩
  | 16 => ⟨S8x512, .f32⟩
  | 17 => ⟨S8x512, .f32⟩
  | 18 => ⟨S8x512, .f32⟩
  | 19 => ⟨S_, .i32⟩
  | 20 => ⟨S1, .i32⟩
  | 21 => ⟨S32767x512, .f32⟩
  | 22 => ⟨S_, .i32⟩
  | 23 => ⟨S1, .i32⟩
  | 24 => ⟨S32767x512, .f32⟩
  | 25 => ⟨S4x512, .f32⟩
  | 26 => ⟨S8x512, .f32⟩
  | 27 => ⟨S4x2x512, .f32⟩
  | 28 => ⟨S8x512, .f32⟩
  | 29 => ⟨S4x2x512, .f32⟩
  | 30 => ⟨S4x1x512, .f32⟩
  | 31 => ⟨S4x512, .f32⟩
  | 32 => ⟨S4x1x512, .f32⟩
  | 33 => ⟨S4x512, .f32⟩
  | 34 => ⟨S4x1x512, .f32⟩
  | 35 => ⟨S4x512, .f32⟩
  | 36 => ⟨S4x1x512, .f32⟩
  | 37 => ⟨S4x512, .f32⟩
  | 38 => ⟨S4x512, .f32⟩
  | 39 => ⟨S4x512, .f32⟩
  | 40 => ⟨S_, .i32⟩
  | 41 => ⟨S1, .i32⟩
  | 42 => ⟨S32767x512, .f32⟩
  | 43 => ⟨S_, .i32⟩
  | 44 => ⟨S1, .i32⟩
  | 45 => ⟨S32767x512, .f32⟩
  | 46 => ⟨S2x512, .f32⟩
  | 47 => ⟨S4x512, .f32⟩
  | 48 => ⟨S2x2x512, .f32⟩
  | 49 => ⟨S4x512, .f32⟩
  | 50 => ⟨S2x2x512, .f32⟩
  | 51 => ⟨S2x1x512, .f32⟩
  | 52 => ⟨S2x512, .f32⟩
  | 53 => ⟨S2x1x512, .f32⟩
  | 54 => ⟨S2x512, .f32⟩
  | 55 => ⟨S2x1x512, .f32⟩
  | 56 => ⟨S2x512, .f32⟩
  | 57 => ⟨S2x1x512, .f32⟩
  | 58 => ⟨S2x512, .f32⟩
  | 59 => ⟨S2x512, .f32⟩
  | 60 => ⟨S2x512, .f32⟩
  | 61 => ⟨S_, .i32⟩
  | 62 => ⟨S1, .i32⟩
  | 63 => ⟨S32767x512, .f32⟩
  | 64 => ⟨S_, .i32⟩
  | 65 => ⟨S1, .i32⟩
  | 66 => ⟨S32767x512, .f32⟩
  | 67 => ⟨S1x512, .f32⟩
  | 68 => ⟨S2x512, .f32⟩
  | 69 => ⟨S1x2x512, .f32⟩
  | 70 => ⟨S2x512, .f32⟩
  | 71 => ⟨S1x2x512, .f32⟩
  | 72 => ⟨S1x1x512, .f32⟩
  | 73 => ⟨S1x512, .f32⟩
  | 74 => ⟨S1x1x512, .f32⟩
  | 75 => ⟨S1x512, .f32⟩
  | 76 => ⟨S1x1x512, .f32⟩
  | 77 => ⟨S1x512, .f32⟩
  | 78 => ⟨S1x1x512, .f32⟩
  | 79 => ⟨S1x512, .f32⟩
  | 80 => ⟨S1x512, .f32⟩
  | 81 => ⟨S1x512, .f32⟩
  | 82 => ⟨S_, .i32⟩
  | 83 => ⟨S1, .i32⟩
  | 84 => ⟨S32767x512, .f32⟩
  | 85 => ⟨S_, .i32⟩
  | 86 => ⟨S1, .i32⟩
  | 87 => ⟨S32767x512, .f32⟩
  | 88 => ⟨S1x512, .f32⟩
  | 89 => ⟨S512, .f32⟩
  | 90 => ⟨S1x512, .f32⟩
  | 91 => ⟨S512, .f32⟩
  | _ => ⟨S32767x512, .f32⟩

abbrev hbmTy (i : Nat) : BufTy := match i / 128 with
  | 0 => hbmTy0_0 i
  | 1 => hbmTy0_1 i
  | 2 => hbmTy0_2 i
  | _ => ⟨S32767x512, .f32⟩

abbrev vmemTy0_0 (i : Nat) : BufTy := match i % 128 with
  | 0 => ⟨S1024x512, .f32⟩
  | 1 => ⟨S1024x512, .f32⟩
  | 2 => ⟨S512x512, .bf16⟩
  | 3 => ⟨S512x512, .bf16⟩
  | 4 => ⟨S512x512, .bf16⟩
  | 5 => ⟨S1x512, .f32⟩
  | 6 => ⟨S1x512, .f32⟩
  | 7 => ⟨S1x512, .f32⟩
  | 8 => ⟨S1024x512, .f32⟩
  | 9 => ⟨S1024x512, .f32⟩
  | 10 => ⟨S1024x512, .f32⟩
  | 11 => ⟨S1024x512, .f32⟩
  | 12 => ⟨S1024x512, .f32⟩
  | 13 => ⟨S1024x512, .f32⟩
  | 14 => ⟨S1024x512, .f32⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S1024x512, .f32⟩
  | 21 => ⟨S1024x512, .f32⟩
  | 22 => ⟨S512x512, .bf16⟩
  | 23 => ⟨S512x512, .bf16⟩
  | 24 => ⟨S512x512, .bf16⟩
  | 25 => ⟨S512x512, .bf16⟩
  | 26 => ⟨S512x512, .bf16⟩
  | 27 => ⟨S512x512, .bf16⟩
  | 28 => ⟨S512x512, .bf16⟩
  | 29 => ⟨S512x512, .bf16⟩
  | 30 => ⟨S1x512, .f32⟩
  | 31 => ⟨S1x512, .f32⟩
  | 32 => ⟨S1x512, .f32⟩
  | 33 => ⟨S1x512, .f32⟩
  | 34 => ⟨S1024x512, .f32⟩
  | 35 => ⟨S1024x512, .f32⟩
  | 36 => ⟨S1024x512, .f32⟩
  | 37 => ⟨S1024x512, .f32⟩
  | 38 => ⟨S1024x512, .f32⟩
  | 39 => ⟨S1024x512, .f32⟩
  | 40 => ⟨S1024x512, .f32⟩
  | 41 => ⟨S1024x512, .f32⟩
  | 42 => ⟨S1024x512, .f32⟩
  | 43 => ⟨S1024x512, .f32⟩
  | 44 => ⟨S1024x512, .f32⟩
  | 45 => ⟨S1024x512, .f32⟩
  | 46 => ⟨S1024x512, .f32⟩
  | 47 => ⟨S1024x512, .f32⟩
  | 48 => ⟨S512x512, .bf16⟩
  | 49 => ⟨S512x512, .bf16⟩
  | 50 => ⟨S512x512, .bf16⟩
  | 51 => ⟨S512x512, .bf16⟩
  | 52 => ⟨S512x512, .bf16⟩
  | 53 => ⟨S512x512, .bf16⟩
  | 54 => ⟨S512x512, .bf16⟩
  | 55 => ⟨S512x512, .bf16⟩
  | 56 => ⟨S1x512, .f32⟩
  | 57 => ⟨S1x512, .f32⟩
  | 58 => ⟨S1x512, .f32⟩
  | 59 => ⟨S1x512, .f32⟩
  | 60 => ⟨S1024x512, .f32⟩
  | 61 => ⟨S1024x512, .f32⟩
  | 62 => ⟨S1024x512, .f32⟩
  | 63 => ⟨S1024x512, .f32⟩
  | 64 => ⟨S1024x512, .f32⟩
  | 65 => ⟨S1024x512, .f32⟩
  | 66 => ⟨S1024x512, .f32⟩
  | 67 => ⟨S1024x512, .f32⟩
  | 68 => ⟨S1024x512, .f32⟩
  | 69 => ⟨S1024x512, .f32⟩
  | 70 => ⟨S1024x512, .f32⟩
  | 71 => ⟨S1024x512, .f32⟩
  | 72 => ⟨S1024x512, .f32⟩
  | 73 => ⟨S1024x512, .f32⟩
  | 74 => ⟨S512x512, .bf16⟩
  | 75 => ⟨S512x512, .bf16⟩
  | 76 => ⟨S512x512, .bf16⟩
  | 77 => ⟨S512x512, .bf16⟩
  | 78 => ⟨S512x512, .bf16⟩
  | 79 => ⟨S512x512, .bf16⟩
  | 80 => ⟨S512x512, .bf16⟩
  | 81 => ⟨S512x512, .bf16⟩
  | 82 => ⟨S1x512, .f32⟩
  | 83 => ⟨S1x512, .f32⟩
  | 84 => ⟨S1x512, .f32⟩
  | 85 => ⟨S1x512, .f32⟩
  | 86 => ⟨S1024x512, .f32⟩
  | 87 => ⟨S1024x512, .f32⟩
  | 88 => ⟨S1024x512, .f32⟩
  | 89 => ⟨S1024x512, .f32⟩
  | 90 => ⟨S1024x512, .f32⟩
  | 91 => ⟨S1024x512, .f32⟩
  | 92 => ⟨S1024x512, .f32⟩
  | 93 => ⟨S1024x512, .f32⟩
  | 94 => ⟨S1024x512, .f32⟩
  | 95 => ⟨S512x512, .bf16⟩
  | 96 => ⟨S512x512, .bf16⟩
  | 97 => ⟨S512x512, .bf16⟩
  | 98 => ⟨S512x512, .bf16⟩
  | 99 => ⟨S512x512, .bf16⟩
  | 100 => ⟨S512x512, .bf16⟩
  | 101 => ⟨S512x512, .bf16⟩
  | 102 => ⟨S512x512, .bf16⟩
  | 103 => ⟨S1x512, .f32⟩
  | 104 => ⟨S1x512, .f32⟩
  | 105 => ⟨S1x512, .f32⟩
  | 106 => ⟨S1x512, .f32⟩
  | 107 => ⟨S1024x512, .f32⟩
  | 108 => ⟨S1024x512, .f32⟩
  | 109 => ⟨S512x512, .f32⟩
  | 110 => ⟨S512x512, .f32⟩
  | 111 => ⟨S512x512, .f32⟩
  | 112 => ⟨S512x512, .f32⟩
  | 113 => ⟨S512x512, .f32⟩
  | 114 => ⟨S512x512, .bf16⟩
  | 115 => ⟨S512x512, .bf16⟩
  | 116 => ⟨S512x512, .bf16⟩
  | 117 => ⟨S512x512, .bf16⟩
  | 118 => ⟨S512x512, .bf16⟩
  | 119 => ⟨S512x512, .bf16⟩
  | 120 => ⟨S512x512, .bf16⟩
  | 121 => ⟨S512x512, .bf16⟩
  | 122 => ⟨S1x512, .f32⟩
  | 123 => ⟨S1x512, .f32⟩
  | 124 => ⟨S1x512, .f32⟩
  | 125 => ⟨S1x512, .f32⟩
  | 126 => ⟨S512x512, .f32⟩
  | 127 => ⟨S512x512, .f32⟩
  | _ => ⟨S32767x512, .f32⟩

abbrev vmemTy0_1 (i : Nat) : BufTy := match i % 128 with
  | 0 => ⟨S256x512, .f32⟩
  | 1 => ⟨S256x512, .f32⟩
  | 2 => ⟨S256x512, .f32⟩
  | 3 => ⟨S256x512, .f32⟩
  | 4 => ⟨S256x512, .f32⟩
  | 5 => ⟨S512x512, .bf16⟩
  | 6 => ⟨S512x512, .bf16⟩
  | 7 => ⟨S512x512, .bf16⟩
  | 8 => ⟨S512x512, .bf16⟩
  | 9 => ⟨S512x512, .bf16⟩
  | 10 => ⟨S512x512, .bf16⟩
  | 11 => ⟨S512x512, .bf16⟩
  | 12 => ⟨S512x512, .bf16⟩
  | 13 => ⟨S1x512, .f32⟩
  | 14 => ⟨S1x512, .f32⟩
  | 15 => ⟨S1x512, .f32⟩
  | 16 => ⟨S1x512, .f32⟩
  | 17 => ⟨S256x512, .f32⟩
  | 18 => ⟨S256x512, .f32⟩
  | 19 => ⟨S128x512, .f32⟩
  | 20 => ⟨S128x512, .f32⟩
  | 21 => ⟨S128x512, .f32⟩
  | 22 => ⟨S128x512, .f32⟩
  | 23 => ⟨S128x512, .f32⟩
  | 24 => ⟨S512x512, .bf16⟩
  | 25 => ⟨S512x512, .bf16⟩
  | 26 => ⟨S512x512, .bf16⟩
  | 27 => ⟨S512x512, .bf16⟩
  | 28 => ⟨S512x512, .bf16⟩
  | 29 => ⟨S512x512, .bf16⟩
  | 30 => ⟨S512x512, .bf16⟩
  | 31 => ⟨S512x512, .bf16⟩
  | 32 => ⟨S1x512, .f32⟩
  | 33 => ⟨S1x512, .f32⟩
  | 34 => ⟨S1x512, .f32⟩
  | 35 => ⟨S1x512, .f32⟩
  | 36 => ⟨S128x512, .f32⟩
  | 37 => ⟨S128x512, .f32⟩
  | 38 => ⟨S64x512, .f32⟩
  | 39 => ⟨S64x512, .f32⟩
  | 40 => ⟨S64x512, .f32⟩
  | 41 => ⟨S64x512, .f32⟩
  | 42 => ⟨S64x512, .f32⟩
  | 43 => ⟨S512x512, .bf16⟩
  | 44 => ⟨S512x512, .bf16⟩
  | 45 => ⟨S512x512, .bf16⟩
  | 46 => ⟨S512x512, .bf16⟩
  | 47 => ⟨S512x512, .bf16⟩
  | 48 => ⟨S512x512, .bf16⟩
  | 49 => ⟨S512x512, .bf16⟩
  | 50 => ⟨S512x512, .bf16⟩
  | 51 => ⟨S1x512, .f32⟩
  | 52 => ⟨S1x512, .f32⟩
  | 53 => ⟨S1x512, .f32⟩
  | 54 => ⟨S1x512, .f32⟩
  | 55 => ⟨S64x512, .f32⟩
  | 56 => ⟨S64x512, .f32⟩
  | 57 => ⟨S32x512, .f32⟩
  | 58 => ⟨S32x512, .f32⟩
  | 59 => ⟨S32x512, .f32⟩
  | 60 => ⟨S32x512, .f32⟩
  | 61 => ⟨S32x512, .f32⟩
  | 62 => ⟨S512x512, .bf16⟩
  | 63 => ⟨S512x512, .bf16⟩
  | 64 => ⟨S512x512, .bf16⟩
  | 65 => ⟨S512x512, .bf16⟩
  | 66 => ⟨S512x512, .bf16⟩
  | 67 => ⟨S512x512, .bf16⟩
  | 68 => ⟨S512x512, .bf16⟩
  | 69 => ⟨S512x512, .bf16⟩
  | 70 => ⟨S1x512, .f32⟩
  | 71 => ⟨S1x512, .f32⟩
  | 72 => ⟨S1x512, .f32⟩
  | 73 => ⟨S1x512, .f32⟩
  | 74 => ⟨S32x512, .f32⟩
  | 75 => ⟨S32x512, .f32⟩
  | 76 => ⟨S16x512, .f32⟩
  | 77 => ⟨S16x512, .f32⟩
  | 78 => ⟨S16x512, .f32⟩
  | 79 => ⟨S16x512, .f32⟩
  | 80 => ⟨S16x512, .f32⟩
  | 81 => ⟨S512x512, .bf16⟩
  | 82 => ⟨S512x512, .bf16⟩
  | 83 => ⟨S512x512, .bf16⟩
  | 84 => ⟨S512x512, .bf16⟩
  | 85 => ⟨S512x512, .bf16⟩
  | 86 => ⟨S512x512, .bf16⟩
  | 87 => ⟨S512x512, .bf16⟩
  | 88 => ⟨S512x512, .bf16⟩
  | 89 => ⟨S1x512, .f32⟩
  | 90 => ⟨S1x512, .f32⟩
  | 91 => ⟨S1x512, .f32⟩
  | 92 => ⟨S1x512, .f32⟩
  | 93 => ⟨S16x512, .f32⟩
  | 94 => ⟨S16x512, .f32⟩
  | 95 => ⟨S8x512, .f32⟩
  | 96 => ⟨S8x512, .f32⟩
  | 97 => ⟨S8x512, .f32⟩
  | 98 => ⟨S8x512, .f32⟩
  | 99 => ⟨S8x512, .f32⟩
  | 100 => ⟨S512x512, .bf16⟩
  | 101 => ⟨S512x512, .bf16⟩
  | 102 => ⟨S512x512, .bf16⟩
  | 103 => ⟨S512x512, .bf16⟩
  | 104 => ⟨S512x512, .bf16⟩
  | 105 => ⟨S512x512, .bf16⟩
  | 106 => ⟨S512x512, .bf16⟩
  | 107 => ⟨S512x512, .bf16⟩
  | 108 => ⟨S1x512, .f32⟩
  | 109 => ⟨S1x512, .f32⟩
  | 110 => ⟨S1x512, .f32⟩
  | 111 => ⟨S1x512, .f32⟩
  | 112 => ⟨S8x512, .f32⟩
  | 113 => ⟨S8x512, .f32⟩
  | 114 => ⟨S4x512, .f32⟩
  | 115 => ⟨S4x512, .f32⟩
  | 116 => ⟨S4x512, .f32⟩
  | 117 => ⟨S4x512, .f32⟩
  | 118 => ⟨S4x512, .f32⟩
  | 119 => ⟨S512x512, .bf16⟩
  | 120 => ⟨S512x512, .bf16⟩
  | 121 => ⟨S512x512, .bf16⟩
  | 122 => ⟨S512x512, .bf16⟩
  | 123 => ⟨S512x512, .bf16⟩
  | 124 => ⟨S512x512, .bf16⟩
  | 125 => ⟨S512x512, .bf16⟩
  | 126 => ⟨S512x512, .bf16⟩
  | 127 => ⟨S1x512, .f32⟩
  | _ => ⟨S32767x512, .f32⟩

abbrev vmemTy0_2 (i : Nat) : BufTy := match i % 128 with
  | 0 => ⟨S1x512, .f32⟩
  | 1 => ⟨S1x512, .f32⟩
  | 2 => ⟨S1x512, .f32⟩
  | 3 => ⟨S4x512, .f32⟩
  | 4 => ⟨S4x512, .f32⟩
  | 5 => ⟨S2x512, .f32⟩
  | 6 => ⟨S2x512, .f32⟩
  | 7 => ⟨S2x512, .f32⟩
  | 8 => ⟨S2x512, .f32⟩
  | 9 => ⟨S2x512, .f32⟩
  | 10 => ⟨S512x512, .bf16⟩
  | 11 => ⟨S512x512, .bf16⟩
  | 12 => ⟨S512x512, .bf16⟩
  | 13 => ⟨S512x512, .bf16⟩
  | 14 => ⟨S512x512, .bf16⟩
  | 15 => ⟨S512x512, .bf16⟩
  | 16 => ⟨S512x512, .bf16⟩
  | 17 => ⟨S512x512, .bf16⟩
  | 18 => ⟨S1x512, .f32⟩
  | 19 => ⟨S1x512, .f32⟩
  | 20 => ⟨S1x512, .f32⟩
  | 21 => ⟨S1x512, .f32⟩
  | 22 => ⟨S2x512, .f32⟩
  | 23 => ⟨S2x512, .f32⟩
  | 24 => ⟨S1x512, .f32⟩
  | 25 => ⟨S1x512, .f32⟩
  | 26 => ⟨S1x512, .f32⟩
  | 27 => ⟨S1x512, .f32⟩
  | 28 => ⟨S1x512, .f32⟩
  | 29 => ⟨S512x512, .bf16⟩
  | 30 => ⟨S512x512, .bf16⟩
  | 31 => ⟨S512x512, .bf16⟩
  | 32 => ⟨S512x512, .bf16⟩
  | 33 => ⟨S512x512, .bf16⟩
  | 34 => ⟨S512x512, .bf16⟩
  | 35 => ⟨S512x512, .bf16⟩
  | 36 => ⟨S512x512, .bf16⟩
  | 37 => ⟨S1x512, .f32⟩
  | 38 => ⟨S1x512, .f32⟩
  | 39 => ⟨S1x512, .f32⟩
  | 40 => ⟨S1x512, .f32⟩
  | 41 => ⟨S1x512, .f32⟩
  | 42 => ⟨S1x512, .f32⟩
  | _ => ⟨S32767x512, .f32⟩

abbrev vmemTy (i : Nat) : BufTy := match i / 128 with
  | 0 => vmemTy0_0 i
  | 1 => vmemTy0_1 i
  | 2 => vmemTy0_2 i
  | _ => ⟨S32767x512, .f32⟩

abbrev bufTy : (tb : Table) → Fin (tcTables nBuf tb) → BufTy
  | .hbm, ⟨i, _⟩ => hbmTy i
  | .local _ .vmem, ⟨i, _⟩ => vmemTy i
  | _, _ => ⟨S32767x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 299 → Bool
  | ⟨i, _⟩ => dmaSemScopedAt i

abbrev sig : RefSig :=
  ofTc nBuf bufTy 0 299 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_c_2 : Ref sig .tc := ⟨.hbm, 65, rfl⟩
abbrev main_v50 : Ref sig .tc := ⟨.hbm, 66, rfl⟩
abbrev main_v51 : Ref sig .tc := ⟨.hbm, 67, rfl⟩
abbrev main_c_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67_0 : Ref sig .tc := ⟨.hbm, 84, rfl⟩
abbrev main_v67_1 : Ref sig .tc := ⟨.hbm, 85, rfl⟩
abbrev main_c_4 : Ref sig .tc := ⟨.hbm, 86, rfl⟩
abbrev main_v68 : Ref sig .tc := ⟨.hbm, 87, rfl⟩
abbrev main_v69 : Ref sig .tc := ⟨.hbm, 88, rfl⟩
abbrev main_c_5 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85_0 : Ref sig .tc := ⟨.hbm, 105, rfl⟩
abbrev main_v85_1 : Ref sig .tc := ⟨.hbm, 106, rfl⟩
abbrev main_c_6 : Ref sig .tc := ⟨.hbm, 107, rfl⟩
abbrev main_v86 : Ref sig .tc := ⟨.hbm, 108, rfl⟩
abbrev main_v87 : Ref sig .tc := ⟨.hbm, 109, rfl⟩
abbrev main_c_7 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103_0 : Ref sig .tc := ⟨.hbm, 126, rfl⟩
abbrev main_v103_1 : Ref sig .tc := ⟨.hbm, 127, rfl⟩
abbrev main_c_8 : Ref sig .tc := ⟨.hbm, 128, rfl⟩
abbrev main_v104 : Ref sig .tc := ⟨.hbm, 129, rfl⟩
abbrev main_v105 : Ref sig .tc := ⟨.hbm, 130, rfl⟩
abbrev main_c_9 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121_0 : Ref sig .tc := ⟨.hbm, 147, rfl⟩
abbrev main_v121_1 : Ref sig .tc := ⟨.hbm, 148, rfl⟩
abbrev main_c_10 : Ref sig .tc := ⟨.hbm, 149, rfl⟩
abbrev main_v122 : Ref sig .tc := ⟨.hbm, 150, rfl⟩
abbrev main_v123 : Ref sig .tc := ⟨.hbm, 151, rfl⟩
abbrev main_c_11 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139_0 : Ref sig .tc := ⟨.hbm, 168, rfl⟩
abbrev main_v139_1 : Ref sig .tc := ⟨.hbm, 169, rfl⟩
abbrev main_c_12 : Ref sig .tc := ⟨.hbm, 170, rfl⟩
abbrev main_v140 : Ref sig .tc := ⟨.hbm, 171, rfl⟩
abbrev main_v141 : Ref sig .tc := ⟨.hbm, 172, rfl⟩
abbrev main_c_13 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157_0 : Ref sig .tc := ⟨.hbm, 189, rfl⟩
abbrev main_v157_1 : Ref sig .tc := ⟨.hbm, 190, rfl⟩
abbrev main_c_14 : Ref sig .tc := ⟨.hbm, 191, rfl⟩
abbrev main_v158 : Ref sig .tc := ⟨.hbm, 192, rfl⟩
abbrev main_v159 : Ref sig .tc := ⟨.hbm, 193, rfl⟩
abbrev main_c_15 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175_0 : Ref sig .tc := ⟨.hbm, 210, rfl⟩
abbrev main_v175_1 : Ref sig .tc := ⟨.hbm, 211, rfl⟩
abbrev main_c_16 : Ref sig .tc := ⟨.hbm, 212, rfl⟩
abbrev main_v176 : Ref sig .tc := ⟨.hbm, 213, rfl⟩
abbrev main_v177 : Ref sig .tc := ⟨.hbm, 214, rfl⟩
abbrev main_c_17 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193_0 : Ref sig .tc := ⟨.hbm, 231, rfl⟩
abbrev main_v193_1 : Ref sig .tc := ⟨.hbm, 232, rfl⟩
abbrev main_c_18 : Ref sig .tc := ⟨.hbm, 233, rfl⟩
abbrev main_v194 : Ref sig .tc := ⟨.hbm, 234, rfl⟩
abbrev main_v195 : Ref sig .tc := ⟨.hbm, 235, rfl⟩
abbrev main_c_19 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211_0 : Ref sig .tc := ⟨.hbm, 252, rfl⟩
abbrev main_v211_1 : Ref sig .tc := ⟨.hbm, 253, rfl⟩
abbrev main_c_20 : Ref sig .tc := ⟨.hbm, 254, rfl⟩
abbrev main_v212 : Ref sig .tc := ⟨.hbm, 255, rfl⟩
abbrev main_v213 : Ref sig .tc := ⟨.hbm, 256, rfl⟩
abbrev main_c_21 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229_0 : Ref sig .tc := ⟨.hbm, 273, rfl⟩
abbrev main_v229_1 : Ref sig .tc := ⟨.hbm, 274, rfl⟩
abbrev main_c_22 : Ref sig .tc := ⟨.hbm, 275, rfl⟩
abbrev main_v230 : Ref sig .tc := ⟨.hbm, 276, rfl⟩
abbrev main_v231 : Ref sig .tc := ⟨.hbm, 277, rfl⟩
abbrev main_c_23 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247_0 : Ref sig .tc := ⟨.hbm, 294, rfl⟩
abbrev main_v247_1 : Ref sig .tc := ⟨.hbm, 295, rfl⟩
abbrev main_c_24 : Ref sig .tc := ⟨.hbm, 296, rfl⟩
abbrev main_v248 : Ref sig .tc := ⟨.hbm, 297, rfl⟩
abbrev main_v249 : Ref sig .tc := ⟨.hbm, 298, rfl⟩
abbrev main_c_25 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265_0 : Ref sig .tc := ⟨.hbm, 315, rfl⟩
abbrev main_v265_1 : Ref sig .tc := ⟨.hbm, 316, rfl⟩
abbrev main_c_26 : Ref sig .tc := ⟨.hbm, 317, rfl⟩
abbrev main_v266 : Ref sig .tc := ⟨.hbm, 318, rfl⟩
abbrev main_v267 : Ref sig .tc := ⟨.hbm, 319, rfl⟩
abbrev main_c_27 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283_0 : Ref sig .tc := ⟨.hbm, 336, rfl⟩
abbrev main_v283_1 : Ref sig .tc := ⟨.hbm, 337, rfl⟩
abbrev main_c_28 : Ref sig .tc := ⟨.hbm, 338, rfl⟩
abbrev main_v284 : Ref sig .tc := ⟨.hbm, 339, rfl⟩
abbrev main_v285 : Ref sig .tc := ⟨.hbm, 340, rfl⟩
abbrev main_c_29 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg6_0 : Ref sig .tc := ⟨.vmem, 49, rfl⟩
abbrev cc2_stg7_0 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg13_0 : Ref sig .tc := ⟨.vmem, 56, rfl⟩
abbrev cc2_stg14_0 : Ref sig .tc := ⟨.vmem, 57, rfl⟩
abbrev cc2_stg15_0 : Ref sig .tc := ⟨.vmem, 58, rfl⟩
abbrev cc2_stg16_0 : Ref sig .tc := ⟨.vmem, 59, rfl⟩
abbrev cc2_stg17_0 : Ref sig .tc := ⟨.vmem, 60, rfl⟩
abbrev cc2_stg17_1 : Ref sig .tc := ⟨.vmem, 61, rfl⟩
abbrev cc2_stg18_0 : Ref sig .tc := ⟨.vmem, 62, rfl⟩
abbrev cc2_stg18_1 : Ref sig .tc := ⟨.vmem, 63, rfl⟩
abbrev cc3_stg0_0 : Ref sig .tc := ⟨.vmem, 64, rfl⟩
abbrev cc3_stg0_1 : Ref sig .tc := ⟨.vmem, 65, rfl⟩
abbrev cc3_stg1_0 : Ref sig .tc := ⟨.vmem, 66, rfl⟩
abbrev cc3_stg1_1 : Ref sig .tc := ⟨.vmem, 67, rfl⟩
abbrev cc3_stg2_0 : Ref sig .tc := ⟨.vmem, 68, rfl⟩
abbrev cc3_stg2_1 : Ref sig .tc := ⟨.vmem, 69, rfl⟩
abbrev cc3_stg3_0 : Ref sig .tc := ⟨.vmem, 70, rfl⟩
abbrev cc3_stg3_1 : Ref sig .tc := ⟨.vmem, 71, rfl⟩
abbrev cc3_stg4_0 : Ref sig .tc := ⟨.vmem, 72, rfl⟩
abbrev cc3_stg4_1 : Ref sig .tc := ⟨.vmem, 73, rfl⟩
abbrev cc3_stg5_0 : Ref sig .tc := ⟨.vmem, 74, rfl⟩
abbrev cc3_stg6_0 : Ref sig .tc := ⟨.vmem, 75, rfl⟩
abbrev cc3_stg7_0 : Ref sig .tc := ⟨.vmem, 76, rfl⟩
abbrev cc3_stg8_0 : Ref sig .tc := ⟨.vmem, 77, rfl⟩
abbrev cc3_stg9_0 : Ref sig .tc := ⟨.vmem, 78, rfl⟩
abbrev cc3_stg10_0 : Ref sig .tc := ⟨.vmem, 79, rfl⟩
abbrev cc3_stg11_0 : Ref sig .tc := ⟨.vmem, 80, rfl⟩
abbrev cc3_stg12_0 : Ref sig .tc := ⟨.vmem, 81, rfl⟩
abbrev cc3_stg13_0 : Ref sig .tc := ⟨.vmem, 82, rfl⟩
abbrev cc3_stg14_0 : Ref sig .tc := ⟨.vmem, 83, rfl⟩
abbrev cc3_stg15_0 : Ref sig .tc := ⟨.vmem, 84, rfl⟩
abbrev cc3_stg16_0 : Ref sig .tc := ⟨.vmem, 85, rfl⟩
abbrev cc3_stg17_0 : Ref sig .tc := ⟨.vmem, 86, rfl⟩
abbrev cc3_stg17_1 : Ref sig .tc := ⟨.vmem, 87, rfl⟩
abbrev cc3_stg18_0 : Ref sig .tc := ⟨.vmem, 88, rfl⟩
abbrev cc3_stg18_1 : Ref sig .tc := ⟨.vmem, 89, rfl⟩
abbrev cc4_stg0_0 : Ref sig .tc := ⟨.vmem, 90, rfl⟩
abbrev cc4_stg1_0 : Ref sig .tc := ⟨.vmem, 91, rfl⟩
abbrev cc4_stg2_0 : Ref sig .tc := ⟨.vmem, 92, rfl⟩
abbrev cc4_stg3_0 : Ref sig .tc := ⟨.vmem, 93, rfl⟩
abbrev cc4_stg4_0 : Ref sig .tc := ⟨.vmem, 94, rfl⟩
abbrev cc4_stg5_0 : Ref sig .tc := ⟨.vmem, 95, rfl⟩
abbrev cc4_stg6_0 : Ref sig .tc := ⟨.vmem, 96, rfl⟩
abbrev cc4_stg7_0 : Ref sig .tc := ⟨.vmem, 97, rfl⟩
abbrev cc4_stg8_0 : Ref sig .tc := ⟨.vmem, 98, rfl⟩
abbrev cc4_stg9_0 : Ref sig .tc := ⟨.vmem, 99, rfl⟩
abbrev cc4_stg10_0 : Ref sig .tc := ⟨.vmem, 100, rfl⟩
abbrev cc4_stg11_0 : Ref sig .tc := ⟨.vmem, 101, rfl⟩
abbrev cc4_stg12_0 : Ref sig .tc := ⟨.vmem, 102, rfl⟩
abbrev cc4_stg13_0 : Ref sig .tc := ⟨.vmem, 103, rfl⟩
abbrev cc4_stg14_0 : Ref sig .tc := ⟨.vmem, 104, rfl⟩
abbrev cc4_stg15_0 : Ref sig .tc := ⟨.vmem, 105, rfl⟩
abbrev cc4_stg16_0 : Ref sig .tc := ⟨.vmem, 106, rfl⟩
abbrev cc4_stg17_0 : Ref sig .tc := ⟨.vmem, 107, rfl⟩
abbrev cc4_stg18_0 : Ref sig .tc := ⟨.vmem, 108, rfl⟩
abbrev cc5_stg0_0 : Ref sig .tc := ⟨.vmem, 109, rfl⟩
abbrev cc5_stg1_0 : Ref sig .tc := ⟨.vmem, 110, rfl⟩
abbrev cc5_stg2_0 : Ref sig .tc := ⟨.vmem, 111, rfl⟩
abbrev cc5_stg3_0 : Ref sig .tc := ⟨.vmem, 112, rfl⟩
abbrev cc5_stg4_0 : Ref sig .tc := ⟨.vmem, 113, rfl⟩
abbrev cc5_stg5_0 : Ref sig .tc := ⟨.vmem, 114, rfl⟩
abbrev cc5_stg6_0 : Ref sig .tc := ⟨.vmem, 115, rfl⟩
abbrev cc5_stg7_0 : Ref sig .tc := ⟨.vmem, 116, rfl⟩
abbrev cc5_stg8_0 : Ref sig .tc := ⟨.vmem, 117, rfl⟩
abbrev cc5_stg9_0 : Ref sig .tc := ⟨.vmem, 118, rfl⟩
abbrev cc5_stg10_0 : Ref sig .tc := ⟨.vmem, 119, rfl⟩
abbrev cc5_stg11_0 : Ref sig .tc := ⟨.vmem, 120, rfl⟩
abbrev cc5_stg12_0 : Ref sig .tc := ⟨.vmem, 121, rfl⟩
abbrev cc5_stg13_0 : Ref sig .tc := ⟨.vmem, 122, rfl⟩
abbrev cc5_stg14_0 : Ref sig .tc := ⟨.vmem, 123, rfl⟩
abbrev cc5_stg15_0 : Ref sig .tc := ⟨.vmem, 124, rfl⟩
abbrev cc5_stg16_0 : Ref sig .tc := ⟨.vmem, 125, rfl⟩
abbrev cc5_stg17_0 : Ref sig .tc := ⟨.vmem, 126, rfl⟩
abbrev cc5_stg18_0 : Ref sig .tc := ⟨.vmem, 127, rfl⟩
abbrev cc6_stg0_0 : Ref sig .tc := ⟨.vmem, 128, rfl⟩
abbrev cc6_stg1_0 : Ref sig .tc := ⟨.vmem, 129, rfl⟩
abbrev cc6_stg2_0 : Ref sig .tc := ⟨.vmem, 130, rfl⟩
abbrev cc6_stg3_0 : Ref sig .tc := ⟨.vmem, 131, rfl⟩
abbrev cc6_stg4_0 : Ref sig .tc := ⟨.vmem, 132, rfl⟩
abbrev cc6_stg5_0 : Ref sig .tc := ⟨.vmem, 133, rfl⟩
abbrev cc6_stg6_0 : Ref sig .tc := ⟨.vmem, 134, rfl⟩
abbrev cc6_stg7_0 : Ref sig .tc := ⟨.vmem, 135, rfl⟩
abbrev cc6_stg8_0 : Ref sig .tc := ⟨.vmem, 136, rfl⟩
abbrev cc6_stg9_0 : Ref sig .tc := ⟨.vmem, 137, rfl⟩
abbrev cc6_stg10_0 : Ref sig .tc := ⟨.vmem, 138, rfl⟩
abbrev cc6_stg11_0 : Ref sig .tc := ⟨.vmem, 139, rfl⟩
abbrev cc6_stg12_0 : Ref sig .tc := ⟨.vmem, 140, rfl⟩
abbrev cc6_stg13_0 : Ref sig .tc := ⟨.vmem, 141, rfl⟩
abbrev cc6_stg14_0 : Ref sig .tc := ⟨.vmem, 142, rfl⟩
abbrev cc6_stg15_0 : Ref sig .tc := ⟨.vmem, 143, rfl⟩
abbrev cc6_stg16_0 : Ref sig .tc := ⟨.vmem, 144, rfl⟩
abbrev cc6_stg17_0 : Ref sig .tc := ⟨.vmem, 145, rfl⟩
abbrev cc6_stg18_0 : Ref sig .tc := ⟨.vmem, 146, rfl⟩
abbrev cc7_stg0_0 : Ref sig .tc := ⟨.vmem, 147, rfl⟩
abbrev cc7_stg1_0 : Ref sig .tc := ⟨.vmem, 148, rfl⟩
abbrev cc7_stg2_0 : Ref sig .tc := ⟨.vmem, 149, rfl⟩
abbrev cc7_stg3_0 : Ref sig .tc := ⟨.vmem, 150, rfl⟩
abbrev cc7_stg4_0 : Ref sig .tc := ⟨.vmem, 151, rfl⟩
abbrev cc7_stg5_0 : Ref sig .tc := ⟨.vmem, 152, rfl⟩
abbrev cc7_stg6_0 : Ref sig .tc := ⟨.vmem, 153, rfl⟩
abbrev cc7_stg7_0 : Ref sig .tc := ⟨.vmem, 154, rfl⟩
abbrev cc7_stg8_0 : Ref sig .tc := ⟨.vmem, 155, rfl⟩
abbrev cc7_stg9_0 : Ref sig .tc := ⟨.vmem, 156, rfl⟩
abbrev cc7_stg10_0 : Ref sig .tc := ⟨.vmem, 157, rfl⟩
abbrev cc7_stg11_0 : Ref sig .tc := ⟨.vmem, 158, rfl⟩
abbrev cc7_stg12_0 : Ref sig .tc := ⟨.vmem, 159, rfl⟩
abbrev cc7_stg13_0 : Ref sig .tc := ⟨.vmem, 160, rfl⟩
abbrev cc7_stg14_0 : Ref sig .tc := ⟨.vmem, 161, rfl⟩
abbrev cc7_stg15_0 : Ref sig .tc := ⟨.vmem, 162, rfl⟩
abbrev cc7_stg16_0 : Ref sig .tc := ⟨.vmem, 163, rfl⟩
abbrev cc7_stg17_0 : Ref sig .tc := ⟨.vmem, 164, rfl⟩
abbrev cc7_stg18_0 : Ref sig .tc := ⟨.vmem, 165, rfl⟩
abbrev cc8_stg0_0 : Ref sig .tc := ⟨.vmem, 166, rfl⟩
abbrev cc8_stg1_0 : Ref sig .tc := ⟨.vmem, 167, rfl⟩
abbrev cc8_stg2_0 : Ref sig .tc := ⟨.vmem, 168, rfl⟩
abbrev cc8_stg3_0 : Ref sig .tc := ⟨.vmem, 169, rfl⟩
abbrev cc8_stg4_0 : Ref sig .tc := ⟨.vmem, 170, rfl⟩
abbrev cc8_stg5_0 : Ref sig .tc := ⟨.vmem, 171, rfl⟩
abbrev cc8_stg6_0 : Ref sig .tc := ⟨.vmem, 172, rfl⟩
abbrev cc8_stg7_0 : Ref sig .tc := ⟨.vmem, 173, rfl⟩
abbrev cc8_stg8_0 : Ref sig .tc := ⟨.vmem, 174, rfl⟩
abbrev cc8_stg9_0 : Ref sig .tc := ⟨.vmem, 175, rfl⟩
abbrev cc8_stg10_0 : Ref sig .tc := ⟨.vmem, 176, rfl⟩
abbrev cc8_stg11_0 : Ref sig .tc := ⟨.vmem, 177, rfl⟩
abbrev cc8_stg12_0 : Ref sig .tc := ⟨.vmem, 178, rfl⟩
abbrev cc8_stg13_0 : Ref sig .tc := ⟨.vmem, 179, rfl⟩
abbrev cc8_stg14_0 : Ref sig .tc := ⟨.vmem, 180, rfl⟩
abbrev cc8_stg15_0 : Ref sig .tc := ⟨.vmem, 181, rfl⟩
abbrev cc8_stg16_0 : Ref sig .tc := ⟨.vmem, 182, rfl⟩
abbrev cc8_stg17_0 : Ref sig .tc := ⟨.vmem, 183, rfl⟩
abbrev cc8_stg18_0 : Ref sig .tc := ⟨.vmem, 184, rfl⟩
abbrev cc9_stg0_0 : Ref sig .tc := ⟨.vmem, 185, rfl⟩
abbrev cc9_stg1_0 : Ref sig .tc := ⟨.vmem, 186, rfl⟩
abbrev cc9_stg2_0 : Ref sig .tc := ⟨.vmem, 187, rfl⟩
abbrev cc9_stg3_0 : Ref sig .tc := ⟨.vmem, 188, rfl⟩
abbrev cc9_stg4_0 : Ref sig .tc := ⟨.vmem, 189, rfl⟩
abbrev cc9_stg5_0 : Ref sig .tc := ⟨.vmem, 190, rfl⟩
abbrev cc9_stg6_0 : Ref sig .tc := ⟨.vmem, 191, rfl⟩
abbrev cc9_stg7_0 : Ref sig .tc := ⟨.vmem, 192, rfl⟩
abbrev cc9_stg8_0 : Ref sig .tc := ⟨.vmem, 193, rfl⟩
abbrev cc9_stg9_0 : Ref sig .tc := ⟨.vmem, 194, rfl⟩
abbrev cc9_stg10_0 : Ref sig .tc := ⟨.vmem, 195, rfl⟩
abbrev cc9_stg11_0 : Ref sig .tc := ⟨.vmem, 196, rfl⟩
abbrev cc9_stg12_0 : Ref sig .tc := ⟨.vmem, 197, rfl⟩
abbrev cc9_stg13_0 : Ref sig .tc := ⟨.vmem, 198, rfl⟩
abbrev cc9_stg14_0 : Ref sig .tc := ⟨.vmem, 199, rfl⟩
abbrev cc9_stg15_0 : Ref sig .tc := ⟨.vmem, 200, rfl⟩
abbrev cc9_stg16_0 : Ref sig .tc := ⟨.vmem, 201, rfl⟩
abbrev cc9_stg17_0 : Ref sig .tc := ⟨.vmem, 202, rfl⟩
abbrev cc9_stg18_0 : Ref sig .tc := ⟨.vmem, 203, rfl⟩
abbrev cc10_stg0_0 : Ref sig .tc := ⟨.vmem, 204, rfl⟩
abbrev cc10_stg1_0 : Ref sig .tc := ⟨.vmem, 205, rfl⟩
abbrev cc10_stg2_0 : Ref sig .tc := ⟨.vmem, 206, rfl⟩
abbrev cc10_stg3_0 : Ref sig .tc := ⟨.vmem, 207, rfl⟩
abbrev cc10_stg4_0 : Ref sig .tc := ⟨.vmem, 208, rfl⟩
abbrev cc10_stg5_0 : Ref sig .tc := ⟨.vmem, 209, rfl⟩
abbrev cc10_stg6_0 : Ref sig .tc := ⟨.vmem, 210, rfl⟩
abbrev cc10_stg7_0 : Ref sig .tc := ⟨.vmem, 211, rfl⟩
abbrev cc10_stg8_0 : Ref sig .tc := ⟨.vmem, 212, rfl⟩
abbrev cc10_stg9_0 : Ref sig .tc := ⟨.vmem, 213, rfl⟩
abbrev cc10_stg10_0 : Ref sig .tc := ⟨.vmem, 214, rfl⟩
abbrev cc10_stg11_0 : Ref sig .tc := ⟨.vmem, 215, rfl⟩
abbrev cc10_stg12_0 : Ref sig .tc := ⟨.vmem, 216, rfl⟩
abbrev cc10_stg13_0 : Ref sig .tc := ⟨.vmem, 217, rfl⟩
abbrev cc10_stg14_0 : Ref sig .tc := ⟨.vmem, 218, rfl⟩
abbrev cc10_stg15_0 : Ref sig .tc := ⟨.vmem, 219, rfl⟩
abbrev cc10_stg16_0 : Ref sig .tc := ⟨.vmem, 220, rfl⟩
abbrev cc10_stg17_0 : Ref sig .tc := ⟨.vmem, 221, rfl⟩
abbrev cc10_stg18_0 : Ref sig .tc := ⟨.vmem, 222, rfl⟩
abbrev cc11_stg0_0 : Ref sig .tc := ⟨.vmem, 223, rfl⟩
abbrev cc11_stg1_0 : Ref sig .tc := ⟨.vmem, 224, rfl⟩
abbrev cc11_stg2_0 : Ref sig .tc := ⟨.vmem, 225, rfl⟩
abbrev cc11_stg3_0 : Ref sig .tc := ⟨.vmem, 226, rfl⟩
abbrev cc11_stg4_0 : Ref sig .tc := ⟨.vmem, 227, rfl⟩
abbrev cc11_stg5_0 : Ref sig .tc := ⟨.vmem, 228, rfl⟩
abbrev cc11_stg6_0 : Ref sig .tc := ⟨.vmem, 229, rfl⟩
abbrev cc11_stg7_0 : Ref sig .tc := ⟨.vmem, 230, rfl⟩
abbrev cc11_stg8_0 : Ref sig .tc := ⟨.vmem, 231, rfl⟩
abbrev cc11_stg9_0 : Ref sig .tc := ⟨.vmem, 232, rfl⟩
abbrev cc11_stg10_0 : Ref sig .tc := ⟨.vmem, 233, rfl⟩
abbrev cc11_stg11_0 : Ref sig .tc := ⟨.vmem, 234, rfl⟩
abbrev cc11_stg12_0 : Ref sig .tc := ⟨.vmem, 235, rfl⟩
abbrev cc11_stg13_0 : Ref sig .tc := ⟨.vmem, 236, rfl⟩
abbrev cc11_stg14_0 : Ref sig .tc := ⟨.vmem, 237, rfl⟩
abbrev cc11_stg15_0 : Ref sig .tc := ⟨.vmem, 238, rfl⟩
abbrev cc11_stg16_0 : Ref sig .tc := ⟨.vmem, 239, rfl⟩
abbrev cc11_stg17_0 : Ref sig .tc := ⟨.vmem, 240, rfl⟩
abbrev cc11_stg18_0 : Ref sig .tc := ⟨.vmem, 241, rfl⟩
abbrev cc12_stg0_0 : Ref sig .tc := ⟨.vmem, 242, rfl⟩
abbrev cc12_stg1_0 : Ref sig .tc := ⟨.vmem, 243, rfl⟩
abbrev cc12_stg2_0 : Ref sig .tc := ⟨.vmem, 244, rfl⟩
abbrev cc12_stg3_0 : Ref sig .tc := ⟨.vmem, 245, rfl⟩
abbrev cc12_stg4_0 : Ref sig .tc := ⟨.vmem, 246, rfl⟩
abbrev cc12_stg5_0 : Ref sig .tc := ⟨.vmem, 247, rfl⟩
abbrev cc12_stg6_0 : Ref sig .tc := ⟨.vmem, 248, rfl⟩
abbrev cc12_stg7_0 : Ref sig .tc := ⟨.vmem, 249, rfl⟩
abbrev cc12_stg8_0 : Ref sig .tc := ⟨.vmem, 250, rfl⟩
abbrev cc12_stg9_0 : Ref sig .tc := ⟨.vmem, 251, rfl⟩
abbrev cc12_stg10_0 : Ref sig .tc := ⟨.vmem, 252, rfl⟩
abbrev cc12_stg11_0 : Ref sig .tc := ⟨.vmem, 253, rfl⟩
abbrev cc12_stg12_0 : Ref sig .tc := ⟨.vmem, 254, rfl⟩
abbrev cc12_stg13_0 : Ref sig .tc := ⟨.vmem, 255, rfl⟩
abbrev cc12_stg14_0 : Ref sig .tc := ⟨.vmem, 256, rfl⟩
abbrev cc12_stg15_0 : Ref sig .tc := ⟨.vmem, 257, rfl⟩
abbrev cc12_stg16_0 : Ref sig .tc := ⟨.vmem, 258, rfl⟩
abbrev cc12_stg17_0 : Ref sig .tc := ⟨.vmem, 259, rfl⟩
abbrev cc12_stg18_0 : Ref sig .tc := ⟨.vmem, 260, rfl⟩
abbrev cc13_stg0_0 : Ref sig .tc := ⟨.vmem, 261, rfl⟩
abbrev cc13_stg1_0 : Ref sig .tc := ⟨.vmem, 262, rfl⟩
abbrev cc13_stg2_0 : Ref sig .tc := ⟨.vmem, 263, rfl⟩
abbrev cc13_stg3_0 : Ref sig .tc := ⟨.vmem, 264, rfl⟩
abbrev cc13_stg4_0 : Ref sig .tc := ⟨.vmem, 265, rfl⟩
abbrev cc13_stg5_0 : Ref sig .tc := ⟨.vmem, 266, rfl⟩
abbrev cc13_stg6_0 : Ref sig .tc := ⟨.vmem, 267, rfl⟩
abbrev cc13_stg7_0 : Ref sig .tc := ⟨.vmem, 268, rfl⟩
abbrev cc13_stg8_0 : Ref sig .tc := ⟨.vmem, 269, rfl⟩
abbrev cc13_stg9_0 : Ref sig .tc := ⟨.vmem, 270, rfl⟩
abbrev cc13_stg10_0 : Ref sig .tc := ⟨.vmem, 271, rfl⟩
abbrev cc13_stg11_0 : Ref sig .tc := ⟨.vmem, 272, rfl⟩
abbrev cc13_stg12_0 : Ref sig .tc := ⟨.vmem, 273, rfl⟩
abbrev cc13_stg13_0 : Ref sig .tc := ⟨.vmem, 274, rfl⟩
abbrev cc13_stg14_0 : Ref sig .tc := ⟨.vmem, 275, rfl⟩
abbrev cc13_stg15_0 : Ref sig .tc := ⟨.vmem, 276, rfl⟩
abbrev cc13_stg16_0 : Ref sig .tc := ⟨.vmem, 277, rfl⟩
abbrev cc13_stg17_0 : Ref sig .tc := ⟨.vmem, 278, rfl⟩
abbrev cc13_stg18_0 : Ref sig .tc := ⟨.vmem, 279, rfl⟩
abbrev cc14_stg0_0 : Ref sig .tc := ⟨.vmem, 280, rfl⟩
abbrev cc14_stg1_0 : Ref sig .tc := ⟨.vmem, 281, rfl⟩
abbrev cc14_stg2_0 : Ref sig .tc := ⟨.vmem, 282, rfl⟩
abbrev cc14_stg3_0 : Ref sig .tc := ⟨.vmem, 283, rfl⟩
abbrev cc14_stg4_0 : Ref sig .tc := ⟨.vmem, 284, rfl⟩
abbrev cc14_stg5_0 : Ref sig .tc := ⟨.vmem, 285, rfl⟩
abbrev cc14_stg6_0 : Ref sig .tc := ⟨.vmem, 286, rfl⟩
abbrev cc14_stg7_0 : Ref sig .tc := ⟨.vmem, 287, rfl⟩
abbrev cc14_stg8_0 : Ref sig .tc := ⟨.vmem, 288, rfl⟩
abbrev cc14_stg9_0 : Ref sig .tc := ⟨.vmem, 289, rfl⟩
abbrev cc14_stg10_0 : Ref sig .tc := ⟨.vmem, 290, rfl⟩
abbrev cc14_stg11_0 : Ref sig .tc := ⟨.vmem, 291, rfl⟩
abbrev cc14_stg12_0 : Ref sig .tc := ⟨.vmem, 292, rfl⟩
abbrev cc14_stg13_0 : Ref sig .tc := ⟨.vmem, 293, rfl⟩
abbrev cc14_stg14_0 : Ref sig .tc := ⟨.vmem, 294, rfl⟩
abbrev cc14_stg15_0 : Ref sig .tc := ⟨.vmem, 295, rfl⟩
abbrev cc14_stg16_0 : Ref sig .tc := ⟨.vmem, 296, rfl⟩
abbrev cc14_stg17_0 : Ref sig .tc := ⟨.vmem, 297, rfl⟩
abbrev cc14_stg18_0 : Ref sig .tc := ⟨.vmem, 298, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem17_0 : DmaSem sig := 34
abbrev cc1_sem17_1 : DmaSem sig := 35
abbrev cc1_sem18_0 : DmaSem sig := 36
abbrev cc1_sem18_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem6_0 : DmaSem sig := 49
abbrev cc2_sem7_0 : DmaSem sig := 50
abbrev cc2_sem8_0 : DmaSem sig := 51
abbrev cc2_sem9_0 : DmaSem sig := 52
abbrev cc2_sem10_0 : DmaSem sig := 53
abbrev cc2_sem11_0 : DmaSem sig := 54
abbrev cc2_sem12_0 : DmaSem sig := 55
abbrev cc2_sem13_0 : DmaSem sig := 56
abbrev cc2_sem14_0 : DmaSem sig := 57
abbrev cc2_sem15_0 : DmaSem sig := 58
abbrev cc2_sem16_0 : DmaSem sig := 59
abbrev cc2_sem17_0 : DmaSem sig := 60
abbrev cc2_sem17_1 : DmaSem sig := 61
abbrev cc2_sem18_0 : DmaSem sig := 62
abbrev cc2_sem18_1 : DmaSem sig := 63
abbrev cc3_sem0_0 : DmaSem sig := 64
abbrev cc3_sem0_1 : DmaSem sig := 65
abbrev cc3_sem1_0 : DmaSem sig := 66
abbrev cc3_sem1_1 : DmaSem sig := 67
abbrev cc3_sem2_0 : DmaSem sig := 68
abbrev cc3_sem2_1 : DmaSem sig := 69
abbrev cc3_sem3_0 : DmaSem sig := 70
abbrev cc3_sem3_1 : DmaSem sig := 71
abbrev cc3_sem4_0 : DmaSem sig := 72
abbrev cc3_sem4_1 : DmaSem sig := 73
abbrev cc3_sem5_0 : DmaSem sig := 74
abbrev cc3_sem6_0 : DmaSem sig := 75
abbrev cc3_sem7_0 : DmaSem sig := 76
abbrev cc3_sem8_0 : DmaSem sig := 77
abbrev cc3_sem9_0 : DmaSem sig := 78
abbrev cc3_sem10_0 : DmaSem sig := 79
abbrev cc3_sem11_0 : DmaSem sig := 80
abbrev cc3_sem12_0 : DmaSem sig := 81
abbrev cc3_sem13_0 : DmaSem sig := 82
abbrev cc3_sem14_0 : DmaSem sig := 83
abbrev cc3_sem15_0 : DmaSem sig := 84
abbrev cc3_sem16_0 : DmaSem sig := 85
abbrev cc3_sem17_0 : DmaSem sig := 86
abbrev cc3_sem17_1 : DmaSem sig := 87
abbrev cc3_sem18_0 : DmaSem sig := 88
abbrev cc3_sem18_1 : DmaSem sig := 89
abbrev cc4_sem0_0 : DmaSem sig := 90
abbrev cc4_sem1_0 : DmaSem sig := 91
abbrev cc4_sem2_0 : DmaSem sig := 92
abbrev cc4_sem3_0 : DmaSem sig := 93
abbrev cc4_sem4_0 : DmaSem sig := 94
abbrev cc4_sem5_0 : DmaSem sig := 95
abbrev cc4_sem6_0 : DmaSem sig := 96
abbrev cc4_sem7_0 : DmaSem sig := 97
abbrev cc4_sem8_0 : DmaSem sig := 98
abbrev cc4_sem9_0 : DmaSem sig := 99
abbrev cc4_sem10_0 : DmaSem sig := 100
abbrev cc4_sem11_0 : DmaSem sig := 101
abbrev cc4_sem12_0 : DmaSem sig := 102
abbrev cc4_sem13_0 : DmaSem sig := 103
abbrev cc4_sem14_0 : DmaSem sig := 104
abbrev cc4_sem15_0 : DmaSem sig := 105
abbrev cc4_sem16_0 : DmaSem sig := 106
abbrev cc4_sem17_0 : DmaSem sig := 107
abbrev cc4_sem18_0 : DmaSem sig := 108
abbrev cc5_sem0_0 : DmaSem sig := 109
abbrev cc5_sem1_0 : DmaSem sig := 110
abbrev cc5_sem2_0 : DmaSem sig := 111
abbrev cc5_sem3_0 : DmaSem sig := 112
abbrev cc5_sem4_0 : DmaSem sig := 113
abbrev cc5_sem5_0 : DmaSem sig := 114
abbrev cc5_sem6_0 : DmaSem sig := 115
abbrev cc5_sem7_0 : DmaSem sig := 116
abbrev cc5_sem8_0 : DmaSem sig := 117
abbrev cc5_sem9_0 : DmaSem sig := 118
abbrev cc5_sem10_0 : DmaSem sig := 119
abbrev cc5_sem11_0 : DmaSem sig := 120
abbrev cc5_sem12_0 : DmaSem sig := 121
abbrev cc5_sem13_0 : DmaSem sig := 122
abbrev cc5_sem14_0 : DmaSem sig := 123
abbrev cc5_sem15_0 : DmaSem sig := 124
abbrev cc5_sem16_0 : DmaSem sig := 125
abbrev cc5_sem17_0 : DmaSem sig := 126
abbrev cc5_sem18_0 : DmaSem sig := 127
abbrev cc6_sem0_0 : DmaSem sig := 128
abbrev cc6_sem1_0 : DmaSem sig := 129
abbrev cc6_sem2_0 : DmaSem sig := 130
abbrev cc6_sem3_0 : DmaSem sig := 131
abbrev cc6_sem4_0 : DmaSem sig := 132
abbrev cc6_sem5_0 : DmaSem sig := 133
abbrev cc6_sem6_0 : DmaSem sig := 134
abbrev cc6_sem7_0 : DmaSem sig := 135
abbrev cc6_sem8_0 : DmaSem sig := 136
abbrev cc6_sem9_0 : DmaSem sig := 137
abbrev cc6_sem10_0 : DmaSem sig := 138
abbrev cc6_sem11_0 : DmaSem sig := 139
abbrev cc6_sem12_0 : DmaSem sig := 140
abbrev cc6_sem13_0 : DmaSem sig := 141
abbrev cc6_sem14_0 : DmaSem sig := 142
abbrev cc6_sem15_0 : DmaSem sig := 143
abbrev cc6_sem16_0 : DmaSem sig := 144
abbrev cc6_sem17_0 : DmaSem sig := 145
abbrev cc6_sem18_0 : DmaSem sig := 146
abbrev cc7_sem0_0 : DmaSem sig := 147
abbrev cc7_sem1_0 : DmaSem sig := 148
abbrev cc7_sem2_0 : DmaSem sig := 149
abbrev cc7_sem3_0 : DmaSem sig := 150
abbrev cc7_sem4_0 : DmaSem sig := 151
abbrev cc7_sem5_0 : DmaSem sig := 152
abbrev cc7_sem6_0 : DmaSem sig := 153
abbrev cc7_sem7_0 : DmaSem sig := 154
abbrev cc7_sem8_0 : DmaSem sig := 155
abbrev cc7_sem9_0 : DmaSem sig := 156
abbrev cc7_sem10_0 : DmaSem sig := 157
abbrev cc7_sem11_0 : DmaSem sig := 158
abbrev cc7_sem12_0 : DmaSem sig := 159
abbrev cc7_sem13_0 : DmaSem sig := 160
abbrev cc7_sem14_0 : DmaSem sig := 161
abbrev cc7_sem15_0 : DmaSem sig := 162
abbrev cc7_sem16_0 : DmaSem sig := 163
abbrev cc7_sem17_0 : DmaSem sig := 164
abbrev cc7_sem18_0 : DmaSem sig := 165
abbrev cc8_sem0_0 : DmaSem sig := 166
abbrev cc8_sem1_0 : DmaSem sig := 167
abbrev cc8_sem2_0 : DmaSem sig := 168
abbrev cc8_sem3_0 : DmaSem sig := 169
abbrev cc8_sem4_0 : DmaSem sig := 170
abbrev cc8_sem5_0 : DmaSem sig := 171
abbrev cc8_sem6_0 : DmaSem sig := 172
abbrev cc8_sem7_0 : DmaSem sig := 173
abbrev cc8_sem8_0 : DmaSem sig := 174
abbrev cc8_sem9_0 : DmaSem sig := 175
abbrev cc8_sem10_0 : DmaSem sig := 176
abbrev cc8_sem11_0 : DmaSem sig := 177
abbrev cc8_sem12_0 : DmaSem sig := 178
abbrev cc8_sem13_0 : DmaSem sig := 179
abbrev cc8_sem14_0 : DmaSem sig := 180
abbrev cc8_sem15_0 : DmaSem sig := 181
abbrev cc8_sem16_0 : DmaSem sig := 182
abbrev cc8_sem17_0 : DmaSem sig := 183
abbrev cc8_sem18_0 : DmaSem sig := 184
abbrev cc9_sem0_0 : DmaSem sig := 185
abbrev cc9_sem1_0 : DmaSem sig := 186
abbrev cc9_sem2_0 : DmaSem sig := 187
abbrev cc9_sem3_0 : DmaSem sig := 188
abbrev cc9_sem4_0 : DmaSem sig := 189
abbrev cc9_sem5_0 : DmaSem sig := 190
abbrev cc9_sem6_0 : DmaSem sig := 191
abbrev cc9_sem7_0 : DmaSem sig := 192
abbrev cc9_sem8_0 : DmaSem sig := 193
abbrev cc9_sem9_0 : DmaSem sig := 194
abbrev cc9_sem10_0 : DmaSem sig := 195
abbrev cc9_sem11_0 : DmaSem sig := 196
abbrev cc9_sem12_0 : DmaSem sig := 197
abbrev cc9_sem13_0 : DmaSem sig := 198
abbrev cc9_sem14_0 : DmaSem sig := 199
abbrev cc9_sem15_0 : DmaSem sig := 200
abbrev cc9_sem16_0 : DmaSem sig := 201
abbrev cc9_sem17_0 : DmaSem sig := 202
abbrev cc9_sem18_0 : DmaSem sig := 203
abbrev cc10_sem0_0 : DmaSem sig := 204
abbrev cc10_sem1_0 : DmaSem sig := 205
abbrev cc10_sem2_0 : DmaSem sig := 206
abbrev cc10_sem3_0 : DmaSem sig := 207
abbrev cc10_sem4_0 : DmaSem sig := 208
abbrev cc10_sem5_0 : DmaSem sig := 209
abbrev cc10_sem6_0 : DmaSem sig := 210
abbrev cc10_sem7_0 : DmaSem sig := 211
abbrev cc10_sem8_0 : DmaSem sig := 212
abbrev cc10_sem9_0 : DmaSem sig := 213
abbrev cc10_sem10_0 : DmaSem sig := 214
abbrev cc10_sem11_0 : DmaSem sig := 215
abbrev cc10_sem12_0 : DmaSem sig := 216
abbrev cc10_sem13_0 : DmaSem sig := 217
abbrev cc10_sem14_0 : DmaSem sig := 218
abbrev cc10_sem15_0 : DmaSem sig := 219
abbrev cc10_sem16_0 : DmaSem sig := 220
abbrev cc10_sem17_0 : DmaSem sig := 221
abbrev cc10_sem18_0 : DmaSem sig := 222
abbrev cc11_sem0_0 : DmaSem sig := 223
abbrev cc11_sem1_0 : DmaSem sig := 224
abbrev cc11_sem2_0 : DmaSem sig := 225
abbrev cc11_sem3_0 : DmaSem sig := 226
abbrev cc11_sem4_0 : DmaSem sig := 227
abbrev cc11_sem5_0 : DmaSem sig := 228
abbrev cc11_sem6_0 : DmaSem sig := 229
abbrev cc11_sem7_0 : DmaSem sig := 230
abbrev cc11_sem8_0 : DmaSem sig := 231
abbrev cc11_sem9_0 : DmaSem sig := 232
abbrev cc11_sem10_0 : DmaSem sig := 233
abbrev cc11_sem11_0 : DmaSem sig := 234
abbrev cc11_sem12_0 : DmaSem sig := 235
abbrev cc11_sem13_0 : DmaSem sig := 236
abbrev cc11_sem14_0 : DmaSem sig := 237
abbrev cc11_sem15_0 : DmaSem sig := 238
abbrev cc11_sem16_0 : DmaSem sig := 239
abbrev cc11_sem17_0 : DmaSem sig := 240
abbrev cc11_sem18_0 : DmaSem sig := 241
abbrev cc12_sem0_0 : DmaSem sig := 242
abbrev cc12_sem1_0 : DmaSem sig := 243
abbrev cc12_sem2_0 : DmaSem sig := 244
abbrev cc12_sem3_0 : DmaSem sig := 245
abbrev cc12_sem4_0 : DmaSem sig := 246
abbrev cc12_sem5_0 : DmaSem sig := 247
abbrev cc12_sem6_0 : DmaSem sig := 248
abbrev cc12_sem7_0 : DmaSem sig := 249
abbrev cc12_sem8_0 : DmaSem sig := 250
abbrev cc12_sem9_0 : DmaSem sig := 251
abbrev cc12_sem10_0 : DmaSem sig := 252
abbrev cc12_sem11_0 : DmaSem sig := 253
abbrev cc12_sem12_0 : DmaSem sig := 254
abbrev cc12_sem13_0 : DmaSem sig := 255
abbrev cc12_sem14_0 : DmaSem sig := 256
abbrev cc12_sem15_0 : DmaSem sig := 257
abbrev cc12_sem16_0 : DmaSem sig := 258
abbrev cc12_sem17_0 : DmaSem sig := 259
abbrev cc12_sem18_0 : DmaSem sig := 260
abbrev cc13_sem0_0 : DmaSem sig := 261
abbrev cc13_sem1_0 : DmaSem sig := 262
abbrev cc13_sem2_0 : DmaSem sig := 263
abbrev cc13_sem3_0 : DmaSem sig := 264
abbrev cc13_sem4_0 : DmaSem sig := 265
abbrev cc13_sem5_0 : DmaSem sig := 266
abbrev cc13_sem6_0 : DmaSem sig := 267
abbrev cc13_sem7_0 : DmaSem sig := 268
abbrev cc13_sem8_0 : DmaSem sig := 269
abbrev cc13_sem9_0 : DmaSem sig := 270
abbrev cc13_sem10_0 : DmaSem sig := 271
abbrev cc13_sem11_0 : DmaSem sig := 272
abbrev cc13_sem12_0 : DmaSem sig := 273
abbrev cc13_sem13_0 : DmaSem sig := 274
abbrev cc13_sem14_0 : DmaSem sig := 275
abbrev cc13_sem15_0 : DmaSem sig := 276
abbrev cc13_sem16_0 : DmaSem sig := 277
abbrev cc13_sem17_0 : DmaSem sig := 278
abbrev cc13_sem18_0 : DmaSem sig := 279
abbrev cc14_sem0_0 : DmaSem sig := 280
abbrev cc14_sem1_0 : DmaSem sig := 281
abbrev cc14_sem2_0 : DmaSem sig := 282
abbrev cc14_sem3_0 : DmaSem sig := 283
abbrev cc14_sem4_0 : DmaSem sig := 284
abbrev cc14_sem5_0 : DmaSem sig := 285
abbrev cc14_sem6_0 : DmaSem sig := 286
abbrev cc14_sem7_0 : DmaSem sig := 287
abbrev cc14_sem8_0 : DmaSem sig := 288
abbrev cc14_sem9_0 : DmaSem sig := 289
abbrev cc14_sem10_0 : DmaSem sig := 290
abbrev cc14_sem11_0 : DmaSem sig := 291
abbrev cc14_sem12_0 : DmaSem sig := 292
abbrev cc14_sem13_0 : DmaSem sig := 293
abbrev cc14_sem14_0 : DmaSem sig := 294
abbrev cc14_sem15_0 : DmaSem sig := 295
abbrev cc14_sem16_0 : DmaSem sig := 296
abbrev cc14_sem17_0 : DmaSem sig := 297
abbrev cc14_sem18_0 : DmaSem sig := 298

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x512 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1024x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1024x512 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S512x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S512x512 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x512 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x512 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x512 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S1024x512 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S1024x512 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S512x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x512 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x512 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x512 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x512 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S512x512 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S512x512 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x512 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x512 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S1024x512 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S1024x512 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_18 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1024x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1024x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1024x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S512x512 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x512 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x512 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S512x512 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x512 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512x512 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S512x512 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S512x512 .bf16 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x512 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x512 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x512 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x512 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S1024x512 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![true]

abbrev stage4_18 : Fin 1 → Memref sig .tc .vmem S1024x512 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_18 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S512x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S512x512 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x512 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S512x512 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S512x512 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S512x512 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S512x512 .bf16 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S512x512 .bf16 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x512 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x512 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S1x512 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x512 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S512x512 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![true]

abbrev stage5_18 : Fin 1 → Memref sig .tc .vmem S512x512 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))
abbrev reads5_18 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_16 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_17 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_18 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S256x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S256x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S256x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S512x512 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x512 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x512 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S512x512 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S512x512 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S512x512 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S512x512 .bf16 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S512x512 .bf16 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x512 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S1x512 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 1 → Memref sig .tc .vmem S1x512 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false]

abbrev stage6_16 : Fin 1 → Memref sig .tc .vmem S1x512 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))
abbrev reads6_16 : Fin grid6.rank → Bool := ![false]

abbrev stage6_17 : Fin 1 → Memref sig .tc .vmem S256x512 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![true]

abbrev stage6_18 : Fin 1 → Memref sig .tc .vmem S256x512 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
abbrev reads6_18 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_16 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_17 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_18 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S128x512 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S128x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S128x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S128x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S512x512 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S512x512 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S512x512 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S512x512 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S512x512 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S512x512 .bf16 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S512x512 .bf16 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S512x512 .bf16 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S1x512 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S1x512 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 1 → Memref sig .tc .vmem S1x512 .f32 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false]

abbrev stage7_16 : Fin 1 → Memref sig .tc .vmem S1x512 .f32 := fun | 0 => Memref.whole cc7_stg16_0 | ⟨_ + 1, h⟩ => absurd h (Nat.not_lt.2 (Nat.le_add_left _ _))
abbrev sem7_16 : Fin 1 → DmaSem sig := fun | 0 => cc7_sem16_0 | ⟨_ + 1, h⟩ => absurd h (Nat.not_lt.2 (Nat.le_add_left _ _))
abbrev reads7_16 : Fin grid7.rank → Bool := ![false]

abbrev stage7_17 : Fin 1 → Memref sig .tc .vmem S128x512 .f32 := fun | 0 => Memref.whole cc7_stg17_0 | ⟨_ + 1, h⟩ => absurd h (Nat.not_lt.2 (Nat.le_add_left _ _))
abbrev sem7_17 : Fin 1 → DmaSem sig := fun | 0 => cc7_sem17_0 | ⟨_ + 1, h⟩ => absurd h (Nat.not_lt.2 (Nat.le_add_left _ _))
abbrev reads7_17 : Fin grid7.rank → Bool := ![true]

abbrev stage7_18 : Fin 1 → Memref sig .tc .vmem S128x512 .f32 := fun | 0 => Memref.whole cc7_stg18_0 | ⟨_ + 1, h⟩ => absurd h (Nat.not_lt.2 (Nat.le_add_left _ _))
abbrev sem7_18 : Fin 1 → DmaSem sig := fun | 0 => cc7_sem18_0 | ⟨_ + 1, h⟩ => absurd h (Nat.not_lt.2 (Nat.le_add_left _ _))
abbrev reads7_18 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_15 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_16 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_17 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_18 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S64x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S64x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S64x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S64x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S64x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S512x512 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S512x512 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S512x512 .bf16 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S512x512 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S512x512 .bf16 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S512x512 .bf16 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S512x512 .bf16 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S512x512 .bf16 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S1x512 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 1 → Memref sig .tc .vmem S1x512 .f32 := fun | 0 => Memref.whole cc8_stg14_0 | ⟨_ + 1, h⟩ => absurd h (Nat.not_lt.2 (Nat.le_add_left _ _))
abbrev sem8_14 : Fin 1 → DmaSem sig := fun | 0 => cc8_sem14_0 | ⟨_ + 1, h⟩ => absurd h (Nat.not_lt.2 (Nat.le_add_left _ _))
abbrev reads8_14 : Fin grid8.rank → Bool := ![false]

abbrev stage8_15 : Fin 1 → Memref sig .tc .vmem S1x512 .f32 := fun | 0 => Memref.whole cc8_stg15_0 | ⟨_ + 1, h⟩ => absurd h (Nat.not_lt.2 (Nat.le_add_left _ _))
abbrev sem8_15 : Fin 1 → DmaSem sig := fun | 0 => cc8_sem15_0 | ⟨_ + 1, h⟩ => absurd h (Nat.not_lt.2 (Nat.le_add_left _ _))
abbrev reads8_15 : Fin grid8.rank → Bool := ![false]

abbrev stage8_16 : Fin 1 → Memref sig .tc .vmem S1x512 .f32 := fun | 0 => Memref.whole cc8_stg16_0 | ⟨_ + 1, h⟩ => absurd h (Nat.not_lt.2 (Nat.le_add_left _ _))
abbrev sem8_16 : Fin 1 → DmaSem sig := fun | 0 => cc8_sem16_0 | ⟨_ + 1, h⟩ => absurd h (Nat.not_lt.2 (Nat.le_add_left _ _))
abbrev reads8_16 : Fin grid8.rank → Bool := ![false]

abbrev stage8_17 : Fin 1 → Memref sig .tc .vmem S64x512 .f32 := fun | 0 => Memref.whole cc8_stg17_0 | ⟨_ + 1, h⟩ => absurd h (Nat.not_lt.2 (Nat.le_add_left _ _))
abbrev sem8_17 : Fin 1 → DmaSem sig := fun | 0 => cc8_sem17_0 | ⟨_ + 1, h⟩ => absurd h (Nat.not_lt.2 (Nat.le_add_left _ _))
abbrev reads8_17 : Fin grid8.rank → Bool := ![true]

abbrev stage8_18 : Fin 1 → Memref sig .tc .vmem S64x512 .f32 := fun | 0 => Memref.whole cc8_stg18_0 | ⟨_ + 1, h⟩ => absurd h (Nat.not_lt.2 (Nat.le_add_left _ _))
abbrev sem8_18 : Fin 1 → DmaSem sig := fun | 0 => cc8_sem18_0 | ⟨_ + 1, h⟩ => absurd h (Nat.not_lt.2 (Nat.le_add_left _ _))
abbrev reads8_18 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_15 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_16 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_17 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_18 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S32x512 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S32x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S32x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S32x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S32x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev stage9_5 : Fin 1 → Memref sig .tc .vmem S512x512 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S512x512 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S512x512 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S512x512 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S512x512 .bf16 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S512x512 .bf16 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S512x512 .bf16 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S512x512 .bf16 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S1x512 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

abbrev stage9_14 : Fin 1 → Memref sig .tc .vmem S1x512 .f32 := fun | 0 => Memref.whole cc9_stg14_0 | ⟨_ + 1, h⟩ => absurd h (Nat.not_lt.2 (Nat.le_add_left _ _))
abbrev sem9_14 : Fin 1 → DmaSem sig := fun | 0 => cc9_sem14_0 | ⟨_ + 1, h⟩ => absurd h (Nat.not_lt.2 (Nat.le_add_left _ _))
abbrev reads9_14 : Fin grid9.rank → Bool := ![false]

abbrev stage9_15 : Fin 1 → Memref sig .tc .vmem S1x512 .f32 := fun | 0 => Memref.whole cc9_stg15_0 | ⟨_ + 1, h⟩ => absurd h (Nat.not_lt.2 (Nat.le_add_left _ _))
abbrev sem9_15 : Fin 1 → DmaSem sig := fun | 0 => cc9_sem15_0 | ⟨_ + 1, h⟩ => absurd h (Nat.not_lt.2 (Nat.le_add_left _ _))
abbrev reads9_15 : Fin grid9.rank → Bool := ![false]

abbrev stage9_16 : Fin 1 → Memref sig .tc .vmem S1x512 .f32 := fun | 0 => Memref.whole cc9_stg16_0 | ⟨_ + 1, h⟩ => absurd h (Nat.not_lt.2 (Nat.le_add_left _ _))
abbrev sem9_16 : Fin 1 → DmaSem sig := fun | 0 => cc9_sem16_0 | ⟨_ + 1, h⟩ => absurd h (Nat.not_lt.2 (Nat.le_add_left _ _))
abbrev reads9_16 : Fin grid9.rank → Bool := ![false]

abbrev stage9_17 : Fin 1 → Memref sig .tc .vmem S32x512 .f32 := fun | 0 => Memref.whole cc9_stg17_0 | ⟨_ + 1, h⟩ => absurd h (Nat.not_lt.2 (Nat.le_add_left _ _))
abbrev sem9_17 : Fin 1 → DmaSem sig := fun | 0 => cc9_sem17_0 | ⟨_ + 1, h⟩ => absurd h (Nat.not_lt.2 (Nat.le_add_left _ _))
abbrev reads9_17 : Fin grid9.rank → Bool := ![true]

abbrev stage9_18 : Fin 1 → Memref sig .tc .vmem S32x512 .f32 := fun | 0 => Memref.whole cc9_stg18_0 | ⟨_ + 1, h⟩ => absurd h (Nat.not_lt.2 (Nat.le_add_left _ _))
abbrev sem9_18 : Fin 1 → DmaSem sig := fun | 0 => cc9_sem18_0 | ⟨_ + 1, h⟩ => absurd h (Nat.not_lt.2 (Nat.le_add_left _ _))
abbrev reads9_18 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_12 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_13 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_14 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_15 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_16 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_17 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_18 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S16x512 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S16x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S16x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

abbrev stage10_3 : Fin 1 → Memref sig .tc .vmem S16x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S16x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev stage10_5 : Fin 1 → Memref sig .tc .vmem S512x512 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S512x512 .bf16 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S512x512 .bf16 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S512x512 .bf16 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S512x512 .bf16 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S512x512 .bf16 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S512x512 .bf16 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

abbrev stage10_12 : Fin 1 → Memref sig .tc .vmem S512x512 .bf16 := fun | 0 => Memref.whole cc10_stg12_0 | ⟨_ + 1, h⟩ => absurd h (Nat.not_lt.2 (Nat.le_add_left _ _))
abbrev sem10_12 : Fin 1 → DmaSem sig := fun | 0 => cc10_sem12_0 | ⟨_ + 1, h⟩ => absurd h (Nat.not_lt.2 (Nat.le_add_left _ _))
abbrev reads10_12 : Fin grid10.rank → Bool := ![false]

abbrev stage10_13 : Fin 1 → Memref sig .tc .vmem S1x512 .f32 := fun | 0 => Memref.whole cc10_stg13_0 | ⟨_ + 1, h⟩ => absurd h (Nat.not_lt.2 (Nat.le_add_left _ _))
abbrev sem10_13 : Fin 1 → DmaSem sig := fun | 0 => cc10_sem13_0 | ⟨_ + 1, h⟩ => absurd h (Nat.not_lt.2 (Nat.le_add_left _ _))
abbrev reads10_13 : Fin grid10.rank → Bool := ![false]

abbrev stage10_14 : Fin 1 → Memref sig .tc .vmem S1x512 .f32 := fun | 0 => Memref.whole cc10_stg14_0 | ⟨_ + 1, h⟩ => absurd h (Nat.not_lt.2 (Nat.le_add_left _ _))
abbrev sem10_14 : Fin 1 → DmaSem sig := fun | 0 => cc10_sem14_0 | ⟨_ + 1, h⟩ => absurd h (Nat.not_lt.2 (Nat.le_add_left _ _))
abbrev reads10_14 : Fin grid10.rank → Bool := ![false]

abbrev stage10_15 : Fin 1 → Memref sig .tc .vmem S1x512 .f32 := fun | 0 => Memref.whole cc10_stg15_0 | ⟨_ + 1, h⟩ => absurd h (Nat.not_lt.2 (Nat.le_add_left _ _))
abbrev sem10_15 : Fin 1 → DmaSem sig := fun | 0 => cc10_sem15_0 | ⟨_ + 1, h⟩ => absurd h (Nat.not_lt.2 (Nat.le_add_left _ _))
abbrev reads10_15 : Fin grid10.rank → Bool := ![false]

abbrev stage10_16 : Fin 1 → Memref sig .tc .vmem S1x512 .f32 := fun | 0 => Memref.whole cc10_stg16_0 | ⟨_ + 1, h⟩ => absurd h (Nat.not_lt.2 (Nat.le_add_left _ _))
abbrev sem10_16 : Fin 1 → DmaSem sig := fun | 0 => cc10_sem16_0 | ⟨_ + 1, h⟩ => absurd h (Nat.not_lt.2 (Nat.le_add_left _ _))
abbrev reads10_16 : Fin grid10.rank → Bool := ![false]

abbrev stage10_17 : Fin 1 → Memref sig .tc .vmem S16x512 .f32 := fun | 0 => Memref.whole cc10_stg17_0 | ⟨_ + 1, h⟩ => absurd h (Nat.not_lt.2 (Nat.le_add_left _ _))
abbrev sem10_17 : Fin 1 → DmaSem sig := fun | 0 => cc10_sem17_0 | ⟨_ + 1, h⟩ => absurd h (Nat.not_lt.2 (Nat.le_add_left _ _))
abbrev reads10_17 : Fin grid10.rank → Bool := ![true]

abbrev stage10_18 : Fin 1 → Memref sig .tc .vmem S16x512 .f32 := fun | 0 => Memref.whole cc10_stg18_0 | ⟨_ + 1, h⟩ => absurd h (Nat.not_lt.2 (Nat.le_add_left _ _))
abbrev sem10_18 : Fin 1 → DmaSem sig := fun | 0 => cc10_sem18_0 | ⟨_ + 1, h⟩ => absurd h (Nat.not_lt.2 (Nat.le_add_left _ _))
abbrev reads10_18 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_11 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_12 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_13 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_14 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_15 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_16 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_17 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_18 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S8x512 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S8x512 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S8x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev stage11_3 : Fin 1 → Memref sig .tc .vmem S8x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev stage11_4 : Fin 1 → Memref sig .tc .vmem S8x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev stage11_5 : Fin 1 → Memref sig .tc .vmem S512x512 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S512x512 .bf16 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S512x512 .bf16 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S512x512 .bf16 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S512x512 .bf16 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 1 → Memref sig .tc .vmem S512x512 .bf16 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev stage11_11 : Fin 1 → Memref sig .tc .vmem S512x512 .bf16 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

abbrev stage11_12 : Fin 1 → Memref sig .tc .vmem S512x512 .bf16 := fun | 0 => Memref.whole cc11_stg12_0 | ⟨_ + 1, h⟩ => absurd h (Nat.not_lt.2 (Nat.le_add_left _ _))
abbrev sem11_12 : Fin 1 → DmaSem sig := fun | 0 => cc11_sem12_0 | ⟨_ + 1, h⟩ => absurd h (Nat.not_lt.2 (Nat.le_add_left _ _))
abbrev reads11_12 : Fin grid11.rank → Bool := ![false]

abbrev stage11_13 : Fin 1 → Memref sig .tc .vmem S1x512 .f32 := fun | 0 => Memref.whole cc11_stg13_0 | ⟨_ + 1, h⟩ => absurd h (Nat.not_lt.2 (Nat.le_add_left _ _))
abbrev sem11_13 : Fin 1 → DmaSem sig := fun | 0 => cc11_sem13_0 | ⟨_ + 1, h⟩ => absurd h (Nat.not_lt.2 (Nat.le_add_left _ _))
abbrev reads11_13 : Fin grid11.rank → Bool := ![false]

abbrev stage11_14 : Fin 1 → Memref sig .tc .vmem S1x512 .f32 := fun | 0 => Memref.whole cc11_stg14_0 | ⟨_ + 1, h⟩ => absurd h (Nat.not_lt.2 (Nat.le_add_left _ _))
abbrev sem11_14 : Fin 1 → DmaSem sig := fun | 0 => cc11_sem14_0 | ⟨_ + 1, h⟩ => absurd h (Nat.not_lt.2 (Nat.le_add_left _ _))
abbrev reads11_14 : Fin grid11.rank → Bool := ![false]

abbrev stage11_15 : Fin 1 → Memref sig .tc .vmem S1x512 .f32 := fun | 0 => Memref.whole cc11_stg15_0 | ⟨_ + 1, h⟩ => absurd h (Nat.not_lt.2 (Nat.le_add_left _ _))
abbrev sem11_15 : Fin 1 → DmaSem sig := fun | 0 => cc11_sem15_0 | ⟨_ + 1, h⟩ => absurd h (Nat.not_lt.2 (Nat.le_add_left _ _))
abbrev reads11_15 : Fin grid11.rank → Bool := ![false]

abbrev stage11_16 : Fin 1 → Memref sig .tc .vmem S1x512 .f32 := fun | 0 => Memref.whole cc11_stg16_0 | ⟨_ + 1, h⟩ => absurd h (Nat.not_lt.2 (Nat.le_add_left _ _))
abbrev sem11_16 : Fin 1 → DmaSem sig := fun | 0 => cc11_sem16_0 | ⟨_ + 1, h⟩ => absurd h (Nat.not_lt.2 (Nat.le_add_left _ _))
abbrev reads11_16 : Fin grid11.rank → Bool := ![false]

abbrev stage11_17 : Fin 1 → Memref sig .tc .vmem S8x512 .f32 := fun | 0 => Memref.whole cc11_stg17_0 | ⟨_ + 1, h⟩ => absurd h (Nat.not_lt.2 (Nat.le_add_left _ _))
abbrev sem11_17 : Fin 1 → DmaSem sig := fun | 0 => cc11_sem17_0 | ⟨_ + 1, h⟩ => absurd h (Nat.not_lt.2 (Nat.le_add_left _ _))
abbrev reads11_17 : Fin grid11.rank → Bool := ![true]

abbrev stage11_18 : Fin 1 → Memref sig .tc .vmem S8x512 .f32 := fun | 0 => Memref.whole cc11_stg18_0 | ⟨_ + 1, h⟩ => absurd h (Nat.not_lt.2 (Nat.le_add_left _ _))
abbrev sem11_18 : Fin 1 → DmaSem sig := fun | 0 => cc11_sem18_0 | ⟨_ + 1, h⟩ => absurd h (Nat.not_lt.2 (Nat.le_add_left _ _))
abbrev reads11_18 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_11 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_12 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_13 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_14 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_15 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_16 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_17 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_18 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S4x512 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S4x512 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev stage12_2 : Fin 1 → Memref sig .tc .vmem S4x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true]

abbrev stage12_3 : Fin 1 → Memref sig .tc .vmem S4x512 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev stage12_4 : Fin 1 → Memref sig .tc .vmem S4x512 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![true]

abbrev stage12_5 : Fin 1 → Memref sig .tc .vmem S512x512 .bf16 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S512x512 .bf16 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S512x512 .bf16 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S512x512 .bf16 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S512x512 .bf16 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S512x512 .bf16 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 1 → Memref sig .tc .vmem S512x512 .bf16 := fun | 0 => Memref.whole cc12_stg11_0 | ⟨_ + 1, h⟩ => absurd h (Nat.not_lt.2 (Nat.le_add_left _ _))
abbrev sem12_11 : Fin 1 → DmaSem sig := fun | 0 => cc12_sem11_0 | ⟨_ + 1, h⟩ => absurd h (Nat.not_lt.2 (Nat.le_add_left _ _))
abbrev reads12_11 : Fin grid12.rank → Bool := ![false]

abbrev stage12_12 : Fin 1 → Memref sig .tc .vmem S512x512 .bf16 := fun | 0 => Memref.whole cc12_stg12_0 | ⟨_ + 1, h⟩ => absurd h (Nat.not_lt.2 (Nat.le_add_left _ _))
abbrev sem12_12 : Fin 1 → DmaSem sig := fun | 0 => cc12_sem12_0 | ⟨_ + 1, h⟩ => absurd h (Nat.not_lt.2 (Nat.le_add_left _ _))
abbrev reads12_12 : Fin grid12.rank → Bool := ![false]

abbrev stage12_13 : Fin 1 → Memref sig .tc .vmem S1x512 .f32 := fun | 0 => Memref.whole cc12_stg13_0 | ⟨_ + 1, h⟩ => absurd h (Nat.not_lt.2 (Nat.le_add_left _ _))
abbrev sem12_13 : Fin 1 → DmaSem sig := fun | 0 => cc12_sem13_0 | ⟨_ + 1, h⟩ => absurd h (Nat.not_lt.2 (Nat.le_add_left _ _))
abbrev reads12_13 : Fin grid12.rank → Bool := ![false]

abbrev stage12_14 : Fin 1 → Memref sig .tc .vmem S1x512 .f32 := fun | 0 => Memref.whole cc12_stg14_0 | ⟨_ + 1, h⟩ => absurd h (Nat.not_lt.2 (Nat.le_add_left _ _))
abbrev sem12_14 : Fin 1 → DmaSem sig := fun | 0 => cc12_sem14_0 | ⟨_ + 1, h⟩ => absurd h (Nat.not_lt.2 (Nat.le_add_left _ _))
abbrev reads12_14 : Fin grid12.rank → Bool := ![false]

abbrev stage12_15 : Fin 1 → Memref sig .tc .vmem S1x512 .f32 := fun | 0 => Memref.whole cc12_stg15_0 | ⟨_ + 1, h⟩ => absurd h (Nat.not_lt.2 (Nat.le_add_left _ _))
abbrev sem12_15 : Fin 1 → DmaSem sig := fun | 0 => cc12_sem15_0 | ⟨_ + 1, h⟩ => absurd h (Nat.not_lt.2 (Nat.le_add_left _ _))
abbrev reads12_15 : Fin grid12.rank → Bool := ![false]

abbrev stage12_16 : Fin 1 → Memref sig .tc .vmem S1x512 .f32 := fun | 0 => Memref.whole cc12_stg16_0 | ⟨_ + 1, h⟩ => absurd h (Nat.not_lt.2 (Nat.le_add_left _ _))
abbrev sem12_16 : Fin 1 → DmaSem sig := fun | 0 => cc12_sem16_0 | ⟨_ + 1, h⟩ => absurd h (Nat.not_lt.2 (Nat.le_add_left _ _))
abbrev reads12_16 : Fin grid12.rank → Bool := ![false]

abbrev stage12_17 : Fin 1 → Memref sig .tc .vmem S4x512 .f32 := fun | 0 => Memref.whole cc12_stg17_0 | ⟨_ + 1, h⟩ => absurd h (Nat.not_lt.2 (Nat.le_add_left _ _))
abbrev sem12_17 : Fin 1 → DmaSem sig := fun | 0 => cc12_sem17_0 | ⟨_ + 1, h⟩ => absurd h (Nat.not_lt.2 (Nat.le_add_left _ _))
abbrev reads12_17 : Fin grid12.rank → Bool := ![true]

abbrev stage12_18 : Fin 1 → Memref sig .tc .vmem S4x512 .f32 := fun | 0 => Memref.whole cc12_stg18_0 | ⟨_ + 1, h⟩ => absurd h (Nat.not_lt.2 (Nat.le_add_left _ _))
abbrev sem12_18 : Fin 1 → DmaSem sig := fun | 0 => cc12_sem18_0 | ⟨_ + 1, h⟩ => absurd h (Nat.not_lt.2 (Nat.le_add_left _ _))
abbrev reads12_18 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_10 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_11 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_12 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_13 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_14 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_15 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_16 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_17 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_18 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S2x512 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S2x512 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true]

abbrev stage13_2 : Fin 1 → Memref sig .tc .vmem S2x512 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true]

abbrev stage13_3 : Fin 1 → Memref sig .tc .vmem S2x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![true]

abbrev stage13_4 : Fin 1 → Memref sig .tc .vmem S2x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![true]

abbrev stage13_5 : Fin 1 → Memref sig .tc .vmem S512x512 .bf16 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S512x512 .bf16 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S512x512 .bf16 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev stage13_8 : Fin 1 → Memref sig .tc .vmem S512x512 .bf16 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S512x512 .bf16 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev stage13_10 : Fin 1 → Memref sig .tc .vmem S512x512 .bf16 := fun | 0 => Memref.whole cc13_stg10_0 | ⟨_ + 1, h⟩ => absurd h (Nat.not_lt.2 (Nat.le_add_left _ _))
abbrev sem13_10 : Fin 1 → DmaSem sig := fun | 0 => cc13_sem10_0 | ⟨_ + 1, h⟩ => absurd h (Nat.not_lt.2 (Nat.le_add_left _ _))
abbrev reads13_10 : Fin grid13.rank → Bool := ![false]

abbrev stage13_11 : Fin 1 → Memref sig .tc .vmem S512x512 .bf16 := fun | 0 => Memref.whole cc13_stg11_0 | ⟨_ + 1, h⟩ => absurd h (Nat.not_lt.2 (Nat.le_add_left _ _))
abbrev sem13_11 : Fin 1 → DmaSem sig := fun | 0 => cc13_sem11_0 | ⟨_ + 1, h⟩ => absurd h (Nat.not_lt.2 (Nat.le_add_left _ _))
abbrev reads13_11 : Fin grid13.rank → Bool := ![false]

abbrev stage13_12 : Fin 1 → Memref sig .tc .vmem S512x512 .bf16 := fun | 0 => Memref.whole cc13_stg12_0 | ⟨_ + 1, h⟩ => absurd h (Nat.not_lt.2 (Nat.le_add_left _ _))
abbrev sem13_12 : Fin 1 → DmaSem sig := fun | 0 => cc13_sem12_0 | ⟨_ + 1, h⟩ => absurd h (Nat.not_lt.2 (Nat.le_add_left _ _))
abbrev reads13_12 : Fin grid13.rank → Bool := ![false]

abbrev stage13_13 : Fin 1 → Memref sig .tc .vmem S1x512 .f32 := fun | 0 => Memref.whole cc13_stg13_0 | ⟨_ + 1, h⟩ => absurd h (Nat.not_lt.2 (Nat.le_add_left _ _))
abbrev sem13_13 : Fin 1 → DmaSem sig := fun | 0 => cc13_sem13_0 | ⟨_ + 1, h⟩ => absurd h (Nat.not_lt.2 (Nat.le_add_left _ _))
abbrev reads13_13 : Fin grid13.rank → Bool := ![false]

abbrev stage13_14 : Fin 1 → Memref sig .tc .vmem S1x512 .f32 := fun | 0 => Memref.whole cc13_stg14_0 | ⟨_ + 1, h⟩ => absurd h (Nat.not_lt.2 (Nat.le_add_left _ _))
abbrev sem13_14 : Fin 1 → DmaSem sig := fun | 0 => cc13_sem14_0 | ⟨_ + 1, h⟩ => absurd h (Nat.not_lt.2 (Nat.le_add_left _ _))
abbrev reads13_14 : Fin grid13.rank → Bool := ![false]

abbrev stage13_15 : Fin 1 → Memref sig .tc .vmem S1x512 .f32 := fun | 0 => Memref.whole cc13_stg15_0 | ⟨_ + 1, h⟩ => absurd h (Nat.not_lt.2 (Nat.le_add_left _ _))
abbrev sem13_15 : Fin 1 → DmaSem sig := fun | 0 => cc13_sem15_0 | ⟨_ + 1, h⟩ => absurd h (Nat.not_lt.2 (Nat.le_add_left _ _))
abbrev reads13_15 : Fin grid13.rank → Bool := ![false]

abbrev stage13_16 : Fin 1 → Memref sig .tc .vmem S1x512 .f32 := fun | 0 => Memref.whole cc13_stg16_0 | ⟨_ + 1, h⟩ => absurd h (Nat.not_lt.2 (Nat.le_add_left _ _))
abbrev sem13_16 : Fin 1 → DmaSem sig := fun | 0 => cc13_sem16_0 | ⟨_ + 1, h⟩ => absurd h (Nat.not_lt.2 (Nat.le_add_left _ _))
abbrev reads13_16 : Fin grid13.rank → Bool := ![false]

abbrev stage13_17 : Fin 1 → Memref sig .tc .vmem S2x512 .f32 := fun | 0 => Memref.whole cc13_stg17_0 | ⟨_ + 1, h⟩ => absurd h (Nat.not_lt.2 (Nat.le_add_left _ _))
abbrev sem13_17 : Fin 1 → DmaSem sig := fun | 0 => cc13_sem17_0 | ⟨_ + 1, h⟩ => absurd h (Nat.not_lt.2 (Nat.le_add_left _ _))
abbrev reads13_17 : Fin grid13.rank → Bool := ![true]

abbrev stage13_18 : Fin 1 → Memref sig .tc .vmem S2x512 .f32 := fun | 0 => Memref.whole cc13_stg18_0 | ⟨_ + 1, h⟩ => absurd h (Nat.not_lt.2 (Nat.le_add_left _ _))
abbrev sem13_18 : Fin 1 → DmaSem sig := fun | 0 => cc13_sem18_0 | ⟨_ + 1, h⟩ => absurd h (Nat.not_lt.2 (Nat.le_add_left _ _))
abbrev reads13_18 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_9 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_10 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_11 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_12 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_13 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_14 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_15 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_16 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_17 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_18 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S1x512 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S1x512 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S1x512 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![true]

abbrev stage14_3 : Fin 1 → Memref sig .tc .vmem S1x512 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![true]

abbrev stage14_4 : Fin 1 → Memref sig .tc .vmem S1x512 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![true]

abbrev stage14_5 : Fin 1 → Memref sig .tc .vmem S512x512 .bf16 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S512x512 .bf16 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S512x512 .bf16 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S512x512 .bf16 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev stage14_9 : Fin 1 → Memref sig .tc .vmem S512x512 .bf16 := fun | 0 => Memref.whole cc14_stg9_0 | ⟨_ + 1, h⟩ => absurd h (Nat.not_lt.2 (Nat.le_add_left _ _))
abbrev sem14_9 : Fin 1 → DmaSem sig := fun | 0 => cc14_sem9_0 | ⟨_ + 1, h⟩ => absurd h (Nat.not_lt.2 (Nat.le_add_left _ _))
abbrev reads14_9 : Fin grid14.rank → Bool := ![false]

abbrev stage14_10 : Fin 1 → Memref sig .tc .vmem S512x512 .bf16 := fun | 0 => Memref.whole cc14_stg10_0 | ⟨_ + 1, h⟩ => absurd h (Nat.not_lt.2 (Nat.le_add_left _ _))
abbrev sem14_10 : Fin 1 → DmaSem sig := fun | 0 => cc14_sem10_0 | ⟨_ + 1, h⟩ => absurd h (Nat.not_lt.2 (Nat.le_add_left _ _))
abbrev reads14_10 : Fin grid14.rank → Bool := ![false]

abbrev stage14_11 : Fin 1 → Memref sig .tc .vmem S512x512 .bf16 := fun | 0 => Memref.whole cc14_stg11_0 | ⟨_ + 1, h⟩ => absurd h (Nat.not_lt.2 (Nat.le_add_left _ _))
abbrev sem14_11 : Fin 1 → DmaSem sig := fun | 0 => cc14_sem11_0 | ⟨_ + 1, h⟩ => absurd h (Nat.not_lt.2 (Nat.le_add_left _ _))
abbrev reads14_11 : Fin grid14.rank → Bool := ![false]

abbrev stage14_12 : Fin 1 → Memref sig .tc .vmem S512x512 .bf16 := fun | 0 => Memref.whole cc14_stg12_0 | ⟨_ + 1, h⟩ => absurd h (Nat.not_lt.2 (Nat.le_add_left _ _))
abbrev sem14_12 : Fin 1 → DmaSem sig := fun | 0 => cc14_sem12_0 | ⟨_ + 1, h⟩ => absurd h (Nat.not_lt.2 (Nat.le_add_left _ _))
abbrev reads14_12 : Fin grid14.rank → Bool := ![false]

abbrev stage14_13 : Fin 1 → Memref sig .tc .vmem S1x512 .f32 := fun | 0 => Memref.whole cc14_stg13_0 | ⟨_ + 1, h⟩ => absurd h (Nat.not_lt.2 (Nat.le_add_left _ _))
abbrev sem14_13 : Fin 1 → DmaSem sig := fun | 0 => cc14_sem13_0 | ⟨_ + 1, h⟩ => absurd h (Nat.not_lt.2 (Nat.le_add_left _ _))
abbrev reads14_13 : Fin grid14.rank → Bool := ![false]

abbrev stage14_14 : Fin 1 → Memref sig .tc .vmem S1x512 .f32 := fun | 0 => Memref.whole cc14_stg14_0 | ⟨_ + 1, h⟩ => absurd h (Nat.not_lt.2 (Nat.le_add_left _ _))
abbrev sem14_14 : Fin 1 → DmaSem sig := fun | 0 => cc14_sem14_0 | ⟨_ + 1, h⟩ => absurd h (Nat.not_lt.2 (Nat.le_add_left _ _))
abbrev reads14_14 : Fin grid14.rank → Bool := ![false]

abbrev stage14_15 : Fin 1 → Memref sig .tc .vmem S1x512 .f32 := fun | 0 => Memref.whole cc14_stg15_0 | ⟨_ + 1, h⟩ => absurd h (Nat.not_lt.2 (Nat.le_add_left _ _))
abbrev sem14_15 : Fin 1 → DmaSem sig := fun | 0 => cc14_sem15_0 | ⟨_ + 1, h⟩ => absurd h (Nat.not_lt.2 (Nat.le_add_left _ _))
abbrev reads14_15 : Fin grid14.rank → Bool := ![false]

abbrev stage14_16 : Fin 1 → Memref sig .tc .vmem S1x512 .f32 := fun | 0 => Memref.whole cc14_stg16_0 | ⟨_ + 1, h⟩ => absurd h (Nat.not_lt.2 (Nat.le_add_left _ _))
abbrev sem14_16 : Fin 1 → DmaSem sig := fun | 0 => cc14_sem16_0 | ⟨_ + 1, h⟩ => absurd h (Nat.not_lt.2 (Nat.le_add_left _ _))
abbrev reads14_16 : Fin grid14.rank → Bool := ![false]

abbrev stage14_17 : Fin 1 → Memref sig .tc .vmem S1x512 .f32 := fun | 0 => Memref.whole cc14_stg17_0 | ⟨_ + 1, h⟩ => absurd h (Nat.not_lt.2 (Nat.le_add_left _ _))
abbrev sem14_17 : Fin 1 → DmaSem sig := fun | 0 => cc14_sem17_0 | ⟨_ + 1, h⟩ => absurd h (Nat.not_lt.2 (Nat.le_add_left _ _))
abbrev reads14_17 : Fin grid14.rank → Bool := ![true]

abbrev stage14_18 : Fin 1 → Memref sig .tc .vmem S1x512 .f32 := fun | 0 => Memref.whole cc14_stg18_0 | ⟨_ + 1, h⟩ => absurd h (Nat.not_lt.2 (Nat.le_add_left _ _))
abbrev sem14_18 : Fin 1 → DmaSem sig := fun | 0 => cc14_sem18_0 | ⟨_ + 1, h⟩ => absurd h (Nat.not_lt.2 (Nat.le_add_left _ _))
abbrev reads14_18 : Fin grid14.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .bf16 = 32 ∨ (Rect.block (s := S512x512) S512x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .bf16 = 32 ∨ (Rect.block (s := S512x512) S512x512.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .bf16 = 32 ∨ (Rect.block (s := S512x512) S512x512.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S512x512.size a
  hwx1_10 : ∀ i : grid1.Coords, EltTy.bits .bf16 = 32 ∨ (Rect.block (s := S512x512) S512x512.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x512.size a ≤ S512x512.size a
  hwx1_11 : ∀ i : grid1.Coords, EltTy.bits .bf16 = 32 ∨ (Rect.block (s := S512x512) S512x512.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512x512.size a ≤ S512x512.size a
  hwx1_12 : ∀ i : grid1.Coords, EltTy.bits .bf16 = 32 ∨ (Rect.block (s := S512x512) S512x512.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x512.size a ≤ S1x512.size a
  hwx1_14 : ∀ i : grid1.Coords, EltTy.bits .f32 = 32 ∨ (Rect.block (s := S1x512) S1x512.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x512.size a ≤ S1x512.size a
  hwx1_15 : ∀ i : grid1.Coords, EltTy.bits .f32 = 32 ∨ (Rect.block (s := S1x512) S1x512.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x512.size a ≤ S1x512.size a
  hwx1_16 : ∀ i : grid1.Coords, EltTy.bits .f32 = 32 ∨ (Rect.block (s := S1x512) S1x512.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1024x512.size a ≤ S8192x512.size a
  hwx1_17 : ∀ i : grid1.Coords, EltTy.bits .f32 = 32 ∨ (Rect.block (s := S8192x512) S1024x512.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S1024x512.size a ≤ S8192x512.size a
  hwx1_18 : ∀ i : grid1.Coords, EltTy.bits .f32 = 32 ∨ (Rect.block (s := S8192x512) S1024x512.size (cc1_transform_18 i) (hinb1_18 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x512.size a
  hwx2_1 : ∀ i : grid2.Coords, EltTy.bits .f32 = 32 ∨ (Rect.block (s := S4096x512) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .f32 = 32 ∨ (Rect.block (s := S4096x512) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x512.size a
  hwx2_3 : ∀ i : grid2.Coords, EltTy.bits .f32 = 32 ∨ (Rect.block (s := S4096x512) S1024x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S4096x512.size a
  hwx2_4 : ∀ i : grid2.Coords, EltTy.bits .f32 = 32 ∨ (Rect.block (s := S4096x512) S1024x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .bf16 = 32 ∨ (Rect.block (s := S512x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x512.size a
  hwx2_6 : ∀ i : grid2.Coords, EltTy.bits .bf16 = 32 ∨ (Rect.block (s := S512x512) S512x512.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S512x512.size a
  hwx2_7 : ∀ i : grid2.Coords, EltTy.bits .bf16 = 32 ∨ (Rect.block (s := S512x512) S512x512.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x512.size a ≤ S512x512.size a
  hwx2_8 : ∀ i : grid2.Coords, EltTy.bits .bf16 = 32 ∨ (Rect.block (s := S512x512) S512x512.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S512x512.size a
  hwx2_9 : ∀ i : grid2.Coords, EltTy.bits .bf16 = 32 ∨ (Rect.block (s := S512x512) S512x512.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x512.size a ≤ S512x512.size a
  hwx2_10 : ∀ i : grid2.Coords, EltTy.bits .bf16 = 32 ∨ (Rect.block (s := S512x512) S512x512.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S512x512.size a ≤ S512x512.size a
  hwx2_11 : ∀ i : grid2.Coords, EltTy.bits .bf16 = 32 ∨ (Rect.block (s := S512x512) S512x512.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x512.size a ≤ S512x512.size a
  hwx2_12 : ∀ i : grid2.Coords, EltTy.bits .bf16 = 32 ∨ (Rect.block (s := S512x512) S512x512.size (cc2_transform_12 i) (hinb2_12 i)).WholeWords (EltTy.packing .bf16)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x512.size a ≤ S1x512.size a
  hwx2_13 : ∀ i : grid2.Coords, EltTy.bits .f32 = 32 ∨ (Rect.block (s := S1x512) S1x512.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x512.size a ≤ S1x512.size a
  hwx2_14 : ∀ i : grid2.Coords, EltTy.bits .f32 = 32 ∨ (Rect.block (s := S1x512) S1x512.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x512.size a ≤ S1x512.size a
  hwx2_15 : ∀ i : grid2.Coords, EltTy.bits .f32 = 32 ∨ (Rect.block (s := S1x512) S1x512.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x512.size a ≤ S1x512.size a
  hwx2_16 : ∀ i : grid2.Coords, EltTy.bits .f32 = 32 ∨ (Rect.block (s := S1x512) S1x512.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S1024x512.size a ≤ S4096x512.size a
  hwx2_17 : ∀ i : grid2.Coords, EltTy.bits .f32 = 32 ∨ (Rect.block (s := S4096x512) S1024x512.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S1024x512.size a ≤ S4096x512.size a
  hwx2_18 : ∀ i : grid2.Coords, EltTy.bits .f32 = 32 ∨ (Rect.block (s := S4096x512) S1024x512.size (cc2_transform_18 i) (hinb2_18 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S2048x512.size a
  hwx3_0 : ∀ i : grid3.Coords, EltTy.bits .f32 = 32 ∨ (Rect.block (s := S2048x512) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S2048x512.size a
  hwx3_1 : ∀ i : grid3.Coords, EltTy.bits .f32 = 32 ∨ (Rect.block (s := S2048x512) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S2048x512.size a
  hwx3_2 : ∀ i : grid3.Coords, EltTy.bits .f32 = 32 ∨ (Rect.block (s := S2048x512) S1024x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S2048x512.size a
  hwx3_3 : ∀ i : grid3.Coords, EltTy.bits .f32 = 32 ∨ (Rect.block (s := S2048x512) S1024x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S2048x512.size a
  hwx3_4 : ∀ i : grid3.Coords, EltTy.bits .f32 = 32 ∨ (Rect.block (s := S2048x512) S1024x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .bf16 = 32 ∨ (Rect.block (s := S512x512) S512x512.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x512.size a ≤ S512x512.size a
  hwx3_6 : ∀ i : grid3.Coords, EltTy.bits .bf16 = 32 ∨ (Rect.block (s := S512x512) S512x512.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x512.size a ≤ S512x512.size a
  hwx3_7 : ∀ i : grid3.Coords, EltTy.bits .bf16 = 32 ∨ (Rect.block (s := S512x512) S512x512.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x512.size a ≤ S512x512.size a
  hwx3_8 : ∀ i : grid3.Coords, EltTy.bits .bf16 = 32 ∨ (Rect.block (s := S512x512) S512x512.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x512.size a ≤ S512x512.size a
  hwx3_9 : ∀ i : grid3.Coords, EltTy.bits .bf16 = 32 ∨ (Rect.block (s := S512x512) S512x512.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S512x512.size a ≤ S512x512.size a
  hwx3_10 : ∀ i : grid3.Coords, EltTy.bits .bf16 = 32 ∨ (Rect.block (s := S512x512) S512x512.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S512x512.size a ≤ S512x512.size a
  hwx3_11 : ∀ i : grid3.Coords, EltTy.bits .bf16 = 32 ∨ (Rect.block (s := S512x512) S512x512.size (cc3_transform_11 i) (hinb3_11 i)).WholeWords (EltTy.packing .bf16)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S512x512.size a ≤ S512x512.size a
  hwx3_12 : ∀ i : grid3.Coords, EltTy.bits .bf16 = 32 ∨ (Rect.block (s := S512x512) S512x512.size (cc3_transform_12 i) (hinb3_12 i)).WholeWords (EltTy.packing .bf16)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x512.size a ≤ S1x512.size a
  hwx3_13 : ∀ i : grid3.Coords, EltTy.bits .f32 = 32 ∨ (Rect.block (s := S1x512) S1x512.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x512.size a ≤ S1x512.size a
  hwx3_14 : ∀ i : grid3.Coords, EltTy.bits .f32 = 32 ∨ (Rect.block (s := S1x512) S1x512.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x512.size a ≤ S1x512.size a
  hwx3_15 : ∀ i : grid3.Coords, EltTy.bits .f32 = 32 ∨ (Rect.block (s := S1x512) S1x512.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x512.size a ≤ S1x512.size a
  hwx3_16 : ∀ i : grid3.Coords, EltTy.bits .f32 = 32 ∨ (Rect.block (s := S1x512) S1x512.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S1024x512.size a ≤ S2048x512.size a
  hwx3_17 : ∀ i : grid3.Coords, EltTy.bits .f32 = 32 ∨ (Rect.block (s := S2048x512) S1024x512.size (cc3_transform_17 i) (hinb3_17 i)).WholeWords (EltTy.packing .f32)
  hstage3_18 : ∀ j, (stage3_18 j).IsWhole
  nbuf3_18 : grid3.bufCount reads3_18 false = 2
  hreads3_18 : ∀ i i' : grid3.Coords, (∀ a, reads3_18 a = true → i a = i' a) → cc3_transform_18 i = cc3_transform_18 i'
  hinb3_18 : ∀ (i : grid3.Coords) a, (cc3_transform_18 i a + 1) * S1024x512.size a ≤ S2048x512.size a
  hwx3_18 : ∀ i : grid3.Coords, EltTy.bits .f32 = 32 ∨ (Rect.block (s := S2048x512) S1024x512.size (cc3_transform_18 i) (hinb3_18 i)).WholeWords (EltTy.packing .f32)

class K4.Facts₀ : Prop where
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S1024x512.size a
  hwx4_0 : ∀ i : grid4.Coords, EltTy.bits .f32 = 32 ∨ (Rect.block (s := S1024x512) S1024x512.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x512.size a
  hwx4_1 : ∀ i : grid4.Coords, EltTy.bits .f32 = 32 ∨ (Rect.block (s := S1024x512) S1024x512.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S1024x512.size a
  hwx4_2 : ∀ i : grid4.Coords, EltTy.bits .f32 = 32 ∨ (Rect.block (s := S1024x512) S1024x512.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S1024x512.size a
  hwx4_3 : ∀ i : grid4.Coords, EltTy.bits .f32 = 32 ∨ (Rect.block (s := S1024x512) S1024x512.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S1024x512.size a ≤ S1024x512.size a
  hwx4_4 : ∀ i : grid4.Coords, EltTy.bits .f32 = 32 ∨ (Rect.block (s := S1024x512) S1024x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S512x512.size a
  hwx4_5 : ∀ i : grid4.Coords, EltTy.bits .bf16 = 32 ∨ (Rect.block (s := S512x512) S512x512.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x512.size a ≤ S512x512.size a
  hwx4_6 : ∀ i : grid4.Coords, EltTy.bits .bf16 = 32 ∨ (Rect.block (s := S512x512) S512x512.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x512.size a ≤ S512x512.size a
  hwx4_7 : ∀ i : grid4.Coords, EltTy.bits .bf16 = 32 ∨ (Rect.block (s := S512x512) S512x512.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S512x512.size a ≤ S512x512.size a
  hwx4_8 : ∀ i : grid4.Coords, EltTy.bits .bf16 = 32 ∨ (Rect.block (s := S512x512) S512x512.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x512.size a ≤ S512x512.size a
  hwx4_9 : ∀ i : grid4.Coords, EltTy.bits .bf16 = 32 ∨ (Rect.block (s := S512x512) S512x512.size (cc4_transform_9 i) (hinb4_9 i)).WholeWords (EltTy.packing .bf16)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S512x512.size a ≤ S512x512.size a
  hwx4_10 : ∀ i : grid4.Coords, EltTy.bits .bf16 = 32 ∨ (Rect.block (s := S512x512) S512x512.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S512x512.size a ≤ S512x512.size a
  hwx4_11 : ∀ i : grid4.Coords, EltTy.bits .bf16 = 32 ∨ (Rect.block (s := S512x512) S512x512.size (cc4_transform_11 i) (hinb4_11 i)).WholeWords (EltTy.packing .bf16)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S512x512.size a ≤ S512x512.size a
  hwx4_12 : ∀ i : grid4.Coords, EltTy.bits .bf16 = 32 ∨ (Rect.block (s := S512x512) S512x512.size (cc4_transform_12 i) (hinb4_12 i)).WholeWords (EltTy.packing .bf16)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x512.size a ≤ S1x512.size a
  hwx4_13 : ∀ i : grid4.Coords, EltTy.bits .f32 = 32 ∨ (Rect.block (s := S1x512) S1x512.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x512.size a ≤ S1x512.size a
  hwx4_14 : ∀ i : grid4.Coords, EltTy.bits .f32 = 32 ∨ (Rect.block (s := S1x512) S1x512.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1x512.size a ≤ S1x512.size a
  hwx4_15 : ∀ i : grid4.Coords, EltTy.bits .f32 = 32 ∨ (Rect.block (s := S1x512) S1x512.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x512.size a ≤ S1x512.size a
  hwx4_16 : ∀ i : grid4.Coords, EltTy.bits .f32 = 32 ∨ (Rect.block (s := S1x512) S1x512.size (cc4_transform_16 i) (hinb4_16 i)).WholeWords (EltTy.packing .f32)
  hstage4_17 : ∀ j, (stage4_17 j).IsWhole
  nbuf4_17 : grid4.bufCount reads4_17 false = 1
  hreads4_17 : ∀ i i' : grid4.Coords, (∀ a, reads4_17 a = true → i a = i' a) → cc4_transform_17 i = cc4_transform_17 i'
  hinb4_17 : ∀ (i : grid4.Coords) a, (cc4_transform_17 i a + 1) * S1024x512.size a ≤ S1024x512.size a
  hwx4_17 : ∀ i : grid4.Coords, EltTy.bits .f32 = 32 ∨ (Rect.block (s := S1024x512) S1024x512.size (cc4_transform_17 i) (hinb4_17 i)).WholeWords (EltTy.packing .f32)
  hstage4_18 : ∀ j, (stage4_18 j).IsWhole
  nbuf4_18 : grid4.bufCount reads4_18 false = 1
  hreads4_18 : ∀ i i' : grid4.Coords, (∀ a, reads4_18 a = true → i a = i' a) → cc4_transform_18 i = cc4_transform_18 i'
  hinb4_18 : ∀ (i : grid4.Coords) a, (cc4_transform_18 i a + 1) * S1024x512.size a ≤ S1024x512.size a
  hwx4_18 : ∀ i : grid4.Coords, EltTy.bits .f32 = 32 ∨ (Rect.block (s := S1024x512) S1024x512.size (cc4_transform_18 i) (hinb4_18 i)).WholeWords (EltTy.packing .f32)

class K5.Facts₀ : Prop where
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S512x512.size a
  hwx5_0 : ∀ i : grid5.Coords, EltTy.bits .f32 = 32 ∨ (Rect.block (s := S512x512) S512x512.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .f32 = 32 ∨ (Rect.block (s := S512x512) S512x512.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S512x512.size a
  hwx5_3 : ∀ i : grid5.Coords, EltTy.bits .f32 = 32 ∨ (Rect.block (s := S512x512) S512x512.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S512x512.size a
  hwx5_4 : ∀ i : grid5.Coords, EltTy.bits .f32 = 32 ∨ (Rect.block (s := S512x512) S512x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S512x512.size a
  hwx5_5 : ∀ i : grid5.Coords, EltTy.bits .bf16 = 32 ∨ (Rect.block (s := S512x512) S512x512.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x512.size a ≤ S512x512.size a
  hwx5_6 : ∀ i : grid5.Coords, EltTy.bits .bf16 = 32 ∨ (Rect.block (s := S512x512) S512x512.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x512.size a ≤ S512x512.size a
  hwx5_7 : ∀ i : grid5.Coords, EltTy.bits .bf16 = 32 ∨ (Rect.block (s := S512x512) S512x512.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S512x512.size a ≤ S512x512.size a
  hwx5_8 : ∀ i : grid5.Coords, EltTy.bits .bf16 = 32 ∨ (Rect.block (s := S512x512) S512x512.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S512x512.size a ≤ S512x512.size a
  hwx5_9 : ∀ i : grid5.Coords, EltTy.bits .bf16 = 32 ∨ (Rect.block (s := S512x512) S512x512.size (cc5_transform_9 i) (hinb5_9 i)).WholeWords (EltTy.packing .bf16)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S512x512.size a ≤ S512x512.size a
  hwx5_10 : ∀ i : grid5.Coords, EltTy.bits .bf16 = 32 ∨ (Rect.block (s := S512x512) S512x512.size (cc5_transform_10 i) (hinb5_10 i)).WholeWords (EltTy.packing .bf16)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S512x512.size a ≤ S512x512.size a
  hwx5_11 : ∀ i : grid5.Coords, EltTy.bits .bf16 = 32 ∨ (Rect.block (s := S512x512) S512x512.size (cc5_transform_11 i) (hinb5_11 i)).WholeWords (EltTy.packing .bf16)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S512x512.size a ≤ S512x512.size a
  hwx5_12 : ∀ i : grid5.Coords, EltTy.bits .bf16 = 32 ∨ (Rect.block (s := S512x512) S512x512.size (cc5_transform_12 i) (hinb5_12 i)).WholeWords (EltTy.packing .bf16)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x512.size a ≤ S1x512.size a
  hwx5_13 : ∀ i : grid5.Coords, EltTy.bits .f32 = 32 ∨ (Rect.block (s := S1x512) S1x512.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x512.size a ≤ S1x512.size a
  hwx5_14 : ∀ i : grid5.Coords, EltTy.bits .f32 = 32 ∨ (Rect.block (s := S1x512) S1x512.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S1x512.size a ≤ S1x512.size a
  hwx5_15 : ∀ i : grid5.Coords, EltTy.bits .f32 = 32 ∨ (Rect.block (s := S1x512) S1x512.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x512.size a ≤ S1x512.size a
  hwx5_16 : ∀ i : grid5.Coords, EltTy.bits .f32 = 32 ∨ (Rect.block (s := S1x512) S1x512.size (cc5_transform_16 i) (hinb5_16 i)).WholeWords (EltTy.packing .f32)
  hstage5_17 : ∀ j, (stage5_17 j).IsWhole
  nbuf5_17 : grid5.bufCount reads5_17 false = 1
  hreads5_17 : ∀ i i' : grid5.Coords, (∀ a, reads5_17 a = true → i a = i' a) → cc5_transform_17 i = cc5_transform_17 i'
  hinb5_17 : ∀ (i : grid5.Coords) a, (cc5_transform_17 i a + 1) * S512x512.size a ≤ S512x512.size a
  hwx5_17 : ∀ i : grid5.Coords, EltTy.bits .f32 = 32 ∨ (Rect.block (s := S512x512) S512x512.size (cc5_transform_17 i) (hinb5_17 i)).WholeWords (EltTy.packing .f32)
  hstage5_18 : ∀ j, (stage5_18 j).IsWhole
  nbuf5_18 : grid5.bufCount reads5_18 false = 1
  hreads5_18 : ∀ i i' : grid5.Coords, (∀ a, reads5_18 a = true → i a = i' a) → cc5_transform_18 i = cc5_transform_18 i'
  hinb5_18 : ∀ (i : grid5.Coords) a, (cc5_transform_18 i a + 1) * S512x512.size a ≤ S512x512.size a
  hwx5_18 : ∀ i : grid5.Coords, EltTy.bits .f32 = 32 ∨ (Rect.block (s := S512x512) S512x512.size (cc5_transform_18 i) (hinb5_18 i)).WholeWords (EltTy.packing .f32)

class K6.Facts₀ : Prop where
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S256x512.size a ≤ S256x512.size a
  hwx6_0 : ∀ i : grid6.Coords, EltTy.bits .f32 = 32 ∨ (Rect.block (s := S256x512) S256x512.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S256x512.size a
  hwx6_2 : ∀ i : grid6.Coords, EltTy.bits .f32 = 32 ∨ (Rect.block (s := S256x512) S256x512.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S256x512.size a ≤ S256x512.size a
  hwx6_3 : ∀ i : grid6.Coords, EltTy.bits .f32 = 32 ∨ (Rect.block (s := S256x512) S256x512.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_4 i = cc6_transform_4 i'
  hinb6_4 : ∀ (i : grid6.Coords) a, (cc6_transform_4 i a + 1) * S256x512.size a ≤ S256x512.size a
  hwx6_4 : ∀ i : grid6.Coords, EltTy.bits .f32 = 32 ∨ (Rect.block (s := S256x512) S256x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x512.size a ≤ S512x512.size a
  hwx6_5 : ∀ i : grid6.Coords, EltTy.bits .bf16 = 32 ∨ (Rect.block (s := S512x512) S512x512.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S512x512.size a ≤ S512x512.size a
  hwx6_6 : ∀ i : grid6.Coords, EltTy.bits .bf16 = 32 ∨ (Rect.block (s := S512x512) S512x512.size (cc6_transform_6 i) (hinb6_6 i)).WholeWords (EltTy.packing .bf16)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x512.size a ≤ S512x512.size a
  hwx6_7 : ∀ i : grid6.Coords, EltTy.bits .bf16 = 32 ∨ (Rect.block (s := S512x512) S512x512.size (cc6_transform_7 i) (hinb6_7 i)).WholeWords (EltTy.packing .bf16)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S512x512.size a ≤ S512x512.size a
  hwx6_8 : ∀ i : grid6.Coords, EltTy.bits .bf16 = 32 ∨ (Rect.block (s := S512x512) S512x512.size (cc6_transform_8 i) (hinb6_8 i)).WholeWords (EltTy.packing .bf16)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S512x512.size a ≤ S512x512.size a
  hwx6_9 : ∀ i : grid6.Coords, EltTy.bits .bf16 = 32 ∨ (Rect.block (s := S512x512) S512x512.size (cc6_transform_9 i) (hinb6_9 i)).WholeWords (EltTy.packing .bf16)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S512x512.size a ≤ S512x512.size a
  hwx6_10 : ∀ i : grid6.Coords, EltTy.bits .bf16 = 32 ∨ (Rect.block (s := S512x512) S512x512.size (cc6_transform_10 i) (hinb6_10 i)).WholeWords (EltTy.packing .bf16)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S512x512.size a ≤ S512x512.size a
  hwx6_11 : ∀ i : grid6.Coords, EltTy.bits .bf16 = 32 ∨ (Rect.block (s := S512x512) S512x512.size (cc6_transform_11 i) (hinb6_11 i)).WholeWords (EltTy.packing .bf16)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S512x512.size a ≤ S512x512.size a
  hwx6_12 : ∀ i : grid6.Coords, EltTy.bits .bf16 = 32 ∨ (Rect.block (s := S512x512) S512x512.size (cc6_transform_12 i) (hinb6_12 i)).WholeWords (EltTy.packing .bf16)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1x512.size a ≤ S1x512.size a
  hwx6_13 : ∀ i : grid6.Coords, EltTy.bits .f32 = 32 ∨ (Rect.block (s := S1x512) S1x512.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S1x512.size a ≤ S1x512.size a
  hwx6_14 : ∀ i : grid6.Coords, EltTy.bits .f32 = 32 ∨ (Rect.block (s := S1x512) S1x512.size (cc6_transform_14 i) (hinb6_14 i)).WholeWords (EltTy.packing .f32)
  hstage6_15 : ∀ j, (stage6_15 j).IsWhole
  nbuf6_15 : grid6.bufCount reads6_15 true = 1
  hreads6_15 : ∀ i i' : grid6.Coords, (∀ a, reads6_15 a = true → i a = i' a) → cc6_transform_15 i = cc6_transform_15 i'
  hinb6_15 : ∀ (i : grid6.Coords) a, (cc6_transform_15 i a + 1) * S1x512.size a ≤ S1x512.size a
  hwx6_15 : ∀ i : grid6.Coords, EltTy.bits .f32 = 32 ∨ (Rect.block (s := S1x512) S1x512.size (cc6_transform_15 i) (hinb6_15 i)).WholeWords (EltTy.packing .f32)
  hstage6_16 : ∀ j, (stage6_16 j).IsWhole
  nbuf6_16 : grid6.bufCount reads6_16 true = 1
  hreads6_16 : ∀ i i' : grid6.Coords, (∀ a, reads6_16 a = true → i a = i' a) → cc6_transform_16 i = cc6_transform_16 i'
  hinb6_16 : ∀ (i : grid6.Coords) a, (cc6_transform_16 i a + 1) * S1x512.size a ≤ S1x512.size a
  hwx6_16 : ∀ i : grid6.Coords, EltTy.bits .f32 = 32 ∨ (Rect.block (s := S1x512) S1x512.size (cc6_transform_16 i) (hinb6_16 i)).WholeWords (EltTy.packing .f32)
  hstage6_17 : ∀ j, (stage6_17 j).IsWhole
  nbuf6_17 : grid6.bufCount reads6_17 false = 1
  hreads6_17 : ∀ i i' : grid6.Coords, (∀ a, reads6_17 a = true → i a = i' a) → cc6_transform_17 i = cc6_transform_17 i'
  hinb6_17 : ∀ (i : grid6.Coords) a, (cc6_transform_17 i a + 1) * S256x512.size a ≤ S256x512.size a
  hwx6_17 : ∀ i : grid6.Coords, EltTy.bits .f32 = 32 ∨ (Rect.block (s := S256x512) S256x512.size (cc6_transform_17 i) (hinb6_17 i)).WholeWords (EltTy.packing .f32)
  hstage6_18 : ∀ j, (stage6_18 j).IsWhole
  nbuf6_18 : grid6.bufCount reads6_18 false = 1
  hreads6_18 : ∀ i i' : grid6.Coords, (∀ a, reads6_18 a = true → i a = i' a) → cc6_transform_18 i = cc6_transform_18 i'
  hinb6_18 : ∀ (i : grid6.Coords) a, (cc6_transform_18 i a + 1) * S256x512.size a ≤ S256x512.size a
  hwx6_18 : ∀ i : grid6.Coords, EltTy.bits .f32 = 32 ∨ (Rect.block (s := S256x512) S256x512.size (cc6_transform_18 i) (hinb6_18 i)).WholeWords (EltTy.packing .f32)

class K7.Facts₀ : Prop where
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S128x512.size a ≤ S128x512.size a
  hwx7_0 : ∀ i : grid7.Coords, EltTy.bits .f32 = 32 ∨ (Rect.block (s := S128x512) S128x512.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S128x512.size a ≤ S128x512.size a
  hwx7_1 : ∀ i : grid7.Coords, EltTy.bits .f32 = 32 ∨ (Rect.block (s := S128x512) S128x512.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S128x512.size a ≤ S128x512.size a
  hwx7_2 : ∀ i : grid7.Coords, EltTy.bits .f32 = 32 ∨ (Rect.block (s := S128x512) S128x512.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S128x512.size a ≤ S128x512.size a
  hwx7_3 : ∀ i : grid7.Coords, EltTy.bits .f32 = 32 ∨ (Rect.block (s := S128x512) S128x512.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S128x512.size a ≤ S128x512.size a
  hwx7_4 : ∀ i : grid7.Coords, EltTy.bits .f32 = 32 ∨ (Rect.block (s := S128x512) S128x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x512.size a ≤ S512x512.size a
  hwx7_5 : ∀ i : grid7.Coords, EltTy.bits .bf16 = 32 ∨ (Rect.block (s := S512x512) S512x512.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S512x512.size a ≤ S512x512.size a
  hwx7_6 : ∀ i : grid7.Coords, EltTy.bits .bf16 = 32 ∨ (Rect.block (s := S512x512) S512x512.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S512x512.size a ≤ S512x512.size a
  hwx7_7 : ∀ i : grid7.Coords, EltTy.bits .bf16 = 32 ∨ (Rect.block (s := S512x512) S512x512.size (cc7_transform_7 i) (hinb7_7 i)).WholeWords (EltTy.packing .bf16)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S512x512.size a ≤ S512x512.size a
  hwx7_8 : ∀ i : grid7.Coords, EltTy.bits .bf16 = 32 ∨ (Rect.block (s := S512x512) S512x512.size (cc7_transform_8 i) (hinb7_8 i)).WholeWords (EltTy.packing .bf16)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S512x512.size a ≤ S512x512.size a
  hwx7_9 : ∀ i : grid7.Coords, EltTy.bits .bf16 = 32 ∨ (Rect.block (s := S512x512) S512x512.size (cc7_transform_9 i) (hinb7_9 i)).WholeWords (EltTy.packing .bf16)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S512x512.size a ≤ S512x512.size a
  hwx7_10 : ∀ i : grid7.Coords, EltTy.bits .bf16 = 32 ∨ (Rect.block (s := S512x512) S512x512.size (cc7_transform_10 i) (hinb7_10 i)).WholeWords (EltTy.packing .bf16)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S512x512.size a ≤ S512x512.size a
  hwx7_11 : ∀ i : grid7.Coords, EltTy.bits .bf16 = 32 ∨ (Rect.block (s := S512x512) S512x512.size (cc7_transform_11 i) (hinb7_11 i)).WholeWords (EltTy.packing .bf16)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S512x512.size a ≤ S512x512.size a
  hwx7_12 : ∀ i : grid7.Coords, EltTy.bits .bf16 = 32 ∨ (Rect.block (s := S512x512) S512x512.size (cc7_transform_12 i) (hinb7_12 i)).WholeWords (EltTy.packing .bf16)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S1x512.size a ≤ S1x512.size a
  hwx7_13 : ∀ i : grid7.Coords, EltTy.bits .f32 = 32 ∨ (Rect.block (s := S1x512) S1x512.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S1x512.size a ≤ S1x512.size a
  hwx7_14 : ∀ i : grid7.Coords, EltTy.bits .f32 = 32 ∨ (Rect.block (s := S1x512) S1x512.size (cc7_transform_14 i) (hinb7_14 i)).WholeWords (EltTy.packing .f32)
  hstage7_15 : ∀ j, (stage7_15 j).IsWhole
  nbuf7_15 : grid7.bufCount reads7_15 true = 1
  hreads7_15 : ∀ i i' : grid7.Coords, (∀ a, reads7_15 a = true → i a = i' a) → cc7_transform_15 i = cc7_transform_15 i'
  hinb7_15 : ∀ (i : grid7.Coords) a, (cc7_transform_15 i a + 1) * S1x512.size a ≤ S1x512.size a
  hwx7_15 : ∀ i : grid7.Coords, EltTy.bits .f32 = 32 ∨ (Rect.block (s := S1x512) S1x512.size (cc7_transform_15 i) (hinb7_15 i)).WholeWords (EltTy.packing .f32)
  hstage7_16 : ∀ j, (stage7_16 j).IsWhole
  nbuf7_16 : grid7.bufCount reads7_16 true = 1
  hreads7_16 : ∀ i i' : grid7.Coords, (∀ a, reads7_16 a = true → i a = i' a) → cc7_transform_16 i = cc7_transform_16 i'
  hinb7_16 : ∀ (i : grid7.Coords) a, (cc7_transform_16 i a + 1) * S1x512.size a ≤ S1x512.size a
  hwx7_16 : ∀ i : grid7.Coords, EltTy.bits .f32 = 32 ∨ (Rect.block (s := S1x512) S1x512.size (cc7_transform_16 i) (hinb7_16 i)).WholeWords (EltTy.packing .f32)
  hstage7_17 : ∀ j, (stage7_17 j).IsWhole
  nbuf7_17 : grid7.bufCount reads7_17 false = 1
  hreads7_17 : ∀ i i' : grid7.Coords, (∀ a, reads7_17 a = true → i a = i' a) → cc7_transform_17 i = cc7_transform_17 i'
  hinb7_17 : ∀ (i : grid7.Coords) a, (cc7_transform_17 i a + 1) * S128x512.size a ≤ S128x512.size a
  hwx7_17 : ∀ i : grid7.Coords, EltTy.bits .f32 = 32 ∨ (Rect.block (s := S128x512) S128x512.size (cc7_transform_17 i) (hinb7_17 i)).WholeWords (EltTy.packing .f32)
  hstage7_18 : ∀ j, (stage7_18 j).IsWhole
  nbuf7_18 : grid7.bufCount reads7_18 false = 1
  hreads7_18 : ∀ i i' : grid7.Coords, (∀ a, reads7_18 a = true → i a = i' a) → cc7_transform_18 i = cc7_transform_18 i'
  hinb7_18 : ∀ (i : grid7.Coords) a, (cc7_transform_18 i a + 1) * S128x512.size a ≤ S128x512.size a
  hwx7_18 : ∀ i : grid7.Coords, EltTy.bits .f32 = 32 ∨ (Rect.block (s := S128x512) S128x512.size (cc7_transform_18 i) (hinb7_18 i)).WholeWords (EltTy.packing .f32)

class K8.Facts₀ : Prop where
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S64x512.size a ≤ S64x512.size a
  hwx8_0 : ∀ i : grid8.Coords, EltTy.bits .f32 = 32 ∨ (Rect.block (s := S64x512) S64x512.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S64x512.size a ≤ S64x512.size a
  hwx8_1 : ∀ i : grid8.Coords, EltTy.bits .f32 = 32 ∨ (Rect.block (s := S64x512) S64x512.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S64x512.size a ≤ S64x512.size a
  hwx8_2 : ∀ i : grid8.Coords, EltTy.bits .f32 = 32 ∨ (Rect.block (s := S64x512) S64x512.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S64x512.size a ≤ S64x512.size a
  hwx8_3 : ∀ i : grid8.Coords, EltTy.bits .f32 = 32 ∨ (Rect.block (s := S64x512) S64x512.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S64x512.size a ≤ S64x512.size a
  hwx8_4 : ∀ i : grid8.Coords, EltTy.bits .f32 = 32 ∨ (Rect.block (s := S64x512) S64x512.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S512x512.size a ≤ S512x512.size a
  hwx8_5 : ∀ i : grid8.Coords, EltTy.bits .bf16 = 32 ∨ (Rect.block (s := S512x512) S512x512.size (cc8_transform_5 i) (hinb8_5 i)).WholeWords (EltTy.packing .bf16)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S512x512.size a ≤ S512x512.size a
  hwx8_6 : ∀ i : grid8.Coords, EltTy.bits .bf16 = 32 ∨ (Rect.block (s := S512x512) S512x512.size (cc8_transform_6 i) (hinb8_6 i)).WholeWords (EltTy.packing .bf16)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S512x512.size a ≤ S512x512.size a
  hwx8_7 : ∀ i : grid8.Coords, EltTy.bits .bf16 = 32 ∨ (Rect.block (s := S512x512) S512x512.size (cc8_transform_7 i) (hinb8_7 i)).WholeWords (EltTy.packing .bf16)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S512x512.size a ≤ S512x512.size a
  hwx8_8 : ∀ i : grid8.Coords, EltTy.bits .bf16 = 32 ∨ (Rect.block (s := S512x512) S512x512.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S512x512.size a ≤ S512x512.size a
  hwx8_9 : ∀ i : grid8.Coords, EltTy.bits .bf16 = 32 ∨ (Rect.block (s := S512x512) S512x512.size (cc8_transform_9 i) (hinb8_9 i)).WholeWords (EltTy.packing .bf16)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S512x512.size a ≤ S512x512.size a
  hwx8_10 : ∀ i : grid8.Coords, EltTy.bits .bf16 = 32 ∨ (Rect.block (s := S512x512) S512x512.size (cc8_transform_10 i) (hinb8_10 i)).WholeWords (EltTy.packing .bf16)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S512x512.size a ≤ S512x512.size a
  hwx8_11 : ∀ i : grid8.Coords, EltTy.bits .bf16 = 32 ∨ (Rect.block (s := S512x512) S512x512.size (cc8_transform_11 i) (hinb8_11 i)).WholeWords (EltTy.packing .bf16)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S512x512.size a ≤ S512x512.size a
  hwx8_12 : ∀ i : grid8.Coords, EltTy.bits .bf16 = 32 ∨ (Rect.block (s := S512x512) S512x512.size (cc8_transform_12 i) (hinb8_12 i)).WholeWords (EltTy.packing .bf16)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S1x512.size a ≤ S1x512.size a
  hwx8_13 : ∀ i : grid8.Coords, EltTy.bits .f32 = 32 ∨ (Rect.block (s := S1x512) S1x512.size (cc8_transform_13 i) (hinb8_13 i)).WholeWords (EltTy.packing .f32)
  hstage8_14 : ∀ j, (stage8_14 j).IsWhole
  nbuf8_14 : grid8.bufCount reads8_14 true = 1
  hreads8_14 : ∀ i i' : grid8.Coords, (∀ a, reads8_14 a = true → i a = i' a) → cc8_transform_14 i = cc8_transform_14 i'
  hinb8_14 : ∀ (i : grid8.Coords) a, (cc8_transform_14 i a + 1) * S1x512.size a ≤ S1x512.size a
  hwx8_14 : ∀ i : grid8.Coords, EltTy.bits .f32 = 32 ∨ (Rect.block (s := S1x512) S1x512.size (cc8_transform_14 i) (hinb8_14 i)).WholeWords (EltTy.packing .f32)
  hstage8_15 : ∀ j, (stage8_15 j).IsWhole
  nbuf8_15 : grid8.bufCount reads8_15 true = 1
  hreads8_15 : ∀ i i' : grid8.Coords, (∀ a, reads8_15 a = true → i a = i' a) → cc8_transform_15 i = cc8_transform_15 i'
  hinb8_15 : ∀ (i : grid8.Coords) a, (cc8_transform_15 i a + 1) * S1x512.size a ≤ S1x512.size a
  hwx8_15 : ∀ i : grid8.Coords, EltTy.bits .f32 = 32 ∨ (Rect.block (s := S1x512) S1x512.size (cc8_transform_15 i) (hinb8_15 i)).WholeWords (EltTy.packing .f32)
  hstage8_16 : ∀ j, (stage8_16 j).IsWhole
  nbuf8_16 : grid8.bufCount reads8_16 true = 1
  hreads8_16 : ∀ i i' : grid8.Coords, (∀ a, reads8_16 a = true → i a = i' a) → cc8_transform_16 i = cc8_transform_16 i'
  hinb8_16 : ∀ (i : grid8.Coords) a, (cc8_transform_16 i a + 1) * S1x512.size a ≤ S1x512.size a
  hwx8_16 : ∀ i : grid8.Coords, EltTy.bits .f32 = 32 ∨ (Rect.block (s := S1x512) S1x512.size (cc8_transform_16 i) (hinb8_16 i)).WholeWords (EltTy.packing .f32)
  hstage8_17 : ∀ j, (stage8_17 j).IsWhole
  nbuf8_17 : grid8.bufCount reads8_17 false = 1
  hreads8_17 : ∀ i i' : grid8.Coords, (∀ a, reads8_17 a = true → i a = i' a) → cc8_transform_17 i = cc8_transform_17 i'
  hinb8_17 : ∀ (i : grid8.Coords) a, (cc8_transform_17 i a + 1) * S64x512.size a ≤ S64x512.size a
  hwx8_17 : ∀ i : grid8.Coords, EltTy.bits .f32 = 32 ∨ (Rect.block (s := S64x512) S64x512.size (cc8_transform_17 i) (hinb8_17 i)).WholeWords (EltTy.packing .f32)
  hstage8_18 : ∀ j, (stage8_18 j).IsWhole
  nbuf8_18 : grid8.bufCount reads8_18 false = 1
  hreads8_18 : ∀ i i' : grid8.Coords, (∀ a, reads8_18 a = true → i a = i' a) → cc8_transform_18 i = cc8_transform_18 i'
  hinb8_18 : ∀ (i : grid8.Coords) a, (cc8_transform_18 i a + 1) * S64x512.size a ≤ S64x512.size a
  hwx8_18 : ∀ i : grid8.Coords, EltTy.bits .f32 = 32 ∨ (Rect.block (s := S64x512) S64x512.size (cc8_transform_18 i) (hinb8_18 i)).WholeWords (EltTy.packing .f32)

class K9.Facts₀ : Prop where
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S32x512.size a ≤ S32x512.size a
  hwx9_0 : ∀ i : grid9.Coords, EltTy.bits .f32 = 32 ∨ (Rect.block (s := S32x512) S32x512.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S32x512.size a ≤ S32x512.size a
  hwx9_1 : ∀ i : grid9.Coords, EltTy.bits .f32 = 32 ∨ (Rect.block (s := S32x512) S32x512.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S32x512.size a ≤ S32x512.size a
  hwx9_2 : ∀ i : grid9.Coords, EltTy.bits .f32 = 32 ∨ (Rect.block (s := S32x512) S32x512.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S32x512.size a ≤ S32x512.size a
  hwx9_3 : ∀ i : grid9.Coords, EltTy.bits .f32 = 32 ∨ (Rect.block (s := S32x512) S32x512.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S32x512.size a ≤ S32x512.size a
  hwx9_4 : ∀ i : grid9.Coords, EltTy.bits .f32 = 32 ∨ (Rect.block (s := S32x512) S32x512.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S512x512.size a ≤ S512x512.size a
  hwx9_5 : ∀ i : grid9.Coords, EltTy.bits .bf16 = 32 ∨ (Rect.block (s := S512x512) S512x512.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S512x512.size a ≤ S512x512.size a
  hwx9_6 : ∀ i : grid9.Coords, EltTy.bits .bf16 = 32 ∨ (Rect.block (s := S512x512) S512x512.size (cc9_transform_6 i) (hinb9_6 i)).WholeWords (EltTy.packing .bf16)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S512x512.size a ≤ S512x512.size a
  hwx9_7 : ∀ i : grid9.Coords, EltTy.bits .bf16 = 32 ∨ (Rect.block (s := S512x512) S512x512.size (cc9_transform_7 i) (hinb9_7 i)).WholeWords (EltTy.packing .bf16)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S512x512.size a ≤ S512x512.size a
  hwx9_8 : ∀ i : grid9.Coords, EltTy.bits .bf16 = 32 ∨ (Rect.block (s := S512x512) S512x512.size (cc9_transform_8 i) (hinb9_8 i)).WholeWords (EltTy.packing .bf16)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S512x512.size a ≤ S512x512.size a
  hwx9_9 : ∀ i : grid9.Coords, EltTy.bits .bf16 = 32 ∨ (Rect.block (s := S512x512) S512x512.size (cc9_transform_9 i) (hinb9_9 i)).WholeWords (EltTy.packing .bf16)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S512x512.size a ≤ S512x512.size a
  hwx9_10 : ∀ i : grid9.Coords, EltTy.bits .bf16 = 32 ∨ (Rect.block (s := S512x512) S512x512.size (cc9_transform_10 i) (hinb9_10 i)).WholeWords (EltTy.packing .bf16)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S512x512.size a ≤ S512x512.size a
  hwx9_11 : ∀ i : grid9.Coords, EltTy.bits .bf16 = 32 ∨ (Rect.block (s := S512x512) S512x512.size (cc9_transform_11 i) (hinb9_11 i)).WholeWords (EltTy.packing .bf16)
  hstage9_12 : ∀ j, (stage9_12 j).IsWhole
  nbuf9_12 : grid9.bufCount reads9_12 true = 1
  hreads9_12 : ∀ i i' : grid9.Coords, (∀ a, reads9_12 a = true → i a = i' a) → cc9_transform_12 i = cc9_transform_12 i'
  hinb9_12 : ∀ (i : grid9.Coords) a, (cc9_transform_12 i a + 1) * S512x512.size a ≤ S512x512.size a
  hwx9_12 : ∀ i : grid9.Coords, EltTy.bits .bf16 = 32 ∨ (Rect.block (s := S512x512) S512x512.size (cc9_transform_12 i) (hinb9_12 i)).WholeWords (EltTy.packing .bf16)
  hstage9_13 : ∀ j, (stage9_13 j).IsWhole
  nbuf9_13 : grid9.bufCount reads9_13 true = 1
  hreads9_13 : ∀ i i' : grid9.Coords, (∀ a, reads9_13 a = true → i a = i' a) → cc9_transform_13 i = cc9_transform_13 i'
  hinb9_13 : ∀ (i : grid9.Coords) a, (cc9_transform_13 i a + 1) * S1x512.size a ≤ S1x512.size a
  hwx9_13 : ∀ i : grid9.Coords, EltTy.bits .f32 = 32 ∨ (Rect.block (s := S1x512) S1x512.size (cc9_transform_13 i) (hinb9_13 i)).WholeWords (EltTy.packing .f32)
  hstage9_14 : ∀ j, (stage9_14 j).IsWhole
  nbuf9_14 : grid9.bufCount reads9_14 true = 1
  hreads9_14 : ∀ i i' : grid9.Coords, (∀ a, reads9_14 a = true → i a = i' a) → cc9_transform_14 i = cc9_transform_14 i'
  hinb9_14 : ∀ (i : grid9.Coords) a, (cc9_transform_14 i a + 1) * S1x512.size a ≤ S1x512.size a
  hwx9_14 : ∀ i : grid9.Coords, EltTy.bits .f32 = 32 ∨ (Rect.block (s := S1x512) S1x512.size (cc9_transform_14 i) (hinb9_14 i)).WholeWords (EltTy.packing .f32)
  hstage9_15 : ∀ j, (stage9_15 j).IsWhole
  nbuf9_15 : grid9.bufCount reads9_15 true = 1
  hreads9_15 : ∀ i i' : grid9.Coords, (∀ a, reads9_15 a = true → i a = i' a) → cc9_transform_15 i = cc9_transform_15 i'
  hinb9_15 : ∀ (i : grid9.Coords) a, (cc9_transform_15 i a + 1) * S1x512.size a ≤ S1x512.size a
  hwx9_15 : ∀ i : grid9.Coords, EltTy.bits .f32 = 32 ∨ (Rect.block (s := S1x512) S1x512.size (cc9_transform_15 i) (hinb9_15 i)).WholeWords (EltTy.packing .f32)
  hstage9_16 : ∀ j, (stage9_16 j).IsWhole
  nbuf9_16 : grid9.bufCount reads9_16 true = 1
  hreads9_16 : ∀ i i' : grid9.Coords, (∀ a, reads9_16 a = true → i a = i' a) → cc9_transform_16 i = cc9_transform_16 i'
  hinb9_16 : ∀ (i : grid9.Coords) a, (cc9_transform_16 i a + 1) * S1x512.size a ≤ S1x512.size a
  hwx9_16 : ∀ i : grid9.Coords, EltTy.bits .f32 = 32 ∨ (Rect.block (s := S1x512) S1x512.size (cc9_transform_16 i) (hinb9_16 i)).WholeWords (EltTy.packing .f32)
  hstage9_17 : ∀ j, (stage9_17 j).IsWhole
  nbuf9_17 : grid9.bufCount reads9_17 false = 1
  hreads9_17 : ∀ i i' : grid9.Coords, (∀ a, reads9_17 a = true → i a = i' a) → cc9_transform_17 i = cc9_transform_17 i'
  hinb9_17 : ∀ (i : grid9.Coords) a, (cc9_transform_17 i a + 1) * S32x512.size a ≤ S32x512.size a
  hwx9_17 : ∀ i : grid9.Coords, EltTy.bits .f32 = 32 ∨ (Rect.block (s := S32x512) S32x512.size (cc9_transform_17 i) (hinb9_17 i)).WholeWords (EltTy.packing .f32)
  hstage9_18 : ∀ j, (stage9_18 j).IsWhole
  nbuf9_18 : grid9.bufCount reads9_18 false = 1
  hreads9_18 : ∀ i i' : grid9.Coords, (∀ a, reads9_18 a = true → i a = i' a) → cc9_transform_18 i = cc9_transform_18 i'
  hinb9_18 : ∀ (i : grid9.Coords) a, (cc9_transform_18 i a + 1) * S32x512.size a ≤ S32x512.size a
  hwx9_18 : ∀ i : grid9.Coords, EltTy.bits .f32 = 32 ∨ (Rect.block (s := S32x512) S32x512.size (cc9_transform_18 i) (hinb9_18 i)).WholeWords (EltTy.packing .f32)

class K10.Facts₀ : Prop where
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S16x512.size a ≤ S16x512.size a
  hwx10_0 : ∀ i : grid10.Coords, EltTy.bits .f32 = 32 ∨ (Rect.block (s := S16x512) S16x512.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S16x512.size a ≤ S16x512.size a
  hwx10_1 : ∀ i : grid10.Coords, EltTy.bits .f32 = 32 ∨ (Rect.block (s := S16x512) S16x512.size (cc10_transform_1 i) (hinb10_1 i)).WholeWords (EltTy.packing .f32)
  hstage10_2 : ∀ j, (stage10_2 j).IsWhole
  nbuf10_2 : grid10.bufCount reads10_2 false = 1
  hreads10_2 : ∀ i i' : grid10.Coords, (∀ a, reads10_2 a = true → i a = i' a) → cc10_transform_2 i = cc10_transform_2 i'
  hinb10_2 : ∀ (i : grid10.Coords) a, (cc10_transform_2 i a + 1) * S16x512.size a ≤ S16x512.size a
  hwx10_2 : ∀ i : grid10.Coords, EltTy.bits .f32 = 32 ∨ (Rect.block (s := S16x512) S16x512.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S16x512.size a ≤ S16x512.size a
  hwx10_3 : ∀ i : grid10.Coords, EltTy.bits .f32 = 32 ∨ (Rect.block (s := S16x512) S16x512.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S16x512.size a ≤ S16x512.size a
  hwx10_4 : ∀ i : grid10.Coords, EltTy.bits .f32 = 32 ∨ (Rect.block (s := S16x512) S16x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x512.size a ≤ S512x512.size a
  hwx10_5 : ∀ i : grid10.Coords, EltTy.bits .bf16 = 32 ∨ (Rect.block (s := S512x512) S512x512.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S512x512.size a ≤ S512x512.size a
  hwx10_6 : ∀ i : grid10.Coords, EltTy.bits .bf16 = 32 ∨ (Rect.block (s := S512x512) S512x512.size (cc10_transform_6 i) (hinb10_6 i)).WholeWords (EltTy.packing .bf16)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S512x512.size a ≤ S512x512.size a
  hwx10_7 : ∀ i : grid10.Coords, EltTy.bits .bf16 = 32 ∨ (Rect.block (s := S512x512) S512x512.size (cc10_transform_7 i) (hinb10_7 i)).WholeWords (EltTy.packing .bf16)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S512x512.size a ≤ S512x512.size a
  hwx10_8 : ∀ i : grid10.Coords, EltTy.bits .bf16 = 32 ∨ (Rect.block (s := S512x512) S512x512.size (cc10_transform_8 i) (hinb10_8 i)).WholeWords (EltTy.packing .bf16)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S512x512.size a ≤ S512x512.size a
  hwx10_9 : ∀ i : grid10.Coords, EltTy.bits .bf16 = 32 ∨ (Rect.block (s := S512x512) S512x512.size (cc10_transform_9 i) (hinb10_9 i)).WholeWords (EltTy.packing .bf16)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S512x512.size a ≤ S512x512.size a
  hwx10_10 : ∀ i : grid10.Coords, EltTy.bits .bf16 = 32 ∨ (Rect.block (s := S512x512) S512x512.size (cc10_transform_10 i) (hinb10_10 i)).WholeWords (EltTy.packing .bf16)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S512x512.size a ≤ S512x512.size a
  hwx10_11 : ∀ i : grid10.Coords, EltTy.bits .bf16 = 32 ∨ (Rect.block (s := S512x512) S512x512.size (cc10_transform_11 i) (hinb10_11 i)).WholeWords (EltTy.packing .bf16)
  hstage10_12 : ∀ j, (stage10_12 j).IsWhole
  nbuf10_12 : grid10.bufCount reads10_12 true = 1
  hreads10_12 : ∀ i i' : grid10.Coords, (∀ a, reads10_12 a = true → i a = i' a) → cc10_transform_12 i = cc10_transform_12 i'
  hinb10_12 : ∀ (i : grid10.Coords) a, (cc10_transform_12 i a + 1) * S512x512.size a ≤ S512x512.size a
  hwx10_12 : ∀ i : grid10.Coords, EltTy.bits .bf16 = 32 ∨ (Rect.block (s := S512x512) S512x512.size (cc10_transform_12 i) (hinb10_12 i)).WholeWords (EltTy.packing .bf16)
  hstage10_13 : ∀ j, (stage10_13 j).IsWhole
  nbuf10_13 : grid10.bufCount reads10_13 true = 1
  hreads10_13 : ∀ i i' : grid10.Coords, (∀ a, reads10_13 a = true → i a = i' a) → cc10_transform_13 i = cc10_transform_13 i'
  hinb10_13 : ∀ (i : grid10.Coords) a, (cc10_transform_13 i a + 1) * S1x512.size a ≤ S1x512.size a
  hwx10_13 : ∀ i : grid10.Coords, EltTy.bits .f32 = 32 ∨ (Rect.block (s := S1x512) S1x512.size (cc10_transform_13 i) (hinb10_13 i)).WholeWords (EltTy.packing .f32)
  hstage10_14 : ∀ j, (stage10_14 j).IsWhole
  nbuf10_14 : grid10.bufCount reads10_14 true = 1
  hreads10_14 : ∀ i i' : grid10.Coords, (∀ a, reads10_14 a = true → i a = i' a) → cc10_transform_14 i = cc10_transform_14 i'
  hinb10_14 : ∀ (i : grid10.Coords) a, (cc10_transform_14 i a + 1) * S1x512.size a ≤ S1x512.size a
  hwx10_14 : ∀ i : grid10.Coords, EltTy.bits .f32 = 32 ∨ (Rect.block (s := S1x512) S1x512.size (cc10_transform_14 i) (hinb10_14 i)).WholeWords (EltTy.packing .f32)
  hstage10_15 : ∀ j, (stage10_15 j).IsWhole
  nbuf10_15 : grid10.bufCount reads10_15 true = 1
  hreads10_15 : ∀ i i' : grid10.Coords, (∀ a, reads10_15 a = true → i a = i' a) → cc10_transform_15 i = cc10_transform_15 i'
  hinb10_15 : ∀ (i : grid10.Coords) a, (cc10_transform_15 i a + 1) * S1x512.size a ≤ S1x512.size a
  hwx10_15 : ∀ i : grid10.Coords, EltTy.bits .f32 = 32 ∨ (Rect.block (s := S1x512) S1x512.size (cc10_transform_15 i) (hinb10_15 i)).WholeWords (EltTy.packing .f32)
  hstage10_16 : ∀ j, (stage10_16 j).IsWhole
  nbuf10_16 : grid10.bufCount reads10_16 true = 1
  hreads10_16 : ∀ i i' : grid10.Coords, (∀ a, reads10_16 a = true → i a = i' a) → cc10_transform_16 i = cc10_transform_16 i'
  hinb10_16 : ∀ (i : grid10.Coords) a, (cc10_transform_16 i a + 1) * S1x512.size a ≤ S1x512.size a
  hwx10_16 : ∀ i : grid10.Coords, EltTy.bits .f32 = 32 ∨ (Rect.block (s := S1x512) S1x512.size (cc10_transform_16 i) (hinb10_16 i)).WholeWords (EltTy.packing .f32)
  hstage10_17 : ∀ j, (stage10_17 j).IsWhole
  nbuf10_17 : grid10.bufCount reads10_17 false = 1
  hreads10_17 : ∀ i i' : grid10.Coords, (∀ a, reads10_17 a = true → i a = i' a) → cc10_transform_17 i = cc10_transform_17 i'
  hinb10_17 : ∀ (i : grid10.Coords) a, (cc10_transform_17 i a + 1) * S16x512.size a ≤ S16x512.size a
  hwx10_17 : ∀ i : grid10.Coords, EltTy.bits .f32 = 32 ∨ (Rect.block (s := S16x512) S16x512.size (cc10_transform_17 i) (hinb10_17 i)).WholeWords (EltTy.packing .f32)
  hstage10_18 : ∀ j, (stage10_18 j).IsWhole
  nbuf10_18 : grid10.bufCount reads10_18 false = 1
  hreads10_18 : ∀ i i' : grid10.Coords, (∀ a, reads10_18 a = true → i a = i' a) → cc10_transform_18 i = cc10_transform_18 i'
  hinb10_18 : ∀ (i : grid10.Coords) a, (cc10_transform_18 i a + 1) * S16x512.size a ≤ S16x512.size a
  hwx10_18 : ∀ i : grid10.Coords, EltTy.bits .f32 = 32 ∨ (Rect.block (s := S16x512) S16x512.size (cc10_transform_18 i) (hinb10_18 i)).WholeWords (EltTy.packing .f32)

class K11.Facts₀ : Prop where
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S8x512.size a ≤ S8x512.size a
  hwx11_0 : ∀ i : grid11.Coords, EltTy.bits .f32 = 32 ∨ (Rect.block (s := S8x512) S8x512.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S8x512.size a ≤ S8x512.size a
  hwx11_1 : ∀ i : grid11.Coords, EltTy.bits .f32 = 32 ∨ (Rect.block (s := S8x512) S8x512.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S8x512.size a ≤ S8x512.size a
  hwx11_2 : ∀ i : grid11.Coords, EltTy.bits .f32 = 32 ∨ (Rect.block (s := S8x512) S8x512.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S8x512.size a ≤ S8x512.size a
  hwx11_3 : ∀ i : grid11.Coords, EltTy.bits .f32 = 32 ∨ (Rect.block (s := S8x512) S8x512.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S8x512.size a ≤ S8x512.size a
  hwx11_4 : ∀ i : grid11.Coords, EltTy.bits .f32 = 32 ∨ (Rect.block (s := S8x512) S8x512.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S512x512.size a ≤ S512x512.size a
  hwx11_5 : ∀ i : grid11.Coords, EltTy.bits .bf16 = 32 ∨ (Rect.block (s := S512x512) S512x512.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S512x512.size a ≤ S512x512.size a
  hwx11_6 : ∀ i : grid11.Coords, EltTy.bits .bf16 = 32 ∨ (Rect.block (s := S512x512) S512x512.size (cc11_transform_6 i) (hinb11_6 i)).WholeWords (EltTy.packing .bf16)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S512x512.size a ≤ S512x512.size a
  hwx11_7 : ∀ i : grid11.Coords, EltTy.bits .bf16 = 32 ∨ (Rect.block (s := S512x512) S512x512.size (cc11_transform_7 i) (hinb11_7 i)).WholeWords (EltTy.packing .bf16)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S512x512.size a ≤ S512x512.size a
  hwx11_8 : ∀ i : grid11.Coords, EltTy.bits .bf16 = 32 ∨ (Rect.block (s := S512x512) S512x512.size (cc11_transform_8 i) (hinb11_8 i)).WholeWords (EltTy.packing .bf16)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S512x512.size a ≤ S512x512.size a
  hwx11_9 : ∀ i : grid11.Coords, EltTy.bits .bf16 = 32 ∨ (Rect.block (s := S512x512) S512x512.size (cc11_transform_9 i) (hinb11_9 i)).WholeWords (EltTy.packing .bf16)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S512x512.size a ≤ S512x512.size a
  hwx11_10 : ∀ i : grid11.Coords, EltTy.bits .bf16 = 32 ∨ (Rect.block (s := S512x512) S512x512.size (cc11_transform_10 i) (hinb11_10 i)).WholeWords (EltTy.packing .bf16)
  hstage11_11 : ∀ j, (stage11_11 j).IsWhole
  nbuf11_11 : grid11.bufCount reads11_11 true = 1
  hreads11_11 : ∀ i i' : grid11.Coords, (∀ a, reads11_11 a = true → i a = i' a) → cc11_transform_11 i = cc11_transform_11 i'
  hinb11_11 : ∀ (i : grid11.Coords) a, (cc11_transform_11 i a + 1) * S512x512.size a ≤ S512x512.size a
  hwx11_11 : ∀ i : grid11.Coords, EltTy.bits .bf16 = 32 ∨ (Rect.block (s := S512x512) S512x512.size (cc11_transform_11 i) (hinb11_11 i)).WholeWords (EltTy.packing .bf16)
  hstage11_12 : ∀ j, (stage11_12 j).IsWhole
  nbuf11_12 : grid11.bufCount reads11_12 true = 1
  hreads11_12 : ∀ i i' : grid11.Coords, (∀ a, reads11_12 a = true → i a = i' a) → cc11_transform_12 i = cc11_transform_12 i'
  hinb11_12 : ∀ (i : grid11.Coords) a, (cc11_transform_12 i a + 1) * S512x512.size a ≤ S512x512.size a
  hwx11_12 : ∀ i : grid11.Coords, EltTy.bits .bf16 = 32 ∨ (Rect.block (s := S512x512) S512x512.size (cc11_transform_12 i) (hinb11_12 i)).WholeWords (EltTy.packing .bf16)
  hstage11_13 : ∀ j, (stage11_13 j).IsWhole
  nbuf11_13 : grid11.bufCount reads11_13 true = 1
  hreads11_13 : ∀ i i' : grid11.Coords, (∀ a, reads11_13 a = true → i a = i' a) → cc11_transform_13 i = cc11_transform_13 i'
  hinb11_13 : ∀ (i : grid11.Coords) a, (cc11_transform_13 i a + 1) * S1x512.size a ≤ S1x512.size a
  hwx11_13 : ∀ i : grid11.Coords, EltTy.bits .f32 = 32 ∨ (Rect.block (s := S1x512) S1x512.size (cc11_transform_13 i) (hinb11_13 i)).WholeWords (EltTy.packing .f32)
  hstage11_14 : ∀ j, (stage11_14 j).IsWhole
  nbuf11_14 : grid11.bufCount reads11_14 true = 1
  hreads11_14 : ∀ i i' : grid11.Coords, (∀ a, reads11_14 a = true → i a = i' a) → cc11_transform_14 i = cc11_transform_14 i'
  hinb11_14 : ∀ (i : grid11.Coords) a, (cc11_transform_14 i a + 1) * S1x512.size a ≤ S1x512.size a
  hwx11_14 : ∀ i : grid11.Coords, EltTy.bits .f32 = 32 ∨ (Rect.block (s := S1x512) S1x512.size (cc11_transform_14 i) (hinb11_14 i)).WholeWords (EltTy.packing .f32)
  hstage11_15 : ∀ j, (stage11_15 j).IsWhole
  nbuf11_15 : grid11.bufCount reads11_15 true = 1
  hreads11_15 : ∀ i i' : grid11.Coords, (∀ a, reads11_15 a = true → i a = i' a) → cc11_transform_15 i = cc11_transform_15 i'
  hinb11_15 : ∀ (i : grid11.Coords) a, (cc11_transform_15 i a + 1) * S1x512.size a ≤ S1x512.size a
  hwx11_15 : ∀ i : grid11.Coords, EltTy.bits .f32 = 32 ∨ (Rect.block (s := S1x512) S1x512.size (cc11_transform_15 i) (hinb11_15 i)).WholeWords (EltTy.packing .f32)
  hstage11_16 : ∀ j, (stage11_16 j).IsWhole
  nbuf11_16 : grid11.bufCount reads11_16 true = 1
  hreads11_16 : ∀ i i' : grid11.Coords, (∀ a, reads11_16 a = true → i a = i' a) → cc11_transform_16 i = cc11_transform_16 i'
  hinb11_16 : ∀ (i : grid11.Coords) a, (cc11_transform_16 i a + 1) * S1x512.size a ≤ S1x512.size a
  hwx11_16 : ∀ i : grid11.Coords, EltTy.bits .f32 = 32 ∨ (Rect.block (s := S1x512) S1x512.size (cc11_transform_16 i) (hinb11_16 i)).WholeWords (EltTy.packing .f32)
  hstage11_17 : ∀ j, (stage11_17 j).IsWhole
  nbuf11_17 : grid11.bufCount reads11_17 false = 1
  hreads11_17 : ∀ i i' : grid11.Coords, (∀ a, reads11_17 a = true → i a = i' a) → cc11_transform_17 i = cc11_transform_17 i'
  hinb11_17 : ∀ (i : grid11.Coords) a, (cc11_transform_17 i a + 1) * S8x512.size a ≤ S8x512.size a
  hwx11_17 : ∀ i : grid11.Coords, EltTy.bits .f32 = 32 ∨ (Rect.block (s := S8x512) S8x512.size (cc11_transform_17 i) (hinb11_17 i)).WholeWords (EltTy.packing .f32)
  hstage11_18 : ∀ j, (stage11_18 j).IsWhole
  nbuf11_18 : grid11.bufCount reads11_18 false = 1
  hreads11_18 : ∀ i i' : grid11.Coords, (∀ a, reads11_18 a = true → i a = i' a) → cc11_transform_18 i = cc11_transform_18 i'
  hinb11_18 : ∀ (i : grid11.Coords) a, (cc11_transform_18 i a + 1) * S8x512.size a ≤ S8x512.size a
  hwx11_18 : ∀ i : grid11.Coords, EltTy.bits .f32 = 32 ∨ (Rect.block (s := S8x512) S8x512.size (cc11_transform_18 i) (hinb11_18 i)).WholeWords (EltTy.packing .f32)

class K12.Facts₀ : Prop where
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S4x512.size a ≤ S4x512.size a
  hwx12_0 : ∀ i : grid12.Coords, EltTy.bits .f32 = 32 ∨ (Rect.block (s := S4x512) S4x512.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S4x512.size a ≤ S4x512.size a
  hwx12_1 : ∀ i : grid12.Coords, EltTy.bits .f32 = 32 ∨ (Rect.block (s := S4x512) S4x512.size (cc12_transform_1 i) (hinb12_1 i)).WholeWords (EltTy.packing .f32)
  hstage12_2 : ∀ j, (stage12_2 j).IsWhole
  nbuf12_2 : grid12.bufCount reads12_2 false = 1
  hreads12_2 : ∀ i i' : grid12.Coords, (∀ a, reads12_2 a = true → i a = i' a) → cc12_transform_2 i = cc12_transform_2 i'
  hinb12_2 : ∀ (i : grid12.Coords) a, (cc12_transform_2 i a + 1) * S4x512.size a ≤ S4x512.size a
  hwx12_2 : ∀ i : grid12.Coords, EltTy.bits .f32 = 32 ∨ (Rect.block (s := S4x512) S4x512.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S4x512.size a ≤ S4x512.size a
  hwx12_3 : ∀ i : grid12.Coords, EltTy.bits .f32 = 32 ∨ (Rect.block (s := S4x512) S4x512.size (cc12_transform_3 i) (hinb12_3 i)).WholeWords (EltTy.packing .f32)
  hstage12_4 : ∀ j, (stage12_4 j).IsWhole
  nbuf12_4 : grid12.bufCount reads12_4 false = 1
  hreads12_4 : ∀ i i' : grid12.Coords, (∀ a, reads12_4 a = true → i a = i' a) → cc12_transform_4 i = cc12_transform_4 i'
  hinb12_4 : ∀ (i : grid12.Coords) a, (cc12_transform_4 i a + 1) * S4x512.size a ≤ S4x512.size a
  hwx12_4 : ∀ i : grid12.Coords, EltTy.bits .f32 = 32 ∨ (Rect.block (s := S4x512) S4x512.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S512x512.size a ≤ S512x512.size a
  hwx12_5 : ∀ i : grid12.Coords, EltTy.bits .bf16 = 32 ∨ (Rect.block (s := S512x512) S512x512.size (cc12_transform_5 i) (hinb12_5 i)).WholeWords (EltTy.packing .bf16)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S512x512.size a ≤ S512x512.size a
  hwx12_6 : ∀ i : grid12.Coords, EltTy.bits .bf16 = 32 ∨ (Rect.block (s := S512x512) S512x512.size (cc12_transform_6 i) (hinb12_6 i)).WholeWords (EltTy.packing .bf16)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S512x512.size a ≤ S512x512.size a
  hwx12_7 : ∀ i : grid12.Coords, EltTy.bits .bf16 = 32 ∨ (Rect.block (s := S512x512) S512x512.size (cc12_transform_7 i) (hinb12_7 i)).WholeWords (EltTy.packing .bf16)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S512x512.size a ≤ S512x512.size a
  hwx12_8 : ∀ i : grid12.Coords, EltTy.bits .bf16 = 32 ∨ (Rect.block (s := S512x512) S512x512.size (cc12_transform_8 i) (hinb12_8 i)).WholeWords (EltTy.packing .bf16)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S512x512.size a ≤ S512x512.size a
  hwx12_9 : ∀ i : grid12.Coords, EltTy.bits .bf16 = 32 ∨ (Rect.block (s := S512x512) S512x512.size (cc12_transform_9 i) (hinb12_9 i)).WholeWords (EltTy.packing .bf16)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S512x512.size a ≤ S512x512.size a
  hwx12_10 : ∀ i : grid12.Coords, EltTy.bits .bf16 = 32 ∨ (Rect.block (s := S512x512) S512x512.size (cc12_transform_10 i) (hinb12_10 i)).WholeWords (EltTy.packing .bf16)
  hstage12_11 : ∀ j, (stage12_11 j).IsWhole
  nbuf12_11 : grid12.bufCount reads12_11 true = 1
  hreads12_11 : ∀ i i' : grid12.Coords, (∀ a, reads12_11 a = true → i a = i' a) → cc12_transform_11 i = cc12_transform_11 i'
  hinb12_11 : ∀ (i : grid12.Coords) a, (cc12_transform_11 i a + 1) * S512x512.size a ≤ S512x512.size a
  hwx12_11 : ∀ i : grid12.Coords, EltTy.bits .bf16 = 32 ∨ (Rect.block (s := S512x512) S512x512.size (cc12_transform_11 i) (hinb12_11 i)).WholeWords (EltTy.packing .bf16)
  hstage12_12 : ∀ j, (stage12_12 j).IsWhole
  nbuf12_12 : grid12.bufCount reads12_12 true = 1
  hreads12_12 : ∀ i i' : grid12.Coords, (∀ a, reads12_12 a = true → i a = i' a) → cc12_transform_12 i = cc12_transform_12 i'
  hinb12_12 : ∀ (i : grid12.Coords) a, (cc12_transform_12 i a + 1) * S512x512.size a ≤ S512x512.size a
  hwx12_12 : ∀ i : grid12.Coords, EltTy.bits .bf16 = 32 ∨ (Rect.block (s := S512x512) S512x512.size (cc12_transform_12 i) (hinb12_12 i)).WholeWords (EltTy.packing .bf16)
  hstage12_13 : ∀ j, (stage12_13 j).IsWhole
  nbuf12_13 : grid12.bufCount reads12_13 true = 1
  hreads12_13 : ∀ i i' : grid12.Coords, (∀ a, reads12_13 a = true → i a = i' a) → cc12_transform_13 i = cc12_transform_13 i'
  hinb12_13 : ∀ (i : grid12.Coords) a, (cc12_transform_13 i a + 1) * S1x512.size a ≤ S1x512.size a
  hwx12_13 : ∀ i : grid12.Coords, EltTy.bits .f32 = 32 ∨ (Rect.block (s := S1x512) S1x512.size (cc12_transform_13 i) (hinb12_13 i)).WholeWords (EltTy.packing .f32)
  hstage12_14 : ∀ j, (stage12_14 j).IsWhole
  nbuf12_14 : grid12.bufCount reads12_14 true = 1
  hreads12_14 : ∀ i i' : grid12.Coords, (∀ a, reads12_14 a = true → i a = i' a) → cc12_transform_14 i = cc12_transform_14 i'
  hinb12_14 : ∀ (i : grid12.Coords) a, (cc12_transform_14 i a + 1) * S1x512.size a ≤ S1x512.size a
  hwx12_14 : ∀ i : grid12.Coords, EltTy.bits .f32 = 32 ∨ (Rect.block (s := S1x512) S1x512.size (cc12_transform_14 i) (hinb12_14 i)).WholeWords (EltTy.packing .f32)
  hstage12_15 : ∀ j, (stage12_15 j).IsWhole
  nbuf12_15 : grid12.bufCount reads12_15 true = 1
  hreads12_15 : ∀ i i' : grid12.Coords, (∀ a, reads12_15 a = true → i a = i' a) → cc12_transform_15 i = cc12_transform_15 i'
  hinb12_15 : ∀ (i : grid12.Coords) a, (cc12_transform_15 i a + 1) * S1x512.size a ≤ S1x512.size a
  hwx12_15 : ∀ i : grid12.Coords, EltTy.bits .f32 = 32 ∨ (Rect.block (s := S1x512) S1x512.size (cc12_transform_15 i) (hinb12_15 i)).WholeWords (EltTy.packing .f32)
  hstage12_16 : ∀ j, (stage12_16 j).IsWhole
  nbuf12_16 : grid12.bufCount reads12_16 true = 1
  hreads12_16 : ∀ i i' : grid12.Coords, (∀ a, reads12_16 a = true → i a = i' a) → cc12_transform_16 i = cc12_transform_16 i'
  hinb12_16 : ∀ (i : grid12.Coords) a, (cc12_transform_16 i a + 1) * S1x512.size a ≤ S1x512.size a
  hwx12_16 : ∀ i : grid12.Coords, EltTy.bits .f32 = 32 ∨ (Rect.block (s := S1x512) S1x512.size (cc12_transform_16 i) (hinb12_16 i)).WholeWords (EltTy.packing .f32)
  hstage12_17 : ∀ j, (stage12_17 j).IsWhole
  nbuf12_17 : grid12.bufCount reads12_17 false = 1
  hreads12_17 : ∀ i i' : grid12.Coords, (∀ a, reads12_17 a = true → i a = i' a) → cc12_transform_17 i = cc12_transform_17 i'
  hinb12_17 : ∀ (i : grid12.Coords) a, (cc12_transform_17 i a + 1) * S4x512.size a ≤ S4x512.size a
  hwx12_17 : ∀ i : grid12.Coords, EltTy.bits .f32 = 32 ∨ (Rect.block (s := S4x512) S4x512.size (cc12_transform_17 i) (hinb12_17 i)).WholeWords (EltTy.packing .f32)
  hstage12_18 : ∀ j, (stage12_18 j).IsWhole
  nbuf12_18 : grid12.bufCount reads12_18 false = 1
  hreads12_18 : ∀ i i' : grid12.Coords, (∀ a, reads12_18 a = true → i a = i' a) → cc12_transform_18 i = cc12_transform_18 i'
  hinb12_18 : ∀ (i : grid12.Coords) a, (cc12_transform_18 i a + 1) * S4x512.size a ≤ S4x512.size a
  hwx12_18 : ∀ i : grid12.Coords, EltTy.bits .f32 = 32 ∨ (Rect.block (s := S4x512) S4x512.size (cc12_transform_18 i) (hinb12_18 i)).WholeWords (EltTy.packing .f32)

class K13.Facts₀ : Prop where
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S2x512.size a ≤ S2x512.size a
  hwx13_0 : ∀ i : grid13.Coords, EltTy.bits .f32 = 32 ∨ (Rect.block (s := S2x512) S2x512.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S2x512.size a ≤ S2x512.size a
  hwx13_1 : ∀ i : grid13.Coords, EltTy.bits .f32 = 32 ∨ (Rect.block (s := S2x512) S2x512.size (cc13_transform_1 i) (hinb13_1 i)).WholeWords (EltTy.packing .f32)
  hstage13_2 : ∀ j, (stage13_2 j).IsWhole
  nbuf13_2 : grid13.bufCount reads13_2 false = 1
  hreads13_2 : ∀ i i' : grid13.Coords, (∀ a, reads13_2 a = true → i a = i' a) → cc13_transform_2 i = cc13_transform_2 i'
  hinb13_2 : ∀ (i : grid13.Coords) a, (cc13_transform_2 i a + 1) * S2x512.size a ≤ S2x512.size a
  hwx13_2 : ∀ i : grid13.Coords, EltTy.bits .f32 = 32 ∨ (Rect.block (s := S2x512) S2x512.size (cc13_transform_2 i) (hinb13_2 i)).WholeWords (EltTy.packing .f32)
  hstage13_3 : ∀ j, (stage13_3 j).IsWhole
  nbuf13_3 : grid13.bufCount reads13_3 false = 1
  hreads13_3 : ∀ i i' : grid13.Coords, (∀ a, reads13_3 a = true → i a = i' a) → cc13_transform_3 i = cc13_transform_3 i'
  hinb13_3 : ∀ (i : grid13.Coords) a, (cc13_transform_3 i a + 1) * S2x512.size a ≤ S2x512.size a
  hwx13_3 : ∀ i : grid13.Coords, EltTy.bits .f32 = 32 ∨ (Rect.block (s := S2x512) S2x512.size (cc13_transform_3 i) (hinb13_3 i)).WholeWords (EltTy.packing .f32)
  hstage13_4 : ∀ j, (stage13_4 j).IsWhole
  nbuf13_4 : grid13.bufCount reads13_4 false = 1
  hreads13_4 : ∀ i i' : grid13.Coords, (∀ a, reads13_4 a = true → i a = i' a) → cc13_transform_4 i = cc13_transform_4 i'
  hinb13_4 : ∀ (i : grid13.Coords) a, (cc13_transform_4 i a + 1) * S2x512.size a ≤ S2x512.size a
  hwx13_4 : ∀ i : grid13.Coords, EltTy.bits .f32 = 32 ∨ (Rect.block (s := S2x512) S2x512.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S512x512.size a ≤ S512x512.size a
  hwx13_5 : ∀ i : grid13.Coords, EltTy.bits .bf16 = 32 ∨ (Rect.block (s := S512x512) S512x512.size (cc13_transform_5 i) (hinb13_5 i)).WholeWords (EltTy.packing .bf16)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S512x512.size a ≤ S512x512.size a
  hwx13_6 : ∀ i : grid13.Coords, EltTy.bits .bf16 = 32 ∨ (Rect.block (s := S512x512) S512x512.size (cc13_transform_6 i) (hinb13_6 i)).WholeWords (EltTy.packing .bf16)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S512x512.size a ≤ S512x512.size a
  hwx13_7 : ∀ i : grid13.Coords, EltTy.bits .bf16 = 32 ∨ (Rect.block (s := S512x512) S512x512.size (cc13_transform_7 i) (hinb13_7 i)).WholeWords (EltTy.packing .bf16)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S512x512.size a ≤ S512x512.size a
  hwx13_8 : ∀ i : grid13.Coords, EltTy.bits .bf16 = 32 ∨ (Rect.block (s := S512x512) S512x512.size (cc13_transform_8 i) (hinb13_8 i)).WholeWords (EltTy.packing .bf16)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S512x512.size a ≤ S512x512.size a
  hwx13_9 : ∀ i : grid13.Coords, EltTy.bits .bf16 = 32 ∨ (Rect.block (s := S512x512) S512x512.size (cc13_transform_9 i) (hinb13_9 i)).WholeWords (EltTy.packing .bf16)
  hstage13_10 : ∀ j, (stage13_10 j).IsWhole
  nbuf13_10 : grid13.bufCount reads13_10 true = 1
  hreads13_10 : ∀ i i' : grid13.Coords, (∀ a, reads13_10 a = true → i a = i' a) → cc13_transform_10 i = cc13_transform_10 i'
  hinb13_10 : ∀ (i : grid13.Coords) a, (cc13_transform_10 i a + 1) * S512x512.size a ≤ S512x512.size a
  hwx13_10 : ∀ i : grid13.Coords, EltTy.bits .bf16 = 32 ∨ (Rect.block (s := S512x512) S512x512.size (cc13_transform_10 i) (hinb13_10 i)).WholeWords (EltTy.packing .bf16)
  hstage13_11 : ∀ j, (stage13_11 j).IsWhole
  nbuf13_11 : grid13.bufCount reads13_11 true = 1
  hreads13_11 : ∀ i i' : grid13.Coords, (∀ a, reads13_11 a = true → i a = i' a) → cc13_transform_11 i = cc13_transform_11 i'
  hinb13_11 : ∀ (i : grid13.Coords) a, (cc13_transform_11 i a + 1) * S512x512.size a ≤ S512x512.size a
  hwx13_11 : ∀ i : grid13.Coords, EltTy.bits .bf16 = 32 ∨ (Rect.block (s := S512x512) S512x512.size (cc13_transform_11 i) (hinb13_11 i)).WholeWords (EltTy.packing .bf16)
  hstage13_12 : ∀ j, (stage13_12 j).IsWhole
  nbuf13_12 : grid13.bufCount reads13_12 true = 1
  hreads13_12 : ∀ i i' : grid13.Coords, (∀ a, reads13_12 a = true → i a = i' a) → cc13_transform_12 i = cc13_transform_12 i'
  hinb13_12 : ∀ (i : grid13.Coords) a, (cc13_transform_12 i a + 1) * S512x512.size a ≤ S512x512.size a
  hwx13_12 : ∀ i : grid13.Coords, EltTy.bits .bf16 = 32 ∨ (Rect.block (s := S512x512) S512x512.size (cc13_transform_12 i) (hinb13_12 i)).WholeWords (EltTy.packing .bf16)
  hstage13_13 : ∀ j, (stage13_13 j).IsWhole
  nbuf13_13 : grid13.bufCount reads13_13 true = 1
  hreads13_13 : ∀ i i' : grid13.Coords, (∀ a, reads13_13 a = true → i a = i' a) → cc13_transform_13 i = cc13_transform_13 i'
  hinb13_13 : ∀ (i : grid13.Coords) a, (cc13_transform_13 i a + 1) * S1x512.size a ≤ S1x512.size a
  hwx13_13 : ∀ i : grid13.Coords, EltTy.bits .f32 = 32 ∨ (Rect.block (s := S1x512) S1x512.size (cc13_transform_13 i) (hinb13_13 i)).WholeWords (EltTy.packing .f32)
  hstage13_14 : ∀ j, (stage13_14 j).IsWhole
  nbuf13_14 : grid13.bufCount reads13_14 true = 1
  hreads13_14 : ∀ i i' : grid13.Coords, (∀ a, reads13_14 a = true → i a = i' a) → cc13_transform_14 i = cc13_transform_14 i'
  hinb13_14 : ∀ (i : grid13.Coords) a, (cc13_transform_14 i a + 1) * S1x512.size a ≤ S1x512.size a
  hwx13_14 : ∀ i : grid13.Coords, EltTy.bits .f32 = 32 ∨ (Rect.block (s := S1x512) S1x512.size (cc13_transform_14 i) (hinb13_14 i)).WholeWords (EltTy.packing .f32)
  hstage13_15 : ∀ j, (stage13_15 j).IsWhole
  nbuf13_15 : grid13.bufCount reads13_15 true = 1
  hreads13_15 : ∀ i i' : grid13.Coords, (∀ a, reads13_15 a = true → i a = i' a) → cc13_transform_15 i = cc13_transform_15 i'
  hinb13_15 : ∀ (i : grid13.Coords) a, (cc13_transform_15 i a + 1) * S1x512.size a ≤ S1x512.size a
  hwx13_15 : ∀ i : grid13.Coords, EltTy.bits .f32 = 32 ∨ (Rect.block (s := S1x512) S1x512.size (cc13_transform_15 i) (hinb13_15 i)).WholeWords (EltTy.packing .f32)
  hstage13_16 : ∀ j, (stage13_16 j).IsWhole
  nbuf13_16 : grid13.bufCount reads13_16 true = 1
  hreads13_16 : ∀ i i' : grid13.Coords, (∀ a, reads13_16 a = true → i a = i' a) → cc13_transform_16 i = cc13_transform_16 i'
  hinb13_16 : ∀ (i : grid13.Coords) a, (cc13_transform_16 i a + 1) * S1x512.size a ≤ S1x512.size a
  hwx13_16 : ∀ i : grid13.Coords, EltTy.bits .f32 = 32 ∨ (Rect.block (s := S1x512) S1x512.size (cc13_transform_16 i) (hinb13_16 i)).WholeWords (EltTy.packing .f32)
  hstage13_17 : ∀ j, (stage13_17 j).IsWhole
  nbuf13_17 : grid13.bufCount reads13_17 false = 1
  hreads13_17 : ∀ i i' : grid13.Coords, (∀ a, reads13_17 a = true → i a = i' a) → cc13_transform_17 i = cc13_transform_17 i'
  hinb13_17 : ∀ (i : grid13.Coords) a, (cc13_transform_17 i a + 1) * S2x512.size a ≤ S2x512.size a
  hwx13_17 : ∀ i : grid13.Coords, EltTy.bits .f32 = 32 ∨ (Rect.block (s := S2x512) S2x512.size (cc13_transform_17 i) (hinb13_17 i)).WholeWords (EltTy.packing .f32)
  hstage13_18 : ∀ j, (stage13_18 j).IsWhole
  nbuf13_18 : grid13.bufCount reads13_18 false = 1
  hreads13_18 : ∀ i i' : grid13.Coords, (∀ a, reads13_18 a = true → i a = i' a) → cc13_transform_18 i = cc13_transform_18 i'
  hinb13_18 : ∀ (i : grid13.Coords) a, (cc13_transform_18 i a + 1) * S2x512.size a ≤ S2x512.size a
  hwx13_18 : ∀ i : grid13.Coords, EltTy.bits .f32 = 32 ∨ (Rect.block (s := S2x512) S2x512.size (cc13_transform_18 i) (hinb13_18 i)).WholeWords (EltTy.packing .f32)

class K14.Facts₀ : Prop where
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S1x512.size a ≤ S1x512.size a
  hwx14_0 : ∀ i : grid14.Coords, EltTy.bits .f32 = 32 ∨ (Rect.block (s := S1x512) S1x512.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S1x512.size a ≤ S1x512.size a
  hwx14_1 : ∀ i : grid14.Coords, EltTy.bits .f32 = 32 ∨ (Rect.block (s := S1x512) S1x512.size (cc14_transform_1 i) (hinb14_1 i)).WholeWords (EltTy.packing .f32)
  hstage14_2 : ∀ j, (stage14_2 j).IsWhole
  nbuf14_2 : grid14.bufCount reads14_2 false = 1
  hreads14_2 : ∀ i i' : grid14.Coords, (∀ a, reads14_2 a = true → i a = i' a) → cc14_transform_2 i = cc14_transform_2 i'
  hinb14_2 : ∀ (i : grid14.Coords) a, (cc14_transform_2 i a + 1) * S1x512.size a ≤ S1x512.size a
  hwx14_2 : ∀ i : grid14.Coords, EltTy.bits .f32 = 32 ∨ (Rect.block (s := S1x512) S1x512.size (cc14_transform_2 i) (hinb14_2 i)).WholeWords (EltTy.packing .f32)
  hstage14_3 : ∀ j, (stage14_3 j).IsWhole
  nbuf14_3 : grid14.bufCount reads14_3 false = 1
  hreads14_3 : ∀ i i' : grid14.Coords, (∀ a, reads14_3 a = true → i a = i' a) → cc14_transform_3 i = cc14_transform_3 i'
  hinb14_3 : ∀ (i : grid14.Coords) a, (cc14_transform_3 i a + 1) * S1x512.size a ≤ S1x512.size a
  hwx14_3 : ∀ i : grid14.Coords, EltTy.bits .f32 = 32 ∨ (Rect.block (s := S1x512) S1x512.size (cc14_transform_3 i) (hinb14_3 i)).WholeWords (EltTy.packing .f32)
  hstage14_4 : ∀ j, (stage14_4 j).IsWhole
  nbuf14_4 : grid14.bufCount reads14_4 false = 1
  hreads14_4 : ∀ i i' : grid14.Coords, (∀ a, reads14_4 a = true → i a = i' a) → cc14_transform_4 i = cc14_transform_4 i'
  hinb14_4 : ∀ (i : grid14.Coords) a, (cc14_transform_4 i a + 1) * S1x512.size a ≤ S1x512.size a
  hwx14_4 : ∀ i : grid14.Coords, EltTy.bits .f32 = 32 ∨ (Rect.block (s := S1x512) S1x512.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S512x512.size a ≤ S512x512.size a
  hwx14_5 : ∀ i : grid14.Coords, EltTy.bits .bf16 = 32 ∨ (Rect.block (s := S512x512) S512x512.size (cc14_transform_5 i) (hinb14_5 i)).WholeWords (EltTy.packing .bf16)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S512x512.size a ≤ S512x512.size a
  hwx14_6 : ∀ i : grid14.Coords, EltTy.bits .bf16 = 32 ∨ (Rect.block (s := S512x512) S512x512.size (cc14_transform_6 i) (hinb14_6 i)).WholeWords (EltTy.packing .bf16)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S512x512.size a ≤ S512x512.size a
  hwx14_7 : ∀ i : grid14.Coords, EltTy.bits .bf16 = 32 ∨ (Rect.block (s := S512x512) S512x512.size (cc14_transform_7 i) (hinb14_7 i)).WholeWords (EltTy.packing .bf16)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S512x512.size a ≤ S512x512.size a
  hwx14_8 : ∀ i : grid14.Coords, EltTy.bits .bf16 = 32 ∨ (Rect.block (s := S512x512) S512x512.size (cc14_transform_8 i) (hinb14_8 i)).WholeWords (EltTy.packing .bf16)
  hstage14_9 : ∀ j, (stage14_9 j).IsWhole
  nbuf14_9 : grid14.bufCount reads14_9 true = 1
  hreads14_9 : ∀ i i' : grid14.Coords, (∀ a, reads14_9 a = true → i a = i' a) → cc14_transform_9 i = cc14_transform_9 i'
  hinb14_9 : ∀ (i : grid14.Coords) a, (cc14_transform_9 i a + 1) * S512x512.size a ≤ S512x512.size a
  hwx14_9 : ∀ i : grid14.Coords, EltTy.bits .bf16 = 32 ∨ (Rect.block (s := S512x512) S512x512.size (cc14_transform_9 i) (hinb14_9 i)).WholeWords (EltTy.packing .bf16)
  hstage14_10 : ∀ j, (stage14_10 j).IsWhole
  nbuf14_10 : grid14.bufCount reads14_10 true = 1
  hreads14_10 : ∀ i i' : grid14.Coords, (∀ a, reads14_10 a = true → i a = i' a) → cc14_transform_10 i = cc14_transform_10 i'
  hinb14_10 : ∀ (i : grid14.Coords) a, (cc14_transform_10 i a + 1) * S512x512.size a ≤ S512x512.size a
  hwx14_10 : ∀ i : grid14.Coords, EltTy.bits .bf16 = 32 ∨ (Rect.block (s := S512x512) S512x512.size (cc14_transform_10 i) (hinb14_10 i)).WholeWords (EltTy.packing .bf16)
  hstage14_11 : ∀ j, (stage14_11 j).IsWhole
  nbuf14_11 : grid14.bufCount reads14_11 true = 1
  hreads14_11 : ∀ i i' : grid14.Coords, (∀ a, reads14_11 a = true → i a = i' a) → cc14_transform_11 i = cc14_transform_11 i'
  hinb14_11 : ∀ (i : grid14.Coords) a, (cc14_transform_11 i a + 1) * S512x512.size a ≤ S512x512.size a
  hwx14_11 : ∀ i : grid14.Coords, EltTy.bits .bf16 = 32 ∨ (Rect.block (s := S512x512) S512x512.size (cc14_transform_11 i) (hinb14_11 i)).WholeWords (EltTy.packing .bf16)
  hstage14_12 : ∀ j, (stage14_12 j).IsWhole
  nbuf14_12 : grid14.bufCount reads14_12 true = 1
  hreads14_12 : ∀ i i' : grid14.Coords, (∀ a, reads14_12 a = true → i a = i' a) → cc14_transform_12 i = cc14_transform_12 i'
  hinb14_12 : ∀ (i : grid14.Coords) a, (cc14_transform_12 i a + 1) * S512x512.size a ≤ S512x512.size a
  hwx14_12 : ∀ i : grid14.Coords, EltTy.bits .bf16 = 32 ∨ (Rect.block (s := S512x512) S512x512.size (cc14_transform_12 i) (hinb14_12 i)).WholeWords (EltTy.packing .bf16)
  hstage14_13 : ∀ j, (stage14_13 j).IsWhole
  nbuf14_13 : grid14.bufCount reads14_13 true = 1
  hreads14_13 : ∀ i i' : grid14.Coords, (∀ a, reads14_13 a = true → i a = i' a) → cc14_transform_13 i = cc14_transform_13 i'
  hinb14_13 : ∀ (i : grid14.Coords) a, (cc14_transform_13 i a + 1) * S1x512.size a ≤ S1x512.size a
  hwx14_13 : ∀ i : grid14.Coords, EltTy.bits .f32 = 32 ∨ (Rect.block (s := S1x512) S1x512.size (cc14_transform_13 i) (hinb14_13 i)).WholeWords (EltTy.packing .f32)
  hstage14_14 : ∀ j, (stage14_14 j).IsWhole
  nbuf14_14 : grid14.bufCount reads14_14 true = 1
  hreads14_14 : ∀ i i' : grid14.Coords, (∀ a, reads14_14 a = true → i a = i' a) → cc14_transform_14 i = cc14_transform_14 i'
  hinb14_14 : ∀ (i : grid14.Coords) a, (cc14_transform_14 i a + 1) * S1x512.size a ≤ S1x512.size a
  hwx14_14 : ∀ i : grid14.Coords, EltTy.bits .f32 = 32 ∨ (Rect.block (s := S1x512) S1x512.size (cc14_transform_14 i) (hinb14_14 i)).WholeWords (EltTy.packing .f32)
  hstage14_15 : ∀ j, (stage14_15 j).IsWhole
  nbuf14_15 : grid14.bufCount reads14_15 true = 1
  hreads14_15 : ∀ i i' : grid14.Coords, (∀ a, reads14_15 a = true → i a = i' a) → cc14_transform_15 i = cc14_transform_15 i'
  hinb14_15 : ∀ (i : grid14.Coords) a, (cc14_transform_15 i a + 1) * S1x512.size a ≤ S1x512.size a
  hwx14_15 : ∀ i : grid14.Coords, EltTy.bits .f32 = 32 ∨ (Rect.block (s := S1x512) S1x512.size (cc14_transform_15 i) (hinb14_15 i)).WholeWords (EltTy.packing .f32)
  hstage14_16 : ∀ j, (stage14_16 j).IsWhole
  nbuf14_16 : grid14.bufCount reads14_16 true = 1
  hreads14_16 : ∀ i i' : grid14.Coords, (∀ a, reads14_16 a = true → i a = i' a) → cc14_transform_16 i = cc14_transform_16 i'
  hinb14_16 : ∀ (i : grid14.Coords) a, (cc14_transform_16 i a + 1) * S1x512.size a ≤ S1x512.size a
  hwx14_16 : ∀ i : grid14.Coords, EltTy.bits .f32 = 32 ∨ (Rect.block (s := S1x512) S1x512.size (cc14_transform_16 i) (hinb14_16 i)).WholeWords (EltTy.packing .f32)
  hstage14_17 : ∀ j, (stage14_17 j).IsWhole
  nbuf14_17 : grid14.bufCount reads14_17 false = 1
  hreads14_17 : ∀ i i' : grid14.Coords, (∀ a, reads14_17 a = true → i a = i' a) → cc14_transform_17 i = cc14_transform_17 i'
  hinb14_17 : ∀ (i : grid14.Coords) a, (cc14_transform_17 i a + 1) * S1x512.size a ≤ S1x512.size a
  hwx14_17 : ∀ i : grid14.Coords, EltTy.bits .f32 = 32 ∨ (Rect.block (s := S1x512) S1x512.size (cc14_transform_17 i) (hinb14_17 i)).WholeWords (EltTy.packing .f32)
  hstage14_18 : ∀ j, (stage14_18 j).IsWhole
  nbuf14_18 : grid14.bufCount reads14_18 false = 1
  hreads14_18 : ∀ i i' : grid14.Coords, (∀ a, reads14_18 a = true → i a = i' a) → cc14_transform_18 i = cc14_transform_18 i'
  hinb14_18 : ∀ (i : grid14.Coords) a, (cc14_transform_18 i a + 1) * S1x512.size a ≤ S1x512.size a
  hwx14_18 : ∀ i : grid14.Coords, EltTy.bits .f32 = 32 ∨ (Rect.block (s := S1x512) S1x512.size (cc14_transform_18 i) (hinb14_18 i)).WholeWords (EltTy.packing .f32)

class Shapes1.Facts₀ : Prop where
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  shapeCasts_S512_S1x512 : S512.ShapeCasts S1x512
  bcast_S_S32767x512 : S_.BroadcastsInDim S32767x512 (![] : Fin 0 → Fin S32767x512.rank)
  slices_S32767x512_S16384x512_16383_0 : S32767x512.Slices ![16383, 0] S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bcast_S_S1 : S_.BroadcastsInDim S1 (![] : Fin 0 → Fin S1.rank)
  slices_S32767x512_S8192x512_8191_0 : S32767x512.Slices ![8191, 0] S8192x512
  shapeCasts_S16384x512_S8192x2x512 : S16384x512.ShapeCasts S8192x2x512
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  slices_S32767x512_S4096x512_4095_0 : S32767x512.Slices ![4095, 0] S4096x512
  shapeCasts_S8192x512_S4096x2x512 : S8192x512.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  slices_S32767x512_S2048x512_2047_0 : S32767x512.Slices ![2047, 0] S2048x512
  shapeCasts_S4096x512_S2048x2x512 : S4096x512.ShapeCasts S2048x2x512
  slices_S2048x2x512_S2048x1x512_0_0_0 : S2048x2x512.Slices ![0, 0, 0] S2048x1x512
  shapeCasts_S2048x1x512_S2048x512 : S2048x1x512.ShapeCasts S2048x512
  slices_S2048x2x512_S2048x1x512_0_1_0 : S2048x2x512.Slices ![0, 1, 0] S2048x1x512
  slices_S32767x512_S1024x512_1023_0 : S32767x512.Slices ![1023, 0] S1024x512
  shapeCasts_S2048x512_S1024x2x512 : S2048x512.ShapeCasts S1024x2x512
  slices_S1024x2x512_S1024x1x512_0_0_0 : S1024x2x512.Slices ![0, 0, 0] S1024x1x512
  shapeCasts_S1024x1x512_S1024x512 : S1024x1x512.ShapeCasts S1024x512
  slices_S1024x2x512_S1024x1x512_0_1_0 : S1024x2x512.Slices ![0, 1, 0] S1024x1x512
  slices_S32767x512_S512x512_511_0 : S32767x512.Slices ![511, 0] S512x512
  shapeCasts_S1024x512_S512x2x512 : S1024x512.ShapeCasts S512x2x512
  slices_S512x2x512_S512x1x512_0_0_0 : S512x2x512.Slices ![0, 0, 0] S512x1x512
  shapeCasts_S512x1x512_S512x512 : S512x1x512.ShapeCasts S512x512
  slices_S512x2x512_S512x1x512_0_1_0 : S512x2x512.Slices ![0, 1, 0] S512x1x512
  broadcasts_S1x512_S512x512 : S1x512.Broadcasts S512x512
  slices_S32767x512_S256x512_255_0 : S32767x512.Slices ![255, 0] S256x512
  shapeCasts_S512x512_S256x2x512 : S512x512.ShapeCasts S256x2x512
  slices_S256x2x512_S256x1x512_0_0_0 : S256x2x512.Slices ![0, 0, 0] S256x1x512
  shapeCasts_S256x1x512_S256x512 : S256x1x512.ShapeCasts S256x512
  slices_S256x2x512_S256x1x512_0_1_0 : S256x2x512.Slices ![0, 1, 0] S256x1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S256x512 : S1x512.Broadcasts S256x512
  slices_S32767x512_S128x512_127_0 : S32767x512.Slices ![127, 0] S128x512
  shapeCasts_S256x512_S128x2x512 : S256x512.ShapeCasts S128x2x512
  slices_S128x2x512_S128x1x512_0_0_0 : S128x2x512.Slices ![0, 0, 0] S128x1x512
  shapeCasts_S128x1x512_S128x512 : S128x1x512.ShapeCasts S128x512
  slices_S128x2x512_S128x1x512_0_1_0 : S128x2x512.Slices ![0, 1, 0] S128x1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1x512_S128x512 : S1x512.Broadcasts S128x512
  slices_S32767x512_S64x512_63_0 : S32767x512.Slices ![63, 0] S64x512
  shapeCasts_S128x512_S64x2x512 : S128x512.ShapeCasts S64x2x512
  slices_S64x2x512_S64x1x512_0_0_0 : S64x2x512.Slices ![0, 0, 0] S64x1x512
  shapeCasts_S64x1x512_S64x512 : S64x1x512.ShapeCasts S64x512
  slices_S64x2x512_S64x1x512_0_1_0 : S64x2x512.Slices ![0, 1, 0] S64x1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x512_S64x512 : S1x512.Broadcasts S64x512
  slices_S32767x512_S32x512_31_0 : S32767x512.Slices ![31, 0] S32x512
  shapeCasts_S64x512_S32x2x512 : S64x512.ShapeCasts S32x2x512
  slices_S32x2x512_S32x1x512_0_0_0 : S32x2x512.Slices ![0, 0, 0] S32x1x512
  shapeCasts_S32x1x512_S32x512 : S32x1x512.ShapeCasts S32x512
  slices_S32x2x512_S32x1x512_0_1_0 : S32x2x512.Slices ![0, 1, 0] S32x1x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  broadcasts_S1x512_S32x512 : S1x512.Broadcasts S32x512
  slices_S32767x512_S16x512_15_0 : S32767x512.Slices ![15, 0] S16x512
  shapeCasts_S32x512_S16x2x512 : S32x512.ShapeCasts S16x2x512
  slices_S16x2x512_S16x1x512_0_0_0 : S16x2x512.Slices ![0, 0, 0] S16x1x512
  shapeCasts_S16x1x512_S16x512 : S16x1x512.ShapeCasts S16x512
  slices_S16x2x512_S16x1x512_0_1_0 : S16x2x512.Slices ![0, 1, 0] S16x1x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  broadcasts_S1x512_S16x512 : S1x512.Broadcasts S16x512
  slices_S32767x512_S8x512_7_0 : S32767x512.Slices ![7, 0] S8x512
  shapeCasts_S16x512_S8x2x512 : S16x512.ShapeCasts S8x2x512
  slices_S8x2x512_S8x1x512_0_0_0 : S8x2x512.Slices ![0, 0, 0] S8x1x512
  shapeCasts_S8x1x512_S8x512 : S8x1x512.ShapeCasts S8x512
  slices_S8x2x512_S8x1x512_0_1_0 : S8x2x512.Slices ![0, 1, 0] S8x1x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  broadcasts_S1x512_S8x512 : S1x512.Broadcasts S8x512
  slices_S32767x512_S4x512_3_0 : S32767x512.Slices ![3, 0] S4x512
  shapeCasts_S8x512_S4x2x512 : S8x512.ShapeCasts S4x2x512
  slices_S4x2x512_S4x1x512_0_0_0 : S4x2x512.Slices ![0, 0, 0] S4x1x512
  shapeCasts_S4x1x512_S4x512 : S4x1x512.ShapeCasts S4x512
  slices_S4x2x512_S4x1x512_0_1_0 : S4x2x512.Slices ![0, 1, 0] S4x1x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  broadcasts_S1x512_S4x512 : S1x512.Broadcasts S4x512
  slices_S32767x512_S2x512_1_0 : S32767x512.Slices ![1, 0] S2x512
  shapeCasts_S4x512_S2x2x512 : S4x512.ShapeCasts S2x2x512
  slices_S2x2x512_S2x1x512_0_0_0 : S2x2x512.Slices ![0, 0, 0] S2x1x512
  shapeCasts_S2x1x512_S2x512 : S2x1x512.ShapeCasts S2x512
  slices_S2x2x512_S2x1x512_0_1_0 : S2x2x512.Slices ![0, 1, 0] S2x1x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  broadcasts_S1x512_S2x512 : S1x512.Broadcasts S2x512
  slices_S32767x512_S1x512_0_0 : S32767x512.Slices ![0, 0] S1x512
  shapeCasts_S2x512_S1x2x512 : S2x512.ShapeCasts S1x2x512
  slices_S1x2x512_S1x1x512_0_0_0 : S1x2x512.Slices ![0, 0, 0] S1x1x512
  shapeCasts_S1x1x512_S1x512 : S1x1x512.ShapeCasts S1x512
  slices_S1x2x512_S1x1x512_0_1_0 : S1x2x512.Slices ![0, 1, 0] S1x1x512
  shapeCasts_S1x512_S512 : S1x512.ShapeCasts S512
  dot_S1024x512_S512x512_S1024x512_1_0_0_1_n_n_wf : DotDims.WF S1024x512 S512x512 S1024x512 [1] [0] [0] [1] [] []
  scatter_S32767x512_S1_S16384x512_01_n_0_0_wf : ScatterDims.WF S32767x512 S1 S16384x512 [0, 1] [] [0] 0
  scatter_S32767x512_S1_S8192x512_01_n_0_0_wf : ScatterDims.WF S32767x512 S1 S8192x512 [0, 1] [] [0] 0
  scatter_S32767x512_S1_S4096x512_01_n_0_0_wf : ScatterDims.WF S32767x512 S1 S4096x512 [0, 1] [] [0] 0
  scatter_S32767x512_S1_S2048x512_01_n_0_0_wf : ScatterDims.WF S32767x512 S1 S2048x512 [0, 1] [] [0] 0
  scatter_S32767x512_S1_S1024x512_01_n_0_0_wf : ScatterDims.WF S32767x512 S1 S1024x512 [0, 1] [] [0] 0
  dot_S512x512_S512x512_S512x512_1_0_0_1_n_n_wf : DotDims.WF S512x512 S512x512 S512x512 [1] [0] [0] [1] [] []
  scatter_S32767x512_S1_S512x512_01_n_0_0_wf : ScatterDims.WF S32767x512 S1 S512x512 [0, 1] [] [0] 0
  dot_S256x512_S512x512_S256x512_1_0_0_1_n_n_wf : DotDims.WF S256x512 S512x512 S256x512 [1] [0] [0] [1] [] []
  scatter_S32767x512_S1_S256x512_01_n_0_0_wf : ScatterDims.WF S32767x512 S1 S256x512 [0, 1] [] [0] 0
  dot_S128x512_S512x512_S128x512_1_0_0_1_n_n_wf : DotDims.WF S128x512 S512x512 S128x512 [1] [0] [0] [1] [] []
  scatter_S32767x512_S1_S128x512_01_n_0_0_wf : ScatterDims.WF S32767x512 S1 S128x512 [0, 1] [] [0] 0
  dot_S64x512_S512x512_S64x512_1_0_0_1_n_n_wf : DotDims.WF S64x512 S512x512 S64x512 [1] [0] [0] [1] [] []
  scatter_S32767x512_S1_S64x512_01_n_0_0_wf : ScatterDims.WF S32767x512 S1 S64x512 [0, 1] [] [0] 0
  dot_S32x512_S512x512_S32x512_1_0_0_1_n_n_wf : DotDims.WF S32x512 S512x512 S32x512 [1] [0] [0] [1] [] []
  scatter_S32767x512_S1_S32x512_01_n_0_0_wf : ScatterDims.WF S32767x512 S1 S32x512 [0, 1] [] [0] 0
  dot_S16x512_S512x512_S16x512_1_0_0_1_n_n_wf : DotDims.WF S16x512 S512x512 S16x512 [1] [0] [0] [1] [] []
  scatter_S32767x512_S1_S16x512_01_n_0_0_wf : ScatterDims.WF S32767x512 S1 S16x512 [0, 1] [] [0] 0
  dot_S8x512_S512x512_S8x512_1_0_0_1_n_n_wf : DotDims.WF S8x512 S512x512 S8x512 [1] [0] [0] [1] [] []
  scatter_S32767x512_S1_S8x512_01_n_0_0_wf : ScatterDims.WF S32767x512 S1 S8x512 [0, 1] [] [0] 0
  dot_S4x512_S512x512_S4x512_1_0_0_1_n_n_wf : DotDims.WF S4x512 S512x512 S4x512 [1] [0] [0] [1] [] []
  scatter_S32767x512_S1_S4x512_01_n_0_0_wf : ScatterDims.WF S32767x512 S1 S4x512 [0, 1] [] [0] 0
  dot_S2x512_S512x512_S2x512_1_0_0_1_n_n_wf : DotDims.WF S2x512 S512x512 S2x512 [1] [0] [0] [1] [] []
  scatter_S32767x512_S1_S2x512_01_n_0_0_wf : ScatterDims.WF S32767x512 S1 S2x512 [0, 1] [] [0] 0
  dot_S1x512_S512x512_S1x512_1_0_0_1_n_n_wf : DotDims.WF S1x512 S512x512 S1x512 [1] [0] [0] [1] [] []
  scatter_S32767x512_S1_S1x512_01_n_0_0_wf : ScatterDims.WF S32767x512 S1 S1x512 [0, 1] [] [0] 0

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.shapes1

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def scatter_S32767x512_S1_S16384x512_01_n_0_0 : ScatterDims S32767x512 S1 S16384x512 where
  updateWindowDims := [0, 1]
  insertedWindowDims := []
  scatterDimsToOperandDims := [0]
  indexVectorDim := 0
  wf := scatter_S32767x512_S1_S16384x512_01_n_0_0_wf
def scatter_S32767x512_S1_S8192x512_01_n_0_0 : ScatterDims S32767x512 S1 S8192x512 where
  updateWindowDims := [0, 1]
  insertedWindowDims := []
  scatterDimsToOperandDims := [0]
  indexVectorDim := 0
  wf := scatter_S32767x512_S1_S8192x512_01_n_0_0_wf
def scatter_S32767x512_S1_S4096x512_01_n_0_0 : ScatterDims S32767x512 S1 S4096x512 where
  updateWindowDims := [0, 1]
  insertedWindowDims := []
  scatterDimsToOperandDims := [0]
  indexVectorDim := 0
  wf := scatter_S32767x512_S1_S4096x512_01_n_0_0_wf
def scatter_S32767x512_S1_S2048x512_01_n_0_0 : ScatterDims S32767x512 S1 S2048x512 where
  updateWindowDims := [0, 1]
  insertedWindowDims := []
  scatterDimsToOperandDims := [0]
  indexVectorDim := 0
  wf := scatter_S32767x512_S1_S2048x512_01_n_0_0_wf
def scatter_S32767x512_S1_S1024x512_01_n_0_0 : ScatterDims S32767x512 S1 S1024x512 where
  updateWindowDims := [0, 1]
  insertedWindowDims := []
  scatterDimsToOperandDims := [0]
  indexVectorDim := 0
  wf := scatter_S32767x512_S1_S1024x512_01_n_0_0_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def scatter_S32767x512_S1_S512x512_01_n_0_0 : ScatterDims S32767x512 S1 S512x512 where
  updateWindowDims := [0, 1]
  insertedWindowDims := []
  scatterDimsToOperandDims := [0]
  indexVectorDim := 0
  wf := scatter_S32767x512_S1_S512x512_01_n_0_0_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def scatter_S32767x512_S1_S256x512_01_n_0_0 : ScatterDims S32767x512 S1 S256x512 where
  updateWindowDims := [0, 1]
  insertedWindowDims := []
  scatterDimsToOperandDims := [0]
  indexVectorDim := 0
  wf := scatter_S32767x512_S1_S256x512_01_n_0_0_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def scatter_S32767x512_S1_S128x512_01_n_0_0 : ScatterDims S32767x512 S1 S128x512 where
  updateWindowDims := [0, 1]
  insertedWindowDims := []
  scatterDimsToOperandDims := [0]
  indexVectorDim := 0
  wf := scatter_S32767x512_S1_S128x512_01_n_0_0_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def scatter_S32767x512_S1_S64x512_01_n_0_0 : ScatterDims S32767x512 S1 S64x512 where
  updateWindowDims := [0, 1]
  insertedWindowDims := []
  scatterDimsToOperandDims := [0]
  indexVectorDim := 0
  wf := scatter_S32767x512_S1_S64x512_01_n_0_0_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def scatter_S32767x512_S1_S32x512_01_n_0_0 : ScatterDims S32767x512 S1 S32x512 where
  updateWindowDims := [0, 1]
  insertedWindowDims := []
  scatterDimsToOperandDims := [0]
  indexVectorDim := 0
  wf := scatter_S32767x512_S1_S32x512_01_n_0_0_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def scatter_S32767x512_S1_S16x512_01_n_0_0 : ScatterDims S32767x512 S1 S16x512 where
  updateWindowDims := [0, 1]
  insertedWindowDims := []
  scatterDimsToOperandDims := [0]
  indexVectorDim := 0
  wf := scatter_S32767x512_S1_S16x512_01_n_0_0_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def scatter_S32767x512_S1_S8x512_01_n_0_0 : ScatterDims S32767x512 S1 S8x512 where
  updateWindowDims := [0, 1]
  insertedWindowDims := []
  scatterDimsToOperandDims := [0]
  indexVectorDim := 0
  wf := scatter_S32767x512_S1_S8x512_01_n_0_0_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def scatter_S32767x512_S1_S4x512_01_n_0_0 : ScatterDims S32767x512 S1 S4x512 where
  updateWindowDims := [0, 1]
  insertedWindowDims := []
  scatterDimsToOperandDims := [0]
  indexVectorDim := 0
  wf := scatter_S32767x512_S1_S4x512_01_n_0_0_wf
def dot_S2x512_S512x512_S2x512_1_0_0_1_n_n : DotDims S2x512 S512x512 S2x512 where
  lhsContracting := [1]
  rhsContracting := [0]
  lhsNonContracting := [0]
  rhsNonContracting := [1]
  lhsBatch := []
  rhsBatch := []
  wf := dot_S2x512_S512x512_S2x512_1_0_0_1_n_n_wf
def scatter_S32767x512_S1_S2x512_01_n_0_0 : ScatterDims S32767x512 S1 S2x512 where
  updateWindowDims := [0, 1]
  insertedWindowDims := []
  scatterDimsToOperandDims := [0]
  indexVectorDim := 0
  wf := scatter_S32767x512_S1_S2x512_01_n_0_0_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def scatter_S32767x512_S1_S1x512_01_n_0_0 : ScatterDims S32767x512 S1 S1x512 where
  updateWindowDims := [0, 1]
  insertedWindowDims := []
  scatterDimsToOperandDims := [0]
  indexVectorDim := 0
  wf := scatter_S32767x512_S1_S1x512_01_n_0_0_wf

abbrev win0_0 : Pipeline.Window sig grid0 :=
  Pipeline.Window.ofSpec (Memref.whole main_v30) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31_1) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17) S512x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S512x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v23) S512x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v24) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v25) S1x512.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v26) S1x512.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v27) S1x512.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v49_0) S1024x512.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v49_1) S1024x512.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev win2_0 : Pipeline.Window sig grid2 :=
  Pipeline.Window.ofSpec (Memref.whole main_v54) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S512x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S512x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S512x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v14) S512x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v17) S512x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v20) S512x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v23) S512x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v24) S1x512.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v25) S1x512.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v26) S1x512.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v27) S1x512.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v67_0) S1024x512.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v67_1) S1024x512.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

abbrev win3_0 : Pipeline.Window sig grid3 :=
  Pipeline.Window.ofSpec (Memref.whole main_v72) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1024x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1024x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v2) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v5) S512x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S512x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v11) S512x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v14) S512x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17) S512x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v20) S512x512.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v23) S512x512.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v24) S1x512.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v25) S1x512.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v26) S1x512.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v27) S1x512.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v85_0) S1024x512.size cc3_transform_17 reads3_17 true false 2 stage3_17 sem3_17
    hrank3 hreads3_17 hinb3_17 nbuf3_17 (Memref.isWhole_whole _) hwx3_17 hstage3_17

abbrev win3_18 : Pipeline.Window sig grid3 :=
  Pipeline.Window.ofSpec (Memref.whole main_v85_1) S1024x512.size cc3_transform_18 reads3_18 true false 2 stage3_18 sem3_18
    hrank3 hreads3_18 hinb3_18 nbuf3_18 (Memref.isWhole_whole _) hwx3_18 hstage3_18

abbrev win3 : Fin 19 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | ⟨_ + 19, h⟩ => absurd h (Nat.not_lt.2 (Nat.le_add_left _ _))
abbrev spec3 : Fin 19 → Pipeline.WinSpec sig grid3.rank := fun w => (win3 w).toWinSpec

abbrev win4_0 : Pipeline.Window sig grid4 :=
  Pipeline.Window.ofSpec (Memref.whole main_v90) S1024x512.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v96) S1024x512.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1024x512.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S1024x512.size cc4_transform_3 reads4_3 false false 1 stage4_3 sem4_3
    hrank4 hreads4_3 hinb4_3 nbuf4_3 (Memref.isWhole_whole _) hwx4_3 hstage4_3

abbrev win4_4 : Pipeline.Window sig grid4 :=
  Pipeline.Window.ofSpec (Memref.whole main_v102) S1024x512.size cc4_transform_4 reads4_4 false false 1 stage4_4 sem4_4
    hrank4 hreads4_4 hinb4_4 nbuf4_4 (Memref.isWhole_whole _) hwx4_4 hstage4_4

abbrev win4_5 : Pipeline.Window sig grid4 :=
  Pipeline.Window.ofSpec (Memref.whole main_v2) S512x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v5) S512x512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v8) S512x512.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v11) S512x512.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v14) S512x512.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v17) S512x512.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v20) S512x512.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v23) S512x512.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v24) S1x512.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v25) S1x512.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v26) S1x512.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v27) S1x512.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v103_0) S1024x512.size cc4_transform_17 reads4_17 true false 1 stage4_17 sem4_17
    hrank4 hreads4_17 hinb4_17 nbuf4_17 (Memref.isWhole_whole _) hwx4_17 hstage4_17

abbrev win4_18 : Pipeline.Window sig grid4 :=
  Pipeline.Window.ofSpec (Memref.whole main_v103_1) S1024x512.size cc4_transform_18 reads4_18 true false 1 stage4_18 sem4_18
    hrank4 hreads4_18 hinb4_18 nbuf4_18 (Memref.isWhole_whole _) hwx4_18 hstage4_18

abbrev win4 : Fin 19 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | ⟨_ + 19, h⟩ => absurd h (Nat.not_lt.2 (Nat.le_add_left _ _))
abbrev spec4 : Fin 19 → Pipeline.WinSpec sig grid4.rank := fun w => (win4 w).toWinSpec

abbrev win5_0 : Pipeline.Window sig grid5 :=
  Pipeline.Window.ofSpec (Memref.whole main_v108) S512x512.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v114) S512x512.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v116) S512x512.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S512x512.size cc5_transform_3 reads5_3 false false 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S512x512.size cc5_transform_4 reads5_4 false false 1 stage5_4 sem5_4
    hrank5 hreads5_4 hinb5_4 nbuf5_4 (Memref.isWhole_whole _) hwx5_4 hstage5_4

abbrev win5_5 : Pipeline.Window sig grid5 :=
  Pipeline.Window.ofSpec (Memref.whole main_v2) S512x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v5) S512x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v8) S512x512.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v11) S512x512.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v14) S512x512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v17) S512x512.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v20) S512x512.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v23) S512x512.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v24) S1x512.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v25) S1x512.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_v26) S1x512.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_v27) S1x512.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_v121_0) S512x512.size cc5_transform_17 reads5_17 true false 1 stage5_17 sem5_17
    hrank5 hreads5_17 hinb5_17 nbuf5_17 (Memref.isWhole_whole _) hwx5_17 hstage5_17

abbrev win5_18 : Pipeline.Window sig grid5 :=
  Pipeline.Window.ofSpec (Memref.whole main_v121_1) S512x512.size cc5_transform_18 reads5_18 true false 1 stage5_18 sem5_18
    hrank5 hreads5_18 hinb5_18 nbuf5_18 (Memref.isWhole_whole _) hwx5_18 hstage5_18

abbrev win5 : Fin 19 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | 18 => win5_18 | ⟨_ + 19, h⟩ => absurd h (Nat.not_lt.2 (Nat.le_add_left _ _))
abbrev spec5 : Fin 19 → Pipeline.WinSpec sig grid5.rank := fun w => (win5 w).toWinSpec

abbrev win6_0 : Pipeline.Window sig grid6 :=
  Pipeline.Window.ofSpec (Memref.whole main_v126) S256x512.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v132) S256x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v134) S256x512.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S256x512.size cc6_transform_3 reads6_3 false false 1 stage6_3 sem6_3
    hrank6 hreads6_3 hinb6_3 nbuf6_3 (Memref.isWhole_whole _) hwx6_3 hstage6_3

abbrev win6_4 : Pipeline.Window sig grid6 :=
  Pipeline.Window.ofSpec (Memref.whole main_v138) S256x512.size cc6_transform_4 reads6_4 false false 1 stage6_4 sem6_4
    hrank6 hreads6_4 hinb6_4 nbuf6_4 (Memref.isWhole_whole _) hwx6_4 hstage6_4

abbrev win6_5 : Pipeline.Window sig grid6 :=
  Pipeline.Window.ofSpec (Memref.whole main_v2) S512x512.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v5) S512x512.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v8) S512x512.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v11) S512x512.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v14) S512x512.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v17) S512x512.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v20) S512x512.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v23) S512x512.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v24) S1x512.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v25) S1x512.size cc6_transform_14 reads6_14 false true 1 stage6_14 sem6_14
    hrank6 hreads6_14 hinb6_14 nbuf6_14 (Memref.isWhole_whole _) hwx6_14 hstage6_14

abbrev win6_15 : Pipeline.Window sig grid6 :=
  Pipeline.Window.ofSpec (Memref.whole main_v26) S1x512.size cc6_transform_15 reads6_15 false true 1 stage6_15 sem6_15
    hrank6 hreads6_15 hinb6_15 nbuf6_15 (Memref.isWhole_whole _) hwx6_15 hstage6_15

abbrev win6_16 : Pipeline.Window sig grid6 :=
  Pipeline.Window.ofSpec (Memref.whole main_v27) S1x512.size cc6_transform_16 reads6_16 false true 1 stage6_16 sem6_16
    hrank6 hreads6_16 hinb6_16 nbuf6_16 (Memref.isWhole_whole _) hwx6_16 hstage6_16

abbrev win6_17 : Pipeline.Window sig grid6 :=
  Pipeline.Window.ofSpec (Memref.whole main_v139_0) S256x512.size cc6_transform_17 reads6_17 true false 1 stage6_17 sem6_17
    hrank6 hreads6_17 hinb6_17 nbuf6_17 (Memref.isWhole_whole _) hwx6_17 hstage6_17

abbrev win6_18 : Pipeline.Window sig grid6 :=
  Pipeline.Window.ofSpec (Memref.whole main_v139_1) S256x512.size cc6_transform_18 reads6_18 true false 1 stage6_18 sem6_18
    hrank6 hreads6_18 hinb6_18 nbuf6_18 (Memref.isWhole_whole _) hwx6_18 hstage6_18

abbrev win6 : Fin 19 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | 16 => win6_16 | 17 => win6_17 | 18 => win6_18 | ⟨_ + 19, h⟩ => absurd h (Nat.not_lt.2 (Nat.le_add_left _ _))
abbrev spec6 : Fin 19 → Pipeline.WinSpec sig grid6.rank := fun w => (win6 w).toWinSpec

abbrev win7_0 : Pipeline.Window sig grid7 :=
  Pipeline.Window.ofSpec (Memref.whole main_v144) S128x512.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v150) S128x512.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S128x512.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S128x512.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_v156) S128x512.size cc7_transform_4 reads7_4 false false 1 stage7_4 sem7_4
    hrank7 hreads7_4 hinb7_4 nbuf7_4 (Memref.isWhole_whole _) hwx7_4 hstage7_4

abbrev win7_5 : Pipeline.Window sig grid7 :=
  Pipeline.Window.ofSpec (Memref.whole main_v2) S512x512.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v5) S512x512.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v8) S512x512.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v11) S512x512.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v14) S512x512.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v17) S512x512.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v20) S512x512.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v23) S512x512.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v24) S1x512.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v25) S1x512.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_v26) S1x512.size cc7_transform_15 reads7_15 false true 1 stage7_15 sem7_15
    hrank7 hreads7_15 hinb7_15 nbuf7_15 (Memref.isWhole_whole _) hwx7_15 hstage7_15

abbrev win7_16 : Pipeline.Window sig grid7 :=
  Pipeline.Window.ofSpec (Memref.whole main_v27) S1x512.size cc7_transform_16 reads7_16 false true 1 stage7_16 sem7_16
    hrank7 hreads7_16 hinb7_16 nbuf7_16 (Memref.isWhole_whole _) hwx7_16 hstage7_16

abbrev win7_17 : Pipeline.Window sig grid7 :=
  Pipeline.Window.ofSpec (Memref.whole main_v157_0) S128x512.size cc7_transform_17 reads7_17 true false 1 stage7_17 sem7_17
    hrank7 hreads7_17 hinb7_17 nbuf7_17 (Memref.isWhole_whole _) hwx7_17 hstage7_17

abbrev win7_18 : Pipeline.Window sig grid7 :=
  Pipeline.Window.ofSpec (Memref.whole main_v157_1) S128x512.size cc7_transform_18 reads7_18 true false 1 stage7_18 sem7_18
    hrank7 hreads7_18 hinb7_18 nbuf7_18 (Memref.isWhole_whole _) hwx7_18 hstage7_18

abbrev win7 : Fin 19 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | 16 => win7_16 | 17 => win7_17 | 18 => win7_18 | ⟨_ + 19, h⟩ => absurd h (Nat.not_lt.2 (Nat.le_add_left _ _))
abbrev spec7 : Fin 19 → Pipeline.WinSpec sig grid7.rank := fun w => (win7 w).toWinSpec

abbrev win8_0 : Pipeline.Window sig grid8 :=
  Pipeline.Window.ofSpec (Memref.whole main_v162) S64x512.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v168) S64x512.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v170) S64x512.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S64x512.size cc8_transform_3 reads8_3 false false 1 stage8_3 sem8_3
    hrank8 hreads8_3 hinb8_3 nbuf8_3 (Memref.isWhole_whole _) hwx8_3 hstage8_3

abbrev win8_4 : Pipeline.Window sig grid8 :=
  Pipeline.Window.ofSpec (Memref.whole main_v174) S64x512.size cc8_transform_4 reads8_4 false false 1 stage8_4 sem8_4
    hrank8 hreads8_4 hinb8_4 nbuf8_4 (Memref.isWhole_whole _) hwx8_4 hstage8_4

abbrev win8_5 : Pipeline.Window sig grid8 :=
  Pipeline.Window.ofSpec (Memref.whole main_v2) S512x512.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v5) S512x512.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v8) S512x512.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v11) S512x512.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v14) S512x512.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v17) S512x512.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v20) S512x512.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v23) S512x512.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v24) S1x512.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v25) S1x512.size cc8_transform_14 reads8_14 false true 1 stage8_14 sem8_14
    hrank8 hreads8_14 hinb8_14 nbuf8_14 (Memref.isWhole_whole _) hwx8_14 hstage8_14

abbrev win8_15 : Pipeline.Window sig grid8 :=
  Pipeline.Window.ofSpec (Memref.whole main_v26) S1x512.size cc8_transform_15 reads8_15 false true 1 stage8_15 sem8_15
    hrank8 hreads8_15 hinb8_15 nbuf8_15 (Memref.isWhole_whole _) hwx8_15 hstage8_15

abbrev win8_16 : Pipeline.Window sig grid8 :=
  Pipeline.Window.ofSpec (Memref.whole main_v27) S1x512.size cc8_transform_16 reads8_16 false true 1 stage8_16 sem8_16
    hrank8 hreads8_16 hinb8_16 nbuf8_16 (Memref.isWhole_whole _) hwx8_16 hstage8_16

abbrev win8_17 : Pipeline.Window sig grid8 :=
  Pipeline.Window.ofSpec (Memref.whole main_v175_0) S64x512.size cc8_transform_17 reads8_17 true false 1 stage8_17 sem8_17
    hrank8 hreads8_17 hinb8_17 nbuf8_17 (Memref.isWhole_whole _) hwx8_17 hstage8_17

abbrev win8_18 : Pipeline.Window sig grid8 :=
  Pipeline.Window.ofSpec (Memref.whole main_v175_1) S64x512.size cc8_transform_18 reads8_18 true false 1 stage8_18 sem8_18
    hrank8 hreads8_18 hinb8_18 nbuf8_18 (Memref.isWhole_whole _) hwx8_18 hstage8_18

abbrev win8 : Fin 19 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | 16 => win8_16 | 17 => win8_17 | 18 => win8_18 | ⟨_ + 19, h⟩ => absurd h (Nat.not_lt.2 (Nat.le_add_left _ _))
abbrev spec8 : Fin 19 → Pipeline.WinSpec sig grid8.rank := fun w => (win8 w).toWinSpec

abbrev win9_0 : Pipeline.Window sig grid9 :=
  Pipeline.Window.ofSpec (Memref.whole main_v180) S32x512.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v186) S32x512.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v188) S32x512.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v190) S32x512.size cc9_transform_3 reads9_3 false false 1 stage9_3 sem9_3
    hrank9 hreads9_3 hinb9_3 nbuf9_3 (Memref.isWhole_whole _) hwx9_3 hstage9_3

abbrev win9_4 : Pipeline.Window sig grid9 :=
  Pipeline.Window.ofSpec (Memref.whole main_v192) S32x512.size cc9_transform_4 reads9_4 false false 1 stage9_4 sem9_4
    hrank9 hreads9_4 hinb9_4 nbuf9_4 (Memref.isWhole_whole _) hwx9_4 hstage9_4

abbrev win9_5 : Pipeline.Window sig grid9 :=
  Pipeline.Window.ofSpec (Memref.whole main_v2) S512x512.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v5) S512x512.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v8) S512x512.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v11) S512x512.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v14) S512x512.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v17) S512x512.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v20) S512x512.size cc9_transform_11 reads9_11 false true 1 stage9_11 sem9_11
    hrank9 hreads9_11 hinb9_11 nbuf9_11 (Memref.isWhole_whole _) hwx9_11 hstage9_11

abbrev win9_12 : Pipeline.Window sig grid9 :=
  Pipeline.Window.ofSpec (Memref.whole main_v23) S512x512.size cc9_transform_12 reads9_12 false true 1 stage9_12 sem9_12
    hrank9 hreads9_12 hinb9_12 nbuf9_12 (Memref.isWhole_whole _) hwx9_12 hstage9_12

abbrev win9_13 : Pipeline.Window sig grid9 :=
  Pipeline.Window.ofSpec (Memref.whole main_v24) S1x512.size cc9_transform_13 reads9_13 false true 1 stage9_13 sem9_13
    hrank9 hreads9_13 hinb9_13 nbuf9_13 (Memref.isWhole_whole _) hwx9_13 hstage9_13

abbrev win9_14 : Pipeline.Window sig grid9 :=
  Pipeline.Window.ofSpec (Memref.whole main_v25) S1x512.size cc9_transform_14 reads9_14 false true 1 stage9_14 sem9_14
    hrank9 hreads9_14 hinb9_14 nbuf9_14 (Memref.isWhole_whole _) hwx9_14 hstage9_14

abbrev win9_15 : Pipeline.Window sig grid9 :=
  Pipeline.Window.ofSpec (Memref.whole main_v26) S1x512.size cc9_transform_15 reads9_15 false true 1 stage9_15 sem9_15
    hrank9 hreads9_15 hinb9_15 nbuf9_15 (Memref.isWhole_whole _) hwx9_15 hstage9_15

abbrev win9_16 : Pipeline.Window sig grid9 :=
  Pipeline.Window.ofSpec (Memref.whole main_v27) S1x512.size cc9_transform_16 reads9_16 false true 1 stage9_16 sem9_16
    hrank9 hreads9_16 hinb9_16 nbuf9_16 (Memref.isWhole_whole _) hwx9_16 hstage9_16

abbrev win9_17 : Pipeline.Window sig grid9 :=
  Pipeline.Window.ofSpec (Memref.whole main_v193_0) S32x512.size cc9_transform_17 reads9_17 true false 1 stage9_17 sem9_17
    hrank9 hreads9_17 hinb9_17 nbuf9_17 (Memref.isWhole_whole _) hwx9_17 hstage9_17

abbrev win9_18 : Pipeline.Window sig grid9 :=
  Pipeline.Window.ofSpec (Memref.whole main_v193_1) S32x512.size cc9_transform_18 reads9_18 true false 1 stage9_18 sem9_18
    hrank9 hreads9_18 hinb9_18 nbuf9_18 (Memref.isWhole_whole _) hwx9_18 hstage9_18

abbrev win9 : Fin 19 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | 12 => win9_12 | 13 => win9_13 | 14 => win9_14 | 15 => win9_15 | 16 => win9_16 | 17 => win9_17 | 18 => win9_18 | ⟨_ + 19, h⟩ => absurd h (Nat.not_lt.2 (Nat.le_add_left _ _))
abbrev spec9 : Fin 19 → Pipeline.WinSpec sig grid9.rank := fun w => (win9 w).toWinSpec

abbrev win10_0 : Pipeline.Window sig grid10 :=
  Pipeline.Window.ofSpec (Memref.whole main_v198) S16x512.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v204) S16x512.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v206) S16x512.size cc10_transform_2 reads10_2 false false 1 stage10_2 sem10_2
    hrank10 hreads10_2 hinb10_2 nbuf10_2 (Memref.isWhole_whole _) hwx10_2 hstage10_2

abbrev win10_3 : Pipeline.Window sig grid10 :=
  Pipeline.Window.ofSpec (Memref.whole main_v208) S16x512.size cc10_transform_3 reads10_3 false false 1 stage10_3 sem10_3
    hrank10 hreads10_3 hinb10_3 nbuf10_3 (Memref.isWhole_whole _) hwx10_3 hstage10_3

abbrev win10_4 : Pipeline.Window sig grid10 :=
  Pipeline.Window.ofSpec (Memref.whole main_v210) S16x512.size cc10_transform_4 reads10_4 false false 1 stage10_4 sem10_4
    hrank10 hreads10_4 hinb10_4 nbuf10_4 (Memref.isWhole_whole _) hwx10_4 hstage10_4

abbrev win10_5 : Pipeline.Window sig grid10 :=
  Pipeline.Window.ofSpec (Memref.whole main_v2) S512x512.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v5) S512x512.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v8) S512x512.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v11) S512x512.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v14) S512x512.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v17) S512x512.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_v20) S512x512.size cc10_transform_11 reads10_11 false true 1 stage10_11 sem10_11
    hrank10 hreads10_11 hinb10_11 nbuf10_11 (Memref.isWhole_whole _) hwx10_11 hstage10_11

abbrev win10_12 : Pipeline.Window sig grid10 :=
  Pipeline.Window.ofSpec (Memref.whole main_v23) S512x512.size cc10_transform_12 reads10_12 false true 1 stage10_12 sem10_12
    hrank10 hreads10_12 hinb10_12 nbuf10_12 (Memref.isWhole_whole _) hwx10_12 hstage10_12

abbrev win10_13 : Pipeline.Window sig grid10 :=
  Pipeline.Window.ofSpec (Memref.whole main_v24) S1x512.size cc10_transform_13 reads10_13 false true 1 stage10_13 sem10_13
    hrank10 hreads10_13 hinb10_13 nbuf10_13 (Memref.isWhole_whole _) hwx10_13 hstage10_13

abbrev win10_14 : Pipeline.Window sig grid10 :=
  Pipeline.Window.ofSpec (Memref.whole main_v25) S1x512.size cc10_transform_14 reads10_14 false true 1 stage10_14 sem10_14
    hrank10 hreads10_14 hinb10_14 nbuf10_14 (Memref.isWhole_whole _) hwx10_14 hstage10_14

abbrev win10_15 : Pipeline.Window sig grid10 :=
  Pipeline.Window.ofSpec (Memref.whole main_v26) S1x512.size cc10_transform_15 reads10_15 false true 1 stage10_15 sem10_15
    hrank10 hreads10_15 hinb10_15 nbuf10_15 (Memref.isWhole_whole _) hwx10_15 hstage10_15

abbrev win10_16 : Pipeline.Window sig grid10 :=
  Pipeline.Window.ofSpec (Memref.whole main_v27) S1x512.size cc10_transform_16 reads10_16 false true 1 stage10_16 sem10_16
    hrank10 hreads10_16 hinb10_16 nbuf10_16 (Memref.isWhole_whole _) hwx10_16 hstage10_16

abbrev win10_17 : Pipeline.Window sig grid10 :=
  Pipeline.Window.ofSpec (Memref.whole main_v211_0) S16x512.size cc10_transform_17 reads10_17 true false 1 stage10_17 sem10_17
    hrank10 hreads10_17 hinb10_17 nbuf10_17 (Memref.isWhole_whole _) hwx10_17 hstage10_17

abbrev win10_18 : Pipeline.Window sig grid10 :=
  Pipeline.Window.ofSpec (Memref.whole main_v211_1) S16x512.size cc10_transform_18 reads10_18 true false 1 stage10_18 sem10_18
    hrank10 hreads10_18 hinb10_18 nbuf10_18 (Memref.isWhole_whole _) hwx10_18 hstage10_18

abbrev win10 : Fin 19 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | 12 => win10_12 | 13 => win10_13 | 14 => win10_14 | 15 => win10_15 | 16 => win10_16 | 17 => win10_17 | 18 => win10_18 | ⟨_ + 19, h⟩ => absurd h (Nat.not_lt.2 (Nat.le_add_left _ _))
abbrev spec10 : Fin 19 → Pipeline.WinSpec sig grid10.rank := fun w => (win10 w).toWinSpec

abbrev win11_0 : Pipeline.Window sig grid11 :=
  Pipeline.Window.ofSpec (Memref.whole main_v216) S8x512.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v222) S8x512.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v224) S8x512.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v226) S8x512.size cc11_transform_3 reads11_3 false false 1 stage11_3 sem11_3
    hrank11 hreads11_3 hinb11_3 nbuf11_3 (Memref.isWhole_whole _) hwx11_3 hstage11_3

abbrev win11_4 : Pipeline.Window sig grid11 :=
  Pipeline.Window.ofSpec (Memref.whole main_v228) S8x512.size cc11_transform_4 reads11_4 false false 1 stage11_4 sem11_4
    hrank11 hreads11_4 hinb11_4 nbuf11_4 (Memref.isWhole_whole _) hwx11_4 hstage11_4

abbrev win11_5 : Pipeline.Window sig grid11 :=
  Pipeline.Window.ofSpec (Memref.whole main_v2) S512x512.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v5) S512x512.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v8) S512x512.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v11) S512x512.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v14) S512x512.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v17) S512x512.size cc11_transform_10 reads11_10 false true 1 stage11_10 sem11_10
    hrank11 hreads11_10 hinb11_10 nbuf11_10 (Memref.isWhole_whole _) hwx11_10 hstage11_10

abbrev win11_11 : Pipeline.Window sig grid11 :=
  Pipeline.Window.ofSpec (Memref.whole main_v20) S512x512.size cc11_transform_11 reads11_11 false true 1 stage11_11 sem11_11
    hrank11 hreads11_11 hinb11_11 nbuf11_11 (Memref.isWhole_whole _) hwx11_11 hstage11_11

abbrev win11_12 : Pipeline.Window sig grid11 :=
  Pipeline.Window.ofSpec (Memref.whole main_v23) S512x512.size cc11_transform_12 reads11_12 false true 1 stage11_12 sem11_12
    hrank11 hreads11_12 hinb11_12 nbuf11_12 (Memref.isWhole_whole _) hwx11_12 hstage11_12

abbrev win11_13 : Pipeline.Window sig grid11 :=
  Pipeline.Window.ofSpec (Memref.whole main_v24) S1x512.size cc11_transform_13 reads11_13 false true 1 stage11_13 sem11_13
    hrank11 hreads11_13 hinb11_13 nbuf11_13 (Memref.isWhole_whole _) hwx11_13 hstage11_13

abbrev win11_14 : Pipeline.Window sig grid11 :=
  Pipeline.Window.ofSpec (Memref.whole main_v25) S1x512.size cc11_transform_14 reads11_14 false true 1 stage11_14 sem11_14
    hrank11 hreads11_14 hinb11_14 nbuf11_14 (Memref.isWhole_whole _) hwx11_14 hstage11_14

abbrev win11_15 : Pipeline.Window sig grid11 :=
  Pipeline.Window.ofSpec (Memref.whole main_v26) S1x512.size cc11_transform_15 reads11_15 false true 1 stage11_15 sem11_15
    hrank11 hreads11_15 hinb11_15 nbuf11_15 (Memref.isWhole_whole _) hwx11_15 hstage11_15

abbrev win11_16 : Pipeline.Window sig grid11 :=
  Pipeline.Window.ofSpec (Memref.whole main_v27) S1x512.size cc11_transform_16 reads11_16 false true 1 stage11_16 sem11_16
    hrank11 hreads11_16 hinb11_16 nbuf11_16 (Memref.isWhole_whole _) hwx11_16 hstage11_16

abbrev win11_17 : Pipeline.Window sig grid11 :=
  Pipeline.Window.ofSpec (Memref.whole main_v229_0) S8x512.size cc11_transform_17 reads11_17 true false 1 stage11_17 sem11_17
    hrank11 hreads11_17 hinb11_17 nbuf11_17 (Memref.isWhole_whole _) hwx11_17 hstage11_17

abbrev win11_18 : Pipeline.Window sig grid11 :=
  Pipeline.Window.ofSpec (Memref.whole main_v229_1) S8x512.size cc11_transform_18 reads11_18 true false 1 stage11_18 sem11_18
    hrank11 hreads11_18 hinb11_18 nbuf11_18 (Memref.isWhole_whole _) hwx11_18 hstage11_18

abbrev win11 : Fin 19 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | 12 => win11_12 | 13 => win11_13 | 14 => win11_14 | 15 => win11_15 | 16 => win11_16 | 17 => win11_17 | 18 => win11_18 | ⟨_ + 19, h⟩ => absurd h (Nat.not_lt.2 (Nat.le_add_left _ _))
abbrev spec11 : Fin 19 → Pipeline.WinSpec sig grid11.rank := fun w => (win11 w).toWinSpec

abbrev win12_0 : Pipeline.Window sig grid12 :=
  Pipeline.Window.ofSpec (Memref.whole main_v234) S4x512.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v240) S4x512.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v242) S4x512.size cc12_transform_2 reads12_2 false false 1 stage12_2 sem12_2
    hrank12 hreads12_2 hinb12_2 nbuf12_2 (Memref.isWhole_whole _) hwx12_2 hstage12_2

abbrev win12_3 : Pipeline.Window sig grid12 :=
  Pipeline.Window.ofSpec (Memref.whole main_v244) S4x512.size cc12_transform_3 reads12_3 false false 1 stage12_3 sem12_3
    hrank12 hreads12_3 hinb12_3 nbuf12_3 (Memref.isWhole_whole _) hwx12_3 hstage12_3

abbrev win12_4 : Pipeline.Window sig grid12 :=
  Pipeline.Window.ofSpec (Memref.whole main_v246) S4x512.size cc12_transform_4 reads12_4 false false 1 stage12_4 sem12_4
    hrank12 hreads12_4 hinb12_4 nbuf12_4 (Memref.isWhole_whole _) hwx12_4 hstage12_4

abbrev win12_5 : Pipeline.Window sig grid12 :=
  Pipeline.Window.ofSpec (Memref.whole main_v2) S512x512.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v5) S512x512.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v8) S512x512.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v11) S512x512.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v14) S512x512.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v17) S512x512.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v20) S512x512.size cc12_transform_11 reads12_11 false true 1 stage12_11 sem12_11
    hrank12 hreads12_11 hinb12_11 nbuf12_11 (Memref.isWhole_whole _) hwx12_11 hstage12_11

abbrev win12_12 : Pipeline.Window sig grid12 :=
  Pipeline.Window.ofSpec (Memref.whole main_v23) S512x512.size cc12_transform_12 reads12_12 false true 1 stage12_12 sem12_12
    hrank12 hreads12_12 hinb12_12 nbuf12_12 (Memref.isWhole_whole _) hwx12_12 hstage12_12

abbrev win12_13 : Pipeline.Window sig grid12 :=
  Pipeline.Window.ofSpec (Memref.whole main_v24) S1x512.size cc12_transform_13 reads12_13 false true 1 stage12_13 sem12_13
    hrank12 hreads12_13 hinb12_13 nbuf12_13 (Memref.isWhole_whole _) hwx12_13 hstage12_13

abbrev win12_14 : Pipeline.Window sig grid12 :=
  Pipeline.Window.ofSpec (Memref.whole main_v25) S1x512.size cc12_transform_14 reads12_14 false true 1 stage12_14 sem12_14
    hrank12 hreads12_14 hinb12_14 nbuf12_14 (Memref.isWhole_whole _) hwx12_14 hstage12_14

abbrev win12_15 : Pipeline.Window sig grid12 :=
  Pipeline.Window.ofSpec (Memref.whole main_v26) S1x512.size cc12_transform_15 reads12_15 false true 1 stage12_15 sem12_15
    hrank12 hreads12_15 hinb12_15 nbuf12_15 (Memref.isWhole_whole _) hwx12_15 hstage12_15

abbrev win12_16 : Pipeline.Window sig grid12 :=
  Pipeline.Window.ofSpec (Memref.whole main_v27) S1x512.size cc12_transform_16 reads12_16 false true 1 stage12_16 sem12_16
    hrank12 hreads12_16 hinb12_16 nbuf12_16 (Memref.isWhole_whole _) hwx12_16 hstage12_16

abbrev win12_17 : Pipeline.Window sig grid12 :=
  Pipeline.Window.ofSpec (Memref.whole main_v247_0) S4x512.size cc12_transform_17 reads12_17 true false 1 stage12_17 sem12_17
    hrank12 hreads12_17 hinb12_17 nbuf12_17 (Memref.isWhole_whole _) hwx12_17 hstage12_17

abbrev win12_18 : Pipeline.Window sig grid12 :=
  Pipeline.Window.ofSpec (Memref.whole main_v247_1) S4x512.size cc12_transform_18 reads12_18 true false 1 stage12_18 sem12_18
    hrank12 hreads12_18 hinb12_18 nbuf12_18 (Memref.isWhole_whole _) hwx12_18 hstage12_18

abbrev win12 : Fin 19 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | 12 => win12_12 | 13 => win12_13 | 14 => win12_14 | 15 => win12_15 | 16 => win12_16 | 17 => win12_17 | 18 => win12_18 | ⟨_ + 19, h⟩ => absurd h (Nat.not_lt.2 (Nat.le_add_left _ _))
abbrev spec12 : Fin 19 → Pipeline.WinSpec sig grid12.rank := fun w => (win12 w).toWinSpec

abbrev win13_0 : Pipeline.Window sig grid13 :=
  Pipeline.Window.ofSpec (Memref.whole main_v252) S2x512.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v258) S2x512.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v260) S2x512.size cc13_transform_2 reads13_2 false false 1 stage13_2 sem13_2
    hrank13 hreads13_2 hinb13_2 nbuf13_2 (Memref.isWhole_whole _) hwx13_2 hstage13_2

abbrev win13_3 : Pipeline.Window sig grid13 :=
  Pipeline.Window.ofSpec (Memref.whole main_v262) S2x512.size cc13_transform_3 reads13_3 false false 1 stage13_3 sem13_3
    hrank13 hreads13_3 hinb13_3 nbuf13_3 (Memref.isWhole_whole _) hwx13_3 hstage13_3

abbrev win13_4 : Pipeline.Window sig grid13 :=
  Pipeline.Window.ofSpec (Memref.whole main_v264) S2x512.size cc13_transform_4 reads13_4 false false 1 stage13_4 sem13_4
    hrank13 hreads13_4 hinb13_4 nbuf13_4 (Memref.isWhole_whole _) hwx13_4 hstage13_4

abbrev win13_5 : Pipeline.Window sig grid13 :=
  Pipeline.Window.ofSpec (Memref.whole main_v2) S512x512.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v5) S512x512.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v8) S512x512.size cc13_transform_7 reads13_7 false true 1 stage13_7 sem13_7
    hrank13 hreads13_7 hinb13_7 nbuf13_7 (Memref.isWhole_whole _) hwx13_7 hstage13_7

abbrev win13_8 : Pipeline.Window sig grid13 :=
  Pipeline.Window.ofSpec (Memref.whole main_v11) S512x512.size cc13_transform_8 reads13_8 false true 1 stage13_8 sem13_8
    hrank13 hreads13_8 hinb13_8 nbuf13_8 (Memref.isWhole_whole _) hwx13_8 hstage13_8

abbrev win13_9 : Pipeline.Window sig grid13 :=
  Pipeline.Window.ofSpec (Memref.whole main_v14) S512x512.size cc13_transform_9 reads13_9 false true 1 stage13_9 sem13_9
    hrank13 hreads13_9 hinb13_9 nbuf13_9 (Memref.isWhole_whole _) hwx13_9 hstage13_9

abbrev win13_10 : Pipeline.Window sig grid13 :=
  Pipeline.Window.ofSpec (Memref.whole main_v17) S512x512.size cc13_transform_10 reads13_10 false true 1 stage13_10 sem13_10
    hrank13 hreads13_10 hinb13_10 nbuf13_10 (Memref.isWhole_whole _) hwx13_10 hstage13_10

abbrev win13_11 : Pipeline.Window sig grid13 :=
  Pipeline.Window.ofSpec (Memref.whole main_v20) S512x512.size cc13_transform_11 reads13_11 false true 1 stage13_11 sem13_11
    hrank13 hreads13_11 hinb13_11 nbuf13_11 (Memref.isWhole_whole _) hwx13_11 hstage13_11

abbrev win13_12 : Pipeline.Window sig grid13 :=
  Pipeline.Window.ofSpec (Memref.whole main_v23) S512x512.size cc13_transform_12 reads13_12 false true 1 stage13_12 sem13_12
    hrank13 hreads13_12 hinb13_12 nbuf13_12 (Memref.isWhole_whole _) hwx13_12 hstage13_12

abbrev win13_13 : Pipeline.Window sig grid13 :=
  Pipeline.Window.ofSpec (Memref.whole main_v24) S1x512.size cc13_transform_13 reads13_13 false true 1 stage13_13 sem13_13
    hrank13 hreads13_13 hinb13_13 nbuf13_13 (Memref.isWhole_whole _) hwx13_13 hstage13_13

abbrev win13_14 : Pipeline.Window sig grid13 :=
  Pipeline.Window.ofSpec (Memref.whole main_v25) S1x512.size cc13_transform_14 reads13_14 false true 1 stage13_14 sem13_14
    hrank13 hreads13_14 hinb13_14 nbuf13_14 (Memref.isWhole_whole _) hwx13_14 hstage13_14

abbrev win13_15 : Pipeline.Window sig grid13 :=
  Pipeline.Window.ofSpec (Memref.whole main_v26) S1x512.size cc13_transform_15 reads13_15 false true 1 stage13_15 sem13_15
    hrank13 hreads13_15 hinb13_15 nbuf13_15 (Memref.isWhole_whole _) hwx13_15 hstage13_15

abbrev win13_16 : Pipeline.Window sig grid13 :=
  Pipeline.Window.ofSpec (Memref.whole main_v27) S1x512.size cc13_transform_16 reads13_16 false true 1 stage13_16 sem13_16
    hrank13 hreads13_16 hinb13_16 nbuf13_16 (Memref.isWhole_whole _) hwx13_16 hstage13_16

abbrev win13_17 : Pipeline.Window sig grid13 :=
  Pipeline.Window.ofSpec (Memref.whole main_v265_0) S2x512.size cc13_transform_17 reads13_17 true false 1 stage13_17 sem13_17
    hrank13 hreads13_17 hinb13_17 nbuf13_17 (Memref.isWhole_whole _) hwx13_17 hstage13_17

abbrev win13_18 : Pipeline.Window sig grid13 :=
  Pipeline.Window.ofSpec (Memref.whole main_v265_1) S2x512.size cc13_transform_18 reads13_18 true false 1 stage13_18 sem13_18
    hrank13 hreads13_18 hinb13_18 nbuf13_18 (Memref.isWhole_whole _) hwx13_18 hstage13_18

abbrev win13 : Fin 19 → Pipeline.Window sig grid13 := fun | 0 => win13_0 | 1 => win13_1 | 2 => win13_2 | 3 => win13_3 | 4 => win13_4 | 5 => win13_5 | 6 => win13_6 | 7 => win13_7 | 8 => win13_8 | 9 => win13_9 | 10 => win13_10 | 11 => win13_11 | 12 => win13_12 | 13 => win13_13 | 14 => win13_14 | 15 => win13_15 | 16 => win13_16 | 17 => win13_17 | 18 => win13_18 | ⟨_ + 19, h⟩ => absurd h (Nat.not_lt.2 (Nat.le_add_left _ _))
abbrev spec13 : Fin 19 → Pipeline.WinSpec sig grid13.rank := fun w => (win13 w).toWinSpec

abbrev win14_0 : Pipeline.Window sig grid14 :=
  Pipeline.Window.ofSpec (Memref.whole main_v270) S1x512.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v276) S1x512.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v278) S1x512.size cc14_transform_2 reads14_2 false false 1 stage14_2 sem14_2
    hrank14 hreads14_2 hinb14_2 nbuf14_2 (Memref.isWhole_whole _) hwx14_2 hstage14_2

abbrev win14_3 : Pipeline.Window sig grid14 :=
  Pipeline.Window.ofSpec (Memref.whole main_v280) S1x512.size cc14_transform_3 reads14_3 false false 1 stage14_3 sem14_3
    hrank14 hreads14_3 hinb14_3 nbuf14_3 (Memref.isWhole_whole _) hwx14_3 hstage14_3

abbrev win14_4 : Pipeline.Window sig grid14 :=
  Pipeline.Window.ofSpec (Memref.whole main_v282) S1x512.size cc14_transform_4 reads14_4 false false 1 stage14_4 sem14_4
    hrank14 hreads14_4 hinb14_4 nbuf14_4 (Memref.isWhole_whole _) hwx14_4 hstage14_4

abbrev win14_5 : Pipeline.Window sig grid14 :=
  Pipeline.Window.ofSpec (Memref.whole main_v2) S512x512.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v5) S512x512.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v8) S512x512.size cc14_transform_7 reads14_7 false true 1 stage14_7 sem14_7
    hrank14 hreads14_7 hinb14_7 nbuf14_7 (Memref.isWhole_whole _) hwx14_7 hstage14_7

abbrev win14_8 : Pipeline.Window sig grid14 :=
  Pipeline.Window.ofSpec (Memref.whole main_v11) S512x512.size cc14_transform_8 reads14_8 false true 1 stage14_8 sem14_8
    hrank14 hreads14_8 hinb14_8 nbuf14_8 (Memref.isWhole_whole _) hwx14_8 hstage14_8

abbrev win14_9 : Pipeline.Window sig grid14 :=
  Pipeline.Window.ofSpec (Memref.whole main_v14) S512x512.size cc14_transform_9 reads14_9 false true 1 stage14_9 sem14_9
    hrank14 hreads14_9 hinb14_9 nbuf14_9 (Memref.isWhole_whole _) hwx14_9 hstage14_9

abbrev win14_10 : Pipeline.Window sig grid14 :=
  Pipeline.Window.ofSpec (Memref.whole main_v17) S512x512.size cc14_transform_10 reads14_10 false true 1 stage14_10 sem14_10
    hrank14 hreads14_10 hinb14_10 nbuf14_10 (Memref.isWhole_whole _) hwx14_10 hstage14_10

abbrev win14_11 : Pipeline.Window sig grid14 :=
  Pipeline.Window.ofSpec (Memref.whole main_v20) S512x512.size cc14_transform_11 reads14_11 false true 1 stage14_11 sem14_11
    hrank14 hreads14_11 hinb14_11 nbuf14_11 (Memref.isWhole_whole _) hwx14_11 hstage14_11

abbrev win14_12 : Pipeline.Window sig grid14 :=
  Pipeline.Window.ofSpec (Memref.whole main_v23) S512x512.size cc14_transform_12 reads14_12 false true 1 stage14_12 sem14_12
    hrank14 hreads14_12 hinb14_12 nbuf14_12 (Memref.isWhole_whole _) hwx14_12 hstage14_12

abbrev win14_13 : Pipeline.Window sig grid14 :=
  Pipeline.Window.ofSpec (Memref.whole main_v24) S1x512.size cc14_transform_13 reads14_13 false true 1 stage14_13 sem14_13
    hrank14 hreads14_13 hinb14_13 nbuf14_13 (Memref.isWhole_whole _) hwx14_13 hstage14_13

abbrev win14_14 : Pipeline.Window sig grid14 :=
  Pipeline.Window.ofSpec (Memref.whole main_v25) S1x512.size cc14_transform_14 reads14_14 false true 1 stage14_14 sem14_14
    hrank14 hreads14_14 hinb14_14 nbuf14_14 (Memref.isWhole_whole _) hwx14_14 hstage14_14

abbrev win14_15 : Pipeline.Window sig grid14 :=
  Pipeline.Window.ofSpec (Memref.whole main_v26) S1x512.size cc14_transform_15 reads14_15 false true 1 stage14_15 sem14_15
    hrank14 hreads14_15 hinb14_15 nbuf14_15 (Memref.isWhole_whole _) hwx14_15 hstage14_15

abbrev win14_16 : Pipeline.Window sig grid14 :=
  Pipeline.Window.ofSpec (Memref.whole main_v27) S1x512.size cc14_transform_16 reads14_16 false true 1 stage14_16 sem14_16
    hrank14 hreads14_16 hinb14_16 nbuf14_16 (Memref.isWhole_whole _) hwx14_16 hstage14_16

abbrev win14_17 : Pipeline.Window sig grid14 :=
  Pipeline.Window.ofSpec (Memref.whole main_v283_0) S1x512.size cc14_transform_17 reads14_17 true false 1 stage14_17 sem14_17
    hrank14 hreads14_17 hinb14_17 nbuf14_17 (Memref.isWhole_whole _) hwx14_17 hstage14_17

abbrev win14_18 : Pipeline.Window sig grid14 :=
  Pipeline.Window.ofSpec (Memref.whole main_v283_1) S1x512.size cc14_transform_18 reads14_18 true false 1 stage14_18 sem14_18
    hrank14 hreads14_18 hinb14_18 nbuf14_18 (Memref.isWhole_whole _) hwx14_18 hstage14_18

abbrev win14 : Fin 19 → Pipeline.Window sig grid14 := fun | 0 => win14_0 | 1 => win14_1 | 2 => win14_2 | 3 => win14_3 | 4 => win14_4 | 5 => win14_5 | 6 => win14_6 | 7 => win14_7 | 8 => win14_8 | 9 => win14_9 | 10 => win14_10 | 11 => win14_11 | 12 => win14_12 | 13 => win14_13 | 14 => win14_14 | 15 => win14_15 | 16 => win14_16 | 17 => win14_17 | 18 => win14_18 | ⟨_ + 19, h⟩ => absurd h (Nat.not_lt.2 (Nat.le_add_left _ _))
abbrev spec14 : Fin 19 → Pipeline.WinSpec sig grid14.rank := fun w => (win14 w).toWinSpec

class Facts : Prop extends Facts₀ where

variable [Facts]
-- ==== ReferenceIdeal.lean ====
abbrev S32767x512 : Shape := ⟨2, ![32767, 512]⟩
abbrev S512x1024 : Shape := ⟨2, ![512, 1024]⟩
abbrev S512 : Shape := ⟨1, ![512]⟩
abbrev S_ : Shape := ⟨0, ![]⟩
abbrev S16384x512 : Shape := ⟨2, ![16384, 512]⟩
abbrev S16384x1024 : Shape := ⟨2, ![16384, 1024]⟩
abbrev S1024x512 : Shape := ⟨2, ![1024, 512]⟩
abbrev S1x512 : Shape := ⟨2, ![1, 512]⟩
abbrev S1 : Shape := ⟨1, ![1]⟩
abbrev S8192x512 : Shape := ⟨2, ![8192, 512]⟩
abbrev S8192x2x512 : Shape := ⟨3, ![8192, 2, 512]⟩
abbrev S8192x1x512 : Shape := ⟨3, ![8192, 1, 512]⟩
abbrev S8192x1024 : Shape := ⟨2, ![8192, 1024]⟩
abbrev S4096x512 : Shape := ⟨2, ![4096, 512]⟩
abbrev S4096x2x512 : Shape := ⟨3, ![4096, 2, 512]⟩
abbrev S4096x1x512 : Shape := ⟨3, ![4096, 1, 512]⟩
abbrev S4096x1024 : Shape := ⟨2, ![4096, 1024]⟩
abbrev S2048x512 : Shape := ⟨2, ![2048, 512]⟩
abbrev S2048x2x512 : Shape := ⟨3, ![2048, 2, 512]⟩
abbrev S2048x1x512 : Shape := ⟨3, ![2048, 1, 512]⟩
abbrev S2048x1024 : Shape := ⟨2, ![2048, 1024]⟩
abbrev S1024x2x512 : Shape := ⟨3, ![1024, 2, 512]⟩
abbrev S1024x1x512 : Shape := ⟨3, ![1024, 1, 512]⟩
abbrev S1024x1024 : Shape := ⟨2, ![1024, 1024]⟩
abbrev S512x512 : Shape := ⟨2, ![512, 512]⟩
abbrev S512x2x512 : Shape := ⟨3, ![512, 2, 512]⟩
abbrev S512x1x512 : Shape := ⟨3, ![512, 1, 512]⟩
abbrev S256x512 : Shape := ⟨2, ![256, 512]⟩
abbrev S256x2x512 : Shape := ⟨3, ![256, 2, 512]⟩
abbrev S256x1x512 : Shape := ⟨3, ![256, 1, 512]⟩
abbrev S256x1024 : Shape := ⟨2, ![256, 1024]⟩
abbrev S128x512 : Shape := ⟨2, ![128, 512]⟩
abbrev S128x2x512 : Shape := ⟨3, ![128, 2, 512]⟩
abbrev S128x1x512 : Shape := ⟨3, ![128, 1, 512]⟩
abbrev S128x1024 : Shape := ⟨2, ![128, 1024]⟩
abbrev S64x512 : Shape := ⟨2, ![64, 512]⟩
abbrev S64x2x512 : Shape := ⟨3, ![64, 2, 512]⟩
abbrev S64x1x512 : Shape := ⟨3, ![64, 1, 512]⟩
abbrev S64x1024 : Shape := ⟨2, ![64, 1024]⟩
abbrev S32x512 : Shape := ⟨2, ![32, 512]⟩
abbrev S32x2x512 : Shape := ⟨3, ![32, 2, 512]⟩
abbrev S32x1x512 : Shape := ⟨3, ![32, 1, 512]⟩
abbrev S32x1024 : Shape := ⟨2, ![32, 1024]⟩
abbrev S16x512 : Shape := ⟨2, ![16, 512]⟩
abbrev S16x2x512 : Shape := ⟨3, ![16, 2, 512]⟩
abbrev S16x1x512 : Shape := ⟨3, ![16, 1, 512]⟩
abbrev S16x1024 : Shape := ⟨2, ![16, 1024]⟩
abbrev S8x512 : Shape := ⟨2, ![8, 512]⟩
abbrev S8x2x512 : Shape := ⟨3, ![8, 2, 512]⟩
abbrev S8x1x512 : Shape := ⟨3, ![8, 1, 512]⟩
abbrev S8x1024 : Shape := ⟨2, ![8, 1024]⟩
abbrev S4x512 : Shape := ⟨2, ![4, 512]⟩
abbrev S4x2x512 : Shape := ⟨3, ![4, 2, 512]⟩
abbrev S4x1x512 : Shape := ⟨3, ![4, 1, 512]⟩
abbrev S4x1024 : Shape := ⟨2, ![4, 1024]⟩
abbrev S2x512 : Shape := ⟨2, ![2, 512]⟩
abbrev S2x2x512 : Shape := ⟨3, ![2, 2, 512]⟩
abbrev S2x1x512 : Shape := ⟨3, ![2, 1, 512]⟩
abbrev S2x1024 : Shape := ⟨2, ![2, 1024]⟩
abbrev S1x2x512 : Shape := ⟨3, ![1, 2, 512]⟩
abbrev S1x1x512 : Shape := ⟨3, ![1, 1, 512]⟩
abbrev S1x1024 : Shape := ⟨2, ![1, 1024]⟩

abbrev nBuf : Space → Nat
  | .hbm => 1289
  | .vmem => 0
  | .smem => 0
  | _ => 0

abbrev hbmTy0_0 (i : Nat) : BufTy := match i % 128 with
  | 0 => ⟨S32767x512, .f32⟩
  | 1 => ⟨S512x1024, .f32⟩
  | 2 => ⟨S512, .f32⟩
  | 3 => ⟨S512x1024, .f32⟩
  | 4 => ⟨S512, .f32⟩
  | 5 => ⟨S512x1024, .f32⟩
  | 6 => ⟨S512, .f32⟩
  | 7 => ⟨S512x1024, .f32⟩
  | 8 => ⟨S512, .f32⟩
  | 9 => ⟨S_, .f32⟩
  | 10 => ⟨S32767x512, .f32⟩
  | 11 => ⟨S_, .f32⟩
  | 12 => ⟨S32767x512, .f32⟩
  | 13 => ⟨S16384x512, .f32⟩
  | 14 => ⟨S_, .f32⟩
  | 15 => ⟨S16384x512, .f32⟩
  | 16 => ⟨S16384x1024, .f32⟩
  | 17 => ⟨S1024x512, .f32⟩
  | 18 => ⟨S16384x512, .f32⟩
  | 19 => ⟨S1x512, .f32⟩
  | 20 => ⟨S16384x512, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S1024x512, .f32⟩
  | 31 => ⟨S16384x512, .f32⟩
  | 32 => ⟨S1x512, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S1024x512, .f32⟩
  | 44 => ⟨S16384x512, .f32⟩
  | 45 => ⟨S1x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S16384x512, .f32⟩
  | 52 => ⟨S_, .i32⟩
  | 53 => ⟨S1, .i32⟩
  | 54 => ⟨S32767x512, .f32⟩
  | 55 => ⟨S_, .i32⟩
  | 56 => ⟨S1, .i32⟩
  | 57 => ⟨S32767x512, .f32⟩
  | 58 => ⟨S8192x512, .f32⟩
  | 59 => ⟨S16384x512, .f32⟩
  | 60 => ⟨S8192x2x512, .f32⟩
  | 61 => ⟨S16384x512, .f32⟩
  | 62 => ⟨S8192x2x512, .f32⟩
  | 63 => ⟨S8192x1x512, .f32⟩
  | 64 => ⟨S8192x512, .f32⟩
  | 65 => ⟨S8192x1x512, .f32⟩
  | 66 => ⟨S8192x512, .f32⟩
  | 67 => ⟨S8192x512, .f32⟩
  | 68 => ⟨S8192x1024, .f32⟩
  | 69 => ⟨S1024x512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S1024x512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S1024x512, .f32⟩
  | 96 => ⟨S8192x512, .f32⟩
  | 97 => ⟨S1x512, .f32⟩
  | 98 => ⟨S8192x512, .f32⟩
  | 99 => ⟨S8192x512, .f32⟩
  | 100 => ⟨S8192x512, .f32⟩
  | 101 => ⟨S8192x1024, .f32⟩
  | 102 => ⟨S1024x512, .f32⟩
  | 103 => ⟨S8192x512, .f32⟩
  | 104 => ⟨S1x512, .f32⟩
  | 105 => ⟨S8192x512, .f32⟩
  | 106 => ⟨S8192x512, .f32⟩
  | 107 => ⟨S8192x512, .f32⟩
  | 108 => ⟨S8192x512, .f32⟩
  | 109 => ⟨S_, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x1024, .f32⟩
  | 116 => ⟨S1024x512, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S32767x512, .f32⟩

abbrev hbmTy0_1 (i : Nat) : BufTy := match i % 128 with
  | 0 => ⟨S8192x512, .f32⟩
  | 1 => ⟨S8192x512, .f32⟩
  | 2 => ⟨S8192x1x512, .f32⟩
  | 3 => ⟨S8192x512, .f32⟩
  | 4 => ⟨S8192x512, .f32⟩
  | 5 => ⟨S8192x512, .f32⟩
  | 6 => ⟨S8192x1x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .i32⟩
  | 13 => ⟨S1, .i32⟩
  | 14 => ⟨S32767x512, .f32⟩
  | 15 => ⟨S_, .i32⟩
  | 16 => ⟨S1, .i32⟩
  | 17 => ⟨S32767x512, .f32⟩
  | 18 => ⟨S4096x512, .f32⟩
  | 19 => ⟨S8192x512, .f32⟩
  | 20 => ⟨S4096x2x512, .f32⟩
  | 21 => ⟨S8192x512, .f32⟩
  | 22 => ⟨S4096x2x512, .f32⟩
  | 23 => ⟨S4096x1x512, .f32⟩
  | 24 => ⟨S4096x512, .f32⟩
  | 25 => ⟨S4096x1x512, .f32⟩
  | 26 => ⟨S4096x512, .f32⟩
  | 27 => ⟨S4096x512, .f32⟩
  | 28 => ⟨S4096x1024, .f32⟩
  | 29 => ⟨S1024x512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S1024x512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S1024x512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S4096x1024, .f32⟩
  | 62 => ⟨S1024x512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x1024, .f32⟩
  | 76 => ⟨S1024x512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S4096x1x512, .f32⟩
  | 91 => ⟨S4096x512, .f32⟩
  | 92 => ⟨S4096x512, .f32⟩
  | 93 => ⟨S4096x512, .f32⟩
  | 94 => ⟨S4096x1x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S_, .i32⟩
  | 101 => ⟨S1, .i32⟩
  | 102 => ⟨S32767x512, .f32⟩
  | 103 => ⟨S_, .i32⟩
  | 104 => ⟨S1, .i32⟩
  | 105 => ⟨S32767x512, .f32⟩
  | 106 => ⟨S2048x512, .f32⟩
  | 107 => ⟨S4096x512, .f32⟩
  | 108 => ⟨S2048x2x512, .f32⟩
  | 109 => ⟨S4096x512, .f32⟩
  | 110 => ⟨S2048x2x512, .f32⟩
  | 111 => ⟨S2048x1x512, .f32⟩
  | 112 => ⟨S2048x512, .f32⟩
  | 113 => ⟨S2048x1x512, .f32⟩
  | 114 => ⟨S2048x512, .f32⟩
  | 115 => ⟨S2048x512, .f32⟩
  | 116 => ⟨S2048x1024, .f32⟩
  | 117 => ⟨S1024x512, .f32⟩
  | 118 => ⟨S2048x512, .f32⟩
  | 119 => ⟨S1x512, .f32⟩
  | 120 => ⟨S2048x512, .f32⟩
  | 121 => ⟨S2048x512, .f32⟩
  | 122 => ⟨S2048x512, .f32⟩
  | 123 => ⟨S2048x512, .f32⟩
  | 124 => ⟨S_, .f32⟩
  | 125 => ⟨S2048x512, .f32⟩
  | 126 => ⟨S2048x512, .f32⟩
  | 127 => ⟨S_, .f32⟩
  | _ => ⟨S32767x512, .f32⟩

abbrev hbmTy0_2 (i : Nat) : BufTy := match i % 128 with
  | 0 => ⟨S2048x512, .f32⟩
  | 1 => ⟨S2048x512, .f32⟩
  | 2 => ⟨S1024x512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S1024x512, .f32⟩
  | 16 => ⟨S2048x512, .f32⟩
  | 17 => ⟨S1x512, .f32⟩
  | 18 => ⟨S2048x512, .f32⟩
  | 19 => ⟨S2048x512, .f32⟩
  | 20 => ⟨S2048x512, .f32⟩
  | 21 => ⟨S2048x1024, .f32⟩
  | 22 => ⟨S1024x512, .f32⟩
  | 23 => ⟨S2048x512, .f32⟩
  | 24 => ⟨S1x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S2048x512, .f32⟩
  | 31 => ⟨S2048x512, .f32⟩
  | 32 => ⟨S_, .f32⟩
  | 33 => ⟨S2048x512, .f32⟩
  | 34 => ⟨S2048x512, .f32⟩
  | 35 => ⟨S2048x1024, .f32⟩
  | 36 => ⟨S1024x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S2048x512, .f32⟩
  | 50 => ⟨S2048x1x512, .f32⟩
  | 51 => ⟨S2048x512, .f32⟩
  | 52 => ⟨S2048x512, .f32⟩
  | 53 => ⟨S2048x512, .f32⟩
  | 54 => ⟨S2048x1x512, .f32⟩
  | 55 => ⟨S2048x512, .f32⟩
  | 56 => ⟨S2048x512, .f32⟩
  | 57 => ⟨S2048x512, .f32⟩
  | 58 => ⟨S2048x512, .f32⟩
  | 59 => ⟨S2048x512, .f32⟩
  | 60 => ⟨S_, .i32⟩
  | 61 => ⟨S1, .i32⟩
  | 62 => ⟨S32767x512, .f32⟩
  | 63 => ⟨S_, .i32⟩
  | 64 => ⟨S1, .i32⟩
  | 65 => ⟨S32767x512, .f32⟩
  | 66 => ⟨S1024x512, .f32⟩
  | 67 => ⟨S2048x512, .f32⟩
  | 68 => ⟨S1024x2x512, .f32⟩
  | 69 => ⟨S2048x512, .f32⟩
  | 70 => ⟨S1024x2x512, .f32⟩
  | 71 => ⟨S1024x1x512, .f32⟩
  | 72 => ⟨S1024x512, .f32⟩
  | 73 => ⟨S1024x1x512, .f32⟩
  | 74 => ⟨S1024x512, .f32⟩
  | 75 => ⟨S1024x512, .f32⟩
  | 76 => ⟨S1024x1024, .f32⟩
  | 77 => ⟨S1024x512, .f32⟩
  | 78 => ⟨S1024x512, .f32⟩
  | 79 => ⟨S1x512, .f32⟩
  | 80 => ⟨S1024x512, .f32⟩
  | 81 => ⟨S1024x512, .f32⟩
  | 82 => ⟨S1024x512, .f32⟩
  | 83 => ⟨S1024x512, .f32⟩
  | 84 => ⟨S_, .f32⟩
  | 85 => ⟨S1024x512, .f32⟩
  | 86 => ⟨S1024x512, .f32⟩
  | 87 => ⟨S_, .f32⟩
  | 88 => ⟨S1024x512, .f32⟩
  | 89 => ⟨S1024x512, .f32⟩
  | 90 => ⟨S1024x512, .f32⟩
  | 91 => ⟨S1024x512, .f32⟩
  | 92 => ⟨S1x512, .f32⟩
  | 93 => ⟨S1024x512, .f32⟩
  | 94 => ⟨S1024x512, .f32⟩
  | 95 => ⟨S1024x512, .f32⟩
  | 96 => ⟨S1024x512, .f32⟩
  | 97 => ⟨S_, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S1024x512, .f32⟩
  | 105 => ⟨S1x512, .f32⟩
  | 106 => ⟨S1024x512, .f32⟩
  | 107 => ⟨S1024x512, .f32⟩
  | 108 => ⟨S1024x512, .f32⟩
  | 109 => ⟨S1024x1024, .f32⟩
  | 110 => ⟨S1024x512, .f32⟩
  | 111 => ⟨S1024x512, .f32⟩
  | 112 => ⟨S1x512, .f32⟩
  | 113 => ⟨S1024x512, .f32⟩
  | 114 => ⟨S1024x512, .f32⟩
  | 115 => ⟨S1024x512, .f32⟩
  | 116 => ⟨S1024x512, .f32⟩
  | 117 => ⟨S_, .f32⟩
  | 118 => ⟨S1024x512, .f32⟩
  | 119 => ⟨S1024x512, .f32⟩
  | 120 => ⟨S_, .f32⟩
  | 121 => ⟨S1024x512, .f32⟩
  | 122 => ⟨S1024x512, .f32⟩
  | 123 => ⟨S1024x1024, .f32⟩
  | 124 => ⟨S1024x512, .f32⟩
  | 125 => ⟨S1024x512, .f32⟩
  | 126 => ⟨S1x512, .f32⟩
  | 127 => ⟨S1024x512, .f32⟩
  | _ => ⟨S32767x512, .f32⟩

abbrev hbmTy0_3 (i : Nat) : BufTy := match i % 128 with
  | 0 => ⟨S1024x512, .f32⟩
  | 1 => ⟨S1024x512, .f32⟩
  | 2 => ⟨S1024x512, .f32⟩
  | 3 => ⟨S_, .f32⟩
  | 4 => ⟨S1024x512, .f32⟩
  | 5 => ⟨S1024x512, .f32⟩
  | 6 => ⟨S_, .f32⟩
  | 7 => ⟨S1024x512, .f32⟩
  | 8 => ⟨S1024x512, .f32⟩
  | 9 => ⟨S1024x512, .f32⟩
  | 10 => ⟨S1024x1x512, .f32⟩
  | 11 => ⟨S1024x512, .f32⟩
  | 12 => ⟨S1024x512, .f32⟩
  | 13 => ⟨S1024x512, .f32⟩
  | 14 => ⟨S1024x1x512, .f32⟩
  | 15 => ⟨S1024x512, .f32⟩
  | 16 => ⟨S1024x512, .f32⟩
  | 17 => ⟨S1024x512, .f32⟩
  | 18 => ⟨S1024x512, .f32⟩
  | 19 => ⟨S1024x512, .f32⟩
  | 20 => ⟨S_, .i32⟩
  | 21 => ⟨S1, .i32⟩
  | 22 => ⟨S32767x512, .f32⟩
  | 23 => ⟨S_, .i32⟩
  | 24 => ⟨S1, .i32⟩
  | 25 => ⟨S32767x512, .f32⟩
  | 26 => ⟨S512x512, .f32⟩
  | 27 => ⟨S1024x512, .f32⟩
  | 28 => ⟨S512x2x512, .f32⟩
  | 29 => ⟨S1024x512, .f32⟩
  | 30 => ⟨S512x2x512, .f32⟩
  | 31 => ⟨S512x1x512, .f32⟩
  | 32 => ⟨S512x512, .f32⟩
  | 33 => ⟨S512x1x512, .f32⟩
  | 34 => ⟨S512x512, .f32⟩
  | 35 => ⟨S512x512, .f32⟩
  | 36 => ⟨S512x1024, .f32⟩
  | 37 => ⟨S1024x512, .f32⟩
  | 38 => ⟨S512x512, .f32⟩
  | 39 => ⟨S1x512, .f32⟩
  | 40 => ⟨S512x512, .f32⟩
  | 41 => ⟨S512x512, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S1024x512, .f32⟩
  | 51 => ⟨S512x512, .f32⟩
  | 52 => ⟨S1x512, .f32⟩
  | 53 => ⟨S512x512, .f32⟩
  | 54 => ⟨S512x512, .f32⟩
  | 55 => ⟨S512x512, .f32⟩
  | 56 => ⟨S512x512, .f32⟩
  | 57 => ⟨S_, .f32⟩
  | 58 => ⟨S512x512, .f32⟩
  | 59 => ⟨S512x512, .f32⟩
  | 60 => ⟨S_, .f32⟩
  | 61 => ⟨S512x512, .f32⟩
  | 62 => ⟨S512x512, .f32⟩
  | 63 => ⟨S1024x512, .f32⟩
  | 64 => ⟨S512x512, .f32⟩
  | 65 => ⟨S1x512, .f32⟩
  | 66 => ⟨S512x512, .f32⟩
  | 67 => ⟨S512x512, .f32⟩
  | 68 => ⟨S512x512, .f32⟩
  | 69 => ⟨S512x1024, .f32⟩
  | 70 => ⟨S1024x512, .f32⟩
  | 71 => ⟨S512x512, .f32⟩
  | 72 => ⟨S1x512, .f32⟩
  | 73 => ⟨S512x512, .f32⟩
  | 74 => ⟨S512x512, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S_, .f32⟩
  | 81 => ⟨S512x512, .f32⟩
  | 82 => ⟨S512x512, .f32⟩
  | 83 => ⟨S512x1024, .f32⟩
  | 84 => ⟨S1024x512, .f32⟩
  | 85 => ⟨S512x512, .f32⟩
  | 86 => ⟨S1x512, .f32⟩
  | 87 => ⟨S512x512, .f32⟩
  | 88 => ⟨S512x512, .f32⟩
  | 89 => ⟨S512x512, .f32⟩
  | 90 => ⟨S512x512, .f32⟩
  | 91 => ⟨S_, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S512x512, .f32⟩
  | 98 => ⟨S512x1x512, .f32⟩
  | 99 => ⟨S512x512, .f32⟩
  | 100 => ⟨S512x512, .f32⟩
  | 101 => ⟨S512x512, .f32⟩
  | 102 => ⟨S512x1x512, .f32⟩
  | 103 => ⟨S512x512, .f32⟩
  | 104 => ⟨S512x512, .f32⟩
  | 105 => ⟨S512x512, .f32⟩
  | 106 => ⟨S512x512, .f32⟩
  | 107 => ⟨S512x512, .f32⟩
  | 108 => ⟨S_, .i32⟩
  | 109 => ⟨S1, .i32⟩
  | 110 => ⟨S32767x512, .f32⟩
  | 111 => ⟨S_, .i32⟩
  | 112 => ⟨S1, .i32⟩
  | 113 => ⟨S32767x512, .f32⟩
  | 114 => ⟨S256x512, .f32⟩
  | 115 => ⟨S512x512, .f32⟩
  | 116 => ⟨S256x2x512, .f32⟩
  | 117 => ⟨S512x512, .f32⟩
  | 118 => ⟨S256x2x512, .f32⟩
  | 119 => ⟨S256x1x512, .f32⟩
  | 120 => ⟨S256x512, .f32⟩
  | 121 => ⟨S256x1x512, .f32⟩
  | 122 => ⟨S256x512, .f32⟩
  | 123 => ⟨S256x512, .f32⟩
  | 124 => ⟨S256x1024, .f32⟩
  | 125 => ⟨S1024x512, .f32⟩
  | 126 => ⟨S256x512, .f32⟩
  | 127 => ⟨S1x512, .f32⟩
  | _ => ⟨S32767x512, .f32⟩

abbrev hbmTy0_4 (i : Nat) : BufTy := match i % 128 with
  | 0 => ⟨S256x512, .f32⟩
  | 1 => ⟨S256x512, .f32⟩
  | 2 => ⟨S256x512, .f32⟩
  | 3 => ⟨S256x512, .f32⟩
  | 4 => ⟨S_, .f32⟩
  | 5 => ⟨S256x512, .f32⟩
  | 6 => ⟨S256x512, .f32⟩
  | 7 => ⟨S_, .f32⟩
  | 8 => ⟨S256x512, .f32⟩
  | 9 => ⟨S256x512, .f32⟩
  | 10 => ⟨S1024x512, .f32⟩
  | 11 => ⟨S256x512, .f32⟩
  | 12 => ⟨S1x512, .f32⟩
  | 13 => ⟨S256x512, .f32⟩
  | 14 => ⟨S256x512, .f32⟩
  | 15 => ⟨S256x512, .f32⟩
  | 16 => ⟨S256x512, .f32⟩
  | 17 => ⟨S_, .f32⟩
  | 18 => ⟨S256x512, .f32⟩
  | 19 => ⟨S256x512, .f32⟩
  | 20 => ⟨S_, .f32⟩
  | 21 => ⟨S256x512, .f32⟩
  | 22 => ⟨S256x512, .f32⟩
  | 23 => ⟨S1024x512, .f32⟩
  | 24 => ⟨S256x512, .f32⟩
  | 25 => ⟨S1x512, .f32⟩
  | 26 => ⟨S256x512, .f32⟩
  | 27 => ⟨S256x512, .f32⟩
  | 28 => ⟨S256x512, .f32⟩
  | 29 => ⟨S256x1024, .f32⟩
  | 30 => ⟨S1024x512, .f32⟩
  | 31 => ⟨S256x512, .f32⟩
  | 32 => ⟨S1x512, .f32⟩
  | 33 => ⟨S256x512, .f32⟩
  | 34 => ⟨S256x512, .f32⟩
  | 35 => ⟨S256x512, .f32⟩
  | 36 => ⟨S256x512, .f32⟩
  | 37 => ⟨S_, .f32⟩
  | 38 => ⟨S256x512, .f32⟩
  | 39 => ⟨S256x512, .f32⟩
  | 40 => ⟨S_, .f32⟩
  | 41 => ⟨S256x512, .f32⟩
  | 42 => ⟨S256x512, .f32⟩
  | 43 => ⟨S256x1024, .f32⟩
  | 44 => ⟨S1024x512, .f32⟩
  | 45 => ⟨S256x512, .f32⟩
  | 46 => ⟨S1x512, .f32⟩
  | 47 => ⟨S256x512, .f32⟩
  | 48 => ⟨S256x512, .f32⟩
  | 49 => ⟨S256x512, .f32⟩
  | 50 => ⟨S256x512, .f32⟩
  | 51 => ⟨S_, .f32⟩
  | 52 => ⟨S256x512, .f32⟩
  | 53 => ⟨S256x512, .f32⟩
  | 54 => ⟨S_, .f32⟩
  | 55 => ⟨S256x512, .f32⟩
  | 56 => ⟨S256x512, .f32⟩
  | 57 => ⟨S256x512, .f32⟩
  | 58 => ⟨S256x1x512, .f32⟩
  | 59 => ⟨S256x512, .f32⟩
  | 60 => ⟨S256x512, .f32⟩
  | 61 => ⟨S256x512, .f32⟩
  | 62 => ⟨S256x1x512, .f32⟩
  | 63 => ⟨S256x512, .f32⟩
  | 64 => ⟨S256x512, .f32⟩
  | 65 => ⟨S256x512, .f32⟩
  | 66 => ⟨S256x512, .f32⟩
  | 67 => ⟨S256x512, .f32⟩
  | 68 => ⟨S_, .i32⟩
  | 69 => ⟨S1, .i32⟩
  | 70 => ⟨S32767x512, .f32⟩
  | 71 => ⟨S_, .i32⟩
  | 72 => ⟨S1, .i32⟩
  | 73 => ⟨S32767x512, .f32⟩
  | 74 => ⟨S128x512, .f32⟩
  | 75 => ⟨S256x512, .f32⟩
  | 76 => ⟨S128x2x512, .f32⟩
  | 77 => ⟨S256x512, .f32⟩
  | 78 => ⟨S128x2x512, .f32⟩
  | 79 => ⟨S128x1x512, .f32⟩
  | 80 => ⟨S128x512, .f32⟩
  | 81 => ⟨S128x1x512, .f32⟩
  | 82 => ⟨S128x512, .f32⟩
  | 83 => ⟨S128x512, .f32⟩
  | 84 => ⟨S128x1024, .f32⟩
  | 85 => ⟨S1024x512, .f32⟩
  | 86 => ⟨S128x512, .f32⟩
  | 87 => ⟨S1x512, .f32⟩
  | 88 => ⟨S128x512, .f32⟩
  | 89 => ⟨S128x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S_, .f32⟩
  | 96 => ⟨S128x512, .f32⟩
  | 97 => ⟨S128x512, .f32⟩
  | 98 => ⟨S1024x512, .f32⟩
  | 99 => ⟨S128x512, .f32⟩
  | 100 => ⟨S1x512, .f32⟩
  | 101 => ⟨S128x512, .f32⟩
  | 102 => ⟨S128x512, .f32⟩
  | 103 => ⟨S128x512, .f32⟩
  | 104 => ⟨S128x512, .f32⟩
  | 105 => ⟨S_, .f32⟩
  | 106 => ⟨S128x512, .f32⟩
  | 107 => ⟨S128x512, .f32⟩
  | 108 => ⟨S_, .f32⟩
  | 109 => ⟨S128x512, .f32⟩
  | 110 => ⟨S128x512, .f32⟩
  | 111 => ⟨S1024x512, .f32⟩
  | 112 => ⟨S128x512, .f32⟩
  | 113 => ⟨S1x512, .f32⟩
  | 114 => ⟨S128x512, .f32⟩
  | 115 => ⟨S128x512, .f32⟩
  | 116 => ⟨S128x512, .f32⟩
  | 117 => ⟨S128x1024, .f32⟩
  | 118 => ⟨S1024x512, .f32⟩
  | 119 => ⟨S128x512, .f32⟩
  | 120 => ⟨S1x512, .f32⟩
  | 121 => ⟨S128x512, .f32⟩
  | 122 => ⟨S128x512, .f32⟩
  | 123 => ⟨S128x512, .f32⟩
  | 124 => ⟨S128x512, .f32⟩
  | 125 => ⟨S_, .f32⟩
  | 126 => ⟨S128x512, .f32⟩
  | 127 => ⟨S128x512, .f32⟩
  | _ => ⟨S32767x512, .f32⟩

abbrev hbmTy0_5 (i : Nat) : BufTy := match i % 128 with
  | 0 => ⟨S_, .f32⟩
  | 1 => ⟨S128x512, .f32⟩
  | 2 => ⟨S128x512, .f32⟩
  | 3 => ⟨S128x1024, .f32⟩
  | 4 => ⟨S1024x512, .f32⟩
  | 5 => ⟨S128x512, .f32⟩
  | 6 => ⟨S1x512, .f32⟩
  | 7 => ⟨S128x512, .f32⟩
  | 8 => ⟨S128x512, .f32⟩
  | 9 => ⟨S128x512, .f32⟩
  | 10 => ⟨S128x512, .f32⟩
  | 11 => ⟨S_, .f32⟩
  | 12 => ⟨S128x512, .f32⟩
  | 13 => ⟨S128x512, .f32⟩
  | 14 => ⟨S_, .f32⟩
  | 15 => ⟨S128x512, .f32⟩
  | 16 => ⟨S128x512, .f32⟩
  | 17 => ⟨S128x512, .f32⟩
  | 18 => ⟨S128x1x512, .f32⟩
  | 19 => ⟨S128x512, .f32⟩
  | 20 => ⟨S128x512, .f32⟩
  | 21 => ⟨S128x512, .f32⟩
  | 22 => ⟨S128x1x512, .f32⟩
  | 23 => ⟨S128x512, .f32⟩
  | 24 => ⟨S128x512, .f32⟩
  | 25 => ⟨S128x512, .f32⟩
  | 26 => ⟨S128x512, .f32⟩
  | 27 => ⟨S128x512, .f32⟩
  | 28 => ⟨S_, .i32⟩
  | 29 => ⟨S1, .i32⟩
  | 30 => ⟨S32767x512, .f32⟩
  | 31 => ⟨S_, .i32⟩
  | 32 => ⟨S1, .i32⟩
  | 33 => ⟨S32767x512, .f32⟩
  | 34 => ⟨S64x512, .f32⟩
  | 35 => ⟨S128x512, .f32⟩
  | 36 => ⟨S64x2x512, .f32⟩
  | 37 => ⟨S128x512, .f32⟩
  | 38 => ⟨S64x2x512, .f32⟩
  | 39 => ⟨S64x1x512, .f32⟩
  | 40 => ⟨S64x512, .f32⟩
  | 41 => ⟨S64x1x512, .f32⟩
  | 42 => ⟨S64x512, .f32⟩
  | 43 => ⟨S64x512, .f32⟩
  | 44 => ⟨S64x1024, .f32⟩
  | 45 => ⟨S1024x512, .f32⟩
  | 46 => ⟨S64x512, .f32⟩
  | 47 => ⟨S1x512, .f32⟩
  | 48 => ⟨S64x512, .f32⟩
  | 49 => ⟨S64x512, .f32⟩
  | 50 => ⟨S64x512, .f32⟩
  | 51 => ⟨S64x512, .f32⟩
  | 52 => ⟨S_, .f32⟩
  | 53 => ⟨S64x512, .f32⟩
  | 54 => ⟨S64x512, .f32⟩
  | 55 => ⟨S_, .f32⟩
  | 56 => ⟨S64x512, .f32⟩
  | 57 => ⟨S64x512, .f32⟩
  | 58 => ⟨S1024x512, .f32⟩
  | 59 => ⟨S64x512, .f32⟩
  | 60 => ⟨S1x512, .f32⟩
  | 61 => ⟨S64x512, .f32⟩
  | 62 => ⟨S64x512, .f32⟩
  | 63 => ⟨S64x512, .f32⟩
  | 64 => ⟨S64x512, .f32⟩
  | 65 => ⟨S_, .f32⟩
  | 66 => ⟨S64x512, .f32⟩
  | 67 => ⟨S64x512, .f32⟩
  | 68 => ⟨S_, .f32⟩
  | 69 => ⟨S64x512, .f32⟩
  | 70 => ⟨S64x512, .f32⟩
  | 71 => ⟨S1024x512, .f32⟩
  | 72 => ⟨S64x512, .f32⟩
  | 73 => ⟨S1x512, .f32⟩
  | 74 => ⟨S64x512, .f32⟩
  | 75 => ⟨S64x512, .f32⟩
  | 76 => ⟨S64x512, .f32⟩
  | 77 => ⟨S64x1024, .f32⟩
  | 78 => ⟨S1024x512, .f32⟩
  | 79 => ⟨S64x512, .f32⟩
  | 80 => ⟨S1x512, .f32⟩
  | 81 => ⟨S64x512, .f32⟩
  | 82 => ⟨S64x512, .f32⟩
  | 83 => ⟨S64x512, .f32⟩
  | 84 => ⟨S64x512, .f32⟩
  | 85 => ⟨S_, .f32⟩
  | 86 => ⟨S64x512, .f32⟩
  | 87 => ⟨S64x512, .f32⟩
  | 88 => ⟨S_, .f32⟩
  | 89 => ⟨S64x512, .f32⟩
  | 90 => ⟨S64x512, .f32⟩
  | 91 => ⟨S64x1024, .f32⟩
  | 92 => ⟨S1024x512, .f32⟩
  | 93 => ⟨S64x512, .f32⟩
  | 94 => ⟨S1x512, .f32⟩
  | 95 => ⟨S64x512, .f32⟩
  | 96 => ⟨S64x512, .f32⟩
  | 97 => ⟨S64x512, .f32⟩
  | 98 => ⟨S64x512, .f32⟩
  | 99 => ⟨S_, .f32⟩
  | 100 => ⟨S64x512, .f32⟩
  | 101 => ⟨S64x512, .f32⟩
  | 102 => ⟨S_, .f32⟩
  | 103 => ⟨S64x512, .f32⟩
  | 104 => ⟨S64x512, .f32⟩
  | 105 => ⟨S64x512, .f32⟩
  | 106 => ⟨S64x1x512, .f32⟩
  | 107 => ⟨S64x512, .f32⟩
  | 108 => ⟨S64x512, .f32⟩
  | 109 => ⟨S64x512, .f32⟩
  | 110 => ⟨S64x1x512, .f32⟩
  | 111 => ⟨S64x512, .f32⟩
  | 112 => ⟨S64x512, .f32⟩
  | 113 => ⟨S64x512, .f32⟩
  | 114 => ⟨S64x512, .f32⟩
  | 115 => ⟨S64x512, .f32⟩
  | 116 => ⟨S_, .i32⟩
  | 117 => ⟨S1, .i32⟩
  | 118 => ⟨S32767x512, .f32⟩
  | 119 => ⟨S_, .i32⟩
  | 120 => ⟨S1, .i32⟩
  | 121 => ⟨S32767x512, .f32⟩
  | 122 => ⟨S32x512, .f32⟩
  | 123 => ⟨S64x512, .f32⟩
  | 124 => ⟨S32x2x512, .f32⟩
  | 125 => ⟨S64x512, .f32⟩
  | 126 => ⟨S32x2x512, .f32⟩
  | 127 => ⟨S32x1x512, .f32⟩
  | _ => ⟨S32767x512, .f32⟩

abbrev hbmTy0_6 (i : Nat) : BufTy := match i % 128 with
  | 0 => ⟨S32x512, .f32⟩
  | 1 => ⟨S32x1x512, .f32⟩
  | 2 => ⟨S32x512, .f32⟩
  | 3 => ⟨S32x512, .f32⟩
  | 4 => ⟨S32x1024, .f32⟩
  | 5 => ⟨S1024x512, .f32⟩
  | 6 => ⟨S32x512, .f32⟩
  | 7 => ⟨S1x512, .f32⟩
  | 8 => ⟨S32x512, .f32⟩
  | 9 => ⟨S32x512, .f32⟩
  | 10 => ⟨S32x512, .f32⟩
  | 11 => ⟨S32x512, .f32⟩
  | 12 => ⟨S_, .f32⟩
  | 13 => ⟨S32x512, .f32⟩
  | 14 => ⟨S32x512, .f32⟩
  | 15 => ⟨S_, .f32⟩
  | 16 => ⟨S32x512, .f32⟩
  | 17 => ⟨S32x512, .f32⟩
  | 18 => ⟨S1024x512, .f32⟩
  | 19 => ⟨S32x512, .f32⟩
  | 20 => ⟨S1x512, .f32⟩
  | 21 => ⟨S32x512, .f32⟩
  | 22 => ⟨S32x512, .f32⟩
  | 23 => ⟨S32x512, .f32⟩
  | 24 => ⟨S32x512, .f32⟩
  | 25 => ⟨S_, .f32⟩
  | 26 => ⟨S32x512, .f32⟩
  | 27 => ⟨S32x512, .f32⟩
  | 28 => ⟨S_, .f32⟩
  | 29 => ⟨S32x512, .f32⟩
  | 30 => ⟨S32x512, .f32⟩
  | 31 => ⟨S1024x512, .f32⟩
  | 32 => ⟨S32x512, .f32⟩
  | 33 => ⟨S1x512, .f32⟩
  | 34 => ⟨S32x512, .f32⟩
  | 35 => ⟨S32x512, .f32⟩
  | 36 => ⟨S32x512, .f32⟩
  | 37 => ⟨S32x1024, .f32⟩
  | 38 => ⟨S1024x512, .f32⟩
  | 39 => ⟨S32x512, .f32⟩
  | 40 => ⟨S1x512, .f32⟩
  | 41 => ⟨S32x512, .f32⟩
  | 42 => ⟨S32x512, .f32⟩
  | 43 => ⟨S32x512, .f32⟩
  | 44 => ⟨S32x512, .f32⟩
  | 45 => ⟨S_, .f32⟩
  | 46 => ⟨S32x512, .f32⟩
  | 47 => ⟨S32x512, .f32⟩
  | 48 => ⟨S_, .f32⟩
  | 49 => ⟨S32x512, .f32⟩
  | 50 => ⟨S32x512, .f32⟩
  | 51 => ⟨S32x1024, .f32⟩
  | 52 => ⟨S1024x512, .f32⟩
  | 53 => ⟨S32x512, .f32⟩
  | 54 => ⟨S1x512, .f32⟩
  | 55 => ⟨S32x512, .f32⟩
  | 56 => ⟨S32x512, .f32⟩
  | 57 => ⟨S32x512, .f32⟩
  | 58 => ⟨S32x512, .f32⟩
  | 59 => ⟨S_, .f32⟩
  | 60 => ⟨S32x512, .f32⟩
  | 61 => ⟨S32x512, .f32⟩
  | 62 => ⟨S_, .f32⟩
  | 63 => ⟨S32x512, .f32⟩
  | 64 => ⟨S32x512, .f32⟩
  | 65 => ⟨S32x512, .f32⟩
  | 66 => ⟨S32x1x512, .f32⟩
  | 67 => ⟨S32x512, .f32⟩
  | 68 => ⟨S32x512, .f32⟩
  | 69 => ⟨S32x512, .f32⟩
  | 70 => ⟨S32x1x512, .f32⟩
  | 71 => ⟨S32x512, .f32⟩
  | 72 => ⟨S32x512, .f32⟩
  | 73 => ⟨S32x512, .f32⟩
  | 74 => ⟨S32x512, .f32⟩
  | 75 => ⟨S32x512, .f32⟩
  | 76 => ⟨S_, .i32⟩
  | 77 => ⟨S1, .i32⟩
  | 78 => ⟨S32767x512, .f32⟩
  | 79 => ⟨S_, .i32⟩
  | 80 => ⟨S1, .i32⟩
  | 81 => ⟨S32767x512, .f32⟩
  | 82 => ⟨S16x512, .f32⟩
  | 83 => ⟨S32x512, .f32⟩
  | 84 => ⟨S16x2x512, .f32⟩
  | 85 => ⟨S32x512, .f32⟩
  | 86 => ⟨S16x2x512, .f32⟩
  | 87 => ⟨S16x1x512, .f32⟩
  | 88 => ⟨S16x512, .f32⟩
  | 89 => ⟨S16x1x512, .f32⟩
  | 90 => ⟨S16x512, .f32⟩
  | 91 => ⟨S16x512, .f32⟩
  | 92 => ⟨S16x1024, .f32⟩
  | 93 => ⟨S1024x512, .f32⟩
  | 94 => ⟨S16x512, .f32⟩
  | 95 => ⟨S1x512, .f32⟩
  | 96 => ⟨S16x512, .f32⟩
  | 97 => ⟨S16x512, .f32⟩
  | 98 => ⟨S16x512, .f32⟩
  | 99 => ⟨S16x512, .f32⟩
  | 100 => ⟨S_, .f32⟩
  | 101 => ⟨S16x512, .f32⟩
  | 102 => ⟨S16x512, .f32⟩
  | 103 => ⟨S_, .f32⟩
  | 104 => ⟨S16x512, .f32⟩
  | 105 => ⟨S16x512, .f32⟩
  | 106 => ⟨S1024x512, .f32⟩
  | 107 => ⟨S16x512, .f32⟩
  | 108 => ⟨S1x512, .f32⟩
  | 109 => ⟨S16x512, .f32⟩
  | 110 => ⟨S16x512, .f32⟩
  | 111 => ⟨S16x512, .f32⟩
  | 112 => ⟨S16x512, .f32⟩
  | 113 => ⟨S_, .f32⟩
  | 114 => ⟨S16x512, .f32⟩
  | 115 => ⟨S16x512, .f32⟩
  | 116 => ⟨S_, .f32⟩
  | 117 => ⟨S16x512, .f32⟩
  | 118 => ⟨S16x512, .f32⟩
  | 119 => ⟨S1024x512, .f32⟩
  | 120 => ⟨S16x512, .f32⟩
  | 121 => ⟨S1x512, .f32⟩
  | 122 => ⟨S16x512, .f32⟩
  | 123 => ⟨S16x512, .f32⟩
  | 124 => ⟨S16x512, .f32⟩
  | 125 => ⟨S16x1024, .f32⟩
  | 126 => ⟨S1024x512, .f32⟩
  | 127 => ⟨S16x512, .f32⟩
  | _ => ⟨S32767x512, .f32⟩

abbrev hbmTy0_7 (i : Nat) : BufTy := match i % 128 with
  | 0 => ⟨S1x512, .f32⟩
  | 1 => ⟨S16x512, .f32⟩
  | 2 => ⟨S16x512, .f32⟩
  | 3 => ⟨S16x512, .f32⟩
  | 4 => ⟨S16x512, .f32⟩
  | 5 => ⟨S_, .f32⟩
  | 6 => ⟨S16x512, .f32⟩
  | 7 => ⟨S16x512, .f32⟩
  | 8 => ⟨S_, .f32⟩
  | 9 => ⟨S16x512, .f32⟩
  | 10 => ⟨S16x512, .f32⟩
  | 11 => ⟨S16x1024, .f32⟩
  | 12 => ⟨S1024x512, .f32⟩
  | 13 => ⟨S16x512, .f32⟩
  | 14 => ⟨S1x512, .f32⟩
  | 15 => ⟨S16x512, .f32⟩
  | 16 => ⟨S16x512, .f32⟩
  | 17 => ⟨S16x512, .f32⟩
  | 18 => ⟨S16x512, .f32⟩
  | 19 => ⟨S_, .f32⟩
  | 20 => ⟨S16x512, .f32⟩
  | 21 => ⟨S16x512, .f32⟩
  | 22 => ⟨S_, .f32⟩
  | 23 => ⟨S16x512, .f32⟩
  | 24 => ⟨S16x512, .f32⟩
  | 25 => ⟨S16x512, .f32⟩
  | 26 => ⟨S16x1x512, .f32⟩
  | 27 => ⟨S16x512, .f32⟩
  | 28 => ⟨S16x512, .f32⟩
  | 29 => ⟨S16x512, .f32⟩
  | 30 => ⟨S16x1x512, .f32⟩
  | 31 => ⟨S16x512, .f32⟩
  | 32 => ⟨S16x512, .f32⟩
  | 33 => ⟨S16x512, .f32⟩
  | 34 => ⟨S16x512, .f32⟩
  | 35 => ⟨S16x512, .f32⟩
  | 36 => ⟨S_, .i32⟩
  | 37 => ⟨S1, .i32⟩
  | 38 => ⟨S32767x512, .f32⟩
  | 39 => ⟨S_, .i32⟩
  | 40 => ⟨S1, .i32⟩
  | 41 => ⟨S32767x512, .f32⟩
  | 42 => ⟨S8x512, .f32⟩
  | 43 => ⟨S16x512, .f32⟩
  | 44 => ⟨S8x2x512, .f32⟩
  | 45 => ⟨S16x512, .f32⟩
  | 46 => ⟨S8x2x512, .f32⟩
  | 47 => ⟨S8x1x512, .f32⟩
  | 48 => ⟨S8x512, .f32⟩
  | 49 => ⟨S8x1x512, .f32⟩
  | 50 => ⟨S8x512, .f32⟩
  | 51 => ⟨S8x512, .f32⟩
  | 52 => ⟨S8x1024, .f32⟩
  | 53 => ⟨S1024x512, .f32⟩
  | 54 => ⟨S8x512, .f32⟩
  | 55 => ⟨S1x512, .f32⟩
  | 56 => ⟨S8x512, .f32⟩
  | 57 => ⟨S8x512, .f32⟩
  | 58 => ⟨S8x512, .f32⟩
  | 59 => ⟨S8x512, .f32⟩
  | 60 => ⟨S_, .f32⟩
  | 61 => ⟨S8x512, .f32⟩
  | 62 => ⟨S8x512, .f32⟩
  | 63 => ⟨S_, .f32⟩
  | 64 => ⟨S8x512, .f32⟩
  | 65 => ⟨S8x512, .f32⟩
  | 66 => ⟨S1024x512, .f32⟩
  | 67 => ⟨S8x512, .f32⟩
  | 68 => ⟨S1x512, .f32⟩
  | 69 => ⟨S8x512, .f32⟩
  | 70 => ⟨S8x512, .f32⟩
  | 71 => ⟨S8x512, .f32⟩
  | 72 => ⟨S8x512, .f32⟩
  | 73 => ⟨S_, .f32⟩
  | 74 => ⟨S8x512, .f32⟩
  | 75 => ⟨S8x512, .f32⟩
  | 76 => ⟨S_, .f32⟩
  | 77 => ⟨S8x512, .f32⟩
  | 78 => ⟨S8x512, .f32⟩
  | 79 => ⟨S1024x512, .f32⟩
  | 80 => ⟨S8x512, .f32⟩
  | 81 => ⟨S1x512, .f32⟩
  | 82 => ⟨S8x512, .f32⟩
  | 83 => ⟨S8x512, .f32⟩
  | 84 => ⟨S8x512, .f32⟩
  | 85 => ⟨S8x1024, .f32⟩
  | 86 => ⟨S1024x512, .f32⟩
  | 87 => ⟨S8x512, .f32⟩
  | 88 => ⟨S1x512, .f32⟩
  | 89 => ⟨S8x512, .f32⟩
  | 90 => ⟨S8x512, .f32⟩
  | 91 => ⟨S8x512, .f32⟩
  | 92 => ⟨S8x512, .f32⟩
  | 93 => ⟨S_, .f32⟩
  | 94 => ⟨S8x512, .f32⟩
  | 95 => ⟨S8x512, .f32⟩
  | 96 => ⟨S_, .f32⟩
  | 97 => ⟨S8x512, .f32⟩
  | 98 => ⟨S8x512, .f32⟩
  | 99 => ⟨S8x1024, .f32⟩
  | 100 => ⟨S1024x512, .f32⟩
  | 101 => ⟨S8x512, .f32⟩
  | 102 => ⟨S1x512, .f32⟩
  | 103 => ⟨S8x512, .f32⟩
  | 104 => ⟨S8x512, .f32⟩
  | 105 => ⟨S8x512, .f32⟩
  | 106 => ⟨S8x512, .f32⟩
  | 107 => ⟨S_, .f32⟩
  | 108 => ⟨S8x512, .f32⟩
  | 109 => ⟨S8x512, .f32⟩
  | 110 => ⟨S_, .f32⟩
  | 111 => ⟨S8x512, .f32⟩
  | 112 => ⟨S8x512, .f32⟩
  | 113 => ⟨S8x512, .f32⟩
  | 114 => ⟨S8x1x512, .f32⟩
  | 115 => ⟨S8x512, .f32⟩
  | 116 => ⟨S8x512, .f32⟩
  | 117 => ⟨S8x512, .f32⟩
  | 118 => ⟨S8x1x512, .f32⟩
  | 119 => ⟨S8x512, .f32⟩
  | 120 => ⟨S8x512, .f32⟩
  | 121 => ⟨S8x512, .f32⟩
  | 122 => ⟨S8x512, .f32⟩
  | 123 => ⟨S8x512, .f32⟩
  | 124 => ⟨S_, .i32⟩
  | 125 => ⟨S1, .i32⟩
  | 126 => ⟨S32767x512, .f32⟩
  | 127 => ⟨S_, .i32⟩
  | _ => ⟨S32767x512, .f32⟩

abbrev hbmTy0_8 (i : Nat) : BufTy := match i % 128 with
  | 0 => ⟨S1, .i32⟩
  | 1 => ⟨S32767x512, .f32⟩
  | 2 => ⟨S4x512, .f32⟩
  | 3 => ⟨S8x512, .f32⟩
  | 4 => ⟨S4x2x512, .f32⟩
  | 5 => ⟨S8x512, .f32⟩
  | 6 => ⟨S4x2x512, .f32⟩
  | 7 => ⟨S4x1x512, .f32⟩
  | 8 => ⟨S4x512, .f32⟩
  | 9 => ⟨S4x1x512, .f32⟩
  | 10 => ⟨S4x512, .f32⟩
  | 11 => ⟨S4x512, .f32⟩
  | 12 => ⟨S4x1024, .f32⟩
  | 13 => ⟨S1024x512, .f32⟩
  | 14 => ⟨S4x512, .f32⟩
  | 15 => ⟨S1x512, .f32⟩
  | 16 => ⟨S4x512, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S_, .f32⟩
  | 24 => ⟨S4x512, .f32⟩
  | 25 => ⟨S4x512, .f32⟩
  | 26 => ⟨S1024x512, .f32⟩
  | 27 => ⟨S4x512, .f32⟩
  | 28 => ⟨S1x512, .f32⟩
  | 29 => ⟨S4x512, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S_, .f32⟩
  | 37 => ⟨S4x512, .f32⟩
  | 38 => ⟨S4x512, .f32⟩
  | 39 => ⟨S1024x512, .f32⟩
  | 40 => ⟨S4x512, .f32⟩
  | 41 => ⟨S1x512, .f32⟩
  | 42 => ⟨S4x512, .f32⟩
  | 43 => ⟨S4x512, .f32⟩
  | 44 => ⟨S4x512, .f32⟩
  | 45 => ⟨S4x1024, .f32⟩
  | 46 => ⟨S1024x512, .f32⟩
  | 47 => ⟨S4x512, .f32⟩
  | 48 => ⟨S1x512, .f32⟩
  | 49 => ⟨S4x512, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S_, .f32⟩
  | 57 => ⟨S4x512, .f32⟩
  | 58 => ⟨S4x512, .f32⟩
  | 59 => ⟨S4x1024, .f32⟩
  | 60 => ⟨S1024x512, .f32⟩
  | 61 => ⟨S4x512, .f32⟩
  | 62 => ⟨S1x512, .f32⟩
  | 63 => ⟨S4x512, .f32⟩
  | 64 => ⟨S4x512, .f32⟩
  | 65 => ⟨S4x512, .f32⟩
  | 66 => ⟨S4x512, .f32⟩
  | 67 => ⟨S_, .f32⟩
  | 68 => ⟨S4x512, .f32⟩
  | 69 => ⟨S4x512, .f32⟩
  | 70 => ⟨S_, .f32⟩
  | 71 => ⟨S4x512, .f32⟩
  | 72 => ⟨S4x512, .f32⟩
  | 73 => ⟨S4x512, .f32⟩
  | 74 => ⟨S4x1x512, .f32⟩
  | 75 => ⟨S4x512, .f32⟩
  | 76 => ⟨S4x512, .f32⟩
  | 77 => ⟨S4x512, .f32⟩
  | 78 => ⟨S4x1x512, .f32⟩
  | 79 => ⟨S4x512, .f32⟩
  | 80 => ⟨S4x512, .f32⟩
  | 81 => ⟨S4x512, .f32⟩
  | 82 => ⟨S4x512, .f32⟩
  | 83 => ⟨S4x512, .f32⟩
  | 84 => ⟨S_, .i32⟩
  | 85 => ⟨S1, .i32⟩
  | 86 => ⟨S32767x512, .f32⟩
  | 87 => ⟨S_, .i32⟩
  | 88 => ⟨S1, .i32⟩
  | 89 => ⟨S32767x512, .f32⟩
  | 90 => ⟨S2x512, .f32⟩
  | 91 => ⟨S4x512, .f32⟩
  | 92 => ⟨S2x2x512, .f32⟩
  | 93 => ⟨S4x512, .f32⟩
  | 94 => ⟨S2x2x512, .f32⟩
  | 95 => ⟨S2x1x512, .f32⟩
  | 96 => ⟨S2x512, .f32⟩
  | 97 => ⟨S2x1x512, .f32⟩
  | 98 => ⟨S2x512, .f32⟩
  | 99 => ⟨S2x512, .f32⟩
  | 100 => ⟨S2x1024, .f32⟩
  | 101 => ⟨S1024x512, .f32⟩
  | 102 => ⟨S2x512, .f32⟩
  | 103 => ⟨S1x512, .f32⟩
  | 104 => ⟨S2x512, .f32⟩
  | 105 => ⟨S2x512, .f32⟩
  | 106 => ⟨S2x512, .f32⟩
  | 107 => ⟨S2x512, .f32⟩
  | 108 => ⟨S_, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S1024x512, .f32⟩
  | 115 => ⟨S2x512, .f32⟩
  | 116 => ⟨S1x512, .f32⟩
  | 117 => ⟨S2x512, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S1024x512, .f32⟩
  | _ => ⟨S32767x512, .f32⟩

abbrev hbmTy0_9 (i : Nat) : BufTy := match i % 128 with
  | 0 => ⟨S2x512, .f32⟩
  | 1 => ⟨S1x512, .f32⟩
  | 2 => ⟨S2x512, .f32⟩
  | 3 => ⟨S2x512, .f32⟩
  | 4 => ⟨S2x512, .f32⟩
  | 5 => ⟨S2x1024, .f32⟩
  | 6 => ⟨S1024x512, .f32⟩
  | 7 => ⟨S2x512, .f32⟩
  | 8 => ⟨S1x512, .f32⟩
  | 9 => ⟨S2x512, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x1024, .f32⟩
  | 20 => ⟨S1024x512, .f32⟩
  | 21 => ⟨S2x512, .f32⟩
  | 22 => ⟨S1x512, .f32⟩
  | 23 => ⟨S2x512, .f32⟩
  | 24 => ⟨S2x512, .f32⟩
  | 25 => ⟨S2x512, .f32⟩
  | 26 => ⟨S2x512, .f32⟩
  | 27 => ⟨S_, .f32⟩
  | 28 => ⟨S2x512, .f32⟩
  | 29 => ⟨S2x512, .f32⟩
  | 30 => ⟨S_, .f32⟩
  | 31 => ⟨S2x512, .f32⟩
  | 32 => ⟨S2x512, .f32⟩
  | 33 => ⟨S2x512, .f32⟩
  | 34 => ⟨S2x1x512, .f32⟩
  | 35 => ⟨S2x512, .f32⟩
  | 36 => ⟨S2x512, .f32⟩
  | 37 => ⟨S2x512, .f32⟩
  | 38 => ⟨S2x1x512, .f32⟩
  | 39 => ⟨S2x512, .f32⟩
  | 40 => ⟨S2x512, .f32⟩
  | 41 => ⟨S2x512, .f32⟩
  | 42 => ⟨S2x512, .f32⟩
  | 43 => ⟨S2x512, .f32⟩
  | 44 => ⟨S_, .i32⟩
  | 45 => ⟨S1, .i32⟩
  | 46 => ⟨S32767x512, .f32⟩
  | 47 => ⟨S_, .i32⟩
  | 48 => ⟨S1, .i32⟩
  | 49 => ⟨S32767x512, .f32⟩
  | 50 => ⟨S1x512, .f32⟩
  | 51 => ⟨S2x512, .f32⟩
  | 52 => ⟨S1x2x512, .f32⟩
  | 53 => ⟨S2x512, .f32⟩
  | 54 => ⟨S1x2x512, .f32⟩
  | 55 => ⟨S1x1x512, .f32⟩
  | 56 => ⟨S1x512, .f32⟩
  | 57 => ⟨S1x1x512, .f32⟩
  | 58 => ⟨S1x512, .f32⟩
  | 59 => ⟨S1x512, .f32⟩
  | 60 => ⟨S1x1024, .f32⟩
  | 61 => ⟨S1024x512, .f32⟩
  | 62 => ⟨S1x512, .f32⟩
  | 63 => ⟨S1x512, .f32⟩
  | 64 => ⟨S1x512, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1024x512, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1024x512, .f32⟩
  | 86 => ⟨S1x512, .f32⟩
  | 87 => ⟨S1x512, .f32⟩
  | 88 => ⟨S1x512, .f32⟩
  | 89 => ⟨S1x512, .f32⟩
  | 90 => ⟨S1x1024, .f32⟩
  | 91 => ⟨S1024x512, .f32⟩
  | 92 => ⟨S1x512, .f32⟩
  | 93 => ⟨S1x512, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x1024, .f32⟩
  | 104 => ⟨S1024x512, .f32⟩
  | 105 => ⟨S1x512, .f32⟩
  | 106 => ⟨S1x512, .f32⟩
  | 107 => ⟨S1x512, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S1x1x512, .f32⟩
  | 118 => ⟨S1x512, .f32⟩
  | 119 => ⟨S1x512, .f32⟩
  | 120 => ⟨S1x512, .f32⟩
  | 121 => ⟨S1x1x512, .f32⟩
  | 122 => ⟨S1x512, .f32⟩
  | 123 => ⟨S1x512, .f32⟩
  | 124 => ⟨S1x512, .f32⟩
  | 125 => ⟨S1x512, .f32⟩
  | 126 => ⟨S1x512, .f32⟩
  | 127 => ⟨S_, .i32⟩
  | _ => ⟨S32767x512, .f32⟩

abbrev hbmTy0_10 (i : Nat) : BufTy := match i % 128 with
  | 0 => ⟨S1, .i32⟩
  | 1 => ⟨S32767x512, .f32⟩
  | 2 => ⟨S_, .i32⟩
  | 3 => ⟨S1, .i32⟩
  | 4 => ⟨S32767x512, .f32⟩
  | 5 => ⟨S1x512, .f32⟩
  | 6 => ⟨S512, .f32⟩
  | 7 => ⟨S1x512, .f32⟩
  | 8 => ⟨S512, .f32⟩
  | _ => ⟨S32767x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32767x512, .f32⟩

abbrev bufTy : (tb : Table) → Fin (tcTables nBuf tb) → BufTy
  | .hbm, ⟨i, _⟩ => hbmTy i
  | _, _ => ⟨S32767x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_11 : Ref sig .tc := ⟨.hbm, 109, rfl⟩
abbrev main_v87 : Ref sig .tc := ⟨.hbm, 110, rfl⟩
abbrev main_v88 : Ref sig .tc := ⟨.hbm, 111, rfl⟩
abbrev main_cst_12 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_c_15 : Ref sig .tc := ⟨.hbm, 140, rfl⟩
abbrev main_v114 : Ref sig .tc := ⟨.hbm, 141, rfl⟩
abbrev main_v115 : Ref sig .tc := ⟨.hbm, 142, rfl⟩
abbrev main_c_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_v136 : Ref sig .tc := ⟨.hbm, 165, rfl⟩
abbrev main_v137 : Ref sig .tc := ⟨.hbm, 166, rfl⟩
abbrev main_cst_18 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_21 : Ref sig .tc := ⟨.hbm, 197, rfl⟩
abbrev main_v165 : Ref sig .tc := ⟨.hbm, 198, rfl⟩
abbrev main_v166 : Ref sig .tc := ⟨.hbm, 199, rfl⟩
abbrev main_cst_22 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_cst_23 : Ref sig .tc := ⟨.hbm, 211, rfl⟩
abbrev main_v177 : Ref sig .tc := ⟨.hbm, 212, rfl⟩
abbrev main_v178 : Ref sig .tc := ⟨.hbm, 213, rfl⟩
abbrev main_cst_24 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_c_25 : Ref sig .tc := ⟨.hbm, 228, rfl⟩
abbrev main_v192 : Ref sig .tc := ⟨.hbm, 229, rfl⟩
abbrev main_v193 : Ref sig .tc := ⟨.hbm, 230, rfl⟩
abbrev main_c_26 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_cst_27 : Ref sig .tc := ⟨.hbm, 252, rfl⟩
abbrev main_v214 : Ref sig .tc := ⟨.hbm, 253, rfl⟩
abbrev main_v215 : Ref sig .tc := ⟨.hbm, 254, rfl⟩
abbrev main_cst_28 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_cst_29 : Ref sig .tc := ⟨.hbm, 265, rfl⟩
abbrev main_v225 : Ref sig .tc := ⟨.hbm, 266, rfl⟩
abbrev main_v226 : Ref sig .tc := ⟨.hbm, 267, rfl⟩
abbrev main_cst_30 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_cst_31 : Ref sig .tc := ⟨.hbm, 285, rfl⟩
abbrev main_v243 : Ref sig .tc := ⟨.hbm, 286, rfl⟩
abbrev main_v244 : Ref sig .tc := ⟨.hbm, 287, rfl⟩
abbrev main_cst_32 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_cst_33 : Ref sig .tc := ⟨.hbm, 299, rfl⟩
abbrev main_v255 : Ref sig .tc := ⟨.hbm, 300, rfl⟩
abbrev main_v256 : Ref sig .tc := ⟨.hbm, 301, rfl⟩
abbrev main_cst_34 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_c_35 : Ref sig .tc := ⟨.hbm, 316, rfl⟩
abbrev main_v270 : Ref sig .tc := ⟨.hbm, 317, rfl⟩
abbrev main_v271 : Ref sig .tc := ⟨.hbm, 318, rfl⟩
abbrev main_c_36 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_cst_37 : Ref sig .tc := ⟨.hbm, 340, rfl⟩
abbrev main_v292 : Ref sig .tc := ⟨.hbm, 341, rfl⟩
abbrev main_v293 : Ref sig .tc := ⟨.hbm, 342, rfl⟩
abbrev main_cst_38 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_cst_39 : Ref sig .tc := ⟨.hbm, 353, rfl⟩
abbrev main_v303 : Ref sig .tc := ⟨.hbm, 354, rfl⟩
abbrev main_v304 : Ref sig .tc := ⟨.hbm, 355, rfl⟩
abbrev main_cst_40 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_cst_41 : Ref sig .tc := ⟨.hbm, 373, rfl⟩
abbrev main_v321 : Ref sig .tc := ⟨.hbm, 374, rfl⟩
abbrev main_v322 : Ref sig .tc := ⟨.hbm, 375, rfl⟩
abbrev main_cst_42 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_cst_43 : Ref sig .tc := ⟨.hbm, 387, rfl⟩
abbrev main_v333 : Ref sig .tc := ⟨.hbm, 388, rfl⟩
abbrev main_v334 : Ref sig .tc := ⟨.hbm, 389, rfl⟩
abbrev main_cst_44 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_v346 : Ref sig .tc := ⟨.hbm, 402, rfl⟩
abbrev main_v347 : Ref sig .tc := ⟨.hbm, 403, rfl⟩
abbrev main_c_45 : Ref sig .tc := ⟨.hbm, 404, rfl⟩
abbrev main_v348 : Ref sig .tc := ⟨.hbm, 405, rfl⟩
abbrev main_v349 : Ref sig .tc := ⟨.hbm, 406, rfl⟩
abbrev main_c_46 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_cst_47 : Ref sig .tc := ⟨.hbm, 428, rfl⟩
abbrev main_v370 : Ref sig .tc := ⟨.hbm, 429, rfl⟩
abbrev main_v371 : Ref sig .tc := ⟨.hbm, 430, rfl⟩
abbrev main_cst_48 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_cst_49 : Ref sig .tc := ⟨.hbm, 441, rfl⟩
abbrev main_v381 : Ref sig .tc := ⟨.hbm, 442, rfl⟩
abbrev main_v382 : Ref sig .tc := ⟨.hbm, 443, rfl⟩
abbrev main_cst_50 : Ref sig .tc := ⟨.hbm, 444, rfl⟩
abbrev main_v383 : Ref sig .tc := ⟨.hbm, 445, rfl⟩
abbrev main_v384 : Ref sig .tc := ⟨.hbm, 446, rfl⟩
abbrev main_v385 : Ref sig .tc := ⟨.hbm, 447, rfl⟩
abbrev main_v386 : Ref sig .tc := ⟨.hbm, 448, rfl⟩
abbrev main_v387 : Ref sig .tc := ⟨.hbm, 449, rfl⟩
abbrev main_v388 : Ref sig .tc := ⟨.hbm, 450, rfl⟩
abbrev main_v389 : Ref sig .tc := ⟨.hbm, 451, rfl⟩
abbrev main_v390 : Ref sig .tc := ⟨.hbm, 452, rfl⟩
abbrev main_v391 : Ref sig .tc := ⟨.hbm, 453, rfl⟩
abbrev main_v392 : Ref sig .tc := ⟨.hbm, 454, rfl⟩
abbrev main_v393 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_cst_51 : Ref sig .tc := ⟨.hbm, 461, rfl⟩
abbrev main_v399 : Ref sig .tc := ⟨.hbm, 462, rfl⟩
abbrev main_v400 : Ref sig .tc := ⟨.hbm, 463, rfl⟩
abbrev main_cst_52 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_v409 : Ref sig .tc := ⟨.hbm, 473, rfl⟩
abbrev main_v410 : Ref sig .tc := ⟨.hbm, 474, rfl⟩
abbrev main_cst_53 : Ref sig .tc := ⟨.hbm, 475, rfl⟩
abbrev main_v411 : Ref sig .tc := ⟨.hbm, 476, rfl⟩
abbrev main_v412 : Ref sig .tc := ⟨.hbm, 477, rfl⟩
abbrev main_cst_54 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_v417 : Ref sig .tc := ⟨.hbm, 483, rfl⟩
abbrev main_v418 : Ref sig .tc := ⟨.hbm, 484, rfl⟩
abbrev main_v419 : Ref sig .tc := ⟨.hbm, 485, rfl⟩
abbrev main_v420 : Ref sig .tc := ⟨.hbm, 486, rfl⟩
abbrev main_v421 : Ref sig .tc := ⟨.hbm, 487, rfl⟩
abbrev main_v422 : Ref sig .tc := ⟨.hbm, 488, rfl⟩
abbrev main_v423 : Ref sig .tc := ⟨.hbm, 489, rfl⟩
abbrev main_v424 : Ref sig .tc := ⟨.hbm, 490, rfl⟩
abbrev main_v425 : Ref sig .tc := ⟨.hbm, 491, rfl⟩
abbrev main_c_55 : Ref sig .tc := ⟨.hbm, 492, rfl⟩
abbrev main_v426 : Ref sig .tc := ⟨.hbm, 493, rfl⟩
abbrev main_v427 : Ref sig .tc := ⟨.hbm, 494, rfl⟩
abbrev main_c_56 : Ref sig .tc := ⟨.hbm, 495, rfl⟩
abbrev main_v428 : Ref sig .tc := ⟨.hbm, 496, rfl⟩
abbrev main_v429 : Ref sig .tc := ⟨.hbm, 497, rfl⟩
abbrev main_v430 : Ref sig .tc := ⟨.hbm, 498, rfl⟩
abbrev main_v431 : Ref sig .tc := ⟨.hbm, 499, rfl⟩
abbrev main_v432 : Ref sig .tc := ⟨.hbm, 500, rfl⟩
abbrev main_v433 : Ref sig .tc := ⟨.hbm, 501, rfl⟩
abbrev main_v434 : Ref sig .tc := ⟨.hbm, 502, rfl⟩
abbrev main_v435 : Ref sig .tc := ⟨.hbm, 503, rfl⟩
abbrev main_v436 : Ref sig .tc := ⟨.hbm, 504, rfl⟩
abbrev main_v437 : Ref sig .tc := ⟨.hbm, 505, rfl⟩
abbrev main_v438 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_v444 : Ref sig .tc := ⟨.hbm, 512, rfl⟩
abbrev main_v445 : Ref sig .tc := ⟨.hbm, 513, rfl⟩
abbrev main_v446 : Ref sig .tc := ⟨.hbm, 514, rfl⟩
abbrev main_v447 : Ref sig .tc := ⟨.hbm, 515, rfl⟩
abbrev main_cst_57 : Ref sig .tc := ⟨.hbm, 516, rfl⟩
abbrev main_v448 : Ref sig .tc := ⟨.hbm, 517, rfl⟩
abbrev main_v449 : Ref sig .tc := ⟨.hbm, 518, rfl⟩
abbrev main_cst_58 : Ref sig .tc := ⟨.hbm, 519, rfl⟩
abbrev main_v450 : Ref sig .tc := ⟨.hbm, 520, rfl⟩
abbrev main_v451 : Ref sig .tc := ⟨.hbm, 521, rfl⟩
abbrev main_v452 : Ref sig .tc := ⟨.hbm, 522, rfl⟩
abbrev main_v453 : Ref sig .tc := ⟨.hbm, 523, rfl⟩
abbrev main_v454 : Ref sig .tc := ⟨.hbm, 524, rfl⟩
abbrev main_v455 : Ref sig .tc := ⟨.hbm, 525, rfl⟩
abbrev main_v456 : Ref sig .tc := ⟨.hbm, 526, rfl⟩
abbrev main_v457 : Ref sig .tc := ⟨.hbm, 527, rfl⟩
abbrev main_v458 : Ref sig .tc := ⟨.hbm, 528, rfl⟩
abbrev main_cst_59 : Ref sig .tc := ⟨.hbm, 529, rfl⟩
abbrev main_v459 : Ref sig .tc := ⟨.hbm, 530, rfl⟩
abbrev main_v460 : Ref sig .tc := ⟨.hbm, 531, rfl⟩
abbrev main_cst_60 : Ref sig .tc := ⟨.hbm, 532, rfl⟩
abbrev main_v461 : Ref sig .tc := ⟨.hbm, 533, rfl⟩
abbrev main_v462 : Ref sig .tc := ⟨.hbm, 534, rfl⟩
abbrev main_v463 : Ref sig .tc := ⟨.hbm, 535, rfl⟩
abbrev main_v464 : Ref sig .tc := ⟨.hbm, 536, rfl⟩
abbrev main_v465 : Ref sig .tc := ⟨.hbm, 537, rfl⟩
abbrev main_v466 : Ref sig .tc := ⟨.hbm, 538, rfl⟩
abbrev main_v467 : Ref sig .tc := ⟨.hbm, 539, rfl⟩
abbrev main_v468 : Ref sig .tc := ⟨.hbm, 540, rfl⟩
abbrev main_v469 : Ref sig .tc := ⟨.hbm, 541, rfl⟩
abbrev main_v470 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_v474 : Ref sig .tc := ⟨.hbm, 546, rfl⟩
abbrev main_v475 : Ref sig .tc := ⟨.hbm, 547, rfl⟩
abbrev main_v476 : Ref sig .tc := ⟨.hbm, 548, rfl⟩
abbrev main_cst_61 : Ref sig .tc := ⟨.hbm, 549, rfl⟩
abbrev main_v477 : Ref sig .tc := ⟨.hbm, 550, rfl⟩
abbrev main_v478 : Ref sig .tc := ⟨.hbm, 551, rfl⟩
abbrev main_cst_62 : Ref sig .tc := ⟨.hbm, 552, rfl⟩
abbrev main_v479 : Ref sig .tc := ⟨.hbm, 553, rfl⟩
abbrev main_v480 : Ref sig .tc := ⟨.hbm, 554, rfl⟩
abbrev main_v481 : Ref sig .tc := ⟨.hbm, 555, rfl⟩
abbrev main_v482 : Ref sig .tc := ⟨.hbm, 556, rfl⟩
abbrev main_v483 : Ref sig .tc := ⟨.hbm, 557, rfl⟩
abbrev main_v484 : Ref sig .tc := ⟨.hbm, 558, rfl⟩
abbrev main_v485 : Ref sig .tc := ⟨.hbm, 559, rfl⟩
abbrev main_v486 : Ref sig .tc := ⟨.hbm, 560, rfl⟩
abbrev main_v487 : Ref sig .tc := ⟨.hbm, 561, rfl⟩
abbrev main_v488 : Ref sig .tc := ⟨.hbm, 562, rfl⟩
abbrev main_cst_63 : Ref sig .tc := ⟨.hbm, 563, rfl⟩
abbrev main_v489 : Ref sig .tc := ⟨.hbm, 564, rfl⟩
abbrev main_v490 : Ref sig .tc := ⟨.hbm, 565, rfl⟩
abbrev main_cst_64 : Ref sig .tc := ⟨.hbm, 566, rfl⟩
abbrev main_v491 : Ref sig .tc := ⟨.hbm, 567, rfl⟩
abbrev main_v492 : Ref sig .tc := ⟨.hbm, 568, rfl⟩
abbrev main_v493 : Ref sig .tc := ⟨.hbm, 569, rfl⟩
abbrev main_v494 : Ref sig .tc := ⟨.hbm, 570, rfl⟩
abbrev main_v495 : Ref sig .tc := ⟨.hbm, 571, rfl⟩
abbrev main_v496 : Ref sig .tc := ⟨.hbm, 572, rfl⟩
abbrev main_v497 : Ref sig .tc := ⟨.hbm, 573, rfl⟩
abbrev main_v498 : Ref sig .tc := ⟨.hbm, 574, rfl⟩
abbrev main_v499 : Ref sig .tc := ⟨.hbm, 575, rfl⟩
abbrev main_v500 : Ref sig .tc := ⟨.hbm, 576, rfl⟩
abbrev main_v501 : Ref sig .tc := ⟨.hbm, 577, rfl⟩
abbrev main_v502 : Ref sig .tc := ⟨.hbm, 578, rfl⟩
abbrev main_v503 : Ref sig .tc := ⟨.hbm, 579, rfl⟩
abbrev main_c_65 : Ref sig .tc := ⟨.hbm, 580, rfl⟩
abbrev main_v504 : Ref sig .tc := ⟨.hbm, 581, rfl⟩
abbrev main_v505 : Ref sig .tc := ⟨.hbm, 582, rfl⟩
abbrev main_c_66 : Ref sig .tc := ⟨.hbm, 583, rfl⟩
abbrev main_v506 : Ref sig .tc := ⟨.hbm, 584, rfl⟩
abbrev main_v507 : Ref sig .tc := ⟨.hbm, 585, rfl⟩
abbrev main_v508 : Ref sig .tc := ⟨.hbm, 586, rfl⟩
abbrev main_v509 : Ref sig .tc := ⟨.hbm, 587, rfl⟩
abbrev main_v510 : Ref sig .tc := ⟨.hbm, 588, rfl⟩
abbrev main_v511 : Ref sig .tc := ⟨.hbm, 589, rfl⟩
abbrev main_v512 : Ref sig .tc := ⟨.hbm, 590, rfl⟩
abbrev main_v513 : Ref sig .tc := ⟨.hbm, 591, rfl⟩
abbrev main_v514 : Ref sig .tc := ⟨.hbm, 592, rfl⟩
abbrev main_v515 : Ref sig .tc := ⟨.hbm, 593, rfl⟩
abbrev main_v516 : Ref sig .tc := ⟨.hbm, 594, rfl⟩
abbrev main_v517 : Ref sig .tc := ⟨.hbm, 595, rfl⟩
abbrev main_v518 : Ref sig .tc := ⟨.hbm, 596, rfl⟩
abbrev main_v519 : Ref sig .tc := ⟨.hbm, 597, rfl⟩
abbrev main_v520 : Ref sig .tc := ⟨.hbm, 598, rfl⟩
abbrev main_v521 : Ref sig .tc := ⟨.hbm, 599, rfl⟩
abbrev main_v522 : Ref sig .tc := ⟨.hbm, 600, rfl⟩
abbrev main_v523 : Ref sig .tc := ⟨.hbm, 601, rfl⟩
abbrev main_v524 : Ref sig .tc := ⟨.hbm, 602, rfl⟩
abbrev main_v525 : Ref sig .tc := ⟨.hbm, 603, rfl⟩
abbrev main_cst_67 : Ref sig .tc := ⟨.hbm, 604, rfl⟩
abbrev main_v526 : Ref sig .tc := ⟨.hbm, 605, rfl⟩
abbrev main_v527 : Ref sig .tc := ⟨.hbm, 606, rfl⟩
abbrev main_cst_68 : Ref sig .tc := ⟨.hbm, 607, rfl⟩
abbrev main_v528 : Ref sig .tc := ⟨.hbm, 608, rfl⟩
abbrev main_v529 : Ref sig .tc := ⟨.hbm, 609, rfl⟩
abbrev main_v530 : Ref sig .tc := ⟨.hbm, 610, rfl⟩
abbrev main_v531 : Ref sig .tc := ⟨.hbm, 611, rfl⟩
abbrev main_v532 : Ref sig .tc := ⟨.hbm, 612, rfl⟩
abbrev main_v533 : Ref sig .tc := ⟨.hbm, 613, rfl⟩
abbrev main_v534 : Ref sig .tc := ⟨.hbm, 614, rfl⟩
abbrev main_v535 : Ref sig .tc := ⟨.hbm, 615, rfl⟩
abbrev main_v536 : Ref sig .tc := ⟨.hbm, 616, rfl⟩
abbrev main_cst_69 : Ref sig .tc := ⟨.hbm, 617, rfl⟩
abbrev main_v537 : Ref sig .tc := ⟨.hbm, 618, rfl⟩
abbrev main_v538 : Ref sig .tc := ⟨.hbm, 619, rfl⟩
abbrev main_cst_70 : Ref sig .tc := ⟨.hbm, 620, rfl⟩
abbrev main_v539 : Ref sig .tc := ⟨.hbm, 621, rfl⟩
abbrev main_v540 : Ref sig .tc := ⟨.hbm, 622, rfl⟩
abbrev main_v541 : Ref sig .tc := ⟨.hbm, 623, rfl⟩
abbrev main_v542 : Ref sig .tc := ⟨.hbm, 624, rfl⟩
abbrev main_v543 : Ref sig .tc := ⟨.hbm, 625, rfl⟩
abbrev main_v544 : Ref sig .tc := ⟨.hbm, 626, rfl⟩
abbrev main_v545 : Ref sig .tc := ⟨.hbm, 627, rfl⟩
abbrev main_v546 : Ref sig .tc := ⟨.hbm, 628, rfl⟩
abbrev main_v547 : Ref sig .tc := ⟨.hbm, 629, rfl⟩
abbrev main_v548 : Ref sig .tc := ⟨.hbm, 630, rfl⟩
abbrev main_v549 : Ref sig .tc := ⟨.hbm, 631, rfl⟩
abbrev main_v550 : Ref sig .tc := ⟨.hbm, 632, rfl⟩
abbrev main_v551 : Ref sig .tc := ⟨.hbm, 633, rfl⟩
abbrev main_v552 : Ref sig .tc := ⟨.hbm, 634, rfl⟩
abbrev main_v553 : Ref sig .tc := ⟨.hbm, 635, rfl⟩
abbrev main_v554 : Ref sig .tc := ⟨.hbm, 636, rfl⟩
abbrev main_cst_71 : Ref sig .tc := ⟨.hbm, 637, rfl⟩
abbrev main_v555 : Ref sig .tc := ⟨.hbm, 638, rfl⟩
abbrev main_v556 : Ref sig .tc := ⟨.hbm, 639, rfl⟩
abbrev main_cst_72 : Ref sig .tc := ⟨.hbm, 640, rfl⟩
abbrev main_v557 : Ref sig .tc := ⟨.hbm, 641, rfl⟩
abbrev main_v558 : Ref sig .tc := ⟨.hbm, 642, rfl⟩
abbrev main_v559 : Ref sig .tc := ⟨.hbm, 643, rfl⟩
abbrev main_v560 : Ref sig .tc := ⟨.hbm, 644, rfl⟩
abbrev main_v561 : Ref sig .tc := ⟨.hbm, 645, rfl⟩
abbrev main_v562 : Ref sig .tc := ⟨.hbm, 646, rfl⟩
abbrev main_v563 : Ref sig .tc := ⟨.hbm, 647, rfl⟩
abbrev main_v564 : Ref sig .tc := ⟨.hbm, 648, rfl⟩
abbrev main_v565 : Ref sig .tc := ⟨.hbm, 649, rfl⟩
abbrev main_v566 : Ref sig .tc := ⟨.hbm, 650, rfl⟩
abbrev main_cst_73 : Ref sig .tc := ⟨.hbm, 651, rfl⟩
abbrev main_v567 : Ref sig .tc := ⟨.hbm, 652, rfl⟩
abbrev main_v568 : Ref sig .tc := ⟨.hbm, 653, rfl⟩
abbrev main_cst_74 : Ref sig .tc := ⟨.hbm, 654, rfl⟩
abbrev main_v569 : Ref sig .tc := ⟨.hbm, 655, rfl⟩
abbrev main_v570 : Ref sig .tc := ⟨.hbm, 656, rfl⟩
abbrev main_v571 : Ref sig .tc := ⟨.hbm, 657, rfl⟩
abbrev main_v572 : Ref sig .tc := ⟨.hbm, 658, rfl⟩
abbrev main_v573 : Ref sig .tc := ⟨.hbm, 659, rfl⟩
abbrev main_v574 : Ref sig .tc := ⟨.hbm, 660, rfl⟩
abbrev main_v575 : Ref sig .tc := ⟨.hbm, 661, rfl⟩
abbrev main_v576 : Ref sig .tc := ⟨.hbm, 662, rfl⟩
abbrev main_v577 : Ref sig .tc := ⟨.hbm, 663, rfl⟩
abbrev main_v578 : Ref sig .tc := ⟨.hbm, 664, rfl⟩
abbrev main_v579 : Ref sig .tc := ⟨.hbm, 665, rfl⟩
abbrev main_v580 : Ref sig .tc := ⟨.hbm, 666, rfl⟩
abbrev main_v581 : Ref sig .tc := ⟨.hbm, 667, rfl⟩
abbrev main_c_75 : Ref sig .tc := ⟨.hbm, 668, rfl⟩
abbrev main_v582 : Ref sig .tc := ⟨.hbm, 669, rfl⟩
abbrev main_v583 : Ref sig .tc := ⟨.hbm, 670, rfl⟩
abbrev main_c_76 : Ref sig .tc := ⟨.hbm, 671, rfl⟩
abbrev main_v584 : Ref sig .tc := ⟨.hbm, 672, rfl⟩
abbrev main_v585 : Ref sig .tc := ⟨.hbm, 673, rfl⟩
abbrev main_v586 : Ref sig .tc := ⟨.hbm, 674, rfl⟩
abbrev main_v587 : Ref sig .tc := ⟨.hbm, 675, rfl⟩
abbrev main_v588 : Ref sig .tc := ⟨.hbm, 676, rfl⟩
abbrev main_v589 : Ref sig .tc := ⟨.hbm, 677, rfl⟩
abbrev main_v590 : Ref sig .tc := ⟨.hbm, 678, rfl⟩
abbrev main_v591 : Ref sig .tc := ⟨.hbm, 679, rfl⟩
abbrev main_v592 : Ref sig .tc := ⟨.hbm, 680, rfl⟩
abbrev main_v593 : Ref sig .tc := ⟨.hbm, 681, rfl⟩
abbrev main_v594 : Ref sig .tc := ⟨.hbm, 682, rfl⟩
abbrev main_v595 : Ref sig .tc := ⟨.hbm, 683, rfl⟩
abbrev main_v596 : Ref sig .tc := ⟨.hbm, 684, rfl⟩
abbrev main_v597 : Ref sig .tc := ⟨.hbm, 685, rfl⟩
abbrev main_v598 : Ref sig .tc := ⟨.hbm, 686, rfl⟩
abbrev main_v599 : Ref sig .tc := ⟨.hbm, 687, rfl⟩
abbrev main_v600 : Ref sig .tc := ⟨.hbm, 688, rfl⟩
abbrev main_v601 : Ref sig .tc := ⟨.hbm, 689, rfl⟩
abbrev main_v602 : Ref sig .tc := ⟨.hbm, 690, rfl⟩
abbrev main_v603 : Ref sig .tc := ⟨.hbm, 691, rfl⟩
abbrev main_cst_77 : Ref sig .tc := ⟨.hbm, 692, rfl⟩
abbrev main_v604 : Ref sig .tc := ⟨.hbm, 693, rfl⟩
abbrev main_v605 : Ref sig .tc := ⟨.hbm, 694, rfl⟩
abbrev main_cst_78 : Ref sig .tc := ⟨.hbm, 695, rfl⟩
abbrev main_v606 : Ref sig .tc := ⟨.hbm, 696, rfl⟩
abbrev main_v607 : Ref sig .tc := ⟨.hbm, 697, rfl⟩
abbrev main_v608 : Ref sig .tc := ⟨.hbm, 698, rfl⟩
abbrev main_v609 : Ref sig .tc := ⟨.hbm, 699, rfl⟩
abbrev main_v610 : Ref sig .tc := ⟨.hbm, 700, rfl⟩
abbrev main_v611 : Ref sig .tc := ⟨.hbm, 701, rfl⟩
abbrev main_v612 : Ref sig .tc := ⟨.hbm, 702, rfl⟩
abbrev main_v613 : Ref sig .tc := ⟨.hbm, 703, rfl⟩
abbrev main_v614 : Ref sig .tc := ⟨.hbm, 704, rfl⟩
abbrev main_cst_79 : Ref sig .tc := ⟨.hbm, 705, rfl⟩
abbrev main_v615 : Ref sig .tc := ⟨.hbm, 706, rfl⟩
abbrev main_v616 : Ref sig .tc := ⟨.hbm, 707, rfl⟩
abbrev main_cst_80 : Ref sig .tc := ⟨.hbm, 708, rfl⟩
abbrev main_v617 : Ref sig .tc := ⟨.hbm, 709, rfl⟩
abbrev main_v618 : Ref sig .tc := ⟨.hbm, 710, rfl⟩
abbrev main_v619 : Ref sig .tc := ⟨.hbm, 711, rfl⟩
abbrev main_v620 : Ref sig .tc := ⟨.hbm, 712, rfl⟩
abbrev main_v621 : Ref sig .tc := ⟨.hbm, 713, rfl⟩
abbrev main_v622 : Ref sig .tc := ⟨.hbm, 714, rfl⟩
abbrev main_v623 : Ref sig .tc := ⟨.hbm, 715, rfl⟩
abbrev main_v624 : Ref sig .tc := ⟨.hbm, 716, rfl⟩
abbrev main_v625 : Ref sig .tc := ⟨.hbm, 717, rfl⟩
abbrev main_v626 : Ref sig .tc := ⟨.hbm, 718, rfl⟩
abbrev main_v627 : Ref sig .tc := ⟨.hbm, 719, rfl⟩
abbrev main_v628 : Ref sig .tc := ⟨.hbm, 720, rfl⟩
abbrev main_v629 : Ref sig .tc := ⟨.hbm, 721, rfl⟩
abbrev main_v630 : Ref sig .tc := ⟨.hbm, 722, rfl⟩
abbrev main_v631 : Ref sig .tc := ⟨.hbm, 723, rfl⟩
abbrev main_v632 : Ref sig .tc := ⟨.hbm, 724, rfl⟩
abbrev main_cst_81 : Ref sig .tc := ⟨.hbm, 725, rfl⟩
abbrev main_v633 : Ref sig .tc := ⟨.hbm, 726, rfl⟩
abbrev main_v634 : Ref sig .tc := ⟨.hbm, 727, rfl⟩
abbrev main_cst_82 : Ref sig .tc := ⟨.hbm, 728, rfl⟩
abbrev main_v635 : Ref sig .tc := ⟨.hbm, 729, rfl⟩
abbrev main_v636 : Ref sig .tc := ⟨.hbm, 730, rfl⟩
abbrev main_v637 : Ref sig .tc := ⟨.hbm, 731, rfl⟩
abbrev main_v638 : Ref sig .tc := ⟨.hbm, 732, rfl⟩
abbrev main_v639 : Ref sig .tc := ⟨.hbm, 733, rfl⟩
abbrev main_v640 : Ref sig .tc := ⟨.hbm, 734, rfl⟩
abbrev main_v641 : Ref sig .tc := ⟨.hbm, 735, rfl⟩
abbrev main_v642 : Ref sig .tc := ⟨.hbm, 736, rfl⟩
abbrev main_v643 : Ref sig .tc := ⟨.hbm, 737, rfl⟩
abbrev main_v644 : Ref sig .tc := ⟨.hbm, 738, rfl⟩
abbrev main_cst_83 : Ref sig .tc := ⟨.hbm, 739, rfl⟩
abbrev main_v645 : Ref sig .tc := ⟨.hbm, 740, rfl⟩
abbrev main_v646 : Ref sig .tc := ⟨.hbm, 741, rfl⟩
abbrev main_cst_84 : Ref sig .tc := ⟨.hbm, 742, rfl⟩
abbrev main_v647 : Ref sig .tc := ⟨.hbm, 743, rfl⟩
abbrev main_v648 : Ref sig .tc := ⟨.hbm, 744, rfl⟩
abbrev main_v649 : Ref sig .tc := ⟨.hbm, 745, rfl⟩
abbrev main_v650 : Ref sig .tc := ⟨.hbm, 746, rfl⟩
abbrev main_v651 : Ref sig .tc := ⟨.hbm, 747, rfl⟩
abbrev main_v652 : Ref sig .tc := ⟨.hbm, 748, rfl⟩
abbrev main_v653 : Ref sig .tc := ⟨.hbm, 749, rfl⟩
abbrev main_v654 : Ref sig .tc := ⟨.hbm, 750, rfl⟩
abbrev main_v655 : Ref sig .tc := ⟨.hbm, 751, rfl⟩
abbrev main_v656 : Ref sig .tc := ⟨.hbm, 752, rfl⟩
abbrev main_v657 : Ref sig .tc := ⟨.hbm, 753, rfl⟩
abbrev main_v658 : Ref sig .tc := ⟨.hbm, 754, rfl⟩
abbrev main_v659 : Ref sig .tc := ⟨.hbm, 755, rfl⟩
abbrev main_c_85 : Ref sig .tc := ⟨.hbm, 756, rfl⟩
abbrev main_v660 : Ref sig .tc := ⟨.hbm, 757, rfl⟩
abbrev main_v661 : Ref sig .tc := ⟨.hbm, 758, rfl⟩
abbrev main_c_86 : Ref sig .tc := ⟨.hbm, 759, rfl⟩
abbrev main_v662 : Ref sig .tc := ⟨.hbm, 760, rfl⟩
abbrev main_v663 : Ref sig .tc := ⟨.hbm, 761, rfl⟩
abbrev main_v664 : Ref sig .tc := ⟨.hbm, 762, rfl⟩
abbrev main_v665 : Ref sig .tc := ⟨.hbm, 763, rfl⟩
abbrev main_v666 : Ref sig .tc := ⟨.hbm, 764, rfl⟩
abbrev main_v667 : Ref sig .tc := ⟨.hbm, 765, rfl⟩
abbrev main_v668 : Ref sig .tc := ⟨.hbm, 766, rfl⟩
abbrev main_v669 : Ref sig .tc := ⟨.hbm, 767, rfl⟩
abbrev main_v670 : Ref sig .tc := ⟨.hbm, 768, rfl⟩
abbrev main_v671 : Ref sig .tc := ⟨.hbm, 769, rfl⟩
abbrev main_v672 : Ref sig .tc := ⟨.hbm, 770, rfl⟩
abbrev main_v673 : Ref sig .tc := ⟨.hbm, 771, rfl⟩
abbrev main_v674 : Ref sig .tc := ⟨.hbm, 772, rfl⟩
abbrev main_v675 : Ref sig .tc := ⟨.hbm, 773, rfl⟩
abbrev main_v676 : Ref sig .tc := ⟨.hbm, 774, rfl⟩
abbrev main_v677 : Ref sig .tc := ⟨.hbm, 775, rfl⟩
abbrev main_v678 : Ref sig .tc := ⟨.hbm, 776, rfl⟩
abbrev main_v679 : Ref sig .tc := ⟨.hbm, 777, rfl⟩
abbrev main_v680 : Ref sig .tc := ⟨.hbm, 778, rfl⟩
abbrev main_v681 : Ref sig .tc := ⟨.hbm, 779, rfl⟩
abbrev main_cst_87 : Ref sig .tc := ⟨.hbm, 780, rfl⟩
abbrev main_v682 : Ref sig .tc := ⟨.hbm, 781, rfl⟩
abbrev main_v683 : Ref sig .tc := ⟨.hbm, 782, rfl⟩
abbrev main_cst_88 : Ref sig .tc := ⟨.hbm, 783, rfl⟩
abbrev main_v684 : Ref sig .tc := ⟨.hbm, 784, rfl⟩
abbrev main_v685 : Ref sig .tc := ⟨.hbm, 785, rfl⟩
abbrev main_v686 : Ref sig .tc := ⟨.hbm, 786, rfl⟩
abbrev main_v687 : Ref sig .tc := ⟨.hbm, 787, rfl⟩
abbrev main_v688 : Ref sig .tc := ⟨.hbm, 788, rfl⟩
abbrev main_v689 : Ref sig .tc := ⟨.hbm, 789, rfl⟩
abbrev main_v690 : Ref sig .tc := ⟨.hbm, 790, rfl⟩
abbrev main_v691 : Ref sig .tc := ⟨.hbm, 791, rfl⟩
abbrev main_v692 : Ref sig .tc := ⟨.hbm, 792, rfl⟩
abbrev main_cst_89 : Ref sig .tc := ⟨.hbm, 793, rfl⟩
abbrev main_v693 : Ref sig .tc := ⟨.hbm, 794, rfl⟩
abbrev main_v694 : Ref sig .tc := ⟨.hbm, 795, rfl⟩
abbrev main_cst_90 : Ref sig .tc := ⟨.hbm, 796, rfl⟩
abbrev main_v695 : Ref sig .tc := ⟨.hbm, 797, rfl⟩
abbrev main_v696 : Ref sig .tc := ⟨.hbm, 798, rfl⟩
abbrev main_v697 : Ref sig .tc := ⟨.hbm, 799, rfl⟩
abbrev main_v698 : Ref sig .tc := ⟨.hbm, 800, rfl⟩
abbrev main_v699 : Ref sig .tc := ⟨.hbm, 801, rfl⟩
abbrev main_v700 : Ref sig .tc := ⟨.hbm, 802, rfl⟩
abbrev main_v701 : Ref sig .tc := ⟨.hbm, 803, rfl⟩
abbrev main_v702 : Ref sig .tc := ⟨.hbm, 804, rfl⟩
abbrev main_v703 : Ref sig .tc := ⟨.hbm, 805, rfl⟩
abbrev main_v704 : Ref sig .tc := ⟨.hbm, 806, rfl⟩
abbrev main_v705 : Ref sig .tc := ⟨.hbm, 807, rfl⟩
abbrev main_v706 : Ref sig .tc := ⟨.hbm, 808, rfl⟩
abbrev main_v707 : Ref sig .tc := ⟨.hbm, 809, rfl⟩
abbrev main_v708 : Ref sig .tc := ⟨.hbm, 810, rfl⟩
abbrev main_v709 : Ref sig .tc := ⟨.hbm, 811, rfl⟩
abbrev main_v710 : Ref sig .tc := ⟨.hbm, 812, rfl⟩
abbrev main_cst_91 : Ref sig .tc := ⟨.hbm, 813, rfl⟩
abbrev main_v711 : Ref sig .tc := ⟨.hbm, 814, rfl⟩
abbrev main_v712 : Ref sig .tc := ⟨.hbm, 815, rfl⟩
abbrev main_cst_92 : Ref sig .tc := ⟨.hbm, 816, rfl⟩
abbrev main_v713 : Ref sig .tc := ⟨.hbm, 817, rfl⟩
abbrev main_v714 : Ref sig .tc := ⟨.hbm, 818, rfl⟩
abbrev main_v715 : Ref sig .tc := ⟨.hbm, 819, rfl⟩
abbrev main_v716 : Ref sig .tc := ⟨.hbm, 820, rfl⟩
abbrev main_v717 : Ref sig .tc := ⟨.hbm, 821, rfl⟩
abbrev main_v718 : Ref sig .tc := ⟨.hbm, 822, rfl⟩
abbrev main_v719 : Ref sig .tc := ⟨.hbm, 823, rfl⟩
abbrev main_v720 : Ref sig .tc := ⟨.hbm, 824, rfl⟩
abbrev main_v721 : Ref sig .tc := ⟨.hbm, 825, rfl⟩
abbrev main_v722 : Ref sig .tc := ⟨.hbm, 826, rfl⟩
abbrev main_cst_93 : Ref sig .tc := ⟨.hbm, 827, rfl⟩
abbrev main_v723 : Ref sig .tc := ⟨.hbm, 828, rfl⟩
abbrev main_v724 : Ref sig .tc := ⟨.hbm, 829, rfl⟩
abbrev main_cst_94 : Ref sig .tc := ⟨.hbm, 830, rfl⟩
abbrev main_v725 : Ref sig .tc := ⟨.hbm, 831, rfl⟩
abbrev main_v726 : Ref sig .tc := ⟨.hbm, 832, rfl⟩
abbrev main_v727 : Ref sig .tc := ⟨.hbm, 833, rfl⟩
abbrev main_v728 : Ref sig .tc := ⟨.hbm, 834, rfl⟩
abbrev main_v729 : Ref sig .tc := ⟨.hbm, 835, rfl⟩
abbrev main_v730 : Ref sig .tc := ⟨.hbm, 836, rfl⟩
abbrev main_v731 : Ref sig .tc := ⟨.hbm, 837, rfl⟩
abbrev main_v732 : Ref sig .tc := ⟨.hbm, 838, rfl⟩
abbrev main_v733 : Ref sig .tc := ⟨.hbm, 839, rfl⟩
abbrev main_v734 : Ref sig .tc := ⟨.hbm, 840, rfl⟩
abbrev main_v735 : Ref sig .tc := ⟨.hbm, 841, rfl⟩
abbrev main_v736 : Ref sig .tc := ⟨.hbm, 842, rfl⟩
abbrev main_v737 : Ref sig .tc := ⟨.hbm, 843, rfl⟩
abbrev main_c_95 : Ref sig .tc := ⟨.hbm, 844, rfl⟩
abbrev main_v738 : Ref sig .tc := ⟨.hbm, 845, rfl⟩
abbrev main_v739 : Ref sig .tc := ⟨.hbm, 846, rfl⟩
abbrev main_c_96 : Ref sig .tc := ⟨.hbm, 847, rfl⟩
abbrev main_v740 : Ref sig .tc := ⟨.hbm, 848, rfl⟩
abbrev main_v741 : Ref sig .tc := ⟨.hbm, 849, rfl⟩
abbrev main_v742 : Ref sig .tc := ⟨.hbm, 850, rfl⟩
abbrev main_v743 : Ref sig .tc := ⟨.hbm, 851, rfl⟩
abbrev main_v744 : Ref sig .tc := ⟨.hbm, 852, rfl⟩
abbrev main_v745 : Ref sig .tc := ⟨.hbm, 853, rfl⟩
abbrev main_v746 : Ref sig .tc := ⟨.hbm, 854, rfl⟩
abbrev main_v747 : Ref sig .tc := ⟨.hbm, 855, rfl⟩
abbrev main_v748 : Ref sig .tc := ⟨.hbm, 856, rfl⟩
abbrev main_v749 : Ref sig .tc := ⟨.hbm, 857, rfl⟩
abbrev main_v750 : Ref sig .tc := ⟨.hbm, 858, rfl⟩
abbrev main_v751 : Ref sig .tc := ⟨.hbm, 859, rfl⟩
abbrev main_v752 : Ref sig .tc := ⟨.hbm, 860, rfl⟩
abbrev main_v753 : Ref sig .tc := ⟨.hbm, 861, rfl⟩
abbrev main_v754 : Ref sig .tc := ⟨.hbm, 862, rfl⟩
abbrev main_v755 : Ref sig .tc := ⟨.hbm, 863, rfl⟩
abbrev main_v756 : Ref sig .tc := ⟨.hbm, 864, rfl⟩
abbrev main_v757 : Ref sig .tc := ⟨.hbm, 865, rfl⟩
abbrev main_v758 : Ref sig .tc := ⟨.hbm, 866, rfl⟩
abbrev main_v759 : Ref sig .tc := ⟨.hbm, 867, rfl⟩
abbrev main_cst_97 : Ref sig .tc := ⟨.hbm, 868, rfl⟩
abbrev main_v760 : Ref sig .tc := ⟨.hbm, 869, rfl⟩
abbrev main_v761 : Ref sig .tc := ⟨.hbm, 870, rfl⟩
abbrev main_cst_98 : Ref sig .tc := ⟨.hbm, 871, rfl⟩
abbrev main_v762 : Ref sig .tc := ⟨.hbm, 872, rfl⟩
abbrev main_v763 : Ref sig .tc := ⟨.hbm, 873, rfl⟩
abbrev main_v764 : Ref sig .tc := ⟨.hbm, 874, rfl⟩
abbrev main_v765 : Ref sig .tc := ⟨.hbm, 875, rfl⟩
abbrev main_v766 : Ref sig .tc := ⟨.hbm, 876, rfl⟩
abbrev main_v767 : Ref sig .tc := ⟨.hbm, 877, rfl⟩
abbrev main_v768 : Ref sig .tc := ⟨.hbm, 878, rfl⟩
abbrev main_v769 : Ref sig .tc := ⟨.hbm, 879, rfl⟩
abbrev main_v770 : Ref sig .tc := ⟨.hbm, 880, rfl⟩
abbrev main_cst_99 : Ref sig .tc := ⟨.hbm, 881, rfl⟩
abbrev main_v771 : Ref sig .tc := ⟨.hbm, 882, rfl⟩
abbrev main_v772 : Ref sig .tc := ⟨.hbm, 883, rfl⟩
abbrev main_cst_100 : Ref sig .tc := ⟨.hbm, 884, rfl⟩
abbrev main_v773 : Ref sig .tc := ⟨.hbm, 885, rfl⟩
abbrev main_v774 : Ref sig .tc := ⟨.hbm, 886, rfl⟩
abbrev main_v775 : Ref sig .tc := ⟨.hbm, 887, rfl⟩
abbrev main_v776 : Ref sig .tc := ⟨.hbm, 888, rfl⟩
abbrev main_v777 : Ref sig .tc := ⟨.hbm, 889, rfl⟩
abbrev main_v778 : Ref sig .tc := ⟨.hbm, 890, rfl⟩
abbrev main_v779 : Ref sig .tc := ⟨.hbm, 891, rfl⟩
abbrev main_v780 : Ref sig .tc := ⟨.hbm, 892, rfl⟩
abbrev main_v781 : Ref sig .tc := ⟨.hbm, 893, rfl⟩
abbrev main_v782 : Ref sig .tc := ⟨.hbm, 894, rfl⟩
abbrev main_v783 : Ref sig .tc := ⟨.hbm, 895, rfl⟩
abbrev main_v784 : Ref sig .tc := ⟨.hbm, 896, rfl⟩
abbrev main_v785 : Ref sig .tc := ⟨.hbm, 897, rfl⟩
abbrev main_v786 : Ref sig .tc := ⟨.hbm, 898, rfl⟩
abbrev main_v787 : Ref sig .tc := ⟨.hbm, 899, rfl⟩
abbrev main_v788 : Ref sig .tc := ⟨.hbm, 900, rfl⟩
abbrev main_cst_101 : Ref sig .tc := ⟨.hbm, 901, rfl⟩
abbrev main_v789 : Ref sig .tc := ⟨.hbm, 902, rfl⟩
abbrev main_v790 : Ref sig .tc := ⟨.hbm, 903, rfl⟩
abbrev main_cst_102 : Ref sig .tc := ⟨.hbm, 904, rfl⟩
abbrev main_v791 : Ref sig .tc := ⟨.hbm, 905, rfl⟩
abbrev main_v792 : Ref sig .tc := ⟨.hbm, 906, rfl⟩
abbrev main_v793 : Ref sig .tc := ⟨.hbm, 907, rfl⟩
abbrev main_v794 : Ref sig .tc := ⟨.hbm, 908, rfl⟩
abbrev main_v795 : Ref sig .tc := ⟨.hbm, 909, rfl⟩
abbrev main_v796 : Ref sig .tc := ⟨.hbm, 910, rfl⟩
abbrev main_v797 : Ref sig .tc := ⟨.hbm, 911, rfl⟩
abbrev main_v798 : Ref sig .tc := ⟨.hbm, 912, rfl⟩
abbrev main_v799 : Ref sig .tc := ⟨.hbm, 913, rfl⟩
abbrev main_v800 : Ref sig .tc := ⟨.hbm, 914, rfl⟩
abbrev main_cst_103 : Ref sig .tc := ⟨.hbm, 915, rfl⟩
abbrev main_v801 : Ref sig .tc := ⟨.hbm, 916, rfl⟩
abbrev main_v802 : Ref sig .tc := ⟨.hbm, 917, rfl⟩
abbrev main_cst_104 : Ref sig .tc := ⟨.hbm, 918, rfl⟩
abbrev main_v803 : Ref sig .tc := ⟨.hbm, 919, rfl⟩
abbrev main_v804 : Ref sig .tc := ⟨.hbm, 920, rfl⟩
abbrev main_v805 : Ref sig .tc := ⟨.hbm, 921, rfl⟩
abbrev main_v806 : Ref sig .tc := ⟨.hbm, 922, rfl⟩
abbrev main_v807 : Ref sig .tc := ⟨.hbm, 923, rfl⟩
abbrev main_v808 : Ref sig .tc := ⟨.hbm, 924, rfl⟩
abbrev main_v809 : Ref sig .tc := ⟨.hbm, 925, rfl⟩
abbrev main_v810 : Ref sig .tc := ⟨.hbm, 926, rfl⟩
abbrev main_v811 : Ref sig .tc := ⟨.hbm, 927, rfl⟩
abbrev main_v812 : Ref sig .tc := ⟨.hbm, 928, rfl⟩
abbrev main_v813 : Ref sig .tc := ⟨.hbm, 929, rfl⟩
abbrev main_v814 : Ref sig .tc := ⟨.hbm, 930, rfl⟩
abbrev main_v815 : Ref sig .tc := ⟨.hbm, 931, rfl⟩
abbrev main_c_105 : Ref sig .tc := ⟨.hbm, 932, rfl⟩
abbrev main_v816 : Ref sig .tc := ⟨.hbm, 933, rfl⟩
abbrev main_v817 : Ref sig .tc := ⟨.hbm, 934, rfl⟩
abbrev main_c_106 : Ref sig .tc := ⟨.hbm, 935, rfl⟩
abbrev main_v818 : Ref sig .tc := ⟨.hbm, 936, rfl⟩
abbrev main_v819 : Ref sig .tc := ⟨.hbm, 937, rfl⟩
abbrev main_v820 : Ref sig .tc := ⟨.hbm, 938, rfl⟩
abbrev main_v821 : Ref sig .tc := ⟨.hbm, 939, rfl⟩
abbrev main_v822 : Ref sig .tc := ⟨.hbm, 940, rfl⟩
abbrev main_v823 : Ref sig .tc := ⟨.hbm, 941, rfl⟩
abbrev main_v824 : Ref sig .tc := ⟨.hbm, 942, rfl⟩
abbrev main_v825 : Ref sig .tc := ⟨.hbm, 943, rfl⟩
abbrev main_v826 : Ref sig .tc := ⟨.hbm, 944, rfl⟩
abbrev main_v827 : Ref sig .tc := ⟨.hbm, 945, rfl⟩
abbrev main_v828 : Ref sig .tc := ⟨.hbm, 946, rfl⟩
abbrev main_v829 : Ref sig .tc := ⟨.hbm, 947, rfl⟩
abbrev main_v830 : Ref sig .tc := ⟨.hbm, 948, rfl⟩
abbrev main_v831 : Ref sig .tc := ⟨.hbm, 949, rfl⟩
abbrev main_v832 : Ref sig .tc := ⟨.hbm, 950, rfl⟩
abbrev main_v833 : Ref sig .tc := ⟨.hbm, 951, rfl⟩
abbrev main_v834 : Ref sig .tc := ⟨.hbm, 952, rfl⟩
abbrev main_v835 : Ref sig .tc := ⟨.hbm, 953, rfl⟩
abbrev main_v836 : Ref sig .tc := ⟨.hbm, 954, rfl⟩
abbrev main_v837 : Ref sig .tc := ⟨.hbm, 955, rfl⟩
abbrev main_cst_107 : Ref sig .tc := ⟨.hbm, 956, rfl⟩
abbrev main_v838 : Ref sig .tc := ⟨.hbm, 957, rfl⟩
abbrev main_v839 : Ref sig .tc := ⟨.hbm, 958, rfl⟩
abbrev main_cst_108 : Ref sig .tc := ⟨.hbm, 959, rfl⟩
abbrev main_v840 : Ref sig .tc := ⟨.hbm, 960, rfl⟩
abbrev main_v841 : Ref sig .tc := ⟨.hbm, 961, rfl⟩
abbrev main_v842 : Ref sig .tc := ⟨.hbm, 962, rfl⟩
abbrev main_v843 : Ref sig .tc := ⟨.hbm, 963, rfl⟩
abbrev main_v844 : Ref sig .tc := ⟨.hbm, 964, rfl⟩
abbrev main_v845 : Ref sig .tc := ⟨.hbm, 965, rfl⟩
abbrev main_v846 : Ref sig .tc := ⟨.hbm, 966, rfl⟩
abbrev main_v847 : Ref sig .tc := ⟨.hbm, 967, rfl⟩
abbrev main_v848 : Ref sig .tc := ⟨.hbm, 968, rfl⟩
abbrev main_cst_109 : Ref sig .tc := ⟨.hbm, 969, rfl⟩
abbrev main_v849 : Ref sig .tc := ⟨.hbm, 970, rfl⟩
abbrev main_v850 : Ref sig .tc := ⟨.hbm, 971, rfl⟩
abbrev main_cst_110 : Ref sig .tc := ⟨.hbm, 972, rfl⟩
abbrev main_v851 : Ref sig .tc := ⟨.hbm, 973, rfl⟩
abbrev main_v852 : Ref sig .tc := ⟨.hbm, 974, rfl⟩
abbrev main_v853 : Ref sig .tc := ⟨.hbm, 975, rfl⟩
abbrev main_v854 : Ref sig .tc := ⟨.hbm, 976, rfl⟩
abbrev main_v855 : Ref sig .tc := ⟨.hbm, 977, rfl⟩
abbrev main_v856 : Ref sig .tc := ⟨.hbm, 978, rfl⟩
abbrev main_v857 : Ref sig .tc := ⟨.hbm, 979, rfl⟩
abbrev main_v858 : Ref sig .tc := ⟨.hbm, 980, rfl⟩
abbrev main_v859 : Ref sig .tc := ⟨.hbm, 981, rfl⟩
abbrev main_v860 : Ref sig .tc := ⟨.hbm, 982, rfl⟩
abbrev main_v861 : Ref sig .tc := ⟨.hbm, 983, rfl⟩
abbrev main_v862 : Ref sig .tc := ⟨.hbm, 984, rfl⟩
abbrev main_v863 : Ref sig .tc := ⟨.hbm, 985, rfl⟩
abbrev main_v864 : Ref sig .tc := ⟨.hbm, 986, rfl⟩
abbrev main_v865 : Ref sig .tc := ⟨.hbm, 987, rfl⟩
abbrev main_v866 : Ref sig .tc := ⟨.hbm, 988, rfl⟩
abbrev main_cst_111 : Ref sig .tc := ⟨.hbm, 989, rfl⟩
abbrev main_v867 : Ref sig .tc := ⟨.hbm, 990, rfl⟩
abbrev main_v868 : Ref sig .tc := ⟨.hbm, 991, rfl⟩
abbrev main_cst_112 : Ref sig .tc := ⟨.hbm, 992, rfl⟩
abbrev main_v869 : Ref sig .tc := ⟨.hbm, 993, rfl⟩
abbrev main_v870 : Ref sig .tc := ⟨.hbm, 994, rfl⟩
abbrev main_v871 : Ref sig .tc := ⟨.hbm, 995, rfl⟩
abbrev main_v872 : Ref sig .tc := ⟨.hbm, 996, rfl⟩
abbrev main_v873 : Ref sig .tc := ⟨.hbm, 997, rfl⟩
abbrev main_v874 : Ref sig .tc := ⟨.hbm, 998, rfl⟩
abbrev main_v875 : Ref sig .tc := ⟨.hbm, 999, rfl⟩
abbrev main_v876 : Ref sig .tc := ⟨.hbm, 1000, rfl⟩
abbrev main_v877 : Ref sig .tc := ⟨.hbm, 1001, rfl⟩
abbrev main_v878 : Ref sig .tc := ⟨.hbm, 1002, rfl⟩
abbrev main_cst_113 : Ref sig .tc := ⟨.hbm, 1003, rfl⟩
abbrev main_v879 : Ref sig .tc := ⟨.hbm, 1004, rfl⟩
abbrev main_v880 : Ref sig .tc := ⟨.hbm, 1005, rfl⟩
abbrev main_cst_114 : Ref sig .tc := ⟨.hbm, 1006, rfl⟩
abbrev main_v881 : Ref sig .tc := ⟨.hbm, 1007, rfl⟩
abbrev main_v882 : Ref sig .tc := ⟨.hbm, 1008, rfl⟩
abbrev main_v883 : Ref sig .tc := ⟨.hbm, 1009, rfl⟩
abbrev main_v884 : Ref sig .tc := ⟨.hbm, 1010, rfl⟩
abbrev main_v885 : Ref sig .tc := ⟨.hbm, 1011, rfl⟩
abbrev main_v886 : Ref sig .tc := ⟨.hbm, 1012, rfl⟩
abbrev main_v887 : Ref sig .tc := ⟨.hbm, 1013, rfl⟩
abbrev main_v888 : Ref sig .tc := ⟨.hbm, 1014, rfl⟩
abbrev main_v889 : Ref sig .tc := ⟨.hbm, 1015, rfl⟩
abbrev main_v890 : Ref sig .tc := ⟨.hbm, 1016, rfl⟩
abbrev main_v891 : Ref sig .tc := ⟨.hbm, 1017, rfl⟩
abbrev main_v892 : Ref sig .tc := ⟨.hbm, 1018, rfl⟩
abbrev main_v893 : Ref sig .tc := ⟨.hbm, 1019, rfl⟩
abbrev main_c_115 : Ref sig .tc := ⟨.hbm, 1020, rfl⟩
abbrev main_v894 : Ref sig .tc := ⟨.hbm, 1021, rfl⟩
abbrev main_v895 : Ref sig .tc := ⟨.hbm, 1022, rfl⟩
abbrev main_c_116 : Ref sig .tc := ⟨.hbm, 1023, rfl⟩
abbrev main_v896 : Ref sig .tc := ⟨.hbm, 1024, rfl⟩
abbrev main_v897 : Ref sig .tc := ⟨.hbm, 1025, rfl⟩
abbrev main_v898 : Ref sig .tc := ⟨.hbm, 1026, rfl⟩
abbrev main_v899 : Ref sig .tc := ⟨.hbm, 1027, rfl⟩
abbrev main_v900 : Ref sig .tc := ⟨.hbm, 1028, rfl⟩
abbrev main_v901 : Ref sig .tc := ⟨.hbm, 1029, rfl⟩
abbrev main_v902 : Ref sig .tc := ⟨.hbm, 1030, rfl⟩
abbrev main_v903 : Ref sig .tc := ⟨.hbm, 1031, rfl⟩
abbrev main_v904 : Ref sig .tc := ⟨.hbm, 1032, rfl⟩
abbrev main_v905 : Ref sig .tc := ⟨.hbm, 1033, rfl⟩
abbrev main_v906 : Ref sig .tc := ⟨.hbm, 1034, rfl⟩
abbrev main_v907 : Ref sig .tc := ⟨.hbm, 1035, rfl⟩
abbrev main_v908 : Ref sig .tc := ⟨.hbm, 1036, rfl⟩
abbrev main_v909 : Ref sig .tc := ⟨.hbm, 1037, rfl⟩
abbrev main_v910 : Ref sig .tc := ⟨.hbm, 1038, rfl⟩
abbrev main_v911 : Ref sig .tc := ⟨.hbm, 1039, rfl⟩
abbrev main_v912 : Ref sig .tc := ⟨.hbm, 1040, rfl⟩
abbrev main_v913 : Ref sig .tc := ⟨.hbm, 1041, rfl⟩
abbrev main_v914 : Ref sig .tc := ⟨.hbm, 1042, rfl⟩
abbrev main_v915 : Ref sig .tc := ⟨.hbm, 1043, rfl⟩
abbrev main_cst_117 : Ref sig .tc := ⟨.hbm, 1044, rfl⟩
abbrev main_v916 : Ref sig .tc := ⟨.hbm, 1045, rfl⟩
abbrev main_v917 : Ref sig .tc := ⟨.hbm, 1046, rfl⟩
abbrev main_cst_118 : Ref sig .tc := ⟨.hbm, 1047, rfl⟩
abbrev main_v918 : Ref sig .tc := ⟨.hbm, 1048, rfl⟩
abbrev main_v919 : Ref sig .tc := ⟨.hbm, 1049, rfl⟩
abbrev main_v920 : Ref sig .tc := ⟨.hbm, 1050, rfl⟩
abbrev main_v921 : Ref sig .tc := ⟨.hbm, 1051, rfl⟩
abbrev main_v922 : Ref sig .tc := ⟨.hbm, 1052, rfl⟩
abbrev main_v923 : Ref sig .tc := ⟨.hbm, 1053, rfl⟩
abbrev main_v924 : Ref sig .tc := ⟨.hbm, 1054, rfl⟩
abbrev main_v925 : Ref sig .tc := ⟨.hbm, 1055, rfl⟩
abbrev main_v926 : Ref sig .tc := ⟨.hbm, 1056, rfl⟩
abbrev main_cst_119 : Ref sig .tc := ⟨.hbm, 1057, rfl⟩
abbrev main_v927 : Ref sig .tc := ⟨.hbm, 1058, rfl⟩
abbrev main_v928 : Ref sig .tc := ⟨.hbm, 1059, rfl⟩
abbrev main_cst_120 : Ref sig .tc := ⟨.hbm, 1060, rfl⟩
abbrev main_v929 : Ref sig .tc := ⟨.hbm, 1061, rfl⟩
abbrev main_v930 : Ref sig .tc := ⟨.hbm, 1062, rfl⟩
abbrev main_v931 : Ref sig .tc := ⟨.hbm, 1063, rfl⟩
abbrev main_v932 : Ref sig .tc := ⟨.hbm, 1064, rfl⟩
abbrev main_v933 : Ref sig .tc := ⟨.hbm, 1065, rfl⟩
abbrev main_v934 : Ref sig .tc := ⟨.hbm, 1066, rfl⟩
abbrev main_v935 : Ref sig .tc := ⟨.hbm, 1067, rfl⟩
abbrev main_v936 : Ref sig .tc := ⟨.hbm, 1068, rfl⟩
abbrev main_v937 : Ref sig .tc := ⟨.hbm, 1069, rfl⟩
abbrev main_v938 : Ref sig .tc := ⟨.hbm, 1070, rfl⟩
abbrev main_v939 : Ref sig .tc := ⟨.hbm, 1071, rfl⟩
abbrev main_v940 : Ref sig .tc := ⟨.hbm, 1072, rfl⟩
abbrev main_v941 : Ref sig .tc := ⟨.hbm, 1073, rfl⟩
abbrev main_v942 : Ref sig .tc := ⟨.hbm, 1074, rfl⟩
abbrev main_v943 : Ref sig .tc := ⟨.hbm, 1075, rfl⟩
abbrev main_v944 : Ref sig .tc := ⟨.hbm, 1076, rfl⟩
abbrev main_cst_121 : Ref sig .tc := ⟨.hbm, 1077, rfl⟩
abbrev main_v945 : Ref sig .tc := ⟨.hbm, 1078, rfl⟩
abbrev main_v946 : Ref sig .tc := ⟨.hbm, 1079, rfl⟩
abbrev main_cst_122 : Ref sig .tc := ⟨.hbm, 1080, rfl⟩
abbrev main_v947 : Ref sig .tc := ⟨.hbm, 1081, rfl⟩
abbrev main_v948 : Ref sig .tc := ⟨.hbm, 1082, rfl⟩
abbrev main_v949 : Ref sig .tc := ⟨.hbm, 1083, rfl⟩
abbrev main_v950 : Ref sig .tc := ⟨.hbm, 1084, rfl⟩
abbrev main_v951 : Ref sig .tc := ⟨.hbm, 1085, rfl⟩
abbrev main_v952 : Ref sig .tc := ⟨.hbm, 1086, rfl⟩
abbrev main_v953 : Ref sig .tc := ⟨.hbm, 1087, rfl⟩
abbrev main_v954 : Ref sig .tc := ⟨.hbm, 1088, rfl⟩
abbrev main_v955 : Ref sig .tc := ⟨.hbm, 1089, rfl⟩
abbrev main_v956 : Ref sig .tc := ⟨.hbm, 1090, rfl⟩
abbrev main_cst_123 : Ref sig .tc := ⟨.hbm, 1091, rfl⟩
abbrev main_v957 : Ref sig .tc := ⟨.hbm, 1092, rfl⟩
abbrev main_v958 : Ref sig .tc := ⟨.hbm, 1093, rfl⟩
abbrev main_cst_124 : Ref sig .tc := ⟨.hbm, 1094, rfl⟩
abbrev main_v959 : Ref sig .tc := ⟨.hbm, 1095, rfl⟩
abbrev main_v960 : Ref sig .tc := ⟨.hbm, 1096, rfl⟩
abbrev main_v961 : Ref sig .tc := ⟨.hbm, 1097, rfl⟩
abbrev main_v962 : Ref sig .tc := ⟨.hbm, 1098, rfl⟩
abbrev main_v963 : Ref sig .tc := ⟨.hbm, 1099, rfl⟩
abbrev main_v964 : Ref sig .tc := ⟨.hbm, 1100, rfl⟩
abbrev main_v965 : Ref sig .tc := ⟨.hbm, 1101, rfl⟩
abbrev main_v966 : Ref sig .tc := ⟨.hbm, 1102, rfl⟩
abbrev main_v967 : Ref sig .tc := ⟨.hbm, 1103, rfl⟩
abbrev main_v968 : Ref sig .tc := ⟨.hbm, 1104, rfl⟩
abbrev main_v969 : Ref sig .tc := ⟨.hbm, 1105, rfl⟩
abbrev main_v970 : Ref sig .tc := ⟨.hbm, 1106, rfl⟩
abbrev main_v971 : Ref sig .tc := ⟨.hbm, 1107, rfl⟩
abbrev main_c_125 : Ref sig .tc := ⟨.hbm, 1108, rfl⟩
abbrev main_v972 : Ref sig .tc := ⟨.hbm, 1109, rfl⟩
abbrev main_v973 : Ref sig .tc := ⟨.hbm, 1110, rfl⟩
abbrev main_c_126 : Ref sig .tc := ⟨.hbm, 1111, rfl⟩
abbrev main_v974 : Ref sig .tc := ⟨.hbm, 1112, rfl⟩
abbrev main_v975 : Ref sig .tc := ⟨.hbm, 1113, rfl⟩
abbrev main_v976 : Ref sig .tc := ⟨.hbm, 1114, rfl⟩
abbrev main_v977 : Ref sig .tc := ⟨.hbm, 1115, rfl⟩
abbrev main_v978 : Ref sig .tc := ⟨.hbm, 1116, rfl⟩
abbrev main_v979 : Ref sig .tc := ⟨.hbm, 1117, rfl⟩
abbrev main_v980 : Ref sig .tc := ⟨.hbm, 1118, rfl⟩
abbrev main_v981 : Ref sig .tc := ⟨.hbm, 1119, rfl⟩
abbrev main_v982 : Ref sig .tc := ⟨.hbm, 1120, rfl⟩
abbrev main_v983 : Ref sig .tc := ⟨.hbm, 1121, rfl⟩
abbrev main_v984 : Ref sig .tc := ⟨.hbm, 1122, rfl⟩
abbrev main_v985 : Ref sig .tc := ⟨.hbm, 1123, rfl⟩
abbrev main_v986 : Ref sig .tc := ⟨.hbm, 1124, rfl⟩
abbrev main_v987 : Ref sig .tc := ⟨.hbm, 1125, rfl⟩
abbrev main_v988 : Ref sig .tc := ⟨.hbm, 1126, rfl⟩
abbrev main_v989 : Ref sig .tc := ⟨.hbm, 1127, rfl⟩
abbrev main_v990 : Ref sig .tc := ⟨.hbm, 1128, rfl⟩
abbrev main_v991 : Ref sig .tc := ⟨.hbm, 1129, rfl⟩
abbrev main_v992 : Ref sig .tc := ⟨.hbm, 1130, rfl⟩
abbrev main_v993 : Ref sig .tc := ⟨.hbm, 1131, rfl⟩
abbrev main_cst_127 : Ref sig .tc := ⟨.hbm, 1132, rfl⟩
abbrev main_v994 : Ref sig .tc := ⟨.hbm, 1133, rfl⟩
abbrev main_v995 : Ref sig .tc := ⟨.hbm, 1134, rfl⟩
abbrev main_cst_128 : Ref sig .tc := ⟨.hbm, 1135, rfl⟩
abbrev main_v996 : Ref sig .tc := ⟨.hbm, 1136, rfl⟩
abbrev main_v997 : Ref sig .tc := ⟨.hbm, 1137, rfl⟩
abbrev main_v998 : Ref sig .tc := ⟨.hbm, 1138, rfl⟩
abbrev main_v999 : Ref sig .tc := ⟨.hbm, 1139, rfl⟩
abbrev main_v1000 : Ref sig .tc := ⟨.hbm, 1140, rfl⟩
abbrev main_v1001 : Ref sig .tc := ⟨.hbm, 1141, rfl⟩
abbrev main_v1002 : Ref sig .tc := ⟨.hbm, 1142, rfl⟩
abbrev main_v1003 : Ref sig .tc := ⟨.hbm, 1143, rfl⟩
abbrev main_v1004 : Ref sig .tc := ⟨.hbm, 1144, rfl⟩
abbrev main_cst_129 : Ref sig .tc := ⟨.hbm, 1145, rfl⟩
abbrev main_v1005 : Ref sig .tc := ⟨.hbm, 1146, rfl⟩
abbrev main_v1006 : Ref sig .tc := ⟨.hbm, 1147, rfl⟩
abbrev main_cst_130 : Ref sig .tc := ⟨.hbm, 1148, rfl⟩
abbrev main_v1007 : Ref sig .tc := ⟨.hbm, 1149, rfl⟩
abbrev main_v1008 : Ref sig .tc := ⟨.hbm, 1150, rfl⟩
abbrev main_v1009 : Ref sig .tc := ⟨.hbm, 1151, rfl⟩
abbrev main_v1010 : Ref sig .tc := ⟨.hbm, 1152, rfl⟩
abbrev main_v1011 : Ref sig .tc := ⟨.hbm, 1153, rfl⟩
abbrev main_v1012 : Ref sig .tc := ⟨.hbm, 1154, rfl⟩
abbrev main_v1013 : Ref sig .tc := ⟨.hbm, 1155, rfl⟩
abbrev main_v1014 : Ref sig .tc := ⟨.hbm, 1156, rfl⟩
abbrev main_v1015 : Ref sig .tc := ⟨.hbm, 1157, rfl⟩
abbrev main_v1016 : Ref sig .tc := ⟨.hbm, 1158, rfl⟩
abbrev main_v1017 : Ref sig .tc := ⟨.hbm, 1159, rfl⟩
abbrev main_v1018 : Ref sig .tc := ⟨.hbm, 1160, rfl⟩
abbrev main_v1019 : Ref sig .tc := ⟨.hbm, 1161, rfl⟩
abbrev main_v1020 : Ref sig .tc := ⟨.hbm, 1162, rfl⟩
abbrev main_v1021 : Ref sig .tc := ⟨.hbm, 1163, rfl⟩
abbrev main_v1022 : Ref sig .tc := ⟨.hbm, 1164, rfl⟩
abbrev main_cst_131 : Ref sig .tc := ⟨.hbm, 1165, rfl⟩
abbrev main_v1023 : Ref sig .tc := ⟨.hbm, 1166, rfl⟩
abbrev main_v1024 : Ref sig .tc := ⟨.hbm, 1167, rfl⟩
abbrev main_cst_132 : Ref sig .tc := ⟨.hbm, 1168, rfl⟩
abbrev main_v1025 : Ref sig .tc := ⟨.hbm, 1169, rfl⟩
abbrev main_v1026 : Ref sig .tc := ⟨.hbm, 1170, rfl⟩
abbrev main_v1027 : Ref sig .tc := ⟨.hbm, 1171, rfl⟩
abbrev main_v1028 : Ref sig .tc := ⟨.hbm, 1172, rfl⟩
abbrev main_v1029 : Ref sig .tc := ⟨.hbm, 1173, rfl⟩
abbrev main_v1030 : Ref sig .tc := ⟨.hbm, 1174, rfl⟩
abbrev main_v1031 : Ref sig .tc := ⟨.hbm, 1175, rfl⟩
abbrev main_v1032 : Ref sig .tc := ⟨.hbm, 1176, rfl⟩
abbrev main_v1033 : Ref sig .tc := ⟨.hbm, 1177, rfl⟩
abbrev main_v1034 : Ref sig .tc := ⟨.hbm, 1178, rfl⟩
abbrev main_cst_133 : Ref sig .tc := ⟨.hbm, 1179, rfl⟩
abbrev main_v1035 : Ref sig .tc := ⟨.hbm, 1180, rfl⟩
abbrev main_v1036 : Ref sig .tc := ⟨.hbm, 1181, rfl⟩
abbrev main_cst_134 : Ref sig .tc := ⟨.hbm, 1182, rfl⟩
abbrev main_v1037 : Ref sig .tc := ⟨.hbm, 1183, rfl⟩
abbrev main_v1038 : Ref sig .tc := ⟨.hbm, 1184, rfl⟩
abbrev main_v1039 : Ref sig .tc := ⟨.hbm, 1185, rfl⟩
abbrev main_v1040 : Ref sig .tc := ⟨.hbm, 1186, rfl⟩
abbrev main_v1041 : Ref sig .tc := ⟨.hbm, 1187, rfl⟩
abbrev main_v1042 : Ref sig .tc := ⟨.hbm, 1188, rfl⟩
abbrev main_v1043 : Ref sig .tc := ⟨.hbm, 1189, rfl⟩
abbrev main_v1044 : Ref sig .tc := ⟨.hbm, 1190, rfl⟩
abbrev main_v1045 : Ref sig .tc := ⟨.hbm, 1191, rfl⟩
abbrev main_v1046 : Ref sig .tc := ⟨.hbm, 1192, rfl⟩
abbrev main_v1047 : Ref sig .tc := ⟨.hbm, 1193, rfl⟩
abbrev main_v1048 : Ref sig .tc := ⟨.hbm, 1194, rfl⟩
abbrev main_v1049 : Ref sig .tc := ⟨.hbm, 1195, rfl⟩
abbrev main_c_135 : Ref sig .tc := ⟨.hbm, 1196, rfl⟩
abbrev main_v1050 : Ref sig .tc := ⟨.hbm, 1197, rfl⟩
abbrev main_v1051 : Ref sig .tc := ⟨.hbm, 1198, rfl⟩
abbrev main_c_136 : Ref sig .tc := ⟨.hbm, 1199, rfl⟩
abbrev main_v1052 : Ref sig .tc := ⟨.hbm, 1200, rfl⟩
abbrev main_v1053 : Ref sig .tc := ⟨.hbm, 1201, rfl⟩
abbrev main_v1054 : Ref sig .tc := ⟨.hbm, 1202, rfl⟩
abbrev main_v1055 : Ref sig .tc := ⟨.hbm, 1203, rfl⟩
abbrev main_v1056 : Ref sig .tc := ⟨.hbm, 1204, rfl⟩
abbrev main_v1057 : Ref sig .tc := ⟨.hbm, 1205, rfl⟩
abbrev main_v1058 : Ref sig .tc := ⟨.hbm, 1206, rfl⟩
abbrev main_v1059 : Ref sig .tc := ⟨.hbm, 1207, rfl⟩
abbrev main_v1060 : Ref sig .tc := ⟨.hbm, 1208, rfl⟩
abbrev main_v1061 : Ref sig .tc := ⟨.hbm, 1209, rfl⟩
abbrev main_v1062 : Ref sig .tc := ⟨.hbm, 1210, rfl⟩
abbrev main_v1063 : Ref sig .tc := ⟨.hbm, 1211, rfl⟩
abbrev main_v1064 : Ref sig .tc := ⟨.hbm, 1212, rfl⟩
abbrev main_v1065 : Ref sig .tc := ⟨.hbm, 1213, rfl⟩
abbrev main_v1066 : Ref sig .tc := ⟨.hbm, 1214, rfl⟩
abbrev main_v1067 : Ref sig .tc := ⟨.hbm, 1215, rfl⟩
abbrev main_v1068 : Ref sig .tc := ⟨.hbm, 1216, rfl⟩
abbrev main_v1069 : Ref sig .tc := ⟨.hbm, 1217, rfl⟩
abbrev main_v1070 : Ref sig .tc := ⟨.hbm, 1218, rfl⟩
abbrev main_cst_137 : Ref sig .tc := ⟨.hbm, 1219, rfl⟩
abbrev main_v1071 : Ref sig .tc := ⟨.hbm, 1220, rfl⟩
abbrev main_v1072 : Ref sig .tc := ⟨.hbm, 1221, rfl⟩
abbrev main_cst_138 : Ref sig .tc := ⟨.hbm, 1222, rfl⟩
abbrev main_v1073 : Ref sig .tc := ⟨.hbm, 1223, rfl⟩
abbrev main_v1074 : Ref sig .tc := ⟨.hbm, 1224, rfl⟩
abbrev main_v1075 : Ref sig .tc := ⟨.hbm, 1225, rfl⟩
abbrev main_v1076 : Ref sig .tc := ⟨.hbm, 1226, rfl⟩
abbrev main_v1077 : Ref sig .tc := ⟨.hbm, 1227, rfl⟩
abbrev main_v1078 : Ref sig .tc := ⟨.hbm, 1228, rfl⟩
abbrev main_v1079 : Ref sig .tc := ⟨.hbm, 1229, rfl⟩
abbrev main_v1080 : Ref sig .tc := ⟨.hbm, 1230, rfl⟩
abbrev main_cst_139 : Ref sig .tc := ⟨.hbm, 1231, rfl⟩
abbrev main_v1081 : Ref sig .tc := ⟨.hbm, 1232, rfl⟩
abbrev main_v1082 : Ref sig .tc := ⟨.hbm, 1233, rfl⟩
abbrev main_cst_140 : Ref sig .tc := ⟨.hbm, 1234, rfl⟩
abbrev main_v1083 : Ref sig .tc := ⟨.hbm, 1235, rfl⟩
abbrev main_v1084 : Ref sig .tc := ⟨.hbm, 1236, rfl⟩
abbrev main_v1085 : Ref sig .tc := ⟨.hbm, 1237, rfl⟩
abbrev main_v1086 : Ref sig .tc := ⟨.hbm, 1238, rfl⟩
abbrev main_v1087 : Ref sig .tc := ⟨.hbm, 1239, rfl⟩
abbrev main_v1088 : Ref sig .tc := ⟨.hbm, 1240, rfl⟩
abbrev main_v1089 : Ref sig .tc := ⟨.hbm, 1241, rfl⟩
abbrev main_v1090 : Ref sig .tc := ⟨.hbm, 1242, rfl⟩
abbrev main_v1091 : Ref sig .tc := ⟨.hbm, 1243, rfl⟩
abbrev main_v1092 : Ref sig .tc := ⟨.hbm, 1244, rfl⟩
abbrev main_v1093 : Ref sig .tc := ⟨.hbm, 1245, rfl⟩
abbrev main_v1094 : Ref sig .tc := ⟨.hbm, 1246, rfl⟩
abbrev main_v1095 : Ref sig .tc := ⟨.hbm, 1247, rfl⟩
abbrev main_v1096 : Ref sig .tc := ⟨.hbm, 1248, rfl⟩
abbrev main_cst_141 : Ref sig .tc := ⟨.hbm, 1249, rfl⟩
abbrev main_v1097 : Ref sig .tc := ⟨.hbm, 1250, rfl⟩
abbrev main_v1098 : Ref sig .tc := ⟨.hbm, 1251, rfl⟩
abbrev main_cst_142 : Ref sig .tc := ⟨.hbm, 1252, rfl⟩
abbrev main_v1099 : Ref sig .tc := ⟨.hbm, 1253, rfl⟩
abbrev main_v1100 : Ref sig .tc := ⟨.hbm, 1254, rfl⟩
abbrev main_v1101 : Ref sig .tc := ⟨.hbm, 1255, rfl⟩
abbrev main_v1102 : Ref sig .tc := ⟨.hbm, 1256, rfl⟩
abbrev main_v1103 : Ref sig .tc := ⟨.hbm, 1257, rfl⟩
abbrev main_v1104 : Ref sig .tc := ⟨.hbm, 1258, rfl⟩
abbrev main_v1105 : Ref sig .tc := ⟨.hbm, 1259, rfl⟩
abbrev main_v1106 : Ref sig .tc := ⟨.hbm, 1260, rfl⟩
abbrev main_v1107 : Ref sig .tc := ⟨.hbm, 1261, rfl⟩
abbrev main_cst_143 : Ref sig .tc := ⟨.hbm, 1262, rfl⟩
abbrev main_v1108 : Ref sig .tc := ⟨.hbm, 1263, rfl⟩
abbrev main_v1109 : Ref sig .tc := ⟨.hbm, 1264, rfl⟩
abbrev main_cst_144 : Ref sig .tc := ⟨.hbm, 1265, rfl⟩
abbrev main_v1110 : Ref sig .tc := ⟨.hbm, 1266, rfl⟩
abbrev main_v1111 : Ref sig .tc := ⟨.hbm, 1267, rfl⟩
abbrev main_v1112 : Ref sig .tc := ⟨.hbm, 1268, rfl⟩
abbrev main_v1113 : Ref sig .tc := ⟨.hbm, 1269, rfl⟩
abbrev main_v1114 : Ref sig .tc := ⟨.hbm, 1270, rfl⟩
abbrev main_v1115 : Ref sig .tc := ⟨.hbm, 1271, rfl⟩
abbrev main_v1116 : Ref sig .tc := ⟨.hbm, 1272, rfl⟩
abbrev main_v1117 : Ref sig .tc := ⟨.hbm, 1273, rfl⟩
abbrev main_v1118 : Ref sig .tc := ⟨.hbm, 1274, rfl⟩
abbrev main_v1119 : Ref sig .tc := ⟨.hbm, 1275, rfl⟩
abbrev main_v1120 : Ref sig .tc := ⟨.hbm, 1276, rfl⟩
abbrev main_v1121 : Ref sig .tc := ⟨.hbm, 1277, rfl⟩
abbrev main_v1122 : Ref sig .tc := ⟨.hbm, 1278, rfl⟩
abbrev main_c_145 : Ref sig .tc := ⟨.hbm, 1279, rfl⟩
abbrev main_v1123 : Ref sig .tc := ⟨.hbm, 1280, rfl⟩
abbrev main_v1124 : Ref sig .tc := ⟨.hbm, 1281, rfl⟩
abbrev main_c_146 : Ref sig .tc := ⟨.hbm, 1282, rfl⟩
abbrev main_v1125 : Ref sig .tc := ⟨.hbm, 1283, rfl⟩
abbrev main_v1126 : Ref sig .tc := ⟨.hbm, 1284, rfl⟩
abbrev main_v1127 : Ref sig .tc := ⟨.hbm, 1285, rfl⟩
abbrev main_v1128 : Ref sig .tc := ⟨.hbm, 1286, rfl⟩
abbrev main_v1129 : Ref sig .tc := ⟨.hbm, 1287, rfl⟩
abbrev main_v1130 : Ref sig .tc := ⟨.hbm, 1288, rfl⟩

abbrev nD : Nat := 1
abbrev τ : Topo := Topo.v7x

variable {F : FTy → Type} [FloatOps F]

class Facts₀ : Prop where
  bcast_S_S32767x512 : S_.BroadcastsInDim S32767x512 (![] : Fin 0 → Fin S32767x512.rank)
  slices_S32767x512_S16384x512_16383_0 : S32767x512.Slices ![16383, 0] S16384x512
  bcast_S_S16384x512 : S_.BroadcastsInDim S16384x512 (![] : Fin 0 → Fin S16384x512.rank)
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S1 : S_.BroadcastsInDim S1 (![] : Fin 0 → Fin S1.rank)
  slices_S32767x512_S8192x512_8191_0 : S32767x512.Slices ![8191, 0] S8192x512
  shapeCasts_S16384x512_S8192x2x512 : S16384x512.ShapeCasts S8192x2x512
  slices_S8192x2x512_S8192x1x512_0_0_0 : S8192x2x512.Slices ![0, 0, 0] S8192x1x512
  shapeCasts_S8192x1x512_S8192x512 : S8192x1x512.ShapeCasts S8192x512
  slices_S8192x2x512_S8192x1x512_0_1_0 : S8192x2x512.Slices ![0, 1, 0] S8192x1x512
  concatenates_S8192x512_S8192x512_S8192x1024_d1 : Shape.Concatenates [S8192x512, S8192x512] S8192x1024 1
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S32767x512_S4096x512_4095_0 : S32767x512.Slices ![4095, 0] S4096x512
  shapeCasts_S8192x512_S4096x2x512 : S8192x512.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  concatenates_S4096x512_S4096x512_S4096x1024_d1 : Shape.Concatenates [S4096x512, S4096x512] S4096x1024 1
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  slices_S32767x512_S2048x512_2047_0 : S32767x512.Slices ![2047, 0] S2048x512
  shapeCasts_S4096x512_S2048x2x512 : S4096x512.ShapeCasts S2048x2x512
  slices_S2048x2x512_S2048x1x512_0_0_0 : S2048x2x512.Slices ![0, 0, 0] S2048x1x512
  shapeCasts_S2048x1x512_S2048x512 : S2048x1x512.ShapeCasts S2048x512
  slices_S2048x2x512_S2048x1x512_0_1_0 : S2048x2x512.Slices ![0, 1, 0] S2048x1x512
  concatenates_S2048x512_S2048x512_S2048x1024_d1 : Shape.Concatenates [S2048x512, S2048x512] S2048x1024 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  slices_S32767x512_S1024x512_1023_0 : S32767x512.Slices ![1023, 0] S1024x512
  shapeCasts_S2048x512_S1024x2x512 : S2048x512.ShapeCasts S1024x2x512
  slices_S1024x2x512_S1024x1x512_0_0_0 : S1024x2x512.Slices ![0, 0, 0] S1024x1x512
  shapeCasts_S1024x1x512_S1024x512 : S1024x1x512.ShapeCasts S1024x512
  slices_S1024x2x512_S1024x1x512_0_1_0 : S1024x2x512.Slices ![0, 1, 0] S1024x1x512
  concatenates_S1024x512_S1024x512_S1024x1024_d1 : Shape.Concatenates [S1024x512, S1024x512] S1024x1024 1
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  slices_S32767x512_S512x512_511_0 : S32767x512.Slices ![511, 0] S512x512
  shapeCasts_S1024x512_S512x2x512 : S1024x512.ShapeCasts S512x2x512
  slices_S512x2x512_S512x1x512_0_0_0 : S512x2x512.Slices ![0, 0, 0] S512x1x512
  shapeCasts_S512x1x512_S512x512 : S512x1x512.ShapeCasts S512x512
  slices_S512x2x512_S512x1x512_0_1_0 : S512x2x512.Slices ![0, 1, 0] S512x1x512
  concatenates_S512x512_S512x512_S512x1024_d1 : Shape.Concatenates [S512x512, S512x512] S512x1024 1
  bcast_S1x512_S512x512_0_1 : S1x512.BroadcastsInDim S512x512 (![0, 1] : Fin 2 → Fin S512x512.rank)
  bcast_S_S512x512 : S_.BroadcastsInDim S512x512 (![] : Fin 0 → Fin S512x512.rank)
  slices_S32767x512_S256x512_255_0 : S32767x512.Slices ![255, 0] S256x512
  shapeCasts_S512x512_S256x2x512 : S512x512.ShapeCasts S256x2x512
  slices_S256x2x512_S256x1x512_0_0_0 : S256x2x512.Slices ![0, 0, 0] S256x1x512
  shapeCasts_S256x1x512_S256x512 : S256x1x512.ShapeCasts S256x512
  slices_S256x2x512_S256x1x512_0_1_0 : S256x2x512.Slices ![0, 1, 0] S256x1x512
  concatenates_S256x512_S256x512_S256x1024_d1 : Shape.Concatenates [S256x512, S256x512] S256x1024 1
  bcast_S1x512_S256x512_0_1 : S1x512.BroadcastsInDim S256x512 (![0, 1] : Fin 2 → Fin S256x512.rank)
  bcast_S_S256x512 : S_.BroadcastsInDim S256x512 (![] : Fin 0 → Fin S256x512.rank)
  slices_S32767x512_S128x512_127_0 : S32767x512.Slices ![127, 0] S128x512
  shapeCasts_S256x512_S128x2x512 : S256x512.ShapeCasts S128x2x512
  slices_S128x2x512_S128x1x512_0_0_0 : S128x2x512.Slices ![0, 0, 0] S128x1x512
  shapeCasts_S128x1x512_S128x512 : S128x1x512.ShapeCasts S128x512
  slices_S128x2x512_S128x1x512_0_1_0 : S128x2x512.Slices ![0, 1, 0] S128x1x512
  concatenates_S128x512_S128x512_S128x1024_d1 : Shape.Concatenates [S128x512, S128x512] S128x1024 1
  bcast_S1x512_S128x512_0_1 : S1x512.BroadcastsInDim S128x512 (![0, 1] : Fin 2 → Fin S128x512.rank)
  bcast_S_S128x512 : S_.BroadcastsInDim S128x512 (![] : Fin 0 → Fin S128x512.rank)
  slices_S32767x512_S64x512_63_0 : S32767x512.Slices ![63, 0] S64x512
  shapeCasts_S128x512_S64x2x512 : S128x512.ShapeCasts S64x2x512
  slices_S64x2x512_S64x1x512_0_0_0 : S64x2x512.Slices ![0, 0, 0] S64x1x512
  shapeCasts_S64x1x512_S64x512 : S64x1x512.ShapeCasts S64x512
  slices_S64x2x512_S64x1x512_0_1_0 : S64x2x512.Slices ![0, 1, 0] S64x1x512
  concatenates_S64x512_S64x512_S64x1024_d1 : Shape.Concatenates [S64x512, S64x512] S64x1024 1
  bcast_S1x512_S64x512_0_1 : S1x512.BroadcastsInDim S64x512 (![0, 1] : Fin 2 → Fin S64x512.rank)
  bcast_S_S64x512 : S_.BroadcastsInDim S64x512 (![] : Fin 0 → Fin S64x512.rank)
  slices_S32767x512_S32x512_31_0 : S32767x512.Slices ![31, 0] S32x512
  shapeCasts_S64x512_S32x2x512 : S64x512.ShapeCasts S32x2x512
  slices_S32x2x512_S32x1x512_0_0_0 : S32x2x512.Slices ![0, 0, 0] S32x1x512
  shapeCasts_S32x1x512_S32x512 : S32x1x512.ShapeCasts S32x512
  slices_S32x2x512_S32x1x512_0_1_0 : S32x2x512.Slices ![0, 1, 0] S32x1x512
  concatenates_S32x512_S32x512_S32x1024_d1 : Shape.Concatenates [S32x512, S32x512] S32x1024 1
  bcast_S1x512_S32x512_0_1 : S1x512.BroadcastsInDim S32x512 (![0, 1] : Fin 2 → Fin S32x512.rank)
  bcast_S_S32x512 : S_.BroadcastsInDim S32x512 (![] : Fin 0 → Fin S32x512.rank)
  slices_S32767x512_S16x512_15_0 : S32767x512.Slices ![15, 0] S16x512
  shapeCasts_S32x512_S16x2x512 : S32x512.ShapeCasts S16x2x512
  slices_S16x2x512_S16x1x512_0_0_0 : S16x2x512.Slices ![0, 0, 0] S16x1x512
  shapeCasts_S16x1x512_S16x512 : S16x1x512.ShapeCasts S16x512
  slices_S16x2x512_S16x1x512_0_1_0 : S16x2x512.Slices ![0, 1, 0] S16x1x512
  concatenates_S16x512_S16x512_S16x1024_d1 : Shape.Concatenates [S16x512, S16x512] S16x1024 1
  bcast_S1x512_S16x512_0_1 : S1x512.BroadcastsInDim S16x512 (![0, 1] : Fin 2 → Fin S16x512.rank)
  bcast_S_S16x512 : S_.BroadcastsInDim S16x512 (![] : Fin 0 → Fin S16x512.rank)
  slices_S32767x512_S8x512_7_0 : S32767x512.Slices ![7, 0] S8x512
  shapeCasts_S16x512_S8x2x512 : S16x512.ShapeCasts S8x2x512
  slices_S8x2x512_S8x1x512_0_0_0 : S8x2x512.Slices ![0, 0, 0] S8x1x512
  shapeCasts_S8x1x512_S8x512 : S8x1x512.ShapeCasts S8x512
  slices_S8x2x512_S8x1x512_0_1_0 : S8x2x512.Slices ![0, 1, 0] S8x1x512
  concatenates_S8x512_S8x512_S8x1024_d1 : Shape.Concatenates [S8x512, S8x512] S8x1024 1
  bcast_S1x512_S8x512_0_1 : S1x512.BroadcastsInDim S8x512 (![0, 1] : Fin 2 → Fin S8x512.rank)
  bcast_S_S8x512 : S_.BroadcastsInDim S8x512 (![] : Fin 0 → Fin S8x512.rank)
  slices_S32767x512_S4x512_3_0 : S32767x512.Slices ![3, 0] S4x512
  shapeCasts_S8x512_S4x2x512 : S8x512.ShapeCasts S4x2x512
  slices_S4x2x512_S4x1x512_0_0_0 : S4x2x512.Slices ![0, 0, 0] S4x1x512
  shapeCasts_S4x1x512_S4x512 : S4x1x512.ShapeCasts S4x512
  slices_S4x2x512_S4x1x512_0_1_0 : S4x2x512.Slices ![0, 1, 0] S4x1x512
  concatenates_S4x512_S4x512_S4x1024_d1 : Shape.Concatenates [S4x512, S4x512] S4x1024 1
  bcast_S1x512_S4x512_0_1 : S1x512.BroadcastsInDim S4x512 (![0, 1] : Fin 2 → Fin S4x512.rank)
  bcast_S_S4x512 : S_.BroadcastsInDim S4x512 (![] : Fin 0 → Fin S4x512.rank)
  slices_S32767x512_S2x512_1_0 : S32767x512.Slices ![1, 0] S2x512
  shapeCasts_S4x512_S2x2x512 : S4x512.ShapeCasts S2x2x512
  slices_S2x2x512_S2x1x512_0_0_0 : S2x2x512.Slices ![0, 0, 0] S2x1x512
  shapeCasts_S2x1x512_S2x512 : S2x1x512.ShapeCasts S2x512
  slices_S2x2x512_S2x1x512_0_1_0 : S2x2x512.Slices ![0, 1, 0] S2x1x512
  concatenates_S2x512_S2x512_S2x1024_d1 : Shape.Concatenates [S2x512, S2x512] S2x1024 1
  bcast_S1x512_S2x512_0_1 : S1x512.BroadcastsInDim S2x512 (![0, 1] : Fin 2 → Fin S2x512.rank)
  bcast_S_S2x512 : S_.BroadcastsInDim S2x512 (![] : Fin 0 → Fin S2x512.rank)
  slices_S32767x512_S1x512_0_0 : S32767x512.Slices ![0, 0] S1x512
  shapeCasts_S2x512_S1x2x512 : S2x512.ShapeCasts S1x2x512
  slices_S1x2x512_S1x1x512_0_0_0 : S1x2x512.Slices ![0, 0, 0] S1x1x512
  shapeCasts_S1x1x512_S1x512 : S1x1x512.ShapeCasts S1x512
  slices_S1x2x512_S1x1x512_0_1_0 : S1x2x512.Slices ![0, 1, 0] S1x1x512
  concatenates_S1x512_S1x512_S1x1024_d1 : Shape.Concatenates [S1x512, S1x512] S1x1024 1
  bcast_S_S1x512 : S_.BroadcastsInDim S1x512 (![] : Fin 0 → Fin S1x512.rank)
  shapeCasts_S1x512_S512 : S1x512.ShapeCasts S512
  dot_S16384x1024_S1024x512_S16384x512_1_0_0_1_n_n_wf : DotDims.WF S16384x1024 S1024x512 S16384x512 [1] [0] [0] [1] [] []
  scatter_S32767x512_S1_S16384x512_01_n_0_0_wf : ScatterDims.WF S32767x512 S1 S16384x512 [0, 1] [] [0] 0
  dot_S8192x1024_S1024x512_S8192x512_1_0_0_1_n_n_wf : DotDims.WF S8192x1024 S1024x512 S8192x512 [1] [0] [0] [1] [] []
  scatter_S32767x512_S1_S8192x512_01_n_0_0_wf : ScatterDims.WF S32767x512 S1 S8192x512 [0, 1] [] [0] 0
  dot_S4096x1024_S1024x512_S4096x512_1_0_0_1_n_n_wf : DotDims.WF S4096x1024 S1024x512 S4096x512 [1] [0] [0] [1] [] []
  scatter_S32767x512_S1_S4096x512_01_n_0_0_wf : ScatterDims.WF S32767x512 S1 S4096x512 [0, 1] [] [0] 0
  dot_S2048x1024_S1024x512_S2048x512_1_0_0_1_n_n_wf : DotDims.WF S2048x1024 S1024x512 S2048x512 [1] [0] [0] [1] [] []
  scatter_S32767x512_S1_S2048x512_01_n_0_0_wf : ScatterDims.WF S32767x512 S1 S2048x512 [0, 1] [] [0] 0
  dot_S1024x1024_S1024x512_S1024x512_1_0_0_1_n_n_wf : DotDims.WF S1024x1024 S1024x512 S1024x512 [1] [0] [0] [1] [] []
  scatter_S32767x512_S1_S1024x512_01_n_0_0_wf : ScatterDims.WF S32767x512 S1 S1024x512 [0, 1] [] [0] 0
  dot_S512x1024_S1024x512_S512x512_1_0_0_1_n_n_wf : DotDims.WF S512x1024 S1024x512 S512x512 [1] [0] [0] [1] [] []
  scatter_S32767x512_S1_S512x512_01_n_0_0_wf : ScatterDims.WF S32767x512 S1 S512x512 [0, 1] [] [0] 0
  dot_S256x1024_S1024x512_S256x512_1_0_0_1_n_n_wf : DotDims.WF S256x1024 S1024x512 S256x512 [1] [0] [0] [1] [] []
  scatter_S32767x512_S1_S256x512_01_n_0_0_wf : ScatterDims.WF S32767x512 S1 S256x512 [0, 1] [] [0] 0
  dot_S128x1024_S1024x512_S128x512_1_0_0_1_n_n_wf : DotDims.WF S128x1024 S1024x512 S128x512 [1] [0] [0] [1] [] []
  scatter_S32767x512_S1_S128x512_01_n_0_0_wf : ScatterDims.WF S32767x512 S1 S128x512 [0, 1] [] [0] 0
  dot_S64x1024_S1024x512_S64x512_1_0_0_1_n_n_wf : DotDims.WF S64x1024 S1024x512 S64x512 [1] [0] [0] [1] [] []
  scatter_S32767x512_S1_S64x512_01_n_0_0_wf : ScatterDims.WF S32767x512 S1 S64x512 [0, 1] [] [0] 0
  dot_S32x1024_S1024x512_S32x512_1_0_0_1_n_n_wf : DotDims.WF S32x1024 S1024x512 S32x512 [1] [0] [0] [1] [] []
  scatter_S32767x512_S1_S32x512_01_n_0_0_wf : ScatterDims.WF S32767x512 S1 S32x512 [0, 1] [] [0] 0
  dot_S16x1024_S1024x512_S16x512_1_0_0_1_n_n_wf : DotDims.WF S16x1024 S1024x512 S16x512 [1] [0] [0] [1] [] []
  scatter_S32767x512_S1_S16x512_01_n_0_0_wf : ScatterDims.WF S32767x512 S1 S16x512 [0, 1] [] [0] 0
  dot_S8x1024_S1024x512_S8x512_1_0_0_1_n_n_wf : DotDims.WF S8x1024 S1024x512 S8x512 [1] [0] [0] [1] [] []
  scatter_S32767x512_S1_S8x512_01_n_0_0_wf : ScatterDims.WF S32767x512 S1 S8x512 [0, 1] [] [0] 0
  dot_S4x1024_S1024x512_S4x512_1_0_0_1_n_n_wf : DotDims.WF S4x1024 S1024x512 S4x512 [1] [0] [0] [1] [] []
  scatter_S32767x512_S1_S4x512_01_n_0_0_wf : ScatterDims.WF S32767x512 S1 S4x512 [0, 1] [] [0] 0
  dot_S2x1024_S1024x512_S2x512_1_0_0_1_n_n_wf : DotDims.WF S2x1024 S1024x512 S2x512 [1] [0] [0] [1] [] []
  scatter_S32767x512_S1_S2x512_01_n_0_0_wf : ScatterDims.WF S32767x512 S1 S2x512 [0, 1] [] [0] 0
  dot_S1x1024_S1024x512_S1x512_1_0_0_1_n_n_wf : DotDims.WF S1x1024 S1024x512 S1x512 [1] [0] [0] [1] [] []
  scatter_S32767x512_S1_S1x512_01_n_0_0_wf : ScatterDims.WF S32767x512 S1 S1x512 [0, 1] [] [0] 0

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def scatter_S32767x512_S1_S16384x512_01_n_0_0 : ScatterDims S32767x512 S1 S16384x512 where
  updateWindowDims := [0, 1]
  insertedWindowDims := []
  scatterDimsToOperandDims := [0]
  indexVectorDim := 0
  wf := scatter_S32767x512_S1_S16384x512_01_n_0_0_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def scatter_S32767x512_S1_S8192x512_01_n_0_0 : ScatterDims S32767x512 S1 S8192x512 where
  updateWindowDims := [0, 1]
  insertedWindowDims := []
  scatterDimsToOperandDims := [0]
  indexVectorDim := 0
  wf := scatter_S32767x512_S1_S8192x512_01_n_0_0_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def scatter_S32767x512_S1_S4096x512_01_n_0_0 : ScatterDims S32767x512 S1 S4096x512 where
  updateWindowDims := [0, 1]
  insertedWindowDims := []
  scatterDimsToOperandDims := [0]
  indexVectorDim := 0
  wf := scatter_S32767x512_S1_S4096x512_01_n_0_0_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def scatter_S32767x512_S1_S2048x512_01_n_0_0 : ScatterDims S32767x512 S1 S2048x512 where
  updateWindowDims := [0, 1]
  insertedWindowDims := []
  scatterDimsToOperandDims := [0]
  indexVectorDim := 0
  wf := scatter_S32767x512_S1_S2048x512_01_n_0_0_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S32767x512_S1_S1024x512_01_n_0_0 : ScatterDims S32767x512 S1 S1024x512 where
  updateWindowDims := [0, 1]
  insertedWindowDims := []
  scatterDimsToOperandDims := [0]
  indexVectorDim := 0
  wf := scatter_S32767x512_S1_S1024x512_01_n_0_0_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def scatter_S32767x512_S1_S512x512_01_n_0_0 : ScatterDims S32767x512 S1 S512x512 where
  updateWindowDims := [0, 1]
  insertedWindowDims := []
  scatterDimsToOperandDims := [0]
  indexVectorDim := 0
  wf := scatter_S32767x512_S1_S512x512_01_n_0_0_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def scatter_S32767x512_S1_S256x512_01_n_0_0 : ScatterDims S32767x512 S1 S256x512 where
  updateWindowDims := [0, 1]
  insertedWindowDims := []
  scatterDimsToOperandDims := [0]
  indexVectorDim := 0
  wf := scatter_S32767x512_S1_S256x512_01_n_0_0_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def scatter_S32767x512_S1_S128x512_01_n_0_0 : ScatterDims S32767x512 S1 S128x512 where
  updateWindowDims := [0, 1]
  insertedWindowDims := []
  scatterDimsToOperandDims := [0]
  indexVectorDim := 0
  wf := scatter_S32767x512_S1_S128x512_01_n_0_0_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def scatter_S32767x512_S1_S64x512_01_n_0_0 : ScatterDims S32767x512 S1 S64x512 where
  updateWindowDims := [0, 1]
  insertedWindowDims := []
  scatterDimsToOperandDims := [0]
  indexVectorDim := 0
  wf := scatter_S32767x512_S1_S64x512_01_n_0_0_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def scatter_S32767x512_S1_S32x512_01_n_0_0 : ScatterDims S32767x512 S1 S32x512 where
  updateWindowDims := [0, 1]
  insertedWindowDims := []
  scatterDimsToOperandDims := [0]
  indexVectorDim := 0
  wf := scatter_S32767x512_S1_S32x512_01_n_0_0_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def scatter_S32767x512_S1_S16x512_01_n_0_0 : ScatterDims S32767x512 S1 S16x512 where
  updateWindowDims := [0, 1]
  insertedWindowDims := []
  scatterDimsToOperandDims := [0]
  indexVectorDim := 0
  wf := scatter_S32767x512_S1_S16x512_01_n_0_0_wf
def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf
def scatter_S32767x512_S1_S8x512_01_n_0_0 : ScatterDims S32767x512 S1 S8x512 where
  updateWindowDims := [0, 1]
  insertedWindowDims := []
  scatterDimsToOperandDims := [0]
  indexVectorDim := 0
  wf := scatter_S32767x512_S1_S8x512_01_n_0_0_wf
def dot_S4x1024_S1024x512_S4x512_1_0_0_1_n_n : DotDims S4x1024 S1024x512 S4x512 where
  lhsContracting := [1]
  rhsContracting := [0]
  lhsNonContracting := [0]
  rhsNonContracting := [1]
  lhsBatch := []
  rhsBatch := []
  wf := dot_S4x1024_S1024x512_S4x512_1_0_0_1_n_n_wf
def scatter_S32767x512_S1_S4x512_01_n_0_0 : ScatterDims S32767x512 S1 S4x512 where
  updateWindowDims := [0, 1]
  insertedWindowDims := []
  scatterDimsToOperandDims := [0]
  indexVectorDim := 0
  wf := scatter_S32767x512_S1_S4x512_01_n_0_0_wf
def dot_S2x1024_S1024x512_S2x512_1_0_0_1_n_n : DotDims S2x1024 S1024x512 S2x512 where
  lhsContracting := [1]
  rhsContracting := [0]
  lhsNonContracting := [0]
  rhsNonContracting := [1]
  lhsBatch := []
  rhsBatch := []
  wf := dot_S2x1024_S1024x512_S2x512_1_0_0_1_n_n_wf
def scatter_S32767x512_S1_S2x512_01_n_0_0 : ScatterDims S32767x512 S1 S2x512 where
  updateWindowDims := [0, 1]
  insertedWindowDims := []
  scatterDimsToOperandDims := [0]
  indexVectorDim := 0
  wf := scatter_S32767x512_S1_S2x512_01_n_0_0_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def scatter_S32767x512_S1_S1x512_01_n_0_0 : ScatterDims S32767x512 S1 S1x512 where
  updateWindowDims := [0, 1]
  insertedWindowDims := []
  scatterDimsToOperandDims := [0]
  indexVectorDim := 0
  wf := scatter_S32767x512_S1_S1x512_01_n_0_0_wf

class Facts : Prop extends Facts₀ where

variable [Facts]
-- ==== Proof.LibTree.lean ====
/-
  The child-sum tree cell at one node and one output column, over the extended reals, and a whole level of nodes.

  A node reads a row x of 512 inputs and, unless it is a leaf, its two children's rows hl, hr (hidden) and cl, cr
  (cell). Each gate's pre-activation is an affine form of the 1024-vector [x ; h] with a weight row W j and a bias
  b j. Written over the concatenated vector it is ONE sum over 1024 positions; written over the two halves of the
  weight row it is a sum over x's 512 positions plus a sum over h's 512 positions. The two are equal because a sum over
  Fin (512 + 512) splits into its first 512 and its last 512 terms (`pre_split`): associativity and commutativity of
  addition only, so nothing needs to be finite. At a leaf h is zero, the second half contributes 0 * W j k = 0, and the
  sum over 1024 positions is the sum over x's 512 (`pre_leaf`).

  With zi, zo, zu the input, output and update pre-activations (over the child SUM hl + hr) and zfl, zfr the two forget
  pre-activations (over hl and over hr):
      c = σ(zi) · tanh(zu) + σ(zfl) · cl + σ(zfr) · cr,      h = σ(zo) · tanh(c),
  and at a leaf c = σ(zi) · tanh(zu).
-/
import Idealize.ShloMosaic.PureOps.Ideal
import Idealize.ShloMosaic.Lib.ValueIdx
import Mathlib.Algebra.BigOperators.Fin

noncomputable section

open scoped BigOperators

namespace Cert.Tree

open Idealize.ShloMosaic Idealize.ShloMosaic.ValueIdx

/-- A block or level of n node rows. -/
abbrev SB (n : Nat) : Shape := ⟨2, ![n, 512]⟩
/-- One half of a gate's weights, laid out input position by output column. -/
abbrev SW : Shape := ⟨2, ![512, 512]⟩
/-- A bias as a row. -/
abbrev SR : Shape := ⟨2, ![1, 512]⟩
/-- A gate's weights as given: output column by position in [x ; h]. -/
abbrev SG : Shape := ⟨2, ![512, 1024]⟩
/-- A bias as given. -/
abbrev SV : Shape := ⟨1, ![512]⟩

/-! ## One node, one column -/

def cellC (zi zu zfl zfr cl cr : EReal) : EReal :=
  Ideal.logistic zi * Ideal.tanh zu + Ideal.logistic zfl * cl + Ideal.logistic zfr * cr

def cellH (zo c : EReal) : EReal := Ideal.logistic zo * Ideal.tanh c

def leafC (zi zu : EReal) : EReal := Ideal.logistic zi * Ideal.tanh zu

/-! ## Pre-activations over split weights (a half laid out position by column, the bias a row) -/

variable {n : Nat}

def preK (x h : (SB n).Idx → EReal) (wx wh : SW.Idx → EReal) (b : SR.Idx → EReal) (p : Fin n) (q : Fin 512) : EReal :=
  (∑ k : Fin 512, x (ix2 p k) * wx (ix2 k q)) + (∑ k : Fin 512, h (ix2 p k) * wh (ix2 k q)) + b (ix2 (0 : Fin 1) q)

def preK1 (x : (SB n).Idx → EReal) (wx : SW.Idx → EReal) (b : SR.Idx → EReal) (p : Fin n) (q : Fin 512) : EReal :=
  (∑ k : Fin 512, x (ix2 p k) * wx (ix2 k q)) + b (ix2 (0 : Fin 1) q)

/-! ## Pre-activations over the weights as given -/

/-- Position k of [x ; h] at row p. -/
def cat (x h : (SB n).Idx → EReal) (p : Fin n) (k : Fin 1024) : EReal :=
  if hk : k.val < 512 then x (ix2 p ⟨k.val, hk⟩) else h (ix2 p ⟨k.val - 512, by have := k.isLt; omega⟩)

def preR (x h : (SB n).Idx → EReal) (W : SG.Idx → EReal) (b : SV.Idx → EReal) (p : Fin n) (q : Fin 512) : EReal :=
  (∑ k : Fin 1024, cat x h p k * W (ix2 q k)) + b (ix1 q)

/-! ## A level of n nodes -/

def levelC (x hl hr cl cr : (SB n).Idx → EReal) (wix wih wfx wfh wox woh wux wuh : SW.Idx → EReal)
    (bi bf bo bu : SR.Idx → EReal) : (SB n).Idx → EReal := fun i =>
  cellC (preK x (fun j => hl j + hr j) wix wih bi (i 0) (i 1)) (preK x (fun j => hl j + hr j) wux wuh bu (i 0) (i 1))
    (preK x hl wfx wfh bf (i 0) (i 1)) (preK x hr wfx wfh bf (i 0) (i 1)) (cl i) (cr i)

def levelH (x hl hr cl cr : (SB n).Idx → EReal) (wix wih wfx wfh wox woh wux wuh : SW.Idx → EReal)
    (bi bf bo bu : SR.Idx → EReal) : (SB n).Idx → EReal := fun i =>
  cellH (preK x (fun j => hl j + hr j) wox woh bo (i 0) (i 1))
    (levelC x hl hr cl cr wix wih wfx wfh wox woh wux wuh bi bf bo bu i)

def leafLevelC (x : (SB n).Idx → EReal) (wix wox wux : SW.Idx → EReal) (bi bo bu : SR.Idx → EReal) :
    (SB n).Idx → EReal := fun i =>
  leafC (preK1 x wix bi (i 0) (i 1)) (preK1 x wux bu (i 0) (i 1))

def leafLevelH (x : (SB n).Idx → EReal) (wix wox wux : SW.Idx → EReal) (bi bo bu : SR.Idx → EReal) :
    (SB n).Idx → EReal := fun i =>
  cellH (preK1 x wox bo (i 0) (i 1)) (leafLevelC x wix wox wux bi bo bu i)

/-- The same level over the weights as given. -/
def refLevelC (x hl hr cl cr : (SB n).Idx → EReal) (Wi Wf Wo Wu : SG.Idx → EReal) (bi bf bo bu : SV.Idx → EReal) :
    (SB n).Idx → EReal := fun i =>
  cellC (preR x (fun j => hl j + hr j) Wi bi (i 0) (i 1)) (preR x (fun j => hl j + hr j) Wu bu (i 0) (i 1))
    (preR x hl Wf bf (i 0) (i 1)) (preR x hr Wf bf (i 0) (i 1)) (cl i) (cr i)

def refLevelH (x hl hr cl cr : (SB n).Idx → EReal) (Wi Wf Wo Wu : SG.Idx → EReal) (bi bf bo bu : SV.Idx → EReal) :
    (SB n).Idx → EReal := fun i =>
  cellH (preR x (fun j => hl j + hr j) Wo bo (i 0) (i 1)) (refLevelC x hl hr cl cr Wi Wf Wo Wu bi bf bo bu i)

def refLeafC (x : (SB n).Idx → EReal) (Wi Wo Wu : SG.Idx → EReal) (bi bo bu : SV.Idx → EReal) :
    (SB n).Idx → EReal := fun i =>
  leafC (preR x (fun _ => 0) Wi bi (i 0) (i 1)) (preR x (fun _ => 0) Wu bu (i 0) (i 1))

def refLeafH (x : (SB n).Idx → EReal) (Wi Wo Wu : SG.Idx → EReal) (bi bo bu : SV.Idx → EReal) :
    (SB n).Idx → EReal := fun i =>
  cellH (preR x (fun _ => 0) Wo bo (i 0) (i 1)) (refLeafC x Wi Wo Wu bi bo bu i)

/-! ## The two writings agree -/

/-- The halves of a gate's weights: `wx` holds W's first 512 positions and `wh` its last 512, each laid out position
    by column; `b2` is the bias as a row. -/
structure Halves (W : SG.Idx → EReal) (b : SV.Idx → EReal) (wx wh : SW.Idx → EReal) (b2 : SR.Idx → EReal) : Prop where
  lo : ∀ (k q : Fin 512), wx (ix2 k q) = W (ix2 q (⟨k.val, by have := k.isLt; omega⟩ : Fin 1024))
  hi : ∀ (k q : Fin 512), wh (ix2 k q) = W (ix2 q (⟨512 + k.val, by have := k.isLt; omega⟩ : Fin 1024))
  bias : ∀ q : Fin 512, b2 (ix2 (0 : Fin 1) q) = b (ix1 q)

/-- The sum over the 1024 positions of [x ; h] is the sum over x's 512 positions plus the sum over h's 512. -/
private theorem sum_cat (x h : (SB n).Idx → EReal) (W : SG.Idx → EReal) (p : Fin n) (q : Fin 512) :
    (∑ k : Fin 1024, cat x h p k * W (ix2 q k))
      = (∑ k : Fin 512, x (ix2 p k) * W (ix2 q (⟨k.val, by have := k.isLt; omega⟩ : Fin 1024)))
        + (∑ k : Fin 512, h (ix2 p k) * W (ix2 q (⟨512 + k.val, by have := k.isLt; omega⟩ : Fin 1024))) := by
  have hs := Fin.sum_univ_add (a := 512) (b := 512) (fun k : Fin (512 + 512) => cat x h p k * W (ix2 q k))
  refine hs.trans (congrArg₂ (· + ·) (Finset.sum_congr rfl (fun k _ => ?_)) (Finset.sum_congr rfl (fun k _ => ?_)))
  · have hk : (Fin.castAdd 512 k).val < 512 := k.isLt
    show cat x h p (Fin.castAdd 512 k) * W (ix2 q (Fin.castAdd 512 k)) = _
    unfold cat
    rw [dif_pos hk]
    rfl
  · have hk : ¬ (Fin.natAdd 512 k).val < 512 := by
      show ¬ 512 + k.val < 512
      omega
    have hj : (⟨(Fin.natAdd 512 k).val - 512, by have := (Fin.natAdd 512 k).isLt; omega⟩ : Fin 512) = k :=
      Fin.ext (by show 512 + k.val - 512 = k.val; omega)
    show cat x h p (Fin.natAdd 512 k) * W (ix2 q (Fin.natAdd 512 k)) = _
    unfold cat
    rw [dif_neg hk, hj]
    rfl

theorem pre_split (x h : (SB n).Idx → EReal) {W : SG.Idx → EReal} {b : SV.Idx → EReal} {wx wh : SW.Idx → EReal}
    {b2 : SR.Idx → EReal} (H : Halves W b wx wh b2) (p : Fin n) (q : Fin 512) :
    preK x h wx wh b2 p q = preR x h W b p q := by
  unfold preK preR
  rw [sum_cat, H.bias]
  simp only [H.lo, H.hi]

theorem pre_leaf (x : (SB n).Idx → EReal) {W : SG.Idx → EReal} {b : SV.Idx → EReal} {wx wh : SW.Idx → EReal}
    {b2 : SR.Idx → EReal} (H : Halves W b wx wh b2) (p : Fin n) (q : Fin 512) :
    preK1 x wx b2 p q = preR x (fun _ => 0) W b p q := by
  unfold preK1 preR
  rw [sum_cat, H.bias]
  simp only [H.lo, zero_mul, Finset.sum_const_zero, add_zero]

theorem levelC_eq (x hl hr cl cr : (SB n).Idx → EReal) {Wi Wf Wo Wu : SG.Idx → EReal} {bi bf bo bu : SV.Idx → EReal}
    {wix wih wfx wfh wox woh wux wuh : SW.Idx → EReal} {bi2 bf2 bo2 bu2 : SR.Idx → EReal}
    (Hi : Halves Wi bi wix wih bi2) (Hf : Halves Wf bf wfx wfh bf2) (Ho : Halves Wo bo wox woh bo2)
    (Hu : Halves Wu bu wux wuh bu2) :
    levelC x hl hr cl cr wix wih wfx wfh wox woh wux wuh bi2 bf2 bo2 bu2 = refLevelC x hl hr cl cr Wi Wf Wo Wu bi bf bo bu := by
  funext i
  obtain ⟨a, c, rfl⟩ : ∃ a c, i = ix2 a c := ⟨i 0, i 1, eq_ix2 i⟩
  show cellC (preK x (fun j => hl j + hr j) wix wih bi2 a c) (preK x (fun j => hl j + hr j) wux wuh bu2 a c)
      (preK x hl wfx wfh bf2 a c) (preK x hr wfx wfh bf2 a c) (cl (ix2 a c)) (cr (ix2 a c))
    = cellC (preR x (fun j => hl j + hr j) Wi bi a c) (preR x (fun j => hl j + hr j) Wu bu a c)
      (preR x hl Wf bf a c) (preR x hr Wf bf a c) (cl (ix2 a c)) (cr (ix2 a c))
  rw [pre_split x _ Hi, pre_split x _ Hu, pre_split x hl Hf, pre_split x hr Hf]

theorem levelH_eq (x hl hr cl cr : (SB n).Idx → EReal) {Wi Wf Wo Wu : SG.Idx → EReal} {bi bf bo bu : SV.Idx → EReal}
    {wix wih wfx wfh wox woh wux wuh : SW.Idx → EReal} {bi2 bf2 bo2 bu2 : SR.Idx → EReal}
    (Hi : Halves Wi bi wix wih bi2) (Hf : Halves Wf bf wfx wfh bf2) (Ho : Halves Wo bo wox woh bo2)
    (Hu : Halves Wu bu wux wuh bu2) :
    levelH x hl hr cl cr wix wih wfx wfh wox woh wux wuh bi2 bf2 bo2 bu2 = refLevelH x hl hr cl cr Wi Wf Wo Wu bi bf bo bu := by
  funext i
  obtain ⟨a, c, rfl⟩ : ∃ a c, i = ix2 a c := ⟨i 0, i 1, eq_ix2 i⟩
  show cellH (preK x (fun j => hl j + hr j) wox woh bo2 a c)
      (levelC x hl hr cl cr wix wih wfx wfh wox woh wux wuh bi2 bf2 bo2 bu2 (ix2 a c))
    = cellH (preR x (fun j => hl j + hr j) Wo bo a c) (refLevelC x hl hr cl cr Wi Wf Wo Wu bi bf bo bu (ix2 a c))
  rw [levelC_eq x hl hr cl cr Hi Hf Ho Hu, pre_split x _ Ho]

theorem leafLevelC_eq (x : (SB n).Idx → EReal) {Wi Wo Wu : SG.Idx → EReal} {bi bo bu : SV.Idx → EReal}
    {wix wih wox woh wux wuh : SW.Idx → EReal} {bi2 bo2 bu2 : SR.Idx → EReal}
    (Hi : Halves Wi bi wix wih bi2) (Ho : Halves Wo bo wox woh bo2) (Hu : Halves Wu bu wux wuh bu2) :
    leafLevelC x wix wox wux bi2 bo2 bu2 = refLeafC x Wi Wo Wu bi bo bu := by
  funext i
  obtain ⟨a, c, rfl⟩ : ∃ a c, i = ix2 a c := ⟨i 0, i 1, eq_ix2 i⟩
  show leafC (preK1 x wix bi2 a c) (preK1 x wux bu2 a c)
    = leafC (preR x (fun _ => 0) Wi bi a c) (preR x (fun _ => 0) Wu bu a c)
  rw [pre_leaf x Hi, pre_leaf x Hu]

theorem leafLevelH_eq (x : (SB n).Idx → EReal) {Wi Wo Wu : SG.Idx → EReal} {bi bo bu : SV.Idx → EReal}
    {wix wih wox woh wux wuh : SW.Idx → EReal} {bi2 bo2 bu2 : SR.Idx → EReal}
    (Hi : Halves Wi bi wix wih bi2) (Ho : Halves Wo bo wox woh bo2) (Hu : Halves Wu bu wux wuh bu2) :
    leafLevelH x wix wox wux bi2 bo2 bu2 = refLeafH x Wi Wo Wu bi bo bu := by
  funext i
  obtain ⟨a, c, rfl⟩ : ∃ a c, i = ix2 a c := ⟨i 0, i 1, eq_ix2 i⟩
  show cellH (preK1 x wox bo2 a c) (leafLevelC x wix wox wux bi2 bo2 bu2 (ix2 a c))
    = cellH (preR x (fun _ => 0) Wo bo a c) (refLeafC x Wi Wo Wu bi bo bu (ix2 a c))
  rw [leafLevelC_eq x Hi Ho Hu, pre_leaf x Ho]

/-! ## A block of rows inside a level: row p of the block is row r of the level -/

section Rows

variable {N : Nat}

/-- A pre-activation reads only row p of x and of h. -/
private theorem preK_rows (x h : (SB n).Idx → EReal) (X Hh : (SB N).Idx → EReal) (wx wh : SW.Idx → EReal)
    (b : SR.Idx → EReal) (p : Fin n) (r : Fin N) (q : Fin 512)
    (hx : ∀ k : Fin 512, x (ix2 p k) = X (ix2 r k)) (hh : ∀ k : Fin 512, h (ix2 p k) = Hh (ix2 r k)) :
    preK x h wx wh b p q = preK X Hh wx wh b r q := by
  unfold preK
  simp only [hx, hh]

private theorem preK1_rows (x : (SB n).Idx → EReal) (X : (SB N).Idx → EReal) (wx : SW.Idx → EReal)
    (b : SR.Idx → EReal) (p : Fin n) (r : Fin N) (q : Fin 512)
    (hx : ∀ k : Fin 512, x (ix2 p k) = X (ix2 r k)) :
    preK1 x wx b p q = preK1 X wx b r q := by
  unfold preK1
  simp only [hx]

/-- Where block row p holds level row r (of x, hl, hr) and the two cell entries agree, the block's c entry is the level's. -/
theorem levelC_rows (b0 b1 b2 b3 b4 : (SB n).Idx → EReal) (X HL HR CL CR : (SB N).Idx → EReal)
    (wix wih wfx wfh wox woh wux wuh : SW.Idx → EReal) (bi bf bo bu : SR.Idx → EReal)
    (p : Fin n) (r : Fin N) (q : Fin 512)
    (h0 : ∀ k : Fin 512, b0 (ix2 p k) = X (ix2 r k)) (h1 : ∀ k : Fin 512, b1 (ix2 p k) = HL (ix2 r k))
    (h2 : ∀ k : Fin 512, b2 (ix2 p k) = HR (ix2 r k)) (h3 : b3 (ix2 p q) = CL (ix2 r q)) (h4 : b4 (ix2 p q) = CR (ix2 r q)) :
    levelC b0 b1 b2 b3 b4 wix wih wfx wfh wox woh wux wuh bi bf bo bu (ix2 p q)
      = levelC X HL HR CL CR wix wih wfx wfh wox woh wux wuh bi bf bo bu (ix2 r q) := by
  have hs : ∀ k : Fin 512, b1 (ix2 p k) + b2 (ix2 p k) = HL (ix2 r k) + HR (ix2 r k) := fun k => by
    rw [h1, h2]
  show cellC (preK b0 (fun j => b1 j + b2 j) wix wih bi p q) (preK b0 (fun j => b1 j + b2 j) wux wuh bu p q)
      (preK b0 b1 wfx wfh bf p q) (preK b0 b2 wfx wfh bf p q) (b3 (ix2 p q)) (b4 (ix2 p q))
    = cellC (preK X (fun j => HL j + HR j) wix wih bi r q) (preK X (fun j => HL j + HR j) wux wuh bu r q)
      (preK X HL wfx wfh bf r q) (preK X HR wfx wfh bf r q) (CL (ix2 r q)) (CR (ix2 r q))
  rw [preK_rows b0 (fun j => b1 j + b2 j) X (fun j => HL j + HR j) wix wih bi p r q h0 hs, preK_rows b0 (fun j => b1 j + b2 j) X (fun j => HL j + HR j) wux wuh bu p r q h0 hs,
    preK_rows b0 b1 X HL wfx wfh bf p r q h0 h1, preK_rows b0 b2 X HR wfx wfh bf p r q h0 h2, h3, h4]

theorem levelH_rows (b0 b1 b2 b3 b4 : (SB n).Idx → EReal) (X HL HR CL CR : (SB N).Idx → EReal)
    (wix wih wfx wfh wox woh wux wuh : SW.Idx → EReal) (bi bf bo bu : SR.Idx → EReal)
    (p : Fin n) (r : Fin N) (q : Fin 512)
    (h0 : ∀ k : Fin 512, b0 (ix2 p k) = X (ix2 r k)) (h1 : ∀ k : Fin 512, b1 (ix2 p k) = HL (ix2 r k))
    (h2 : ∀ k : Fin 512, b2 (ix2 p k) = HR (ix2 r k)) (h3 : b3 (ix2 p q) = CL (ix2 r q)) (h4 : b4 (ix2 p q) = CR (ix2 r q)) :
    levelH b0 b1 b2 b3 b4 wix wih wfx wfh wox woh wux wuh bi bf bo bu (ix2 p q)
      = levelH X HL HR CL CR wix wih wfx wfh wox woh wux wuh bi bf bo bu (ix2 r q) := by
  have hs : ∀ k : Fin 512, b1 (ix2 p k) + b2 (ix2 p k) = HL (ix2 r k) + HR (ix2 r k) := fun k => by
    rw [h1, h2]
  show cellH (preK b0 (fun j => b1 j + b2 j) wox woh bo p q)
      (levelC b0 b1 b2 b3 b4 wix wih wfx wfh wox woh wux wuh bi bf bo bu (ix2 p q))
    = cellH (preK X (fun j => HL j + HR j) wox woh bo r q)
      (levelC X HL HR CL CR wix wih wfx wfh wox woh wux wuh bi bf bo bu (ix2 r q))
  rw [preK_rows b0 (fun j => b1 j + b2 j) X (fun j => HL j + HR j) wox woh bo p r q h0 hs,
    levelC_rows b0 b1 b2 b3 b4 X HL HR CL CR wix wih wfx wfh wox woh wux wuh bi bf bo bu p r q h0 h1 h2 h3 h4]

theorem leafLevelC_rows (b0 : (SB n).Idx → EReal) (X : (SB N).Idx → EReal) (wix wox wux : SW.Idx → EReal)
    (bi bo bu : SR.Idx → EReal) (p : Fin n) (r : Fin N) (q : Fin 512)
    (h0 : ∀ k : Fin 512, b0 (ix2 p k) = X (ix2 r k)) :
    leafLevelC b0 wix wox wux bi bo bu (ix2 p q) = leafLevelC X wix wox wux bi bo bu (ix2 r q) := by
  show leafC (preK1 b0 wix bi p q) (preK1 b0 wux bu p q) = leafC (preK1 X wix bi r q) (preK1 X wux bu r q)
  rw [preK1_rows b0 X wix bi p r q h0, preK1_rows b0 X wux bu p r q h0]

theorem leafLevelH_rows (b0 : (SB n).Idx → EReal) (X : (SB N).Idx → EReal) (wix wox wux : SW.Idx → EReal)
    (bi bo bu : SR.Idx → EReal) (p : Fin n) (r : Fin N) (q : Fin 512)
    (h0 : ∀ k : Fin 512, b0 (ix2 p k) = X (ix2 r k)) :
    leafLevelH b0 wix wox wux bi bo bu (ix2 p q) = leafLevelH X wix wox wux bi bo bu (ix2 r q) := by
  show cellH (preK1 b0 wox bo p q) (leafLevelC b0 wix wox wux bi bo bu (ix2 p q))
    = cellH (preK1 X wox bo r q) (leafLevelC X wix wox wux bi bo bu (ix2 r q))
  rw [preK1_rows b0 X wox bo p r q h0, leafLevelC_rows b0 X wix wox wux bi bo bu p r q h0]

end Rows

end Cert.Tree

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KWeights.lean ====
/-
  What the first host stretch leaves in the twelve weight and bias buffers. Each gate's weights are given as a
  512 x 1024 array W, output column by position in [x ; h], and its bias as a vector b of 512 entries. The stretch cuts
  W into its first 512 and its last 512 positions, transposes each cut (so that it is laid out position by column) and
  narrows it; and it reshapes b into a 1 x 512 row. Narrowing is the identity at the extended reals, entry (k, q) of a
  transpose is entry (q, k) of its operand, and entry (q, k) of the cut at offset a is entry (q, a + k) of W; the row's
  entry (0, q) is b's entry q because the row-major position of (0, q) in a 1 x 512 array is q. So the three buffers of
  a gate are the halves of its weights and its bias as a row.
-/
import proofs.«110311_j37117107372689_1_alg».proof.Proof.Gen.KernelIdeal.Frame
import proofs.«110311_j37117107372689_1_alg».proof.Proof.LibTree
import proofs.«110311_j37117107372689_1_alg».proof.Proof.LibLayout
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg)

/-! ## The first host stretch, over any contents `W` of the buffers -/

section Host
variable (W : Valuation τ sig (Elt Ideal))

/-- The input gate's first half: its weights' first 512 positions, transposed and narrowed. -/
theorem host0_v2 : StableHlo.after hostOps0 W (Proc.devRef .tc main_v2)
    = truncf (F := Ideal) (φ := .f32) .bf16 (transpose S512x512 [1, 0] (extractStridedSlice S512x512 ![0, 0] (W (Proc.devRef .tc main_arg1)) slices_S512x1024_S512x512_0_0) transposes_S512x512_S512x512_1_0) bitsLt_bf16_f32 := by
  after_results

/-- The input gate's second half: its weights' last 512 positions, transposed and narrowed. -/
theorem host0_v5 : StableHlo.after hostOps0 W (Proc.devRef .tc main_v5)
    = truncf (F := Ideal) (φ := .f32) .bf16 (transpose S512x512 [1, 0] (extractStridedSlice S512x512 ![0, 512] (W (Proc.devRef .tc main_arg1)) slices_S512x1024_S512x512_0_512) transposes_S512x512_S512x512_1_0) bitsLt_bf16_f32 := by
  after_results

/-- The input gate's bias as a row. -/
theorem host0_v24 : StableHlo.after hostOps0 W (Proc.devRef .tc main_v24)
    = shapeCast S1x512 (W (Proc.devRef .tc main_arg2)) shapeCasts_S512_S1x512 := by
  after_results
  rfl

/-- The forget gate's first half: its weights' first 512 positions, transposed and narrowed. -/
theorem host0_v8 : StableHlo.after hostOps0 W (Proc.devRef .tc main_v8)
    = truncf (F := Ideal) (φ := .f32) .bf16 (transpose S512x512 [1, 0] (extractStridedSlice S512x512 ![0, 0] (W (Proc.devRef .tc main_arg3)) slices_S512x1024_S512x512_0_0) transposes_S512x512_S512x512_1_0) bitsLt_bf16_f32 := by
  after_results

/-- The forget gate's second half: its weights' last 512 positions, transposed and narrowed. -/
theorem host0_v11 : StableHlo.after hostOps0 W (Proc.devRef .tc main_v11)
    = truncf (F := Ideal) (φ := .f32) .bf16 (transpose S512x512 [1, 0] (extractStridedSlice S512x512 ![0, 512] (W (Proc.devRef .tc main_arg3)) slices_S512x1024_S512x512_0_512) transposes_S512x512_S512x512_1_0) bitsLt_bf16_f32 := by
  after_results

/-- The forget gate's bias as a row. -/
theorem host0_v25 : StableHlo.after hostOps0 W (Proc.devRef .tc main_v25)
    = shapeCast S1x512 (W (Proc.devRef .tc main_arg4)) shapeCasts_S512_S1x512 := by
  after_results
  rfl

/-- The output gate's first half: its weights' first 512 positions, transposed and narrowed. -/
theorem host0_v14 : StableHlo.after hostOps0 W (Proc.devRef .tc main_v14)
    = truncf (F := Ideal) (φ := .f32) .bf16 (transpose S512x512 [1, 0] (extractStridedSlice S512x512 ![0, 0] (W (Proc.devRef .tc main_arg5)) slices_S512x1024_S512x512_0_0) transposes_S512x512_S512x512_1_0) bitsLt_bf16_f32 := by
  after_results

/-- The output gate's second half: its weights' last 512 positions, transposed and narrowed. -/
theorem host0_v17 : StableHlo.after hostOps0 W (Proc.devRef .tc main_v17)
    = truncf (F := Ideal) (φ := .f32) .bf16 (transpose S512x512 [1, 0] (extractStridedSlice S512x512 ![0, 512] (W (Proc.devRef .tc main_arg5)) slices_S512x1024_S512x512_0_512) transposes_S512x512_S512x512_1_0) bitsLt_bf16_f32 := by
  after_results

/-- The output gate's bias as a row. -/
theorem host0_v26 : StableHlo.after hostOps0 W (Proc.devRef .tc main_v26)
    = shapeCast S1x512 (W (Proc.devRef .tc main_arg6)) shapeCasts_S512_S1x512 := by
  after_results
  rfl

/-- The update gate's first half: its weights' first 512 positions, transposed and narrowed. -/
theorem host0_v20 : StableHlo.after hostOps0 W (Proc.devRef .tc main_v20)
    = truncf (F := Ideal) (φ := .f32) .bf16 (transpose S512x512 [1, 0] (extractStridedSlice S512x512 ![0, 0] (W (Proc.devRef .tc main_arg7)) slices_S512x1024_S512x512_0_0) transposes_S512x512_S512x512_1_0) bitsLt_bf16_f32 := by
  after_results

/-- The update gate's second half: its weights' last 512 positions, transposed and narrowed. -/
theorem host0_v23 : StableHlo.after hostOps0 W (Proc.devRef .tc main_v23)
    = truncf (F := Ideal) (φ := .f32) .bf16 (transpose S512x512 [1, 0] (extractStridedSlice S512x512 ![0, 512] (W (Proc.devRef .tc main_arg7)) slices_S512x1024_S512x512_0_512) transposes_S512x512_S512x512_1_0) bitsLt_bf16_f32 := by
  after_results

/-- The update gate's bias as a row. -/
theorem host0_v27 : StableHlo.after hostOps0 W (Proc.devRef .tc main_v27)
    = shapeCast S1x512 (W (Proc.devRef .tc main_arg8)) shapeCasts_S512_S1x512 := by
  after_results
  rfl

end Host

/-! ## The same buffers in the run, over the launch memory -/

theorem w1_v2 (c : Dev nD) : Gen.W1 m ρ c (Proc.devRef .tc main_v2)
    = truncf (F := Ideal) (φ := .f32) .bf16 (transpose S512x512 [1, 0] (extractStridedSlice S512x512 ![0, 0] (m ((c : Thread nD τ).loc main_arg1)) slices_S512x1024_S512x512_0_0) transposes_S512x512_S512x512_1_0) bitsLt_bf16_f32 :=
  host0_v2 (Gen.W0 m ρ c)

theorem w1_v5 (c : Dev nD) : Gen.W1 m ρ c (Proc.devRef .tc main_v5)
    = truncf (F := Ideal) (φ := .f32) .bf16 (transpose S512x512 [1, 0] (extractStridedSlice S512x512 ![0, 512] (m ((c : Thread nD τ).loc main_arg1)) slices_S512x1024_S512x512_0_512) transposes_S512x512_S512x512_1_0) bitsLt_bf16_f32 :=
  host0_v5 (Gen.W0 m ρ c)

theorem w1_v24 (c : Dev nD) : Gen.W1 m ρ c (Proc.devRef .tc main_v24)
    = shapeCast S1x512 (m ((c : Thread nD τ).loc main_arg2)) shapeCasts_S512_S1x512 :=
  host0_v24 (Gen.W0 m ρ c)

theorem w1_v8 (c : Dev nD) : Gen.W1 m ρ c (Proc.devRef .tc main_v8)
    = truncf (F := Ideal) (φ := .f32) .bf16 (transpose S512x512 [1, 0] (extractStridedSlice S512x512 ![0, 0] (m ((c : Thread nD τ).loc main_arg3)) slices_S512x1024_S512x512_0_0) transposes_S512x512_S512x512_1_0) bitsLt_bf16_f32 :=
  host0_v8 (Gen.W0 m ρ c)

theorem w1_v11 (c : Dev nD) : Gen.W1 m ρ c (Proc.devRef .tc main_v11)
    = truncf (F := Ideal) (φ := .f32) .bf16 (transpose S512x512 [1, 0] (extractStridedSlice S512x512 ![0, 512] (m ((c : Thread nD τ).loc main_arg3)) slices_S512x1024_S512x512_0_512) transposes_S512x512_S512x512_1_0) bitsLt_bf16_f32 :=
  host0_v11 (Gen.W0 m ρ c)

theorem w1_v25 (c : Dev nD) : Gen.W1 m ρ c (Proc.devRef .tc main_v25)
    = shapeCast S1x512 (m ((c : Thread nD τ).loc main_arg4)) shapeCasts_S512_S1x512 :=
  host0_v25 (Gen.W0 m ρ c)

theorem w1_v14 (c : Dev nD) : Gen.W1 m ρ c (Proc.devRef .tc main_v14)
    = truncf (F := Ideal) (φ := .f32) .bf16 (transpose S512x512 [1, 0] (extractStridedSlice S512x512 ![0, 0] (m ((c : Thread nD τ).loc main_arg5)) slices_S512x1024_S512x512_0_0) transposes_S512x512_S512x512_1_0) bitsLt_bf16_f32 :=
  host0_v14 (Gen.W0 m ρ c)

theorem w1_v17 (c : Dev nD) : Gen.W1 m ρ c (Proc.devRef .tc main_v17)
    = truncf (F := Ideal) (φ := .f32) .bf16 (transpose S512x512 [1, 0] (extractStridedSlice S512x512 ![0, 512] (m ((c : Thread nD τ).loc main_arg5)) slices_S512x1024_S512x512_0_512) transposes_S512x512_S512x512_1_0) bitsLt_bf16_f32 :=
  host0_v17 (Gen.W0 m ρ c)

theorem w1_v26 (c : Dev nD) : Gen.W1 m ρ c (Proc.devRef .tc main_v26)
    = shapeCast S1x512 (m ((c : Thread nD τ).loc main_arg6)) shapeCasts_S512_S1x512 :=
  host0_v26 (Gen.W0 m ρ c)

theorem w1_v20 (c : Dev nD) : Gen.W1 m ρ c (Proc.devRef .tc main_v20)
    = truncf (F := Ideal) (φ := .f32) .bf16 (transpose S512x512 [1, 0] (extractStridedSlice S512x512 ![0, 0] (m ((c : Thread nD τ).loc main_arg7)) slices_S512x1024_S512x512_0_0) transposes_S512x512_S512x512_1_0) bitsLt_bf16_f32 :=
  host0_v20 (Gen.W0 m ρ c)

theorem w1_v23 (c : Dev nD) : Gen.W1 m ρ c (Proc.devRef .tc main_v23)
    = truncf (F := Ideal) (φ := .f32) .bf16 (transpose S512x512 [1, 0] (extractStridedSlice S512x512 ![0, 512] (m ((c : Thread nD τ).loc main_arg7)) slices_S512x1024_S512x512_0_512) transposes_S512x512_S512x512_1_0) bitsLt_bf16_f32 :=
  host0_v23 (Gen.W0 m ρ c)

theorem w1_v27 (c : Dev nD) : Gen.W1 m ρ c (Proc.devRef .tc main_v27)
    = shapeCast S1x512 (m ((c : Thread nD τ).loc main_arg8)) shapeCasts_S512_S1x512 :=
  host0_v27 (Gen.W0 m ρ c)

/-! ## Reading a half and a row at one entry -/

/-- Entry (k, q) of the transposed, narrowed cut of a 512 x 1024 array at column offset a is the array's entry
    (q, a + k). -/
theorem half_apply (a : Nat) (Wt : Vec Ideal S512x1024 .f32) (hs : S512x1024.Slices ![0, a] S512x512)
    (ht : S512x512.Transposes [1, 0] S512x512) (hlt : FTy.bf16.bits < FTy.f32.bits) (k q : Fin 512) (j : Fin 1024)
    (hj : j.val = a + k.val) :
    truncf (F := Ideal) (φ := .f32) .bf16 (transpose S512x512 [1, 0] (extractStridedSlice S512x512 ![0, a] Wt hs) ht) hlt (ix2 k q)
      = Wt (ix2 q j) := by
  rw [truncf_apply,
    transpose_apply [1, 0] (extractStridedSlice S512x512 ![0, a] Wt hs) ht (ix2 k q) (ix2 q k) (fun b => by
      match b with
      | ⟨0, _⟩ => rfl
      | ⟨1, _⟩ => rfl),
    extractStridedSlice_apply ![0, a] Wt hs (ix2 q k) (ix2 q j) (fun b => by
      match b with
      | ⟨0, _⟩ =>
        show q.val = 0 + q.val
        omega
      | ⟨1, _⟩ => exact hj)]

/-- Entry (0, q) of a vector of 512 entries reshaped to a 1 x 512 row is the vector's entry q. -/
theorem row_apply (b : Vec Ideal S512 .f32) (h : S512.ShapeCasts S1x512) (q : Fin 512) :
    shapeCast S1x512 b h (ix2 (0 : Fin 1) q) = b (ix1 q) :=
  shapeCast_apply b h (ix2 (0 : Fin 1) q) (ix1 q) (by
    rw [Shape.rowMajor_val_two, Shape.rowMajor_val_one]
    show q.val = 0 * 512 + q.val
    omega)

/-- The two transposed, narrowed cuts of a gate's weights and its bias reshaped to a row are the halves of the weights
    and the bias as a row. -/
theorem halves_mk (Wt : Vec Ideal S512x1024 .f32) (b : Vec Ideal S512 .f32) :
    Cert.Tree.Halves Wt b
      (truncf (F := Ideal) (φ := .f32) .bf16 (transpose S512x512 [1, 0] (extractStridedSlice S512x512 ![0, 0] (Wt) slices_S512x1024_S512x512_0_0) transposes_S512x512_S512x512_1_0) bitsLt_bf16_f32)
      (truncf (F := Ideal) (φ := .f32) .bf16 (transpose S512x512 [1, 0] (extractStridedSlice S512x512 ![0, 512] (Wt) slices_S512x1024_S512x512_0_512) transposes_S512x512_S512x512_1_0) bitsLt_bf16_f32)
      (shapeCast S1x512 (b) shapeCasts_S512_S1x512) :=
  ⟨fun k q => half_apply 0 Wt _ _ _ k q _ (Nat.zero_add _).symm, fun k q => half_apply 512 Wt _ _ _ k q _ rfl,
    fun q => row_apply b _ q⟩

/-! ## The four gates -/

/-- The input gate. -/
theorem halves_i (c : Dev nD) : Cert.Tree.Halves (m ((c : Thread nD τ).loc main_arg1)) (m ((c : Thread nD τ).loc main_arg2))
    (Gen.W1 m ρ c (Proc.devRef .tc main_v2)) (Gen.W1 m ρ c (Proc.devRef .tc main_v5))
    (Gen.W1 m ρ c (Proc.devRef .tc main_v24)) := by
  rw [w1_v2 m ρ c, w1_v5 m ρ c, w1_v24 m ρ c]
  exact halves_mk _ _

/-- The forget gate. -/
theorem halves_f (c : Dev nD) : Cert.Tree.Halves (m ((c : Thread nD τ).loc main_arg3)) (m ((c : Thread nD τ).loc main_arg4))
    (Gen.W1 m ρ c (Proc.devRef .tc main_v8)) (Gen.W1 m ρ c (Proc.devRef .tc main_v11))
    (Gen.W1 m ρ c (Proc.devRef .tc main_v25)) := by
  rw [w1_v8 m ρ c, w1_v11 m ρ c, w1_v25 m ρ c]
  exact halves_mk _ _

/-- The output gate. -/
theorem halves_o (c : Dev nD) : Cert.Tree.Halves (m ((c : Thread nD τ).loc main_arg5)) (m ((c : Thread nD τ).loc main_arg6))
    (Gen.W1 m ρ c (Proc.devRef .tc main_v14)) (Gen.W1 m ρ c (Proc.devRef .tc main_v17))
    (Gen.W1 m ρ c (Proc.devRef .tc main_v26)) := by
  rw [w1_v14 m ρ c, w1_v17 m ρ c, w1_v26 m ρ c]
  exact halves_mk _ _

/-- The update gate. -/
theorem halves_u (c : Dev nD) : Cert.Tree.Halves (m ((c : Thread nD τ).loc main_arg7)) (m ((c : Thread nD τ).loc main_arg8))
    (Gen.W1 m ρ c (Proc.devRef .tc main_v20)) (Gen.W1 m ρ c (Proc.devRef .tc main_v23))
    (Gen.W1 m ρ c (Proc.devRef .tc main_v27)) := by
  rw [w1_v20 m ρ c, w1_v23 m ρ c, w1_v27 m ρ c]
  exact halves_mk _ _

end Cert.KernelIdeal.Chain

end
-- ==== Proof.BridgeBase.lean ====
/-
  The two programs side by side at one device. The reference's nine arguments are the kernel's (`Agree`), and the
  kernel's split weights, as its first host stretch leaves them, are the halves of the reference's weights: each half
  laid out position by column and each bias as a row.
-/
import proofs.«110311_j37117107372689_1_alg».proof.Proof.Gen.KernelIdeal.Frame
import proofs.«110311_j37117107372689_1_alg».proof.Proof.Gen.ReferenceIdeal
import proofs.«110311_j37117107372689_1_alg».proof.Proof.KWeights
import proofs.«110311_j37117107372689_1_alg».proof.Proof.LibTree

set_option maxRecDepth 16384

noncomputable section

namespace Cert.Bridge

open Idealize.ShloMosaic Idealize.ShloMosaic.TcCoe

variable (m : (ℓ : Loc Cert.KernelIdeal.nD Cert.KernelIdeal.τ Cert.KernelIdeal.sig) → Buf (Elt Ideal) ℓ)
  (ρ : Dev Cert.KernelIdeal.nD → PrngReg)
  (V0 : Valuation Cert.ReferenceIdeal.τ Cert.ReferenceIdeal.sig (Elt Ideal))
  (c : Dev Cert.KernelIdeal.nD)

/-- The reference's nine arguments are the kernel's at device c. -/
structure Agree : Prop where
  a0 : V0 (Proc.devRef .tc Cert.ReferenceIdeal.main_arg0)
    = m ((c : Thread Cert.KernelIdeal.nD Cert.KernelIdeal.τ).loc Cert.KernelIdeal.main_arg0)
  a1 : V0 (Proc.devRef .tc Cert.ReferenceIdeal.main_arg1)
    = m ((c : Thread Cert.KernelIdeal.nD Cert.KernelIdeal.τ).loc Cert.KernelIdeal.main_arg1)
  a2 : V0 (Proc.devRef .tc Cert.ReferenceIdeal.main_arg2)
    = m ((c : Thread Cert.KernelIdeal.nD Cert.KernelIdeal.τ).loc Cert.KernelIdeal.main_arg2)
  a3 : V0 (Proc.devRef .tc Cert.ReferenceIdeal.main_arg3)
    = m ((c : Thread Cert.KernelIdeal.nD Cert.KernelIdeal.τ).loc Cert.KernelIdeal.main_arg3)
  a4 : V0 (Proc.devRef .tc Cert.ReferenceIdeal.main_arg4)
    = m ((c : Thread Cert.KernelIdeal.nD Cert.KernelIdeal.τ).loc Cert.KernelIdeal.main_arg4)
  a5 : V0 (Proc.devRef .tc Cert.ReferenceIdeal.main_arg5)
    = m ((c : Thread Cert.KernelIdeal.nD Cert.KernelIdeal.τ).loc Cert.KernelIdeal.main_arg5)
  a6 : V0 (Proc.devRef .tc Cert.ReferenceIdeal.main_arg6)
    = m ((c : Thread Cert.KernelIdeal.nD Cert.KernelIdeal.τ).loc Cert.KernelIdeal.main_arg6)
  a7 : V0 (Proc.devRef .tc Cert.ReferenceIdeal.main_arg7)
    = m ((c : Thread Cert.KernelIdeal.nD Cert.KernelIdeal.τ).loc Cert.KernelIdeal.main_arg7)
  a8 : V0 (Proc.devRef .tc Cert.ReferenceIdeal.main_arg8)
    = m ((c : Thread Cert.KernelIdeal.nD Cert.KernelIdeal.τ).loc Cert.KernelIdeal.main_arg8)

variable {m V0 c}

/-- The input gate's halves, over the reference's weights. -/
theorem halves_i' (hA : Agree m V0 c) :
    Cert.Tree.Halves (V0 (Proc.devRef .tc Cert.ReferenceIdeal.main_arg1)) (V0 (Proc.devRef .tc Cert.ReferenceIdeal.main_arg2))
      (Cert.KernelIdeal.Gen.W1 m ρ c (Proc.devRef .tc Cert.KernelIdeal.main_v2))
      (Cert.KernelIdeal.Gen.W1 m ρ c (Proc.devRef .tc Cert.KernelIdeal.main_v5))
      (Cert.KernelIdeal.Gen.W1 m ρ c (Proc.devRef .tc Cert.KernelIdeal.main_v24)) := by
  rw [hA.a1, hA.a2]
  exact Cert.KernelIdeal.Chain.halves_i m ρ c

/-- The forget gate's halves, over the reference's weights. -/
theorem halves_f' (hA : Agree m V0 c) :
    Cert.Tree.Halves (V0 (Proc.devRef .tc Cert.ReferenceIdeal.main_arg3)) (V0 (Proc.devRef .tc Cert.ReferenceIdeal.main_arg4))
      (Cert.KernelIdeal.Gen.W1 m ρ c (Proc.devRef .tc Cert.KernelIdeal.main_v8))
      (Cert.KernelIdeal.Gen.W1 m ρ c (Proc.devRef .tc Cert.KernelIdeal.main_v11))
      (Cert.KernelIdeal.Gen.W1 m ρ c (Proc.devRef .tc Cert.KernelIdeal.main_v25)) := by
  rw [hA.a3, hA.a4]
  exact Cert.KernelIdeal.Chain.halves_f m ρ c

/-- The output gate's halves, over the reference's weights. -/
theorem halves_o' (hA : Agree m V0 c) :
    Cert.Tree.Halves (V0 (Proc.devRef .tc Cert.ReferenceIdeal.main_arg5)) (V0 (Proc.devRef .tc Cert.ReferenceIdeal.main_arg6))
      (Cert.KernelIdeal.Gen.W1 m ρ c (Proc.devRef .tc Cert.KernelIdeal.main_v14))
      (Cert.KernelIdeal.Gen.W1 m ρ c (Proc.devRef .tc Cert.KernelIdeal.main_v17))
      (Cert.KernelIdeal.Gen.W1 m ρ c (Proc.devRef .tc Cert.KernelIdeal.main_v26)) := by
  rw [hA.a5, hA.a6]
  exact Cert.KernelIdeal.Chain.halves_o m ρ c

/-- The update gate's halves, over the reference's weights. -/
theorem halves_u' (hA : Agree m V0 c) :
    Cert.Tree.Halves (V0 (Proc.devRef .tc Cert.ReferenceIdeal.main_arg7)) (V0 (Proc.devRef .tc Cert.ReferenceIdeal.main_arg8))
      (Cert.KernelIdeal.Gen.W1 m ρ c (Proc.devRef .tc Cert.KernelIdeal.main_v20))
      (Cert.KernelIdeal.Gen.W1 m ρ c (Proc.devRef .tc Cert.KernelIdeal.main_v23))
      (Cert.KernelIdeal.Gen.W1 m ρ c (Proc.devRef .tc Cert.KernelIdeal.main_v27)) := by
  rw [hA.a7, hA.a8]
  exact Cert.KernelIdeal.Chain.halves_u m ρ c

end Cert.Bridge

end
-- ==== Proof.KKeep.lean ====
/-
  The run's boundaries at the buffers nobody rewrites: the node-feature argument, and the twelve weight and bias
  buffers the first host stretch prepares. Every level's region reads the same weights, so each level's equation needs
  them at that region's entry expressed as what the first stretch left.
-/
import proofs.«110311_j37117107372689_1_alg».proof.Proof.Gen.KernelIdeal.Frame
import Idealize.ShloMosaic.Lib.StableHlo.Run
import Idealize.ShloMosaic.Lib.Pipeline.Cells
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # Buffers that persist through the run

The twelve weight and bias buffers are written once, by the first host stretch, and the node-feature argument is never
written. No later host stretch has one of them among its results; a region either does not own the buffer as one of
its arrays, and then its exit leaves it as entered, or owns it as an INPUT array, which the pipeline never writes back,
so its contents after the last grid point are still the entry contents. Each lemma goes one level back: across the
host stretch, then across the region before it. -/

/-- Closes `after ops W b = X` from `rest : W b = X` when no operation of the literal list `ops` writes `b`:
    the list's results are told apart from `b` one by one, as references. -/
local macro "keep_via " ops:ident rest:term : tactic => `(tactic| (
  refine Eq.trans (StableHlo.after_of_forall_not_mem _ _ (List.forall_iff_forall_mem.mp ?_)) $rest
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## A region leaves its input arrays as it found them -/
theorem thru_in0 (c : Dev nD) (w : Fin cfg0.W) (hin : (cfg0.win w).isOut = false) :
    Gen.W2 m ρ c (Proc.devRef .tc (Pipeline.arrRef spec0 w)) = Gen.W1 m ρ c (Proc.devRef .tc (Pipeline.arrRef spec0 w)) :=
  (Gen.W2_arr m ρ c w).trans (((Gen.dat0 (Gen.V1 m ρ) c).arrAt_in w hin cfg0.N).trans (Gen.A_eq0 (Gen.V1 m ρ) c w))
theorem thru_in1 (c : Dev nD) (w : Fin cfg1.W) (hin : (cfg1.win w).isOut = false) :
    Gen.W4 m ρ c (Proc.devRef .tc (Pipeline.arrRef spec1 w)) = Gen.W3 m ρ c (Proc.devRef .tc (Pipeline.arrRef spec1 w)) :=
  (Gen.W4_arr m ρ c w).trans (((Gen.dat1 (Gen.V3 m ρ) c).arrAt_in w hin cfg1.N).trans (Gen.A_eq1 (Gen.V3 m ρ) c w))
theorem thru_in2 (c : Dev nD) (w : Fin cfg2.W) (hin : (cfg2.win w).isOut = false) :
    Gen.W6 m ρ c (Proc.devRef .tc (Pipeline.arrRef spec2 w)) = Gen.W5 m ρ c (Proc.devRef .tc (Pipeline.arrRef spec2 w)) :=
  (Gen.W6_arr m ρ c w).trans (((Gen.dat2 (Gen.V5 m ρ) c).arrAt_in w hin cfg2.N).trans (Gen.A_eq2 (Gen.V5 m ρ) c w))
theorem thru_in3 (c : Dev nD) (w : Fin cfg3.W) (hin : (cfg3.win w).isOut = false) :
    Gen.W8 m ρ c (Proc.devRef .tc (Pipeline.arrRef spec3 w)) = Gen.W7 m ρ c (Proc.devRef .tc (Pipeline.arrRef spec3 w)) :=
  (Gen.W8_arr m ρ c w).trans (((Gen.dat3 (Gen.V7 m ρ) c).arrAt_in w hin cfg3.N).trans (Gen.A_eq3 (Gen.V7 m ρ) c w))
theorem thru_in4 (c : Dev nD) (w : Fin cfg4.W) (hin : (cfg4.win w).isOut = false) :
    Gen.W10 m ρ c (Proc.devRef .tc (Pipeline.arrRef spec4 w)) = Gen.W9 m ρ c (Proc.devRef .tc (Pipeline.arrRef spec4 w)) :=
  (Gen.W10_arr m ρ c w).trans (((Gen.dat4 (Gen.V9 m ρ) c).arrAt_in w hin cfg4.N).trans (Gen.A_eq4 (Gen.V9 m ρ) c w))
theorem thru_in5 (c : Dev nD) (w : Fin cfg5.W) (hin : (cfg5.win w).isOut = false) :
    Gen.W12 m ρ c (Proc.devRef .tc (Pipeline.arrRef spec5 w)) = Gen.W11 m ρ c (Proc.devRef .tc (Pipeline.arrRef spec5 w)) :=
  (Gen.W12_arr m ρ c w).trans (((Gen.dat5 (Gen.V11 m ρ) c).arrAt_in w hin cfg5.N).trans (Gen.A_eq5 (Gen.V11 m ρ) c w))
theorem thru_in6 (c : Dev nD) (w : Fin cfg6.W) (hin : (cfg6.win w).isOut = false) :
    Gen.W14 m ρ c (Proc.devRef .tc (Pipeline.arrRef spec6 w)) = Gen.W13 m ρ c (Proc.devRef .tc (Pipeline.arrRef spec6 w)) :=
  (Gen.W14_arr m ρ c w).trans (((Gen.dat6 (Gen.V13 m ρ) c).arrAt_in w hin cfg6.N).trans (Gen.A_eq6 (Gen.V13 m ρ) c w))
theorem thru_in7 (c : Dev nD) (w : Fin cfg7.W) (hin : (cfg7.win w).isOut = false) :
    Gen.W16 m ρ c (Proc.devRef .tc (Pipeline.arrRef spec7 w)) = Gen.W15 m ρ c (Proc.devRef .tc (Pipeline.arrRef spec7 w)) :=
  (Gen.W16_arr m ρ c w).trans (((Gen.dat7 (Gen.V15 m ρ) c).arrAt_in w hin cfg7.N).trans (Gen.A_eq7 (Gen.V15 m ρ) c w))
theorem thru_in8 (c : Dev nD) (w : Fin cfg8.W) (hin : (cfg8.win w).isOut = false) :
    Gen.W18 m ρ c (Proc.devRef .tc (Pipeline.arrRef spec8 w)) = Gen.W17 m ρ c (Proc.devRef .tc (Pipeline.arrRef spec8 w)) :=
  (Gen.W18_arr m ρ c w).trans (((Gen.dat8 (Gen.V17 m ρ) c).arrAt_in w hin cfg8.N).trans (Gen.A_eq8 (Gen.V17 m ρ) c w))
theorem thru_in9 (c : Dev nD) (w : Fin cfg9.W) (hin : (cfg9.win w).isOut = false) :
    Gen.W20 m ρ c (Proc.devRef .tc (Pipeline.arrRef spec9 w)) = Gen.W19 m ρ c (Proc.devRef .tc (Pipeline.arrRef spec9 w)) :=
  (Gen.W20_arr m ρ c w).trans (((Gen.dat9 (Gen.V19 m ρ) c).arrAt_in w hin cfg9.N).trans (Gen.A_eq9 (Gen.V19 m ρ) c w))
theorem thru_in10 (c : Dev nD) (w : Fin cfg10.W) (hin : (cfg10.win w).isOut = false) :
    Gen.W22 m ρ c (Proc.devRef .tc (Pipeline.arrRef spec10 w)) = Gen.W21 m ρ c (Proc.devRef .tc (Pipeline.arrRef spec10 w)) :=
  (Gen.W22_arr m ρ c w).trans (((Gen.dat10 (Gen.V21 m ρ) c).arrAt_in w hin cfg10.N).trans (Gen.A_eq10 (Gen.V21 m ρ) c w))
theorem thru_in11 (c : Dev nD) (w : Fin cfg11.W) (hin : (cfg11.win w).isOut = false) :
    Gen.W24 m ρ c (Proc.devRef .tc (Pipeline.arrRef spec11 w)) = Gen.W23 m ρ c (Proc.devRef .tc (Pipeline.arrRef spec11 w)) :=
  (Gen.W24_arr m ρ c w).trans (((Gen.dat11 (Gen.V23 m ρ) c).arrAt_in w hin cfg11.N).trans (Gen.A_eq11 (Gen.V23 m ρ) c w))
theorem thru_in12 (c : Dev nD) (w : Fin cfg12.W) (hin : (cfg12.win w).isOut = false) :
    Gen.W26 m ρ c (Proc.devRef .tc (Pipeline.arrRef spec12 w)) = Gen.W25 m ρ c (Proc.devRef .tc (Pipeline.arrRef spec12 w)) :=
  (Gen.W26_arr m ρ c w).trans (((Gen.dat12 (Gen.V25 m ρ) c).arrAt_in w hin cfg12.N).trans (Gen.A_eq12 (Gen.V25 m ρ) c w))
theorem thru_in13 (c : Dev nD) (w : Fin cfg13.W) (hin : (cfg13.win w).isOut = false) :
    Gen.W28 m ρ c (Proc.devRef .tc (Pipeline.arrRef spec13 w)) = Gen.W27 m ρ c (Proc.devRef .tc (Pipeline.arrRef spec13 w)) :=
  (Gen.W28_arr m ρ c w).trans (((Gen.dat13 (Gen.V27 m ρ) c).arrAt_in w hin cfg13.N).trans (Gen.A_eq13 (Gen.V27 m ρ) c w))

/-! ## The node features: at every region's exit the argument holds its launch contents (no region owns it) -/

theorem arg0_0 (c : Dev nD) : Gen.W0 m ρ c (Proc.devRef .tc main_arg0) = m ((c : Thread nD τ).loc main_arg0) := rfl
theorem arg0_1 (c : Dev nD) : Gen.W2 m ρ c (Proc.devRef .tc main_arg0) = m ((c : Thread nD τ).loc main_arg0) :=
  (Gen.W2_of_ne m ρ c main_arg0 (by decide)).trans (by keep_via hostOps0 (arg0_0 m ρ c))
theorem arg0_2 (c : Dev nD) : Gen.W4 m ρ c (Proc.devRef .tc main_arg0) = m ((c : Thread nD τ).loc main_arg0) :=
  (Gen.W4_of_ne m ρ c main_arg0 (by decide)).trans (by keep_via hostOps1 (arg0_1 m ρ c))
theorem arg0_3 (c : Dev nD) : Gen.W6 m ρ c (Proc.devRef .tc main_arg0) = m ((c : Thread nD τ).loc main_arg0) :=
  (Gen.W6_of_ne m ρ c main_arg0 (by decide)).trans (by keep_via hostOps2 (arg0_2 m ρ c))
theorem arg0_4 (c : Dev nD) : Gen.W8 m ρ c (Proc.devRef .tc main_arg0) = m ((c : Thread nD τ).loc main_arg0) :=
  (Gen.W8_of_ne m ρ c main_arg0 (by decide)).trans (by keep_via hostOps3 (arg0_3 m ρ c))
theorem arg0_5 (c : Dev nD) : Gen.W10 m ρ c (Proc.devRef .tc main_arg0) = m ((c : Thread nD τ).loc main_arg0) :=
  (Gen.W10_of_ne m ρ c main_arg0 (by decide)).trans (by keep_via hostOps4 (arg0_4 m ρ c))
theorem arg0_6 (c : Dev nD) : Gen.W12 m ρ c (Proc.devRef .tc main_arg0) = m ((c : Thread nD τ).loc main_arg0) :=
  (Gen.W12_of_ne m ρ c main_arg0 (by decide)).trans (by keep_via hostOps5 (arg0_5 m ρ c))
theorem arg0_7 (c : Dev nD) : Gen.W14 m ρ c (Proc.devRef .tc main_arg0) = m ((c : Thread nD τ).loc main_arg0) :=
  (Gen.W14_of_ne m ρ c main_arg0 (by decide)).trans (by keep_via hostOps6 (arg0_6 m ρ c))
theorem arg0_8 (c : Dev nD) : Gen.W16 m ρ c (Proc.devRef .tc main_arg0) = m ((c : Thread nD τ).loc main_arg0) :=
  (Gen.W16_of_ne m ρ c main_arg0 (by decide)).trans (by keep_via hostOps7 (arg0_7 m ρ c))
theorem arg0_9 (c : Dev nD) : Gen.W18 m ρ c (Proc.devRef .tc main_arg0) = m ((c : Thread nD τ).loc main_arg0) :=
  (Gen.W18_of_ne m ρ c main_arg0 (by decide)).trans (by keep_via hostOps8 (arg0_8 m ρ c))
theorem arg0_10 (c : Dev nD) : Gen.W20 m ρ c (Proc.devRef .tc main_arg0) = m ((c : Thread nD τ).loc main_arg0) :=
  (Gen.W20_of_ne m ρ c main_arg0 (by decide)).trans (by keep_via hostOps9 (arg0_9 m ρ c))
theorem arg0_11 (c : Dev nD) : Gen.W22 m ρ c (Proc.devRef .tc main_arg0) = m ((c : Thread nD τ).loc main_arg0) :=
  (Gen.W22_of_ne m ρ c main_arg0 (by decide)).trans (by keep_via hostOps10 (arg0_10 m ρ c))
theorem arg0_12 (c : Dev nD) : Gen.W24 m ρ c (Proc.devRef .tc main_arg0) = m ((c : Thread nD τ).loc main_arg0) :=
  (Gen.W24_of_ne m ρ c main_arg0 (by decide)).trans (by keep_via hostOps11 (arg0_11 m ρ c))
theorem arg0_13 (c : Dev nD) : Gen.W26 m ρ c (Proc.devRef .tc main_arg0) = m ((c : Thread nD τ).loc main_arg0) :=
  (Gen.W26_of_ne m ρ c main_arg0 (by decide)).trans (by keep_via hostOps12 (arg0_12 m ρ c))
theorem arg0_14 (c : Dev nD) : Gen.W28 m ρ c (Proc.devRef .tc main_arg0) = m ((c : Thread nD τ).loc main_arg0) :=
  (Gen.W28_of_ne m ρ c main_arg0 (by decide)).trans (by keep_via hostOps13 (arg0_13 m ρ c))
theorem arg0_15 (c : Dev nD) : Gen.W30 m ρ c (Proc.devRef .tc main_arg0) = m ((c : Thread nD τ).loc main_arg0) :=
  (Gen.W30_of_ne m ρ c main_arg0 (by decide)).trans (by keep_via hostOps14 (arg0_14 m ρ c))

/-! ## The weights and biases: at region k's entry each holds what the first host stretch left -/

theorem keep1_main_v2 (c : Dev nD) : Gen.W3 m ρ c (Proc.devRef .tc main_v2) = Gen.W1 m ρ c (Proc.devRef .tc main_v2) := by
  keep_via hostOps1 (thru_in0 m ρ c 1 rfl)
theorem keep1_main_v5 (c : Dev nD) : Gen.W3 m ρ c (Proc.devRef .tc main_v5) = Gen.W1 m ρ c (Proc.devRef .tc main_v5) := by
  keep_via hostOps1 (Gen.W2_of_ne m ρ c main_v5 (by decide))
theorem keep1_main_v8 (c : Dev nD) : Gen.W3 m ρ c (Proc.devRef .tc main_v8) = Gen.W1 m ρ c (Proc.devRef .tc main_v8) := by
  keep_via hostOps1 (Gen.W2_of_ne m ρ c main_v8 (by decide))
theorem keep1_main_v11 (c : Dev nD) : Gen.W3 m ρ c (Proc.devRef .tc main_v11) = Gen.W1 m ρ c (Proc.devRef .tc main_v11) := by
  keep_via hostOps1 (Gen.W2_of_ne m ρ c main_v11 (by decide))
theorem keep1_main_v14 (c : Dev nD) : Gen.W3 m ρ c (Proc.devRef .tc main_v14) = Gen.W1 m ρ c (Proc.devRef .tc main_v14) := by
  keep_via hostOps1 (thru_in0 m ρ c 2 rfl)
theorem keep1_main_v17 (c : Dev nD) : Gen.W3 m ρ c (Proc.devRef .tc main_v17) = Gen.W1 m ρ c (Proc.devRef .tc main_v17) := by
  keep_via hostOps1 (Gen.W2_of_ne m ρ c main_v17 (by decide))
theorem keep1_main_v20 (c : Dev nD) : Gen.W3 m ρ c (Proc.devRef .tc main_v20) = Gen.W1 m ρ c (Proc.devRef .tc main_v20) := by
  keep_via hostOps1 (thru_in0 m ρ c 3 rfl)
theorem keep1_main_v23 (c : Dev nD) : Gen.W3 m ρ c (Proc.devRef .tc main_v23) = Gen.W1 m ρ c (Proc.devRef .tc main_v23) := by
  keep_via hostOps1 (Gen.W2_of_ne m ρ c main_v23 (by decide))
theorem keep1_main_v24 (c : Dev nD) : Gen.W3 m ρ c (Proc.devRef .tc main_v24) = Gen.W1 m ρ c (Proc.devRef .tc main_v24) := by
  keep_via hostOps1 (thru_in0 m ρ c 4 rfl)
theorem keep1_main_v25 (c : Dev nD) : Gen.W3 m ρ c (Proc.devRef .tc main_v25) = Gen.W1 m ρ c (Proc.devRef .tc main_v25) := by
  keep_via hostOps1 (Gen.W2_of_ne m ρ c main_v25 (by decide))
theorem keep1_main_v26 (c : Dev nD) : Gen.W3 m ρ c (Proc.devRef .tc main_v26) = Gen.W1 m ρ c (Proc.devRef .tc main_v26) := by
  keep_via hostOps1 (thru_in0 m ρ c 5 rfl)
theorem keep1_main_v27 (c : Dev nD) : Gen.W3 m ρ c (Proc.devRef .tc main_v27) = Gen.W1 m ρ c (Proc.devRef .tc main_v27) := by
  keep_via hostOps1 (thru_in0 m ρ c 6 rfl)

theorem keep2_main_v2 (c : Dev nD) : Gen.W5 m ρ c (Proc.devRef .tc main_v2) = Gen.W1 m ρ c (Proc.devRef .tc main_v2) := by
  keep_via hostOps2 ((thru_in1 m ρ c 5 rfl).trans (keep1_main_v2 m ρ c))
theorem keep2_main_v5 (c : Dev nD) : Gen.W5 m ρ c (Proc.devRef .tc main_v5) = Gen.W1 m ρ c (Proc.devRef .tc main_v5) := by
  keep_via hostOps2 ((thru_in1 m ρ c 6 rfl).trans (keep1_main_v5 m ρ c))
theorem keep2_main_v8 (c : Dev nD) : Gen.W5 m ρ c (Proc.devRef .tc main_v8) = Gen.W1 m ρ c (Proc.devRef .tc main_v8) := by
  keep_via hostOps2 ((thru_in1 m ρ c 7 rfl).trans (keep1_main_v8 m ρ c))
theorem keep2_main_v11 (c : Dev nD) : Gen.W5 m ρ c (Proc.devRef .tc main_v11) = Gen.W1 m ρ c (Proc.devRef .tc main_v11) := by
  keep_via hostOps2 ((thru_in1 m ρ c 8 rfl).trans (keep1_main_v11 m ρ c))
theorem keep2_main_v14 (c : Dev nD) : Gen.W5 m ρ c (Proc.devRef .tc main_v14) = Gen.W1 m ρ c (Proc.devRef .tc main_v14) := by
  keep_via hostOps2 ((thru_in1 m ρ c 9 rfl).trans (keep1_main_v14 m ρ c))
theorem keep2_main_v17 (c : Dev nD) : Gen.W5 m ρ c (Proc.devRef .tc main_v17) = Gen.W1 m ρ c (Proc.devRef .tc main_v17) := by
  keep_via hostOps2 ((thru_in1 m ρ c 10 rfl).trans (keep1_main_v17 m ρ c))
theorem keep2_main_v20 (c : Dev nD) : Gen.W5 m ρ c (Proc.devRef .tc main_v20) = Gen.W1 m ρ c (Proc.devRef .tc main_v20) := by
  keep_via hostOps2 ((thru_in1 m ρ c 11 rfl).trans (keep1_main_v20 m ρ c))
theorem keep2_main_v23 (c : Dev nD) : Gen.W5 m ρ c (Proc.devRef .tc main_v23) = Gen.W1 m ρ c (Proc.devRef .tc main_v23) := by
  keep_via hostOps2 ((thru_in1 m ρ c 12 rfl).trans (keep1_main_v23 m ρ c))
theorem keep2_main_v24 (c : Dev nD) : Gen.W5 m ρ c (Proc.devRef .tc main_v24) = Gen.W1 m ρ c (Proc.devRef .tc main_v24) := by
  keep_via hostOps2 ((thru_in1 m ρ c 13 rfl).trans (keep1_main_v24 m ρ c))
theorem keep2_main_v25 (c : Dev nD) : Gen.W5 m ρ c (Proc.devRef .tc main_v25) = Gen.W1 m ρ c (Proc.devRef .tc main_v25) := by
  keep_via hostOps2 ((thru_in1 m ρ c 14 rfl).trans (keep1_main_v25 m ρ c))
theorem keep2_main_v26 (c : Dev nD) : Gen.W5 m ρ c (Proc.devRef .tc main_v26) = Gen.W1 m ρ c (Proc.devRef .tc main_v26) := by
  keep_via hostOps2 ((thru_in1 m ρ c 15 rfl).trans (keep1_main_v26 m ρ c))
theorem keep2_main_v27 (c : Dev nD) : Gen.W5 m ρ c (Proc.devRef .tc main_v27) = Gen.W1 m ρ c (Proc.devRef .tc main_v27) := by
  keep_via hostOps2 ((thru_in1 m ρ c 16 rfl).trans (keep1_main_v27 m ρ c))

theorem keep3_main_v2 (c : Dev nD) : Gen.W7 m ρ c (Proc.devRef .tc main_v2) = Gen.W1 m ρ c (Proc.devRef .tc main_v2) := by
  keep_via hostOps3 ((thru_in2 m ρ c 5 rfl).trans (keep2_main_v2 m ρ c))
theorem keep3_main_v5 (c : Dev nD) : Gen.W7 m ρ c (Proc.devRef .tc main_v5) = Gen.W1 m ρ c (Proc.devRef .tc main_v5) := by
  keep_via hostOps3 ((thru_in2 m ρ c 6 rfl).trans (keep2_main_v5 m ρ c))
theorem keep3_main_v8 (c : Dev nD) : Gen.W7 m ρ c (Proc.devRef .tc main_v8) = Gen.W1 m ρ c (Proc.devRef .tc main_v8) := by
  keep_via hostOps3 ((thru_in2 m ρ c 7 rfl).trans (keep2_main_v8 m ρ c))
theorem keep3_main_v11 (c : Dev nD) : Gen.W7 m ρ c (Proc.devRef .tc main_v11) = Gen.W1 m ρ c (Proc.devRef .tc main_v11) := by
  keep_via hostOps3 ((thru_in2 m ρ c 8 rfl).trans (keep2_main_v11 m ρ c))
theorem keep3_main_v14 (c : Dev nD) : Gen.W7 m ρ c (Proc.devRef .tc main_v14) = Gen.W1 m ρ c (Proc.devRef .tc main_v14) := by
  keep_via hostOps3 ((thru_in2 m ρ c 9 rfl).trans (keep2_main_v14 m ρ c))
theorem keep3_main_v17 (c : Dev nD) : Gen.W7 m ρ c (Proc.devRef .tc main_v17) = Gen.W1 m ρ c (Proc.devRef .tc main_v17) := by
  keep_via hostOps3 ((thru_in2 m ρ c 10 rfl).trans (keep2_main_v17 m ρ c))
theorem keep3_main_v20 (c : Dev nD) : Gen.W7 m ρ c (Proc.devRef .tc main_v20) = Gen.W1 m ρ c (Proc.devRef .tc main_v20) := by
  keep_via hostOps3 ((thru_in2 m ρ c 11 rfl).trans (keep2_main_v20 m ρ c))
theorem keep3_main_v23 (c : Dev nD) : Gen.W7 m ρ c (Proc.devRef .tc main_v23) = Gen.W1 m ρ c (Proc.devRef .tc main_v23) := by
  keep_via hostOps3 ((thru_in2 m ρ c 12 rfl).trans (keep2_main_v23 m ρ c))
theorem keep3_main_v24 (c : Dev nD) : Gen.W7 m ρ c (Proc.devRef .tc main_v24) = Gen.W1 m ρ c (Proc.devRef .tc main_v24) := by
  keep_via hostOps3 ((thru_in2 m ρ c 13 rfl).trans (keep2_main_v24 m ρ c))
theorem keep3_main_v25 (c : Dev nD) : Gen.W7 m ρ c (Proc.devRef .tc main_v25) = Gen.W1 m ρ c (Proc.devRef .tc main_v25) := by
  keep_via hostOps3 ((thru_in2 m ρ c 14 rfl).trans (keep2_main_v25 m ρ c))
theorem keep3_main_v26 (c : Dev nD) : Gen.W7 m ρ c (Proc.devRef .tc main_v26) = Gen.W1 m ρ c (Proc.devRef .tc main_v26) := by
  keep_via hostOps3 ((thru_in2 m ρ c 15 rfl).trans (keep2_main_v26 m ρ c))
theorem keep3_main_v27 (c : Dev nD) : Gen.W7 m ρ c (Proc.devRef .tc main_v27) = Gen.W1 m ρ c (Proc.devRef .tc main_v27) := by
  keep_via hostOps3 ((thru_in2 m ρ c 16 rfl).trans (keep2_main_v27 m ρ c))

theorem keep4_main_v2 (c : Dev nD) : Gen.W9 m ρ c (Proc.devRef .tc main_v2) = Gen.W1 m ρ c (Proc.devRef .tc main_v2) := by
  keep_via hostOps4 ((thru_in3 m ρ c 5 rfl).trans (keep3_main_v2 m ρ c))
theorem keep4_main_v5 (c : Dev nD) : Gen.W9 m ρ c (Proc.devRef .tc main_v5) = Gen.W1 m ρ c (Proc.devRef .tc main_v5) := by
  keep_via hostOps4 ((thru_in3 m ρ c 6 rfl).trans (keep3_main_v5 m ρ c))
theorem keep4_main_v8 (c : Dev nD) : Gen.W9 m ρ c (Proc.devRef .tc main_v8) = Gen.W1 m ρ c (Proc.devRef .tc main_v8) := by
  keep_via hostOps4 ((thru_in3 m ρ c 7 rfl).trans (keep3_main_v8 m ρ c))
theorem keep4_main_v11 (c : Dev nD) : Gen.W9 m ρ c (Proc.devRef .tc main_v11) = Gen.W1 m ρ c (Proc.devRef .tc main_v11) := by
  keep_via hostOps4 ((thru_in3 m ρ c 8 rfl).trans (keep3_main_v11 m ρ c))
theorem keep4_main_v14 (c : Dev nD) : Gen.W9 m ρ c (Proc.devRef .tc main_v14) = Gen.W1 m ρ c (Proc.devRef .tc main_v14) := by
  keep_via hostOps4 ((thru_in3 m ρ c 9 rfl).trans (keep3_main_v14 m ρ c))
theorem keep4_main_v17 (c : Dev nD) : Gen.W9 m ρ c (Proc.devRef .tc main_v17) = Gen.W1 m ρ c (Proc.devRef .tc main_v17) := by
  keep_via hostOps4 ((thru_in3 m ρ c 10 rfl).trans (keep3_main_v17 m ρ c))
theorem keep4_main_v20 (c : Dev nD) : Gen.W9 m ρ c (Proc.devRef .tc main_v20) = Gen.W1 m ρ c (Proc.devRef .tc main_v20) := by
  keep_via hostOps4 ((thru_in3 m ρ c 11 rfl).trans (keep3_main_v20 m ρ c))
theorem keep4_main_v23 (c : Dev nD) : Gen.W9 m ρ c (Proc.devRef .tc main_v23) = Gen.W1 m ρ c (Proc.devRef .tc main_v23) := by
  keep_via hostOps4 ((thru_in3 m ρ c 12 rfl).trans (keep3_main_v23 m ρ c))
theorem keep4_main_v24 (c : Dev nD) : Gen.W9 m ρ c (Proc.devRef .tc main_v24) = Gen.W1 m ρ c (Proc.devRef .tc main_v24) := by
  keep_via hostOps4 ((thru_in3 m ρ c 13 rfl).trans (keep3_main_v24 m ρ c))
theorem keep4_main_v25 (c : Dev nD) : Gen.W9 m ρ c (Proc.devRef .tc main_v25) = Gen.W1 m ρ c (Proc.devRef .tc main_v25) := by
  keep_via hostOps4 ((thru_in3 m ρ c 14 rfl).trans (keep3_main_v25 m ρ c))
theorem keep4_main_v26 (c : Dev nD) : Gen.W9 m ρ c (Proc.devRef .tc main_v26) = Gen.W1 m ρ c (Proc.devRef .tc main_v26) := by
  keep_via hostOps4 ((thru_in3 m ρ c 15 rfl).trans (keep3_main_v26 m ρ c))
theorem keep4_main_v27 (c : Dev nD) : Gen.W9 m ρ c (Proc.devRef .tc main_v27) = Gen.W1 m ρ c (Proc.devRef .tc main_v27) := by
  keep_via hostOps4 ((thru_in3 m ρ c 16 rfl).trans (keep3_main_v27 m ρ c))

theorem keep5_main_v2 (c : Dev nD) : Gen.W11 m ρ c (Proc.devRef .tc main_v2) = Gen.W1 m ρ c (Proc.devRef .tc main_v2) := by
  keep_via hostOps5 ((thru_in4 m ρ c 5 rfl).trans (keep4_main_v2 m ρ c))
theorem keep5_main_v5 (c : Dev nD) : Gen.W11 m ρ c (Proc.devRef .tc main_v5) = Gen.W1 m ρ c (Proc.devRef .tc main_v5) := by
  keep_via hostOps5 ((thru_in4 m ρ c 6 rfl).trans (keep4_main_v5 m ρ c))
theorem keep5_main_v8 (c : Dev nD) : Gen.W11 m ρ c (Proc.devRef .tc main_v8) = Gen.W1 m ρ c (Proc.devRef .tc main_v8) := by
  keep_via hostOps5 ((thru_in4 m ρ c 7 rfl).trans (keep4_main_v8 m ρ c))
theorem keep5_main_v11 (c : Dev nD) : Gen.W11 m ρ c (Proc.devRef .tc main_v11) = Gen.W1 m ρ c (Proc.devRef .tc main_v11) := by
  keep_via hostOps5 ((thru_in4 m ρ c 8 rfl).trans (keep4_main_v11 m ρ c))
theorem keep5_main_v14 (c : Dev nD) : Gen.W11 m ρ c (Proc.devRef .tc main_v14) = Gen.W1 m ρ c (Proc.devRef .tc main_v14) := by
  keep_via hostOps5 ((thru_in4 m ρ c 9 rfl).trans (keep4_main_v14 m ρ c))
theorem keep5_main_v17 (c : Dev nD) : Gen.W11 m ρ c (Proc.devRef .tc main_v17) = Gen.W1 m ρ c (Proc.devRef .tc main_v17) := by
  keep_via hostOps5 ((thru_in4 m ρ c 10 rfl).trans (keep4_main_v17 m ρ c))
theorem keep5_main_v20 (c : Dev nD) : Gen.W11 m ρ c (Proc.devRef .tc main_v20) = Gen.W1 m ρ c (Proc.devRef .tc main_v20) := by
  keep_via hostOps5 ((thru_in4 m ρ c 11 rfl).trans (keep4_main_v20 m ρ c))
theorem keep5_main_v23 (c : Dev nD) : Gen.W11 m ρ c (Proc.devRef .tc main_v23) = Gen.W1 m ρ c (Proc.devRef .tc main_v23) := by
  keep_via hostOps5 ((thru_in4 m ρ c 12 rfl).trans (keep4_main_v23 m ρ c))
theorem keep5_main_v24 (c : Dev nD) : Gen.W11 m ρ c (Proc.devRef .tc main_v24) = Gen.W1 m ρ c (Proc.devRef .tc main_v24) := by
  keep_via hostOps5 ((thru_in4 m ρ c 13 rfl).trans (keep4_main_v24 m ρ c))
theorem keep5_main_v25 (c : Dev nD) : Gen.W11 m ρ c (Proc.devRef .tc main_v25) = Gen.W1 m ρ c (Proc.devRef .tc main_v25) := by
  keep_via hostOps5 ((thru_in4 m ρ c 14 rfl).trans (keep4_main_v25 m ρ c))
theorem keep5_main_v26 (c : Dev nD) : Gen.W11 m ρ c (Proc.devRef .tc main_v26) = Gen.W1 m ρ c (Proc.devRef .tc main_v26) := by
  keep_via hostOps5 ((thru_in4 m ρ c 15 rfl).trans (keep4_main_v26 m ρ c))
theorem keep5_main_v27 (c : Dev nD) : Gen.W11 m ρ c (Proc.devRef .tc main_v27) = Gen.W1 m ρ c (Proc.devRef .tc main_v27) := by
  keep_via hostOps5 ((thru_in4 m ρ c 16 rfl).trans (keep4_main_v27 m ρ c))

theorem keep6_main_v2 (c : Dev nD) : Gen.W13 m ρ c (Proc.devRef .tc main_v2) = Gen.W1 m ρ c (Proc.devRef .tc main_v2) := by
  keep_via hostOps6 ((thru_in5 m ρ c 5 rfl).trans (keep5_main_v2 m ρ c))
theorem keep6_main_v5 (c : Dev nD) : Gen.W13 m ρ c (Proc.devRef .tc main_v5) = Gen.W1 m ρ c (Proc.devRef .tc main_v5) := by
  keep_via hostOps6 ((thru_in5 m ρ c 6 rfl).trans (keep5_main_v5 m ρ c))
theorem keep6_main_v8 (c : Dev nD) : Gen.W13 m ρ c (Proc.devRef .tc main_v8) = Gen.W1 m ρ c (Proc.devRef .tc main_v8) := by
  keep_via hostOps6 ((thru_in5 m ρ c 7 rfl).trans (keep5_main_v8 m ρ c))
theorem keep6_main_v11 (c : Dev nD) : Gen.W13 m ρ c (Proc.devRef .tc main_v11) = Gen.W1 m ρ c (Proc.devRef .tc main_v11) := by
  keep_via hostOps6 ((thru_in5 m ρ c 8 rfl).trans (keep5_main_v11 m ρ c))
theorem keep6_main_v14 (c : Dev nD) : Gen.W13 m ρ c (Proc.devRef .tc main_v14) = Gen.W1 m ρ c (Proc.devRef .tc main_v14) := by
  keep_via hostOps6 ((thru_in5 m ρ c 9 rfl).trans (keep5_main_v14 m ρ c))
theorem keep6_main_v17 (c : Dev nD) : Gen.W13 m ρ c (Proc.devRef .tc main_v17) = Gen.W1 m ρ c (Proc.devRef .tc main_v17) := by
  keep_via hostOps6 ((thru_in5 m ρ c 10 rfl).trans (keep5_main_v17 m ρ c))
theorem keep6_main_v20 (c : Dev nD) : Gen.W13 m ρ c (Proc.devRef .tc main_v20) = Gen.W1 m ρ c (Proc.devRef .tc main_v20) := by
  keep_via hostOps6 ((thru_in5 m ρ c 11 rfl).trans (keep5_main_v20 m ρ c))
theorem keep6_main_v23 (c : Dev nD) : Gen.W13 m ρ c (Proc.devRef .tc main_v23) = Gen.W1 m ρ c (Proc.devRef .tc main_v23) := by
  keep_via hostOps6 ((thru_in5 m ρ c 12 rfl).trans (keep5_main_v23 m ρ c))
theorem keep6_main_v24 (c : Dev nD) : Gen.W13 m ρ c (Proc.devRef .tc main_v24) = Gen.W1 m ρ c (Proc.devRef .tc main_v24) := by
  keep_via hostOps6 ((thru_in5 m ρ c 13 rfl).trans (keep5_main_v24 m ρ c))
theorem keep6_main_v25 (c : Dev nD) : Gen.W13 m ρ c (Proc.devRef .tc main_v25) = Gen.W1 m ρ c (Proc.devRef .tc main_v25) := by
  keep_via hostOps6 ((thru_in5 m ρ c 14 rfl).trans (keep5_main_v25 m ρ c))
theorem keep6_main_v26 (c : Dev nD) : Gen.W13 m ρ c (Proc.devRef .tc main_v26) = Gen.W1 m ρ c (Proc.devRef .tc main_v26) := by
  keep_via hostOps6 ((thru_in5 m ρ c 15 rfl).trans (keep5_main_v26 m ρ c))
theorem keep6_main_v27 (c : Dev nD) : Gen.W13 m ρ c (Proc.devRef .tc main_v27) = Gen.W1 m ρ c (Proc.devRef .tc main_v27) := by
  keep_via hostOps6 ((thru_in5 m ρ c 16 rfl).trans (keep5_main_v27 m ρ c))

theorem keep7_main_v2 (c : Dev nD) : Gen.W15 m ρ c (Proc.devRef .tc main_v2) = Gen.W1 m ρ c (Proc.devRef .tc main_v2) := by
  keep_via hostOps7 ((thru_in6 m ρ c 5 rfl).trans (keep6_main_v2 m ρ c))
theorem keep7_main_v5 (c : Dev nD) : Gen.W15 m ρ c (Proc.devRef .tc main_v5) = Gen.W1 m ρ c (Proc.devRef .tc main_v5) := by
  keep_via hostOps7 ((thru_in6 m ρ c 6 rfl).trans (keep6_main_v5 m ρ c))
theorem keep7_main_v8 (c : Dev nD) : Gen.W15 m ρ c (Proc.devRef .tc main_v8) = Gen.W1 m ρ c (Proc.devRef .tc main_v8) := by
  keep_via hostOps7 ((thru_in6 m ρ c 7 rfl).trans (keep6_main_v8 m ρ c))
theorem keep7_main_v11 (c : Dev nD) : Gen.W15 m ρ c (Proc.devRef .tc main_v11) = Gen.W1 m ρ c (Proc.devRef .tc main_v11) := by
  keep_via hostOps7 ((thru_in6 m ρ c 8 rfl).trans (keep6_main_v11 m ρ c))
theorem keep7_main_v14 (c : Dev nD) : Gen.W15 m ρ c (Proc.devRef .tc main_v14) = Gen.W1 m ρ c (Proc.devRef .tc main_v14) := by
  keep_via hostOps7 ((thru_in6 m ρ c 9 rfl).trans (keep6_main_v14 m ρ c))
theorem keep7_main_v17 (c : Dev nD) : Gen.W15 m ρ c (Proc.devRef .tc main_v17) = Gen.W1 m ρ c (Proc.devRef .tc main_v17) := by
  keep_via hostOps7 ((thru_in6 m ρ c 10 rfl).trans (keep6_main_v17 m ρ c))
theorem keep7_main_v20 (c : Dev nD) : Gen.W15 m ρ c (Proc.devRef .tc main_v20) = Gen.W1 m ρ c (Proc.devRef .tc main_v20) := by
  keep_via hostOps7 ((thru_in6 m ρ c 11 rfl).trans (keep6_main_v20 m ρ c))
theorem keep7_main_v23 (c : Dev nD) : Gen.W15 m ρ c (Proc.devRef .tc main_v23) = Gen.W1 m ρ c (Proc.devRef .tc main_v23) := by
  keep_via hostOps7 ((thru_in6 m ρ c 12 rfl).trans (keep6_main_v23 m ρ c))
theorem keep7_main_v24 (c : Dev nD) : Gen.W15 m ρ c (Proc.devRef .tc main_v24) = Gen.W1 m ρ c (Proc.devRef .tc main_v24) := by
  keep_via hostOps7 ((thru_in6 m ρ c 13 rfl).trans (keep6_main_v24 m ρ c))
theorem keep7_main_v25 (c : Dev nD) : Gen.W15 m ρ c (Proc.devRef .tc main_v25) = Gen.W1 m ρ c (Proc.devRef .tc main_v25) := by
  keep_via hostOps7 ((thru_in6 m ρ c 14 rfl).trans (keep6_main_v25 m ρ c))
theorem keep7_main_v26 (c : Dev nD) : Gen.W15 m ρ c (Proc.devRef .tc main_v26) = Gen.W1 m ρ c (Proc.devRef .tc main_v26) := by
  keep_via hostOps7 ((thru_in6 m ρ c 15 rfl).trans (keep6_main_v26 m ρ c))
theorem keep7_main_v27 (c : Dev nD) : Gen.W15 m ρ c (Proc.devRef .tc main_v27) = Gen.W1 m ρ c (Proc.devRef .tc main_v27) := by
  keep_via hostOps7 ((thru_in6 m ρ c 16 rfl).trans (keep6_main_v27 m ρ c))

theorem keep8_main_v2 (c : Dev nD) : Gen.W17 m ρ c (Proc.devRef .tc main_v2) = Gen.W1 m ρ c (Proc.devRef .tc main_v2) := by
  keep_via hostOps8 ((thru_in7 m ρ c 5 rfl).trans (keep7_main_v2 m ρ c))
theorem keep8_main_v5 (c : Dev nD) : Gen.W17 m ρ c (Proc.devRef .tc main_v5) = Gen.W1 m ρ c (Proc.devRef .tc main_v5) := by
  keep_via hostOps8 ((thru_in7 m ρ c 6 rfl).trans (keep7_main_v5 m ρ c))
theorem keep8_main_v8 (c : Dev nD) : Gen.W17 m ρ c (Proc.devRef .tc main_v8) = Gen.W1 m ρ c (Proc.devRef .tc main_v8) := by
  keep_via hostOps8 ((thru_in7 m ρ c 7 rfl).trans (keep7_main_v8 m ρ c))
theorem keep8_main_v11 (c : Dev nD) : Gen.W17 m ρ c (Proc.devRef .tc main_v11) = Gen.W1 m ρ c (Proc.devRef .tc main_v11) := by
  keep_via hostOps8 ((thru_in7 m ρ c 8 rfl).trans (keep7_main_v11 m ρ c))
theorem keep8_main_v14 (c : Dev nD) : Gen.W17 m ρ c (Proc.devRef .tc main_v14) = Gen.W1 m ρ c (Proc.devRef .tc main_v14) := by
  keep_via hostOps8 ((thru_in7 m ρ c 9 rfl).trans (keep7_main_v14 m ρ c))
theorem keep8_main_v17 (c : Dev nD) : Gen.W17 m ρ c (Proc.devRef .tc main_v17) = Gen.W1 m ρ c (Proc.devRef .tc main_v17) := by
  keep_via hostOps8 ((thru_in7 m ρ c 10 rfl).trans (keep7_main_v17 m ρ c))
theorem keep8_main_v20 (c : Dev nD) : Gen.W17 m ρ c (Proc.devRef .tc main_v20) = Gen.W1 m ρ c (Proc.devRef .tc main_v20) := by
  keep_via hostOps8 ((thru_in7 m ρ c 11 rfl).trans (keep7_main_v20 m ρ c))
theorem keep8_main_v23 (c : Dev nD) : Gen.W17 m ρ c (Proc.devRef .tc main_v23) = Gen.W1 m ρ c (Proc.devRef .tc main_v23) := by
  keep_via hostOps8 ((thru_in7 m ρ c 12 rfl).trans (keep7_main_v23 m ρ c))
theorem keep8_main_v24 (c : Dev nD) : Gen.W17 m ρ c (Proc.devRef .tc main_v24) = Gen.W1 m ρ c (Proc.devRef .tc main_v24) := by
  keep_via hostOps8 ((thru_in7 m ρ c 13 rfl).trans (keep7_main_v24 m ρ c))
theorem keep8_main_v25 (c : Dev nD) : Gen.W17 m ρ c (Proc.devRef .tc main_v25) = Gen.W1 m ρ c (Proc.devRef .tc main_v25) := by
  keep_via hostOps8 ((thru_in7 m ρ c 14 rfl).trans (keep7_main_v25 m ρ c))
theorem keep8_main_v26 (c : Dev nD) : Gen.W17 m ρ c (Proc.devRef .tc main_v26) = Gen.W1 m ρ c (Proc.devRef .tc main_v26) := by
  keep_via hostOps8 ((thru_in7 m ρ c 15 rfl).trans (keep7_main_v26 m ρ c))
theorem keep8_main_v27 (c : Dev nD) : Gen.W17 m ρ c (Proc.devRef .tc main_v27) = Gen.W1 m ρ c (Proc.devRef .tc main_v27) := by
  keep_via hostOps8 ((thru_in7 m ρ c 16 rfl).trans (keep7_main_v27 m ρ c))

theorem keep9_main_v2 (c : Dev nD) : Gen.W19 m ρ c (Proc.devRef .tc main_v2) = Gen.W1 m ρ c (Proc.devRef .tc main_v2) := by
  keep_via hostOps9 ((thru_in8 m ρ c 5 rfl).trans (keep8_main_v2 m ρ c))
theorem keep9_main_v5 (c : Dev nD) : Gen.W19 m ρ c (Proc.devRef .tc main_v5) = Gen.W1 m ρ c (Proc.devRef .tc main_v5) := by
  keep_via hostOps9 ((thru_in8 m ρ c 6 rfl).trans (keep8_main_v5 m ρ c))
theorem keep9_main_v8 (c : Dev nD) : Gen.W19 m ρ c (Proc.devRef .tc main_v8) = Gen.W1 m ρ c (Proc.devRef .tc main_v8) := by
  keep_via hostOps9 ((thru_in8 m ρ c 7 rfl).trans (keep8_main_v8 m ρ c))
theorem keep9_main_v11 (c : Dev nD) : Gen.W19 m ρ c (Proc.devRef .tc main_v11) = Gen.W1 m ρ c (Proc.devRef .tc main_v11) := by
  keep_via hostOps9 ((thru_in8 m ρ c 8 rfl).trans (keep8_main_v11 m ρ c))
theorem keep9_main_v14 (c : Dev nD) : Gen.W19 m ρ c (Proc.devRef .tc main_v14) = Gen.W1 m ρ c (Proc.devRef .tc main_v14) := by
  keep_via hostOps9 ((thru_in8 m ρ c 9 rfl).trans (keep8_main_v14 m ρ c))
theorem keep9_main_v17 (c : Dev nD) : Gen.W19 m ρ c (Proc.devRef .tc main_v17) = Gen.W1 m ρ c (Proc.devRef .tc main_v17) := by
  keep_via hostOps9 ((thru_in8 m ρ c 10 rfl).trans (keep8_main_v17 m ρ c))
theorem keep9_main_v20 (c : Dev nD) : Gen.W19 m ρ c (Proc.devRef .tc main_v20) = Gen.W1 m ρ c (Proc.devRef .tc main_v20) := by
  keep_via hostOps9 ((thru_in8 m ρ c 11 rfl).trans (keep8_main_v20 m ρ c))
theorem keep9_main_v23 (c : Dev nD) : Gen.W19 m ρ c (Proc.devRef .tc main_v23) = Gen.W1 m ρ c (Proc.devRef .tc main_v23) := by
  keep_via hostOps9 ((thru_in8 m ρ c 12 rfl).trans (keep8_main_v23 m ρ c))
theorem keep9_main_v24 (c : Dev nD) : Gen.W19 m ρ c (Proc.devRef .tc main_v24) = Gen.W1 m ρ c (Proc.devRef .tc main_v24) := by
  keep_via hostOps9 ((thru_in8 m ρ c 13 rfl).trans (keep8_main_v24 m ρ c))
theorem keep9_main_v25 (c : Dev nD) : Gen.W19 m ρ c (Proc.devRef .tc main_v25) = Gen.W1 m ρ c (Proc.devRef .tc main_v25) := by
  keep_via hostOps9 ((thru_in8 m ρ c 14 rfl).trans (keep8_main_v25 m ρ c))
theorem keep9_main_v26 (c : Dev nD) : Gen.W19 m ρ c (Proc.devRef .tc main_v26) = Gen.W1 m ρ c (Proc.devRef .tc main_v26) := by
  keep_via hostOps9 ((thru_in8 m ρ c 15 rfl).trans (keep8_main_v26 m ρ c))
theorem keep9_main_v27 (c : Dev nD) : Gen.W19 m ρ c (Proc.devRef .tc main_v27) = Gen.W1 m ρ c (Proc.devRef .tc main_v27) := by
  keep_via hostOps9 ((thru_in8 m ρ c 16 rfl).trans (keep8_main_v27 m ρ c))

theorem keep10_main_v2 (c : Dev nD) : Gen.W21 m ρ c (Proc.devRef .tc main_v2) = Gen.W1 m ρ c (Proc.devRef .tc main_v2) := by
  keep_via hostOps10 ((thru_in9 m ρ c 5 rfl).trans (keep9_main_v2 m ρ c))
theorem keep10_main_v5 (c : Dev nD) : Gen.W21 m ρ c (Proc.devRef .tc main_v5) = Gen.W1 m ρ c (Proc.devRef .tc main_v5) := by
  keep_via hostOps10 ((thru_in9 m ρ c 6 rfl).trans (keep9_main_v5 m ρ c))
theorem keep10_main_v8 (c : Dev nD) : Gen.W21 m ρ c (Proc.devRef .tc main_v8) = Gen.W1 m ρ c (Proc.devRef .tc main_v8) := by
  keep_via hostOps10 ((thru_in9 m ρ c 7 rfl).trans (keep9_main_v8 m ρ c))
theorem keep10_main_v11 (c : Dev nD) : Gen.W21 m ρ c (Proc.devRef .tc main_v11) = Gen.W1 m ρ c (Proc.devRef .tc main_v11) := by
  keep_via hostOps10 ((thru_in9 m ρ c 8 rfl).trans (keep9_main_v11 m ρ c))
theorem keep10_main_v14 (c : Dev nD) : Gen.W21 m ρ c (Proc.devRef .tc main_v14) = Gen.W1 m ρ c (Proc.devRef .tc main_v14) := by
  keep_via hostOps10 ((thru_in9 m ρ c 9 rfl).trans (keep9_main_v14 m ρ c))
theorem keep10_main_v17 (c : Dev nD) : Gen.W21 m ρ c (Proc.devRef .tc main_v17) = Gen.W1 m ρ c (Proc.devRef .tc main_v17) := by
  keep_via hostOps10 ((thru_in9 m ρ c 10 rfl).trans (keep9_main_v17 m ρ c))
theorem keep10_main_v20 (c : Dev nD) : Gen.W21 m ρ c (Proc.devRef .tc main_v20) = Gen.W1 m ρ c (Proc.devRef .tc main_v20) := by
  keep_via hostOps10 ((thru_in9 m ρ c 11 rfl).trans (keep9_main_v20 m ρ c))
theorem keep10_main_v23 (c : Dev nD) : Gen.W21 m ρ c (Proc.devRef .tc main_v23) = Gen.W1 m ρ c (Proc.devRef .tc main_v23) := by
  keep_via hostOps10 ((thru_in9 m ρ c 12 rfl).trans (keep9_main_v23 m ρ c))
theorem keep10_main_v24 (c : Dev nD) : Gen.W21 m ρ c (Proc.devRef .tc main_v24) = Gen.W1 m ρ c (Proc.devRef .tc main_v24) := by
  keep_via hostOps10 ((thru_in9 m ρ c 13 rfl).trans (keep9_main_v24 m ρ c))
theorem keep10_main_v25 (c : Dev nD) : Gen.W21 m ρ c (Proc.devRef .tc main_v25) = Gen.W1 m ρ c (Proc.devRef .tc main_v25) := by
  keep_via hostOps10 ((thru_in9 m ρ c 14 rfl).trans (keep9_main_v25 m ρ c))
theorem keep10_main_v26 (c : Dev nD) : Gen.W21 m ρ c (Proc.devRef .tc main_v26) = Gen.W1 m ρ c (Proc.devRef .tc main_v26) := by
  keep_via hostOps10 ((thru_in9 m ρ c 15 rfl).trans (keep9_main_v26 m ρ c))
theorem keep10_main_v27 (c : Dev nD) : Gen.W21 m ρ c (Proc.devRef .tc main_v27) = Gen.W1 m ρ c (Proc.devRef .tc main_v27) := by
  keep_via hostOps10 ((thru_in9 m ρ c 16 rfl).trans (keep9_main_v27 m ρ c))

theorem keep11_main_v2 (c : Dev nD) : Gen.W23 m ρ c (Proc.devRef .tc main_v2) = Gen.W1 m ρ c (Proc.devRef .tc main_v2) := by
  keep_via hostOps11 ((thru_in10 m ρ c 5 rfl).trans (keep10_main_v2 m ρ c))
theorem keep11_main_v5 (c : Dev nD) : Gen.W23 m ρ c (Proc.devRef .tc main_v5) = Gen.W1 m ρ c (Proc.devRef .tc main_v5) := by
  keep_via hostOps11 ((thru_in10 m ρ c 6 rfl).trans (keep10_main_v5 m ρ c))
theorem keep11_main_v8 (c : Dev nD) : Gen.W23 m ρ c (Proc.devRef .tc main_v8) = Gen.W1 m ρ c (Proc.devRef .tc main_v8) := by
  keep_via hostOps11 ((thru_in10 m ρ c 7 rfl).trans (keep10_main_v8 m ρ c))
theorem keep11_main_v11 (c : Dev nD) : Gen.W23 m ρ c (Proc.devRef .tc main_v11) = Gen.W1 m ρ c (Proc.devRef .tc main_v11) := by
  keep_via hostOps11 ((thru_in10 m ρ c 8 rfl).trans (keep10_main_v11 m ρ c))
theorem keep11_main_v14 (c : Dev nD) : Gen.W23 m ρ c (Proc.devRef .tc main_v14) = Gen.W1 m ρ c (Proc.devRef .tc main_v14) := by
  keep_via hostOps11 ((thru_in10 m ρ c 9 rfl).trans (keep10_main_v14 m ρ c))
theorem keep11_main_v17 (c : Dev nD) : Gen.W23 m ρ c (Proc.devRef .tc main_v17) = Gen.W1 m ρ c (Proc.devRef .tc main_v17) := by
  keep_via hostOps11 ((thru_in10 m ρ c 10 rfl).trans (keep10_main_v17 m ρ c))
theorem keep11_main_v20 (c : Dev nD) : Gen.W23 m ρ c (Proc.devRef .tc main_v20) = Gen.W1 m ρ c (Proc.devRef .tc main_v20) := by
  keep_via hostOps11 ((thru_in10 m ρ c 11 rfl).trans (keep10_main_v20 m ρ c))
theorem keep11_main_v23 (c : Dev nD) : Gen.W23 m ρ c (Proc.devRef .tc main_v23) = Gen.W1 m ρ c (Proc.devRef .tc main_v23) := by
  keep_via hostOps11 ((thru_in10 m ρ c 12 rfl).trans (keep10_main_v23 m ρ c))
theorem keep11_main_v24 (c : Dev nD) : Gen.W23 m ρ c (Proc.devRef .tc main_v24) = Gen.W1 m ρ c (Proc.devRef .tc main_v24) := by
  keep_via hostOps11 ((thru_in10 m ρ c 13 rfl).trans (keep10_main_v24 m ρ c))
theorem keep11_main_v25 (c : Dev nD) : Gen.W23 m ρ c (Proc.devRef .tc main_v25) = Gen.W1 m ρ c (Proc.devRef .tc main_v25) := by
  keep_via hostOps11 ((thru_in10 m ρ c 14 rfl).trans (keep10_main_v25 m ρ c))
theorem keep11_main_v26 (c : Dev nD) : Gen.W23 m ρ c (Proc.devRef .tc main_v26) = Gen.W1 m ρ c (Proc.devRef .tc main_v26) := by
  keep_via hostOps11 ((thru_in10 m ρ c 15 rfl).trans (keep10_main_v26 m ρ c))
theorem keep11_main_v27 (c : Dev nD) : Gen.W23 m ρ c (Proc.devRef .tc main_v27) = Gen.W1 m ρ c (Proc.devRef .tc main_v27) := by
  keep_via hostOps11 ((thru_in10 m ρ c 16 rfl).trans (keep10_main_v27 m ρ c))

theorem keep12_main_v2 (c : Dev nD) : Gen.W25 m ρ c (Proc.devRef .tc main_v2) = Gen.W1 m ρ c (Proc.devRef .tc main_v2) := by
  keep_via hostOps12 ((thru_in11 m ρ c 5 rfl).trans (keep11_main_v2 m ρ c))
theorem keep12_main_v5 (c : Dev nD) : Gen.W25 m ρ c (Proc.devRef .tc main_v5) = Gen.W1 m ρ c (Proc.devRef .tc main_v5) := by
  keep_via hostOps12 ((thru_in11 m ρ c 6 rfl).trans (keep11_main_v5 m ρ c))
theorem keep12_main_v8 (c : Dev nD) : Gen.W25 m ρ c (Proc.devRef .tc main_v8) = Gen.W1 m ρ c (Proc.devRef .tc main_v8) := by
  keep_via hostOps12 ((thru_in11 m ρ c 7 rfl).trans (keep11_main_v8 m ρ c))
theorem keep12_main_v11 (c : Dev nD) : Gen.W25 m ρ c (Proc.devRef .tc main_v11) = Gen.W1 m ρ c (Proc.devRef .tc main_v11) := by
  keep_via hostOps12 ((thru_in11 m ρ c 8 rfl).trans (keep11_main_v11 m ρ c))
theorem keep12_main_v14 (c : Dev nD) : Gen.W25 m ρ c (Proc.devRef .tc main_v14) = Gen.W1 m ρ c (Proc.devRef .tc main_v14) := by
  keep_via hostOps12 ((thru_in11 m ρ c 9 rfl).trans (keep11_main_v14 m ρ c))
theorem keep12_main_v17 (c : Dev nD) : Gen.W25 m ρ c (Proc.devRef .tc main_v17) = Gen.W1 m ρ c (Proc.devRef .tc main_v17) := by
  keep_via hostOps12 ((thru_in11 m ρ c 10 rfl).trans (keep11_main_v17 m ρ c))
theorem keep12_main_v20 (c : Dev nD) : Gen.W25 m ρ c (Proc.devRef .tc main_v20) = Gen.W1 m ρ c (Proc.devRef .tc main_v20) := by
  keep_via hostOps12 ((thru_in11 m ρ c 11 rfl).trans (keep11_main_v20 m ρ c))
theorem keep12_main_v23 (c : Dev nD) : Gen.W25 m ρ c (Proc.devRef .tc main_v23) = Gen.W1 m ρ c (Proc.devRef .tc main_v23) := by
  keep_via hostOps12 ((thru_in11 m ρ c 12 rfl).trans (keep11_main_v23 m ρ c))
theorem keep12_main_v24 (c : Dev nD) : Gen.W25 m ρ c (Proc.devRef .tc main_v24) = Gen.W1 m ρ c (Proc.devRef .tc main_v24) := by
  keep_via hostOps12 ((thru_in11 m ρ c 13 rfl).trans (keep11_main_v24 m ρ c))
theorem keep12_main_v25 (c : Dev nD) : Gen.W25 m ρ c (Proc.devRef .tc main_v25) = Gen.W1 m ρ c (Proc.devRef .tc main_v25) := by
  keep_via hostOps12 ((thru_in11 m ρ c 14 rfl).trans (keep11_main_v25 m ρ c))
theorem keep12_main_v26 (c : Dev nD) : Gen.W25 m ρ c (Proc.devRef .tc main_v26) = Gen.W1 m ρ c (Proc.devRef .tc main_v26) := by
  keep_via hostOps12 ((thru_in11 m ρ c 15 rfl).trans (keep11_main_v26 m ρ c))
theorem keep12_main_v27 (c : Dev nD) : Gen.W25 m ρ c (Proc.devRef .tc main_v27) = Gen.W1 m ρ c (Proc.devRef .tc main_v27) := by
  keep_via hostOps12 ((thru_in11 m ρ c 16 rfl).trans (keep11_main_v27 m ρ c))

theorem keep13_main_v2 (c : Dev nD) : Gen.W27 m ρ c (Proc.devRef .tc main_v2) = Gen.W1 m ρ c (Proc.devRef .tc main_v2) := by
  keep_via hostOps13 ((thru_in12 m ρ c 5 rfl).trans (keep12_main_v2 m ρ c))
theorem keep13_main_v5 (c : Dev nD) : Gen.W27 m ρ c (Proc.devRef .tc main_v5) = Gen.W1 m ρ c (Proc.devRef .tc main_v5) := by
  keep_via hostOps13 ((thru_in12 m ρ c 6 rfl).trans (keep12_main_v5 m ρ c))
theorem keep13_main_v8 (c : Dev nD) : Gen.W27 m ρ c (Proc.devRef .tc main_v8) = Gen.W1 m ρ c (Proc.devRef .tc main_v8) := by
  keep_via hostOps13 ((thru_in12 m ρ c 7 rfl).trans (keep12_main_v8 m ρ c))
theorem keep13_main_v11 (c : Dev nD) : Gen.W27 m ρ c (Proc.devRef .tc main_v11) = Gen.W1 m ρ c (Proc.devRef .tc main_v11) := by
  keep_via hostOps13 ((thru_in12 m ρ c 8 rfl).trans (keep12_main_v11 m ρ c))
theorem keep13_main_v14 (c : Dev nD) : Gen.W27 m ρ c (Proc.devRef .tc main_v14) = Gen.W1 m ρ c (Proc.devRef .tc main_v14) := by
  keep_via hostOps13 ((thru_in12 m ρ c 9 rfl).trans (keep12_main_v14 m ρ c))
theorem keep13_main_v17 (c : Dev nD) : Gen.W27 m ρ c (Proc.devRef .tc main_v17) = Gen.W1 m ρ c (Proc.devRef .tc main_v17) := by
  keep_via hostOps13 ((thru_in12 m ρ c 10 rfl).trans (keep12_main_v17 m ρ c))
theorem keep13_main_v20 (c : Dev nD) : Gen.W27 m ρ c (Proc.devRef .tc main_v20) = Gen.W1 m ρ c (Proc.devRef .tc main_v20) := by
  keep_via hostOps13 ((thru_in12 m ρ c 11 rfl).trans (keep12_main_v20 m ρ c))
theorem keep13_main_v23 (c : Dev nD) : Gen.W27 m ρ c (Proc.devRef .tc main_v23) = Gen.W1 m ρ c (Proc.devRef .tc main_v23) := by
  keep_via hostOps13 ((thru_in12 m ρ c 12 rfl).trans (keep12_main_v23 m ρ c))
theorem keep13_main_v24 (c : Dev nD) : Gen.W27 m ρ c (Proc.devRef .tc main_v24) = Gen.W1 m ρ c (Proc.devRef .tc main_v24) := by
  keep_via hostOps13 ((thru_in12 m ρ c 13 rfl).trans (keep12_main_v24 m ρ c))
theorem keep13_main_v25 (c : Dev nD) : Gen.W27 m ρ c (Proc.devRef .tc main_v25) = Gen.W1 m ρ c (Proc.devRef .tc main_v25) := by
  keep_via hostOps13 ((thru_in12 m ρ c 14 rfl).trans (keep12_main_v25 m ρ c))
theorem keep13_main_v26 (c : Dev nD) : Gen.W27 m ρ c (Proc.devRef .tc main_v26) = Gen.W1 m ρ c (Proc.devRef .tc main_v26) := by
  keep_via hostOps13 ((thru_in12 m ρ c 15 rfl).trans (keep12_main_v26 m ρ c))
theorem keep13_main_v27 (c : Dev nD) : Gen.W27 m ρ c (Proc.devRef .tc main_v27) = Gen.W1 m ρ c (Proc.devRef .tc main_v27) := by
  keep_via hostOps13 ((thru_in12 m ρ c 16 rfl).trans (keep12_main_v27 m ρ c))

theorem keep14_main_v2 (c : Dev nD) : Gen.W29 m ρ c (Proc.devRef .tc main_v2) = Gen.W1 m ρ c (Proc.devRef .tc main_v2) := by
  keep_via hostOps14 ((thru_in13 m ρ c 5 rfl).trans (keep13_main_v2 m ρ c))
theorem keep14_main_v5 (c : Dev nD) : Gen.W29 m ρ c (Proc.devRef .tc main_v5) = Gen.W1 m ρ c (Proc.devRef .tc main_v5) := by
  keep_via hostOps14 ((thru_in13 m ρ c 6 rfl).trans (keep13_main_v5 m ρ c))
theorem keep14_main_v8 (c : Dev nD) : Gen.W29 m ρ c (Proc.devRef .tc main_v8) = Gen.W1 m ρ c (Proc.devRef .tc main_v8) := by
  keep_via hostOps14 ((thru_in13 m ρ c 7 rfl).trans (keep13_main_v8 m ρ c))
theorem keep14_main_v11 (c : Dev nD) : Gen.W29 m ρ c (Proc.devRef .tc main_v11) = Gen.W1 m ρ c (Proc.devRef .tc main_v11) := by
  keep_via hostOps14 ((thru_in13 m ρ c 8 rfl).trans (keep13_main_v11 m ρ c))
theorem keep14_main_v14 (c : Dev nD) : Gen.W29 m ρ c (Proc.devRef .tc main_v14) = Gen.W1 m ρ c (Proc.devRef .tc main_v14) := by
  keep_via hostOps14 ((thru_in13 m ρ c 9 rfl).trans (keep13_main_v14 m ρ c))
theorem keep14_main_v17 (c : Dev nD) : Gen.W29 m ρ c (Proc.devRef .tc main_v17) = Gen.W1 m ρ c (Proc.devRef .tc main_v17) := by
  keep_via hostOps14 ((thru_in13 m ρ c 10 rfl).trans (keep13_main_v17 m ρ c))
theorem keep14_main_v20 (c : Dev nD) : Gen.W29 m ρ c (Proc.devRef .tc main_v20) = Gen.W1 m ρ c (Proc.devRef .tc main_v20) := by
  keep_via hostOps14 ((thru_in13 m ρ c 11 rfl).trans (keep13_main_v20 m ρ c))
theorem keep14_main_v23 (c : Dev nD) : Gen.W29 m ρ c (Proc.devRef .tc main_v23) = Gen.W1 m ρ c (Proc.devRef .tc main_v23) := by
  keep_via hostOps14 ((thru_in13 m ρ c 12 rfl).trans (keep13_main_v23 m ρ c))
theorem keep14_main_v24 (c : Dev nD) : Gen.W29 m ρ c (Proc.devRef .tc main_v24) = Gen.W1 m ρ c (Proc.devRef .tc main_v24) := by
  keep_via hostOps14 ((thru_in13 m ρ c 13 rfl).trans (keep13_main_v24 m ρ c))
theorem keep14_main_v25 (c : Dev nD) : Gen.W29 m ρ c (Proc.devRef .tc main_v25) = Gen.W1 m ρ c (Proc.devRef .tc main_v25) := by
  keep_via hostOps14 ((thru_in13 m ρ c 14 rfl).trans (keep13_main_v25 m ρ c))
theorem keep14_main_v26 (c : Dev nD) : Gen.W29 m ρ c (Proc.devRef .tc main_v26) = Gen.W1 m ρ c (Proc.devRef .tc main_v26) := by
  keep_via hostOps14 ((thru_in13 m ρ c 15 rfl).trans (keep13_main_v26 m ρ c))
theorem keep14_main_v27 (c : Dev nD) : Gen.W29 m ρ c (Proc.devRef .tc main_v27) = Gen.W1 m ρ c (Proc.devRef .tc main_v27) := by
  keep_via hostOps14 ((thru_in13 m ρ c 16 rfl).trans (keep13_main_v27 m ρ c))

end Cert.KernelIdeal.Chain

end
-- ==== Proof.KStep0.lean ====
/-
  The leaf level of the tree, read off the run: the two heap arrays after the first region's scatters as the leaf
  function of the node features and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The leaf level: what the first region's scatters leave in the two heap arrays

The first host stretch prepares the weights, two all-zero heap arrays and the 16384 leaf rows of the node features.
The first region computes the leaves' hidden and cell rows from the features and six of the weight and bias buffers;
the second host stretch scatters them into the zero heap arrays at row 16383. -/

/-! ## The two host stretches, over any contents `W` of the buffers -/

section Host
variable (W : Valuation τ sig (Elt Ideal))

/-- The stretch after the region writes the hidden heap: the zero array with the region's first output scattered in. -/
theorem scat0_h : StableHlo.after hostOps1 W (Proc.devRef .tc main_v33)
    = Host.scatter scatter_S32767x512_S1_S16384x512_01_n_0_0 (fun _ b => b) (W (Proc.devRef .tc main_v28))
        (broadcastInDim S1 ![] bcast_S_S1 (constantI S_ 32 16383#32)) (W (Proc.devRef .tc main_v31_0)) := by
  after_results
  rfl

/-- And the cell heap. -/
theorem scat0_c : StableHlo.after hostOps1 W (Proc.devRef .tc main_v35)
    = Host.scatter scatter_S32767x512_S1_S16384x512_01_n_0_0 (fun _ b => b) (W (Proc.devRef .tc main_v29))
        (broadcastInDim S1 ![] bcast_S_S1 (constantI S_ 32 16383#32)) (W (Proc.devRef .tc main_v31_1)) := by
  after_results
  rfl

/-- The first stretch's zero array for the hidden heap. -/
theorem fill0_h : StableHlo.after hostOps0 W (Proc.devRef .tc main_v28)
    = broadcastInDim S32767x512 ![] bcast_S_S32767x512 (constant (F := Ideal) S_ .f32 0x00000000#32) := by
  after_results

/-- The first stretch's zero array for the cell heap. -/
theorem fill0_c : StableHlo.after hostOps0 W (Proc.devRef .tc main_v29)
    = broadcastInDim S32767x512 ![] bcast_S_S32767x512 (constant (F := Ideal) S_ .f32 0x00000000#32) := by
  after_results

/-- The leaves' rows of node features. -/
theorem cut0_x : StableHlo.after hostOps0 W (Proc.devRef .tc main_v30)
    = extractStridedSlice S16384x512 ![16383, 0] (W (Proc.devRef .tc main_arg0)) slices_S32767x512_S16384x512_16383_0 := by
  after_results

end Host

/-! ## The region's feature rows at its entry; the zero arrays and the region's outputs at its exit -/

theorem in0_x (c : Dev nD) : Gen.W1 m ρ c (Proc.devRef .tc main_v30)
    = extractStridedSlice S16384x512 ![16383, 0] (m ((c : Thread nD τ).loc main_arg0)) slices_S32767x512_S16384x512_16383_0 :=
  (cut0_x (Gen.W0 m ρ c)).trans (by rw [arg0_0 m ρ c])

theorem zero0_h (c : Dev nD) : Gen.W2 m ρ c (Proc.devRef .tc main_v28)
    = broadcastInDim S32767x512 ![] bcast_S_S32767x512 (constant (F := Ideal) S_ .f32 0x00000000#32) :=
  (Gen.W2_of_ne m ρ c main_v28 (by decide)).trans (fill0_h (Gen.W0 m ρ c))

theorem zero0_c (c : Dev nD) : Gen.W2 m ρ c (Proc.devRef .tc main_v29)
    = broadcastInDim S32767x512 ![] bcast_S_S32767x512 (constant (F := Ideal) S_ .f32 0x00000000#32) :=
  (Gen.W2_of_ne m ρ c main_v29 (by decide)).trans (fill0_c (Gen.W0 m ρ c))

theorem out0_h (c : Dev nD) : Gen.W2 m ρ c (Proc.devRef .tc main_v31_0) = (Gen.dat0 (Gen.V1 m ρ) c).arrAt 7 cfg0.N :=
  Gen.W2_arr m ρ c 7

theorem out0_c (c : Dev nD) : Gen.W2 m ρ c (Proc.devRef .tc main_v31_1) = (Gen.dat0 (Gen.V1 m ρ) c).arrAt 8 cfg0.N :=
  Gen.W2_arr m ρ c 8

/-! ## The level -/

/-- The hidden heap after the leaves, given that the region's first output is the leaf function of its entry arrays. -/
theorem stepH0 (c : Dev nD)
    (hH : (Gen.dat0 (F := Ideal) (Gen.V1 m ρ) c).arrAt 7 cfg0.N
      = Cert.Tree.leafLevelH (n := 16384) (Gen.V1 m ρ c main_v30) (Gen.V1 m ρ c main_v2) (Gen.V1 m ρ c main_v14)
          (Gen.V1 m ρ c main_v20) (Gen.V1 m ρ c main_v24) (Gen.V1 m ρ c main_v26) (Gen.V1 m ρ c main_v27)) :
    Gen.W3 m ρ c (Proc.devRef .tc main_v33)
      = Host.scatter scatter_S32767x512_S1_S16384x512_01_n_0_0 (fun _ b => b)
          (broadcastInDim S32767x512 ![] bcast_S_S32767x512 (constant (F := Ideal) S_ .f32 0x00000000#32))
          (broadcastInDim S1 ![] bcast_S_S1 (constantI S_ 32 16383#32))
          (Cert.Tree.leafLevelH (n := 16384)
            (extractStridedSlice S16384x512 ![16383, 0] (m ((c : Thread nD τ).loc main_arg0)) slices_S32767x512_S16384x512_16383_0)
            (Gen.W1 m ρ c (Proc.devRef .tc main_v2)) (Gen.W1 m ρ c (Proc.devRef .tc main_v14))
            (Gen.W1 m ρ c (Proc.devRef .tc main_v20)) (Gen.W1 m ρ c (Proc.devRef .tc main_v24))
            (Gen.W1 m ρ c (Proc.devRef .tc main_v26)) (Gen.W1 m ρ c (Proc.devRef .tc main_v27))) := by
  have hH' : (Gen.dat0 (F := Ideal) (Gen.V1 m ρ) c).arrAt 7 cfg0.N
      = Cert.Tree.leafLevelH (n := 16384) (Gen.W1 m ρ c (Proc.devRef .tc main_v30))
          (Gen.W1 m ρ c (Proc.devRef .tc main_v2)) (Gen.W1 m ρ c (Proc.devRef .tc main_v14))
          (Gen.W1 m ρ c (Proc.devRef .tc main_v20)) (Gen.W1 m ρ c (Proc.devRef .tc main_v24))
          (Gen.W1 m ρ c (Proc.devRef .tc main_v26)) (Gen.W1 m ρ c (Proc.devRef .tc main_v27)) := hH
  rw [in0_x m ρ c] at hH'
  refine (scat0_h (Gen.W2 m ρ c)).trans ?_
  rw [zero0_h m ρ c, out0_h m ρ c, hH']
  rfl

/-- The cell heap after the leaves, given that the region's second output is the leaf cell function of its entry arrays. -/
theorem stepC0 (c : Dev nD)
    (hC : (Gen.dat0 (F := Ideal) (Gen.V1 m ρ) c).arrAt 8 cfg0.N
      = Cert.Tree.leafLevelC (n := 16384) (Gen.V1 m ρ c main_v30) (Gen.V1 m ρ c main_v2) (Gen.V1 m ρ c main_v14)
          (Gen.V1 m ρ c main_v20) (Gen.V1 m ρ c main_v24) (Gen.V1 m ρ c main_v26) (Gen.V1 m ρ c main_v27)) :
    Gen.W3 m ρ c (Proc.devRef .tc main_v35)
      = Host.scatter scatter_S32767x512_S1_S16384x512_01_n_0_0 (fun _ b => b)
          (broadcastInDim S32767x512 ![] bcast_S_S32767x512 (constant (F := Ideal) S_ .f32 0x00000000#32))
          (broadcastInDim S1 ![] bcast_S_S1 (constantI S_ 32 16383#32))
          (Cert.Tree.leafLevelC (n := 16384)
            (extractStridedSlice S16384x512 ![16383, 0] (m ((c : Thread nD τ).loc main_arg0)) slices_S32767x512_S16384x512_16383_0)
            (Gen.W1 m ρ c (Proc.devRef .tc main_v2)) (Gen.W1 m ρ c (Proc.devRef .tc main_v14))
            (Gen.W1 m ρ c (Proc.devRef .tc main_v20)) (Gen.W1 m ρ c (Proc.devRef .tc main_v24))
            (Gen.W1 m ρ c (Proc.devRef .tc main_v26)) (Gen.W1 m ρ c (Proc.devRef .tc main_v27))) := by
  have hC' : (Gen.dat0 (F := Ideal) (Gen.V1 m ρ) c).arrAt 8 cfg0.N
      = Cert.Tree.leafLevelC (n := 16384) (Gen.W1 m ρ c (Proc.devRef .tc main_v30))
          (Gen.W1 m ρ c (Proc.devRef .tc main_v2)) (Gen.W1 m ρ c (Proc.devRef .tc main_v14))
          (Gen.W1 m ρ c (Proc.devRef .tc main_v20)) (Gen.W1 m ρ c (Proc.devRef .tc main_v24))
          (Gen.W1 m ρ c (Proc.devRef .tc main_v26)) (Gen.W1 m ρ c (Proc.devRef .tc main_v27)) := hC
  rw [in0_x m ρ c] at hC'
  refine (scat0_c (Gen.W2 m ρ c)).trans ?_
  rw [zero0_c m ρ c, out0_c m ρ c, hC']
  rfl

end Cert.KernelIdeal.Chain

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibCell.lean ====
/-
  The two block bodies of the tree cell as trees of vector operations, generic in the number n of node rows in the
  block, and what each computes at the extended reals.

  A leaf block body narrows its x block, multiplies it on the matrix unit (into a zero accumulator) with three weight
  halves [512, 512], adds each bias row broadcast down the rows, and combines logistic and tanh of the results
  pointwise. An internal block body does the same with two products per gate: the x block against the weights' first
  half and a children's block (the narrowed SUM hl + hr for the input, output and update gates; hl alone and hr alone
  for the two forget gates) against the second half. At the extended reals narrowing is the identity, a product into a
  zero accumulator is the plain sum over the 512 contracted positions, and the bias entry (p, q) is the row's entry
  (0, q); so each body IS the level function of LibTree over the block's own arrays.
-/
import Idealize.ShloMosaic.PureOps.Ideal
import Idealize.ShloMosaic.PureOps.Ideal.Laws
import Idealize.ShloMosaic.Lib.ValueIdx
import Idealize.ShloMosaic.Lib.Pipeline.Value
import proofs.«110311_j37117107372689_1_alg».proof.Proof.LibBlocks
import proofs.«110311_j37117107372689_1_alg».proof.Proof.LibTree

noncomputable section

open scoped BigOperators

namespace Cert.Tree

open Idealize.ShloMosaic Idealize.ShloMosaic.ValueIdx

/-- What a block body of n rows carries besides its arrays: the product's dimension record (rows by columns) and
    the side conditions of its reshapes, broadcast and narrowing. -/
structure BodyCtx (n : Nat) where
  d : DotDims (SB n) SW (SB n)
  hd : d = DotDims.plain n 512 512
  cB : (SB n).ShapeCasts (SB n)
  cW : SW.ShapeCasts SW
  cR : SR.ShapeCasts SR
  bR : SR.Broadcasts (SB n)
  lt : FTy.bf16.bits < FTy.f32.bits

section Body

variable {F : FTy → Type} [FloatOps F] {n : Nat} (K : BodyCtx n)

/-- A block narrowed for the matrix unit. -/
def narrow (v : Vec F (SB n) .f32) : FVec F (SB n) .bf16 := truncf .bf16 (shapeCast (SB n) v K.cB) K.lt

/-- The sum of two blocks, narrowed. -/
def narrowSum (v w : Vec F (SB n) .f32) : FVec F (SB n) .bf16 :=
  truncf .bf16 (addf (shapeCast (SB n) v K.cB) (shapeCast (SB n) w K.cB)) K.lt

/-- A narrowed block times a weight half, accumulated from zero. -/
def mm (l : FVec F (SB n) .bf16) (w : Vec F SW .bf16) : FVec F (SB n) .f32 :=
  matmul K.d none l (shapeCast SW w K.cW) (constant (SB n) .f32 0x00000000#32)

/-- A bias row broadcast down the block's rows. -/
def bias (b : Vec F SR .f32) : FVec F (SB n) .f32 := broadcastTo (SB n) (shapeCast SR b K.cR) K.bR

def gate1 (l : FVec F (SB n) .bf16) (w : Vec F SW .bf16) (b : Vec F SR .f32) : FVec F (SB n) .f32 :=
  addf (mm K l w) (bias K b)

def gate2 (l1 l2 : FVec F (SB n) .bf16) (w1 w2 : Vec F SW .bf16) (b : Vec F SR .f32) : FVec F (SB n) .f32 :=
  addf (addf (mm K l1 w1) (mm K l2 w2)) (bias K b)

/-- The internal body's c block from its seventeen input blocks (x, hl, hr, cl, cr; the eight weight halves
    ix ih fx fh ox oh ux uh; the four bias rows i f o u). -/
def payC (x0 x1 x2 x3 x4 : Vec F (SB n) .f32) (x5 x6 x7 x8 x9 x10 x11 x12 : Vec F SW .bf16)
    (x13 x14 x15 x16 : Vec F SR .f32) : FVec F (SB n) .f32 :=
  addf (addf (mulf (logistic (gate2 K (narrow K x0) (narrowSum K x1 x2) x5 x6 x13))
                   (tanh (gate2 K (narrow K x0) (narrowSum K x1 x2) x11 x12 x16)))
             (mulf (logistic (gate2 K (narrow K x0) (narrow K x1) x7 x8 x14)) (shapeCast (SB n) x3 K.cB)))
       (mulf (logistic (gate2 K (narrow K x0) (narrow K x2) x7 x8 x14)) (shapeCast (SB n) x4 K.cB))

/-- The internal body's h block. -/
def payH (x0 x1 x2 x3 x4 : Vec F (SB n) .f32) (x5 x6 x7 x8 x9 x10 x11 x12 : Vec F SW .bf16)
    (x13 x14 x15 x16 : Vec F SR .f32) : FVec F (SB n) .f32 :=
  mulf (logistic (gate2 K (narrow K x0) (narrowSum K x1 x2) x9 x10 x15))
    (tanh (payC K x0 x1 x2 x3 x4 x5 x6 x7 x8 x9 x10 x11 x12 x13 x14 x15 x16))

/-- The leaf body's c block from its seven input blocks (x; the weight halves ix ox ux; the bias rows i o u). -/
def leafPayC (x0 : Vec F (SB n) .f32) (x1 x2 x3 : Vec F SW .bf16) (x4 x5 x6 : Vec F SR .f32) : FVec F (SB n) .f32 :=
  mulf (logistic (gate1 K (narrow K x0) x1 x4)) (tanh (gate1 K (narrow K x0) x3 x6))

/-- The leaf body's h block. -/
def leafPayH (x0 : Vec F (SB n) .f32) (x1 x2 x3 : Vec F SW .bf16) (x4 x5 x6 : Vec F SR .f32) : FVec F (SB n) .f32 :=
  mulf (logistic (gate1 K (narrow K x0) x2 x5)) (tanh (leafPayC K x0 x1 x2 x3 x4 x5 x6))

end Body

/-! ## The block of ONE row (the root level)

With a single row the block's shape is the bias row's shape, and the body adds the bias row as it stands, with no
broadcast. Everything else is the internal body at n = 1. -/

section RowBody

variable {F : FTy → Type} [FloatOps F] (K : BodyCtx 1)

/-- A bias row over a block of one row: the row itself. -/
def biasRow (b : Vec F SR .f32) : FVec F (SB 1) .f32 := shapeCast SR b K.cR

def gate2Row (l1 l2 : FVec F (SB 1) .bf16) (w1 w2 : Vec F SW .bf16) (b : Vec F SR .f32) : FVec F (SB 1) .f32 :=
  addf (addf (mm K l1 w1) (mm K l2 w2)) (biasRow K b)

/-- The one-row internal body's c block. -/
def payCRow (x0 x1 x2 x3 x4 : Vec F (SB 1) .f32) (x5 x6 x7 x8 x9 x10 x11 x12 : Vec F SW .bf16)
    (x13 x14 x15 x16 : Vec F SR .f32) : FVec F (SB 1) .f32 :=
  addf (addf (mulf (logistic (gate2Row K (narrow K x0) (narrowSum K x1 x2) x5 x6 x13))
                   (tanh (gate2Row K (narrow K x0) (narrowSum K x1 x2) x11 x12 x16)))
             (mulf (logistic (gate2Row K (narrow K x0) (narrow K x1) x7 x8 x14)) (shapeCast (SB 1) x3 K.cB)))
       (mulf (logistic (gate2Row K (narrow K x0) (narrow K x2) x7 x8 x14)) (shapeCast (SB 1) x4 K.cB))

/-- The one-row internal body's h block. -/
def payHRow (x0 x1 x2 x3 x4 : Vec F (SB 1) .f32) (x5 x6 x7 x8 x9 x10 x11 x12 : Vec F SW .bf16)
    (x13 x14 x15 x16 : Vec F SR .f32) : FVec F (SB 1) .f32 :=
  mulf (logistic (gate2Row K (narrow K x0) (narrowSum K x1 x2) x9 x10 x15))
    (tanh (payCRow K x0 x1 x2 x3 x4 x5 x6 x7 x8 x9 x10 x11 x12 x13 x14 x15 x16))

end RowBody

/-! ## At the extended reals -/

section Ideal

variable {n : Nat} (K : BodyCtx n)

theorem mm_apply (l : FVec Ideal (SB n) .bf16) (w : Vec Ideal SW .bf16) (p : Fin n) (q : Fin 512) :
    mm K l w (ix2 p q) = ∑ k : Fin 512, l (ix2 p k) * w (ix2 k q) := by
  unfold mm
  rw [shapeCast_self]
  exact LibBlocks.matmul_plain_apply K.d K.hd none l w p q

theorem bias_apply (b : Vec Ideal SR .f32) (p : Fin n) (q : Fin 512) : bias K b (ix2 p q) = b (ix2 (0 : Fin 1) q) := by
  unfold bias
  rw [shapeCast_self]
  exact broadcastTo_apply b K.bR (ix2 p q) (ix2 (0 : Fin 1) q) (fun a => by
    match a with
    | ⟨0, _⟩ => rfl
    | ⟨1, _⟩ =>
      show q.val = if (512 : Nat) = 1 then 0 else q.val
      rw [if_neg (by decide)])

/-- The logistic function of a block, at an element. -/
theorem logistic_at {s : Shape} {φ : FTy} (v : FVec Ideal s φ) (i : s.Idx) : logistic v i = Ideal.logistic (v i) := rfl

/-- The hyperbolic tangent of a block, at an element. -/
theorem tanh_at {s : Shape} {φ : FTy} (v : FVec Ideal s φ) (i : s.Idx) : tanh v i = Ideal.tanh (v i) := rfl

/-- Narrowing is the identity at the extended reals. -/
theorem narrow_apply (v : Vec Ideal (SB n) .f32) (i : (SB n).Idx) : narrow K v i = v i := by
  unfold narrow
  rw [truncf_apply, shapeCast_self]

/-- The narrowed sum of two blocks is their sum, element by element. -/
theorem narrowSum_apply (v w : Vec Ideal (SB n) .f32) (i : (SB n).Idx) : narrowSum K v w i = v i + w i := by
  unfold narrowSum
  rw [truncf_apply, addf_apply, shapeCast_self, shapeCast_self]

/-- A gate over one product, at an element: the sum over the 512 contracted positions plus the bias row's entry. -/
theorem gate1_apply (l : FVec Ideal (SB n) .bf16) (w : Vec Ideal SW .bf16) (b : Vec Ideal SR .f32) (p : Fin n)
    (q : Fin 512) :
    gate1 K l w b (ix2 p q) = (∑ k : Fin 512, l (ix2 p k) * w (ix2 k q)) + b (ix2 (0 : Fin 1) q) := by
  unfold gate1
  rw [addf_apply, mm_apply, bias_apply]

/-- A gate over two products, at an element: the two sums plus the bias row's entry. -/
theorem gate2_apply (l1 l2 : FVec Ideal (SB n) .bf16) (w1 w2 : Vec Ideal SW .bf16) (b : Vec Ideal SR .f32) (p : Fin n)
    (q : Fin 512) :
    gate2 K l1 l2 w1 w2 b (ix2 p q)
      = (∑ k : Fin 512, l1 (ix2 p k) * w1 (ix2 k q)) + (∑ k : Fin 512, l2 (ix2 p k) * w2 (ix2 k q))
        + b (ix2 (0 : Fin 1) q) := by
  unfold gate2
  rw [addf_apply, addf_apply, mm_apply, mm_apply, bias_apply]

/-- A leaf gate of the narrowed x block is the pre-activation over x alone. -/
theorem gate1_narrow (x : Vec Ideal (SB n) .f32) (w : Vec Ideal SW .bf16) (b : Vec Ideal SR .f32) (p : Fin n)
    (q : Fin 512) : gate1 K (narrow K x) w b (ix2 p q) = preK1 x w b p q := by
  rw [gate1_apply]
  unfold preK1
  refine congrArg₂ (· + ·) (Finset.sum_congr rfl fun k _ => ?_) rfl
  rw [narrow_apply]

/-- A gate of the narrowed x block and one narrowed child block is the pre-activation over x and that child. -/
theorem gate2_narrow (x h : Vec Ideal (SB n) .f32) (w1 w2 : Vec Ideal SW .bf16) (b : Vec Ideal SR .f32) (p : Fin n)
    (q : Fin 512) : gate2 K (narrow K x) (narrow K h) w1 w2 b (ix2 p q) = preK x h w1 w2 b p q := by
  rw [gate2_apply]
  unfold preK
  refine congrArg₂ (· + ·) (congrArg₂ (· + ·) (Finset.sum_congr rfl fun k _ => ?_) (Finset.sum_congr rfl fun k _ => ?_)) rfl
  · rw [narrow_apply]
  · rw [narrow_apply]

/-- A gate of the narrowed x block and the narrowed sum of the children is the pre-activation over x and hl + hr. -/
theorem gate2_narrowSum (x h1 h2 : Vec Ideal (SB n) .f32) (w1 w2 : Vec Ideal SW .bf16) (b : Vec Ideal SR .f32)
    (p : Fin n) (q : Fin 512) :
    gate2 K (narrow K x) (narrowSum K h1 h2) w1 w2 b (ix2 p q) = preK x (fun j => h1 j + h2 j) w1 w2 b p q := by
  rw [gate2_apply]
  unfold preK
  refine congrArg₂ (· + ·) (congrArg₂ (· + ·) (Finset.sum_congr rfl fun k _ => ?_) (Finset.sum_congr rfl fun k _ => ?_)) rfl
  · rw [narrow_apply]
  · rw [narrowSum_apply]

theorem payC_eq (x0 x1 x2 x3 x4 : Vec Ideal (SB n) .f32) (x5 x6 x7 x8 x9 x10 x11 x12 : Vec Ideal SW .bf16)
    (x13 x14 x15 x16 : Vec Ideal SR .f32) :
    payC K x0 x1 x2 x3 x4 x5 x6 x7 x8 x9 x10 x11 x12 x13 x14 x15 x16
      = levelC x0 x1 x2 x3 x4 x5 x6 x7 x8 x9 x10 x11 x12 x13 x14 x15 x16 := by
  funext i
  obtain ⟨p, q, rfl⟩ : ∃ (p : Fin n) (q : Fin 512), i = ix2 p q := ⟨i 0, i 1, eq_ix2 i⟩
  show payC K x0 x1 x2 x3 x4 x5 x6 x7 x8 x9 x10 x11 x12 x13 x14 x15 x16 (ix2 p q)
    = cellC (preK x0 (fun j => x1 j + x2 j) x5 x6 x13 p q) (preK x0 (fun j => x1 j + x2 j) x11 x12 x16 p q)
      (preK x0 x1 x7 x8 x14 p q) (preK x0 x2 x7 x8 x14 p q) (x3 (ix2 p q)) (x4 (ix2 p q))
  unfold payC cellC
  rw [addf_apply, addf_apply, mulf_apply, mulf_apply, mulf_apply, logistic_at, logistic_at, logistic_at, tanh_at,
    shapeCast_self, shapeCast_self, gate2_narrowSum, gate2_narrowSum, gate2_narrow, gate2_narrow]

theorem payH_eq (x0 x1 x2 x3 x4 : Vec Ideal (SB n) .f32) (x5 x6 x7 x8 x9 x10 x11 x12 : Vec Ideal SW .bf16)
    (x13 x14 x15 x16 : Vec Ideal SR .f32) :
    payH K x0 x1 x2 x3 x4 x5 x6 x7 x8 x9 x10 x11 x12 x13 x14 x15 x16
      = levelH x0 x1 x2 x3 x4 x5 x6 x7 x8 x9 x10 x11 x12 x13 x14 x15 x16 := by
  funext i
  obtain ⟨p, q, rfl⟩ : ∃ (p : Fin n) (q : Fin 512), i = ix2 p q := ⟨i 0, i 1, eq_ix2 i⟩
  show payH K x0 x1 x2 x3 x4 x5 x6 x7 x8 x9 x10 x11 x12 x13 x14 x15 x16 (ix2 p q)
    = cellH (preK x0 (fun j => x1 j + x2 j) x9 x10 x15 p q)
      (levelC x0 x1 x2 x3 x4 x5 x6 x7 x8 x9 x10 x11 x12 x13 x14 x15 x16 (ix2 p q))
  unfold payH cellH
  rw [mulf_apply, logistic_at, tanh_at, gate2_narrowSum, payC_eq]

theorem leafPayC_eq (x0 : Vec Ideal (SB n) .f32) (x1 x2 x3 : Vec Ideal SW .bf16) (x4 x5 x6 : Vec Ideal SR .f32) :
    leafPayC K x0 x1 x2 x3 x4 x5 x6 = leafLevelC x0 x1 x2 x3 x4 x5 x6 := by
  funext i
  obtain ⟨p, q, rfl⟩ : ∃ (p : Fin n) (q : Fin 512), i = ix2 p q := ⟨i 0, i 1, eq_ix2 i⟩
  show leafPayC K x0 x1 x2 x3 x4 x5 x6 (ix2 p q) = leafC (preK1 x0 x1 x4 p q) (preK1 x0 x3 x6 p q)
  unfold leafPayC leafC
  rw [mulf_apply, logistic_at, tanh_at, gate1_narrow, gate1_narrow]

theorem leafPayH_eq (x0 : Vec Ideal (SB n) .f32) (x1 x2 x3 : Vec Ideal SW .bf16) (x4 x5 x6 : Vec Ideal SR .f32) :
    leafPayH K x0 x1 x2 x3 x4 x5 x6 = leafLevelH x0 x1 x2 x3 x4 x5 x6 := by
  funext i
  obtain ⟨p, q, rfl⟩ : ∃ (p : Fin n) (q : Fin 512), i = ix2 p q := ⟨i 0, i 1, eq_ix2 i⟩
  show leafPayH K x0 x1 x2 x3 x4 x5 x6 (ix2 p q)
    = cellH (preK1 x0 x2 x5 p q) (leafLevelC x0 x1 x2 x3 x4 x5 x6 (ix2 p q))
  unfold leafPayH cellH
  rw [mulf_apply, logistic_at, tanh_at, gate1_narrow, leafPayC_eq]

end Ideal

/-! ## The one-row body at the extended reals -/

section RowIdeal

variable (K : BodyCtx 1)

/-- The only row is row 0, so the bias row's entry under (p, q) is its entry (0, q). -/
theorem biasRow_apply (b : Vec Ideal SR .f32) (p : Fin 1) (q : Fin 512) :
    biasRow K b (ix2 p q) = b (ix2 (0 : Fin 1) q) := by
  have hp : p = 0 := Fin.ext (by have := p.isLt; show p.val = 0; omega)
  unfold biasRow
  rw [shapeCast_self, hp]

theorem gate2Row_apply (l1 l2 : FVec Ideal (SB 1) .bf16) (w1 w2 : Vec Ideal SW .bf16) (b : Vec Ideal SR .f32)
    (p : Fin 1) (q : Fin 512) :
    gate2Row K l1 l2 w1 w2 b (ix2 p q)
      = (∑ k : Fin 512, l1 (ix2 p k) * w1 (ix2 k q)) + (∑ k : Fin 512, l2 (ix2 p k) * w2 (ix2 k q))
        + b (ix2 (0 : Fin 1) q) := by
  unfold gate2Row
  rw [addf_apply, addf_apply, mm_apply, mm_apply, biasRow_apply]

theorem gate2Row_narrow (x h : Vec Ideal (SB 1) .f32) (w1 w2 : Vec Ideal SW .bf16) (b : Vec Ideal SR .f32) (p : Fin 1)
    (q : Fin 512) : gate2Row K (narrow K x) (narrow K h) w1 w2 b (ix2 p q) = preK x h w1 w2 b p q := by
  rw [gate2Row_apply]
  unfold preK
  refine congrArg₂ (· + ·) (congrArg₂ (· + ·) (Finset.sum_congr rfl fun k _ => ?_) (Finset.sum_congr rfl fun k _ => ?_)) rfl
  · rw [narrow_apply]
  · rw [narrow_apply]

theorem gate2Row_narrowSum (x h1 h2 : Vec Ideal (SB 1) .f32) (w1 w2 : Vec Ideal SW .bf16) (b : Vec Ideal SR .f32)
    (p : Fin 1) (q : Fin 512) :
    gate2Row K (narrow K x) (narrowSum K h1 h2) w1 w2 b (ix2 p q) = preK x (fun j => h1 j + h2 j) w1 w2 b p q := by
  rw [gate2Row_apply]
  unfold preK
  refine congrArg₂ (· + ·) (congrArg₂ (· + ·) (Finset.sum_congr rfl fun k _ => ?_) (Finset.sum_congr rfl fun k _ => ?_)) rfl
  · rw [narrow_apply]
  · rw [narrowSum_apply]

theorem payCRow_eq (x0 x1 x2 x3 x4 : Vec Ideal (SB 1) .f32) (x5 x6 x7 x8 x9 x10 x11 x12 : Vec Ideal SW .bf16)
    (x13 x14 x15 x16 : Vec Ideal SR .f32) :
    payCRow K x0 x1 x2 x3 x4 x5 x6 x7 x8 x9 x10 x11 x12 x13 x14 x15 x16
      = levelC (n := 1) x0 x1 x2 x3 x4 x5 x6 x7 x8 x9 x10 x11 x12 x13 x14 x15 x16 := by
  funext i
  obtain ⟨p, q, rfl⟩ : ∃ (p : Fin 1) (q : Fin 512), i = ix2 p q := ⟨i 0, i 1, eq_ix2 i⟩
  show payCRow K x0 x1 x2 x3 x4 x5 x6 x7 x8 x9 x10 x11 x12 x13 x14 x15 x16 (ix2 p q)
    = cellC (preK x0 (fun j => x1 j + x2 j) x5 x6 x13 p q) (preK x0 (fun j => x1 j + x2 j) x11 x12 x16 p q)
      (preK x0 x1 x7 x8 x14 p q) (preK x0 x2 x7 x8 x14 p q) (x3 (ix2 p q)) (x4 (ix2 p q))
  unfold payCRow cellC
  rw [addf_apply, addf_apply, mulf_apply, mulf_apply, mulf_apply, logistic_at, logistic_at, logistic_at, tanh_at,
    shapeCast_self, shapeCast_self, gate2Row_narrowSum, gate2Row_narrowSum, gate2Row_narrow, gate2Row_narrow]

theorem payHRow_eq (x0 x1 x2 x3 x4 : Vec Ideal (SB 1) .f32) (x5 x6 x7 x8 x9 x10 x11 x12 : Vec Ideal SW .bf16)
    (x13 x14 x15 x16 : Vec Ideal SR .f32) :
    payHRow K x0 x1 x2 x3 x4 x5 x6 x7 x8 x9 x10 x11 x12 x13 x14 x15 x16
      = levelH (n := 1) x0 x1 x2 x3 x4 x5 x6 x7 x8 x9 x10 x11 x12 x13 x14 x15 x16 := by
  funext i
  obtain ⟨p, q, rfl⟩ : ∃ (p : Fin 1) (q : Fin 512), i = ix2 p q := ⟨i 0, i 1, eq_ix2 i⟩
  show payHRow K x0 x1 x2 x3 x4 x5 x6 x7 x8 x9 x10 x11 x12 x13 x14 x15 x16 (ix2 p q)
    = cellH (preK x0 (fun j => x1 j + x2 j) x9 x10 x15 p q)
      (levelC (n := 1) x0 x1 x2 x3 x4 x5 x6 x7 x8 x9 x10 x11 x12 x13 x14 x15 x16 (ix2 p q))
  unfold payHRow cellH
  rw [mulf_apply, logistic_at, tanh_at, gate2Row_narrowSum, payCRow_eq]

end RowIdeal

end Cert.Tree

end
-- ==== Proof.KReg0.lean ====
/-
  The leaf level on the kernel's side: 16384 leaves, worked in blocks of 1024 node rows, one block per grid point. What
  the level's two output arrays hold after the region, whatever the arrays hold when it is entered.

  Grid point t reads block t (rows 1024 t … 1024 t + 1023) of x, the whole of the three weight halves over x and of the
  three bias rows, and writes block t of h and of c. The block body is the leaf cell over the block's own arrays, a row
  of the cell reads only that row of x, and the blocks tile the level: so the h array ends at the leaf level's h of the
  seven arrays as the region finds them, and the c array at the leaf level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg0.N * 1024 = 16384 := by decide

/-! The printed index maps, decided over the grid: a row array's block at point t is block (t, 0); a weight half or a
    bias row is one block, (0, 0). -/

theorem idx0 : ∀ t : Fin cfg0.N, win0_0.index t (0 : Fin 2) = t.val ∧ win0_0.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## The blocks the body reads

A block's entry sits in its array, on each axis, at the block index times the block's extent plus the entry's own
coordinate. So entry (p, k) of block t of x is the array's entry (1024 t + p, k), and the one block of a weight half or
of a bias row is the array itself. -/

section Reads

variable (V : (c : Dev nD) → (b : Ref sig .tc) → Buf (Elt Ideal) ((c : Thread nD τ).loc b))
variable (c : Dev nD) (t : Fin cfg0.N)

/-- Block t of x, at an entry. -/
theorem read_x (y : S1024x512.Idx) (i : S16384x512.Idx) (h0 : (i 0).val = t.val * 1024 + (y 0).val) (h1 : (i 1).val = (y 1).val) :
    (iblk0 V c 0 t : Vec Ideal S1024x512 .f32) y = (V c main_v30 : S16384x512.Idx → EReal) i := by
  obtain ⟨e0, e1⟩ := idx0 t
  unfold iblk0
  rw [View.read_apply]
  show V c main_v30 _ = V c main_v30 _
  refine congrArg (V c main_v30) (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The one block of the input gate's weights over x is the array. -/
theorem read_wix : (iblk0 V c 1 t : Vec Ideal S512x512 .bf16) = (V c main_v2 : S512x512.Idx → EReal) := by
  obtain ⟨e0, e1⟩ := idx1 t
  funext y
  unfold iblk0
  rw [View.read_apply]
  show V c main_v2 _ = V c main_v2 y
  refine congrArg (V c main_v2) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The one block of the output gate's weights over x is the array. -/
theorem read_wox : (iblk0 V c 2 t : Vec Ideal S512x512 .bf16) = (V c main_v14 : S512x512.Idx → EReal) := by
  obtain ⟨e0, e1⟩ := idx2 t
  funext y
  unfold iblk0
  rw [View.read_apply]
  show V c main_v14 _ = V c main_v14 y
  refine congrArg (V c main_v14) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The one block of the update gate's weights over x is the array. -/
theorem read_wux : (iblk0 V c 3 t : Vec Ideal S512x512 .bf16) = (V c main_v20 : S512x512.Idx → EReal) := by
  obtain ⟨e0, e1⟩ := idx3 t
  funext y
  unfold iblk0
  rw [View.read_apply]
  show V c main_v20 _ = V c main_v20 y
  refine congrArg (V c main_v20) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The one block of the input gate's bias row is the array. -/
theorem read_bi : (iblk0 V c 4 t : Vec Ideal S1x512 .f32) = (V c main_v24 : S1x512.Idx → EReal) := by
  obtain ⟨e0, e1⟩ := idx4 t
  funext y
  unfold iblk0
  rw [View.read_apply]
  show V c main_v24 _ = V c main_v24 y
  refine congrArg (V c main_v24) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The one block of the output gate's bias row is the array. -/
theorem read_bo : (iblk0 V c 5 t : Vec Ideal S1x512 .f32) = (V c main_v26 : S1x512.Idx → EReal) := by
  obtain ⟨e0, e1⟩ := idx5 t
  funext y
  unfold iblk0
  rw [View.read_apply]
  show V c main_v26 _ = V c main_v26 y
  refine congrArg (V c main_v26) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The one block of the update gate's bias row is the array. -/
theorem read_bu : (iblk0 V c 6 t : Vec Ideal S1x512 .f32) = (V c main_v27 : S1x512.Idx → EReal) := by
  obtain ⟨e0, e1⟩ := idx6 t
  funext y
  unfold iblk0
  rw [View.read_apply]
  show V c main_v27 _ = V c main_v27 y
  refine congrArg (V c main_v27) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

end Reads

/-! ## The block body -/

/-- What a block body of 1024 rows carries besides its arrays. -/
def ctx : Cert.Tree.BodyCtx 1024 :=
  ⟨dot_S1024x512_S512x512_S1024x512_1_0_0_1_n_n, rfl, shapeCasts_S1024x512_S1024x512, shapeCasts_S512x512_S512x512,
    shapeCasts_S1x512_S1x512, broadcasts_S1x512_S1024x512, bitsLt_bf16_f32⟩

section Body

variable {F : FTy → Type} [FloatOps F]

/-- The value the body stores into its h block is the leaf cell's h block of the seven blocks it loads. -/
theorem bodyH_eq (x0 : Vec F S1024x512 .f32) (x1 x2 x3 : Vec F S512x512 .bf16) (x4 x5 x6 : Vec F S1x512 .f32) :
    k0_pay3 x0 x1 x4 x2 x5 x3 x6 = Cert.Tree.leafPayH ctx x0 x1 x2 x3 x4 x5 x6 := rfl

/-- The value the body stores into its c block is the leaf cell's c block of the seven blocks it loads. -/
theorem bodyC_eq (x0 : Vec F S1024x512 .f32) (x1 x2 x3 : Vec F S512x512 .bf16) (x4 x5 x6 : Vec F S1x512 .f32) :
    k0_pay2 x0 x1 x4 x3 x6 = Cert.Tree.leafPayC ctx x0 x1 x2 x3 x4 x5 x6 := rfl

end Body

/-- Entry (p, q) of the body's h block, when row p of the x block is row r of the level's x and the weight and bias
    blocks are the arrays: the leaf level's h at (r, q). -/
theorem bodyH_at (x0 : Vec Ideal S1024x512 .f32) (x1 x2 x3 : Vec Ideal S512x512 .bf16) (x4 x5 x6 : Vec Ideal S1x512 .f32)
    (X : S16384x512.Idx → EReal) (w1 w2 w3 : S512x512.Idx → EReal) (b4 b5 b6 : S1x512.Idx → EReal)
    (p : Fin 1024) (r : Fin 16384) (q : Fin 512)
    (h0 : ∀ k : Fin 512, x0 (ix2 p k) = X (ix2 r k))
    (e1 : x1 = w1) (e2 : x2 = w2) (e3 : x3 = w3) (e4 : x4 = b4) (e5 : x5 = b5) (e6 : x6 = b6) :
    (k0_pay3 x0 x1 x4 x2 x5 x3 x6) (ix2 p q) = Cert.Tree.leafLevelH X w1 w2 w3 b4 b5 b6 (ix2 r q) := by
  subst e1 e2 e3 e4 e5 e6
  exact (congrFun (bodyH_eq x0 x1 x2 x3 x4 x5 x6) (ix2 p q)).trans
    ((congrFun (Cert.Tree.leafPayH_eq ctx x0 x1 x2 x3 x4 x5 x6) (ix2 p q)).trans
      (Cert.Tree.leafLevelH_rows x0 X x1 x2 x3 x4 x5 x6 p r q h0))

/-- Entry (p, q) of the body's c block, when row p of the x block is row r of the level's x and the weight and bias
    blocks are the arrays: the leaf level's c at (r, q). -/
theorem bodyC_at (x0 : Vec Ideal S1024x512 .f32) (x1 x2 x3 : Vec Ideal S512x512 .bf16) (x4 x5 x6 : Vec Ideal S1x512 .f32)
    (X : S16384x512.Idx → EReal) (w1 w2 w3 : S512x512.Idx → EReal) (b4 b5 b6 : S1x512.Idx → EReal)
    (p : Fin 1024) (r : Fin 16384) (q : Fin 512)
    (h0 : ∀ k : Fin 512, x0 (ix2 p k) = X (ix2 r k))
    (e1 : x1 = w1) (e2 : x2 = w2) (e3 : x3 = w3) (e4 : x4 = b4) (e5 : x5 = b5) (e6 : x6 = b6) :
    (k0_pay2 x0 x1 x4 x3 x6) (ix2 p q) = Cert.Tree.leafLevelC X w1 w2 w3 b4 b5 b6 (ix2 r q) := by
  subst e1 e2 e3 e4 e5 e6
  exact (congrFun (bodyC_eq x0 x1 x2 x3 x4 x5 x6) (ix2 p q)).trans
    ((congrFun (Cert.Tree.leafPayC_eq ctx x0 x1 x2 x3 x4 x5 x6) (ix2 p q)).trans
      (Cert.Tree.leafLevelC_rows x0 X x1 x2 x3 x4 x5 x6 p r q h0))

/-! ## From the blocks to the arrays -/

section Arrays

variable (V : (c : Dev nD) → (b : Ref sig .tc) → Buf (Elt Ideal) ((c : Thread nD τ).loc b))

/-- The leaf level's h of the seven arrays as the region finds them. -/
def GH (c : Dev nD) : S16384x512.Idx → EReal :=
  Cert.Tree.leafLevelH (n := 16384) (V c main_v30) (V c main_v2) (V c main_v14) (V c main_v20) (V c main_v24) (V c main_v26) (V c main_v27)

/-- The leaf level's c of the seven arrays as the region finds them. -/
def GC (c : Dev nD) : S16384x512.Idx → EReal :=
  Cert.Tree.leafLevelC (n := 16384) (V c main_v30) (V c main_v2) (V c main_v14) (V c main_v20) (V c main_v24) (V c main_v26) (V c main_v27)

/-- What point t writes back to the h array is block t of the leaf level's h. -/
theorem flushedH (c : Dev nD) (t : Fin cfg0.N) :
    (dat0 V c).flushed 7 t = ((cfg0.win 7).blk t).view.read (Elt Ideal) (GH V c) := by
  show (cfg0.win 7).cut (grid0.coords t) ((dat0 V c).after 7 t) = _
  rw [after0_7]
  unfold out0_7
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg0.N := t.isLt
  have hN : cfg0.N * 1024 = 16384 := points_rows
  have hr : t.val * 1024 + p.val < 16384 := by omega
  obtain ⟨e0, e1⟩ := idx7 t
  refine Eq.trans (b := GH V c (ix2 (⟨t.val * 1024 + p.val, hr⟩ : Fin 16384) q)) ?_ ?_
  · exact bodyH_at (iblk0 V c 0 t) (iblk0 V c 1 t) (iblk0 V c 2 t) (iblk0 V c 3 t) (iblk0 V c 4 t) (iblk0 V c 5 t) (iblk0 V c 6 t)
      (V c main_v30) (V c main_v2) (V c main_v14) (V c main_v20) (V c main_v24) (V c main_v26) (V c main_v27)
      p ⟨t.val * 1024 + p.val, hr⟩ q
      (fun k => read_x V c t (ix2 p k) (ix2 ⟨t.val * 1024 + p.val, hr⟩ k) rfl rfl)
      (read_wix V c t) (read_wox V c t) (read_wux V c t) (read_bi V c t) (read_bo V c t) (read_bu V c t)
  · show GH V c _ = GH V c (((cfg0.win 7).blk t).view.emb (ix2 p q))
    refine congrArg (GH V c) (funext fun a => Fin.ext ?_)
    match a with
    | ⟨0, _⟩ => show t.val * 1024 + p.val = win0_7.index t (0 : Fin 2) * 1024 + 1 * p.val; omega
    | ⟨1, _⟩ => show q.val = win0_7.index t (1 : Fin 2) * 512 + 1 * q.val; omega

/-- An entry of the h array is in point t's block iff each coordinate is in the block's range on its axis. -/
theorem mem_blkH (t : Fin cfg0.N) (i : S16384x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v31_0).slice (win0_7.rect t)).set ↔ _
  rw [View.set_slice_whole, Rect.mem_set_unit]
  exact Iff.rfl

/-- The blocks tile the h array: row r is in the block of point r / 1024. -/
theorem coverH (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N * 1024 = 16384 := points_rows
  obtain ⟨hq, hlo, hhi⟩ := Cert.LibBlocks.row_in_block (nb := cfg0.N) (bs := 1024) (r := (i 0).val) (by omega) (by omega)
  obtain ⟨e0, e1⟩ := idx7 (⟨(i 0).val / 1024, hq⟩ : Fin cfg0.N)
  refine ⟨⟨(i 0).val / 1024, hq⟩, flush0_7 _, ?_⟩
  rw [mem_blkH]
  intro a
  match a with
  | ⟨0, _⟩ =>
    show win0_7.index ⟨(i 0).val / 1024, hq⟩ (0 : Fin 2) * 1024 ≤ (i 0).val
      ∧ (i 0).val < win0_7.index ⟨(i 0).val / 1024, hq⟩ (0 : Fin 2) * 1024 + 1024
    rw [e0]
    exact ⟨hlo, hhi⟩
  | ⟨1, _⟩ =>
    show win0_7.index ⟨(i 0).val / 1024, hq⟩ (1 : Fin 2) * 512 ≤ (i 1).val
      ∧ (i 1).val < win0_7.index ⟨(i 0).val / 1024, hq⟩ (1 : Fin 2) * 512 + 512
    omega

/-- What point t writes back to the c array is block t of the leaf level's c. -/
theorem flushedC (c : Dev nD) (t : Fin cfg0.N) :
    (dat0 V c).flushed 8 t = ((cfg0.win 8).blk t).view.read (Elt Ideal) (GC V c) := by
  show (cfg0.win 8).cut (grid0.coords t) ((dat0 V c).after 8 t) = _
  rw [after0_8]
  unfold out0_8
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg0.N := t.isLt
  have hN : cfg0.N * 1024 = 16384 := points_rows
  have hr : t.val * 1024 + p.val < 16384 := by omega
  obtain ⟨e0, e1⟩ := idx8 t
  refine Eq.trans (b := GC V c (ix2 (⟨t.val * 1024 + p.val, hr⟩ : Fin 16384) q)) ?_ ?_
  · exact bodyC_at (iblk0 V c 0 t) (iblk0 V c 1 t) (iblk0 V c 2 t) (iblk0 V c 3 t) (iblk0 V c 4 t) (iblk0 V c 5 t) (iblk0 V c 6 t)
      (V c main_v30) (V c main_v2) (V c main_v14) (V c main_v20) (V c main_v24) (V c main_v26) (V c main_v27)
      p ⟨t.val * 1024 + p.val, hr⟩ q
      (fun k => read_x V c t (ix2 p k) (ix2 ⟨t.val * 1024 + p.val, hr⟩ k) rfl rfl)
      (read_wix V c t) (read_wox V c t) (read_wux V c t) (read_bi V c t) (read_bo V c t) (read_bu V c t)
  · show GC V c _ = GC V c (((cfg0.win 8).blk t).view.emb (ix2 p q))
    refine congrArg (GC V c) (funext fun a => Fin.ext ?_)
    match a with
    | ⟨0, _⟩ => show t.val * 1024 + p.val = win0_8.index t (0 : Fin 2) * 1024 + 1 * p.val; omega
    | ⟨1, _⟩ => show q.val = win0_8.index t (1 : Fin 2) * 512 + 1 * q.val; omega

/-- An entry of the c array is in point t's block iff each coordinate is in the block's range on its axis. -/
theorem mem_blkC (t : Fin cfg0.N) (i : S16384x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v31_1).slice (win0_8.rect t)).set ↔ _
  rw [View.set_slice_whole, Rect.mem_set_unit]
  exact Iff.rfl

/-- The blocks tile the c array: row r is in the block of point r / 1024. -/
theorem coverC (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N * 1024 = 16384 := points_rows
  obtain ⟨hq, hlo, hhi⟩ := Cert.LibBlocks.row_in_block (nb := cfg0.N) (bs := 1024) (r := (i 0).val) (by omega) (by omega)
  obtain ⟨e0, e1⟩ := idx8 (⟨(i 0).val / 1024, hq⟩ : Fin cfg0.N)
  refine ⟨⟨(i 0).val / 1024, hq⟩, flush0_8 _, ?_⟩
  rw [mem_blkC]
  intro a
  match a with
  | ⟨0, _⟩ =>
    show win0_8.index ⟨(i 0).val / 1024, hq⟩ (0 : Fin 2) * 1024 ≤ (i 0).val
      ∧ (i 0).val < win0_8.index ⟨(i 0).val / 1024, hq⟩ (0 : Fin 2) * 1024 + 1024
    rw [e0]
    exact ⟨hlo, hhi⟩
  | ⟨1, _⟩ =>
    show win0_8.index ⟨(i 0).val / 1024, hq⟩ (1 : Fin 2) * 512 ≤ (i 1).val
      ∧ (i 1).val < win0_8.index ⟨(i 0).val / 1024, hq⟩ (1 : Fin 2) * 512 + 512
    omega

/-- After the region the h array holds the leaf level's h of the seven arrays as the region finds them. -/
theorem arrH (c : Dev nD) :
    (dat0 (F := Ideal) V c).arrAt 7 cfg0.N
      = Cert.Tree.leafLevelH (n := 16384) (V c main_v30) (V c main_v2) (V c main_v14) (V c main_v20) (V c main_v24) (V c main_v26) (V c main_v27) :=
  (dat0 V c).arrAt_eq_of_cover 7 (GH V c) (fun t _ => flushedH V c t) coverH

/-- After the region the c array holds the leaf level's c of the seven arrays as the region finds them. -/
theorem arrC (c : Dev nD) :
    (dat0 (F := Ideal) V c).arrAt 8 cfg0.N
      = Cert.Tree.leafLevelC (n := 16384) (V c main_v30) (V c main_v2) (V c main_v14) (V c main_v20) (V c main_v24) (V c main_v26) (V c main_v27) :=
  (dat0 V c).arrAt_eq_of_cover 8 (GC V c) (fun t _ => flushedC V c t) coverC

end Arrays

end Cert.KernelIdeal.Reg0

end
-- ==== Proof.LibRefLevel.lean ====
/-
  One level of the tree cell as the host program writes it, generic in the number N of nodes on the level, and what
  it computes at the extended reals.

  The host concatenates the level's x rows with a children's array along the columns ([N, 512] and [N, 512] to
  [N, 1024]), multiplies by the transposed weights ([512, 1024] to [1024, 512]) contracting the 1024 positions, adds
  the bias broadcast to a row and then down the rows, and writes the logistic function as 1 / (1 + exp (-z)). At the
  extended reals the product's entry (r, q) is the sum over the 1024 positions k of [x ; h] (r, k) * W (q, k), entry
  k of the concatenation is x's for k < 512 and h's (k - 512) otherwise, and 1 / (1 + exp (-z)) IS the logistic
  function; so the level is LibTree's level function over the weights as given. At a leaf the children's array is
  zero. The last level is a single row; there the host adds the bias row as it is, with no broadcast down the rows
  (`hostGateRow`), and the entries are the same.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«110311_j37117107372689_1_alg».proof.Proof.LibBlocks
import proofs.«110311_j37117107372689_1_alg».proof.Proof.LibTree

noncomputable section

open scoped BigOperators

namespace Cert.Tree

open Idealize.ShloMosaic Idealize.ShloMosaic.ValueIdx

/-- [x ; h] for a level of N nodes. -/
abbrev SC (N : Nat) : Shape := ⟨2, ![N, 1024]⟩
/-- The transposed weights. -/
abbrev ST : Shape := ⟨2, ![1024, 512]⟩
/-- A scalar. -/
abbrev S0 : Shape := ⟨0, ![]⟩

/-- What a host level of N nodes carries besides its arrays. -/
structure HostCtx (N : Nat) where
  d : DotDims (SC N) ST (SB N)
  hd : d = DotDims.plain N 1024 512
  cat : Shape.Concatenates ([SB N, SB N]) (SC N) 1
  tr : SG.Transposes [1, 0] ST
  b1 : SV.BroadcastsInDim SR ![1]
  bd : SR.BroadcastsInDim (SB N) ![0, 1]
  b0 : S0.BroadcastsInDim (SB N) ![]

section Host

variable {F : FTy → Type} [FloatOps F] {N : Nat} (R : HostCtx N)

/-- A gate's pre-activation: [x ; h] times the transposed weights, plus the bias. -/
def hostGate (x h : Vec F (SB N) .f32) (W : Vec F SG .f32) (b : Vec F SV .f32) : FVec F (SB N) .f32 :=
  addf (Host.dotGeneral R.d none (concatenate (SC N) 1 [⟨SB N, x⟩, ⟨SB N, h⟩] R.cat) (transpose ST [1, 0] W R.tr))
    (broadcastInDim (SB N) ![0, 1] R.bd (broadcastInDim SR ![1] R.b1 b))

/-- 1 / (1 + exp (-z)), the ones broadcast scalars. -/
def hostSig (z : FVec F (SB N) .f32) : FVec F (SB N) .f32 :=
  Host.divf (broadcastInDim (SB N) ![] R.b0 (constant S0 .f32 0x3F800000#32))
    (addf (broadcastInDim (SB N) ![] R.b0 (constant S0 .f32 0x3F800000#32)) (Host.exp (Host.negf z)))

def hostLevelC (x hl hr cl cr : Vec F (SB N) .f32) (Wi Wf Wo Wu : Vec F SG .f32) (bi bf bo bu : Vec F SV .f32) :
    FVec F (SB N) .f32 :=
  addf (addf (mulf (hostSig R (hostGate R x (addf hl hr) Wi bi)) (Host.tanh (hostGate R x (addf hl hr) Wu bu)))
             (mulf (hostSig R (hostGate R x hl Wf bf)) cl))
       (mulf (hostSig R (hostGate R x hr Wf bf)) cr)

def hostLevelH (x hl hr cl cr : Vec F (SB N) .f32) (Wi Wf Wo Wu : Vec F SG .f32) (bi bf bo bu : Vec F SV .f32) :
    FVec F (SB N) .f32 :=
  mulf (hostSig R (hostGate R x (addf hl hr) Wo bo))
    (Host.tanh (hostLevelC R x hl hr cl cr Wi Wf Wo Wu bi bf bo bu))

/-- The zero children's array of a leaf level. -/
def hostZeros : FVec F (SB N) .f32 := broadcastInDim (SB N) ![] R.b0 (constant S0 .f32 0x00000000#32)

def hostLeafC (x : Vec F (SB N) .f32) (Wi Wo Wu : Vec F SG .f32) (bi bo bu : Vec F SV .f32) : FVec F (SB N) .f32 :=
  mulf (hostSig R (hostGate R x (hostZeros R) Wi bi)) (Host.tanh (hostGate R x (hostZeros R) Wu bu))

def hostLeafH (x : Vec F (SB N) .f32) (Wi Wo Wu : Vec F SG .f32) (bi bo bu : Vec F SV .f32) : FVec F (SB N) .f32 :=
  mulf (hostSig R (hostGate R x (hostZeros R) Wo bo)) (Host.tanh (hostLeafC R x Wi Wo Wu bi bo bu))

end Host

section HostRow

variable {F : FTy → Type} [FloatOps F] (R : HostCtx 1)

/-- A gate's pre-activation on a level of one node: the bias row is added as it is. -/
def hostGateRow (x h : Vec F (SB 1) .f32) (W : Vec F SG .f32) (b : Vec F SV .f32) : FVec F (SB 1) .f32 :=
  addf (Host.dotGeneral R.d none (concatenate (SC 1) 1 [⟨SB 1, x⟩, ⟨SB 1, h⟩] R.cat) (transpose ST [1, 0] W R.tr))
    (broadcastInDim SR ![1] R.b1 b)

def hostLevelCRow (x hl hr cl cr : Vec F (SB 1) .f32) (Wi Wf Wo Wu : Vec F SG .f32) (bi bf bo bu : Vec F SV .f32) :
    FVec F (SB 1) .f32 :=
  addf (addf (mulf (hostSig R (hostGateRow R x (addf hl hr) Wi bi)) (Host.tanh (hostGateRow R x (addf hl hr) Wu bu)))
             (mulf (hostSig R (hostGateRow R x hl Wf bf)) cl))
       (mulf (hostSig R (hostGateRow R x hr Wf bf)) cr)

def hostLevelHRow (x hl hr cl cr : Vec F (SB 1) .f32) (Wi Wf Wo Wu : Vec F SG .f32) (bi bf bo bu : Vec F SV .f32) :
    FVec F (SB 1) .f32 :=
  mulf (hostSig R (hostGateRow R x (addf hl hr) Wo bo))
    (Host.tanh (hostLevelCRow R x hl hr cl cr Wi Wf Wo Wu bi bf bo bu))

end HostRow

/-! ## At the extended reals -/

section Ideal

variable {N : Nat} (R : HostCtx N)

/-- Entry (r, q) of [x ; h] times the transposed weights: the sum over the 1024 positions of [x ; h] (r, k) W (q, k). -/
private theorem hostDot_apply (x h : Vec Ideal (SB N) .f32) (W : Vec Ideal SG .f32) (r : Fin N) (q : Fin 512) :
    Host.dotGeneral (F := Ideal) (φ₁ := .f32) (φ₂ := .f32) R.d none (concatenate (SC N) 1 [⟨SB N, x⟩, ⟨SB N, h⟩] R.cat)
        (transpose ST [1, 0] W R.tr) (ix2 r q)
      = ∑ k : Fin 1024, cat x h r k * W (ix2 q k) := by
  have hcat : ∀ k : Fin 1024, concatenate (SC N) 1 [⟨SB N, x⟩, ⟨SB N, h⟩] R.cat (ix2 r k) = cat x h r k := fun k => by
    unfold cat
    by_cases hk : k.val < 512
    · rw [dif_pos hk]
      exact concatenate_pair_apply_left _ x h R.cat (ix2 r k) rfl (ix2 r ⟨k.val, hk⟩)
        (fun a => by match a with | ⟨0, _⟩ => rfl | ⟨1, _⟩ => rfl)
    · rw [dif_neg hk]
      exact concatenate_pair_apply_right _ x h R.cat (ix2 r k) rfl rfl
        (ix2 r ⟨k.val - 512, by have := k.isLt; omega⟩)
        (fun a ha => by match a, ha with | ⟨0, _⟩, _ => rfl | ⟨1, _⟩, ha => exact absurd rfl ha)
        (by show k.val - 512 + 512 = k.val; omega)
  have htr : ∀ k : Fin 1024, transpose ST [1, 0] W R.tr (ix2 k q) = W (ix2 q k) := fun k =>
    transpose_apply [1, 0] W R.tr (ix2 k q) (ix2 q k) (fun a => by match a with | ⟨0, _⟩ => rfl | ⟨1, _⟩ => rfl)
  have hsum : (∑ k : Fin 1024, concatenate (SC N) 1 [⟨SB N, x⟩, ⟨SB N, h⟩] R.cat (ix2 r k)
        * transpose ST [1, 0] W R.tr (ix2 k q)) = ∑ k : Fin 1024, cat x h r k * W (ix2 q k) :=
    Finset.sum_congr rfl fun k _ => by rw [hcat k, htr k]
  show FloatOps.dotGeneral R.d none .single
        (concatenate (SC N) 1 [⟨SB N, x⟩, ⟨SB N, h⟩] R.cat : FVec Ideal (SC N) .f32)
        (transpose ST [1, 0] W R.tr : FVec Ideal ST .f32) (ix2 r q) = _
  rw [LibBlocks.dotGeneral_plain_apply R.d R.hd, hsum]

/-- The bias as a row, at column q. -/
private theorem biasRow_apply (hb : SV.BroadcastsInDim SR ![1]) (b : Vec Ideal SV .f32) (r : Fin 1) (q : Fin 512) :
    broadcastInDim SR ![1] hb b (ix2 r q) = b (ix1 q) :=
  broadcastInDim_apply ![1] hb b (ix2 r q) (ix1 q) (fun a => by
    match a with
    | ⟨0, _⟩ =>
      show q.val = if (512 : Nat) = 1 then 0 else q.val
      exact (if_neg (by decide)).symm)

theorem hostGate_apply (x h : Vec Ideal (SB N) .f32) (W : Vec Ideal SG .f32) (b : Vec Ideal SV .f32)
    (r : Fin N) (q : Fin 512) : hostGate R x h W b (ix2 r q) = preR x h W b r q := by
  unfold hostGate preR
  rw [addf_apply, hostDot_apply, broadcastInDim_apply ![0, 1] R.bd _ (ix2 r q) (ix2 (0 : Fin 1) q) (fun a => by
      match a with
      | ⟨0, _⟩ => rfl
      | ⟨1, _⟩ =>
        show q.val = if (512 : Nat) = 1 then 0 else q.val
        exact (if_neg (by decide)).symm), biasRow_apply]

theorem hostSig_apply (z : FVec Ideal (SB N) .f32) (i : (SB N).Idx) : hostSig R z i = Ideal.logistic (z i) := by
  show Ideal.div (Ideal.ofBits .f32 0x3F800000#32) (Ideal.ofBits .f32 0x3F800000#32 + Ideal.exp (-(z i)))
    = Ideal.logistic (z i)
  rw [Ideal.ofBits_one_f32]
  rfl

/-- The host's tanh of an array, at an index. -/
private theorem hostTanh_apply (v : FVec Ideal (SB N) .f32) (i : (SB N).Idx) : Host.tanh v i = Ideal.tanh (v i) := rfl

/-- The sum of two arrays is the array of the sums. -/
private theorem addf_fun (a b : FVec Ideal (SB N) .f32) : addf a b = fun j => a j + b j := rfl

/-- The zero children's array is zero everywhere. -/
private theorem hostZeros_eq : hostZeros (F := Ideal) R = fun _ => 0 := by
  funext i
  unfold hostZeros
  rw [broadcastInDim_scalar_apply, constant_apply, Ideal.ofBits_zero_f32]

theorem hostLevelC_eq (x hl hr cl cr : Vec Ideal (SB N) .f32) (Wi Wf Wo Wu : Vec Ideal SG .f32)
    (bi bf bo bu : Vec Ideal SV .f32) :
    hostLevelC R x hl hr cl cr Wi Wf Wo Wu bi bf bo bu = refLevelC x hl hr cl cr Wi Wf Wo Wu bi bf bo bu := by
  funext i
  obtain ⟨r, q, rfl⟩ : ∃ (r : Fin N) (q : Fin 512), i = ix2 r q := ⟨i 0, i 1, eq_ix2 i⟩
  have hR : refLevelC x hl hr cl cr Wi Wf Wo Wu bi bf bo bu (ix2 r q)
      = cellC (preR x (fun j => hl j + hr j) Wi bi r q) (preR x (fun j => hl j + hr j) Wu bu r q)
        (preR x hl Wf bf r q) (preR x hr Wf bf r q) (cl (ix2 r q)) (cr (ix2 r q)) := rfl
  rw [hR]
  unfold hostLevelC cellC
  rw [addf_apply, addf_apply, mulf_apply, mulf_apply, mulf_apply, hostTanh_apply, hostSig_apply, hostSig_apply,
    hostSig_apply, hostGate_apply, hostGate_apply, hostGate_apply, hostGate_apply, addf_fun]

theorem hostLevelH_eq (x hl hr cl cr : Vec Ideal (SB N) .f32) (Wi Wf Wo Wu : Vec Ideal SG .f32)
    (bi bf bo bu : Vec Ideal SV .f32) :
    hostLevelH R x hl hr cl cr Wi Wf Wo Wu bi bf bo bu = refLevelH x hl hr cl cr Wi Wf Wo Wu bi bf bo bu := by
  funext i
  obtain ⟨r, q, rfl⟩ : ∃ (r : Fin N) (q : Fin 512), i = ix2 r q := ⟨i 0, i 1, eq_ix2 i⟩
  have hR : refLevelH x hl hr cl cr Wi Wf Wo Wu bi bf bo bu (ix2 r q)
      = cellH (preR x (fun j => hl j + hr j) Wo bo r q) (refLevelC x hl hr cl cr Wi Wf Wo Wu bi bf bo bu (ix2 r q)) := rfl
  rw [hR]
  unfold hostLevelH cellH
  rw [mulf_apply, hostTanh_apply, hostSig_apply, hostGate_apply, hostLevelC_eq, addf_fun]

theorem hostLeafC_eq (x : Vec Ideal (SB N) .f32) (Wi Wo Wu : Vec Ideal SG .f32) (bi bo bu : Vec Ideal SV .f32) :
    hostLeafC R x Wi Wo Wu bi bo bu = refLeafC x Wi Wo Wu bi bo bu := by
  funext i
  obtain ⟨r, q, rfl⟩ : ∃ (r : Fin N) (q : Fin 512), i = ix2 r q := ⟨i 0, i 1, eq_ix2 i⟩
  have hR : refLeafC x Wi Wo Wu bi bo bu (ix2 r q)
      = leafC (preR x (fun _ => 0) Wi bi r q) (preR x (fun _ => 0) Wu bu r q) := rfl
  rw [hR]
  unfold hostLeafC leafC
  rw [mulf_apply, hostTanh_apply, hostSig_apply, hostGate_apply, hostGate_apply, hostZeros_eq]

theorem hostLeafH_eq (x : Vec Ideal (SB N) .f32) (Wi Wo Wu : Vec Ideal SG .f32) (bi bo bu : Vec Ideal SV .f32) :
    hostLeafH R x Wi Wo Wu bi bo bu = refLeafH x Wi Wo Wu bi bo bu := by
  funext i
  obtain ⟨r, q, rfl⟩ : ∃ (r : Fin N) (q : Fin 512), i = ix2 r q := ⟨i 0, i 1, eq_ix2 i⟩
  have hR : refLeafH x Wi Wo Wu bi bo bu (ix2 r q)
      = cellH (preR x (fun _ => 0) Wo bo r q) (refLeafC x Wi Wo Wu bi bo bu (ix2 r q)) := rfl
  rw [hR]
  unfold hostLeafH cellH
  rw [mulf_apply, hostTanh_apply, hostSig_apply, hostGate_apply, hostLeafC_eq, hostZeros_eq]

end Ideal

/-! ## The last level: one row -/

section IdealRow

variable (R : HostCtx 1)

theorem hostGateRow_apply (x h : Vec Ideal (SB 1) .f32) (W : Vec Ideal SG .f32) (b : Vec Ideal SV .f32)
    (r : Fin 1) (q : Fin 512) : hostGateRow R x h W b (ix2 r q) = preR x h W b r q := by
  unfold hostGateRow preR
  rw [addf_apply, hostDot_apply, biasRow_apply]

theorem hostLevelCRow_eq (x hl hr cl cr : Vec Ideal (SB 1) .f32) (Wi Wf Wo Wu : Vec Ideal SG .f32)
    (bi bf bo bu : Vec Ideal SV .f32) :
    hostLevelCRow R x hl hr cl cr Wi Wf Wo Wu bi bf bo bu
      = refLevelC (n := 1) x hl hr cl cr Wi Wf Wo Wu bi bf bo bu := by
  funext i
  obtain ⟨r, q, rfl⟩ : ∃ (r : Fin 1) (q : Fin 512), i = ix2 r q := ⟨i 0, i 1, eq_ix2 i⟩
  have hR : refLevelC (n := 1) x hl hr cl cr Wi Wf Wo Wu bi bf bo bu (ix2 r q)
      = cellC (preR x (fun j => hl j + hr j) Wi bi r q) (preR x (fun j => hl j + hr j) Wu bu r q)
        (preR x hl Wf bf r q) (preR x hr Wf bf r q) (cl (ix2 r q)) (cr (ix2 r q)) := rfl
  rw [hR]
  unfold hostLevelCRow cellC
  rw [addf_apply, addf_apply, mulf_apply, mulf_apply, mulf_apply, hostTanh_apply, hostSig_apply, hostSig_apply,
    hostSig_apply, hostGateRow_apply, hostGateRow_apply, hostGateRow_apply, hostGateRow_apply, addf_fun]

theorem hostLevelHRow_eq (x hl hr cl cr : Vec Ideal (SB 1) .f32) (Wi Wf Wo Wu : Vec Ideal SG .f32)
    (bi bf bo bu : Vec Ideal SV .f32) :
    hostLevelHRow R x hl hr cl cr Wi Wf Wo Wu bi bf bo bu
      = refLevelH (n := 1) x hl hr cl cr Wi Wf Wo Wu bi bf bo bu := by
  funext i
  obtain ⟨r, q, rfl⟩ : ∃ (r : Fin 1) (q : Fin 512), i = ix2 r q := ⟨i 0, i 1, eq_ix2 i⟩
  have hR : refLevelH (n := 1) x hl hr cl cr Wi Wf Wo Wu bi bf bo bu (ix2 r q)
      = cellH (preR x (fun j => hl j + hr j) Wo bo r q)
        (refLevelC (n := 1) x hl hr cl cr Wi Wf Wo Wu bi bf bo bu (ix2 r q)) := rfl
  rw [hR]
  unfold hostLevelHRow cellH
  rw [mulf_apply, hostTanh_apply, hostSig_apply, hostGateRow_apply, hostLevelCRow_eq, addf_fun]

end IdealRow

end Cert.Tree

end
-- ==== Proof.RStep0.lean ====
/-
  The reference's leaf level of 16384 nodes (heap rows 16383 … 32766), read off its run's named buffers: the h and c
  heap arrays after the level are zero arrays with the level's rows replaced by the leaf level function of the x rows.
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx0 : Cert.Tree.HostCtx 16384 :=
  ⟨dot_S16384x1024_S1024x512_S16384x512_1_0_0_1_n_n, rfl, concatenates_S16384x512_S16384x512_S16384x1024_d1,
    transposes_S512x1024_S1024x512_1_0, bcast_S512_S1x512_1, bcast_S1x512_S16384x512_0_1, bcast_S_S16384x512⟩

variable (V0 : Valuation τ sig (Elt Ideal))

/-- The level's x rows. -/
abbrev xl0 : Vec Ideal S16384x512 .f32 :=
  extractStridedSlice S16384x512 ![16383, 0] (V0 (Proc.devRef .tc main_arg0)) slices_S32767x512_S16384x512_16383_0

/-- The heap array of zeros both recurrences start from. -/
abbrev zeros : Vec Ideal S32767x512 .f32 := broadcastInDim S32767x512 ![] bcast_S_S32767x512 (constant (F := Ideal) S_ .f32 0x00000000#32)

theorem stepC0 : res_main_v39 V0
    = Host.scatter scatter_S32767x512_S1_S16384x512_01_n_0_0 (fun _ b => b) zeros (broadcastInDim S1 ![] bcast_S_S1 (constantI S_ 32 16383#32))
        (Cert.Tree.hostLeafC ctx0 (xl0 V0)
          (V0 (Proc.devRef .tc main_arg1)) (V0 (Proc.devRef .tc main_arg5)) (V0 (Proc.devRef .tc main_arg7))
          (V0 (Proc.devRef .tc main_arg2)) (V0 (Proc.devRef .tc main_arg6)) (V0 (Proc.devRef .tc main_arg8))) := by
  unfold res_main_v39 res_main_v33 res_main_v4
  rfl

theorem stepH0 : res_main_v37 V0
    = Host.scatter scatter_S32767x512_S1_S16384x512_01_n_0_0 (fun _ b => b) zeros (broadcastInDim S1 ![] bcast_S_S1 (constantI S_ 32 16383#32))
        (Cert.Tree.hostLeafH ctx0 (xl0 V0)
          (V0 (Proc.devRef .tc main_arg1)) (V0 (Proc.devRef .tc main_arg5)) (V0 (Proc.devRef .tc main_arg7))
          (V0 (Proc.devRef .tc main_arg2)) (V0 (Proc.devRef .tc main_arg6)) (V0 (Proc.devRef .tc main_arg8))) := by
  unfold res_main_v37 res_main_v33 res_main_v4
  rfl

end Cert.ReferenceIdeal.Chain

end
-- ==== Proof.Bridge0.lean ====
/-
  The leaf level of 16384 nodes, compared across the two programs. Each program's heap arrays after the level are zero
  arrays with the level's rows replaced by a leaf level function of the same rows of x: the kernel's over the halves of
  its weights that meet x, the reference's over the weights as given with the children's array zero. The two leaf
  level functions agree because the split weights are the halves of the given ones (at a leaf the halves that meet h
  contribute nothing), so the heap arrays agree after the level.
-/
import proofs.«110311_j37117107372689_1_alg».proof.Proof.BridgeBase
import proofs.«110311_j37117107372689_1_alg».proof.Proof.KStep0
import proofs.«110311_j37117107372689_1_alg».proof.Proof.KReg0
import proofs.«110311_j37117107372689_1_alg».proof.Proof.RStep0
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- The two heap arrays agree after the leaf level. -/
theorem level0 (hA : Agree m V0 c) :
    Cert.KernelIdeal.Gen.W3 m ρ c (Proc.devRef .tc Cert.KernelIdeal.main_v33) = Cert.ReferenceIdeal.Value.res_main_v37 V0
      ∧ Cert.KernelIdeal.Gen.W3 m ρ c (Proc.devRef .tc Cert.KernelIdeal.main_v35) = Cert.ReferenceIdeal.Value.res_main_v39 V0 := by
  constructor
  · rw [Cert.KernelIdeal.Chain.stepH0 m ρ c (Cert.KernelIdeal.Reg0.arrH (Cert.KernelIdeal.Gen.V1 m ρ) c),
      Cert.ReferenceIdeal.Chain.stepH0 V0, Cert.Tree.hostLeafH_eq,
      ← Cert.Tree.leafLevelH_eq _ (halves_i' ρ hA) (halves_o' ρ hA) (halves_u' ρ hA), ← hA.a0]
    rfl
  · rw [Cert.KernelIdeal.Chain.stepC0 m ρ c (Cert.KernelIdeal.Reg0.arrC (Cert.KernelIdeal.Gen.V1 m ρ) c),
      Cert.ReferenceIdeal.Chain.stepC0 V0, Cert.Tree.hostLeafC_eq,
      ← Cert.Tree.leafLevelC_eq _ (halves_i' ρ hA) (halves_o' ρ hA) (halves_u' ρ hA), ← hA.a0]
    rfl

end Cert.Bridge

end
-- ==== Proof.KStep1.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 1: what its scatters leave in the two heap arrays

The host stretch before the region cuts the level's 8192 rows of node features out of the argument and, out of each
heap array (hidden states, cell states), the 16384 rows of the level below, which it pairs up: row p's left child is
the pair's first member and its right child the second. The region computes the level's hidden and cell rows from
these five arrays and the twelve weight and bias buffers; the host stretch after it scatters the two results into the
heap arrays at row 8191. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat1_h : StableHlo.after hostOps2 W (Proc.devRef .tc main_v51)
    = Host.scatter scatter_S32767x512_S1_S8192x512_01_n_0_0 (fun _ b => b) (W (Proc.devRef .tc main_v33))
        (broadcastInDim S1 ![] bcast_S_S1 (constantI S_ 32 8191#32)) (W (Proc.devRef .tc main_v49_0)) := by
  after_results
  rfl

/-- And the new cell heap: the old one with the region's second output scattered in. -/
theorem scat1_c : StableHlo.after hostOps2 W (Proc.devRef .tc main_v53)
    = Host.scatter scatter_S32767x512_S1_S8192x512_01_n_0_0 (fun _ b => b) (W (Proc.devRef .tc main_v35))
        (broadcastInDim S1 ![] bcast_S_S1 (constantI S_ 32 8191#32)) (W (Proc.devRef .tc main_v49_1)) := by
  after_results
  rfl

/-- The stretch before the region: the level's rows of node features. -/
theorem cut1_x : StableHlo.after hostOps1 W (Proc.devRef .tc main_v36)
    = extractStridedSlice S8192x512 ![8191, 0] (W (Proc.devRef .tc main_arg0)) slices_S32767x512_S8192x512_8191_0 := by
  after_results

/-- The left children's hidden rows, out of the hidden heap as this stretch itself leaves it. -/
theorem cut1_hl : StableHlo.after hostOps1 W (Proc.devRef .tc main_v42)
    = shapeCast _ (extractStridedSlice S8192x1x512 ![0, 0, 0] (shapeCast _ (extractStridedSlice S16384x512 ![16383, 0] (StableHlo.after hostOps1 W (Proc.devRef .tc main_v33)) slices_S32767x512_S16384x512_16383_0) shapeCasts_S16384x512_S8192x2x512) slices_S8192x2x512_S8192x1x512_0_0_0) shapeCasts_S8192x1x512_S8192x512 := by
  after_results_simp
  rfl

/-- The right children's hidden rows. -/
theorem cut1_hr : StableHlo.after hostOps1 W (Proc.devRef .tc main_v44)
    = shapeCast _ (extractStridedSlice S8192x1x512 ![0, 1, 0] (shapeCast _ (extractStridedSlice S16384x512 ![16383, 0] (StableHlo.after hostOps1 W (Proc.devRef .tc main_v33)) slices_S32767x512_S16384x512_16383_0) shapeCasts_S16384x512_S8192x2x512) slices_S8192x2x512_S8192x1x512_0_1_0) shapeCasts_S8192x1x512_S8192x512 := by
  after_results_simp
  rfl

/-- The left children's cell rows, out of the cell heap. -/
theorem cut1_cl : StableHlo.after hostOps1 W (Proc.devRef .tc main_v46)
    = shapeCast _ (extractStridedSlice S8192x1x512 ![0, 0, 0] (shapeCast _ (extractStridedSlice S16384x512 ![16383, 0] (StableHlo.after hostOps1 W (Proc.devRef .tc main_v35)) slices_S32767x512_S16384x512_16383_0) shapeCasts_S16384x512_S8192x2x512) slices_S8192x2x512_S8192x1x512_0_0_0) shapeCasts_S8192x1x512_S8192x512 := by
  after_results_simp
  rfl

/-- The right children's cell rows. -/
theorem cut1_cr : StableHlo.after hostOps1 W (Proc.devRef .tc main_v48)
    = shapeCast _ (extractStridedSlice S8192x1x512 ![0, 1, 0] (shapeCast _ (extractStridedSlice S16384x512 ![16383, 0] (StableHlo.after hostOps1 W (Proc.devRef .tc main_v35)) slices_S32767x512_S16384x512_16383_0) shapeCasts_S16384x512_S8192x2x512) slices_S8192x2x512_S8192x1x512_0_1_0) shapeCasts_S8192x1x512_S8192x512 := by
  after_results_simp
  rfl

end Host

/-! ## The region's five level arrays at its entry, in the run -/

theorem in1_x (c : Dev nD) : Gen.W3 m ρ c (Proc.devRef .tc main_v36)
    = extractStridedSlice S8192x512 ![8191, 0] (m ((c : Thread nD τ).loc main_arg0)) slices_S32767x512_S8192x512_8191_0 :=
  (cut1_x (Gen.W2 m ρ c)).trans (by rw [arg0_1 m ρ c])

theorem in1_hl (c : Dev nD) : Gen.W3 m ρ c (Proc.devRef .tc main_v42)
    = shapeCast _ (extractStridedSlice S8192x1x512 ![0, 0, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_0_0) shapeCasts_S8192x1x512_S8192x512 :=
  cut1_hl (Gen.W2 m ρ c)

theorem in1_hr (c : Dev nD) : Gen.W3 m ρ c (Proc.devRef .tc main_v44)
    = shapeCast _ (extractStridedSlice S8192x1x512 ![0, 1, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_1_0) shapeCasts_S8192x1x512_S8192x512 :=
  cut1_hr (Gen.W2 m ρ c)

theorem in1_cl (c : Dev nD) : Gen.W3 m ρ c (Proc.devRef .tc main_v46)
    = shapeCast _ (extractStridedSlice S8192x1x512 ![0, 0, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_0_0) shapeCasts_S8192x1x512_S8192x512 :=
  cut1_cl (Gen.W2 m ρ c)

theorem in1_cr (c : Dev nD) : Gen.W3 m ρ c (Proc.devRef .tc main_v48)
    = shapeCast _ (extractStridedSlice S8192x1x512 ![0, 1, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_1_0) shapeCasts_S8192x1x512_S8192x512 :=
  cut1_cr (Gen.W2 m ρ c)

/-! ## The region's two outputs at its exit are its proof data's arrays after the last grid point -/

theorem out1_h (c : Dev nD) : Gen.W4 m ρ c (Proc.devRef .tc main_v49_0) = (Gen.dat1 (Gen.V3 m ρ) c).arrAt 17 cfg1.N :=
  Gen.W4_arr m ρ c 17

theorem out1_c (c : Dev nD) : Gen.W4 m ρ c (Proc.devRef .tc main_v49_1) = (Gen.dat1 (Gen.V3 m ρ) c).arrAt 18 cfg1.N :=
  Gen.W4_arr m ρ c 18

/-! ## The level -/

/-- The hidden heap after the level, given that the region's first output is the level function of its entry arrays. -/
theorem stepH1 (c : Dev nD)
    (hH : (Gen.dat1 (F := Ideal) (Gen.V3 m ρ) c).arrAt 17 cfg1.N
      = Cert.Tree.levelH (n := 8192) (Gen.V3 m ρ c main_v36) (Gen.V3 m ρ c main_v42) (Gen.V3 m ρ c main_v44)
          (Gen.V3 m ρ c main_v46) (Gen.V3 m ρ c main_v48)
          (Gen.V3 m ρ c main_v2) (Gen.V3 m ρ c main_v5) (Gen.V3 m ρ c main_v8) (Gen.V3 m ρ c main_v11)
          (Gen.V3 m ρ c main_v14) (Gen.V3 m ρ c main_v17) (Gen.V3 m ρ c main_v20) (Gen.V3 m ρ c main_v23)
          (Gen.V3 m ρ c main_v24) (Gen.V3 m ρ c main_v25) (Gen.V3 m ρ c main_v26) (Gen.V3 m ρ c main_v27)) :
    Gen.W5 m ρ c (Proc.devRef .tc main_v51)
      = Host.scatter scatter_S32767x512_S1_S8192x512_01_n_0_0 (fun _ b => b) (Gen.W3 m ρ c (Proc.devRef .tc main_v33))
          (broadcastInDim S1 ![] bcast_S_S1 (constantI S_ 32 8191#32))
          (Cert.Tree.levelH (n := 8192)
            (extractStridedSlice S8192x512 ![8191, 0] (m ((c : Thread nD τ).loc main_arg0)) slices_S32767x512_S8192x512_8191_0)
            (shapeCast _ (extractStridedSlice S8192x1x512 ![0, 0, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_0_0) shapeCasts_S8192x1x512_S8192x512)
            (shapeCast _ (extractStridedSlice S8192x1x512 ![0, 1, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_1_0) shapeCasts_S8192x1x512_S8192x512)
            (shapeCast _ (extractStridedSlice S8192x1x512 ![0, 0, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_0_0) shapeCasts_S8192x1x512_S8192x512)
            (shapeCast _ (extractStridedSlice S8192x1x512 ![0, 1, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_1_0) shapeCasts_S8192x1x512_S8192x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat1 (F := Ideal) (Gen.V3 m ρ) c).arrAt 17 cfg1.N
      = Cert.Tree.levelH (n := 8192) (Gen.W3 m ρ c (Proc.devRef .tc main_v36)) (Gen.W3 m ρ c (Proc.devRef .tc main_v42))
          (Gen.W3 m ρ c (Proc.devRef .tc main_v44)) (Gen.W3 m ρ c (Proc.devRef .tc main_v46))
          (Gen.W3 m ρ c (Proc.devRef .tc main_v48))
          (Gen.W3 m ρ c (Proc.devRef .tc main_v2)) (Gen.W3 m ρ c (Proc.devRef .tc main_v5))
          (Gen.W3 m ρ c (Proc.devRef .tc main_v8)) (Gen.W3 m ρ c (Proc.devRef .tc main_v11))
          (Gen.W3 m ρ c (Proc.devRef .tc main_v14)) (Gen.W3 m ρ c (Proc.devRef .tc main_v17))
          (Gen.W3 m ρ c (Proc.devRef .tc main_v20)) (Gen.W3 m ρ c (Proc.devRef .tc main_v23))
          (Gen.W3 m ρ c (Proc.devRef .tc main_v24)) (Gen.W3 m ρ c (Proc.devRef .tc main_v25))
          (Gen.W3 m ρ c (Proc.devRef .tc main_v26)) (Gen.W3 m ρ c (Proc.devRef .tc main_v27)) := hH
  rw [in1_x m ρ c, in1_hl m ρ c, in1_hr m ρ c, in1_cl m ρ c, in1_cr m ρ c,
    keep1_main_v2 m ρ c, keep1_main_v5 m ρ c, keep1_main_v8 m ρ c, keep1_main_v11 m ρ c, keep1_main_v14 m ρ c,
    keep1_main_v17 m ρ c, keep1_main_v20 m ρ c, keep1_main_v23 m ρ c, keep1_main_v24 m ρ c, keep1_main_v25 m ρ c,
    keep1_main_v26 m ρ c, keep1_main_v27 m ρ c] at hH'
  refine (scat1_h (Gen.W4 m ρ c)).trans ?_
  rw [Gen.W4_of_ne m ρ c main_v33 (by decide), out1_h m ρ c, hH']

/-- The cell heap after the level, given that the region's second output is the level's cell function of its entry arrays. -/
theorem stepC1 (c : Dev nD)
    (hC : (Gen.dat1 (F := Ideal) (Gen.V3 m ρ) c).arrAt 18 cfg1.N
      = Cert.Tree.levelC (n := 8192) (Gen.V3 m ρ c main_v36) (Gen.V3 m ρ c main_v42) (Gen.V3 m ρ c main_v44)
          (Gen.V3 m ρ c main_v46) (Gen.V3 m ρ c main_v48)
          (Gen.V3 m ρ c main_v2) (Gen.V3 m ρ c main_v5) (Gen.V3 m ρ c main_v8) (Gen.V3 m ρ c main_v11)
          (Gen.V3 m ρ c main_v14) (Gen.V3 m ρ c main_v17) (Gen.V3 m ρ c main_v20) (Gen.V3 m ρ c main_v23)
          (Gen.V3 m ρ c main_v24) (Gen.V3 m ρ c main_v25) (Gen.V3 m ρ c main_v26) (Gen.V3 m ρ c main_v27)) :
    Gen.W5 m ρ c (Proc.devRef .tc main_v53)
      = Host.scatter scatter_S32767x512_S1_S8192x512_01_n_0_0 (fun _ b => b) (Gen.W3 m ρ c (Proc.devRef .tc main_v35))
          (broadcastInDim S1 ![] bcast_S_S1 (constantI S_ 32 8191#32))
          (Cert.Tree.levelC (n := 8192)
            (extractStridedSlice S8192x512 ![8191, 0] (m ((c : Thread nD τ).loc main_arg0)) slices_S32767x512_S8192x512_8191_0)
            (shapeCast _ (extractStridedSlice S8192x1x512 ![0, 0, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_0_0) shapeCasts_S8192x1x512_S8192x512)
            (shapeCast _ (extractStridedSlice S8192x1x512 ![0, 1, 0] (shapeCast _ (extractStridedSlice S16384x512 ![16383, 0] (Gen.W3 m ρ c (Proc.devRef .tc main_v33)) slices_S32767x512_S16384x512_16383_0) shapeCasts_S16384x512_S8192x2x512) slices_S8192x2x512_S8192x1x512_0_1_0) shapeCasts_S8192x1x512_S8192x512)
            (shapeCast _ (extractStridedSlice S8192x1x512 ![0, 0, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_0_0) shapeCasts_S8192x1x512_S8192x512)
            (shapeCast _ (extractStridedSlice S8192x1x512 ![0, 1, 0] (shapeCast _ (extractStridedSlice S16384x512 ![16383, 0] (Gen.W3 m ρ c (Proc.devRef .tc main_v35)) slices_S32767x512_S16384x512_16383_0) shapeCasts_S16384x512_S8192x2x512) slices_S8192x2x512_S8192x1x512_0_1_0) shapeCasts_S8192x1x512_S8192x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat1 (F := Ideal) (Gen.V3 m ρ) c).arrAt 18 cfg1.N
      = Cert.Tree.levelC (n := 8192) (Gen.W3 m ρ c (Proc.devRef .tc main_v36)) (Gen.W3 m ρ c (Proc.devRef .tc main_v42))
          (Gen.W3 m ρ c (Proc.devRef .tc main_v44)) (Gen.W3 m ρ c (Proc.devRef .tc main_v46))
          (Gen.W3 m ρ c (Proc.devRef .tc main_v48))
          (Gen.W3 m ρ c (Proc.devRef .tc main_v2)) (Gen.W3 m ρ c (Proc.devRef .tc main_v5))
          (Gen.W3 m ρ c (Proc.devRef .tc main_v8)) (Gen.W3 m ρ c (Proc.devRef .tc main_v11))
          (Gen.W3 m ρ c (Proc.devRef .tc main_v14)) (Gen.W3 m ρ c (Proc.devRef .tc main_v17))
          (Gen.W3 m ρ c (Proc.devRef .tc main_v20)) (Gen.W3 m ρ c (Proc.devRef .tc main_v23))
          (Gen.W3 m ρ c (Proc.devRef .tc main_v24)) (Gen.W3 m ρ c (Proc.devRef .tc main_v25))
          (Gen.W3 m ρ c (Proc.devRef .tc main_v26)) (Gen.W3 m ρ c (Proc.devRef .tc main_v27)) := hC
  rw [in1_x m ρ c, in1_hl m ρ c, in1_hr m ρ c, in1_cl m ρ c, in1_cr m ρ c,
    keep1_main_v2 m ρ c, keep1_main_v5 m ρ c, keep1_main_v8 m ρ c, keep1_main_v11 m ρ c, keep1_main_v14 m ρ c,
    keep1_main_v17 m ρ c, keep1_main_v20 m ρ c, keep1_main_v23 m ρ c, keep1_main_v24 m ρ c, keep1_main_v25 m ρ c,
    keep1_main_v26 m ρ c, keep1_main_v27 m ρ c] at hC'
  refine (scat1_c (Gen.W4 m ρ c)).trans ?_
  rw [Gen.W4_of_ne m ρ c main_v35 (by decide), out1_c m ρ c, hC']

end Cert.KernelIdeal.Chain

end
-- ==== Proof.KReg1.lean ====
/-
  One level of the tree on the kernel's side: 8192 internal nodes, worked in blocks of 1024 node rows, one block per
  grid point. What the level's two output arrays hold after the region, whatever the arrays hold when it is entered.

  Grid point t reads block t (rows 1024 t … 1024 t + 1023) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg1.N * 1024 = 8192 := by decide

/-! The printed index maps, decided over the grid: a row array's block at point t is block (t, 0); a weight half or a
    bias row is one block, (0, 0). -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx17 : ∀ t : Fin cfg1.N, win1_17.index t (0 : Fin 2) = t.val ∧ win1_17.index t (1 : Fin 2) = 0 :=
  (by decide +kernel : ∀ t : Fin grid1.N, _)
theorem idx18 : ∀ t : Fin cfg1.N, win1_18.index t (0 : Fin 2) = t.val ∧ win1_18.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)
theorem idx10 : ∀ t : Fin cfg1.N, win1_10.index t (0 : Fin 2) = 0 ∧ win1_10.index t (1 : Fin 2) = 0 :=
  (by decide +kernel : ∀ t : Fin grid1.N, _)
theorem idx11 : ∀ t : Fin cfg1.N, win1_11.index t (0 : Fin 2) = 0 ∧ win1_11.index t (1 : Fin 2) = 0 :=
  (by decide +kernel : ∀ t : Fin grid1.N, _)
theorem idx12 : ∀ t : Fin cfg1.N, win1_12.index t (0 : Fin 2) = 0 ∧ win1_12.index t (1 : Fin 2) = 0 :=
  (by decide +kernel : ∀ t : Fin grid1.N, _)
theorem idx13 : ∀ t : Fin cfg1.N, win1_13.index t (0 : Fin 2) = 0 ∧ win1_13.index t (1 : Fin 2) = 0 :=
  (by decide +kernel : ∀ t : Fin grid1.N, _)
theorem idx14 : ∀ t : Fin cfg1.N, win1_14.index t (0 : Fin 2) = 0 ∧ win1_14.index t (1 : Fin 2) = 0 :=
  (by decide +kernel : ∀ t : Fin grid1.N, _)
theorem idx15 : ∀ t : Fin cfg1.N, win1_15.index t (0 : Fin 2) = 0 ∧ win1_15.index t (1 : Fin 2) = 0 :=
  (by decide +kernel : ∀ t : Fin grid1.N, _)
theorem idx16 : ∀ t : Fin cfg1.N, win1_16.index t (0 : Fin 2) = 0 ∧ win1_16.index t (1 : Fin 2) = 0 :=
  (by decide +kernel : ∀ t : Fin grid1.N, _)

/-! ## The blocks the body reads

A block's entry sits in its array, on each axis, at the block index times the block's extent plus the entry's own
coordinate. So entry (p, k) of block t of a row array is the array's entry (1024 t + p, k), and the one block of a weight
half or of a bias row is the array itself. -/

section Reads

variable (V : (c : Dev nD) → (b : Ref sig .tc) → Buf (Elt Ideal) ((c : Thread nD τ).loc b))
variable (c : Dev nD) (t : Fin cfg1.N)

/-- Block t of x, at an entry. -/
theorem read_x (y : S1024x512.Idx) (i : S8192x512.Idx) (h0 : (i 0).val = t.val * 1024 + (y 0).val) (h1 : (i 1).val = (y 1).val) :
    (iblk1 V c 0 t : Vec Ideal S1024x512 .f32) y = (V c main_v36 : S8192x512.Idx → EReal) i := by
  obtain ⟨e0, e1⟩ := idx0 t
  unfold iblk1
  rw [View.read_apply]
  show V c main_v36 _ = V c main_v36 _
  refine congrArg (V c main_v36) (funext fun a => Fin.ext ?_)
  match a with
  | ⟨0, _⟩ => show win1_0.index t (0 : Fin 2) * 1024 + 1 * (y 0).val = (i 0).val; omega
  | ⟨1, _⟩ => show win1_0.index t (1 : Fin 2) * 512 + 1 * (y 1).val = (i 1).val; omega

/-- Block t of the left children's h, at an entry. -/
theorem read_hl (y : S1024x512.Idx) (i : S8192x512.Idx) (h0 : (i 0).val = t.val * 1024 + (y 0).val) (h1 : (i 1).val = (y 1).val) :
    (iblk1 V c 1 t : Vec Ideal S1024x512 .f32) y = (V c main_v42 : S8192x512.Idx → EReal) i := by
  obtain ⟨e0, e1⟩ := idx1 t
  unfold iblk1
  rw [View.read_apply]
  show V c main_v42 _ = V c main_v42 _
  refine congrArg (V c main_v42) (funext fun a => Fin.ext ?_)
  match a with
  | ⟨0, _⟩ => show win1_1.index t (0 : Fin 2) * 1024 + 1 * (y 0).val = (i 0).val; omega
  | ⟨1, _⟩ => show win1_1.index t (1 : Fin 2) * 512 + 1 * (y 1).val = (i 1).val; omega

/-- Block t of the right children's h, at an entry. -/
theorem read_hr (y : S1024x512.Idx) (i : S8192x512.Idx) (h0 : (i 0).val = t.val * 1024 + (y 0).val) (h1 : (i 1).val = (y 1).val) :
    (iblk1 V c 2 t : Vec Ideal S1024x512 .f32) y = (V c main_v44 : S8192x512.Idx → EReal) i := by
  obtain ⟨e0, e1⟩ := idx2 t
  unfold iblk1
  rw [View.read_apply]
  show V c main_v44 _ = V c main_v44 _
  refine congrArg (V c main_v44) (funext fun a => Fin.ext ?_)
  match a with
  | ⟨0, _⟩ => show win1_2.index t (0 : Fin 2) * 1024 + 1 * (y 0).val = (i 0).val; omega
  | ⟨1, _⟩ => show win1_2.index t (1 : Fin 2) * 512 + 1 * (y 1).val = (i 1).val; omega

/-- Block t of the left children's c, at an entry. -/
theorem read_cl (y : S1024x512.Idx) (i : S8192x512.Idx) (h0 : (i 0).val = t.val * 1024 + (y 0).val) (h1 : (i 1).val = (y 1).val) :
    (iblk1 V c 3 t : Vec Ideal S1024x512 .f32) y = (V c main_v46 : S8192x512.Idx → EReal) i := by
  obtain ⟨e0, e1⟩ := idx3 t
  unfold iblk1
  rw [View.read_apply]
  show V c main_v46 _ = V c main_v46 _
  refine congrArg (V c main_v46) (funext fun a => Fin.ext ?_)
  match a with
  | ⟨0, _⟩ => show win1_3.index t (0 : Fin 2) * 1024 + 1 * (y 0).val = (i 0).val; omega
  | ⟨1, _⟩ => show win1_3.index t (1 : Fin 2) * 512 + 1 * (y 1).val = (i 1).val; omega

/-- Block t of the right children's c, at an entry. -/
theorem read_cr (y : S1024x512.Idx) (i : S8192x512.Idx) (h0 : (i 0).val = t.val * 1024 + (y 0).val) (h1 : (i 1).val = (y 1).val) :
    (iblk1 V c 4 t : Vec Ideal S1024x512 .f32) y = (V c main_v48 : S8192x512.Idx → EReal) i := by
  obtain ⟨e0, e1⟩ := idx4 t
  unfold iblk1
  rw [View.read_apply]
  show V c main_v48 _ = V c main_v48 _
  refine congrArg (V c main_v48) (funext fun a => Fin.ext ?_)
  match a with
  | ⟨0, _⟩ => show win1_4.index t (0 : Fin 2) * 1024 + 1 * (y 0).val = (i 0).val; omega
  | ⟨1, _⟩ => show win1_4.index t (1 : Fin 2) * 512 + 1 * (y 1).val = (i 1).val; omega

/-- The one block of the input gate's weights over x is the array. -/
theorem read_wix : (iblk1 V c 5 t : Vec Ideal S512x512 .bf16) = (V c main_v2 : S512x512.Idx → EReal) := by
  obtain ⟨e0, e1⟩ := idx5 t
  funext y
  unfold iblk1
  rw [View.read_apply]
  show V c main_v2 _ = V c main_v2 y
  refine congrArg (V c main_v2) (funext fun a => Fin.ext ?_)
  match a with
  | ⟨0, _⟩ => show win1_5.index t (0 : Fin 2) * 512 + 1 * (y 0).val = (y 0).val; omega
  | ⟨1, _⟩ => show win1_5.index t (1 : Fin 2) * 512 + 1 * (y 1).val = (y 1).val; omega

/-- The one block of the input gate's weights over h is the array. -/
theorem read_wih : (iblk1 V c 6 t : Vec Ideal S512x512 .bf16) = (V c main_v5 : S512x512.Idx → EReal) := by
  obtain ⟨e0, e1⟩ := idx6 t
  funext y
  unfold iblk1
  rw [View.read_apply]
  show V c main_v5 _ = V c main_v5 y
  refine congrArg (V c main_v5) (funext fun a => Fin.ext ?_)
  match a with
  | ⟨0, _⟩ => show win1_6.index t (0 : Fin 2) * 512 + 1 * (y 0).val = (y 0).val; omega
  | ⟨1, _⟩ => show win1_6.index t (1 : Fin 2) * 512 + 1 * (y 1).val = (y 1).val; omega

/-- The one block of the forget gates' weights over x is the array. -/
theorem read_wfx : (iblk1 V c 7 t : Vec Ideal S512x512 .bf16) = (V c main_v8 : S512x512.Idx → EReal) := by
  obtain ⟨e0, e1⟩ := idx7 t
  funext y
  unfold iblk1
  rw [View.read_apply]
  show V c main_v8 _ = V c main_v8 y
  refine congrArg (V c main_v8) (funext fun a => Fin.ext ?_)
  match a with
  | ⟨0, _⟩ => show win1_7.index t (0 : Fin 2) * 512 + 1 * (y 0).val = (y 0).val; omega
  | ⟨1, _⟩ => show win1_7.index t (1 : Fin 2) * 512 + 1 * (y 1).val = (y 1).val; omega

/-- The one block of the forget gates' weights over h is the array. -/
theorem read_wfh : (iblk1 V c 8 t : Vec Ideal S512x512 .bf16) = (V c main_v11 : S512x512.Idx → EReal) := by
  obtain ⟨e0, e1⟩ := idx8 t
  funext y
  unfold iblk1
  rw [View.read_apply]
  show V c main_v11 _ = V c main_v11 y
  refine congrArg (V c main_v11) (funext fun a => Fin.ext ?_)
  match a with
  | ⟨0, _⟩ => show win1_8.index t (0 : Fin 2) * 512 + 1 * (y 0).val = (y 0).val; omega
  | ⟨1, _⟩ => show win1_8.index t (1 : Fin 2) * 512 + 1 * (y 1).val = (y 1).val; omega

/-- The one block of the output gate's weights over x is the array. -/
theorem read_wox : (iblk1 V c 9 t : Vec Ideal S512x512 .bf16) = (V c main_v14 : S512x512.Idx → EReal) := by
  obtain ⟨e0, e1⟩ := idx9 t
  funext y
  unfold iblk1
  rw [View.read_apply]
  show V c main_v14 _ = V c main_v14 y
  refine congrArg (V c main_v14) (funext fun a => Fin.ext ?_)
  match a with
  | ⟨0, _⟩ => show win1_9.index t (0 : Fin 2) * 512 + 1 * (y 0).val = (y 0).val; omega
  | ⟨1, _⟩ => show win1_9.index t (1 : Fin 2) * 512 + 1 * (y 1).val = (y 1).val; omega

/-- The one block of the output gate's weights over h is the array. -/
theorem read_woh : (iblk1 V c 10 t : Vec Ideal S512x512 .bf16) = (V c main_v17 : S512x512.Idx → EReal) := by
  obtain ⟨e0, e1⟩ := idx10 t
  funext y
  unfold iblk1
  rw [View.read_apply]
  show V c main_v17 _ = V c main_v17 y
  refine congrArg (V c main_v17) (funext fun a => Fin.ext ?_)
  match a with
  | ⟨0, _⟩ => show win1_10.index t (0 : Fin 2) * 512 + 1 * (y 0).val = (y 0).val; omega
  | ⟨1, _⟩ => show win1_10.index t (1 : Fin 2) * 512 + 1 * (y 1).val = (y 1).val; omega

/-- The one block of the update gate's weights over x is the array. -/
theorem read_wux : (iblk1 V c 11 t : Vec Ideal S512x512 .bf16) = (V c main_v20 : S512x512.Idx → EReal) := by
  obtain ⟨e0, e1⟩ := idx11 t
  funext y
  unfold iblk1
  rw [View.read_apply]
  show V c main_v20 _ = V c main_v20 y
  refine congrArg (V c main_v20) (funext fun a => Fin.ext ?_)
  match a with
  | ⟨0, _⟩ => show win1_11.index t (0 : Fin 2) * 512 + 1 * (y 0).val = (y 0).val; omega
  | ⟨1, _⟩ => show win1_11.index t (1 : Fin 2) * 512 + 1 * (y 1).val = (y 1).val; omega

/-- The one block of the update gate's weights over h is the array. -/
theorem read_wuh : (iblk1 V c 12 t : Vec Ideal S512x512 .bf16) = (V c main_v23 : S512x512.Idx → EReal) := by
  obtain ⟨e0, e1⟩ := idx12 t
  funext y
  unfold iblk1
  rw [View.read_apply]
  show V c main_v23 _ = V c main_v23 y
  refine congrArg (V c main_v23) (funext fun a => Fin.ext ?_)
  match a with
  | ⟨0, _⟩ => show win1_12.index t (0 : Fin 2) * 512 + 1 * (y 0).val = (y 0).val; omega
  | ⟨1, _⟩ => show win1_12.index t (1 : Fin 2) * 512 + 1 * (y 1).val = (y 1).val; omega

/-- The one block of the input gate's bias row is the array. -/
theorem read_bi : (iblk1 V c 13 t : Vec Ideal S1x512 .f32) = (V c main_v24 : S1x512.Idx → EReal) := by
  obtain ⟨e0, e1⟩ := idx13 t
  funext y
  unfold iblk1
  rw [View.read_apply]
  show V c main_v24 _ = V c main_v24 y
  refine congrArg (V c main_v24) (funext fun a => Fin.ext ?_)
  match a with
  | ⟨0, _⟩ => show win1_13.index t (0 : Fin 2) * 1 + 1 * (y 0).val = (y 0).val; omega
  | ⟨1, _⟩ => show win1_13.index t (1 : Fin 2) * 512 + 1 * (y 1).val = (y 1).val; omega

/-- The one block of the forget gates' bias row is the array. -/
theorem read_bf : (iblk1 V c 14 t : Vec Ideal S1x512 .f32) = (V c main_v25 : S1x512.Idx → EReal) := by
  obtain ⟨e0, e1⟩ := idx14 t
  funext y
  unfold iblk1
  rw [View.read_apply]
  show V c main_v25 _ = V c main_v25 y
  refine congrArg (V c main_v25) (funext fun a => Fin.ext ?_)
  match a with
  | ⟨0, _⟩ => show win1_14.index t (0 : Fin 2) * 1 + 1 * (y 0).val = (y 0).val; omega
  | ⟨1, _⟩ => show win1_14.index t (1 : Fin 2) * 512 + 1 * (y 1).val = (y 1).val; omega

/-- The one block of the output gate's bias row is the array. -/
theorem read_bo : (iblk1 V c 15 t : Vec Ideal S1x512 .f32) = (V c main_v26 : S1x512.Idx → EReal) := by
  obtain ⟨e0, e1⟩ := idx15 t
  funext y
  unfold iblk1
  rw [View.read_apply]
  show V c main_v26 _ = V c main_v26 y
  refine congrArg (V c main_v26) (funext fun a => Fin.ext ?_)
  match a with
  | ⟨0, _⟩ => show win1_15.index t (0 : Fin 2) * 1 + 1 * (y 0).val = (y 0).val; omega
  | ⟨1, _⟩ => show win1_15.index t (1 : Fin 2) * 512 + 1 * (y 1).val = (y 1).val; omega

/-- The one block of the update gate's bias row is the array. -/
theorem read_bu : (iblk1 V c 16 t : Vec Ideal S1x512 .f32) = (V c main_v27 : S1x512.Idx → EReal) := by
  obtain ⟨e0, e1⟩ := idx16 t
  funext y
  unfold iblk1
  rw [View.read_apply]
  show V c main_v27 _ = V c main_v27 y
  refine congrArg (V c main_v27) (funext fun a => Fin.ext ?_)
  match a with
  | ⟨0, _⟩ => show win1_16.index t (0 : Fin 2) * 1 + 1 * (y 0).val = (y 0).val; omega
  | ⟨1, _⟩ => show win1_16.index t (1 : Fin 2) * 512 + 1 * (y 1).val = (y 1).val; omega

end Reads

/-! ## The block body -/

/-- What a block body of 1024 rows carries besides its arrays. -/
def ctx : Cert.Tree.BodyCtx 1024 :=
  ⟨dot_S1024x512_S512x512_S1024x512_1_0_0_1_n_n, rfl, shapeCasts_S1024x512_S1024x512, shapeCasts_S512x512_S512x512,
    shapeCasts_S1x512_S1x512, broadcasts_S1x512_S1024x512, bitsLt_bf16_f32⟩

section Body

variable {F : FTy → Type} [FloatOps F]

/-- The value the body stores into its h block is the tree cell's h block of the seventeen blocks it loads. -/
theorem bodyH_eq (x0 x1 x2 x3 x4 : Vec F S1024x512 .f32) (x5 x6 x7 x8 x9 x10 x11 x12 : Vec F S512x512 .bf16)
    (x13 x14 x15 x16 : Vec F S1x512 .f32) :
    k1_pay2 (k1_pay6 x3) (k1_pay7 x4) (k1_pay13 (k1_pay11 x0 x1 x2 x5 x6 x13)) (k1_pay14 (k1_pay12 x0 x1 x2 x9 x10) x15)
      (k1_pay15 (k1_pay3 x0) (k1_pay8 x1 x2) x11 x12 x16) (k1_pay17 (k1_pay3 x0) (k1_pay9 x1) x7 x8 x14)
      (k1_pay18 (k1_pay3 x0) (k1_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S1024x512 .f32) (x5 x6 x7 x8 x9 x10 x11 x12 : Vec F S512x512 .bf16)
    (x13 x14 x15 x16 : Vec F S1x512 .f32) :
    k1_pay1 (k1_pay6 x3) (k1_pay7 x4) (k1_pay13 (k1_pay11 x0 x1 x2 x5 x6 x13))
      (k1_pay15 (k1_pay3 x0) (k1_pay8 x1 x2) x11 x12 x16) (k1_pay17 (k1_pay3 x0) (k1_pay9 x1) x7 x8 x14)
      (k1_pay18 (k1_pay3 x0) (k1_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S8192x512.Idx → EReal) (w5 w6 w7 w8 w9 w10 w11 w12 : S512x512.Idx → EReal)
    (b13 b14 b15 b16 : S1x512.Idx → EReal) (p : Fin 1024) (r : Fin 8192) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k1_pay2 (k1_pay6 x3) (k1_pay7 x4) (k1_pay13 (k1_pay11 x0 x1 x2 x5 x6 x13)) (k1_pay14 (k1_pay12 x0 x1 x2 x9 x10) x15)
      (k1_pay15 (k1_pay3 x0) (k1_pay8 x1 x2) x11 x12 x16) (k1_pay17 (k1_pay3 x0) (k1_pay9 x1) x7 x8 x14)
      (k1_pay18 (k1_pay3 x0) (k1_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S8192x512.Idx → EReal) (w5 w6 w7 w8 w9 w10 w11 w12 : S512x512.Idx → EReal)
    (b13 b14 b15 b16 : S1x512.Idx → EReal) (p : Fin 1024) (r : Fin 8192) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k1_pay1 (k1_pay6 x3) (k1_pay7 x4) (k1_pay13 (k1_pay11 x0 x1 x2 x5 x6 x13))
      (k1_pay15 (k1_pay3 x0) (k1_pay8 x1 x2) x11 x12 x16) (k1_pay17 (k1_pay3 x0) (k1_pay9 x1) x7 x8 x14)
      (k1_pay18 (k1_pay3 x0) (k1_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S8192x512.Idx → EReal :=
  Cert.Tree.levelH (n := 8192) (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S8192x512.Idx → EReal :=
  Cert.Tree.levelC (n := 8192) (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg1.N) :
    (dat1 V c).flushed 17 t = ((cfg1.win 17).blk t).view.read (Elt Ideal) (GH V c) := by
  show (cfg1.win 17).cut (grid1.coords t) ((dat1 V c).after 17 t) = _
  rw [after1_17]
  unfold out1_17
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg1.N := t.isLt
  have hN : cfg1.N * 1024 = 8192 := points_rows
  have hr : t.val * 1024 + p.val < 8192 := by omega
  obtain ⟨e0, e1⟩ := idx17 t
  refine Eq.trans (b := GH V c (ix2 (⟨t.val * 1024 + p.val, hr⟩ : Fin 8192) q)) ?_ ?_
  · exact bodyH_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
      (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg1.win 17).blk t).view.emb (ix2 p q))
    refine congrArg (GH V c) (funext fun a => Fin.ext ?_)
    match a with
    | ⟨0, _⟩ => show t.val * 1024 + p.val = win1_17.index t (0 : Fin 2) * 1024 + 1 * p.val; omega
    | ⟨1, _⟩ => show q.val = win1_17.index t (1 : Fin 2) * 512 + 1 * q.val; omega

/-- An entry of the h array is in point t's block iff each coordinate is in the block's range on its axis. -/
theorem mem_blkH (t : Fin cfg1.N) (i : S8192x512.Idx) :
    i ∈ ((cfg1.win 17).blk t).view.set ↔ ∀ a : Fin 2, win1_17.index t a * S1024x512.size a ≤ (i a).val
      ∧ (i a).val < win1_17.index t a * S1024x512.size a + S1024x512.size a := by
  show i ∈ ((View.whole main_v49_0).slice (win1_17.rect t)).set ↔ _
  rw [View.set_slice_whole, Rect.mem_set_unit]
  exact Iff.rfl

/-- The blocks tile the h array: row r is in the block of point r / 1024. -/
theorem coverH (i : S8192x512.Idx) :
    ∃ t : Fin cfg1.N, (cfg1.win 17).flush t = true ∧ i ∈ ((cfg1.win 17).blk t).view.set := by
  have hi0 : (i 0).val < 8192 := (i 0).isLt
  have hi1 : (i 1).val < 512 := (i 1).isLt
  have hN : cfg1.N * 1024 = 8192 := points_rows
  obtain ⟨hq, hlo, hhi⟩ := Cert.LibBlocks.row_in_block (nb := cfg1.N) (bs := 1024) (r := (i 0).val) (by omega) (by omega)
  obtain ⟨e0, e1⟩ := idx17 (⟨(i 0).val / 1024, hq⟩ : Fin cfg1.N)
  refine ⟨⟨(i 0).val / 1024, hq⟩, flush1_17 _, ?_⟩
  rw [mem_blkH]
  intro a
  match a with
  | ⟨0, _⟩ =>
    show win1_17.index ⟨(i 0).val / 1024, hq⟩ (0 : Fin 2) * 1024 ≤ (i 0).val
      ∧ (i 0).val < win1_17.index ⟨(i 0).val / 1024, hq⟩ (0 : Fin 2) * 1024 + 1024
    rw [e0]
    exact ⟨hlo, hhi⟩
  | ⟨1, _⟩ =>
    show win1_17.index ⟨(i 0).val / 1024, hq⟩ (1 : Fin 2) * 512 ≤ (i 1).val
      ∧ (i 1).val < win1_17.index ⟨(i 0).val / 1024, hq⟩ (1 : Fin 2) * 512 + 512
    omega

/-- What point t writes back to the c array is block t of the level's c. -/
theorem flushedC (c : Dev nD) (t : Fin cfg1.N) :
    (dat1 V c).flushed 18 t = ((cfg1.win 18).blk t).view.read (Elt Ideal) (GC V c) := by
  show (cfg1.win 18).cut (grid1.coords t) ((dat1 V c).after 18 t) = _
  rw [after1_18]
  unfold out1_18
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg1.N := t.isLt
  have hN : cfg1.N * 1024 = 8192 := points_rows
  have hr : t.val * 1024 + p.val < 8192 := by omega
  obtain ⟨e0, e1⟩ := idx18 t
  refine Eq.trans (b := GC V c (ix2 (⟨t.val * 1024 + p.val, hr⟩ : Fin 8192) q)) ?_ ?_
  · exact bodyC_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
      (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg1.win 18).blk t).view.emb (ix2 p q))
    refine congrArg (GC V c) (funext fun a => Fin.ext ?_)
    match a with
    | ⟨0, _⟩ => show t.val * 1024 + p.val = win1_18.index t (0 : Fin 2) * 1024 + 1 * p.val; omega
    | ⟨1, _⟩ => show q.val = win1_18.index t (1 : Fin 2) * 512 + 1 * q.val; omega

/-- An entry of the c array is in point t's block iff each coordinate is in the block's range on its axis. -/
theorem mem_blkC (t : Fin cfg1.N) (i : S8192x512.Idx) :
    i ∈ ((cfg1.win 18).blk t).view.set ↔ ∀ a : Fin 2, win1_18.index t a * S1024x512.size a ≤ (i a).val
      ∧ (i a).val < win1_18.index t a * S1024x512.size a + S1024x512.size a := by
  show i ∈ ((View.whole main_v49_1).slice (win1_18.rect t)).set ↔ _
  rw [View.set_slice_whole, Rect.mem_set_unit]
  exact Iff.rfl

/-- The blocks tile the c array: row r is in the block of point r / 1024. -/
theorem coverC (i : S8192x512.Idx) :
    ∃ t : Fin cfg1.N, (cfg1.win 18).flush t = true ∧ i ∈ ((cfg1.win 18).blk t).view.set := by
  have hi0 : (i 0).val < 8192 := (i 0).isLt
  have hi1 : (i 1).val < 512 := (i 1).isLt
  have hN : cfg1.N * 1024 = 8192 := points_rows
  obtain ⟨hq, hlo, hhi⟩ := Cert.LibBlocks.row_in_block (nb := cfg1.N) (bs := 1024) (r := (i 0).val) (by omega) (by omega)
  obtain ⟨e0, e1⟩ := idx18 (⟨(i 0).val / 1024, hq⟩ : Fin cfg1.N)
  refine ⟨⟨(i 0).val / 1024, hq⟩, flush1_18 _, ?_⟩
  rw [mem_blkC]
  intro a
  match a with
  | ⟨0, _⟩ =>
    show win1_18.index ⟨(i 0).val / 1024, hq⟩ (0 : Fin 2) * 1024 ≤ (i 0).val
      ∧ (i 0).val < win1_18.index ⟨(i 0).val / 1024, hq⟩ (0 : Fin 2) * 1024 + 1024
    rw [e0]
    exact ⟨hlo, hhi⟩
  | ⟨1, _⟩ =>
    show win1_18.index ⟨(i 0).val / 1024, hq⟩ (1 : Fin 2) * 512 ≤ (i 1).val
      ∧ (i 1).val < win1_18.index ⟨(i 0).val / 1024, hq⟩ (1 : Fin 2) * 512 + 512
    omega

/-- After the region the h array holds the level's h of the seventeen arrays as the region finds them. -/
theorem arrH (c : Dev nD) :
    (dat1 (F := Ideal) V c).arrAt 17 cfg1.N
      = Cert.Tree.levelH (n := 8192) (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27) :=
  (dat1 V c).arrAt_eq_of_cover 17 (GH V c) (fun t _ => flushedH V c t) coverH

/-- After the region the c array holds the level's c of the seventeen arrays as the region finds them. -/
theorem arrC (c : Dev nD) :
    (dat1 (F := Ideal) V c).arrAt 18 cfg1.N
      = Cert.Tree.levelC (n := 8192) (V c main_v36) (V c main_v42) (V c main_v44) (V c main_v46) (V c main_v48) (V c main_v2) (V c main_v5) (V c main_v8) (V c main_v11) (V c main_v14) (V c main_v17) (V c main_v20) (V c main_v23) (V c main_v24) (V c main_v25) (V c main_v26) (V c main_v27) :=
  (dat1 V c).arrAt_eq_of_cover 18 (GC V c) (fun t _ => flushedC V c t) coverC

end Arrays

end Cert.KernelIdeal.Reg1

end
-- ==== Proof.RStep1.lean ====
/-
  The reference's level of 8192 nodes (heap rows 8191 … 16382), read off its run's named buffers: the h and c heap
  arrays after the level are the arrays before it with the level's rows replaced by the level function of the x rows
  and of the children's rows (the even and odd rows of heap rows 16383 … 32766 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx1 : Cert.Tree.HostCtx 8192 :=
  ⟨dot_S8192x1024_S1024x512_S8192x512_1_0_0_1_n_n, rfl, concatenates_S8192x512_S8192x512_S8192x1024_d1,
    transposes_S512x1024_S1024x512_1_0, bcast_S512_S1x512_1, bcast_S1x512_S8192x512_0_1, bcast_S_S8192x512⟩

variable (V0 : Valuation τ sig (Elt Ideal))

/-- The level's x rows. -/
abbrev xl1 : Vec Ideal S8192x512 .f32 :=
  extractStridedSlice S8192x512 ![8191, 0] (V0 (Proc.devRef .tc main_arg0)) slices_S32767x512_S8192x512_8191_0

/-- The left (even) and right (odd) children's rows of a heap array. -/
abbrev childL1 (A : Vec Ideal S32767x512 .f32) : Vec Ideal S8192x512 .f32 :=
  shapeCast _ (extractStridedSlice S8192x1x512 ![0, 0, 0] (shapeCast _ (extractStridedSlice S16384x512 ![16383, 0] A slices_S32767x512_S16384x512_16383_0) shapeCasts_S16384x512_S8192x2x512) slices_S8192x2x512_S8192x1x512_0_0_0) shapeCasts_S8192x1x512_S8192x512

abbrev childR1 (A : Vec Ideal S32767x512 .f32) : Vec Ideal S8192x512 .f32 :=
  shapeCast _ (extractStridedSlice S8192x1x512 ![0, 1, 0] (shapeCast _ (extractStridedSlice S16384x512 ![16383, 0] A slices_S32767x512_S16384x512_16383_0) shapeCasts_S16384x512_S8192x2x512) slices_S8192x2x512_S8192x1x512_0_1_0) shapeCasts_S8192x1x512_S8192x512

theorem stepC1 : res_main_v117 V0
    = Host.scatter scatter_S32767x512_S1_S8192x512_01_n_0_0 (fun _ b => b) (res_main_v39 V0) (broadcastInDim S1 ![] bcast_S_S1 (constantI S_ 32 8191#32))
        (Cert.Tree.hostLevelC ctx1 (xl1 V0) (childL1 (res_main_v37 V0)) (childR1 (res_main_v37 V0)) (childL1 (res_main_v39 V0)) (childR1 (res_main_v39 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v117 res_main_v111 res_main_v50 res_main_v46 res_main_v48 res_main_v42 res_main_v44 res_main_v40
  rfl

theorem stepH1 : res_main_v115 V0
    = Host.scatter scatter_S32767x512_S1_S8192x512_01_n_0_0 (fun _ b => b) (res_main_v37 V0) (broadcastInDim S1 ![] bcast_S_S1 (constantI S_ 32 8191#32))
        (Cert.Tree.hostLevelH ctx1 (xl1 V0) (childL1 (res_main_v37 V0)) (childR1 (res_main_v37 V0)) (childL1 (res_main_v39 V0)) (childR1 (res_main_v39 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v115 res_main_v111 res_main_v50 res_main_v46 res_main_v48 res_main_v42 res_main_v44 res_main_v40
  rfl

end Cert.ReferenceIdeal.Chain

end
-- ==== Proof.Bridge1.lean ====
/-
  The level of 8192 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep1
import proofs.«110311_j37117107372689_1_alg».proof.Proof.KReg1
import proofs.«110311_j37117107372689_1_alg».proof.Proof.RStep1
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 8192 nodes, they agree after it. -/
theorem level1 (hA : Agree m V0 c)
    (hH : Cert.KernelIdeal.Gen.W3 m ρ c (Proc.devRef .tc Cert.KernelIdeal.main_v33) = Cert.ReferenceIdeal.Value.res_main_v37 V0)
    (hC : Cert.KernelIdeal.Gen.W3 m ρ c (Proc.devRef .tc Cert.KernelIdeal.main_v35) = Cert.ReferenceIdeal.Value.res_main_v39 V0) :
    Cert.KernelIdeal.Gen.W5 m ρ c (Proc.devRef .tc Cert.KernelIdeal.main_v51) = Cert.ReferenceIdeal.Value.res_main_v115 V0
      ∧ Cert.KernelIdeal.Gen.W5 m ρ c (Proc.devRef .tc Cert.KernelIdeal.main_v53) = Cert.ReferenceIdeal.Value.res_main_v117 V0 := by
  constructor
  · rw [Cert.KernelIdeal.Chain.stepH1 m ρ c (Cert.KernelIdeal.Reg1.arrH (Cert.KernelIdeal.Gen.V3 m ρ) c),
      Cert.ReferenceIdeal.Chain.stepH1 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC1 m ρ c (Cert.KernelIdeal.Reg1.arrC (Cert.KernelIdeal.Gen.V3 m ρ) c),
      Cert.ReferenceIdeal.Chain.stepC1 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep2.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 2: what its scatters leave in the two heap arrays

The host stretch before the region cuts the level's 4096 rows of node features out of the argument and, out of each
heap array (hidden states, cell states), the 8192 rows of the level below, which it pairs up: row p's left child is
the pair's first member and its right child the second. The region computes the level's hidden and cell rows from
these five arrays and the twelve weight and bias buffers; the host stretch after it scatters the two results into the
heap arrays at row 4095. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat2_h : StableHlo.after hostOps3 W (Proc.devRef .tc main_v69)
    = Host.scatter scatter_S32767x512_S1_S4096x512_01_n_0_0 (fun _ b => b) (W (Proc.devRef .tc main_v51))
        (broadcastInDim S1 ![] bcast_S_S1 (constantI S_ 32 4095#32)) (W (Proc.devRef .tc main_v67_0)) := by
  after_results
  rfl

/-- And the new cell heap: the old one with the region's second output scattered in. -/
theorem scat2_c : StableHlo.after hostOps3 W (Proc.devRef .tc main_v71)
    = Host.scatter scatter_S32767x512_S1_S4096x512_01_n_0_0 (fun _ b => b) (W (Proc.devRef .tc main_v53))
        (broadcastInDim S1 ![] bcast_S_S1 (constantI S_ 32 4095#32)) (W (Proc.devRef .tc main_v67_1)) := by
  after_results
  rfl

/-- The stretch before the region: the level's rows of node features. -/
theorem cut2_x : StableHlo.after hostOps2 W (Proc.devRef .tc main_v54)
    = extractStridedSlice S4096x512 ![4095, 0] (W (Proc.devRef .tc main_arg0)) slices_S32767x512_S4096x512_4095_0 := by
  after_results

/-- The left children's hidden rows, out of the hidden heap as this stretch itself leaves it. -/
theorem cut2_hl : StableHlo.after hostOps2 W (Proc.devRef .tc main_v60)
    = shapeCast _ (extractStridedSlice S4096x1x512 ![0, 0, 0] (shapeCast _ (extractStridedSlice S8192x512 ![8191, 0] (StableHlo.after hostOps2 W (Proc.devRef .tc main_v51)) slices_S32767x512_S8192x512_8191_0) shapeCasts_S8192x512_S4096x2x512) slices_S4096x2x512_S4096x1x512_0_0_0) shapeCasts_S4096x1x512_S4096x512 := by
  after_results_simp
  rfl

/-- The right children's hidden rows. -/
theorem cut2_hr : StableHlo.after hostOps2 W (Proc.devRef .tc main_v62)
    = shapeCast _ (extractStridedSlice S4096x1x512 ![0, 1, 0] (shapeCast _ (extractStridedSlice S8192x512 ![8191, 0] (StableHlo.after hostOps2 W (Proc.devRef .tc main_v51)) slices_S32767x512_S8192x512_8191_0) shapeCasts_S8192x512_S4096x2x512) slices_S4096x2x512_S4096x1x512_0_1_0) shapeCasts_S4096x1x512_S4096x512 := by
  after_results_simp
  rfl

/-- The left children's cell rows, out of the cell heap. -/
theorem cut2_cl : StableHlo.after hostOps2 W (Proc.devRef .tc main_v64)
    = shapeCast _ (extractStridedSlice S4096x1x512 ![0, 0, 0] (shapeCast _ (extractStridedSlice S8192x512 ![8191, 0] (StableHlo.after hostOps2 W (Proc.devRef .tc main_v53)) slices_S32767x512_S8192x512_8191_0) shapeCasts_S8192x512_S4096x2x512) slices_S4096x2x512_S4096x1x512_0_0_0) shapeCasts_S4096x1x512_S4096x512 := by
  after_results_simp
  rfl

/-- The right children's cell rows. -/
theorem cut2_cr : StableHlo.after hostOps2 W (Proc.devRef .tc main_v66)
    = shapeCast _ (extractStridedSlice S4096x1x512 ![0, 1, 0] (shapeCast _ (extractStridedSlice S8192x512 ![8191, 0] (StableHlo.after hostOps2 W (Proc.devRef .tc main_v53)) slices_S32767x512_S8192x512_8191_0) shapeCasts_S8192x512_S4096x2x512) slices_S4096x2x512_S4096x1x512_0_1_0) shapeCasts_S4096x1x512_S4096x512 := by
  after_results_simp
  rfl

end Host

/-! ## The region's five level arrays at its entry, in the run -/

theorem in2_x (c : Dev nD) : Gen.W5 m ρ c (Proc.devRef .tc main_v54)
    = extractStridedSlice S4096x512 ![4095, 0] (m ((c : Thread nD τ).loc main_arg0)) slices_S32767x512_S4096x512_4095_0 :=
  (cut2_x (Gen.W4 m ρ c)).trans (by rw [arg0_2 m ρ c])

theorem in2_hl (c : Dev nD) : Gen.W5 m ρ c (Proc.devRef .tc main_v60)
    = shapeCast _ (extractStridedSlice S4096x1x512 ![0, 0, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_0_0) shapeCasts_S4096x1x512_S4096x512 :=
  cut2_hl (Gen.W4 m ρ c)

theorem in2_hr (c : Dev nD) : Gen.W5 m ρ c (Proc.devRef .tc main_v62)
    = shapeCast _ (extractStridedSlice S4096x1x512 ![0, 1, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_1_0) shapeCasts_S4096x1x512_S4096x512 :=
  cut2_hr (Gen.W4 m ρ c)

theorem in2_cl (c : Dev nD) : Gen.W5 m ρ c (Proc.devRef .tc main_v64)
    = shapeCast _ (extractStridedSlice S4096x1x512 ![0, 0, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_0_0) shapeCasts_S4096x1x512_S4096x512 :=
  cut2_cl (Gen.W4 m ρ c)

theorem in2_cr (c : Dev nD) : Gen.W5 m ρ c (Proc.devRef .tc main_v66)
    = shapeCast _ (extractStridedSlice S4096x1x512 ![0, 1, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_1_0) shapeCasts_S4096x1x512_S4096x512 :=
  cut2_cr (Gen.W4 m ρ c)

/-! ## The region's two outputs at its exit are its proof data's arrays after the last grid point -/

theorem out2_h (c : Dev nD) : Gen.W6 m ρ c (Proc.devRef .tc main_v67_0) = (Gen.dat2 (Gen.V5 m ρ) c).arrAt 17 cfg2.N :=
  Gen.W6_arr m ρ c 17

theorem out2_c (c : Dev nD) : Gen.W6 m ρ c (Proc.devRef .tc main_v67_1) = (Gen.dat2 (Gen.V5 m ρ) c).arrAt 18 cfg2.N :=
  Gen.W6_arr m ρ c 18

/-! ## The level -/

/-- The hidden heap after the level, given that the region's first output is the level function of its entry arrays. -/
theorem stepH2 (c : Dev nD)
    (hH : (Gen.dat2 (F := Ideal) (Gen.V5 m ρ) c).arrAt 17 cfg2.N
      = Cert.Tree.levelH (n := 4096) (Gen.V5 m ρ c main_v54) (Gen.V5 m ρ c main_v60) (Gen.V5 m ρ c main_v62)
          (Gen.V5 m ρ c main_v64) (Gen.V5 m ρ c main_v66)
          (Gen.V5 m ρ c main_v2) (Gen.V5 m ρ c main_v5) (Gen.V5 m ρ c main_v8) (Gen.V5 m ρ c main_v11)
          (Gen.V5 m ρ c main_v14) (Gen.V5 m ρ c main_v17) (Gen.V5 m ρ c main_v20) (Gen.V5 m ρ c main_v23)
          (Gen.V5 m ρ c main_v24) (Gen.V5 m ρ c main_v25) (Gen.V5 m ρ c main_v26) (Gen.V5 m ρ c main_v27)) :
    Gen.W7 m ρ c (Proc.devRef .tc main_v69)
      = Host.scatter scatter_S32767x512_S1_S4096x512_01_n_0_0 (fun _ b => b) (Gen.W5 m ρ c (Proc.devRef .tc main_v51))
          (broadcastInDim S1 ![] bcast_S_S1 (constantI S_ 32 4095#32))
          (Cert.Tree.levelH (n := 4096)
            (extractStridedSlice S4096x512 ![4095, 0] (m ((c : Thread nD τ).loc main_arg0)) slices_S32767x512_S4096x512_4095_0)
            (shapeCast _ (extractStridedSlice S4096x1x512 ![0, 0, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_0_0) shapeCasts_S4096x1x512_S4096x512)
            (shapeCast _ (extractStridedSlice S4096x1x512 ![0, 1, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_1_0) shapeCasts_S4096x1x512_S4096x512)
            (shapeCast _ (extractStridedSlice S4096x1x512 ![0, 0, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_0_0) shapeCasts_S4096x1x512_S4096x512)
            (shapeCast _ (extractStridedSlice S4096x1x512 ![0, 1, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_1_0) shapeCasts_S4096x1x512_S4096x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat2 (F := Ideal) (Gen.V5 m ρ) c).arrAt 17 cfg2.N
      = Cert.Tree.levelH (n := 4096) (Gen.W5 m ρ c (Proc.devRef .tc main_v54)) (Gen.W5 m ρ c (Proc.devRef .tc main_v60))
          (Gen.W5 m ρ c (Proc.devRef .tc main_v62)) (Gen.W5 m ρ c (Proc.devRef .tc main_v64))
          (Gen.W5 m ρ c (Proc.devRef .tc main_v66))
          (Gen.W5 m ρ c (Proc.devRef .tc main_v2)) (Gen.W5 m ρ c (Proc.devRef .tc main_v5))
          (Gen.W5 m ρ c (Proc.devRef .tc main_v8)) (Gen.W5 m ρ c (Proc.devRef .tc main_v11))
          (Gen.W5 m ρ c (Proc.devRef .tc main_v14)) (Gen.W5 m ρ c (Proc.devRef .tc main_v17))
          (Gen.W5 m ρ c (Proc.devRef .tc main_v20)) (Gen.W5 m ρ c (Proc.devRef .tc main_v23))
          (Gen.W5 m ρ c (Proc.devRef .tc main_v24)) (Gen.W5 m ρ c (Proc.devRef .tc main_v25))
          (Gen.W5 m ρ c (Proc.devRef .tc main_v26)) (Gen.W5 m ρ c (Proc.devRef .tc main_v27)) := hH
  rw [in2_x m ρ c, in2_hl m ρ c, in2_hr m ρ c, in2_cl m ρ c, in2_cr m ρ c,
    keep2_main_v2 m ρ c, keep2_main_v5 m ρ c, keep2_main_v8 m ρ c, keep2_main_v11 m ρ c, keep2_main_v14 m ρ c,
    keep2_main_v17 m ρ c, keep2_main_v20 m ρ c, keep2_main_v23 m ρ c, keep2_main_v24 m ρ c, keep2_main_v25 m ρ c,
    keep2_main_v26 m ρ c, keep2_main_v27 m ρ c] at hH'
  refine (scat2_h (Gen.W6 m ρ c)).trans ?_
  rw [Gen.W6_of_ne m ρ c main_v51 (by decide), out2_h m ρ c, hH']

/-- The cell heap after the level, given that the region's second output is the level's cell function of its entry arrays. -/
theorem stepC2 (c : Dev nD)
    (hC : (Gen.dat2 (F := Ideal) (Gen.V5 m ρ) c).arrAt 18 cfg2.N
      = Cert.Tree.levelC (n := 4096) (Gen.V5 m ρ c main_v54) (Gen.V5 m ρ c main_v60) (Gen.V5 m ρ c main_v62)
          (Gen.V5 m ρ c main_v64) (Gen.V5 m ρ c main_v66)
          (Gen.V5 m ρ c main_v2) (Gen.V5 m ρ c main_v5) (Gen.V5 m ρ c main_v8) (Gen.V5 m ρ c main_v11)
          (Gen.V5 m ρ c main_v14) (Gen.V5 m ρ c main_v17) (Gen.V5 m ρ c main_v20) (Gen.V5 m ρ c main_v23)
          (Gen.V5 m ρ c main_v24) (Gen.V5 m ρ c main_v25) (Gen.V5 m ρ c main_v26) (Gen.V5 m ρ c main_v27)) :
    Gen.W7 m ρ c (Proc.devRef .tc main_v71)
      = Host.scatter scatter_S32767x512_S1_S4096x512_01_n_0_0 (fun _ b => b) (Gen.W5 m ρ c (Proc.devRef .tc main_v53))
          (broadcastInDim S1 ![] bcast_S_S1 (constantI S_ 32 4095#32))
          (Cert.Tree.levelC (n := 4096)
            (extractStridedSlice S4096x512 ![4095, 0] (m ((c : Thread nD τ).loc main_arg0)) slices_S32767x512_S4096x512_4095_0)
            (shapeCast _ (extractStridedSlice S4096x1x512 ![0, 0, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_0_0) shapeCasts_S4096x1x512_S4096x512)
            (shapeCast _ (extractStridedSlice S4096x1x512 ![0, 1, 0] (shapeCast _ (extractStridedSlice S8192x512 ![8191, 0] (Gen.W5 m ρ c (Proc.devRef .tc main_v51)) slices_S32767x512_S8192x512_8191_0) shapeCasts_S8192x512_S4096x2x512) slices_S4096x2x512_S4096x1x512_0_1_0) shapeCasts_S4096x1x512_S4096x512)
            (shapeCast _ (extractStridedSlice S4096x1x512 ![0, 0, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_0_0) shapeCasts_S4096x1x512_S4096x512)
            (shapeCast _ (extractStridedSlice S4096x1x512 ![0, 1, 0] (shapeCast _ (extractStridedSlice S8192x512 ![8191, 0] (Gen.W5 m ρ c (Proc.devRef .tc main_v53)) slices_S32767x512_S8192x512_8191_0) shapeCasts_S8192x512_S4096x2x512) slices_S4096x2x512_S4096x1x512_0_1_0) shapeCasts_S4096x1x512_S4096x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat2 (F := Ideal) (Gen.V5 m ρ) c).arrAt 18 cfg2.N
      = Cert.Tree.levelC (n := 4096) (Gen.W5 m ρ c (Proc.devRef .tc main_v54)) (Gen.W5 m ρ c (Proc.devRef .tc main_v60))
          (Gen.W5 m ρ c (Proc.devRef .tc main_v62)) (Gen.W5 m ρ c (Proc.devRef .tc main_v64))
          (Gen.W5 m ρ c (Proc.devRef .tc main_v66))
          (Gen.W5 m ρ c (Proc.devRef .tc main_v2)) (Gen.W5 m ρ c (Proc.devRef .tc main_v5))
          (Gen.W5 m ρ c (Proc.devRef .tc main_v8)) (Gen.W5 m ρ c (Proc.devRef .tc main_v11))
          (Gen.W5 m ρ c (Proc.devRef .tc main_v14)) (Gen.W5 m ρ c (Proc.devRef .tc main_v17))
          (Gen.W5 m ρ c (Proc.devRef .tc main_v20)) (Gen.W5 m ρ c (Proc.devRef .tc main_v23))
          (Gen.W5 m ρ c (Proc.devRef .tc main_v24)) (Gen.W5 m ρ c (Proc.devRef .tc main_v25))
          (Gen.W5 m ρ c (Proc.devRef .tc main_v26)) (Gen.W5 m ρ c (Proc.devRef .tc main_v27)) := hC
  rw [in2_x m ρ c, in2_hl m ρ c, in2_hr m ρ c, in2_cl m ρ c, in2_cr m ρ c,
    keep2_main_v2 m ρ c, keep2_main_v5 m ρ c, keep2_main_v8 m ρ c, keep2_main_v11 m ρ c, keep2_main_v14 m ρ c,
    keep2_main_v17 m ρ c, keep2_main_v20 m ρ c, keep2_main_v23 m ρ c, keep2_main_v24 m ρ c, keep2_main_v25 m ρ c,
    keep2_main_v26 m ρ c, keep2_main_v27 m ρ c] at hC'
  refine (scat2_c (Gen.W6 m ρ c)).trans ?_
  rw [Gen.W6_of_ne m ρ c main_v53 (by decide), out2_c m ρ c, hC']

end Cert.KernelIdeal.Chain

end
-- ==== Proof.KReg2.lean ====
/-
  One level of the tree on the kernel's side: 4096 internal nodes, worked in blocks of 1024 node rows, one block per
  grid point. What the level's two output arrays hold after the region, whatever the arrays hold when it is entered.

  Grid point t reads block t (rows 1024 t … 1024 t + 1023) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg2.N * 1024 = 4096 := by decide

/-! The printed index maps, decided over the grid: a row array's block at point t is block (t, 0); a weight half or a
    bias row is one block, (0, 0). -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = t.val ∧ win2_3.index t (1 : Fin 2) = 0 :=
  (by decide +kernel : ∀ t : Fin grid2.N, _)
theorem idx4 : ∀ t : Fin cfg2.N, win2_4.index t (0 : Fin 2) = t.val ∧ win2_4.index t (1 : Fin 2) = 0 :=
  (by decide +kernel : ∀ t : Fin grid2.N, _)
theorem idx17 : ∀ t : Fin cfg2.N, win2_17.index t (0 : Fin 2) = t.val ∧ win2_17.index t (1 : Fin 2) = 0 :=
  (by decide +kernel : ∀ t : Fin grid2.N, _)
theorem idx18 : ∀ t : Fin cfg2.N, win2_18.index t (0 : Fin 2) = t.val ∧ win2_18.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = 0 ∧ win2_9.index t (1 : Fin 2) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 2) = 0 ∧ win2_11.index t (1 : Fin 2) = 0 :=
  (by decide +kernel : ∀ t : Fin grid2.N, _)
theorem idx12 : ∀ t : Fin cfg2.N, win2_12.index t (0 : Fin 2) = 0 ∧ win2_12.index t (1 : Fin 2) = 0 :=
  (by decide +kernel : ∀ t : Fin grid2.N, _)
theorem idx13 : ∀ t : Fin cfg2.N, win2_13.index t (0 : Fin 2) = 0 ∧ win2_13.index t (1 : Fin 2) = 0 :=
  (by decide +kernel : ∀ t : Fin grid2.N, _)
theorem idx14 : ∀ t : Fin cfg2.N, win2_14.index t (0 : Fin 2) = 0 ∧ win2_14.index t (1 : Fin 2) = 0 :=
  (by decide +kernel : ∀ t : Fin grid2.N, _)
theorem idx15 : ∀ t : Fin cfg2.N, win2_15.index t (0 : Fin 2) = 0 ∧ win2_15.index t (1 : Fin 2) = 0 :=
  (by decide +kernel : ∀ t : Fin grid2.N, _)
theorem idx16 : ∀ t : Fin cfg2.N, win2_16.index t (0 : Fin 2) = 0 ∧ win2_16.index t (1 : Fin 2) = 0 :=
  (by decide +kernel : ∀ t : Fin grid2.N, _)

/-! ## The blocks the body reads

A block's entry sits in its array, on each axis, at the block index times the block's extent plus the entry's own
coordinate. So entry (p, k) of block t of a row array is the array's entry (1024 t + p, k), and the one block of a weight
half or of a bias row is the array itself. -/

section Reads

variable (V : (c : Dev nD) → (b : Ref sig .tc) → Buf (Elt Ideal) ((c : Thread nD τ).loc b))
variable (c : Dev nD) (t : Fin cfg2.N)

/-- Block t of x, at an entry. -/
theorem read_x (y : S1024x512.Idx) (i : S4096x512.Idx) (h0 : (i 0).val = t.val * 1024 + (y 0).val) (h1 : (i 1).val = (y 1).val) :
    (iblk2 V c 0 t : Vec Ideal S1024x512 .f32) y = (V c main_v54 : S4096x512.Idx → EReal) i := by
  obtain ⟨e0, e1⟩ := idx0 t
  unfold iblk2
  rw [View.read_apply]
  show V c main_v54 _ = V c main_v54 _
  refine congrArg (V c main_v54) (funext fun a => Fin.ext ?_)
  match a with
  | ⟨0, _⟩ => show win2_0.index t (0 : Fin 2) * 1024 + 1 * (y 0).val = (i 0).val; omega
  | ⟨1, _⟩ => show win2_0.index t (1 : Fin 2) * 512 + 1 * (y 1).val = (i 1).val; omega

/-- Block t of the left children's h, at an entry. -/
theorem read_hl (y : S1024x512.Idx) (i : S4096x512.Idx) (h0 : (i 0).val = t.val * 1024 + (y 0).val) (h1 : (i 1).val = (y 1).val) :
    (iblk2 V c 1 t : Vec Ideal S1024x512 .f32) y = (V c main_v60 : S4096x512.Idx → EReal) i := by
  obtain ⟨e0, e1⟩ := idx1 t
  unfold iblk2
  rw [View.read_apply]
  show V c main_v60 _ = V c main_v60 _
  refine congrArg (V c main_v60) (funext fun a => Fin.ext ?_)
  match a with
  | ⟨0, _⟩ => show win2_1.index t (0 : Fin 2) * 1024 + 1 * (y 0).val = (i 0).val; omega
  | ⟨1, _⟩ => show win2_1.index t (1 : Fin 2) * 512 + 1 * (y 1).val = (i 1).val; omega

/-- Block t of the right children's h, at an entry. -/
theorem read_hr (y : S1024x512.Idx) (i : S4096x512.Idx) (h0 : (i 0).val = t.val * 1024 + (y 0).val) (h1 : (i 1).val = (y 1).val) :
    (iblk2 V c 2 t : Vec Ideal S1024x512 .f32) y = (V c main_v62 : S4096x512.Idx → EReal) i := by
  obtain ⟨e0, e1⟩ := idx2 t
  unfold iblk2
  rw [View.read_apply]
  show V c main_v62 _ = V c main_v62 _
  refine congrArg (V c main_v62) (funext fun a => Fin.ext ?_)
  match a with
  | ⟨0, _⟩ => show win2_2.index t (0 : Fin 2) * 1024 + 1 * (y 0).val = (i 0).val; omega
  | ⟨1, _⟩ => show win2_2.index t (1 : Fin 2) * 512 + 1 * (y 1).val = (i 1).val; omega

/-- Block t of the left children's c, at an entry. -/
theorem read_cl (y : S1024x512.Idx) (i : S4096x512.Idx) (h0 : (i 0).val = t.val * 1024 + (y 0).val) (h1 : (i 1).val = (y 1).val) :
    (iblk2 V c 3 t : Vec Ideal S1024x512 .f32) y = (V c main_v64 : S4096x512.Idx → EReal) i := by
  obtain ⟨e0, e1⟩ := idx3 t
  unfold iblk2
  rw [View.read_apply]
  show V c main_v64 _ = V c main_v64 _
  refine congrArg (V c main_v64) (funext fun a => Fin.ext ?_)
  match a with
  | ⟨0, _⟩ => show win2_3.index t (0 : Fin 2) * 1024 + 1 * (y 0).val = (i 0).val; omega
  | ⟨1, _⟩ => show win2_3.index t (1 : Fin 2) * 512 + 1 * (y 1).val = (i 1).val; omega

/-- Block t of the right children's c, at an entry. -/
theorem read_cr (y : S1024x512.Idx) (i : S4096x512.Idx) (h0 : (i 0).val = t.val * 1024 + (y 0).val) (h1 : (i 1).val = (y 1).val) :
    (iblk2 V c 4 t : Vec Ideal S1024x512 .f32) y = (V c main_v66 : S4096x512.Idx → EReal) i := by
  obtain ⟨e0, e1⟩ := idx4 t
  unfold iblk2
  rw [View.read_apply]
  show V c main_v66 _ = V c main_v66 _
  refine congrArg (V c main_v66) (funext fun a => Fin.ext ?_)
  match a with
  | ⟨0, _⟩ => show win2_4.index t (0 : Fin 2) * 1024 + 1 * (y 0).val = (i 0).val; omega
  | ⟨1, _⟩ => show win2_4.index t (1 : Fin 2) * 512 + 1 * (y 1).val = (i 1).val; omega

/-- The one block of the input gate's weights over x is the array. -/
theorem read_wix : (iblk2 V c 5 t : Vec Ideal S512x512 .bf16) = (V c main_v2 : S512x512.Idx → EReal) := by
  obtain ⟨e0, e1⟩ := idx5 t
  funext y
  unfold iblk2
  rw [View.read_apply]
  show V c main_v2 _ = V c main_v2 y
  refine congrArg (V c main_v2) (funext fun a => Fin.ext ?_)
  match a with
  | ⟨0, _⟩ => show win2_5.index t (0 : Fin 2) * 512 + 1 * (y 0).val = (y 0).val; omega
  | ⟨1, _⟩ => show win2_5.index t (1 : Fin 2) * 512 + 1 * (y 1).val = (y 1).val; omega

/-- The one block of the input gate's weights over h is the array. -/
theorem read_wih : (iblk2 V c 6 t : Vec Ideal S512x512 .bf16) = (V c main_v5 : S512x512.Idx → EReal) := by
  obtain ⟨e0, e1⟩ := idx6 t
  funext y
  unfold iblk2
  rw [View.read_apply]
  show V c main_v5 _ = V c main_v5 y
  refine congrArg (V c main_v5) (funext fun a => Fin.ext ?_)
  match a with
  | ⟨0, _⟩ => show win2_6.index t (0 : Fin 2) * 512 + 1 * (y 0).val = (y 0).val; omega
  | ⟨1, _⟩ => show win2_6.index t (1 : Fin 2) * 512 + 1 * (y 1).val = (y 1).val; omega

/-- The one block of the forget gates' weights over x is the array. -/
theorem read_wfx : (iblk2 V c 7 t : Vec Ideal S512x512 .bf16) = (V c main_v8 : S512x512.Idx → EReal) := by
  obtain ⟨e0, e1⟩ := idx7 t
  funext y
  unfold iblk2
  rw [View.read_apply]
  show V c main_v8 _ = V c main_v8 y
  refine congrArg (V c main_v8) (funext fun a => Fin.ext ?_)
  match a with
  | ⟨0, _⟩ => show win2_7.index t (0 : Fin 2) * 512 + 1 * (y 0).val = (y 0).val; omega
  | ⟨1, _⟩ => show win2_7.index t (1 : Fin 2) * 512 + 1 * (y 1).val = (y 1).val; omega

/-- The one block of the forget gates' weights over h is the array. -/
theorem read_wfh : (iblk2 V c 8 t : Vec Ideal S512x512 .bf16) = (V c main_v11 : S512x512.Idx → EReal) := by
  obtain ⟨e0, e1⟩ := idx8 t
  funext y
  unfold iblk2
  rw [View.read_apply]
  show V c main_v11 _ = V c main_v11 y
  refine congrArg (V c main_v11) (funext fun a => Fin.ext ?_)
  match a with
  | ⟨0, _⟩ => show win2_8.index t (0 : Fin 2) * 512 + 1 * (y 0).val = (y 0).val; omega
  | ⟨1, _⟩ => show win2_8.index t (1 : Fin 2) * 512 + 1 * (y 1).val = (y 1).val; omega

/-- The one block of the output gate's weights over x is the array. -/
theorem read_wox : (iblk2 V c 9 t : Vec Ideal S512x512 .bf16) = (V c main_v14 : S512x512.Idx → EReal) := by
  obtain ⟨e0, e1⟩ := idx9 t
  funext y
  unfold iblk2
  rw [View.read_apply]
  show V c main_v14 _ = V c main_v14 y
  refine congrArg (V c main_v14) (funext fun a => Fin.ext ?_)
  match a with
  | ⟨0, _⟩ => show win2_9.index t (0 : Fin 2) * 512 + 1 * (y 0).val = (y 0).val; omega
  | ⟨1, _⟩ => show win2_9.index t (1 : Fin 2) * 512 + 1 * (y 1).val = (y 1).val; omega

/-- The one block of the output gate's weights over h is the array. -/
theorem read_woh : (iblk2 V c 10 t : Vec Ideal S512x512 .bf16) = (V c main_v17 : S512x512.Idx → EReal) := by
  obtain ⟨e0, e1⟩ := idx10 t
  funext y
  unfold iblk2
  rw [View.read_apply]
  show V c main_v17 _ = V c main_v17 y
  refine congrArg (V c main_v17) (funext fun a => Fin.ext ?_)
  match a with
  | ⟨0, _⟩ => show win2_10.index t (0 : Fin 2) * 512 + 1 * (y 0).val = (y 0).val; omega
  | ⟨1, _⟩ => show win2_10.index t (1 : Fin 2) * 512 + 1 * (y 1).val = (y 1).val; omega

/-- The one block of the update gate's weights over x is the array. -/
theorem read_wux : (iblk2 V c 11 t : Vec Ideal S512x512 .bf16) = (V c main_v20 : S512x512.Idx → EReal) := by
  obtain ⟨e0, e1⟩ := idx11 t
  funext y
  unfold iblk2
  rw [View.read_apply]
  show V c main_v20 _ = V c main_v20 y
  refine congrArg (V c main_v20) (funext fun a => Fin.ext ?_)
  match a with
  | ⟨0, _⟩ => show win2_11.index t (0 : Fin 2) * 512 + 1 * (y 0).val = (y 0).val; omega
  | ⟨1, _⟩ => show win2_11.index t (1 : Fin 2) * 512 + 1 * (y 1).val = (y 1).val; omega

/-- The one block of the update gate's weights over h is the array. -/
theorem read_wuh : (iblk2 V c 12 t : Vec Ideal S512x512 .bf16) = (V c main_v23 : S512x512.Idx → EReal) := by
  obtain ⟨e0, e1⟩ := idx12 t
  funext y
  unfold iblk2
  rw [View.read_apply]
  show V c main_v23 _ = V c main_v23 y
  refine congrArg (V c main_v23) (funext fun a => Fin.ext ?_)
  match a with
  | ⟨0, _⟩ => show win2_12.index t (0 : Fin 2) * 512 + 1 * (y 0).val = (y 0).val; omega
  | ⟨1, _⟩ => show win2_12.index t (1 : Fin 2) * 512 + 1 * (y 1).val = (y 1).val; omega

/-- The one block of the input gate's bias row is the array. -/
theorem read_bi : (iblk2 V c 13 t : Vec Ideal S1x512 .f32) = (V c main_v24 : S1x512.Idx → EReal) := by
  obtain ⟨e0, e1⟩ := idx13 t
  funext y
  unfold iblk2
  rw [View.read_apply]
  show V c main_v24 _ = V c main_v24 y
  refine congrArg (V c main_v24) (funext fun a => Fin.ext ?_)
  match a with
  | ⟨0, _⟩ => show win2_13.index t (0 : Fin 2) * 1 + 1 * (y 0).val = (y 0).val; omega
  | ⟨1, _⟩ => show win2_13.index t (1 : Fin 2) * 512 + 1 * (y 1).val = (y 1).val; omega

/-- The one block of the forget gates' bias row is the array. -/
theorem read_bf : (iblk2 V c 14 t : Vec Ideal S1x512 .f32) = (V c main_v25 : S1x512.Idx → EReal) := by
  obtain ⟨e0, e1⟩ := idx14 t
  funext y
  unfold iblk2
  rw [View.read_apply]
  show V c main_v25 _ = V c main_v25 y
  refine congrArg (V c main_v25) (funext fun a => Fin.ext ?_)
  match a with
  | ⟨0, _⟩ => show win2_14.index t (0 : Fin 2) * 1 + 1 * (y 0).val = (y 0).val; omega
  | ⟨1, _⟩ => show win2_14.index t (1 : Fin 2) * 512 + 1 * (y 1).val = (y 1).val; omega

/-- The one block of the output gate's bias row is the array. -/
theorem read_bo : (iblk2 V c 15 t : Vec Ideal S1x512 .f32) = (V c main_v26 : S1x512.Idx → EReal) := by
  obtain ⟨e0, e1⟩ := idx15 t
  funext y
  unfold iblk2
  rw [View.read_apply]
  show V c main_v26 _ = V c main_v26 y
  refine congrArg (V c main_v26) (funext fun a => Fin.ext ?_)
  match a with
  | ⟨0, _⟩ => show win2_15.index t (0 : Fin 2) * 1 + 1 * (y 0).val = (y 0).val; omega
  | ⟨1, _⟩ => show win2_15.index t (1 : Fin 2) * 512 + 1 * (y 1).val = (y 1).val; omega

/-- The one block of the update gate's bias row is the array. -/
theorem read_bu : (iblk2 V c 16 t : Vec Ideal S1x512 .f32) = (V c main_v27 : S1x512.Idx → EReal) := by
  obtain ⟨e0, e1⟩ := idx16 t
  funext y
  unfold iblk2
  rw [View.read_apply]
  show V c main_v27 _ = V c main_v27 y
  refine congrArg (V c main_v27) (funext fun a => Fin.ext ?_)
  match a with
  | ⟨0, _⟩ => show win2_16.index t (0 : Fin 2) * 1 + 1 * (y 0).val = (y 0).val; omega
  | ⟨1, _⟩ => show win2_16.index t (1 : Fin 2) * 512 + 1 * (y 1).val = (y 1).val; omega

end Reads

/-! ## The block body -/

/-- What a block body of 1024 rows carries besides its arrays. -/
def ctx : Cert.Tree.BodyCtx 1024 :=
  ⟨dot_S1024x512_S512x512_S1024x512_1_0_0_1_n_n, rfl, shapeCasts_S1024x512_S1024x512, shapeCasts_S512x512_S512x512,
    shapeCasts_S1x512_S1x512, broadcasts_S1x512_S1024x512, bitsLt_bf16_f32⟩

section Body

variable {F : FTy → Type} [FloatOps F]

/-- The value the body stores into its h block is the tree cell's h block of the seventeen blocks it loads. -/
theorem bodyH_eq (x0 x1 x2 x3 x4 : Vec F S1024x512 .f32) (x5 x6 x7 x8 x9 x10 x11 x12 : Vec F S512x512 .bf16)
    (x13 x14 x15 x16 : Vec F S1x512 .f32) :
    k2_pay2 (k2_pay6 x3) (k2_pay7 x4) (k2_pay13 (k2_pay11 x0 x1 x2 x5 x6 x13)) (k2_pay14 (k2_pay12 x0 x1 x2 x9 x10) x15)
      (k2_pay15 (k2_pay3 x0) (k2_pay8 x1 x2) x11 x12 x16) (k2_pay17 (k2_pay3 x0) (k2_pay9 x1) x7 x8 x14)
      (k2_pay18 (k2_pay3 x0) (k2_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S1024x512 .f32) (x5 x6 x7 x8 x9 x10 x11 x12 : Vec F S512x512 .bf16)
    (x13 x14 x15 x16 : Vec F S1x512 .f32) :
    k2_pay1 (k2_pay6 x3) (k2_pay7 x4) (k2_pay13 (k2_pay11 x0 x1 x2 x5 x6 x13))
      (k2_pay15 (k2_pay3 x0) (k2_pay8 x1 x2) x11 x12 x16) (k2_pay17 (k2_pay3 x0) (k2_pay9 x1) x7 x8 x14)
      (k2_pay18 (k2_pay3 x0) (k2_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S4096x512.Idx → EReal) (w5 w6 w7 w8 w9 w10 w11 w12 : S512x512.Idx → EReal)
    (b13 b14 b15 b16 : S1x512.Idx → EReal) (p : Fin 1024) (r : Fin 4096) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k2_pay2 (k2_pay6 x3) (k2_pay7 x4) (k2_pay13 (k2_pay11 x0 x1 x2 x5 x6 x13)) (k2_pay14 (k2_pay12 x0 x1 x2 x9 x10) x15)
      (k2_pay15 (k2_pay3 x0) (k2_pay8 x1 x2) x11 x12 x16) (k2_pay17 (k2_pay3 x0) (k2_pay9 x1) x7 x8 x14)
      (k2_pay18 (k2_pay3 x0) (k2_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S4096x512.Idx → EReal) (w5 w6 w7 w8 w9 w10 w11 w12 : S512x512.Idx → EReal)
    (b13 b14 b15 b16 : S1x512.Idx → EReal) (p : Fin 1024) (r : Fin 4096) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k2_pay1 (k2_pay6 x3) (k2_pay7 x4) (k2_pay13 (k2_pay11 x0 x1 x2 x5 x6 x13))
      (k2_pay15 (k2_pay3 x0) (k2_pay8 x1 x2) x11 x12 x16) (k2_pay17 (k2_pay3 x0) (k2_pay9 x1) x7 x8 x14)
      (k2_pay18 (k2_pay3 x0) (k2_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S4096x512.Idx → EReal :=
  Cert.Tree.levelH (n := 4096) (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S4096x512.Idx → EReal :=
  Cert.Tree.levelC (n := 4096) (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg2.N) :
    (dat2 V c).flushed 17 t = ((cfg2.win 17).blk t).view.read (Elt Ideal) (GH V c) := by
  show (cfg2.win 17).cut (grid2.coords t) ((dat2 V c).after 17 t) = _
  rw [after2_17]
  unfold out2_17
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg2.N := t.isLt
  have hN : cfg2.N * 1024 = 4096 := points_rows
  have hr : t.val * 1024 + p.val < 4096 := by omega
  obtain ⟨e0, e1⟩ := idx17 t
  refine Eq.trans (b := GH V c (ix2 (⟨t.val * 1024 + p.val, hr⟩ : Fin 4096) q)) ?_ ?_
  · exact bodyH_at (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)
      (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg2.win 17).blk t).view.emb (ix2 p q))
    refine congrArg (GH V c) (funext fun a => Fin.ext ?_)
    match a with
    | ⟨0, _⟩ => show t.val * 1024 + p.val = win2_17.index t (0 : Fin 2) * 1024 + 1 * p.val; omega
    | ⟨1, _⟩ => show q.val = win2_17.index t (1 : Fin 2) * 512 + 1 * q.val; omega

/-- An entry of the h array is in point t's block iff each coordinate is in the block's range on its axis. -/
theorem mem_blkH (t : Fin cfg2.N) (i : S4096x512.Idx) :
    i ∈ ((cfg2.win 17).blk t).view.set ↔ ∀ a : Fin 2, win2_17.index t a * S1024x512.size a ≤ (i a).val
      ∧ (i a).val < win2_17.index t a * S1024x512.size a + S1024x512.size a := by
  show i ∈ ((View.whole main_v67_0).slice (win2_17.rect t)).set ↔ _
  rw [View.set_slice_whole, Rect.mem_set_unit]
  exact Iff.rfl

/-- The blocks tile the h array: row r is in the block of point r / 1024. -/
theorem coverH (i : S4096x512.Idx) :
    ∃ t : Fin cfg2.N, (cfg2.win 17).flush t = true ∧ i ∈ ((cfg2.win 17).blk t).view.set := by
  have hi0 : (i 0).val < 4096 := (i 0).isLt
  have hi1 : (i 1).val < 512 := (i 1).isLt
  have hN : cfg2.N * 1024 = 4096 := points_rows
  obtain ⟨hq, hlo, hhi⟩ := Cert.LibBlocks.row_in_block (nb := cfg2.N) (bs := 1024) (r := (i 0).val) (by omega) (by omega)
  obtain ⟨e0, e1⟩ := idx17 (⟨(i 0).val / 1024, hq⟩ : Fin cfg2.N)
  refine ⟨⟨(i 0).val / 1024, hq⟩, flush2_17 _, ?_⟩
  rw [mem_blkH]
  intro a
  match a with
  | ⟨0, _⟩ =>
    show win2_17.index ⟨(i 0).val / 1024, hq⟩ (0 : Fin 2) * 1024 ≤ (i 0).val
      ∧ (i 0).val < win2_17.index ⟨(i 0).val / 1024, hq⟩ (0 : Fin 2) * 1024 + 1024
    rw [e0]
    exact ⟨hlo, hhi⟩
  | ⟨1, _⟩ =>
    show win2_17.index ⟨(i 0).val / 1024, hq⟩ (1 : Fin 2) * 512 ≤ (i 1).val
      ∧ (i 1).val < win2_17.index ⟨(i 0).val / 1024, hq⟩ (1 : Fin 2) * 512 + 512
    omega

/-- What point t writes back to the c array is block t of the level's c. -/
theorem flushedC (c : Dev nD) (t : Fin cfg2.N) :
    (dat2 V c).flushed 18 t = ((cfg2.win 18).blk t).view.read (Elt Ideal) (GC V c) := by
  show (cfg2.win 18).cut (grid2.coords t) ((dat2 V c).after 18 t) = _
  rw [after2_18]
  unfold out2_18
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg2.N := t.isLt
  have hN : cfg2.N * 1024 = 4096 := points_rows
  have hr : t.val * 1024 + p.val < 4096 := by omega
  obtain ⟨e0, e1⟩ := idx18 t
  refine Eq.trans (b := GC V c (ix2 (⟨t.val * 1024 + p.val, hr⟩ : Fin 4096) q)) ?_ ?_
  · exact bodyC_at (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)
      (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg2.win 18).blk t).view.emb (ix2 p q))
    refine congrArg (GC V c) (funext fun a => Fin.ext ?_)
    match a with
    | ⟨0, _⟩ => show t.val * 1024 + p.val = win2_18.index t (0 : Fin 2) * 1024 + 1 * p.val; omega
    | ⟨1, _⟩ => show q.val = win2_18.index t (1 : Fin 2) * 512 + 1 * q.val; omega

/-- An entry of the c array is in point t's block iff each coordinate is in the block's range on its axis. -/
theorem mem_blkC (t : Fin cfg2.N) (i : S4096x512.Idx) :
    i ∈ ((cfg2.win 18).blk t).view.set ↔ ∀ a : Fin 2, win2_18.index t a * S1024x512.size a ≤ (i a).val
      ∧ (i a).val < win2_18.index t a * S1024x512.size a + S1024x512.size a := by
  show i ∈ ((View.whole main_v67_1).slice (win2_18.rect t)).set ↔ _
  rw [View.set_slice_whole, Rect.mem_set_unit]
  exact Iff.rfl

/-- The blocks tile the c array: row r is in the block of point r / 1024. -/
theorem coverC (i : S4096x512.Idx) :
    ∃ t : Fin cfg2.N, (cfg2.win 18).flush t = true ∧ i ∈ ((cfg2.win 18).blk t).view.set := by
  have hi0 : (i 0).val < 4096 := (i 0).isLt
  have hi1 : (i 1).val < 512 := (i 1).isLt
  have hN : cfg2.N * 1024 = 4096 := points_rows
  obtain ⟨hq, hlo, hhi⟩ := Cert.LibBlocks.row_in_block (nb := cfg2.N) (bs := 1024) (r := (i 0).val) (by omega) (by omega)
  obtain ⟨e0, e1⟩ := idx18 (⟨(i 0).val / 1024, hq⟩ : Fin cfg2.N)
  refine ⟨⟨(i 0).val / 1024, hq⟩, flush2_18 _, ?_⟩
  rw [mem_blkC]
  intro a
  match a with
  | ⟨0, _⟩ =>
    show win2_18.index ⟨(i 0).val / 1024, hq⟩ (0 : Fin 2) * 1024 ≤ (i 0).val
      ∧ (i 0).val < win2_18.index ⟨(i 0).val / 1024, hq⟩ (0 : Fin 2) * 1024 + 1024
    rw [e0]
    exact ⟨hlo, hhi⟩
  | ⟨1, _⟩ =>
    show win2_18.index ⟨(i 0).val / 1024, hq⟩ (1 : Fin 2) * 512 ≤ (i 1).val
      ∧ (i 1).val < win2_18.index ⟨(i 0).val / 1024, hq⟩ (1 : Fin 2) * 512 + 512
    omega

/-- After the region the h array holds the level's h of the seventeen arrays as the region finds them. -/
theorem arrH (c : Dev nD) :
    (dat2 (F := Ideal) V c).arrAt 17 cfg2.N
      = Cert.Tree.levelH (n := 4096) (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27) :=
  (dat2 V c).arrAt_eq_of_cover 17 (GH V c) (fun t _ => flushedH V c t) coverH

/-- After the region the c array holds the level's c of the seventeen arrays as the region finds them. -/
theorem arrC (c : Dev nD) :
    (dat2 (F := Ideal) V c).arrAt 18 cfg2.N
      = Cert.Tree.levelC (n := 4096) (V c main_v54) (V c main_v60) (V c main_v62) (V c main_v64) (V c main_v66) (V c main_v2) (V c main_v5) (V c main_v8) (V c main_v11) (V c main_v14) (V c main_v17) (V c main_v20) (V c main_v23) (V c main_v24) (V c main_v25) (V c main_v26) (V c main_v27) :=
  (dat2 V c).arrAt_eq_of_cover 18 (GC V c) (fun t _ => flushedC V c t) coverC

end Arrays

end Cert.KernelIdeal.Reg2

end
-- ==== Proof.RStep2.lean ====
/-
  The reference's level of 4096 nodes (heap rows 4095 … 8190), read off its run's named buffers: the h and c heap
  arrays after the level are the arrays before it with the level's rows replaced by the level function of the x rows
  and of the children's rows (the even and odd rows of heap rows 8191 … 16382 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx2 : Cert.Tree.HostCtx 4096 :=
  ⟨dot_S4096x1024_S1024x512_S4096x512_1_0_0_1_n_n, rfl, concatenates_S4096x512_S4096x512_S4096x1024_d1,
    transposes_S512x1024_S1024x512_1_0, bcast_S512_S1x512_1, bcast_S1x512_S4096x512_0_1, bcast_S_S4096x512⟩

variable (V0 : Valuation τ sig (Elt Ideal))

/-- The level's x rows. -/
abbrev xl2 : Vec Ideal S4096x512 .f32 :=
  extractStridedSlice S4096x512 ![4095, 0] (V0 (Proc.devRef .tc main_arg0)) slices_S32767x512_S4096x512_4095_0

/-- The left (even) and right (odd) children's rows of a heap array. -/
abbrev childL2 (A : Vec Ideal S32767x512 .f32) : Vec Ideal S4096x512 .f32 :=
  shapeCast _ (extractStridedSlice S4096x1x512 ![0, 0, 0] (shapeCast _ (extractStridedSlice S8192x512 ![8191, 0] A slices_S32767x512_S8192x512_8191_0) shapeCasts_S8192x512_S4096x2x512) slices_S4096x2x512_S4096x1x512_0_0_0) shapeCasts_S4096x1x512_S4096x512

abbrev childR2 (A : Vec Ideal S32767x512 .f32) : Vec Ideal S4096x512 .f32 :=
  shapeCast _ (extractStridedSlice S4096x1x512 ![0, 1, 0] (shapeCast _ (extractStridedSlice S8192x512 ![8191, 0] A slices_S32767x512_S8192x512_8191_0) shapeCasts_S8192x512_S4096x2x512) slices_S4096x2x512_S4096x1x512_0_1_0) shapeCasts_S4096x1x512_S4096x512

theorem stepC2 : res_main_v195 V0
    = Host.scatter scatter_S32767x512_S1_S4096x512_01_n_0_0 (fun _ b => b) (res_main_v117 V0) (broadcastInDim S1 ![] bcast_S_S1 (constantI S_ 32 4095#32))
        (Cert.Tree.hostLevelC ctx2 (xl2 V0) (childL2 (res_main_v115 V0)) (childR2 (res_main_v115 V0)) (childL2 (res_main_v117 V0)) (childR2 (res_main_v117 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v195 res_main_v189 res_main_v128 res_main_v124 res_main_v126 res_main_v120 res_main_v122 res_main_v118
  rfl

theorem stepH2 : res_main_v193 V0
    = Host.scatter scatter_S32767x512_S1_S4096x512_01_n_0_0 (fun _ b => b) (res_main_v115 V0) (broadcastInDim S1 ![] bcast_S_S1 (constantI S_ 32 4095#32))
        (Cert.Tree.hostLevelH ctx2 (xl2 V0) (childL2 (res_main_v115 V0)) (childR2 (res_main_v115 V0)) (childL2 (res_main_v117 V0)) (childR2 (res_main_v117 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v193 res_main_v189 res_main_v128 res_main_v124 res_main_v126 res_main_v120 res_main_v122 res_main_v118
  rfl

end Cert.ReferenceIdeal.Chain

end
-- ==== Proof.Bridge2.lean ====
/-
  The level of 4096 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep2
import proofs.«110311_j37117107372689_1_alg».proof.Proof.KReg2
import proofs.«110311_j37117107372689_1_alg».proof.Proof.RStep2
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 4096 nodes, they agree after it. -/
theorem level2 (hA : Agree m V0 c)
    (hH : Cert.KernelIdeal.Gen.W5 m ρ c (Proc.devRef .tc Cert.KernelIdeal.main_v51) = Cert.ReferenceIdeal.Value.res_main_v115 V0)
    (hC : Cert.KernelIdeal.Gen.W5 m ρ c (Proc.devRef .tc Cert.KernelIdeal.main_v53) = Cert.ReferenceIdeal.Value.res_main_v117 V0) :
    Cert.KernelIdeal.Gen.W7 m ρ c (Proc.devRef .tc Cert.KernelIdeal.main_v69) = Cert.ReferenceIdeal.Value.res_main_v193 V0
      ∧ Cert.KernelIdeal.Gen.W7 m ρ c (Proc.devRef .tc Cert.KernelIdeal.main_v71) = Cert.ReferenceIdeal.Value.res_main_v195 V0 := by
  constructor
  · rw [Cert.KernelIdeal.Chain.stepH2 m ρ c (Cert.KernelIdeal.Reg2.arrH (Cert.KernelIdeal.Gen.V5 m ρ) c),
      Cert.ReferenceIdeal.Chain.stepH2 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC2 m ρ c (Cert.KernelIdeal.Reg2.arrC (Cert.KernelIdeal.Gen.V5 m ρ) c),
      Cert.ReferenceIdeal.Chain.stepC2 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep3.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 3: what its scatters leave in the two heap arrays

The host stretch before the region cuts the level's 2048 rows of node features out of the argument and, out of each
heap array (hidden states, cell states), the 4096 rows of the level below, which it pairs up: row p's left child is
the pair's first member and its right child the second. The region computes the level's hidden and cell rows from
these five arrays and the twelve weight and bias buffers; the host stretch after it scatters the two results into the
heap arrays at row 2047. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat3_h : StableHlo.after hostOps4 W (Proc.devRef .tc main_v87)
    = Host.scatter scatter_S32767x512_S1_S2048x512_01_n_0_0 (fun _ b => b) (W (Proc.devRef .tc main_v69))
        (broadcastInDim S1 ![] bcast_S_S1 (constantI S_ 32 2047#32)) (W (Proc.devRef .tc main_v85_0)) := by
  after_results
  rfl

/-- And the new cell heap: the old one with the region's second output scattered in. -/
theorem scat3_c : StableHlo.after hostOps4 W (Proc.devRef .tc main_v89)
    = Host.scatter scatter_S32767x512_S1_S2048x512_01_n_0_0 (fun _ b => b) (W (Proc.devRef .tc main_v71))
        (broadcastInDim S1 ![] bcast_S_S1 (constantI S_ 32 2047#32)) (W (Proc.devRef .tc main_v85_1)) := by
  after_results
  rfl

/-- The stretch before the region: the level's rows of node features. -/
theorem cut3_x : StableHlo.after hostOps3 W (Proc.devRef .tc main_v72)
    = extractStridedSlice S2048x512 ![2047, 0] (W (Proc.devRef .tc main_arg0)) slices_S32767x512_S2048x512_2047_0 := by
  after_results

/-- The left children's hidden rows, out of the hidden heap as this stretch itself leaves it. -/
theorem cut3_hl : StableHlo.after hostOps3 W (Proc.devRef .tc main_v78)
    = shapeCast _ (extractStridedSlice S2048x1x512 ![0, 0, 0] (shapeCast _ (extractStridedSlice S4096x512 ![4095, 0] (StableHlo.after hostOps3 W (Proc.devRef .tc main_v69)) slices_S32767x512_S4096x512_4095_0) shapeCasts_S4096x512_S2048x2x512) slices_S2048x2x512_S2048x1x512_0_0_0) shapeCasts_S2048x1x512_S2048x512 := by
  after_results_simp
  rfl

/-- The right children's hidden rows. -/
theorem cut3_hr : StableHlo.after hostOps3 W (Proc.devRef .tc main_v80)
    = shapeCast _ (extractStridedSlice S2048x1x512 ![0, 1, 0] (shapeCast _ (extractStridedSlice S4096x512 ![4095, 0] (StableHlo.after hostOps3 W (Proc.devRef .tc main_v69)) slices_S32767x512_S4096x512_4095_0) shapeCasts_S4096x512_S2048x2x512) slices_S2048x2x512_S2048x1x512_0_1_0) shapeCasts_S2048x1x512_S2048x512 := by
  after_results_simp
  rfl

/-- The left children's cell rows, out of the cell heap. -/
theorem cut3_cl : StableHlo.after hostOps3 W (Proc.devRef .tc main_v82)
    = shapeCast _ (extractStridedSlice S2048x1x512 ![0, 0, 0] (shapeCast _ (extractStridedSlice S4096x512 ![4095, 0] (StableHlo.after hostOps3 W (Proc.devRef .tc main_v71)) slices_S32767x512_S4096x512_4095_0) shapeCasts_S4096x512_S2048x2x512) slices_S2048x2x512_S2048x1x512_0_0_0) shapeCasts_S2048x1x512_S2048x512 := by
  after_results_simp
  rfl

/-- The right children's cell rows. -/
theorem cut3_cr : StableHlo.after hostOps3 W (Proc.devRef .tc main_v84)
    = shapeCast _ (extractStridedSlice S2048x1x512 ![0, 1, 0] (shapeCast _ (extractStridedSlice S4096x512 ![4095, 0] (StableHlo.after hostOps3 W (Proc.devRef .tc main_v71)) slices_S32767x512_S4096x512_4095_0) shapeCasts_S4096x512_S2048x2x512) slices_S2048x2x512_S2048x1x512_0_1_0) shapeCasts_S2048x1x512_S2048x512 := by
  after_results_simp
  rfl

end Host

/-! ## The region's five level arrays at its entry, in the run -/

theorem in3_x (c : Dev nD) : Gen.W7 m ρ c (Proc.devRef .tc main_v72)
    = extractStridedSlice S2048x512 ![2047, 0] (m ((c : Thread nD τ).loc main_arg0)) slices_S32767x512_S2048x512_2047_0 :=
  (cut3_x (Gen.W6 m ρ c)).trans (by rw [arg0_3 m ρ c])

theorem in3_hl (c : Dev nD) : Gen.W7 m ρ c (Proc.devRef .tc main_v78)
    = shapeCast _ (extractStridedSlice S2048x1x512 ![0, 0, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_0_0) shapeCasts_S2048x1x512_S2048x512 :=
  cut3_hl (Gen.W6 m ρ c)

theorem in3_hr (c : Dev nD) : Gen.W7 m ρ c (Proc.devRef .tc main_v80)
    = shapeCast _ (extractStridedSlice S2048x1x512 ![0, 1, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_1_0) shapeCasts_S2048x1x512_S2048x512 :=
  cut3_hr (Gen.W6 m ρ c)

theorem in3_cl (c : Dev nD) : Gen.W7 m ρ c (Proc.devRef .tc main_v82)
    = shapeCast _ (extractStridedSlice S2048x1x512 ![0, 0, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_0_0) shapeCasts_S2048x1x512_S2048x512 :=
  cut3_cl (Gen.W6 m ρ c)

theorem in3_cr (c : Dev nD) : Gen.W7 m ρ c (Proc.devRef .tc main_v84)
    = shapeCast _ (extractStridedSlice S2048x1x512 ![0, 1, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_1_0) shapeCasts_S2048x1x512_S2048x512 :=
  cut3_cr (Gen.W6 m ρ c)

/-! ## The region's two outputs at its exit are its proof data's arrays after the last grid point -/

theorem out3_h (c : Dev nD) : Gen.W8 m ρ c (Proc.devRef .tc main_v85_0) = (Gen.dat3 (Gen.V7 m ρ) c).arrAt 17 cfg3.N :=
  Gen.W8_arr m ρ c 17

theorem out3_c (c : Dev nD) : Gen.W8 m ρ c (Proc.devRef .tc main_v85_1) = (Gen.dat3 (Gen.V7 m ρ) c).arrAt 18 cfg3.N :=
  Gen.W8_arr m ρ c 18

/-! ## The level -/

/-- The hidden heap after the level, given that the region's first output is the level function of its entry arrays. -/
theorem stepH3 (c : Dev nD)
    (hH : (Gen.dat3 (F := Ideal) (Gen.V7 m ρ) c).arrAt 17 cfg3.N
      = Cert.Tree.levelH (n := 2048) (Gen.V7 m ρ c main_v72) (Gen.V7 m ρ c main_v78) (Gen.V7 m ρ c main_v80)
          (Gen.V7 m ρ c main_v82) (Gen.V7 m ρ c main_v84)
          (Gen.V7 m ρ c main_v2) (Gen.V7 m ρ c main_v5) (Gen.V7 m ρ c main_v8) (Gen.V7 m ρ c main_v11)
          (Gen.V7 m ρ c main_v14) (Gen.V7 m ρ c main_v17) (Gen.V7 m ρ c main_v20) (Gen.V7 m ρ c main_v23)
          (Gen.V7 m ρ c main_v24) (Gen.V7 m ρ c main_v25) (Gen.V7 m ρ c main_v26) (Gen.V7 m ρ c main_v27)) :
    Gen.W9 m ρ c (Proc.devRef .tc main_v87)
      = Host.scatter scatter_S32767x512_S1_S2048x512_01_n_0_0 (fun _ b => b) (Gen.W7 m ρ c (Proc.devRef .tc main_v69))
          (broadcastInDim S1 ![] bcast_S_S1 (constantI S_ 32 2047#32))
          (Cert.Tree.levelH (n := 2048)
            (extractStridedSlice S2048x512 ![2047, 0] (m ((c : Thread nD τ).loc main_arg0)) slices_S32767x512_S2048x512_2047_0)
            (shapeCast _ (extractStridedSlice S2048x1x512 ![0, 0, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_0_0) shapeCasts_S2048x1x512_S2048x512)
            (shapeCast _ (extractStridedSlice S2048x1x512 ![0, 1, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_1_0) shapeCasts_S2048x1x512_S2048x512)
            (shapeCast _ (extractStridedSlice S2048x1x512 ![0, 0, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_0_0) shapeCasts_S2048x1x512_S2048x512)
            (shapeCast _ (extractStridedSlice S2048x1x512 ![0, 1, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_1_0) shapeCasts_S2048x1x512_S2048x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat3 (F := Ideal) (Gen.V7 m ρ) c).arrAt 17 cfg3.N
      = Cert.Tree.levelH (n := 2048) (Gen.W7 m ρ c (Proc.devRef .tc main_v72)) (Gen.W7 m ρ c (Proc.devRef .tc main_v78))
          (Gen.W7 m ρ c (Proc.devRef .tc main_v80)) (Gen.W7 m ρ c (Proc.devRef .tc main_v82))
          (Gen.W7 m ρ c (Proc.devRef .tc main_v84))
          (Gen.W7 m ρ c (Proc.devRef .tc main_v2)) (Gen.W7 m ρ c (Proc.devRef .tc main_v5))
          (Gen.W7 m ρ c (Proc.devRef .tc main_v8)) (Gen.W7 m ρ c (Proc.devRef .tc main_v11))
          (Gen.W7 m ρ c (Proc.devRef .tc main_v14)) (Gen.W7 m ρ c (Proc.devRef .tc main_v17))
          (Gen.W7 m ρ c (Proc.devRef .tc main_v20)) (Gen.W7 m ρ c (Proc.devRef .tc main_v23))
          (Gen.W7 m ρ c (Proc.devRef .tc main_v24)) (Gen.W7 m ρ c (Proc.devRef .tc main_v25))
          (Gen.W7 m ρ c (Proc.devRef .tc main_v26)) (Gen.W7 m ρ c (Proc.devRef .tc main_v27)) := hH
  rw [in3_x m ρ c, in3_hl m ρ c, in3_hr m ρ c, in3_cl m ρ c, in3_cr m ρ c,
    keep3_main_v2 m ρ c, keep3_main_v5 m ρ c, keep3_main_v8 m ρ c, keep3_main_v11 m ρ c, keep3_main_v14 m ρ c,
    keep3_main_v17 m ρ c, keep3_main_v20 m ρ c, keep3_main_v23 m ρ c, keep3_main_v24 m ρ c, keep3_main_v25 m ρ c,
    keep3_main_v26 m ρ c, keep3_main_v27 m ρ c] at hH'
  refine (scat3_h (Gen.W8 m ρ c)).trans ?_
  rw [Gen.W8_of_ne m ρ c main_v69 (by decide), out3_h m ρ c, hH']

/-- The cell heap after the level, given that the region's second output is the level's cell function of its entry arrays. -/
theorem stepC3 (c : Dev nD)
    (hC : (Gen.dat3 (F := Ideal) (Gen.V7 m ρ) c).arrAt 18 cfg3.N
      = Cert.Tree.levelC (n := 2048) (Gen.V7 m ρ c main_v72) (Gen.V7 m ρ c main_v78) (Gen.V7 m ρ c main_v80)
          (Gen.V7 m ρ c main_v82) (Gen.V7 m ρ c main_v84)
          (Gen.V7 m ρ c main_v2) (Gen.V7 m ρ c main_v5) (Gen.V7 m ρ c main_v8) (Gen.V7 m ρ c main_v11)
          (Gen.V7 m ρ c main_v14) (Gen.V7 m ρ c main_v17) (Gen.V7 m ρ c main_v20) (Gen.V7 m ρ c main_v23)
          (Gen.V7 m ρ c main_v24) (Gen.V7 m ρ c main_v25) (Gen.V7 m ρ c main_v26) (Gen.V7 m ρ c main_v27)) :
    Gen.W9 m ρ c (Proc.devRef .tc main_v89)
      = Host.scatter scatter_S32767x512_S1_S2048x512_01_n_0_0 (fun _ b => b) (Gen.W7 m ρ c (Proc.devRef .tc main_v71))
          (broadcastInDim S1 ![] bcast_S_S1 (constantI S_ 32 2047#32))
          (Cert.Tree.levelC (n := 2048)
            (extractStridedSlice S2048x512 ![2047, 0] (m ((c : Thread nD τ).loc main_arg0)) slices_S32767x512_S2048x512_2047_0)
            (shapeCast _ (extractStridedSlice S2048x1x512 ![0, 0, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_0_0) shapeCasts_S2048x1x512_S2048x512)
            (shapeCast _ (extractStridedSlice S2048x1x512 ![0, 1, 0] (shapeCast _ (extractStridedSlice S4096x512 ![4095, 0] (Gen.W7 m ρ c (Proc.devRef .tc main_v69)) slices_S32767x512_S4096x512_4095_0) shapeCasts_S4096x512_S2048x2x512) slices_S2048x2x512_S2048x1x512_0_1_0) shapeCasts_S2048x1x512_S2048x512)
            (shapeCast _ (extractStridedSlice S2048x1x512 ![0, 0, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_0_0) shapeCasts_S2048x1x512_S2048x512)
            (shapeCast _ (extractStridedSlice S2048x1x512 ![0, 1, 0] (shapeCast _ (extractStridedSlice S4096x512 ![4095, 0] (Gen.W7 m ρ c (Proc.devRef .tc main_v71)) slices_S32767x512_S4096x512_4095_0) shapeCasts_S4096x512_S2048x2x512) slices_S2048x2x512_S2048x1x512_0_1_0) shapeCasts_S2048x1x512_S2048x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat3 (F := Ideal) (Gen.V7 m ρ) c).arrAt 18 cfg3.N
      = Cert.Tree.levelC (n := 2048) (Gen.W7 m ρ c (Proc.devRef .tc main_v72)) (Gen.W7 m ρ c (Proc.devRef .tc main_v78))
          (Gen.W7 m ρ c (Proc.devRef .tc main_v80)) (Gen.W7 m ρ c (Proc.devRef .tc main_v82))
          (Gen.W7 m ρ c (Proc.devRef .tc main_v84))
          (Gen.W7 m ρ c (Proc.devRef .tc main_v2)) (Gen.W7 m ρ c (Proc.devRef .tc main_v5))
          (Gen.W7 m ρ c (Proc.devRef .tc main_v8)) (Gen.W7 m ρ c (Proc.devRef .tc main_v11))
          (Gen.W7 m ρ c (Proc.devRef .tc main_v14)) (Gen.W7 m ρ c (Proc.devRef .tc main_v17))
          (Gen.W7 m ρ c (Proc.devRef .tc main_v20)) (Gen.W7 m ρ c (Proc.devRef .tc main_v23))
          (Gen.W7 m ρ c (Proc.devRef .tc main_v24)) (Gen.W7 m ρ c (Proc.devRef .tc main_v25))
          (Gen.W7 m ρ c (Proc.devRef .tc main_v26)) (Gen.W7 m ρ c (Proc.devRef .tc main_v27)) := hC
  rw [in3_x m ρ c, in3_hl m ρ c, in3_hr m ρ c, in3_cl m ρ c, in3_cr m ρ c,
    keep3_main_v2 m ρ c, keep3_main_v5 m ρ c, keep3_main_v8 m ρ c, keep3_main_v11 m ρ c, keep3_main_v14 m ρ c,
    keep3_main_v17 m ρ c, keep3_main_v20 m ρ c, keep3_main_v23 m ρ c, keep3_main_v24 m ρ c, keep3_main_v25 m ρ c,
    keep3_main_v26 m ρ c, keep3_main_v27 m ρ c] at hC'
  refine (scat3_c (Gen.W8 m ρ c)).trans ?_
  rw [Gen.W8_of_ne m ρ c main_v71 (by decide), out3_c m ρ c, hC']

end Cert.KernelIdeal.Chain

end
-- ==== Proof.KReg3.lean ====
/-
  One level of the tree on the kernel's side: 2048 internal nodes, worked in blocks of 1024 node rows, one block per
  grid point. What the level's two output arrays hold after the region, whatever the arrays hold when it is entered.

  Grid point t reads block t (rows 1024 t … 1024 t + 1023) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg3.N * 1024 = 2048 := by decide

/-! The printed index maps, decided over the grid: a row array's block at point t is block (t, 0); a weight half or a
    bias row is one block, (0, 0). -/

theorem idx0 : ∀ t : Fin cfg3.N, win3_0.index t (0 : Fin 2) = t.val ∧ win3_0.index t (1 : Fin 2) = 0 :=
  (by decide +kernel : ∀ t : Fin grid3.N, _)
theorem idx1 : ∀ t : Fin cfg3.N, win3_1.index t (0 : Fin 2) = t.val ∧ win3_1.index t (1 : Fin 2) = 0 :=
  (by decide +kernel : ∀ t : Fin grid3.N, _)
theorem idx2 : ∀ t : Fin cfg3.N, win3_2.index t (0 : Fin 2) = t.val ∧ win3_2.index t (1 : Fin 2) = 0 :=
  (by decide +kernel : ∀ t : Fin grid3.N, _)
theorem idx3 : ∀ t : Fin cfg3.N, win3_3.index t (0 : Fin 2) = t.val ∧ win3_3.index t (1 : Fin 2) = 0 :=
  (by decide +kernel : ∀ t : Fin grid3.N, _)
theorem idx4 : ∀ t : Fin cfg3.N, win3_4.index t (0 : Fin 2) = t.val ∧ win3_4.index t (1 : Fin 2) = 0 :=
  (by decide +kernel : ∀ t : Fin grid3.N, _)
theorem idx17 : ∀ t : Fin cfg3.N, win3_17.index t (0 : Fin 2) = t.val ∧ win3_17.index t (1 : Fin 2) = 0 :=
  (by decide +kernel : ∀ t : Fin grid3.N, _)
theorem idx18 : ∀ t : Fin cfg3.N, win3_18.index t (0 : Fin 2) = t.val ∧ win3_18.index t (1 : Fin 2) = 0 :=
  (by decide +kernel : ∀ t : Fin grid3.N, _)
theorem idx5 : ∀ t : Fin cfg3.N, win3_5.index t (0 : Fin 2) = 0 ∧ win3_5.index t (1 : Fin 2) = 0 :=
  (by decide +kernel : ∀ t : Fin grid3.N, _)
theorem idx6 : ∀ t : Fin cfg3.N, win3_6.index t (0 : Fin 2) = 0 ∧ win3_6.index t (1 : Fin 2) = 0 :=
  (by decide +kernel : ∀ t : Fin grid3.N, _)
theorem idx7 : ∀ t : Fin cfg3.N, win3_7.index t (0 : Fin 2) = 0 ∧ win3_7.index t (1 : Fin 2) = 0 :=
  (by decide +kernel : ∀ t : Fin grid3.N, _)
theorem idx8 : ∀ t : Fin cfg3.N, win3_8.index t (0 : Fin 2) = 0 ∧ win3_8.index t (1 : Fin 2) = 0 :=
  (by decide +kernel : ∀ t : Fin grid3.N, _)
theorem idx9 : ∀ t : Fin cfg3.N, win3_9.index t (0 : Fin 2) = 0 ∧ win3_9.index t (1 : Fin 2) = 0 :=
  (by decide +kernel : ∀ t : Fin grid3.N, _)
theorem idx10 : ∀ t : Fin cfg3.N, win3_10.index t (0 : Fin 2) = 0 ∧ win3_10.index t (1 : Fin 2) = 0 :=
  (by decide +kernel : ∀ t : Fin grid3.N, _)
theorem idx11 : ∀ t : Fin cfg3.N, win3_11.index t (0 : Fin 2) = 0 ∧ win3_11.index t (1 : Fin 2) = 0 :=
  (by decide +kernel : ∀ t : Fin grid3.N, _)
theorem idx12 : ∀ t : Fin cfg3.N, win3_12.index t (0 : Fin 2) = 0 ∧ win3_12.index t (1 : Fin 2) = 0 :=
  (by decide +kernel : ∀ t : Fin grid3.N, _)
theorem idx13 : ∀ t : Fin cfg3.N, win3_13.index t (0 : Fin 2) = 0 ∧ win3_13.index t (1 : Fin 2) = 0 :=
  (by decide +kernel : ∀ t : Fin grid3.N, _)
theorem idx14 : ∀ t : Fin cfg3.N, win3_14.index t (0 : Fin 2) = 0 ∧ win3_14.index t (1 : Fin 2) = 0 :=
  (by decide +kernel : ∀ t : Fin grid3.N, _)
theorem idx15 : ∀ t : Fin cfg3.N, win3_15.index t (0 : Fin 2) = 0 ∧ win3_15.index t (1 : Fin 2) = 0 :=
  (by decide +kernel : ∀ t : Fin grid3.N, _)
theorem idx16 : ∀ t : Fin cfg3.N, win3_16.index t (0 : Fin 2) = 0 ∧ win3_16.index t (1 : Fin 2) = 0 :=
  (by decide +kernel : ∀ t : Fin grid3.N, _)

/-! ## The blocks the body reads

A block's entry sits in its array, on each axis, at the block index times the block's extent plus the entry's own
coordinate. So entry (p, k) of block t of a row array is the array's entry (1024 t + p, k), and the one block of a weight
half or of a bias row is the array itself. -/

section Reads

variable (V : (c : Dev nD) → (b : Ref sig .tc) → Buf (Elt Ideal) ((c : Thread nD τ).loc b))
variable (c : Dev nD) (t : Fin cfg3.N)

/-- Block t of x, at an entry. -/
theorem read_x (y : S1024x512.Idx) (i : S2048x512.Idx) (h0 : (i 0).val = t.val * 1024 + (y 0).val) (h1 : (i 1).val = (y 1).val) :
    (iblk3 V c 0 t : Vec Ideal S1024x512 .f32) y = (V c main_v72 : S2048x512.Idx → EReal) i := by
  obtain ⟨e0, e1⟩ := idx0 t
  unfold iblk3
  rw [View.read_apply]
  show V c main_v72 _ = V c main_v72 _
  refine congrArg (V c main_v72) (funext fun a => Fin.ext ?_)
  match a with
  | ⟨0, _⟩ => show win3_0.index t (0 : Fin 2) * 1024 + 1 * (y 0).val = (i 0).val; omega
  | ⟨1, _⟩ => show win3_0.index t (1 : Fin 2) * 512 + 1 * (y 1).val = (i 1).val; omega

/-- Block t of the left children's h, at an entry. -/
theorem read_hl (y : S1024x512.Idx) (i : S2048x512.Idx) (h0 : (i 0).val = t.val * 1024 + (y 0).val) (h1 : (i 1).val = (y 1).val) :
    (iblk3 V c 1 t : Vec Ideal S1024x512 .f32) y = (V c main_v78 : S2048x512.Idx → EReal) i := by
  obtain ⟨e0, e1⟩ := idx1 t
  unfold iblk3
  rw [View.read_apply]
  show V c main_v78 _ = V c main_v78 _
  refine congrArg (V c main_v78) (funext fun a => Fin.ext ?_)
  match a with
  | ⟨0, _⟩ => show win3_1.index t (0 : Fin 2) * 1024 + 1 * (y 0).val = (i 0).val; omega
  | ⟨1, _⟩ => show win3_1.index t (1 : Fin 2) * 512 + 1 * (y 1).val = (i 1).val; omega

/-- Block t of the right children's h, at an entry. -/
theorem read_hr (y : S1024x512.Idx) (i : S2048x512.Idx) (h0 : (i 0).val = t.val * 1024 + (y 0).val) (h1 : (i 1).val = (y 1).val) :
    (iblk3 V c 2 t : Vec Ideal S1024x512 .f32) y = (V c main_v80 : S2048x512.Idx → EReal) i := by
  obtain ⟨e0, e1⟩ := idx2 t
  unfold iblk3
  rw [View.read_apply]
  show V c main_v80 _ = V c main_v80 _
  refine congrArg (V c main_v80) (funext fun a => Fin.ext ?_)
  match a with
  | ⟨0, _⟩ => show win3_2.index t (0 : Fin 2) * 1024 + 1 * (y 0).val = (i 0).val; omega
  | ⟨1, _⟩ => show win3_2.index t (1 : Fin 2) * 512 + 1 * (y 1).val = (i 1).val; omega

/-- Block t of the left children's c, at an entry. -/
theorem read_cl (y : S1024x512.Idx) (i : S2048x512.Idx) (h0 : (i 0).val = t.val * 1024 + (y 0).val) (h1 : (i 1).val = (y 1).val) :
    (iblk3 V c 3 t : Vec Ideal S1024x512 .f32) y = (V c main_v82 : S2048x512.Idx → EReal) i := by
  obtain ⟨e0, e1⟩ := idx3 t
  unfold iblk3
  rw [View.read_apply]
  show V c main_v82 _ = V c main_v82 _
  refine congrArg (V c main_v82) (funext fun a => Fin.ext ?_)
  match a with
  | ⟨0, _⟩ => show win3_3.index t (0 : Fin 2) * 1024 + 1 * (y 0).val = (i 0).val; omega
  | ⟨1, _⟩ => show win3_3.index t (1 : Fin 2) * 512 + 1 * (y 1).val = (i 1).val; omega

/-- Block t of the right children's c, at an entry. -/
theorem read_cr (y : S1024x512.Idx) (i : S2048x512.Idx) (h0 : (i 0).val = t.val * 1024 + (y 0).val) (h1 : (i 1).val = (y 1).val) :
    (iblk3 V c 4 t : Vec Ideal S1024x512 .f32) y = (V c main_v84 : S2048x512.Idx → EReal) i := by
  obtain ⟨e0, e1⟩ := idx4 t
  unfold iblk3
  rw [View.read_apply]
  show V c main_v84 _ = V c main_v84 _
  refine congrArg (V c main_v84) (funext fun a => Fin.ext ?_)
  match a with
  | ⟨0, _⟩ => show win3_4.index t (0 : Fin 2) * 1024 + 1 * (y 0).val = (i 0).val; omega
  | ⟨1, _⟩ => show win3_4.index t (1 : Fin 2) * 512 + 1 * (y 1).val = (i 1).val; omega

/-- The one block of the input gate's weights over x is the array. -/
theorem read_wix : (iblk3 V c 5 t : Vec Ideal S512x512 .bf16) = (V c main_v2 : S512x512.Idx → EReal) := by
  obtain ⟨e0, e1⟩ := idx5 t
  funext y
  unfold iblk3
  rw [View.read_apply]
  show V c main_v2 _ = V c main_v2 y
  refine congrArg (V c main_v2) (funext fun a => Fin.ext ?_)
  match a with
  | ⟨0, _⟩ => show win3_5.index t (0 : Fin 2) * 512 + 1 * (y 0).val = (y 0).val; omega
  | ⟨1, _⟩ => show win3_5.index t (1 : Fin 2) * 512 + 1 * (y 1).val = (y 1).val; omega

/-- The one block of the input gate's weights over h is the array. -/
theorem read_wih : (iblk3 V c 6 t : Vec Ideal S512x512 .bf16) = (V c main_v5 : S512x512.Idx → EReal) := by
  obtain ⟨e0, e1⟩ := idx6 t
  funext y
  unfold iblk3
  rw [View.read_apply]
  show V c main_v5 _ = V c main_v5 y
  refine congrArg (V c main_v5) (funext fun a => Fin.ext ?_)
  match a with
  | ⟨0, _⟩ => show win3_6.index t (0 : Fin 2) * 512 + 1 * (y 0).val = (y 0).val; omega
  | ⟨1, _⟩ => show win3_6.index t (1 : Fin 2) * 512 + 1 * (y 1).val = (y 1).val; omega

/-- The one block of the forget gates' weights over x is the array. -/
theorem read_wfx : (iblk3 V c 7 t : Vec Ideal S512x512 .bf16) = (V c main_v8 : S512x512.Idx → EReal) := by
  obtain ⟨e0, e1⟩ := idx7 t
  funext y
  unfold iblk3
  rw [View.read_apply]
  show V c main_v8 _ = V c main_v8 y
  refine congrArg (V c main_v8) (funext fun a => Fin.ext ?_)
  match a with
  | ⟨0, _⟩ => show win3_7.index t (0 : Fin 2) * 512 + 1 * (y 0).val = (y 0).val; omega
  | ⟨1, _⟩ => show win3_7.index t (1 : Fin 2) * 512 + 1 * (y 1).val = (y 1).val; omega

/-- The one block of the forget gates' weights over h is the array. -/
theorem read_wfh : (iblk3 V c 8 t : Vec Ideal S512x512 .bf16) = (V c main_v11 : S512x512.Idx → EReal) := by
  obtain ⟨e0, e1⟩ := idx8 t
  funext y
  unfold iblk3
  rw [View.read_apply]
  show V c main_v11 _ = V c main_v11 y
  refine congrArg (V c main_v11) (funext fun a => Fin.ext ?_)
  match a with
  | ⟨0, _⟩ => show win3_8.index t (0 : Fin 2) * 512 + 1 * (y 0).val = (y 0).val; omega
  | ⟨1, _⟩ => show win3_8.index t (1 : Fin 2) * 512 + 1 * (y 1).val = (y 1).val; omega

/-- The one block of the output gate's weights over x is the array. -/
theorem read_wox : (iblk3 V c 9 t : Vec Ideal S512x512 .bf16) = (V c main_v14 : S512x512.Idx → EReal) := by
  obtain ⟨e0, e1⟩ := idx9 t
  funext y
  unfold iblk3
  rw [View.read_apply]
  show V c main_v14 _ = V c main_v14 y
  refine congrArg (V c main_v14) (funext fun a => Fin.ext ?_)
  match a with
  | ⟨0, _⟩ => show win3_9.index t (0 : Fin 2) * 512 + 1 * (y 0).val = (y 0).val; omega
  | ⟨1, _⟩ => show win3_9.index t (1 : Fin 2) * 512 + 1 * (y 1).val = (y 1).val; omega

/-- The one block of the output gate's weights over h is the array. -/
theorem read_woh : (iblk3 V c 10 t : Vec Ideal S512x512 .bf16) = (V c main_v17 : S512x512.Idx → EReal) := by
  obtain ⟨e0, e1⟩ := idx10 t
  funext y
  unfold iblk3
  rw [View.read_apply]
  show V c main_v17 _ = V c main_v17 y
  refine congrArg (V c main_v17) (funext fun a => Fin.ext ?_)
  match a with
  | ⟨0, _⟩ => show win3_10.index t (0 : Fin 2) * 512 + 1 * (y 0).val = (y 0).val; omega
  | ⟨1, _⟩ => show win3_10.index t (1 : Fin 2) * 512 + 1 * (y 1).val = (y 1).val; omega

/-- The one block of the update gate's weights over x is the array. -/
theorem read_wux : (iblk3 V c 11 t : Vec Ideal S512x512 .bf16) = (V c main_v20 : S512x512.Idx → EReal) := by
  obtain ⟨e0, e1⟩ := idx11 t
  funext y
  unfold iblk3
  rw [View.read_apply]
  show V c main_v20 _ = V c main_v20 y
  refine congrArg (V c main_v20) (funext fun a => Fin.ext ?_)
  match a with
  | ⟨0, _⟩ => show win3_11.index t (0 : Fin 2) * 512 + 1 * (y 0).val = (y 0).val; omega
  | ⟨1, _⟩ => show win3_11.index t (1 : Fin 2) * 512 + 1 * (y 1).val = (y 1).val; omega

/-- The one block of the update gate's weights over h is the array. -/
theorem read_wuh : (iblk3 V c 12 t : Vec Ideal S512x512 .bf16) = (V c main_v23 : S512x512.Idx → EReal) := by
  obtain ⟨e0, e1⟩ := idx12 t
  funext y
  unfold iblk3
  rw [View.read_apply]
  show V c main_v23 _ = V c main_v23 y
  refine congrArg (V c main_v23) (funext fun a => Fin.ext ?_)
  match a with
  | ⟨0, _⟩ => show win3_12.index t (0 : Fin 2) * 512 + 1 * (y 0).val = (y 0).val; omega
  | ⟨1, _⟩ => show win3_12.index t (1 : Fin 2) * 512 + 1 * (y 1).val = (y 1).val; omega

/-- The one block of the input gate's bias row is the array. -/
theorem read_bi : (iblk3 V c 13 t : Vec Ideal S1x512 .f32) = (V c main_v24 : S1x512.Idx → EReal) := by
  obtain ⟨e0, e1⟩ := idx13 t
  funext y
  unfold iblk3
  rw [View.read_apply]
  show V c main_v24 _ = V c main_v24 y
  refine congrArg (V c main_v24) (funext fun a => Fin.ext ?_)
  match a with
  | ⟨0, _⟩ => show win3_13.index t (0 : Fin 2) * 1 + 1 * (y 0).val = (y 0).val; omega
  | ⟨1, _⟩ => show win3_13.index t (1 : Fin 2) * 512 + 1 * (y 1).val = (y 1).val; omega

/-- The one block of the forget gates' bias row is the array. -/
theorem read_bf : (iblk3 V c 14 t : Vec Ideal S1x512 .f32) = (V c main_v25 : S1x512.Idx → EReal) := by
  obtain ⟨e0, e1⟩ := idx14 t
  funext y
  unfold iblk3
  rw [View.read_apply]
  show V c main_v25 _ = V c main_v25 y
  refine congrArg (V c main_v25) (funext fun a => Fin.ext ?_)
  match a with
  | ⟨0, _⟩ => show win3_14.index t (0 : Fin 2) * 1 + 1 * (y 0).val = (y 0).val; omega
  | ⟨1, _⟩ => show win3_14.index t (1 : Fin 2) * 512 + 1 * (y 1).val = (y 1).val; omega

/-- The one block of the output gate's bias row is the array. -/
theorem read_bo : (iblk3 V c 15 t : Vec Ideal S1x512 .f32) = (V c main_v26 : S1x512.Idx → EReal) := by
  obtain ⟨e0, e1⟩ := idx15 t
  funext y
  unfold iblk3
  rw [View.read_apply]
  show V c main_v26 _ = V c main_v26 y
  refine congrArg (V c main_v26) (funext fun a => Fin.ext ?_)
  match a with
  | ⟨0, _⟩ => show win3_15.index t (0 : Fin 2) * 1 + 1 * (y 0).val = (y 0).val; omega
  | ⟨1, _⟩ => show win3_15.index t (1 : Fin 2) * 512 + 1 * (y 1).val = (y 1).val; omega

/-- The one block of the update gate's bias row is the array. -/
theorem read_bu : (iblk3 V c 16 t : Vec Ideal S1x512 .f32) = (V c main_v27 : S1x512.Idx → EReal) := by
  obtain ⟨e0, e1⟩ := idx16 t
  funext y
  unfold iblk3
  rw [View.read_apply]
  show V c main_v27 _ = V c main_v27 y
  refine congrArg (V c main_v27) (funext fun a => Fin.ext ?_)
  match a with
  | ⟨0, _⟩ => show win3_16.index t (0 : Fin 2) * 1 + 1 * (y 0).val = (y 0).val; omega
  | ⟨1, _⟩ => show win3_16.index t (1 : Fin 2) * 512 + 1 * (y 1).val = (y 1).val; omega

end Reads

/-! ## The block body -/

/-- What a block body of 1024 rows carries besides its arrays. -/
def ctx : Cert.Tree.BodyCtx 1024 :=
  ⟨dot_S1024x512_S512x512_S1024x512_1_0_0_1_n_n, rfl, shapeCasts_S1024x512_S1024x512, shapeCasts_S512x512_S512x512,
    shapeCasts_S1x512_S1x512, broadcasts_S1x512_S1024x512, bitsLt_bf16_f32⟩

section Body

variable {F : FTy → Type} [FloatOps F]

/-- The value the body stores into its h block is the tree cell's h block of the seventeen blocks it loads. -/
theorem bodyH_eq (x0 x1 x2 x3 x4 : Vec F S1024x512 .f32) (x5 x6 x7 x8 x9 x10 x11 x12 : Vec F S512x512 .bf16)
    (x13 x14 x15 x16 : Vec F S1x512 .f32) :
    k3_pay2 (k3_pay6 x3) (k3_pay7 x4) (k3_pay13 (k3_pay11 x0 x1 x2 x5 x6 x13)) (k3_pay14 (k3_pay12 x0 x1 x2 x9 x10) x15)
      (k3_pay15 (k3_pay3 x0) (k3_pay8 x1 x2) x11 x12 x16) (k3_pay17 (k3_pay3 x0) (k3_pay9 x1) x7 x8 x14)
      (k3_pay18 (k3_pay3 x0) (k3_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S1024x512 .f32) (x5 x6 x7 x8 x9 x10 x11 x12 : Vec F S512x512 .bf16)
    (x13 x14 x15 x16 : Vec F S1x512 .f32) :
    k3_pay1 (k3_pay6 x3) (k3_pay7 x4) (k3_pay13 (k3_pay11 x0 x1 x2 x5 x6 x13))
      (k3_pay15 (k3_pay3 x0) (k3_pay8 x1 x2) x11 x12 x16) (k3_pay17 (k3_pay3 x0) (k3_pay9 x1) x7 x8 x14)
      (k3_pay18 (k3_pay3 x0) (k3_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S2048x512.Idx → EReal) (w5 w6 w7 w8 w9 w10 w11 w12 : S512x512.Idx → EReal)
    (b13 b14 b15 b16 : S1x512.Idx → EReal) (p : Fin 1024) (r : Fin 2048) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k3_pay2 (k3_pay6 x3) (k3_pay7 x4) (k3_pay13 (k3_pay11 x0 x1 x2 x5 x6 x13)) (k3_pay14 (k3_pay12 x0 x1 x2 x9 x10) x15)
      (k3_pay15 (k3_pay3 x0) (k3_pay8 x1 x2) x11 x12 x16) (k3_pay17 (k3_pay3 x0) (k3_pay9 x1) x7 x8 x14)
      (k3_pay18 (k3_pay3 x0) (k3_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S2048x512.Idx → EReal) (w5 w6 w7 w8 w9 w10 w11 w12 : S512x512.Idx → EReal)
    (b13 b14 b15 b16 : S1x512.Idx → EReal) (p : Fin 1024) (r : Fin 2048) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k3_pay1 (k3_pay6 x3) (k3_pay7 x4) (k3_pay13 (k3_pay11 x0 x1 x2 x5 x6 x13))
      (k3_pay15 (k3_pay3 x0) (k3_pay8 x1 x2) x11 x12 x16) (k3_pay17 (k3_pay3 x0) (k3_pay9 x1) x7 x8 x14)
      (k3_pay18 (k3_pay3 x0) (k3_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S2048x512.Idx → EReal :=
  Cert.Tree.levelH (n := 2048) (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S2048x512.Idx → EReal :=
  Cert.Tree.levelC (n := 2048) (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg3.N) :
    (dat3 V c).flushed 17 t = ((cfg3.win 17).blk t).view.read (Elt Ideal) (GH V c) := by
  show (cfg3.win 17).cut (grid3.coords t) ((dat3 V c).after 17 t) = _
  rw [after3_17]
  unfold out3_17
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg3.N := t.isLt
  have hN : cfg3.N * 1024 = 2048 := points_rows
  have hr : t.val * 1024 + p.val < 2048 := by omega
  obtain ⟨e0, e1⟩ := idx17 t
  refine Eq.trans (b := GH V c (ix2 (⟨t.val * 1024 + p.val, hr⟩ : Fin 2048) q)) ?_ ?_
  · exact bodyH_at (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
      (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg3.win 17).blk t).view.emb (ix2 p q))
    refine congrArg (GH V c) (funext fun a => Fin.ext ?_)
    match a with
    | ⟨0, _⟩ => show t.val * 1024 + p.val = win3_17.index t (0 : Fin 2) * 1024 + 1 * p.val; omega
    | ⟨1, _⟩ => show q.val = win3_17.index t (1 : Fin 2) * 512 + 1 * q.val; omega

/-- An entry of the h array is in point t's block iff each coordinate is in the block's range on its axis. -/
theorem mem_blkH (t : Fin cfg3.N) (i : S2048x512.Idx) :
    i ∈ ((cfg3.win 17).blk t).view.set ↔ ∀ a : Fin 2, win3_17.index t a * S1024x512.size a ≤ (i a).val
      ∧ (i a).val < win3_17.index t a * S1024x512.size a + S1024x512.size a := by
  show i ∈ ((View.whole main_v85_0).slice (win3_17.rect t)).set ↔ _
  rw [View.set_slice_whole, Rect.mem_set_unit]
  exact Iff.rfl

/-- The blocks tile the h array: row r is in the block of point r / 1024. -/
theorem coverH (i : S2048x512.Idx) :
    ∃ t : Fin cfg3.N, (cfg3.win 17).flush t = true ∧ i ∈ ((cfg3.win 17).blk t).view.set := by
  have hi0 : (i 0).val < 2048 := (i 0).isLt
  have hi1 : (i 1).val < 512 := (i 1).isLt
  have hN : cfg3.N * 1024 = 2048 := points_rows
  obtain ⟨hq, hlo, hhi⟩ := Cert.LibBlocks.row_in_block (nb := cfg3.N) (bs := 1024) (r := (i 0).val) (by omega) (by omega)
  obtain ⟨e0, e1⟩ := idx17 (⟨(i 0).val / 1024, hq⟩ : Fin cfg3.N)
  refine ⟨⟨(i 0).val / 1024, hq⟩, flush3_17 _, ?_⟩
  rw [mem_blkH]
  intro a
  match a with
  | ⟨0, _⟩ =>
    show win3_17.index ⟨(i 0).val / 1024, hq⟩ (0 : Fin 2) * 1024 ≤ (i 0).val
      ∧ (i 0).val < win3_17.index ⟨(i 0).val / 1024, hq⟩ (0 : Fin 2) * 1024 + 1024
    rw [e0]
    exact ⟨hlo, hhi⟩
  | ⟨1, _⟩ =>
    show win3_17.index ⟨(i 0).val / 1024, hq⟩ (1 : Fin 2) * 512 ≤ (i 1).val
      ∧ (i 1).val < win3_17.index ⟨(i 0).val / 1024, hq⟩ (1 : Fin 2) * 512 + 512
    omega

/-- What point t writes back to the c array is block t of the level's c. -/
theorem flushedC (c : Dev nD) (t : Fin cfg3.N) :
    (dat3 V c).flushed 18 t = ((cfg3.win 18).blk t).view.read (Elt Ideal) (GC V c) := by
  show (cfg3.win 18).cut (grid3.coords t) ((dat3 V c).after 18 t) = _
  rw [after3_18]
  unfold out3_18
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg3.N := t.isLt
  have hN : cfg3.N * 1024 = 2048 := points_rows
  have hr : t.val * 1024 + p.val < 2048 := by omega
  obtain ⟨e0, e1⟩ := idx18 t
  refine Eq.trans (b := GC V c (ix2 (⟨t.val * 1024 + p.val, hr⟩ : Fin 2048) q)) ?_ ?_
  · exact bodyC_at (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
      (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg3.win 18).blk t).view.emb (ix2 p q))
    refine congrArg (GC V c) (funext fun a => Fin.ext ?_)
    match a with
    | ⟨0, _⟩ => show t.val * 1024 + p.val = win3_18.index t (0 : Fin 2) * 1024 + 1 * p.val; omega
    | ⟨1, _⟩ => show q.val = win3_18.index t (1 : Fin 2) * 512 + 1 * q.val; omega

/-- An entry of the c array is in point t's block iff each coordinate is in the block's range on its axis. -/
theorem mem_blkC (t : Fin cfg3.N) (i : S2048x512.Idx) :
    i ∈ ((cfg3.win 18).blk t).view.set ↔ ∀ a : Fin 2, win3_18.index t a * S1024x512.size a ≤ (i a).val
      ∧ (i a).val < win3_18.index t a * S1024x512.size a + S1024x512.size a := by
  show i ∈ ((View.whole main_v85_1).slice (win3_18.rect t)).set ↔ _
  rw [View.set_slice_whole, Rect.mem_set_unit]
  exact Iff.rfl

/-- The blocks tile the c array: row r is in the block of point r / 1024. -/
theorem coverC (i : S2048x512.Idx) :
    ∃ t : Fin cfg3.N, (cfg3.win 18).flush t = true ∧ i ∈ ((cfg3.win 18).blk t).view.set := by
  have hi0 : (i 0).val < 2048 := (i 0).isLt
  have hi1 : (i 1).val < 512 := (i 1).isLt
  have hN : cfg3.N * 1024 = 2048 := points_rows
  obtain ⟨hq, hlo, hhi⟩ := Cert.LibBlocks.row_in_block (nb := cfg3.N) (bs := 1024) (r := (i 0).val) (by omega) (by omega)
  obtain ⟨e0, e1⟩ := idx18 (⟨(i 0).val / 1024, hq⟩ : Fin cfg3.N)
  refine ⟨⟨(i 0).val / 1024, hq⟩, flush3_18 _, ?_⟩
  rw [mem_blkC]
  intro a
  match a with
  | ⟨0, _⟩ =>
    show win3_18.index ⟨(i 0).val / 1024, hq⟩ (0 : Fin 2) * 1024 ≤ (i 0).val
      ∧ (i 0).val < win3_18.index ⟨(i 0).val / 1024, hq⟩ (0 : Fin 2) * 1024 + 1024
    rw [e0]
    exact ⟨hlo, hhi⟩
  | ⟨1, _⟩ =>
    show win3_18.index ⟨(i 0).val / 1024, hq⟩ (1 : Fin 2) * 512 ≤ (i 1).val
      ∧ (i 1).val < win3_18.index ⟨(i 0).val / 1024, hq⟩ (1 : Fin 2) * 512 + 512
    omega

/-- After the region the h array holds the level's h of the seventeen arrays as the region finds them. -/
theorem arrH (c : Dev nD) :
    (dat3 (F := Ideal) V c).arrAt 17 cfg3.N
      = Cert.Tree.levelH (n := 2048) (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27) :=
  (dat3 V c).arrAt_eq_of_cover 17 (GH V c) (fun t _ => flushedH V c t) coverH

/-- After the region the c array holds the level's c of the seventeen arrays as the region finds them. -/
theorem arrC (c : Dev nD) :
    (dat3 (F := Ideal) V c).arrAt 18 cfg3.N
      = Cert.Tree.levelC (n := 2048) (V c main_v72) (V c main_v78) (V c main_v80) (V c main_v82) (V c main_v84) (V c main_v2) (V c main_v5) (V c main_v8) (V c main_v11) (V c main_v14) (V c main_v17) (V c main_v20) (V c main_v23) (V c main_v24) (V c main_v25) (V c main_v26) (V c main_v27) :=
  (dat3 V c).arrAt_eq_of_cover 18 (GC V c) (fun t _ => flushedC V c t) coverC

end Arrays

end Cert.KernelIdeal.Reg3

end
-- ==== Proof.RStep3.lean ====
/-
  The reference's level of 2048 nodes (heap rows 2047 … 4094), read off its run's named buffers: the h and c heap
  arrays after the level are the arrays before it with the level's rows replaced by the level function of the x rows
  and of the children's rows (the even and odd rows of heap rows 4095 … 8190 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx3 : Cert.Tree.HostCtx 2048 :=
  ⟨dot_S2048x1024_S1024x512_S2048x512_1_0_0_1_n_n, rfl, concatenates_S2048x512_S2048x512_S2048x1024_d1,
    transposes_S512x1024_S1024x512_1_0, bcast_S512_S1x512_1, bcast_S1x512_S2048x512_0_1, bcast_S_S2048x512⟩

variable (V0 : Valuation τ sig (Elt Ideal))

/-- The level's x rows. -/
abbrev xl3 : Vec Ideal S2048x512 .f32 :=
  extractStridedSlice S2048x512 ![2047, 0] (V0 (Proc.devRef .tc main_arg0)) slices_S32767x512_S2048x512_2047_0

/-- The left (even) and right (odd) children's rows of a heap array. -/
abbrev childL3 (A : Vec Ideal S32767x512 .f32) : Vec Ideal S2048x512 .f32 :=
  shapeCast _ (extractStridedSlice S2048x1x512 ![0, 0, 0] (shapeCast _ (extractStridedSlice S4096x512 ![4095, 0] A slices_S32767x512_S4096x512_4095_0) shapeCasts_S4096x512_S2048x2x512) slices_S2048x2x512_S2048x1x512_0_0_0) shapeCasts_S2048x1x512_S2048x512

abbrev childR3 (A : Vec Ideal S32767x512 .f32) : Vec Ideal S2048x512 .f32 :=
  shapeCast _ (extractStridedSlice S2048x1x512 ![0, 1, 0] (shapeCast _ (extractStridedSlice S4096x512 ![4095, 0] A slices_S32767x512_S4096x512_4095_0) shapeCasts_S4096x512_S2048x2x512) slices_S2048x2x512_S2048x1x512_0_1_0) shapeCasts_S2048x1x512_S2048x512

theorem stepC3 : res_main_v273 V0
    = Host.scatter scatter_S32767x512_S1_S2048x512_01_n_0_0 (fun _ b => b) (res_main_v195 V0) (broadcastInDim S1 ![] bcast_S_S1 (constantI S_ 32 2047#32))
        (Cert.Tree.hostLevelC ctx3 (xl3 V0) (childL3 (res_main_v193 V0)) (childR3 (res_main_v193 V0)) (childL3 (res_main_v195 V0)) (childR3 (res_main_v195 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v273 res_main_v267 res_main_v206 res_main_v202 res_main_v204 res_main_v198 res_main_v200 res_main_v196
  rfl

theorem stepH3 : res_main_v271 V0
    = Host.scatter scatter_S32767x512_S1_S2048x512_01_n_0_0 (fun _ b => b) (res_main_v193 V0) (broadcastInDim S1 ![] bcast_S_S1 (constantI S_ 32 2047#32))
        (Cert.Tree.hostLevelH ctx3 (xl3 V0) (childL3 (res_main_v193 V0)) (childR3 (res_main_v193 V0)) (childL3 (res_main_v195 V0)) (childR3 (res_main_v195 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v271 res_main_v267 res_main_v206 res_main_v202 res_main_v204 res_main_v198 res_main_v200 res_main_v196
  rfl

end Cert.ReferenceIdeal.Chain

end
-- ==== Proof.Bridge3.lean ====
/-
  The level of 2048 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep3
import proofs.«110311_j37117107372689_1_alg».proof.Proof.KReg3
import proofs.«110311_j37117107372689_1_alg».proof.Proof.RStep3
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 2048 nodes, they agree after it. -/
theorem level3 (hA : Agree m V0 c)
    (hH : Cert.KernelIdeal.Gen.W7 m ρ c (Proc.devRef .tc Cert.KernelIdeal.main_v69) = Cert.ReferenceIdeal.Value.res_main_v193 V0)
    (hC : Cert.KernelIdeal.Gen.W7 m ρ c (Proc.devRef .tc Cert.KernelIdeal.main_v71) = Cert.ReferenceIdeal.Value.res_main_v195 V0) :
    Cert.KernelIdeal.Gen.W9 m ρ c (Proc.devRef .tc Cert.KernelIdeal.main_v87) = Cert.ReferenceIdeal.Value.res_main_v271 V0
      ∧ Cert.KernelIdeal.Gen.W9 m ρ c (Proc.devRef .tc Cert.KernelIdeal.main_v89) = Cert.ReferenceIdeal.Value.res_main_v273 V0 := by
  constructor
  · rw [Cert.KernelIdeal.Chain.stepH3 m ρ c (Cert.KernelIdeal.Reg3.arrH (Cert.KernelIdeal.Gen.V7 m ρ) c),
      Cert.ReferenceIdeal.Chain.stepH3 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC3 m ρ c (Cert.KernelIdeal.Reg3.arrC (Cert.KernelIdeal.Gen.V7 m ρ) c),
      Cert.ReferenceIdeal.Chain.stepC3 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep4.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 4: what its scatters leave in the two heap arrays

The host stretch before the region cuts the level's 1024 rows of node features out of the argument and, out of each
heap array (hidden states, cell states), the 2048 rows of the level below, which it pairs up: row p's left child is
the pair's first member and its right child the second. The region computes the level's hidden and cell rows from
these five arrays and the twelve weight and bias buffers; the host stretch after it scatters the two results into the
heap arrays at row 1023. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat4_h : StableHlo.after hostOps5 W (Proc.devRef .tc main_v105)
    = Host.scatter scatter_S32767x512_S1_S1024x512_01_n_0_0 (fun _ b => b) (W (Proc.devRef .tc main_v87))
        (broadcastInDim S1 ![] bcast_S_S1 (constantI S_ 32 1023#32)) (W (Proc.devRef .tc main_v103_0)) := by
  after_results
  rfl

/-- And the new cell heap: the old one with the region's second output scattered in. -/
theorem scat4_c : StableHlo.after hostOps5 W (Proc.devRef .tc main_v107)
    = Host.scatter scatter_S32767x512_S1_S1024x512_01_n_0_0 (fun _ b => b) (W (Proc.devRef .tc main_v89))
        (broadcastInDim S1 ![] bcast_S_S1 (constantI S_ 32 1023#32)) (W (Proc.devRef .tc main_v103_1)) := by
  after_results
  rfl

/-- The stretch before the region: the level's rows of node features. -/
theorem cut4_x : StableHlo.after hostOps4 W (Proc.devRef .tc main_v90)
    = extractStridedSlice S1024x512 ![1023, 0] (W (Proc.devRef .tc main_arg0)) slices_S32767x512_S1024x512_1023_0 := by
  after_results

/-- The left children's hidden rows, out of the hidden heap as this stretch itself leaves it. -/
theorem cut4_hl : StableHlo.after hostOps4 W (Proc.devRef .tc main_v96)
    = shapeCast _ (extractStridedSlice S1024x1x512 ![0, 0, 0] (shapeCast _ (extractStridedSlice S2048x512 ![2047, 0] (StableHlo.after hostOps4 W (Proc.devRef .tc main_v87)) slices_S32767x512_S2048x512_2047_0) shapeCasts_S2048x512_S1024x2x512) slices_S1024x2x512_S1024x1x512_0_0_0) shapeCasts_S1024x1x512_S1024x512 := by
  after_results_simp
  rfl

/-- The right children's hidden rows. -/
theorem cut4_hr : StableHlo.after hostOps4 W (Proc.devRef .tc main_v98)
    = shapeCast _ (extractStridedSlice S1024x1x512 ![0, 1, 0] (shapeCast _ (extractStridedSlice S2048x512 ![2047, 0] (StableHlo.after hostOps4 W (Proc.devRef .tc main_v87)) slices_S32767x512_S2048x512_2047_0) shapeCasts_S2048x512_S1024x2x512) slices_S1024x2x512_S1024x1x512_0_1_0) shapeCasts_S1024x1x512_S1024x512 := by
  after_results_simp
  rfl

/-- The left children's cell rows, out of the cell heap. -/
theorem cut4_cl : StableHlo.after hostOps4 W (Proc.devRef .tc main_v100)
    = shapeCast _ (extractStridedSlice S1024x1x512 ![0, 0, 0] (shapeCast _ (extractStridedSlice S2048x512 ![2047, 0] (StableHlo.after hostOps4 W (Proc.devRef .tc main_v89)) slices_S32767x512_S2048x512_2047_0) shapeCasts_S2048x512_S1024x2x512) slices_S1024x2x512_S1024x1x512_0_0_0) shapeCasts_S1024x1x512_S1024x512 := by
  after_results_simp
  rfl

/-- The right children's cell rows. -/
theorem cut4_cr : StableHlo.after hostOps4 W (Proc.devRef .tc main_v102)
    = shapeCast _ (extractStridedSlice S1024x1x512 ![0, 1, 0] (shapeCast _ (extractStridedSlice S2048x512 ![2047, 0] (StableHlo.after hostOps4 W (Proc.devRef .tc main_v89)) slices_S32767x512_S2048x512_2047_0) shapeCasts_S2048x512_S1024x2x512) slices_S1024x2x512_S1024x1x512_0_1_0) shapeCasts_S1024x1x512_S1024x512 := by
  after_results_simp
  rfl

end Host

/-! ## The region's five level arrays at its entry, in the run -/

theorem in4_x (c : Dev nD) : Gen.W9 m ρ c (Proc.devRef .tc main_v90)
    = extractStridedSlice S1024x512 ![1023, 0] (m ((c : Thread nD τ).loc main_arg0)) slices_S32767x512_S1024x512_1023_0 :=
  (cut4_x (Gen.W8 m ρ c)).trans (by rw [arg0_4 m ρ c])

theorem in4_hl (c : Dev nD) : Gen.W9 m ρ c (Proc.devRef .tc main_v96)
    = shapeCast _ (extractStridedSlice S1024x1x512 ![0, 0, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_0_0) shapeCasts_S1024x1x512_S1024x512 :=
  cut4_hl (Gen.W8 m ρ c)

theorem in4_hr (c : Dev nD) : Gen.W9 m ρ c (Proc.devRef .tc main_v98)
    = shapeCast _ (extractStridedSlice S1024x1x512 ![0, 1, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_1_0) shapeCasts_S1024x1x512_S1024x512 :=
  cut4_hr (Gen.W8 m ρ c)

theorem in4_cl (c : Dev nD) : Gen.W9 m ρ c (Proc.devRef .tc main_v100)
    = shapeCast _ (extractStridedSlice S1024x1x512 ![0, 0, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_0_0) shapeCasts_S1024x1x512_S1024x512 :=
  cut4_cl (Gen.W8 m ρ c)

theorem in4_cr (c : Dev nD) : Gen.W9 m ρ c (Proc.devRef .tc main_v102)
    = shapeCast _ (extractStridedSlice S1024x1x512 ![0, 1, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_1_0) shapeCasts_S1024x1x512_S1024x512 :=
  cut4_cr (Gen.W8 m ρ c)

/-! ## The region's two outputs at its exit are its proof data's arrays after the last grid point -/

theorem out4_h (c : Dev nD) : Gen.W10 m ρ c (Proc.devRef .tc main_v103_0) = (Gen.dat4 (Gen.V9 m ρ) c).arrAt 17 cfg4.N :=
  Gen.W10_arr m ρ c 17

theorem out4_c (c : Dev nD) : Gen.W10 m ρ c (Proc.devRef .tc main_v103_1) = (Gen.dat4 (Gen.V9 m ρ) c).arrAt 18 cfg4.N :=
  Gen.W10_arr m ρ c 18

/-! ## The level -/

/-- The hidden heap after the level, given that the region's first output is the level function of its entry arrays. -/
theorem stepH4 (c : Dev nD)
    (hH : (Gen.dat4 (F := Ideal) (Gen.V9 m ρ) c).arrAt 17 cfg4.N
      = Cert.Tree.levelH (n := 1024) (Gen.V9 m ρ c main_v90) (Gen.V9 m ρ c main_v96) (Gen.V9 m ρ c main_v98)
          (Gen.V9 m ρ c main_v100) (Gen.V9 m ρ c main_v102)
          (Gen.V9 m ρ c main_v2) (Gen.V9 m ρ c main_v5) (Gen.V9 m ρ c main_v8) (Gen.V9 m ρ c main_v11)
          (Gen.V9 m ρ c main_v14) (Gen.V9 m ρ c main_v17) (Gen.V9 m ρ c main_v20) (Gen.V9 m ρ c main_v23)
          (Gen.V9 m ρ c main_v24) (Gen.V9 m ρ c main_v25) (Gen.V9 m ρ c main_v26) (Gen.V9 m ρ c main_v27)) :
    Gen.W11 m ρ c (Proc.devRef .tc main_v105)
      = Host.scatter scatter_S32767x512_S1_S1024x512_01_n_0_0 (fun _ b => b) (Gen.W9 m ρ c (Proc.devRef .tc main_v87))
          (broadcastInDim S1 ![] bcast_S_S1 (constantI S_ 32 1023#32))
          (Cert.Tree.levelH (n := 1024)
            (extractStridedSlice S1024x512 ![1023, 0] (m ((c : Thread nD τ).loc main_arg0)) slices_S32767x512_S1024x512_1023_0)
            (shapeCast _ (extractStridedSlice S1024x1x512 ![0, 0, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_0_0) shapeCasts_S1024x1x512_S1024x512)
            (shapeCast _ (extractStridedSlice S1024x1x512 ![0, 1, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_1_0) shapeCasts_S1024x1x512_S1024x512)
            (shapeCast _ (extractStridedSlice S1024x1x512 ![0, 0, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_0_0) shapeCasts_S1024x1x512_S1024x512)
            (shapeCast _ (extractStridedSlice S1024x1x512 ![0, 1, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_1_0) shapeCasts_S1024x1x512_S1024x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat4 (F := Ideal) (Gen.V9 m ρ) c).arrAt 17 cfg4.N
      = Cert.Tree.levelH (n := 1024) (Gen.W9 m ρ c (Proc.devRef .tc main_v90)) (Gen.W9 m ρ c (Proc.devRef .tc main_v96))
          (Gen.W9 m ρ c (Proc.devRef .tc main_v98)) (Gen.W9 m ρ c (Proc.devRef .tc main_v100))
          (Gen.W9 m ρ c (Proc.devRef .tc main_v102))
          (Gen.W9 m ρ c (Proc.devRef .tc main_v2)) (Gen.W9 m ρ c (Proc.devRef .tc main_v5))
          (Gen.W9 m ρ c (Proc.devRef .tc main_v8)) (Gen.W9 m ρ c (Proc.devRef .tc main_v11))
          (Gen.W9 m ρ c (Proc.devRef .tc main_v14)) (Gen.W9 m ρ c (Proc.devRef .tc main_v17))
          (Gen.W9 m ρ c (Proc.devRef .tc main_v20)) (Gen.W9 m ρ c (Proc.devRef .tc main_v23))
          (Gen.W9 m ρ c (Proc.devRef .tc main_v24)) (Gen.W9 m ρ c (Proc.devRef .tc main_v25))
          (Gen.W9 m ρ c (Proc.devRef .tc main_v26)) (Gen.W9 m ρ c (Proc.devRef .tc main_v27)) := hH
  rw [in4_x m ρ c, in4_hl m ρ c, in4_hr m ρ c, in4_cl m ρ c, in4_cr m ρ c,
    keep4_main_v2 m ρ c, keep4_main_v5 m ρ c, keep4_main_v8 m ρ c, keep4_main_v11 m ρ c, keep4_main_v14 m ρ c,
    keep4_main_v17 m ρ c, keep4_main_v20 m ρ c, keep4_main_v23 m ρ c, keep4_main_v24 m ρ c, keep4_main_v25 m ρ c,
    keep4_main_v26 m ρ c, keep4_main_v27 m ρ c] at hH'
  refine (scat4_h (Gen.W10 m ρ c)).trans ?_
  rw [Gen.W10_of_ne m ρ c main_v87 (by decide), out4_h m ρ c, hH']

/-- The cell heap after the level, given that the region's second output is the level's cell function of its entry arrays. -/
theorem stepC4 (c : Dev nD)
    (hC : (Gen.dat4 (F := Ideal) (Gen.V9 m ρ) c).arrAt 18 cfg4.N
      = Cert.Tree.levelC (n := 1024) (Gen.V9 m ρ c main_v90) (Gen.V9 m ρ c main_v96) (Gen.V9 m ρ c main_v98)
          (Gen.V9 m ρ c main_v100) (Gen.V9 m ρ c main_v102)
          (Gen.V9 m ρ c main_v2) (Gen.V9 m ρ c main_v5) (Gen.V9 m ρ c main_v8) (Gen.V9 m ρ c main_v11)
          (Gen.V9 m ρ c main_v14) (Gen.V9 m ρ c main_v17) (Gen.V9 m ρ c main_v20) (Gen.V9 m ρ c main_v23)
          (Gen.V9 m ρ c main_v24) (Gen.V9 m ρ c main_v25) (Gen.V9 m ρ c main_v26) (Gen.V9 m ρ c main_v27)) :
    Gen.W11 m ρ c (Proc.devRef .tc main_v107)
      = Host.scatter scatter_S32767x512_S1_S1024x512_01_n_0_0 (fun _ b => b) (Gen.W9 m ρ c (Proc.devRef .tc main_v89))
          (broadcastInDim S1 ![] bcast_S_S1 (constantI S_ 32 1023#32))
          (Cert.Tree.levelC (n := 1024)
            (extractStridedSlice S1024x512 ![1023, 0] (m ((c : Thread nD τ).loc main_arg0)) slices_S32767x512_S1024x512_1023_0)
            (shapeCast _ (extractStridedSlice S1024x1x512 ![0, 0, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_0_0) shapeCasts_S1024x1x512_S1024x512)
            (shapeCast _ (extractStridedSlice S1024x1x512 ![0, 1, 0] (shapeCast _ (extractStridedSlice S2048x512 ![2047, 0] (Gen.W9 m ρ c (Proc.devRef .tc main_v87)) slices_S32767x512_S2048x512_2047_0) shapeCasts_S2048x512_S1024x2x512) slices_S1024x2x512_S1024x1x512_0_1_0) shapeCasts_S1024x1x512_S1024x512)
            (shapeCast _ (extractStridedSlice S1024x1x512 ![0, 0, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_0_0) shapeCasts_S1024x1x512_S1024x512)
            (shapeCast _ (extractStridedSlice S1024x1x512 ![0, 1, 0] (shapeCast _ (extractStridedSlice S2048x512 ![2047, 0] (Gen.W9 m ρ c (Proc.devRef .tc main_v89)) slices_S32767x512_S2048x512_2047_0) shapeCasts_S2048x512_S1024x2x512) slices_S1024x2x512_S1024x1x512_0_1_0) shapeCasts_S1024x1x512_S1024x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat4 (F := Ideal) (Gen.V9 m ρ) c).arrAt 18 cfg4.N
      = Cert.Tree.levelC (n := 1024) (Gen.W9 m ρ c (Proc.devRef .tc main_v90)) (Gen.W9 m ρ c (Proc.devRef .tc main_v96))
          (Gen.W9 m ρ c (Proc.devRef .tc main_v98)) (Gen.W9 m ρ c (Proc.devRef .tc main_v100))
          (Gen.W9 m ρ c (Proc.devRef .tc main_v102))
          (Gen.W9 m ρ c (Proc.devRef .tc main_v2)) (Gen.W9 m ρ c (Proc.devRef .tc main_v5))
          (Gen.W9 m ρ c (Proc.devRef .tc main_v8)) (Gen.W9 m ρ c (Proc.devRef .tc main_v11))
          (Gen.W9 m ρ c (Proc.devRef .tc main_v14)) (Gen.W9 m ρ c (Proc.devRef .tc main_v17))
          (Gen.W9 m ρ c (Proc.devRef .tc main_v20)) (Gen.W9 m ρ c (Proc.devRef .tc main_v23))
          (Gen.W9 m ρ c (Proc.devRef .tc main_v24)) (Gen.W9 m ρ c (Proc.devRef .tc main_v25))
          (Gen.W9 m ρ c (Proc.devRef .tc main_v26)) (Gen.W9 m ρ c (Proc.devRef .tc main_v27)) := hC
  rw [in4_x m ρ c, in4_hl m ρ c, in4_hr m ρ c, in4_cl m ρ c, in4_cr m ρ c,
    keep4_main_v2 m ρ c, keep4_main_v5 m ρ c, keep4_main_v8 m ρ c, keep4_main_v11 m ρ c, keep4_main_v14 m ρ c,
    keep4_main_v17 m ρ c, keep4_main_v20 m ρ c, keep4_main_v23 m ρ c, keep4_main_v24 m ρ c, keep4_main_v25 m ρ c,
    keep4_main_v26 m ρ c, keep4_main_v27 m ρ c] at hC'
  refine (scat4_c (Gen.W10 m ρ c)).trans ?_
  rw [Gen.W10_of_ne m ρ c main_v89 (by decide), out4_c m ρ c, hC']

end Cert.KernelIdeal.Chain

end
-- ==== Proof.KReg4.lean ====
/-
  One level of the tree on the kernel's side: 1024 internal nodes, worked in blocks of 1024 node rows, one block per
  grid point. What the level's two output arrays hold after the region, whatever the arrays hold when it is entered.

  Grid point t reads block t (rows 1024 t … 1024 t + 1023) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg4.N * 1024 = 1024 := by decide

/-! The printed index maps, decided over the grid: a row array's block at point t is block (t, 0); a weight half or a
    bias row is one block, (0, 0). -/

theorem idx0 : ∀ t : Fin cfg4.N, win4_0.index t (0 : Fin 2) = t.val ∧ win4_0.index t (1 : Fin 2) = 0 :=
  (by decide +kernel : ∀ t : Fin grid4.N, _)
theorem idx1 : ∀ t : Fin cfg4.N, win4_1.index t (0 : Fin 2) = t.val ∧ win4_1.index t (1 : Fin 2) = 0 :=
  (by decide +kernel : ∀ t : Fin grid4.N, _)
theorem idx2 : ∀ t : Fin cfg4.N, win4_2.index t (0 : Fin 2) = t.val ∧ win4_2.index t (1 : Fin 2) = 0 :=
  (by decide +kernel : ∀ t : Fin grid4.N, _)
theorem idx3 : ∀ t : Fin cfg4.N, win4_3.index t (0 : Fin 2) = t.val ∧ win4_3.index t (1 : Fin 2) = 0 :=
  (by decide +kernel : ∀ t : Fin grid4.N, _)
theorem idx4 : ∀ t : Fin cfg4.N, win4_4.index t (0 : Fin 2) = t.val ∧ win4_4.index t (1 : Fin 2) = 0 :=
  (by decide +kernel : ∀ t : Fin grid4.N, _)
theorem idx17 : ∀ t : Fin cfg4.N, win4_17.index t (0 : Fin 2) = t.val ∧ win4_17.index t (1 : Fin 2) = 0 :=
  (by decide +kernel : ∀ t : Fin grid4.N, _)
theorem idx18 : ∀ t : Fin cfg4.N, win4_18.index t (0 : Fin 2) = t.val ∧ win4_18.index t (1 : Fin 2) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 2) = 0 ∧ win4_6.index t (1 : Fin 2) = 0 :=
  (by decide +kernel : ∀ t : Fin grid4.N, _)
theorem idx7 : ∀ t : Fin cfg4.N, win4_7.index t (0 : Fin 2) = 0 ∧ win4_7.index t (1 : Fin 2) = 0 :=
  (by decide +kernel : ∀ t : Fin grid4.N, _)
theorem idx8 : ∀ t : Fin cfg4.N, win4_8.index t (0 : Fin 2) = 0 ∧ win4_8.index t (1 : Fin 2) = 0 :=
  (by decide +kernel : ∀ t : Fin grid4.N, _)
theorem idx9 : ∀ t : Fin cfg4.N, win4_9.index t (0 : Fin 2) = 0 ∧ win4_9.index t (1 : Fin 2) = 0 :=
  (by decide +kernel : ∀ t : Fin grid4.N, _)
theorem idx10 : ∀ t : Fin cfg4.N, win4_10.index t (0 : Fin 2) = 0 ∧ win4_10.index t (1 : Fin 2) = 0 :=
  (by decide +kernel : ∀ t : Fin grid4.N, _)
theorem idx11 : ∀ t : Fin cfg4.N, win4_11.index t (0 : Fin 2) = 0 ∧ win4_11.index t (1 : Fin 2) = 0 :=
  (by decide +kernel : ∀ t : Fin grid4.N, _)
theorem idx12 : ∀ t : Fin cfg4.N, win4_12.index t (0 : Fin 2) = 0 ∧ win4_12.index t (1 : Fin 2) = 0 :=
  (by decide +kernel : ∀ t : Fin grid4.N, _)
theorem idx13 : ∀ t : Fin cfg4.N, win4_13.index t (0 : Fin 2) = 0 ∧ win4_13.index t (1 : Fin 2) = 0 :=
  (by decide +kernel : ∀ t : Fin grid4.N, _)
theorem idx14 : ∀ t : Fin cfg4.N, win4_14.index t (0 : Fin 2) = 0 ∧ win4_14.index t (1 : Fin 2) = 0 :=
  (by decide +kernel : ∀ t : Fin grid4.N, _)
theorem idx15 : ∀ t : Fin cfg4.N, win4_15.index t (0 : Fin 2) = 0 ∧ win4_15.index t (1 : Fin 2) = 0 :=
  (by decide +kernel : ∀ t : Fin grid4.N, _)
theorem idx16 : ∀ t : Fin cfg4.N, win4_16.index t (0 : Fin 2) = 0 ∧ win4_16.index t (1 : Fin 2) = 0 :=
  (by decide +kernel : ∀ t : Fin grid4.N, _)

/-! ## The blocks the body reads

A block's entry sits in its array, on each axis, at the block index times the block's extent plus the entry's own
coordinate. So entry (p, k) of block t of a row array is the array's entry (1024 t + p, k), and the one block of a weight
half or of a bias row is the array itself. -/

section Reads

variable (V : (c : Dev nD) → (b : Ref sig .tc) → Buf (Elt Ideal) ((c : Thread nD τ).loc b))
variable (c : Dev nD) (t : Fin cfg4.N)

/-- Block t of x, at an entry. -/
theorem read_x (y : S1024x512.Idx) (i : S1024x512.Idx) (h0 : (i 0).val = t.val * 1024 + (y 0).val) (h1 : (i 1).val = (y 1).val) :
    (iblk4 V c 0 t : Vec Ideal S1024x512 .f32) y = (V c main_v90 : S1024x512.Idx → EReal) i := by
  obtain ⟨e0, e1⟩ := idx0 t
  unfold iblk4
  rw [View.read_apply]
  show V c main_v90 _ = V c main_v90 _
  refine congrArg (V c main_v90) (funext fun a => Fin.ext ?_)
  match a with
  | ⟨0, _⟩ => show win4_0.index t (0 : Fin 2) * 1024 + 1 * (y 0).val = (i 0).val; omega
  | ⟨1, _⟩ => show win4_0.index t (1 : Fin 2) * 512 + 1 * (y 1).val = (i 1).val; omega

/-- Block t of the left children's h, at an entry. -/
theorem read_hl (y : S1024x512.Idx) (i : S1024x512.Idx) (h0 : (i 0).val = t.val * 1024 + (y 0).val) (h1 : (i 1).val = (y 1).val) :
    (iblk4 V c 1 t : Vec Ideal S1024x512 .f32) y = (V c main_v96 : S1024x512.Idx → EReal) i := by
  obtain ⟨e0, e1⟩ := idx1 t
  unfold iblk4
  rw [View.read_apply]
  show V c main_v96 _ = V c main_v96 _
  refine congrArg (V c main_v96) (funext fun a => Fin.ext ?_)
  match a with
  | ⟨0, _⟩ => show win4_1.index t (0 : Fin 2) * 1024 + 1 * (y 0).val = (i 0).val; omega
  | ⟨1, _⟩ => show win4_1.index t (1 : Fin 2) * 512 + 1 * (y 1).val = (i 1).val; omega

/-- Block t of the right children's h, at an entry. -/
theorem read_hr (y : S1024x512.Idx) (i : S1024x512.Idx) (h0 : (i 0).val = t.val * 1024 + (y 0).val) (h1 : (i 1).val = (y 1).val) :
    (iblk4 V c 2 t : Vec Ideal S1024x512 .f32) y = (V c main_v98 : S1024x512.Idx → EReal) i := by
  obtain ⟨e0, e1⟩ := idx2 t
  unfold iblk4
  rw [View.read_apply]
  show V c main_v98 _ = V c main_v98 _
  refine congrArg (V c main_v98) (funext fun a => Fin.ext ?_)
  match a with
  | ⟨0, _⟩ => show win4_2.index t (0 : Fin 2) * 1024 + 1 * (y 0).val = (i 0).val; omega
  | ⟨1, _⟩ => show win4_2.index t (1 : Fin 2) * 512 + 1 * (y 1).val = (i 1).val; omega

/-- Block t of the left children's c, at an entry. -/
theorem read_cl (y : S1024x512.Idx) (i : S1024x512.Idx) (h0 : (i 0).val = t.val * 1024 + (y 0).val) (h1 : (i 1).val = (y 1).val) :
    (iblk4 V c 3 t : Vec Ideal S1024x512 .f32) y = (V c main_v100 : S1024x512.Idx → EReal) i := by
  obtain ⟨e0, e1⟩ := idx3 t
  unfold iblk4
  rw [View.read_apply]
  show V c main_v100 _ = V c main_v100 _
  refine congrArg (V c main_v100) (funext fun a => Fin.ext ?_)
  match a with
  | ⟨0, _⟩ => show win4_3.index t (0 : Fin 2) * 1024 + 1 * (y 0).val = (i 0).val; omega
  | ⟨1, _⟩ => show win4_3.index t (1 : Fin 2) * 512 + 1 * (y 1).val = (i 1).val; omega

/-- Block t of the right children's c, at an entry. -/
theorem read_cr (y : S1024x512.Idx) (i : S1024x512.Idx) (h0 : (i 0).val = t.val * 1024 + (y 0).val) (h1 : (i 1).val = (y 1).val) :
    (iblk4 V c 4 t : Vec Ideal S1024x512 .f32) y = (V c main_v102 : S1024x512.Idx → EReal) i := by
  obtain ⟨e0, e1⟩ := idx4 t
  unfold iblk4
  rw [View.read_apply]
  show V c main_v102 _ = V c main_v102 _
  refine congrArg (V c main_v102) (funext fun a => Fin.ext ?_)
  match a with
  | ⟨0, _⟩ => show win4_4.index t (0 : Fin 2) * 1024 + 1 * (y 0).val = (i 0).val; omega
  | ⟨1, _⟩ => show win4_4.index t (1 : Fin 2) * 512 + 1 * (y 1).val = (i 1).val; omega

/-- The one block of the input gate's weights over x is the array. -/
theorem read_wix : (iblk4 V c 5 t : Vec Ideal S512x512 .bf16) = (V c main_v2 : S512x512.Idx → EReal) := by
  obtain ⟨e0, e1⟩ := idx5 t
  funext y
  unfold iblk4
  rw [View.read_apply]
  show V c main_v2 _ = V c main_v2 y
  refine congrArg (V c main_v2) (funext fun a => Fin.ext ?_)
  match a with
  | ⟨0, _⟩ => show win4_5.index t (0 : Fin 2) * 512 + 1 * (y 0).val = (y 0).val; omega
  | ⟨1, _⟩ => show win4_5.index t (1 : Fin 2) * 512 + 1 * (y 1).val = (y 1).val; omega

/-- The one block of the input gate's weights over h is the array. -/
theorem read_wih : (iblk4 V c 6 t : Vec Ideal S512x512 .bf16) = (V c main_v5 : S512x512.Idx → EReal) := by
  obtain ⟨e0, e1⟩ := idx6 t
  funext y
  unfold iblk4
  rw [View.read_apply]
  show V c main_v5 _ = V c main_v5 y
  refine congrArg (V c main_v5) (funext fun a => Fin.ext ?_)
  match a with
  | ⟨0, _⟩ => show win4_6.index t (0 : Fin 2) * 512 + 1 * (y 0).val = (y 0).val; omega
  | ⟨1, _⟩ => show win4_6.index t (1 : Fin 2) * 512 + 1 * (y 1).val = (y 1).val; omega

/-- The one block of the forget gates' weights over x is the array. -/
theorem read_wfx : (iblk4 V c 7 t : Vec Ideal S512x512 .bf16) = (V c main_v8 : S512x512.Idx → EReal) := by
  obtain ⟨e0, e1⟩ := idx7 t
  funext y
  unfold iblk4
  rw [View.read_apply]
  show V c main_v8 _ = V c main_v8 y
  refine congrArg (V c main_v8) (funext fun a => Fin.ext ?_)
  match a with
  | ⟨0, _⟩ => show win4_7.index t (0 : Fin 2) * 512 + 1 * (y 0).val = (y 0).val; omega
  | ⟨1, _⟩ => show win4_7.index t (1 : Fin 2) * 512 + 1 * (y 1).val = (y 1).val; omega

/-- The one block of the forget gates' weights over h is the array. -/
theorem read_wfh : (iblk4 V c 8 t : Vec Ideal S512x512 .bf16) = (V c main_v11 : S512x512.Idx → EReal) := by
  obtain ⟨e0, e1⟩ := idx8 t
  funext y
  unfold iblk4
  rw [View.read_apply]
  show V c main_v11 _ = V c main_v11 y
  refine congrArg (V c main_v11) (funext fun a => Fin.ext ?_)
  match a with
  | ⟨0, _⟩ => show win4_8.index t (0 : Fin 2) * 512 + 1 * (y 0).val = (y 0).val; omega
  | ⟨1, _⟩ => show win4_8.index t (1 : Fin 2) * 512 + 1 * (y 1).val = (y 1).val; omega

/-- The one block of the output gate's weights over x is the array. -/
theorem read_wox : (iblk4 V c 9 t : Vec Ideal S512x512 .bf16) = (V c main_v14 : S512x512.Idx → EReal) := by
  obtain ⟨e0, e1⟩ := idx9 t
  funext y
  unfold iblk4
  rw [View.read_apply]
  show V c main_v14 _ = V c main_v14 y
  refine congrArg (V c main_v14) (funext fun a => Fin.ext ?_)
  match a with
  | ⟨0, _⟩ => show win4_9.index t (0 : Fin 2) * 512 + 1 * (y 0).val = (y 0).val; omega
  | ⟨1, _⟩ => show win4_9.index t (1 : Fin 2) * 512 + 1 * (y 1).val = (y 1).val; omega

/-- The one block of the output gate's weights over h is the array. -/
theorem read_woh : (iblk4 V c 10 t : Vec Ideal S512x512 .bf16) = (V c main_v17 : S512x512.Idx → EReal) := by
  obtain ⟨e0, e1⟩ := idx10 t
  funext y
  unfold iblk4
  rw [View.read_apply]
  show V c main_v17 _ = V c main_v17 y
  refine congrArg (V c main_v17) (funext fun a => Fin.ext ?_)
  match a with
  | ⟨0, _⟩ => show win4_10.index t (0 : Fin 2) * 512 + 1 * (y 0).val = (y 0).val; omega
  | ⟨1, _⟩ => show win4_10.index t (1 : Fin 2) * 512 + 1 * (y 1).val = (y 1).val; omega

/-- The one block of the update gate's weights over x is the array. -/
theorem read_wux : (iblk4 V c 11 t : Vec Ideal S512x512 .bf16) = (V c main_v20 : S512x512.Idx → EReal) := by
  obtain ⟨e0, e1⟩ := idx11 t
  funext y
  unfold iblk4
  rw [View.read_apply]
  show V c main_v20 _ = V c main_v20 y
  refine congrArg (V c main_v20) (funext fun a => Fin.ext ?_)
  match a with
  | ⟨0, _⟩ => show win4_11.index t (0 : Fin 2) * 512 + 1 * (y 0).val = (y 0).val; omega
  | ⟨1, _⟩ => show win4_11.index t (1 : Fin 2) * 512 + 1 * (y 1).val = (y 1).val; omega

/-- The one block of the update gate's weights over h is the array. -/
theorem read_wuh : (iblk4 V c 12 t : Vec Ideal S512x512 .bf16) = (V c main_v23 : S512x512.Idx → EReal) := by
  obtain ⟨e0, e1⟩ := idx12 t
  funext y
  unfold iblk4
  rw [View.read_apply]
  show V c main_v23 _ = V c main_v23 y
  refine congrArg (V c main_v23) (funext fun a => Fin.ext ?_)
  match a with
  | ⟨0, _⟩ => show win4_12.index t (0 : Fin 2) * 512 + 1 * (y 0).val = (y 0).val; omega
  | ⟨1, _⟩ => show win4_12.index t (1 : Fin 2) * 512 + 1 * (y 1).val = (y 1).val; omega

/-- The one block of the input gate's bias row is the array. -/
theorem read_bi : (iblk4 V c 13 t : Vec Ideal S1x512 .f32) = (V c main_v24 : S1x512.Idx → EReal) := by
  obtain ⟨e0, e1⟩ := idx13 t
  funext y
  unfold iblk4
  rw [View.read_apply]
  show V c main_v24 _ = V c main_v24 y
  refine congrArg (V c main_v24) (funext fun a => Fin.ext ?_)
  match a with
  | ⟨0, _⟩ => show win4_13.index t (0 : Fin 2) * 1 + 1 * (y 0).val = (y 0).val; omega
  | ⟨1, _⟩ => show win4_13.index t (1 : Fin 2) * 512 + 1 * (y 1).val = (y 1).val; omega

/-- The one block of the forget gates' bias row is the array. -/
theorem read_bf : (iblk4 V c 14 t : Vec Ideal S1x512 .f32) = (V c main_v25 : S1x512.Idx → EReal) := by
  obtain ⟨e0, e1⟩ := idx14 t
  funext y
  unfold iblk4
  rw [View.read_apply]
  show V c main_v25 _ = V c main_v25 y
  refine congrArg (V c main_v25) (funext fun a => Fin.ext ?_)
  match a with
  | ⟨0, _⟩ => show win4_14.index t (0 : Fin 2) * 1 + 1 * (y 0).val = (y 0).val; omega
  | ⟨1, _⟩ => show win4_14.index t (1 : Fin 2) * 512 + 1 * (y 1).val = (y 1).val; omega

/-- The one block of the output gate's bias row is the array. -/
theorem read_bo : (iblk4 V c 15 t : Vec Ideal S1x512 .f32) = (V c main_v26 : S1x512.Idx → EReal) := by
  obtain ⟨e0, e1⟩ := idx15 t
  funext y
  unfold iblk4
  rw [View.read_apply]
  show V c main_v26 _ = V c main_v26 y
  refine congrArg (V c main_v26) (funext fun a => Fin.ext ?_)
  match a with
  | ⟨0, _⟩ => show win4_15.index t (0 : Fin 2) * 1 + 1 * (y 0).val = (y 0).val; omega
  | ⟨1, _⟩ => show win4_15.index t (1 : Fin 2) * 512 + 1 * (y 1).val = (y 1).val; omega

/-- The one block of the update gate's bias row is the array. -/
theorem read_bu : (iblk4 V c 16 t : Vec Ideal S1x512 .f32) = (V c main_v27 : S1x512.Idx → EReal) := by
  obtain ⟨e0, e1⟩ := idx16 t
  funext y
  unfold iblk4
  rw [View.read_apply]
  show V c main_v27 _ = V c main_v27 y
  refine congrArg (V c main_v27) (funext fun a => Fin.ext ?_)
  match a with
  | ⟨0, _⟩ => show win4_16.index t (0 : Fin 2) * 1 + 1 * (y 0).val = (y 0).val; omega
  | ⟨1, _⟩ => show win4_16.index t (1 : Fin 2) * 512 + 1 * (y 1).val = (y 1).val; omega

end Reads

/-! ## The block body -/

/-- What a block body of 1024 rows carries besides its arrays. -/
def ctx : Cert.Tree.BodyCtx 1024 :=
  ⟨dot_S1024x512_S512x512_S1024x512_1_0_0_1_n_n, rfl, shapeCasts_S1024x512_S1024x512, shapeCasts_S512x512_S512x512,
    shapeCasts_S1x512_S1x512, broadcasts_S1x512_S1024x512, bitsLt_bf16_f32⟩

section Body

variable {F : FTy → Type} [FloatOps F]

/-- The value the body stores into its h block is the tree cell's h block of the seventeen blocks it loads. -/
theorem bodyH_eq (x0 x1 x2 x3 x4 : Vec F S1024x512 .f32) (x5 x6 x7 x8 x9 x10 x11 x12 : Vec F S512x512 .bf16)
    (x13 x14 x15 x16 : Vec F S1x512 .f32) :
    k4_pay2 (k4_pay6 x3) (k4_pay7 x4) (k4_pay13 (k4_pay11 x0 x1 x2 x5 x6 x13)) (k4_pay14 (k4_pay12 x0 x1 x2 x9 x10) x15)
      (k4_pay15 (k4_pay3 x0) (k4_pay8 x1 x2) x11 x12 x16) (k4_pay17 (k4_pay3 x0) (k4_pay9 x1) x7 x8 x14)
      (k4_pay18 (k4_pay3 x0) (k4_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S1024x512 .f32) (x5 x6 x7 x8 x9 x10 x11 x12 : Vec F S512x512 .bf16)
    (x13 x14 x15 x16 : Vec F S1x512 .f32) :
    k4_pay1 (k4_pay6 x3) (k4_pay7 x4) (k4_pay13 (k4_pay11 x0 x1 x2 x5 x6 x13))
      (k4_pay15 (k4_pay3 x0) (k4_pay8 x1 x2) x11 x12 x16) (k4_pay17 (k4_pay3 x0) (k4_pay9 x1) x7 x8 x14)
      (k4_pay18 (k4_pay3 x0) (k4_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S1024x512.Idx → EReal) (w5 w6 w7 w8 w9 w10 w11 w12 : S512x512.Idx → EReal)
    (b13 b14 b15 b16 : S1x512.Idx → EReal) (p : Fin 1024) (r : Fin 1024) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k4_pay2 (k4_pay6 x3) (k4_pay7 x4) (k4_pay13 (k4_pay11 x0 x1 x2 x5 x6 x13)) (k4_pay14 (k4_pay12 x0 x1 x2 x9 x10) x15)
      (k4_pay15 (k4_pay3 x0) (k4_pay8 x1 x2) x11 x12 x16) (k4_pay17 (k4_pay3 x0) (k4_pay9 x1) x7 x8 x14)
      (k4_pay18 (k4_pay3 x0) (k4_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S1024x512 .f32) (x5 x6 x7 x8 x9 x10 x11 x12 : Vec Ideal S512x512 .bf16)
    (x13 x14 x15 x16 : Vec Ideal S1x512 .f32)
    (X HL HR CL CR : S1024x512.Idx → EReal) (w5 w6 w7 w8 w9 w10 w11 w12 : S512x512.Idx → EReal)
    (b13 b14 b15 b16 : S1x512.Idx → EReal) (p : Fin 1024) (r : Fin 1024) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k4_pay1 (k4_pay6 x3) (k4_pay7 x4) (k4_pay13 (k4_pay11 x0 x1 x2 x5 x6 x13))
      (k4_pay15 (k4_pay3 x0) (k4_pay8 x1 x2) x11 x12 x16) (k4_pay17 (k4_pay3 x0) (k4_pay9 x1) x7 x8 x14)
      (k4_pay18 (k4_pay3 x0) (k4_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S1024x512.Idx → EReal :=
  Cert.Tree.levelH (n := 1024) (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S1024x512.Idx → EReal :=
  Cert.Tree.levelC (n := 1024) (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg4.N) :
    (dat4 V c).flushed 17 t = ((cfg4.win 17).blk t).view.read (Elt Ideal) (GH V c) := by
  show (cfg4.win 17).cut (grid4.coords t) ((dat4 V c).after 17 t) = _
  rw [after4_17]
  unfold out4_17
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg4.N := t.isLt
  have hN : cfg4.N * 1024 = 1024 := points_rows
  have hr : t.val * 1024 + p.val < 1024 := by omega
  obtain ⟨e0, e1⟩ := idx17 t
  refine Eq.trans (b := GH V c (ix2 (⟨t.val * 1024 + p.val, hr⟩ : Fin 1024) q)) ?_ ?_
  · exact bodyH_at (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
      (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg4.win 17).blk t).view.emb (ix2 p q))
    refine congrArg (GH V c) (funext fun a => Fin.ext ?_)
    match a with
    | ⟨0, _⟩ => show t.val * 1024 + p.val = win4_17.index t (0 : Fin 2) * 1024 + 1 * p.val; omega
    | ⟨1, _⟩ => show q.val = win4_17.index t (1 : Fin 2) * 512 + 1 * q.val; omega

/-- An entry of the h array is in point t's block iff each coordinate is in the block's range on its axis. -/
theorem mem_blkH (t : Fin cfg4.N) (i : S1024x512.Idx) :
    i ∈ ((cfg4.win 17).blk t).view.set ↔ ∀ a : Fin 2, win4_17.index t a * S1024x512.size a ≤ (i a).val
      ∧ (i a).val < win4_17.index t a * S1024x512.size a + S1024x512.size a := by
  show i ∈ ((View.whole main_v103_0).slice (win4_17.rect t)).set ↔ _
  rw [View.set_slice_whole, Rect.mem_set_unit]
  exact Iff.rfl

/-- The blocks tile the h array: row r is in the block of point r / 1024. -/
theorem coverH (i : S1024x512.Idx) :
    ∃ t : Fin cfg4.N, (cfg4.win 17).flush t = true ∧ i ∈ ((cfg4.win 17).blk t).view.set := by
  have hi0 : (i 0).val < 1024 := (i 0).isLt
  have hi1 : (i 1).val < 512 := (i 1).isLt
  have hN : cfg4.N * 1024 = 1024 := points_rows
  obtain ⟨hq, hlo, hhi⟩ := Cert.LibBlocks.row_in_block (nb := cfg4.N) (bs := 1024) (r := (i 0).val) (by omega) (by omega)
  obtain ⟨e0, e1⟩ := idx17 (⟨(i 0).val / 1024, hq⟩ : Fin cfg4.N)
  refine ⟨⟨(i 0).val / 1024, hq⟩, flush4_17 _, ?_⟩
  rw [mem_blkH]
  intro a
  match a with
  | ⟨0, _⟩ =>
    show win4_17.index ⟨(i 0).val / 1024, hq⟩ (0 : Fin 2) * 1024 ≤ (i 0).val
      ∧ (i 0).val < win4_17.index ⟨(i 0).val / 1024, hq⟩ (0 : Fin 2) * 1024 + 1024
    rw [e0]
    exact ⟨hlo, hhi⟩
  | ⟨1, _⟩ =>
    show win4_17.index ⟨(i 0).val / 1024, hq⟩ (1 : Fin 2) * 512 ≤ (i 1).val
      ∧ (i 1).val < win4_17.index ⟨(i 0).val / 1024, hq⟩ (1 : Fin 2) * 512 + 512
    omega

/-- What point t writes back to the c array is block t of the level's c. -/
theorem flushedC (c : Dev nD) (t : Fin cfg4.N) :
    (dat4 V c).flushed 18 t = ((cfg4.win 18).blk t).view.read (Elt Ideal) (GC V c) := by
  show (cfg4.win 18).cut (grid4.coords t) ((dat4 V c).after 18 t) = _
  rw [after4_18]
  unfold out4_18
  rw [View.canon_unit_zero Cert.LibBlocks.off2_zero]
  simp only [View.ld_unit_zero (S := S1024x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 1024) (q : Fin 512), j = ix2 p q := ⟨j 0, j 1, eq_ix2 j⟩
  have hp : p.val < 1024 := p.isLt
  have ht : t.val < cfg4.N := t.isLt
  have hN : cfg4.N * 1024 = 1024 := points_rows
  have hr : t.val * 1024 + p.val < 1024 := by omega
  obtain ⟨e0, e1⟩ := idx18 t
  refine Eq.trans (b := GC V c (ix2 (⟨t.val * 1024 + p.val, hr⟩ : Fin 1024) q)) ?_ ?_
  · exact bodyC_at (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t)
      (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27)
      p ⟨t.val * 1024 + p.val, hr⟩ q
      (fun k => read_x V c t (ix2 p k) (ix2 ⟨t.val * 1024 + p.val, hr⟩ k) rfl rfl)
      (fun k => read_hl V c t (ix2 p k) (ix2 ⟨t.val * 1024 + p.val, hr⟩ k) rfl rfl)
      (fun k => read_hr V c t (ix2 p k) (ix2 ⟨t.val * 1024 + p.val, hr⟩ k) rfl rfl)
      (read_cl V c t (ix2 p q) (ix2 ⟨t.val * 1024 + p.val, hr⟩ q) rfl rfl)
      (read_cr V c t (ix2 p q) (ix2 ⟨t.val * 1024 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg4.win 18).blk t).view.emb (ix2 p q))
    refine congrArg (GC V c) (funext fun a => Fin.ext ?_)
    match a with
    | ⟨0, _⟩ => show t.val * 1024 + p.val = win4_18.index t (0 : Fin 2) * 1024 + 1 * p.val; omega
    | ⟨1, _⟩ => show q.val = win4_18.index t (1 : Fin 2) * 512 + 1 * q.val; omega

/-- An entry of the c array is in point t's block iff each coordinate is in the block's range on its axis. -/
theorem mem_blkC (t : Fin cfg4.N) (i : S1024x512.Idx) :
    i ∈ ((cfg4.win 18).blk t).view.set ↔ ∀ a : Fin 2, win4_18.index t a * S1024x512.size a ≤ (i a).val
      ∧ (i a).val < win4_18.index t a * S1024x512.size a + S1024x512.size a := by
  show i ∈ ((View.whole main_v103_1).slice (win4_18.rect t)).set ↔ _
  rw [View.set_slice_whole, Rect.mem_set_unit]
  exact Iff.rfl

/-- The blocks tile the c array: row r is in the block of point r / 1024. -/
theorem coverC (i : S1024x512.Idx) :
    ∃ t : Fin cfg4.N, (cfg4.win 18).flush t = true ∧ i ∈ ((cfg4.win 18).blk t).view.set := by
  have hi0 : (i 0).val < 1024 := (i 0).isLt
  have hi1 : (i 1).val < 512 := (i 1).isLt
  have hN : cfg4.N * 1024 = 1024 := points_rows
  obtain ⟨hq, hlo, hhi⟩ := Cert.LibBlocks.row_in_block (nb := cfg4.N) (bs := 1024) (r := (i 0).val) (by omega) (by omega)
  obtain ⟨e0, e1⟩ := idx18 (⟨(i 0).val / 1024, hq⟩ : Fin cfg4.N)
  refine ⟨⟨(i 0).val / 1024, hq⟩, flush4_18 _, ?_⟩
  rw [mem_blkC]
  intro a
  match a with
  | ⟨0, _⟩ =>
    show win4_18.index ⟨(i 0).val / 1024, hq⟩ (0 : Fin 2) * 1024 ≤ (i 0).val
      ∧ (i 0).val < win4_18.index ⟨(i 0).val / 1024, hq⟩ (0 : Fin 2) * 1024 + 1024
    rw [e0]
    exact ⟨hlo, hhi⟩
  | ⟨1, _⟩ =>
    show win4_18.index ⟨(i 0).val / 1024, hq⟩ (1 : Fin 2) * 512 ≤ (i 1).val
      ∧ (i 1).val < win4_18.index ⟨(i 0).val / 1024, hq⟩ (1 : Fin 2) * 512 + 512
    omega

/-- After the region the h array holds the level's h of the seventeen arrays as the region finds them. -/
theorem arrH (c : Dev nD) :
    (dat4 (F := Ideal) V c).arrAt 17 cfg4.N
      = Cert.Tree.levelH (n := 1024) (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27) :=
  (dat4 V c).arrAt_eq_of_cover 17 (GH V c) (fun t _ => flushedH V c t) coverH

/-- After the region the c array holds the level's c of the seventeen arrays as the region finds them. -/
theorem arrC (c : Dev nD) :
    (dat4 (F := Ideal) V c).arrAt 18 cfg4.N
      = Cert.Tree.levelC (n := 1024) (V c main_v90) (V c main_v96) (V c main_v98) (V c main_v100) (V c main_v102) (V c main_v2) (V c main_v5) (V c main_v8) (V c main_v11) (V c main_v14) (V c main_v17) (V c main_v20) (V c main_v23) (V c main_v24) (V c main_v25) (V c main_v26) (V c main_v27) :=
  (dat4 V c).arrAt_eq_of_cover 18 (GC V c) (fun t _ => flushedC V c t) coverC

end Arrays

end Cert.KernelIdeal.Reg4

end
-- ==== Proof.RStep4.lean ====
/-
  The reference's level of 1024 nodes (heap rows 1023 … 2046), read off its run's named buffers: the h and c heap
  arrays after the level are the arrays before it with the level's rows replaced by the level function of the x rows
  and of the children's rows (the even and odd rows of heap rows 2047 … 4094 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx4 : Cert.Tree.HostCtx 1024 :=
  ⟨dot_S1024x1024_S1024x512_S1024x512_1_0_0_1_n_n, rfl, concatenates_S1024x512_S1024x512_S1024x1024_d1,
    transposes_S512x1024_S1024x512_1_0, bcast_S512_S1x512_1, bcast_S1x512_S1024x512_0_1, bcast_S_S1024x512⟩

variable (V0 : Valuation τ sig (Elt Ideal))

/-- The level's x rows. -/
abbrev xl4 : Vec Ideal S1024x512 .f32 :=
  extractStridedSlice S1024x512 ![1023, 0] (V0 (Proc.devRef .tc main_arg0)) slices_S32767x512_S1024x512_1023_0

/-- The left (even) and right (odd) children's rows of a heap array. -/
abbrev childL4 (A : Vec Ideal S32767x512 .f32) : Vec Ideal S1024x512 .f32 :=
  shapeCast _ (extractStridedSlice S1024x1x512 ![0, 0, 0] (shapeCast _ (extractStridedSlice S2048x512 ![2047, 0] A slices_S32767x512_S2048x512_2047_0) shapeCasts_S2048x512_S1024x2x512) slices_S1024x2x512_S1024x1x512_0_0_0) shapeCasts_S1024x1x512_S1024x512

abbrev childR4 (A : Vec Ideal S32767x512 .f32) : Vec Ideal S1024x512 .f32 :=
  shapeCast _ (extractStridedSlice S1024x1x512 ![0, 1, 0] (shapeCast _ (extractStridedSlice S2048x512 ![2047, 0] A slices_S32767x512_S2048x512_2047_0) shapeCasts_S2048x512_S1024x2x512) slices_S1024x2x512_S1024x1x512_0_1_0) shapeCasts_S1024x1x512_S1024x512

theorem stepC4 : res_main_v351 V0
    = Host.scatter scatter_S32767x512_S1_S1024x512_01_n_0_0 (fun _ b => b) (res_main_v273 V0) (broadcastInDim S1 ![] bcast_S_S1 (constantI S_ 32 1023#32))
        (Cert.Tree.hostLevelC ctx4 (xl4 V0) (childL4 (res_main_v271 V0)) (childR4 (res_main_v271 V0)) (childL4 (res_main_v273 V0)) (childR4 (res_main_v273 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v351 res_main_v345 res_main_v284 res_main_v280 res_main_v282 res_main_v276 res_main_v278 res_main_v274
  rfl

theorem stepH4 : res_main_v349 V0
    = Host.scatter scatter_S32767x512_S1_S1024x512_01_n_0_0 (fun _ b => b) (res_main_v271 V0) (broadcastInDim S1 ![] bcast_S_S1 (constantI S_ 32 1023#32))
        (Cert.Tree.hostLevelH ctx4 (xl4 V0) (childL4 (res_main_v271 V0)) (childR4 (res_main_v271 V0)) (childL4 (res_main_v273 V0)) (childR4 (res_main_v273 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v349 res_main_v345 res_main_v284 res_main_v280 res_main_v282 res_main_v276 res_main_v278 res_main_v274
  rfl

end Cert.ReferenceIdeal.Chain

end
-- ==== Proof.Bridge4.lean ====
/-
  The level of 1024 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep4
import proofs.«110311_j37117107372689_1_alg».proof.Proof.KReg4
import proofs.«110311_j37117107372689_1_alg».proof.Proof.RStep4
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 1024 nodes, they agree after it. -/
theorem level4 (hA : Agree m V0 c)
    (hH : Cert.KernelIdeal.Gen.W9 m ρ c (Proc.devRef .tc Cert.KernelIdeal.main_v87) = Cert.ReferenceIdeal.Value.res_main_v271 V0)
    (hC : Cert.KernelIdeal.Gen.W9 m ρ c (Proc.devRef .tc Cert.KernelIdeal.main_v89) = Cert.ReferenceIdeal.Value.res_main_v273 V0) :
    Cert.KernelIdeal.Gen.W11 m ρ c (Proc.devRef .tc Cert.KernelIdeal.main_v105) = Cert.ReferenceIdeal.Value.res_main_v349 V0
      ∧ Cert.KernelIdeal.Gen.W11 m ρ c (Proc.devRef .tc Cert.KernelIdeal.main_v107) = Cert.ReferenceIdeal.Value.res_main_v351 V0 := by
  constructor
  · rw [Cert.KernelIdeal.Chain.stepH4 m ρ c (Cert.KernelIdeal.Reg4.arrH (Cert.KernelIdeal.Gen.V9 m ρ) c),
      Cert.ReferenceIdeal.Chain.stepH4 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC4 m ρ c (Cert.KernelIdeal.Reg4.arrC (Cert.KernelIdeal.Gen.V9 m ρ) c),
      Cert.ReferenceIdeal.Chain.stepC4 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep5.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 5: what its scatters leave in the two heap arrays

The host stretch before the region cuts the level's 512 rows of node features out of the argument and, out of each
heap array (hidden states, cell states), the 1024 rows of the level below, which it pairs up: row p's left child is
the pair's first member and its right child the second. The region computes the level's hidden and cell rows from
these five arrays and the twelve weight and bias buffers; the host stretch after it scatters the two results into the
heap arrays at row 511. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat5_h : StableHlo.after hostOps6 W (Proc.devRef .tc main_v123)
    = Host.scatter scatter_S32767x512_S1_S512x512_01_n_0_0 (fun _ b => b) (W (Proc.devRef .tc main_v105))
        (broadcastInDim S1 ![] bcast_S_S1 (constantI S_ 32 511#32)) (W (Proc.devRef .tc main_v121_0)) := by
  after_results
  rfl

/-- And the new cell heap: the old one with the region's second output scattered in. -/
theorem scat5_c : StableHlo.after hostOps6 W (Proc.devRef .tc main_v125)
    = Host.scatter scatter_S32767x512_S1_S512x512_01_n_0_0 (fun _ b => b) (W (Proc.devRef .tc main_v107))
        (broadcastInDim S1 ![] bcast_S_S1 (constantI S_ 32 511#32)) (W (Proc.devRef .tc main_v121_1)) := by
  after_results
  rfl

/-- The stretch before the region: the level's rows of node features. -/
theorem cut5_x : StableHlo.after hostOps5 W (Proc.devRef .tc main_v108)
    = extractStridedSlice S512x512 ![511, 0] (W (Proc.devRef .tc main_arg0)) slices_S32767x512_S512x512_511_0 := by
  after_results

/-- The left children's hidden rows, out of the hidden heap as this stretch itself leaves it. -/
theorem cut5_hl : StableHlo.after hostOps5 W (Proc.devRef .tc main_v114)
    = shapeCast _ (extractStridedSlice S512x1x512 ![0, 0, 0] (shapeCast _ (extractStridedSlice S1024x512 ![1023, 0] (StableHlo.after hostOps5 W (Proc.devRef .tc main_v105)) slices_S32767x512_S1024x512_1023_0) shapeCasts_S1024x512_S512x2x512) slices_S512x2x512_S512x1x512_0_0_0) shapeCasts_S512x1x512_S512x512 := by
  after_results_simp
  rfl

/-- The right children's hidden rows. -/
theorem cut5_hr : StableHlo.after hostOps5 W (Proc.devRef .tc main_v116)
    = shapeCast _ (extractStridedSlice S512x1x512 ![0, 1, 0] (shapeCast _ (extractStridedSlice S1024x512 ![1023, 0] (StableHlo.after hostOps5 W (Proc.devRef .tc main_v105)) slices_S32767x512_S1024x512_1023_0) shapeCasts_S1024x512_S512x2x512) slices_S512x2x512_S512x1x512_0_1_0) shapeCasts_S512x1x512_S512x512 := by
  after_results_simp
  rfl

/-- The left children's cell rows, out of the cell heap. -/
theorem cut5_cl : StableHlo.after hostOps5 W (Proc.devRef .tc main_v118)
    = shapeCast _ (extractStridedSlice S512x1x512 ![0, 0, 0] (shapeCast _ (extractStridedSlice S1024x512 ![1023, 0] (StableHlo.after hostOps5 W (Proc.devRef .tc main_v107)) slices_S32767x512_S1024x512_1023_0) shapeCasts_S1024x512_S512x2x512) slices_S512x2x512_S512x1x512_0_0_0) shapeCasts_S512x1x512_S512x512 := by
  after_results_simp
  rfl

/-- The right children's cell rows. -/
theorem cut5_cr : StableHlo.after hostOps5 W (Proc.devRef .tc main_v120)
    = shapeCast _ (extractStridedSlice S512x1x512 ![0, 1, 0] (shapeCast _ (extractStridedSlice S1024x512 ![1023, 0] (StableHlo.after hostOps5 W (Proc.devRef .tc main_v107)) slices_S32767x512_S1024x512_1023_0) shapeCasts_S1024x512_S512x2x512) slices_S512x2x512_S512x1x512_0_1_0) shapeCasts_S512x1x512_S512x512 := by
  after_results_simp
  rfl

end Host

/-! ## The region's five level arrays at its entry, in the run -/

theorem in5_x (c : Dev nD) : Gen.W11 m ρ c (Proc.devRef .tc main_v108)
    = extractStridedSlice S512x512 ![511, 0] (m ((c : Thread nD τ).loc main_arg0)) slices_S32767x512_S512x512_511_0 :=
  (cut5_x (Gen.W10 m ρ c)).trans (by rw [arg0_5 m ρ c])

theorem in5_hl (c : Dev nD) : Gen.W11 m ρ c (Proc.devRef .tc main_v114)
    = shapeCast _ (extractStridedSlice S512x1x512 ![0, 0, 0] (shapeCast _ (extractStridedSlice S1024x512 ![1023, 0] (Gen.W11 m ρ c (Proc.devRef .tc main_v105)) slices_S32767x512_S1024x512_1023_0) shapeCasts_S1024x512_S512x2x512) slices_S512x2x512_S512x1x512_0_0_0) shapeCasts_S512x1x512_S512x512 :=
  cut5_hl (Gen.W10 m ρ c)

theorem in5_hr (c : Dev nD) : Gen.W11 m ρ c (Proc.devRef .tc main_v116)
    = shapeCast _ (extractStridedSlice S512x1x512 ![0, 1, 0] (shapeCast _ (extractStridedSlice S1024x512 ![1023, 0] (Gen.W11 m ρ c (Proc.devRef .tc main_v105)) slices_S32767x512_S1024x512_1023_0) shapeCasts_S1024x512_S512x2x512) slices_S512x2x512_S512x1x512_0_1_0) shapeCasts_S512x1x512_S512x512 :=
  cut5_hr (Gen.W10 m ρ c)

theorem in5_cl (c : Dev nD) : Gen.W11 m ρ c (Proc.devRef .tc main_v118)
    = shapeCast _ (extractStridedSlice S512x1x512 ![0, 0, 0] (shapeCast _ (extractStridedSlice S1024x512 ![1023, 0] (Gen.W11 m ρ c (Proc.devRef .tc main_v107)) slices_S32767x512_S1024x512_1023_0) shapeCasts_S1024x512_S512x2x512) slices_S512x2x512_S512x1x512_0_0_0) shapeCasts_S512x1x512_S512x512 :=
  cut5_cl (Gen.W10 m ρ c)

theorem in5_cr (c : Dev nD) : Gen.W11 m ρ c (Proc.devRef .tc main_v120)
    = shapeCast _ (extractStridedSlice S512x1x512 ![0, 1, 0] (shapeCast _ (extractStridedSlice S1024x512 ![1023, 0] (Gen.W11 m ρ c (Proc.devRef .tc main_v107)) slices_S32767x512_S1024x512_1023_0) shapeCasts_S1024x512_S512x2x512) slices_S512x2x512_S512x1x512_0_1_0) shapeCasts_S512x1x512_S512x512 :=
  cut5_cr (Gen.W10 m ρ c)

/-! ## The region's two outputs at its exit are its proof data's arrays after the last grid point -/

theorem out5_h (c : Dev nD) : Gen.W12 m ρ c (Proc.devRef .tc main_v121_0) = (Gen.dat5 (Gen.V11 m ρ) c).arrAt 17 cfg5.N :=
  Gen.W12_arr m ρ c 17

theorem out5_c (c : Dev nD) : Gen.W12 m ρ c (Proc.devRef .tc main_v121_1) = (Gen.dat5 (Gen.V11 m ρ) c).arrAt 18 cfg5.N :=
  Gen.W12_arr m ρ c 18

/-! ## The level -/

/-- The hidden heap after the level, given that the region's first output is the level function of its entry arrays. -/
theorem stepH5 (c : Dev nD)
    (hH : (Gen.dat5 (F := Ideal) (Gen.V11 m ρ) c).arrAt 17 cfg5.N
      = Cert.Tree.levelH (n := 512) (Gen.V11 m ρ c main_v108) (Gen.V11 m ρ c main_v114) (Gen.V11 m ρ c main_v116)
          (Gen.V11 m ρ c main_v118) (Gen.V11 m ρ c main_v120)
          (Gen.V11 m ρ c main_v2) (Gen.V11 m ρ c main_v5) (Gen.V11 m ρ c main_v8) (Gen.V11 m ρ c main_v11)
          (Gen.V11 m ρ c main_v14) (Gen.V11 m ρ c main_v17) (Gen.V11 m ρ c main_v20) (Gen.V11 m ρ c main_v23)
          (Gen.V11 m ρ c main_v24) (Gen.V11 m ρ c main_v25) (Gen.V11 m ρ c main_v26) (Gen.V11 m ρ c main_v27)) :
    Gen.W13 m ρ c (Proc.devRef .tc main_v123)
      = Host.scatter scatter_S32767x512_S1_S512x512_01_n_0_0 (fun _ b => b) (Gen.W11 m ρ c (Proc.devRef .tc main_v105))
          (broadcastInDim S1 ![] bcast_S_S1 (constantI S_ 32 511#32))
          (Cert.Tree.levelH (n := 512)
            (extractStridedSlice S512x512 ![511, 0] (m ((c : Thread nD τ).loc main_arg0)) slices_S32767x512_S512x512_511_0)
            (shapeCast _ (extractStridedSlice S512x1x512 ![0, 0, 0] (shapeCast _ (extractStridedSlice S1024x512 ![1023, 0] (Gen.W11 m ρ c (Proc.devRef .tc main_v105)) slices_S32767x512_S1024x512_1023_0) shapeCasts_S1024x512_S512x2x512) slices_S512x2x512_S512x1x512_0_0_0) shapeCasts_S512x1x512_S512x512)
            (shapeCast _ (extractStridedSlice S512x1x512 ![0, 1, 0] (shapeCast _ (extractStridedSlice S1024x512 ![1023, 0] (Gen.W11 m ρ c (Proc.devRef .tc main_v105)) slices_S32767x512_S1024x512_1023_0) shapeCasts_S1024x512_S512x2x512) slices_S512x2x512_S512x1x512_0_1_0) shapeCasts_S512x1x512_S512x512)
            (shapeCast _ (extractStridedSlice S512x1x512 ![0, 0, 0] (shapeCast _ (extractStridedSlice S1024x512 ![1023, 0] (Gen.W11 m ρ c (Proc.devRef .tc main_v107)) slices_S32767x512_S1024x512_1023_0) shapeCasts_S1024x512_S512x2x512) slices_S512x2x512_S512x1x512_0_0_0) shapeCasts_S512x1x512_S512x512)
            (shapeCast _ (extractStridedSlice S512x1x512 ![0, 1, 0] (shapeCast _ (extractStridedSlice S1024x512 ![1023, 0] (Gen.W11 m ρ c (Proc.devRef .tc main_v107)) slices_S32767x512_S1024x512_1023_0) shapeCasts_S1024x512_S512x2x512) slices_S512x2x512_S512x1x512_0_1_0) shapeCasts_S512x1x512_S512x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat5 (F := Ideal) (Gen.V11 m ρ) c).arrAt 17 cfg5.N
      = Cert.Tree.levelH (n := 512) (Gen.W11 m ρ c (Proc.devRef .tc main_v108)) (Gen.W11 m ρ c (Proc.devRef .tc main_v114))
          (Gen.W11 m ρ c (Proc.devRef .tc main_v116)) (Gen.W11 m ρ c (Proc.devRef .tc main_v118))
          (Gen.W11 m ρ c (Proc.devRef .tc main_v120))
          (Gen.W11 m ρ c (Proc.devRef .tc main_v2)) (Gen.W11 m ρ c (Proc.devRef .tc main_v5))
          (Gen.W11 m ρ c (Proc.devRef .tc main_v8)) (Gen.W11 m ρ c (Proc.devRef .tc main_v11))
          (Gen.W11 m ρ c (Proc.devRef .tc main_v14)) (Gen.W11 m ρ c (Proc.devRef .tc main_v17))
          (Gen.W11 m ρ c (Proc.devRef .tc main_v20)) (Gen.W11 m ρ c (Proc.devRef .tc main_v23))
          (Gen.W11 m ρ c (Proc.devRef .tc main_v24)) (Gen.W11 m ρ c (Proc.devRef .tc main_v25))
          (Gen.W11 m ρ c (Proc.devRef .tc main_v26)) (Gen.W11 m ρ c (Proc.devRef .tc main_v27)) := hH
  rw [in5_x m ρ c, in5_hl m ρ c, in5_hr m ρ c, in5_cl m ρ c, in5_cr m ρ c,
    keep5_main_v2 m ρ c, keep5_main_v5 m ρ c, keep5_main_v8 m ρ c, keep5_main_v11 m ρ c, keep5_main_v14 m ρ c,
    keep5_main_v17 m ρ c, keep5_main_v20 m ρ c, keep5_main_v23 m ρ c, keep5_main_v24 m ρ c, keep5_main_v25 m ρ c,
    keep5_main_v26 m ρ c, keep5_main_v27 m ρ c] at hH'
  refine (scat5_h (Gen.W12 m ρ c)).trans ?_
  rw [Gen.W12_of_ne m ρ c main_v105 (by decide), out5_h m ρ c, hH']

/-- The cell heap after the level, given that the region's second output is the level's cell function of its entry arrays. -/
theorem stepC5 (c : Dev nD)
    (hC : (Gen.dat5 (F := Ideal) (Gen.V11 m ρ) c).arrAt 18 cfg5.N
      = Cert.Tree.levelC (n := 512) (Gen.V11 m ρ c main_v108) (Gen.V11 m ρ c main_v114) (Gen.V11 m ρ c main_v116)
          (Gen.V11 m ρ c main_v118) (Gen.V11 m ρ c main_v120)
          (Gen.V11 m ρ c main_v2) (Gen.V11 m ρ c main_v5) (Gen.V11 m ρ c main_v8) (Gen.V11 m ρ c main_v11)
          (Gen.V11 m ρ c main_v14) (Gen.V11 m ρ c main_v17) (Gen.V11 m ρ c main_v20) (Gen.V11 m ρ c main_v23)
          (Gen.V11 m ρ c main_v24) (Gen.V11 m ρ c main_v25) (Gen.V11 m ρ c main_v26) (Gen.V11 m ρ c main_v27)) :
    Gen.W13 m ρ c (Proc.devRef .tc main_v125)
      = Host.scatter scatter_S32767x512_S1_S512x512_01_n_0_0 (fun _ b => b) (Gen.W11 m ρ c (Proc.devRef .tc main_v107))
          (broadcastInDim S1 ![] bcast_S_S1 (constantI S_ 32 511#32))
          (Cert.Tree.levelC (n := 512)
            (extractStridedSlice S512x512 ![511, 0] (m ((c : Thread nD τ).loc main_arg0)) slices_S32767x512_S512x512_511_0)
            (shapeCast _ (extractStridedSlice S512x1x512 ![0, 0, 0] (shapeCast _ (extractStridedSlice S1024x512 ![1023, 0] (Gen.W11 m ρ c (Proc.devRef .tc main_v105)) slices_S32767x512_S1024x512_1023_0) shapeCasts_S1024x512_S512x2x512) slices_S512x2x512_S512x1x512_0_0_0) shapeCasts_S512x1x512_S512x512)
            (shapeCast _ (extractStridedSlice S512x1x512 ![0, 1, 0] (shapeCast _ (extractStridedSlice S1024x512 ![1023, 0] (Gen.W11 m ρ c (Proc.devRef .tc main_v105)) slices_S32767x512_S1024x512_1023_0) shapeCasts_S1024x512_S512x2x512) slices_S512x2x512_S512x1x512_0_1_0) shapeCasts_S512x1x512_S512x512)
            (shapeCast _ (extractStridedSlice S512x1x512 ![0, 0, 0] (shapeCast _ (extractStridedSlice S1024x512 ![1023, 0] (Gen.W11 m ρ c (Proc.devRef .tc main_v107)) slices_S32767x512_S1024x512_1023_0) shapeCasts_S1024x512_S512x2x512) slices_S512x2x512_S512x1x512_0_0_0) shapeCasts_S512x1x512_S512x512)
            (shapeCast _ (extractStridedSlice S512x1x512 ![0, 1, 0] (shapeCast _ (extractStridedSlice S1024x512 ![1023, 0] (Gen.W11 m ρ c (Proc.devRef .tc main_v107)) slices_S32767x512_S1024x512_1023_0) shapeCasts_S1024x512_S512x2x512) slices_S512x2x512_S512x1x512_0_1_0) shapeCasts_S512x1x512_S512x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat5 (F := Ideal) (Gen.V11 m ρ) c).arrAt 18 cfg5.N
      = Cert.Tree.levelC (n := 512) (Gen.W11 m ρ c (Proc.devRef .tc main_v108)) (Gen.W11 m ρ c (Proc.devRef .tc main_v114))
          (Gen.W11 m ρ c (Proc.devRef .tc main_v116)) (Gen.W11 m ρ c (Proc.devRef .tc main_v118))
          (Gen.W11 m ρ c (Proc.devRef .tc main_v120))
          (Gen.W11 m ρ c (Proc.devRef .tc main_v2)) (Gen.W11 m ρ c (Proc.devRef .tc main_v5))
          (Gen.W11 m ρ c (Proc.devRef .tc main_v8)) (Gen.W11 m ρ c (Proc.devRef .tc main_v11))
          (Gen.W11 m ρ c (Proc.devRef .tc main_v14)) (Gen.W11 m ρ c (Proc.devRef .tc main_v17))
          (Gen.W11 m ρ c (Proc.devRef .tc main_v20)) (Gen.W11 m ρ c (Proc.devRef .tc main_v23))
          (Gen.W11 m ρ c (Proc.devRef .tc main_v24)) (Gen.W11 m ρ c (Proc.devRef .tc main_v25))
          (Gen.W11 m ρ c (Proc.devRef .tc main_v26)) (Gen.W11 m ρ c (Proc.devRef .tc main_v27)) := hC
  rw [in5_x m ρ c, in5_hl m ρ c, in5_hr m ρ c, in5_cl m ρ c, in5_cr m ρ c,
    keep5_main_v2 m ρ c, keep5_main_v5 m ρ c, keep5_main_v8 m ρ c, keep5_main_v11 m ρ c, keep5_main_v14 m ρ c,
    keep5_main_v17 m ρ c, keep5_main_v20 m ρ c, keep5_main_v23 m ρ c, keep5_main_v24 m ρ c, keep5_main_v25 m ρ c,
    keep5_main_v26 m ρ c, keep5_main_v27 m ρ c] at hC'
  refine (scat5_c (Gen.W12 m ρ c)).trans ?_
  rw [Gen.W12_of_ne m ρ c main_v107 (by decide), out5_c m ρ c, hC']

end Cert.KernelIdeal.Chain

end
-- ==== Proof.KReg5.lean ====
/-
  One level of the tree on the kernel's side: 512 internal nodes, worked in blocks of 512 node rows, one block per
  grid point. What the level's two output arrays hold after the region, whatever the arrays hold when it is entered.

  Grid point t reads block t (rows 512 t … 512 t + 511) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg5

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg5.N * 512 = 512 := by decide

/-! The printed index maps, decided over the grid: a row array's block at point t is block (t, 0); a weight half or a
    bias row is one block, (0, 0). -/

theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 2) = t.val ∧ win5_1.index t (1 : Fin 2) = 0 :=
  (by decide +kernel : ∀ t : Fin grid5.N, _)
theorem idx2 : ∀ t : Fin cfg5.N, win5_2.index t (0 : Fin 2) = t.val ∧ win5_2.index t (1 : Fin 2) = 0 :=
  (by decide +kernel : ∀ t : Fin grid5.N, _)
theorem idx3 : ∀ t : Fin cfg5.N, win5_3.index t (0 : Fin 2) = t.val ∧ win5_3.index t (1 : Fin 2) = 0 :=
  (by decide +kernel : ∀ t : Fin grid5.N, _)
theorem idx4 : ∀ t : Fin cfg5.N, win5_4.index t (0 : Fin 2) = t.val ∧ win5_4.index t (1 : Fin 2) = 0 :=
  (by decide +kernel : ∀ t : Fin grid5.N, _)
theorem idx17 : ∀ t : Fin cfg5.N, win5_17.index t (0 : Fin 2) = t.val ∧ win5_17.index t (1 : Fin 2) = 0 :=
  (by decide +kernel : ∀ t : Fin grid5.N, _)
theorem idx18 : ∀ t : Fin cfg5.N, win5_18.index t (0 : Fin 2) = t.val ∧ win5_18.index t (1 : Fin 2) = 0 :=
  (by decide +kernel : ∀ t : Fin grid5.N, _)
theorem idx5 : ∀ t : Fin cfg5.N, win5_5.index t (0 : Fin 2) = 0 ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)
theorem idx7 : ∀ t : Fin cfg5.N, win5_7.index t (0 : Fin 2) = 0 ∧ win5_7.index t (1 : Fin 2) = 0 :=
  (by decide +kernel : ∀ t : Fin grid5.N, _)
theorem idx8 : ∀ t : Fin cfg5.N, win5_8.index t (0 : Fin 2) = 0 ∧ win5_8.index t (1 : Fin 2) = 0 :=
  (by decide +kernel : ∀ t : Fin grid5.N, _)
theorem idx9 : ∀ t : Fin cfg5.N, win5_9.index t (0 : Fin 2) = 0 ∧ win5_9.index t (1 : Fin 2) = 0 :=
  (by decide +kernel : ∀ t : Fin grid5.N, _)
theorem idx10 : ∀ t : Fin cfg5.N, win5_10.index t (0 : Fin 2) = 0 ∧ win5_10.index t (1 : Fin 2) = 0 :=
  (by decide +kernel : ∀ t : Fin grid5.N, _)
theorem idx11 : ∀ t : Fin cfg5.N, win5_11.index t (0 : Fin 2) = 0 ∧ win5_11.index t (1 : Fin 2) = 0 :=
  (by decide +kernel : ∀ t : Fin grid5.N, _)
theorem idx12 : ∀ t : Fin cfg5.N, win5_12.index t (0 : Fin 2) = 0 ∧ win5_12.index t (1 : Fin 2) = 0 :=
  (by decide +kernel : ∀ t : Fin grid5.N, _)
theorem idx13 : ∀ t : Fin cfg5.N, win5_13.index t (0 : Fin 2) = 0 ∧ win5_13.index t (1 : Fin 2) = 0 :=
  (by decide +kernel : ∀ t : Fin grid5.N, _)
theorem idx14 : ∀ t : Fin cfg5.N, win5_14.index t (0 : Fin 2) = 0 ∧ win5_14.index t (1 : Fin 2) = 0 :=
  (by decide +kernel : ∀ t : Fin grid5.N, _)
theorem idx15 : ∀ t : Fin cfg5.N, win5_15.index t (0 : Fin 2) = 0 ∧ win5_15.index t (1 : Fin 2) = 0 :=
  (by decide +kernel : ∀ t : Fin grid5.N, _)
theorem idx16 : ∀ t : Fin cfg5.N, win5_16.index t (0 : Fin 2) = 0 ∧ win5_16.index t (1 : Fin 2) = 0 :=
  (by decide +kernel : ∀ t : Fin grid5.N, _)

/-! ## The blocks the body reads

A block's entry sits in its array, on each axis, at the block index times the block's extent plus the entry's own
coordinate. So entry (p, k) of block t of a row array is the array's entry (512 t + p, k), and the one block of a weight
half or of a bias row is the array itself. -/

section Reads

variable (V : (c : Dev nD) → (b : Ref sig .tc) → Buf (Elt Ideal) ((c : Thread nD τ).loc b))
variable (c : Dev nD) (t : Fin cfg5.N)

/-- Block t of x, at an entry. -/
theorem read_x (y : S512x512.Idx) (i : S512x512.Idx) (h0 : (i 0).val = t.val * 512 + (y 0).val) (h1 : (i 1).val = (y 1).val) :
    (iblk5 V c 0 t : Vec Ideal S512x512 .f32) y = (V c main_v108 : S512x512.Idx → EReal) i := by
  obtain ⟨e0, e1⟩ := idx0 t
  unfold iblk5
  rw [View.read_apply]
  show V c main_v108 _ = V c main_v108 _
  refine congrArg (V c main_v108) (funext fun a => Fin.ext ?_)
  match a with
  | ⟨0, _⟩ => show win5_0.index t (0 : Fin 2) * 512 + 1 * (y 0).val = (i 0).val; omega
  | ⟨1, _⟩ => show win5_0.index t (1 : Fin 2) * 512 + 1 * (y 1).val = (i 1).val; omega

/-- Block t of the left children's h, at an entry. -/
theorem read_hl (y : S512x512.Idx) (i : S512x512.Idx) (h0 : (i 0).val = t.val * 512 + (y 0).val) (h1 : (i 1).val = (y 1).val) :
    (iblk5 V c 1 t : Vec Ideal S512x512 .f32) y = (V c main_v114 : S512x512.Idx → EReal) i := by
  obtain ⟨e0, e1⟩ := idx1 t
  unfold iblk5
  rw [View.read_apply]
  show V c main_v114 _ = V c main_v114 _
  refine congrArg (V c main_v114) (funext fun a => Fin.ext ?_)
  match a with
  | ⟨0, _⟩ => show win5_1.index t (0 : Fin 2) * 512 + 1 * (y 0).val = (i 0).val; omega
  | ⟨1, _⟩ => show win5_1.index t (1 : Fin 2) * 512 + 1 * (y 1).val = (i 1).val; omega

/-- Block t of the right children's h, at an entry. -/
theorem read_hr (y : S512x512.Idx) (i : S512x512.Idx) (h0 : (i 0).val = t.val * 512 + (y 0).val) (h1 : (i 1).val = (y 1).val) :
    (iblk5 V c 2 t : Vec Ideal S512x512 .f32) y = (V c main_v116 : S512x512.Idx → EReal) i := by
  obtain ⟨e0, e1⟩ := idx2 t
  unfold iblk5
  rw [View.read_apply]
  show V c main_v116 _ = V c main_v116 _
  refine congrArg (V c main_v116) (funext fun a => Fin.ext ?_)
  match a with
  | ⟨0, _⟩ => show win5_2.index t (0 : Fin 2) * 512 + 1 * (y 0).val = (i 0).val; omega
  | ⟨1, _⟩ => show win5_2.index t (1 : Fin 2) * 512 + 1 * (y 1).val = (i 1).val; omega

/-- Block t of the left children's c, at an entry. -/
theorem read_cl (y : S512x512.Idx) (i : S512x512.Idx) (h0 : (i 0).val = t.val * 512 + (y 0).val) (h1 : (i 1).val = (y 1).val) :
    (iblk5 V c 3 t : Vec Ideal S512x512 .f32) y = (V c main_v118 : S512x512.Idx → EReal) i := by
  obtain ⟨e0, e1⟩ := idx3 t
  unfold iblk5
  rw [View.read_apply]
  show V c main_v118 _ = V c main_v118 _
  refine congrArg (V c main_v118) (funext fun a => Fin.ext ?_)
  match a with
  | ⟨0, _⟩ => show win5_3.index t (0 : Fin 2) * 512 + 1 * (y 0).val = (i 0).val; omega
  | ⟨1, _⟩ => show win5_3.index t (1 : Fin 2) * 512 + 1 * (y 1).val = (i 1).val; omega

/-- Block t of the right children's c, at an entry. -/
theorem read_cr (y : S512x512.Idx) (i : S512x512.Idx) (h0 : (i 0).val = t.val * 512 + (y 0).val) (h1 : (i 1).val = (y 1).val) :
    (iblk5 V c 4 t : Vec Ideal S512x512 .f32) y = (V c main_v120 : S512x512.Idx → EReal) i := by
  obtain ⟨e0, e1⟩ := idx4 t
  unfold iblk5
  rw [View.read_apply]
  show V c main_v120 _ = V c main_v120 _
  refine congrArg (V c main_v120) (funext fun a => Fin.ext ?_)
  match a with
  | ⟨0, _⟩ => show win5_4.index t (0 : Fin 2) * 512 + 1 * (y 0).val = (i 0).val; omega
  | ⟨1, _⟩ => show win5_4.index t (1 : Fin 2) * 512 + 1 * (y 1).val = (i 1).val; omega

/-- The one block of the input gate's weights over x is the array. -/
theorem read_wix : (iblk5 V c 5 t : Vec Ideal S512x512 .bf16) = (V c main_v2 : S512x512.Idx → EReal) := by
  obtain ⟨e0, e1⟩ := idx5 t
  funext y
  unfold iblk5
  rw [View.read_apply]
  show V c main_v2 _ = V c main_v2 y
  refine congrArg (V c main_v2) (funext fun a => Fin.ext ?_)
  match a with
  | ⟨0, _⟩ => show win5_5.index t (0 : Fin 2) * 512 + 1 * (y 0).val = (y 0).val; omega
  | ⟨1, _⟩ => show win5_5.index t (1 : Fin 2) * 512 + 1 * (y 1).val = (y 1).val; omega

/-- The one block of the input gate's weights over h is the array. -/
theorem read_wih : (iblk5 V c 6 t : Vec Ideal S512x512 .bf16) = (V c main_v5 : S512x512.Idx → EReal) := by
  obtain ⟨e0, e1⟩ := idx6 t
  funext y
  unfold iblk5
  rw [View.read_apply]
  show V c main_v5 _ = V c main_v5 y
  refine congrArg (V c main_v5) (funext fun a => Fin.ext ?_)
  match a with
  | ⟨0, _⟩ => show win5_6.index t (0 : Fin 2) * 512 + 1 * (y 0).val = (y 0).val; omega
  | ⟨1, _⟩ => show win5_6.index t (1 : Fin 2) * 512 + 1 * (y 1).val = (y 1).val; omega

/-- The one block of the forget gates' weights over x is the array. -/
theorem read_wfx : (iblk5 V c 7 t : Vec Ideal S512x512 .bf16) = (V c main_v8 : S512x512.Idx → EReal) := by
  obtain ⟨e0, e1⟩ := idx7 t
  funext y
  unfold iblk5
  rw [View.read_apply]
  show V c main_v8 _ = V c main_v8 y
  refine congrArg (V c main_v8) (funext fun a => Fin.ext ?_)
  match a with
  | ⟨0, _⟩ => show win5_7.index t (0 : Fin 2) * 512 + 1 * (y 0).val = (y 0).val; omega
  | ⟨1, _⟩ => show win5_7.index t (1 : Fin 2) * 512 + 1 * (y 1).val = (y 1).val; omega

/-- The one block of the forget gates' weights over h is the array. -/
theorem read_wfh : (iblk5 V c 8 t : Vec Ideal S512x512 .bf16) = (V c main_v11 : S512x512.Idx → EReal) := by
  obtain ⟨e0, e1⟩ := idx8 t
  funext y
  unfold iblk5
  rw [View.read_apply]
  show V c main_v11 _ = V c main_v11 y
  refine congrArg (V c main_v11) (funext fun a => Fin.ext ?_)
  match a with
  | ⟨0, _⟩ => show win5_8.index t (0 : Fin 2) * 512 + 1 * (y 0).val = (y 0).val; omega
  | ⟨1, _⟩ => show win5_8.index t (1 : Fin 2) * 512 + 1 * (y 1).val = (y 1).val; omega

/-- The one block of the output gate's weights over x is the array. -/
theorem read_wox : (iblk5 V c 9 t : Vec Ideal S512x512 .bf16) = (V c main_v14 : S512x512.Idx → EReal) := by
  obtain ⟨e0, e1⟩ := idx9 t
  funext y
  unfold iblk5
  rw [View.read_apply]
  show V c main_v14 _ = V c main_v14 y
  refine congrArg (V c main_v14) (funext fun a => Fin.ext ?_)
  match a with
  | ⟨0, _⟩ => show win5_9.index t (0 : Fin 2) * 512 + 1 * (y 0).val = (y 0).val; omega
  | ⟨1, _⟩ => show win5_9.index t (1 : Fin 2) * 512 + 1 * (y 1).val = (y 1).val; omega

/-- The one block of the output gate's weights over h is the array. -/
theorem read_woh : (iblk5 V c 10 t : Vec Ideal S512x512 .bf16) = (V c main_v17 : S512x512.Idx → EReal) := by
  obtain ⟨e0, e1⟩ := idx10 t
  funext y
  unfold iblk5
  rw [View.read_apply]
  show V c main_v17 _ = V c main_v17 y
  refine congrArg (V c main_v17) (funext fun a => Fin.ext ?_)
  match a with
  | ⟨0, _⟩ => show win5_10.index t (0 : Fin 2) * 512 + 1 * (y 0).val = (y 0).val; omega
  | ⟨1, _⟩ => show win5_10.index t (1 : Fin 2) * 512 + 1 * (y 1).val = (y 1).val; omega

/-- The one block of the update gate's weights over x is the array. -/
theorem read_wux : (iblk5 V c 11 t : Vec Ideal S512x512 .bf16) = (V c main_v20 : S512x512.Idx → EReal) := by
  obtain ⟨e0, e1⟩ := idx11 t
  funext y
  unfold iblk5
  rw [View.read_apply]
  show V c main_v20 _ = V c main_v20 y
  refine congrArg (V c main_v20) (funext fun a => Fin.ext ?_)
  match a with
  | ⟨0, _⟩ => show win5_11.index t (0 : Fin 2) * 512 + 1 * (y 0).val = (y 0).val; omega
  | ⟨1, _⟩ => show win5_11.index t (1 : Fin 2) * 512 + 1 * (y 1).val = (y 1).val; omega

/-- The one block of the update gate's weights over h is the array. -/
theorem read_wuh : (iblk5 V c 12 t : Vec Ideal S512x512 .bf16) = (V c main_v23 : S512x512.Idx → EReal) := by
  obtain ⟨e0, e1⟩ := idx12 t
  funext y
  unfold iblk5
  rw [View.read_apply]
  show V c main_v23 _ = V c main_v23 y
  refine congrArg (V c main_v23) (funext fun a => Fin.ext ?_)
  match a with
  | ⟨0, _⟩ => show win5_12.index t (0 : Fin 2) * 512 + 1 * (y 0).val = (y 0).val; omega
  | ⟨1, _⟩ => show win5_12.index t (1 : Fin 2) * 512 + 1 * (y 1).val = (y 1).val; omega

/-- The one block of the input gate's bias row is the array. -/
theorem read_bi : (iblk5 V c 13 t : Vec Ideal S1x512 .f32) = (V c main_v24 : S1x512.Idx → EReal) := by
  obtain ⟨e0, e1⟩ := idx13 t
  funext y
  unfold iblk5
  rw [View.read_apply]
  show V c main_v24 _ = V c main_v24 y
  refine congrArg (V c main_v24) (funext fun a => Fin.ext ?_)
  match a with
  | ⟨0, _⟩ => show win5_13.index t (0 : Fin 2) * 1 + 1 * (y 0).val = (y 0).val; omega
  | ⟨1, _⟩ => show win5_13.index t (1 : Fin 2) * 512 + 1 * (y 1).val = (y 1).val; omega

/-- The one block of the forget gates' bias row is the array. -/
theorem read_bf : (iblk5 V c 14 t : Vec Ideal S1x512 .f32) = (V c main_v25 : S1x512.Idx → EReal) := by
  obtain ⟨e0, e1⟩ := idx14 t
  funext y
  unfold iblk5
  rw [View.read_apply]
  show V c main_v25 _ = V c main_v25 y
  refine congrArg (V c main_v25) (funext fun a => Fin.ext ?_)
  match a with
  | ⟨0, _⟩ => show win5_14.index t (0 : Fin 2) * 1 + 1 * (y 0).val = (y 0).val; omega
  | ⟨1, _⟩ => show win5_14.index t (1 : Fin 2) * 512 + 1 * (y 1).val = (y 1).val; omega

/-- The one block of the output gate's bias row is the array. -/
theorem read_bo : (iblk5 V c 15 t : Vec Ideal S1x512 .f32) = (V c main_v26 : S1x512.Idx → EReal) := by
  obtain ⟨e0, e1⟩ := idx15 t
  funext y
  unfold iblk5
  rw [View.read_apply]
  show V c main_v26 _ = V c main_v26 y
  refine congrArg (V c main_v26) (funext fun a => Fin.ext ?_)
  match a with
  | ⟨0, _⟩ => show win5_15.index t (0 : Fin 2) * 1 + 1 * (y 0).val = (y 0).val; omega
  | ⟨1, _⟩ => show win5_15.index t (1 : Fin 2) * 512 + 1 * (y 1).val = (y 1).val; omega

/-- The one block of the update gate's bias row is the array. -/
theorem read_bu : (iblk5 V c 16 t : Vec Ideal S1x512 .f32) = (V c main_v27 : S1x512.Idx → EReal) := by
  obtain ⟨e0, e1⟩ := idx16 t
  funext y
  unfold iblk5
  rw [View.read_apply]
  show V c main_v27 _ = V c main_v27 y
  refine congrArg (V c main_v27) (funext fun a => Fin.ext ?_)
  match a with
  | ⟨0, _⟩ => show win5_16.index t (0 : Fin 2) * 1 + 1 * (y 0).val = (y 0).val; omega
  | ⟨1, _⟩ => show win5_16.index t (1 : Fin 2) * 512 + 1 * (y 1).val = (y 1).val; omega

end Reads

/-! ## The block body -/

/-- What a block body of 512 rows carries besides its arrays. -/
def ctx : Cert.Tree.BodyCtx 512 :=
  ⟨dot_S512x512_S512x512_S512x512_1_0_0_1_n_n, rfl, shapeCasts_S512x512_S512x512, shapeCasts_S512x512_S512x512,
    shapeCasts_S1x512_S1x512, broadcasts_S1x512_S512x512, bitsLt_bf16_f32⟩

section Body

variable {F : FTy → Type} [FloatOps F]

/-- The value the body stores into its h block is the tree cell's h block of the seventeen blocks it loads. -/
theorem bodyH_eq (x0 x1 x2 x3 x4 : Vec F S512x512 .f32) (x5 x6 x7 x8 x9 x10 x11 x12 : Vec F S512x512 .bf16)
    (x13 x14 x15 x16 : Vec F S1x512 .f32) :
    k5_pay2 (k5_pay6 x3) (k5_pay7 x4) (k5_pay13 (k5_pay11 x0 x1 x2 x5 x6 x13)) (k5_pay14 (k5_pay12 x0 x1 x2 x9 x10) x15)
      (k5_pay15 (k5_pay3 x0) (k5_pay8 x1 x2) x11 x12 x16) (k5_pay17 (k5_pay3 x0) (k5_pay9 x1) x7 x8 x14)
      (k5_pay18 (k5_pay3 x0) (k5_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S512x512 .f32) (x5 x6 x7 x8 x9 x10 x11 x12 : Vec F S512x512 .bf16)
    (x13 x14 x15 x16 : Vec F S1x512 .f32) :
    k5_pay1 (k5_pay6 x3) (k5_pay7 x4) (k5_pay13 (k5_pay11 x0 x1 x2 x5 x6 x13))
      (k5_pay15 (k5_pay3 x0) (k5_pay8 x1 x2) x11 x12 x16) (k5_pay17 (k5_pay3 x0) (k5_pay9 x1) x7 x8 x14)
      (k5_pay18 (k5_pay3 x0) (k5_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S512x512 .f32) (x5 x6 x7 x8 x9 x10 x11 x12 : Vec Ideal S512x512 .bf16)
    (x13 x14 x15 x16 : Vec Ideal S1x512 .f32)
    (X HL HR CL CR : S512x512.Idx → EReal) (w5 w6 w7 w8 w9 w10 w11 w12 : S512x512.Idx → EReal)
    (b13 b14 b15 b16 : S1x512.Idx → EReal) (p : Fin 512) (r : Fin 512) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k5_pay2 (k5_pay6 x3) (k5_pay7 x4) (k5_pay13 (k5_pay11 x0 x1 x2 x5 x6 x13)) (k5_pay14 (k5_pay12 x0 x1 x2 x9 x10) x15)
      (k5_pay15 (k5_pay3 x0) (k5_pay8 x1 x2) x11 x12 x16) (k5_pay17 (k5_pay3 x0) (k5_pay9 x1) x7 x8 x14)
      (k5_pay18 (k5_pay3 x0) (k5_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S512x512 .f32) (x5 x6 x7 x8 x9 x10 x11 x12 : Vec Ideal S512x512 .bf16)
    (x13 x14 x15 x16 : Vec Ideal S1x512 .f32)
    (X HL HR CL CR : S512x512.Idx → EReal) (w5 w6 w7 w8 w9 w10 w11 w12 : S512x512.Idx → EReal)
    (b13 b14 b15 b16 : S1x512.Idx → EReal) (p : Fin 512) (r : Fin 512) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k5_pay1 (k5_pay6 x3) (k5_pay7 x4) (k5_pay13 (k5_pay11 x0 x1 x2 x5 x6 x13))
      (k5_pay15 (k5_pay3 x0) (k5_pay8 x1 x2) x11 x12 x16) (k5_pay17 (k5_pay3 x0) (k5_pay9 x1) x7 x8 x14)
      (k5_pay18 (k5_pay3 x0) (k5_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S512x512.Idx → EReal :=
  Cert.Tree.levelH (n := 512) (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S512x512.Idx → EReal :=
  Cert.Tree.levelC (n := 512) (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg5.N) :
    (dat5 V c).flushed 17 t = ((cfg5.win 17).blk t).view.read (Elt Ideal) (GH V c) := by
  show (cfg5.win 17).cut (grid5.coords t) ((dat5 V c).after 17 t) = _
  rw [after5_17]
  unfold out5_17
  rw [View.canon_unit_zero Cert.LibBlocks.off2_zero]
  simp only [View.ld_unit_zero (S := S512x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 512) (q : Fin 512), j = ix2 p q := ⟨j 0, j 1, eq_ix2 j⟩
  have hp : p.val < 512 := p.isLt
  have ht : t.val < cfg5.N := t.isLt
  have hN : cfg5.N * 512 = 512 := points_rows
  have hr : t.val * 512 + p.val < 512 := by omega
  obtain ⟨e0, e1⟩ := idx17 t
  refine Eq.trans (b := GH V c (ix2 (⟨t.val * 512 + p.val, hr⟩ : Fin 512) q)) ?_ ?_
  · exact bodyH_at (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t)
      (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27)
      p ⟨t.val * 512 + p.val, hr⟩ q
      (fun k => read_x V c t (ix2 p k) (ix2 ⟨t.val * 512 + p.val, hr⟩ k) rfl rfl)
      (fun k => read_hl V c t (ix2 p k) (ix2 ⟨t.val * 512 + p.val, hr⟩ k) rfl rfl)
      (fun k => read_hr V c t (ix2 p k) (ix2 ⟨t.val * 512 + p.val, hr⟩ k) rfl rfl)
      (read_cl V c t (ix2 p q) (ix2 ⟨t.val * 512 + p.val, hr⟩ q) rfl rfl)
      (read_cr V c t (ix2 p q) (ix2 ⟨t.val * 512 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg5.win 17).blk t).view.emb (ix2 p q))
    refine congrArg (GH V c) (funext fun a => Fin.ext ?_)
    match a with
    | ⟨0, _⟩ => show t.val * 512 + p.val = win5_17.index t (0 : Fin 2) * 512 + 1 * p.val; omega
    | ⟨1, _⟩ => show q.val = win5_17.index t (1 : Fin 2) * 512 + 1 * q.val; omega

/-- An entry of the h array is in point t's block iff each coordinate is in the block's range on its axis. -/
theorem mem_blkH (t : Fin cfg5.N) (i : S512x512.Idx) :
    i ∈ ((cfg5.win 17).blk t).view.set ↔ ∀ a : Fin 2, win5_17.index t a * S512x512.size a ≤ (i a).val
      ∧ (i a).val < win5_17.index t a * S512x512.size a + S512x512.size a := by
  show i ∈ ((View.whole main_v121_0).slice (win5_17.rect t)).set ↔ _
  rw [View.set_slice_whole, Rect.mem_set_unit]
  exact Iff.rfl

/-- The blocks tile the h array: row r is in the block of point r / 512. -/
theorem coverH (i : S512x512.Idx) :
    ∃ t : Fin cfg5.N, (cfg5.win 17).flush t = true ∧ i ∈ ((cfg5.win 17).blk t).view.set := by
  have hi0 : (i 0).val < 512 := (i 0).isLt
  have hi1 : (i 1).val < 512 := (i 1).isLt
  have hN : cfg5.N * 512 = 512 := points_rows
  obtain ⟨hq, hlo, hhi⟩ := Cert.LibBlocks.row_in_block (nb := cfg5.N) (bs := 512) (r := (i 0).val) (by omega) (by omega)
  obtain ⟨e0, e1⟩ := idx17 (⟨(i 0).val / 512, hq⟩ : Fin cfg5.N)
  refine ⟨⟨(i 0).val / 512, hq⟩, flush5_17 _, ?_⟩
  rw [mem_blkH]
  intro a
  match a with
  | ⟨0, _⟩ =>
    show win5_17.index ⟨(i 0).val / 512, hq⟩ (0 : Fin 2) * 512 ≤ (i 0).val
      ∧ (i 0).val < win5_17.index ⟨(i 0).val / 512, hq⟩ (0 : Fin 2) * 512 + 512
    rw [e0]
    exact ⟨hlo, hhi⟩
  | ⟨1, _⟩ =>
    show win5_17.index ⟨(i 0).val / 512, hq⟩ (1 : Fin 2) * 512 ≤ (i 1).val
      ∧ (i 1).val < win5_17.index ⟨(i 0).val / 512, hq⟩ (1 : Fin 2) * 512 + 512
    omega

/-- What point t writes back to the c array is block t of the level's c. -/
theorem flushedC (c : Dev nD) (t : Fin cfg5.N) :
    (dat5 V c).flushed 18 t = ((cfg5.win 18).blk t).view.read (Elt Ideal) (GC V c) := by
  show (cfg5.win 18).cut (grid5.coords t) ((dat5 V c).after 18 t) = _
  rw [after5_18]
  unfold out5_18
  rw [View.canon_unit_zero Cert.LibBlocks.off2_zero]
  simp only [View.ld_unit_zero (S := S512x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 512) (q : Fin 512), j = ix2 p q := ⟨j 0, j 1, eq_ix2 j⟩
  have hp : p.val < 512 := p.isLt
  have ht : t.val < cfg5.N := t.isLt
  have hN : cfg5.N * 512 = 512 := points_rows
  have hr : t.val * 512 + p.val < 512 := by omega
  obtain ⟨e0, e1⟩ := idx18 t
  refine Eq.trans (b := GC V c (ix2 (⟨t.val * 512 + p.val, hr⟩ : Fin 512) q)) ?_ ?_
  · exact bodyC_at (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t)
      (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27)
      p ⟨t.val * 512 + p.val, hr⟩ q
      (fun k => read_x V c t (ix2 p k) (ix2 ⟨t.val * 512 + p.val, hr⟩ k) rfl rfl)
      (fun k => read_hl V c t (ix2 p k) (ix2 ⟨t.val * 512 + p.val, hr⟩ k) rfl rfl)
      (fun k => read_hr V c t (ix2 p k) (ix2 ⟨t.val * 512 + p.val, hr⟩ k) rfl rfl)
      (read_cl V c t (ix2 p q) (ix2 ⟨t.val * 512 + p.val, hr⟩ q) rfl rfl)
      (read_cr V c t (ix2 p q) (ix2 ⟨t.val * 512 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg5.win 18).blk t).view.emb (ix2 p q))
    refine congrArg (GC V c) (funext fun a => Fin.ext ?_)
    match a with
    | ⟨0, _⟩ => show t.val * 512 + p.val = win5_18.index t (0 : Fin 2) * 512 + 1 * p.val; omega
    | ⟨1, _⟩ => show q.val = win5_18.index t (1 : Fin 2) * 512 + 1 * q.val; omega

/-- An entry of the c array is in point t's block iff each coordinate is in the block's range on its axis. -/
theorem mem_blkC (t : Fin cfg5.N) (i : S512x512.Idx) :
    i ∈ ((cfg5.win 18).blk t).view.set ↔ ∀ a : Fin 2, win5_18.index t a * S512x512.size a ≤ (i a).val
      ∧ (i a).val < win5_18.index t a * S512x512.size a + S512x512.size a := by
  show i ∈ ((View.whole main_v121_1).slice (win5_18.rect t)).set ↔ _
  rw [View.set_slice_whole, Rect.mem_set_unit]
  exact Iff.rfl

/-- The blocks tile the c array: row r is in the block of point r / 512. -/
theorem coverC (i : S512x512.Idx) :
    ∃ t : Fin cfg5.N, (cfg5.win 18).flush t = true ∧ i ∈ ((cfg5.win 18).blk t).view.set := by
  have hi0 : (i 0).val < 512 := (i 0).isLt
  have hi1 : (i 1).val < 512 := (i 1).isLt
  have hN : cfg5.N * 512 = 512 := points_rows
  obtain ⟨hq, hlo, hhi⟩ := Cert.LibBlocks.row_in_block (nb := cfg5.N) (bs := 512) (r := (i 0).val) (by omega) (by omega)
  obtain ⟨e0, e1⟩ := idx18 (⟨(i 0).val / 512, hq⟩ : Fin cfg5.N)
  refine ⟨⟨(i 0).val / 512, hq⟩, flush5_18 _, ?_⟩
  rw [mem_blkC]
  intro a
  match a with
  | ⟨0, _⟩ =>
    show win5_18.index ⟨(i 0).val / 512, hq⟩ (0 : Fin 2) * 512 ≤ (i 0).val
      ∧ (i 0).val < win5_18.index ⟨(i 0).val / 512, hq⟩ (0 : Fin 2) * 512 + 512
    rw [e0]
    exact ⟨hlo, hhi⟩
  | ⟨1, _⟩ =>
    show win5_18.index ⟨(i 0).val / 512, hq⟩ (1 : Fin 2) * 512 ≤ (i 1).val
      ∧ (i 1).val < win5_18.index ⟨(i 0).val / 512, hq⟩ (1 : Fin 2) * 512 + 512
    omega

/-- After the region the h array holds the level's h of the seventeen arrays as the region finds them. -/
theorem arrH (c : Dev nD) :
    (dat5 (F := Ideal) V c).arrAt 17 cfg5.N
      = Cert.Tree.levelH (n := 512) (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27) :=
  (dat5 V c).arrAt_eq_of_cover 17 (GH V c) (fun t _ => flushedH V c t) coverH

/-- After the region the c array holds the level's c of the seventeen arrays as the region finds them. -/
theorem arrC (c : Dev nD) :
    (dat5 (F := Ideal) V c).arrAt 18 cfg5.N
      = Cert.Tree.levelC (n := 512) (V c main_v108) (V c main_v114) (V c main_v116) (V c main_v118) (V c main_v120) (V c main_v2) (V c main_v5) (V c main_v8) (V c main_v11) (V c main_v14) (V c main_v17) (V c main_v20) (V c main_v23) (V c main_v24) (V c main_v25) (V c main_v26) (V c main_v27) :=
  (dat5 V c).arrAt_eq_of_cover 18 (GC V c) (fun t _ => flushedC V c t) coverC

end Arrays

end Cert.KernelIdeal.Reg5

end
-- ==== Proof.RStep5.lean ====
/-
  The reference's level of 512 nodes (heap rows 511 … 1022), read off its run's named buffers: the h and c heap
  arrays after the level are the arrays before it with the level's rows replaced by the level function of the x rows
  and of the children's rows (the even and odd rows of heap rows 1023 … 2046 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx5 : Cert.Tree.HostCtx 512 :=
  ⟨dot_S512x1024_S1024x512_S512x512_1_0_0_1_n_n, rfl, concatenates_S512x512_S512x512_S512x1024_d1,
    transposes_S512x1024_S1024x512_1_0, bcast_S512_S1x512_1, bcast_S1x512_S512x512_0_1, bcast_S_S512x512⟩

variable (V0 : Valuation τ sig (Elt Ideal))

/-- The level's x rows. -/
abbrev xl5 : Vec Ideal S512x512 .f32 :=
  extractStridedSlice S512x512 ![511, 0] (V0 (Proc.devRef .tc main_arg0)) slices_S32767x512_S512x512_511_0

/-- The left (even) and right (odd) children's rows of a heap array. -/
abbrev childL5 (A : Vec Ideal S32767x512 .f32) : Vec Ideal S512x512 .f32 :=
  shapeCast _ (extractStridedSlice S512x1x512 ![0, 0, 0] (shapeCast _ (extractStridedSlice S1024x512 ![1023, 0] A slices_S32767x512_S1024x512_1023_0) shapeCasts_S1024x512_S512x2x512) slices_S512x2x512_S512x1x512_0_0_0) shapeCasts_S512x1x512_S512x512

abbrev childR5 (A : Vec Ideal S32767x512 .f32) : Vec Ideal S512x512 .f32 :=
  shapeCast _ (extractStridedSlice S512x1x512 ![0, 1, 0] (shapeCast _ (extractStridedSlice S1024x512 ![1023, 0] A slices_S32767x512_S1024x512_1023_0) shapeCasts_S1024x512_S512x2x512) slices_S512x2x512_S512x1x512_0_1_0) shapeCasts_S512x1x512_S512x512

theorem stepC5 : res_main_v429 V0
    = Host.scatter scatter_S32767x512_S1_S512x512_01_n_0_0 (fun _ b => b) (res_main_v351 V0) (broadcastInDim S1 ![] bcast_S_S1 (constantI S_ 32 511#32))
        (Cert.Tree.hostLevelC ctx5 (xl5 V0) (childL5 (res_main_v349 V0)) (childR5 (res_main_v349 V0)) (childL5 (res_main_v351 V0)) (childR5 (res_main_v351 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v429 res_main_v423 res_main_v362 res_main_v358 res_main_v360 res_main_v354 res_main_v356 res_main_v352
  rfl

theorem stepH5 : res_main_v427 V0
    = Host.scatter scatter_S32767x512_S1_S512x512_01_n_0_0 (fun _ b => b) (res_main_v349 V0) (broadcastInDim S1 ![] bcast_S_S1 (constantI S_ 32 511#32))
        (Cert.Tree.hostLevelH ctx5 (xl5 V0) (childL5 (res_main_v349 V0)) (childR5 (res_main_v349 V0)) (childL5 (res_main_v351 V0)) (childR5 (res_main_v351 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v427 res_main_v423 res_main_v362 res_main_v358 res_main_v360 res_main_v354 res_main_v356 res_main_v352
  rfl

end Cert.ReferenceIdeal.Chain

end
-- ==== Proof.Bridge5.lean ====
/-
  The level of 512 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep5
import proofs.«110311_j37117107372689_1_alg».proof.Proof.KReg5
import proofs.«110311_j37117107372689_1_alg».proof.Proof.RStep5
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 512 nodes, they agree after it. -/
theorem level5 (hA : Agree m V0 c)
    (hH : Cert.KernelIdeal.Gen.W11 m ρ c (Proc.devRef .tc Cert.KernelIdeal.main_v105) = Cert.ReferenceIdeal.Value.res_main_v349 V0)
    (hC : Cert.KernelIdeal.Gen.W11 m ρ c (Proc.devRef .tc Cert.KernelIdeal.main_v107) = Cert.ReferenceIdeal.Value.res_main_v351 V0) :
    Cert.KernelIdeal.Gen.W13 m ρ c (Proc.devRef .tc Cert.KernelIdeal.main_v123) = Cert.ReferenceIdeal.Value.res_main_v427 V0
      ∧ Cert.KernelIdeal.Gen.W13 m ρ c (Proc.devRef .tc Cert.KernelIdeal.main_v125) = Cert.ReferenceIdeal.Value.res_main_v429 V0 := by
  constructor
  · rw [Cert.KernelIdeal.Chain.stepH5 m ρ c (Cert.KernelIdeal.Reg5.arrH (Cert.KernelIdeal.Gen.V11 m ρ) c),
      Cert.ReferenceIdeal.Chain.stepH5 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC5 m ρ c (Cert.KernelIdeal.Reg5.arrC (Cert.KernelIdeal.Gen.V11 m ρ) c),
      Cert.ReferenceIdeal.Chain.stepC5 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep6.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 6: what its scatters leave in the two heap arrays

The host stretch before the region cuts the level's 256 rows of node features out of the argument and, out of each
heap array (hidden states, cell states), the 512 rows of the level below, which it pairs up: row p's left child is
the pair's first member and its right child the second. The region computes the level's hidden and cell rows from
these five arrays and the twelve weight and bias buffers; the host stretch after it scatters the two results into the
heap arrays at row 255. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat6_h : StableHlo.after hostOps7 W (Proc.devRef .tc main_v141)
    = Host.scatter scatter_S32767x512_S1_S256x512_01_n_0_0 (fun _ b => b) (W (Proc.devRef .tc main_v123))
        (broadcastInDim S1 ![] bcast_S_S1 (constantI S_ 32 255#32)) (W (Proc.devRef .tc main_v139_0)) := by
  after_results
  rfl

/-- And the new cell heap: the old one with the region's second output scattered in. -/
theorem scat6_c : StableHlo.after hostOps7 W (Proc.devRef .tc main_v143)
    = Host.scatter scatter_S32767x512_S1_S256x512_01_n_0_0 (fun _ b => b) (W (Proc.devRef .tc main_v125))
        (broadcastInDim S1 ![] bcast_S_S1 (constantI S_ 32 255#32)) (W (Proc.devRef .tc main_v139_1)) := by
  after_results
  rfl

/-- The stretch before the region: the level's rows of node features. -/
theorem cut6_x : StableHlo.after hostOps6 W (Proc.devRef .tc main_v126)
    = extractStridedSlice S256x512 ![255, 0] (W (Proc.devRef .tc main_arg0)) slices_S32767x512_S256x512_255_0 := by
  after_results

/-- The left children's hidden rows, out of the hidden heap as this stretch itself leaves it. -/
theorem cut6_hl : StableHlo.after hostOps6 W (Proc.devRef .tc main_v132)
    = shapeCast _ (extractStridedSlice S256x1x512 ![0, 0, 0] (shapeCast _ (extractStridedSlice S512x512 ![511, 0] (StableHlo.after hostOps6 W (Proc.devRef .tc main_v123)) slices_S32767x512_S512x512_511_0) shapeCasts_S512x512_S256x2x512) slices_S256x2x512_S256x1x512_0_0_0) shapeCasts_S256x1x512_S256x512 := by
  after_results_simp
  rfl

/-- The right children's hidden rows. -/
theorem cut6_hr : StableHlo.after hostOps6 W (Proc.devRef .tc main_v134)
    = shapeCast _ (extractStridedSlice S256x1x512 ![0, 1, 0] (shapeCast _ (extractStridedSlice S512x512 ![511, 0] (StableHlo.after hostOps6 W (Proc.devRef .tc main_v123)) slices_S32767x512_S512x512_511_0) shapeCasts_S512x512_S256x2x512) slices_S256x2x512_S256x1x512_0_1_0) shapeCasts_S256x1x512_S256x512 := by
  after_results_simp
  rfl

/-- The left children's cell rows, out of the cell heap. -/
theorem cut6_cl : StableHlo.after hostOps6 W (Proc.devRef .tc main_v136)
    = shapeCast _ (extractStridedSlice S256x1x512 ![0, 0, 0] (shapeCast _ (extractStridedSlice S512x512 ![511, 0] (StableHlo.after hostOps6 W (Proc.devRef .tc main_v125)) slices_S32767x512_S512x512_511_0) shapeCasts_S512x512_S256x2x512) slices_S256x2x512_S256x1x512_0_0_0) shapeCasts_S256x1x512_S256x512 := by
  after_results_simp
  rfl

/-- The right children's cell rows. -/
theorem cut6_cr : StableHlo.after hostOps6 W (Proc.devRef .tc main_v138)
    = shapeCast _ (extractStridedSlice S256x1x512 ![0, 1, 0] (shapeCast _ (extractStridedSlice S512x512 ![511, 0] (StableHlo.after hostOps6 W (Proc.devRef .tc main_v125)) slices_S32767x512_S512x512_511_0) shapeCasts_S512x512_S256x2x512) slices_S256x2x512_S256x1x512_0_1_0) shapeCasts_S256x1x512_S256x512 := by
  after_results_simp
  rfl

end Host

/-! ## The region's five level arrays at its entry, in the run -/

theorem in6_x (c : Dev nD) : Gen.W13 m ρ c (Proc.devRef .tc main_v126)
    = extractStridedSlice S256x512 ![255, 0] (m ((c : Thread nD τ).loc main_arg0)) slices_S32767x512_S256x512_255_0 :=
  (cut6_x (Gen.W12 m ρ c)).trans (by rw [arg0_6 m ρ c])

theorem in6_hl (c : Dev nD) : Gen.W13 m ρ c (Proc.devRef .tc main_v132)
    = shapeCast _ (extractStridedSlice S256x1x512 ![0, 0, 0] (shapeCast _ (extractStridedSlice S512x512 ![511, 0] (Gen.W13 m ρ c (Proc.devRef .tc main_v123)) slices_S32767x512_S512x512_511_0) shapeCasts_S512x512_S256x2x512) slices_S256x2x512_S256x1x512_0_0_0) shapeCasts_S256x1x512_S256x512 :=
  cut6_hl (Gen.W12 m ρ c)

theorem in6_hr (c : Dev nD) : Gen.W13 m ρ c (Proc.devRef .tc main_v134)
    = shapeCast _ (extractStridedSlice S256x1x512 ![0, 1, 0] (shapeCast _ (extractStridedSlice S512x512 ![511, 0] (Gen.W13 m ρ c (Proc.devRef .tc main_v123)) slices_S32767x512_S512x512_511_0) shapeCasts_S512x512_S256x2x512) slices_S256x2x512_S256x1x512_0_1_0) shapeCasts_S256x1x512_S256x512 :=
  cut6_hr (Gen.W12 m ρ c)

theorem in6_cl (c : Dev nD) : Gen.W13 m ρ c (Proc.devRef .tc main_v136)
    = shapeCast _ (extractStridedSlice S256x1x512 ![0, 0, 0] (shapeCast _ (extractStridedSlice S512x512 ![511, 0] (Gen.W13 m ρ c (Proc.devRef .tc main_v125)) slices_S32767x512_S512x512_511_0) shapeCasts_S512x512_S256x2x512) slices_S256x2x512_S256x1x512_0_0_0) shapeCasts_S256x1x512_S256x512 :=
  cut6_cl (Gen.W12 m ρ c)

theorem in6_cr (c : Dev nD) : Gen.W13 m ρ c (Proc.devRef .tc main_v138)
    = shapeCast _ (extractStridedSlice S256x1x512 ![0, 1, 0] (shapeCast _ (extractStridedSlice S512x512 ![511, 0] (Gen.W13 m ρ c (Proc.devRef .tc main_v125)) slices_S32767x512_S512x512_511_0) shapeCasts_S512x512_S256x2x512) slices_S256x2x512_S256x1x512_0_1_0) shapeCasts_S256x1x512_S256x512 :=
  cut6_cr (Gen.W12 m ρ c)

/-! ## The region's two outputs at its exit are its proof data's arrays after the last grid point -/

theorem out6_h (c : Dev nD) : Gen.W14 m ρ c (Proc.devRef .tc main_v139_0) = (Gen.dat6 (Gen.V13 m ρ) c).arrAt 17 cfg6.N :=
  Gen.W14_arr m ρ c 17

theorem out6_c (c : Dev nD) : Gen.W14 m ρ c (Proc.devRef .tc main_v139_1) = (Gen.dat6 (Gen.V13 m ρ) c).arrAt 18 cfg6.N :=
  Gen.W14_arr m ρ c 18

/-! ## The level -/

/-- The hidden heap after the level, given that the region's first output is the level function of its entry arrays. -/
theorem stepH6 (c : Dev nD)
    (hH : (Gen.dat6 (F := Ideal) (Gen.V13 m ρ) c).arrAt 17 cfg6.N
      = Cert.Tree.levelH (n := 256) (Gen.V13 m ρ c main_v126) (Gen.V13 m ρ c main_v132) (Gen.V13 m ρ c main_v134)
          (Gen.V13 m ρ c main_v136) (Gen.V13 m ρ c main_v138)
          (Gen.V13 m ρ c main_v2) (Gen.V13 m ρ c main_v5) (Gen.V13 m ρ c main_v8) (Gen.V13 m ρ c main_v11)
          (Gen.V13 m ρ c main_v14) (Gen.V13 m ρ c main_v17) (Gen.V13 m ρ c main_v20) (Gen.V13 m ρ c main_v23)
          (Gen.V13 m ρ c main_v24) (Gen.V13 m ρ c main_v25) (Gen.V13 m ρ c main_v26) (Gen.V13 m ρ c main_v27)) :
    Gen.W15 m ρ c (Proc.devRef .tc main_v141)
      = Host.scatter scatter_S32767x512_S1_S256x512_01_n_0_0 (fun _ b => b) (Gen.W13 m ρ c (Proc.devRef .tc main_v123))
          (broadcastInDim S1 ![] bcast_S_S1 (constantI S_ 32 255#32))
          (Cert.Tree.levelH (n := 256)
            (extractStridedSlice S256x512 ![255, 0] (m ((c : Thread nD τ).loc main_arg0)) slices_S32767x512_S256x512_255_0)
            (shapeCast _ (extractStridedSlice S256x1x512 ![0, 0, 0] (shapeCast _ (extractStridedSlice S512x512 ![511, 0] (Gen.W13 m ρ c (Proc.devRef .tc main_v123)) slices_S32767x512_S512x512_511_0) shapeCasts_S512x512_S256x2x512) slices_S256x2x512_S256x1x512_0_0_0) shapeCasts_S256x1x512_S256x512)
            (shapeCast _ (extractStridedSlice S256x1x512 ![0, 1, 0] (shapeCast _ (extractStridedSlice S512x512 ![511, 0] (Gen.W13 m ρ c (Proc.devRef .tc main_v123)) slices_S32767x512_S512x512_511_0) shapeCasts_S512x512_S256x2x512) slices_S256x2x512_S256x1x512_0_1_0) shapeCasts_S256x1x512_S256x512)
            (shapeCast _ (extractStridedSlice S256x1x512 ![0, 0, 0] (shapeCast _ (extractStridedSlice S512x512 ![511, 0] (Gen.W13 m ρ c (Proc.devRef .tc main_v125)) slices_S32767x512_S512x512_511_0) shapeCasts_S512x512_S256x2x512) slices_S256x2x512_S256x1x512_0_0_0) shapeCasts_S256x1x512_S256x512)
            (shapeCast _ (extractStridedSlice S256x1x512 ![0, 1, 0] (shapeCast _ (extractStridedSlice S512x512 ![511, 0] (Gen.W13 m ρ c (Proc.devRef .tc main_v125)) slices_S32767x512_S512x512_511_0) shapeCasts_S512x512_S256x2x512) slices_S256x2x512_S256x1x512_0_1_0) shapeCasts_S256x1x512_S256x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat6 (F := Ideal) (Gen.V13 m ρ) c).arrAt 17 cfg6.N
      = Cert.Tree.levelH (n := 256) (Gen.W13 m ρ c (Proc.devRef .tc main_v126)) (Gen.W13 m ρ c (Proc.devRef .tc main_v132))
          (Gen.W13 m ρ c (Proc.devRef .tc main_v134)) (Gen.W13 m ρ c (Proc.devRef .tc main_v136))
          (Gen.W13 m ρ c (Proc.devRef .tc main_v138))
          (Gen.W13 m ρ c (Proc.devRef .tc main_v2)) (Gen.W13 m ρ c (Proc.devRef .tc main_v5))
          (Gen.W13 m ρ c (Proc.devRef .tc main_v8)) (Gen.W13 m ρ c (Proc.devRef .tc main_v11))
          (Gen.W13 m ρ c (Proc.devRef .tc main_v14)) (Gen.W13 m ρ c (Proc.devRef .tc main_v17))
          (Gen.W13 m ρ c (Proc.devRef .tc main_v20)) (Gen.W13 m ρ c (Proc.devRef .tc main_v23))
          (Gen.W13 m ρ c (Proc.devRef .tc main_v24)) (Gen.W13 m ρ c (Proc.devRef .tc main_v25))
          (Gen.W13 m ρ c (Proc.devRef .tc main_v26)) (Gen.W13 m ρ c (Proc.devRef .tc main_v27)) := hH
  rw [in6_x m ρ c, in6_hl m ρ c, in6_hr m ρ c, in6_cl m ρ c, in6_cr m ρ c,
    keep6_main_v2 m ρ c, keep6_main_v5 m ρ c, keep6_main_v8 m ρ c, keep6_main_v11 m ρ c, keep6_main_v14 m ρ c,
    keep6_main_v17 m ρ c, keep6_main_v20 m ρ c, keep6_main_v23 m ρ c, keep6_main_v24 m ρ c, keep6_main_v25 m ρ c,
    keep6_main_v26 m ρ c, keep6_main_v27 m ρ c] at hH'
  refine (scat6_h (Gen.W14 m ρ c)).trans ?_
  rw [Gen.W14_of_ne m ρ c main_v123 (by decide), out6_h m ρ c, hH']

/-- The cell heap after the level, given that the region's second output is the level's cell function of its entry arrays. -/
theorem stepC6 (c : Dev nD)
    (hC : (Gen.dat6 (F := Ideal) (Gen.V13 m ρ) c).arrAt 18 cfg6.N
      = Cert.Tree.levelC (n := 256) (Gen.V13 m ρ c main_v126) (Gen.V13 m ρ c main_v132) (Gen.V13 m ρ c main_v134)
          (Gen.V13 m ρ c main_v136) (Gen.V13 m ρ c main_v138)
          (Gen.V13 m ρ c main_v2) (Gen.V13 m ρ c main_v5) (Gen.V13 m ρ c main_v8) (Gen.V13 m ρ c main_v11)
          (Gen.V13 m ρ c main_v14) (Gen.V13 m ρ c main_v17) (Gen.V13 m ρ c main_v20) (Gen.V13 m ρ c main_v23)
          (Gen.V13 m ρ c main_v24) (Gen.V13 m ρ c main_v25) (Gen.V13 m ρ c main_v26) (Gen.V13 m ρ c main_v27)) :
    Gen.W15 m ρ c (Proc.devRef .tc main_v143)
      = Host.scatter scatter_S32767x512_S1_S256x512_01_n_0_0 (fun _ b => b) (Gen.W13 m ρ c (Proc.devRef .tc main_v125))
          (broadcastInDim S1 ![] bcast_S_S1 (constantI S_ 32 255#32))
          (Cert.Tree.levelC (n := 256)
            (extractStridedSlice S256x512 ![255, 0] (m ((c : Thread nD τ).loc main_arg0)) slices_S32767x512_S256x512_255_0)
            (shapeCast _ (extractStridedSlice S256x1x512 ![0, 0, 0] (shapeCast _ (extractStridedSlice S512x512 ![511, 0] (Gen.W13 m ρ c (Proc.devRef .tc main_v123)) slices_S32767x512_S512x512_511_0) shapeCasts_S512x512_S256x2x512) slices_S256x2x512_S256x1x512_0_0_0) shapeCasts_S256x1x512_S256x512)
            (shapeCast _ (extractStridedSlice S256x1x512 ![0, 1, 0] (shapeCast _ (extractStridedSlice S512x512 ![511, 0] (Gen.W13 m ρ c (Proc.devRef .tc main_v123)) slices_S32767x512_S512x512_511_0) shapeCasts_S512x512_S256x2x512) slices_S256x2x512_S256x1x512_0_1_0) shapeCasts_S256x1x512_S256x512)
            (shapeCast _ (extractStridedSlice S256x1x512 ![0, 0, 0] (shapeCast _ (extractStridedSlice S512x512 ![511, 0] (Gen.W13 m ρ c (Proc.devRef .tc main_v125)) slices_S32767x512_S512x512_511_0) shapeCasts_S512x512_S256x2x512) slices_S256x2x512_S256x1x512_0_0_0) shapeCasts_S256x1x512_S256x512)
            (shapeCast _ (extractStridedSlice S256x1x512 ![0, 1, 0] (shapeCast _ (extractStridedSlice S512x512 ![511, 0] (Gen.W13 m ρ c (Proc.devRef .tc main_v125)) slices_S32767x512_S512x512_511_0) shapeCasts_S512x512_S256x2x512) slices_S256x2x512_S256x1x512_0_1_0) shapeCasts_S256x1x512_S256x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat6 (F := Ideal) (Gen.V13 m ρ) c).arrAt 18 cfg6.N
      = Cert.Tree.levelC (n := 256) (Gen.W13 m ρ c (Proc.devRef .tc main_v126)) (Gen.W13 m ρ c (Proc.devRef .tc main_v132))
          (Gen.W13 m ρ c (Proc.devRef .tc main_v134)) (Gen.W13 m ρ c (Proc.devRef .tc main_v136))
          (Gen.W13 m ρ c (Proc.devRef .tc main_v138))
          (Gen.W13 m ρ c (Proc.devRef .tc main_v2)) (Gen.W13 m ρ c (Proc.devRef .tc main_v5))
          (Gen.W13 m ρ c (Proc.devRef .tc main_v8)) (Gen.W13 m ρ c (Proc.devRef .tc main_v11))
          (Gen.W13 m ρ c (Proc.devRef .tc main_v14)) (Gen.W13 m ρ c (Proc.devRef .tc main_v17))
          (Gen.W13 m ρ c (Proc.devRef .tc main_v20)) (Gen.W13 m ρ c (Proc.devRef .tc main_v23))
          (Gen.W13 m ρ c (Proc.devRef .tc main_v24)) (Gen.W13 m ρ c (Proc.devRef .tc main_v25))
          (Gen.W13 m ρ c (Proc.devRef .tc main_v26)) (Gen.W13 m ρ c (Proc.devRef .tc main_v27)) := hC
  rw [in6_x m ρ c, in6_hl m ρ c, in6_hr m ρ c, in6_cl m ρ c, in6_cr m ρ c,
    keep6_main_v2 m ρ c, keep6_main_v5 m ρ c, keep6_main_v8 m ρ c, keep6_main_v11 m ρ c, keep6_main_v14 m ρ c,
    keep6_main_v17 m ρ c, keep6_main_v20 m ρ c, keep6_main_v23 m ρ c, keep6_main_v24 m ρ c, keep6_main_v25 m ρ c,
    keep6_main_v26 m ρ c, keep6_main_v27 m ρ c] at hC'
  refine (scat6_c (Gen.W14 m ρ c)).trans ?_
  rw [Gen.W14_of_ne m ρ c main_v125 (by decide), out6_c m ρ c, hC']

end Cert.KernelIdeal.Chain

end
-- ==== Proof.KReg6.lean ====
/-
  One level of the tree on the kernel's side: 256 internal nodes, worked in blocks of 256 node rows, one block per
  grid point. What the level's two output arrays hold after the region, whatever the arrays hold when it is entered.

  Grid point t reads block t (rows 256 t … 256 t + 255) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg6

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg6.N * 256 = 256 := by decide

/-! The printed index maps, decided over the grid: a row array's block at point t is block (t, 0); a weight half or a
    bias row is one block, (0, 0). -/

theorem idx0 : ∀ t : Fin cfg6.N, win6_0.index t (0 : Fin 2) = t.val ∧ win6_0.index t (1 : Fin 2) = 0 :=
  (by decide +kernel : ∀ t : Fin grid6.N, _)
theorem idx1 : ∀ t : Fin cfg6.N, win6_1.index t (0 : Fin 2) = t.val ∧ win6_1.index t (1 : Fin 2) = 0 :=
  (by decide +kernel : ∀ t : Fin grid6.N, _)
theorem idx2 : ∀ t : Fin cfg6.N, win6_2.index t (0 : Fin 2) = t.val ∧ win6_2.index t (1 : Fin 2) = 0 :=
  (by decide +kernel : ∀ t : Fin grid6.N, _)
theorem idx3 : ∀ t : Fin cfg6.N, win6_3.index t (0 : Fin 2) = t.val ∧ win6_3.index t (1 : Fin 2) = 0 :=
  (by decide +kernel : ∀ t : Fin grid6.N, _)
theorem idx4 : ∀ t : Fin cfg6.N, win6_4.index t (0 : Fin 2) = t.val ∧ win6_4.index t (1 : Fin 2) = 0 :=
  (by decide +kernel : ∀ t : Fin grid6.N, _)
theorem idx17 : ∀ t : Fin cfg6.N, win6_17.index t (0 : Fin 2) = t.val ∧ win6_17.index t (1 : Fin 2) = 0 :=
  (by decide +kernel : ∀ t : Fin grid6.N, _)
theorem idx18 : ∀ t : Fin cfg6.N, win6_18.index t (0 : Fin 2) = t.val ∧ win6_18.index t (1 : Fin 2) = 0 :=
  (by decide +kernel : ∀ t : Fin grid6.N, _)
theorem idx5 : ∀ t : Fin cfg6.N, win6_5.index t (0 : Fin 2) = 0 ∧ win6_5.index t (1 : Fin 2) = 0 :=
  (by decide +kernel : ∀ t : Fin grid6.N, _)
theorem idx6 : ∀ t : Fin cfg6.N, win6_6.index t (0 : Fin 2) = 0 ∧ win6_6.index t (1 : Fin 2) = 0 :=
  (by decide +kernel : ∀ t : Fin grid6.N, _)
theorem idx7 : ∀ t : Fin cfg6.N, win6_7.index t (0 : Fin 2) = 0 ∧ win6_7.index t (1 : Fin 2) = 0 :=
  (by decide +kernel : ∀ t : Fin grid6.N, _)
theorem idx8 : ∀ t : Fin cfg6.N, win6_8.index t (0 : Fin 2) = 0 ∧ win6_8.index t (1 : Fin 2) = 0 :=
  (by decide +kernel : ∀ t : Fin grid6.N, _)
theorem idx9 : ∀ t : Fin cfg6.N, win6_9.index t (0 : Fin 2) = 0 ∧ win6_9.index t (1 : Fin 2) = 0 :=
  (by decide +kernel : ∀ t : Fin grid6.N, _)
theorem idx10 : ∀ t : Fin cfg6.N, win6_10.index t (0 : Fin 2) = 0 ∧ win6_10.index t (1 : Fin 2) = 0 :=
  (by decide +kernel : ∀ t : Fin grid6.N, _)
theorem idx11 : ∀ t : Fin cfg6.N, win6_11.index t (0 : Fin 2) = 0 ∧ win6_11.index t (1 : Fin 2) = 0 :=
  (by decide +kernel : ∀ t : Fin grid6.N, _)
theorem idx12 : ∀ t : Fin cfg6.N, win6_12.index t (0 : Fin 2) = 0 ∧ win6_12.index t (1 : Fin 2) = 0 :=
  (by decide +kernel : ∀ t : Fin grid6.N, _)
theorem idx13 : ∀ t : Fin cfg6.N, win6_13.index t (0 : Fin 2) = 0 ∧ win6_13.index t (1 : Fin 2) = 0 :=
  (by decide +kernel : ∀ t : Fin grid6.N, _)
theorem idx14 : ∀ t : Fin cfg6.N, win6_14.index t (0 : Fin 2) = 0 ∧ win6_14.index t (1 : Fin 2) = 0 :=
  (by decide +kernel : ∀ t : Fin grid6.N, _)
theorem idx15 : ∀ t : Fin cfg6.N, win6_15.index t (0 : Fin 2) = 0 ∧ win6_15.index t (1 : Fin 2) = 0 :=
  (by decide +kernel : ∀ t : Fin grid6.N, _)
theorem idx16 : ∀ t : Fin cfg6.N, win6_16.index t (0 : Fin 2) = 0 ∧ win6_16.index t (1 : Fin 2) = 0 :=
  (by decide +kernel : ∀ t : Fin grid6.N, _)

/-! ## The blocks the body reads

A block's entry sits in its array, on each axis, at the block index times the block's extent plus the entry's own
coordinate. So entry (p, k) of block t of a row array is the array's entry (256 t + p, k), and the one block of a weight
half or of a bias row is the array itself. -/

section Reads

variable (V : (c : Dev nD) → (b : Ref sig .tc) → Buf (Elt Ideal) ((c : Thread nD τ).loc b))
variable (c : Dev nD) (t : Fin cfg6.N)

/-- Block t of x, at an entry. -/
theorem read_x (y : S256x512.Idx) (i : S256x512.Idx) (h0 : (i 0).val = t.val * 256 + (y 0).val) (h1 : (i 1).val = (y 1).val) :
    (iblk6 V c 0 t : Vec Ideal S256x512 .f32) y = (V c main_v126 : S256x512.Idx → EReal) i := by
  obtain ⟨e0, e1⟩ := idx0 t
  unfold iblk6
  rw [View.read_apply]
  show V c main_v126 _ = V c main_v126 _
  refine congrArg (V c main_v126) (funext fun a => Fin.ext ?_)
  match a with
  | ⟨0, _⟩ => show win6_0.index t (0 : Fin 2) * 256 + 1 * (y 0).val = (i 0).val; omega
  | ⟨1, _⟩ => show win6_0.index t (1 : Fin 2) * 512 + 1 * (y 1).val = (i 1).val; omega

/-- Block t of the left children's h, at an entry. -/
theorem read_hl (y : S256x512.Idx) (i : S256x512.Idx) (h0 : (i 0).val = t.val * 256 + (y 0).val) (h1 : (i 1).val = (y 1).val) :
    (iblk6 V c 1 t : Vec Ideal S256x512 .f32) y = (V c main_v132 : S256x512.Idx → EReal) i := by
  obtain ⟨e0, e1⟩ := idx1 t
  unfold iblk6
  rw [View.read_apply]
  show V c main_v132 _ = V c main_v132 _
  refine congrArg (V c main_v132) (funext fun a => Fin.ext ?_)
  match a with
  | ⟨0, _⟩ => show win6_1.index t (0 : Fin 2) * 256 + 1 * (y 0).val = (i 0).val; omega
  | ⟨1, _⟩ => show win6_1.index t (1 : Fin 2) * 512 + 1 * (y 1).val = (i 1).val; omega

/-- Block t of the right children's h, at an entry. -/
theorem read_hr (y : S256x512.Idx) (i : S256x512.Idx) (h0 : (i 0).val = t.val * 256 + (y 0).val) (h1 : (i 1).val = (y 1).val) :
    (iblk6 V c 2 t : Vec Ideal S256x512 .f32) y = (V c main_v134 : S256x512.Idx → EReal) i := by
  obtain ⟨e0, e1⟩ := idx2 t
  unfold iblk6
  rw [View.read_apply]
  show V c main_v134 _ = V c main_v134 _
  refine congrArg (V c main_v134) (funext fun a => Fin.ext ?_)
  match a with
  | ⟨0, _⟩ => show win6_2.index t (0 : Fin 2) * 256 + 1 * (y 0).val = (i 0).val; omega
  | ⟨1, _⟩ => show win6_2.index t (1 : Fin 2) * 512 + 1 * (y 1).val = (i 1).val; omega

/-- Block t of the left children's c, at an entry. -/
theorem read_cl (y : S256x512.Idx) (i : S256x512.Idx) (h0 : (i 0).val = t.val * 256 + (y 0).val) (h1 : (i 1).val = (y 1).val) :
    (iblk6 V c 3 t : Vec Ideal S256x512 .f32) y = (V c main_v136 : S256x512.Idx → EReal) i := by
  obtain ⟨e0, e1⟩ := idx3 t
  unfold iblk6
  rw [View.read_apply]
  show V c main_v136 _ = V c main_v136 _
  refine congrArg (V c main_v136) (funext fun a => Fin.ext ?_)
  match a with
  | ⟨0, _⟩ => show win6_3.index t (0 : Fin 2) * 256 + 1 * (y 0).val = (i 0).val; omega
  | ⟨1, _⟩ => show win6_3.index t (1 : Fin 2) * 512 + 1 * (y 1).val = (i 1).val; omega

/-- Block t of the right children's c, at an entry. -/
theorem read_cr (y : S256x512.Idx) (i : S256x512.Idx) (h0 : (i 0).val = t.val * 256 + (y 0).val) (h1 : (i 1).val = (y 1).val) :
    (iblk6 V c 4 t : Vec Ideal S256x512 .f32) y = (V c main_v138 : S256x512.Idx → EReal) i := by
  obtain ⟨e0, e1⟩ := idx4 t
  unfold iblk6
  rw [View.read_apply]
  show V c main_v138 _ = V c main_v138 _
  refine congrArg (V c main_v138) (funext fun a => Fin.ext ?_)
  match a with
  | ⟨0, _⟩ => show win6_4.index t (0 : Fin 2) * 256 + 1 * (y 0).val = (i 0).val; omega
  | ⟨1, _⟩ => show win6_4.index t (1 : Fin 2) * 512 + 1 * (y 1).val = (i 1).val; omega

/-- The one block of the input gate's weights over x is the array. -/
theorem read_wix : (iblk6 V c 5 t : Vec Ideal S512x512 .bf16) = (V c main_v2 : S512x512.Idx → EReal) := by
  obtain ⟨e0, e1⟩ := idx5 t
  funext y
  unfold iblk6
  rw [View.read_apply]
  show V c main_v2 _ = V c main_v2 y
  refine congrArg (V c main_v2) (funext fun a => Fin.ext ?_)
  match a with
  | ⟨0, _⟩ => show win6_5.index t (0 : Fin 2) * 512 + 1 * (y 0).val = (y 0).val; omega
  | ⟨1, _⟩ => show win6_5.index t (1 : Fin 2) * 512 + 1 * (y 1).val = (y 1).val; omega

/-- The one block of the input gate's weights over h is the array. -/
theorem read_wih : (iblk6 V c 6 t : Vec Ideal S512x512 .bf16) = (V c main_v5 : S512x512.Idx → EReal) := by
  obtain ⟨e0, e1⟩ := idx6 t
  funext y
  unfold iblk6
  rw [View.read_apply]
  show V c main_v5 _ = V c main_v5 y
  refine congrArg (V c main_v5) (funext fun a => Fin.ext ?_)
  match a with
  | ⟨0, _⟩ => show win6_6.index t (0 : Fin 2) * 512 + 1 * (y 0).val = (y 0).val; omega
  | ⟨1, _⟩ => show win6_6.index t (1 : Fin 2) * 512 + 1 * (y 1).val = (y 1).val; omega

/-- The one block of the forget gates' weights over x is the array. -/
theorem read_wfx : (iblk6 V c 7 t : Vec Ideal S512x512 .bf16) = (V c main_v8 : S512x512.Idx → EReal) := by
  obtain ⟨e0, e1⟩ := idx7 t
  funext y
  unfold iblk6
  rw [View.read_apply]
  show V c main_v8 _ = V c main_v8 y
  refine congrArg (V c main_v8) (funext fun a => Fin.ext ?_)
  match a with
  | ⟨0, _⟩ => show win6_7.index t (0 : Fin 2) * 512 + 1 * (y 0).val = (y 0).val; omega
  | ⟨1, _⟩ => show win6_7.index t (1 : Fin 2) * 512 + 1 * (y 1).val = (y 1).val; omega

/-- The one block of the forget gates' weights over h is the array. -/
theorem read_wfh : (iblk6 V c 8 t : Vec Ideal S512x512 .bf16) = (V c main_v11 : S512x512.Idx → EReal) := by
  obtain ⟨e0, e1⟩ := idx8 t
  funext y
  unfold iblk6
  rw [View.read_apply]
  show V c main_v11 _ = V c main_v11 y
  refine congrArg (V c main_v11) (funext fun a => Fin.ext ?_)
  match a with
  | ⟨0, _⟩ => show win6_8.index t (0 : Fin 2) * 512 + 1 * (y 0).val = (y 0).val; omega
  | ⟨1, _⟩ => show win6_8.index t (1 : Fin 2) * 512 + 1 * (y 1).val = (y 1).val; omega

/-- The one block of the output gate's weights over x is the array. -/
theorem read_wox : (iblk6 V c 9 t : Vec Ideal S512x512 .bf16) = (V c main_v14 : S512x512.Idx → EReal) := by
  obtain ⟨e0, e1⟩ := idx9 t
  funext y
  unfold iblk6
  rw [View.read_apply]
  show V c main_v14 _ = V c main_v14 y
  refine congrArg (V c main_v14) (funext fun a => Fin.ext ?_)
  match a with
  | ⟨0, _⟩ => show win6_9.index t (0 : Fin 2) * 512 + 1 * (y 0).val = (y 0).val; omega
  | ⟨1, _⟩ => show win6_9.index t (1 : Fin 2) * 512 + 1 * (y 1).val = (y 1).val; omega

/-- The one block of the output gate's weights over h is the array. -/
theorem read_woh : (iblk6 V c 10 t : Vec Ideal S512x512 .bf16) = (V c main_v17 : S512x512.Idx → EReal) := by
  obtain ⟨e0, e1⟩ := idx10 t
  funext y
  unfold iblk6
  rw [View.read_apply]
  show V c main_v17 _ = V c main_v17 y
  refine congrArg (V c main_v17) (funext fun a => Fin.ext ?_)
  match a with
  | ⟨0, _⟩ => show win6_10.index t (0 : Fin 2) * 512 + 1 * (y 0).val = (y 0).val; omega
  | ⟨1, _⟩ => show win6_10.index t (1 : Fin 2) * 512 + 1 * (y 1).val = (y 1).val; omega

/-- The one block of the update gate's weights over x is the array. -/
theorem read_wux : (iblk6 V c 11 t : Vec Ideal S512x512 .bf16) = (V c main_v20 : S512x512.Idx → EReal) := by
  obtain ⟨e0, e1⟩ := idx11 t
  funext y
  unfold iblk6
  rw [View.read_apply]
  show V c main_v20 _ = V c main_v20 y
  refine congrArg (V c main_v20) (funext fun a => Fin.ext ?_)
  match a with
  | ⟨0, _⟩ => show win6_11.index t (0 : Fin 2) * 512 + 1 * (y 0).val = (y 0).val; omega
  | ⟨1, _⟩ => show win6_11.index t (1 : Fin 2) * 512 + 1 * (y 1).val = (y 1).val; omega

/-- The one block of the update gate's weights over h is the array. -/
theorem read_wuh : (iblk6 V c 12 t : Vec Ideal S512x512 .bf16) = (V c main_v23 : S512x512.Idx → EReal) := by
  obtain ⟨e0, e1⟩ := idx12 t
  funext y
  unfold iblk6
  rw [View.read_apply]
  show V c main_v23 _ = V c main_v23 y
  refine congrArg (V c main_v23) (funext fun a => Fin.ext ?_)
  match a with
  | ⟨0, _⟩ => show win6_12.index t (0 : Fin 2) * 512 + 1 * (y 0).val = (y 0).val; omega
  | ⟨1, _⟩ => show win6_12.index t (1 : Fin 2) * 512 + 1 * (y 1).val = (y 1).val; omega

/-- The one block of the input gate's bias row is the array. -/
theorem read_bi : (iblk6 V c 13 t : Vec Ideal S1x512 .f32) = (V c main_v24 : S1x512.Idx → EReal) := by
  obtain ⟨e0, e1⟩ := idx13 t
  funext y
  unfold iblk6
  rw [View.read_apply]
  show V c main_v24 _ = V c main_v24 y
  refine congrArg (V c main_v24) (funext fun a => Fin.ext ?_)
  match a with
  | ⟨0, _⟩ => show win6_13.index t (0 : Fin 2) * 1 + 1 * (y 0).val = (y 0).val; omega
  | ⟨1, _⟩ => show win6_13.index t (1 : Fin 2) * 512 + 1 * (y 1).val = (y 1).val; omega

/-- The one block of the forget gates' bias row is the array. -/
theorem read_bf : (iblk6 V c 14 t : Vec Ideal S1x512 .f32) = (V c main_v25 : S1x512.Idx → EReal) := by
  obtain ⟨e0, e1⟩ := idx14 t
  funext y
  unfold iblk6
  rw [View.read_apply]
  show V c main_v25 _ = V c main_v25 y
  refine congrArg (V c main_v25) (funext fun a => Fin.ext ?_)
  match a with
  | ⟨0, _⟩ => show win6_14.index t (0 : Fin 2) * 1 + 1 * (y 0).val = (y 0).val; omega
  | ⟨1, _⟩ => show win6_14.index t (1 : Fin 2) * 512 + 1 * (y 1).val = (y 1).val; omega

/-- The one block of the output gate's bias row is the array. -/
theorem read_bo : (iblk6 V c 15 t : Vec Ideal S1x512 .f32) = (V c main_v26 : S1x512.Idx → EReal) := by
  obtain ⟨e0, e1⟩ := idx15 t
  funext y
  unfold iblk6
  rw [View.read_apply]
  show V c main_v26 _ = V c main_v26 y
  refine congrArg (V c main_v26) (funext fun a => Fin.ext ?_)
  match a with
  | ⟨0, _⟩ => show win6_15.index t (0 : Fin 2) * 1 + 1 * (y 0).val = (y 0).val; omega
  | ⟨1, _⟩ => show win6_15.index t (1 : Fin 2) * 512 + 1 * (y 1).val = (y 1).val; omega

/-- The one block of the update gate's bias row is the array. -/
theorem read_bu : (iblk6 V c 16 t : Vec Ideal S1x512 .f32) = (V c main_v27 : S1x512.Idx → EReal) := by
  obtain ⟨e0, e1⟩ := idx16 t
  funext y
  unfold iblk6
  rw [View.read_apply]
  show V c main_v27 _ = V c main_v27 y
  refine congrArg (V c main_v27) (funext fun a => Fin.ext ?_)
  match a with
  | ⟨0, _⟩ => show win6_16.index t (0 : Fin 2) * 1 + 1 * (y 0).val = (y 0).val; omega
  | ⟨1, _⟩ => show win6_16.index t (1 : Fin 2) * 512 + 1 * (y 1).val = (y 1).val; omega

end Reads

/-! ## The block body -/

/-- What a block body of 256 rows carries besides its arrays. -/
def ctx : Cert.Tree.BodyCtx 256 :=
  ⟨dot_S256x512_S512x512_S256x512_1_0_0_1_n_n, rfl, shapeCasts_S256x512_S256x512, shapeCasts_S512x512_S512x512,
    shapeCasts_S1x512_S1x512, broadcasts_S1x512_S256x512, bitsLt_bf16_f32⟩

section Body

variable {F : FTy → Type} [FloatOps F]

/-- The value the body stores into its h block is the tree cell's h block of the seventeen blocks it loads. -/
theorem bodyH_eq (x0 x1 x2 x3 x4 : Vec F S256x512 .f32) (x5 x6 x7 x8 x9 x10 x11 x12 : Vec F S512x512 .bf16)
    (x13 x14 x15 x16 : Vec F S1x512 .f32) :
    k6_pay2 (k6_pay6 x3) (k6_pay7 x4) (k6_pay13 (k6_pay11 x0 x1 x2 x5 x6 x13)) (k6_pay14 (k6_pay12 x0 x1 x2 x9 x10) x15)
      (k6_pay15 (k6_pay3 x0) (k6_pay8 x1 x2) x11 x12 x16) (k6_pay17 (k6_pay3 x0) (k6_pay9 x1) x7 x8 x14)
      (k6_pay18 (k6_pay3 x0) (k6_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S256x512 .f32) (x5 x6 x7 x8 x9 x10 x11 x12 : Vec F S512x512 .bf16)
    (x13 x14 x15 x16 : Vec F S1x512 .f32) :
    k6_pay1 (k6_pay6 x3) (k6_pay7 x4) (k6_pay13 (k6_pay11 x0 x1 x2 x5 x6 x13))
      (k6_pay15 (k6_pay3 x0) (k6_pay8 x1 x2) x11 x12 x16) (k6_pay17 (k6_pay3 x0) (k6_pay9 x1) x7 x8 x14)
      (k6_pay18 (k6_pay3 x0) (k6_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S256x512 .f32) (x5 x6 x7 x8 x9 x10 x11 x12 : Vec Ideal S512x512 .bf16)
    (x13 x14 x15 x16 : Vec Ideal S1x512 .f32)
    (X HL HR CL CR : S256x512.Idx → EReal) (w5 w6 w7 w8 w9 w10 w11 w12 : S512x512.Idx → EReal)
    (b13 b14 b15 b16 : S1x512.Idx → EReal) (p : Fin 256) (r : Fin 256) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k6_pay2 (k6_pay6 x3) (k6_pay7 x4) (k6_pay13 (k6_pay11 x0 x1 x2 x5 x6 x13)) (k6_pay14 (k6_pay12 x0 x1 x2 x9 x10) x15)
      (k6_pay15 (k6_pay3 x0) (k6_pay8 x1 x2) x11 x12 x16) (k6_pay17 (k6_pay3 x0) (k6_pay9 x1) x7 x8 x14)
      (k6_pay18 (k6_pay3 x0) (k6_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S256x512 .f32) (x5 x6 x7 x8 x9 x10 x11 x12 : Vec Ideal S512x512 .bf16)
    (x13 x14 x15 x16 : Vec Ideal S1x512 .f32)
    (X HL HR CL CR : S256x512.Idx → EReal) (w5 w6 w7 w8 w9 w10 w11 w12 : S512x512.Idx → EReal)
    (b13 b14 b15 b16 : S1x512.Idx → EReal) (p : Fin 256) (r : Fin 256) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k6_pay1 (k6_pay6 x3) (k6_pay7 x4) (k6_pay13 (k6_pay11 x0 x1 x2 x5 x6 x13))
      (k6_pay15 (k6_pay3 x0) (k6_pay8 x1 x2) x11 x12 x16) (k6_pay17 (k6_pay3 x0) (k6_pay9 x1) x7 x8 x14)
      (k6_pay18 (k6_pay3 x0) (k6_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S256x512.Idx → EReal :=
  Cert.Tree.levelH (n := 256) (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S256x512.Idx → EReal :=
  Cert.Tree.levelC (n := 256) (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg6.N) :
    (dat6 V c).flushed 17 t = ((cfg6.win 17).blk t).view.read (Elt Ideal) (GH V c) := by
  show (cfg6.win 17).cut (grid6.coords t) ((dat6 V c).after 17 t) = _
  rw [after6_17]
  unfold out6_17
  rw [View.canon_unit_zero Cert.LibBlocks.off2_zero]
  simp only [View.ld_unit_zero (S := S256x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 256) (q : Fin 512), j = ix2 p q := ⟨j 0, j 1, eq_ix2 j⟩
  have hp : p.val < 256 := p.isLt
  have ht : t.val < cfg6.N := t.isLt
  have hN : cfg6.N * 256 = 256 := points_rows
  have hr : t.val * 256 + p.val < 256 := by omega
  obtain ⟨e0, e1⟩ := idx17 t
  refine Eq.trans (b := GH V c (ix2 (⟨t.val * 256 + p.val, hr⟩ : Fin 256) q)) ?_ ?_
  · exact bodyH_at (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t)
      (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27)
      p ⟨t.val * 256 + p.val, hr⟩ q
      (fun k => read_x V c t (ix2 p k) (ix2 ⟨t.val * 256 + p.val, hr⟩ k) rfl rfl)
      (fun k => read_hl V c t (ix2 p k) (ix2 ⟨t.val * 256 + p.val, hr⟩ k) rfl rfl)
      (fun k => read_hr V c t (ix2 p k) (ix2 ⟨t.val * 256 + p.val, hr⟩ k) rfl rfl)
      (read_cl V c t (ix2 p q) (ix2 ⟨t.val * 256 + p.val, hr⟩ q) rfl rfl)
      (read_cr V c t (ix2 p q) (ix2 ⟨t.val * 256 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg6.win 17).blk t).view.emb (ix2 p q))
    refine congrArg (GH V c) (funext fun a => Fin.ext ?_)
    match a with
    | ⟨0, _⟩ => show t.val * 256 + p.val = win6_17.index t (0 : Fin 2) * 256 + 1 * p.val; omega
    | ⟨1, _⟩ => show q.val = win6_17.index t (1 : Fin 2) * 512 + 1 * q.val; omega

/-- An entry of the h array is in point t's block iff each coordinate is in the block's range on its axis. -/
theorem mem_blkH (t : Fin cfg6.N) (i : S256x512.Idx) :
    i ∈ ((cfg6.win 17).blk t).view.set ↔ ∀ a : Fin 2, win6_17.index t a * S256x512.size a ≤ (i a).val
      ∧ (i a).val < win6_17.index t a * S256x512.size a + S256x512.size a := by
  show i ∈ ((View.whole main_v139_0).slice (win6_17.rect t)).set ↔ _
  rw [View.set_slice_whole, Rect.mem_set_unit]
  exact Iff.rfl

/-- The blocks tile the h array: row r is in the block of point r / 256. -/
theorem coverH (i : S256x512.Idx) :
    ∃ t : Fin cfg6.N, (cfg6.win 17).flush t = true ∧ i ∈ ((cfg6.win 17).blk t).view.set := by
  have hi0 : (i 0).val < 256 := (i 0).isLt
  have hi1 : (i 1).val < 512 := (i 1).isLt
  have hN : cfg6.N * 256 = 256 := points_rows
  obtain ⟨hq, hlo, hhi⟩ := Cert.LibBlocks.row_in_block (nb := cfg6.N) (bs := 256) (r := (i 0).val) (by omega) (by omega)
  obtain ⟨e0, e1⟩ := idx17 (⟨(i 0).val / 256, hq⟩ : Fin cfg6.N)
  refine ⟨⟨(i 0).val / 256, hq⟩, flush6_17 _, ?_⟩
  rw [mem_blkH]
  intro a
  match a with
  | ⟨0, _⟩ =>
    show win6_17.index ⟨(i 0).val / 256, hq⟩ (0 : Fin 2) * 256 ≤ (i 0).val
      ∧ (i 0).val < win6_17.index ⟨(i 0).val / 256, hq⟩ (0 : Fin 2) * 256 + 256
    rw [e0]
    exact ⟨hlo, hhi⟩
  | ⟨1, _⟩ =>
    show win6_17.index ⟨(i 0).val / 256, hq⟩ (1 : Fin 2) * 512 ≤ (i 1).val
      ∧ (i 1).val < win6_17.index ⟨(i 0).val / 256, hq⟩ (1 : Fin 2) * 512 + 512
    omega

/-- What point t writes back to the c array is block t of the level's c. -/
theorem flushedC (c : Dev nD) (t : Fin cfg6.N) :
    (dat6 V c).flushed 18 t = ((cfg6.win 18).blk t).view.read (Elt Ideal) (GC V c) := by
  show (cfg6.win 18).cut (grid6.coords t) ((dat6 V c).after 18 t) = _
  rw [after6_18]
  unfold out6_18
  rw [View.canon_unit_zero Cert.LibBlocks.off2_zero]
  simp only [View.ld_unit_zero (S := S256x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 256) (q : Fin 512), j = ix2 p q := ⟨j 0, j 1, eq_ix2 j⟩
  have hp : p.val < 256 := p.isLt
  have ht : t.val < cfg6.N := t.isLt
  have hN : cfg6.N * 256 = 256 := points_rows
  have hr : t.val * 256 + p.val < 256 := by omega
  obtain ⟨e0, e1⟩ := idx18 t
  refine Eq.trans (b := GC V c (ix2 (⟨t.val * 256 + p.val, hr⟩ : Fin 256) q)) ?_ ?_
  · exact bodyC_at (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t)
      (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27)
      p ⟨t.val * 256 + p.val, hr⟩ q
      (fun k => read_x V c t (ix2 p k) (ix2 ⟨t.val * 256 + p.val, hr⟩ k) rfl rfl)
      (fun k => read_hl V c t (ix2 p k) (ix2 ⟨t.val * 256 + p.val, hr⟩ k) rfl rfl)
      (fun k => read_hr V c t (ix2 p k) (ix2 ⟨t.val * 256 + p.val, hr⟩ k) rfl rfl)
      (read_cl V c t (ix2 p q) (ix2 ⟨t.val * 256 + p.val, hr⟩ q) rfl rfl)
      (read_cr V c t (ix2 p q) (ix2 ⟨t.val * 256 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg6.win 18).blk t).view.emb (ix2 p q))
    refine congrArg (GC V c) (funext fun a => Fin.ext ?_)
    match a with
    | ⟨0, _⟩ => show t.val * 256 + p.val = win6_18.index t (0 : Fin 2) * 256 + 1 * p.val; omega
    | ⟨1, _⟩ => show q.val = win6_18.index t (1 : Fin 2) * 512 + 1 * q.val; omega

/-- An entry of the c array is in point t's block iff each coordinate is in the block's range on its axis. -/
theorem mem_blkC (t : Fin cfg6.N) (i : S256x512.Idx) :
    i ∈ ((cfg6.win 18).blk t).view.set ↔ ∀ a : Fin 2, win6_18.index t a * S256x512.size a ≤ (i a).val
      ∧ (i a).val < win6_18.index t a * S256x512.size a + S256x512.size a := by
  show i ∈ ((View.whole main_v139_1).slice (win6_18.rect t)).set ↔ _
  rw [View.set_slice_whole, Rect.mem_set_unit]
  exact Iff.rfl

/-- The blocks tile the c array: row r is in the block of point r / 256. -/
theorem coverC (i : S256x512.Idx) :
    ∃ t : Fin cfg6.N, (cfg6.win 18).flush t = true ∧ i ∈ ((cfg6.win 18).blk t).view.set := by
  have hi0 : (i 0).val < 256 := (i 0).isLt
  have hi1 : (i 1).val < 512 := (i 1).isLt
  have hN : cfg6.N * 256 = 256 := points_rows
  obtain ⟨hq, hlo, hhi⟩ := Cert.LibBlocks.row_in_block (nb := cfg6.N) (bs := 256) (r := (i 0).val) (by omega) (by omega)
  obtain ⟨e0, e1⟩ := idx18 (⟨(i 0).val / 256, hq⟩ : Fin cfg6.N)
  refine ⟨⟨(i 0).val / 256, hq⟩, flush6_18 _, ?_⟩
  rw [mem_blkC]
  intro a
  match a with
  | ⟨0, _⟩ =>
    show win6_18.index ⟨(i 0).val / 256, hq⟩ (0 : Fin 2) * 256 ≤ (i 0).val
      ∧ (i 0).val < win6_18.index ⟨(i 0).val / 256, hq⟩ (0 : Fin 2) * 256 + 256
    rw [e0]
    exact ⟨hlo, hhi⟩
  | ⟨1, _⟩ =>
    show win6_18.index ⟨(i 0).val / 256, hq⟩ (1 : Fin 2) * 512 ≤ (i 1).val
      ∧ (i 1).val < win6_18.index ⟨(i 0).val / 256, hq⟩ (1 : Fin 2) * 512 + 512
    omega

/-- After the region the h array holds the level's h of the seventeen arrays as the region finds them. -/
theorem arrH (c : Dev nD) :
    (dat6 (F := Ideal) V c).arrAt 17 cfg6.N
      = Cert.Tree.levelH (n := 256) (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27) :=
  (dat6 V c).arrAt_eq_of_cover 17 (GH V c) (fun t _ => flushedH V c t) coverH

/-- After the region the c array holds the level's c of the seventeen arrays as the region finds them. -/
theorem arrC (c : Dev nD) :
    (dat6 (F := Ideal) V c).arrAt 18 cfg6.N
      = Cert.Tree.levelC (n := 256) (V c main_v126) (V c main_v132) (V c main_v134) (V c main_v136) (V c main_v138) (V c main_v2) (V c main_v5) (V c main_v8) (V c main_v11) (V c main_v14) (V c main_v17) (V c main_v20) (V c main_v23) (V c main_v24) (V c main_v25) (V c main_v26) (V c main_v27) :=
  (dat6 V c).arrAt_eq_of_cover 18 (GC V c) (fun t _ => flushedC V c t) coverC

end Arrays

end Cert.KernelIdeal.Reg6

end
-- ==== Proof.RStep6.lean ====
/-
  The reference's level of 256 nodes (heap rows 255 … 510), read off its run's named buffers: the h and c heap
  arrays after the level are the arrays before it with the level's rows replaced by the level function of the x rows
  and of the children's rows (the even and odd rows of heap rows 511 … 1022 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx6 : Cert.Tree.HostCtx 256 :=
  ⟨dot_S256x1024_S1024x512_S256x512_1_0_0_1_n_n, rfl, concatenates_S256x512_S256x512_S256x1024_d1,
    transposes_S512x1024_S1024x512_1_0, bcast_S512_S1x512_1, bcast_S1x512_S256x512_0_1, bcast_S_S256x512⟩

variable (V0 : Valuation τ sig (Elt Ideal))

/-- The level's x rows. -/
abbrev xl6 : Vec Ideal S256x512 .f32 :=
  extractStridedSlice S256x512 ![255, 0] (V0 (Proc.devRef .tc main_arg0)) slices_S32767x512_S256x512_255_0

/-- The left (even) and right (odd) children's rows of a heap array. -/
abbrev childL6 (A : Vec Ideal S32767x512 .f32) : Vec Ideal S256x512 .f32 :=
  shapeCast _ (extractStridedSlice S256x1x512 ![0, 0, 0] (shapeCast _ (extractStridedSlice S512x512 ![511, 0] A slices_S32767x512_S512x512_511_0) shapeCasts_S512x512_S256x2x512) slices_S256x2x512_S256x1x512_0_0_0) shapeCasts_S256x1x512_S256x512

abbrev childR6 (A : Vec Ideal S32767x512 .f32) : Vec Ideal S256x512 .f32 :=
  shapeCast _ (extractStridedSlice S256x1x512 ![0, 1, 0] (shapeCast _ (extractStridedSlice S512x512 ![511, 0] A slices_S32767x512_S512x512_511_0) shapeCasts_S512x512_S256x2x512) slices_S256x2x512_S256x1x512_0_1_0) shapeCasts_S256x1x512_S256x512

theorem stepC6 : res_main_v507 V0
    = Host.scatter scatter_S32767x512_S1_S256x512_01_n_0_0 (fun _ b => b) (res_main_v429 V0) (broadcastInDim S1 ![] bcast_S_S1 (constantI S_ 32 255#32))
        (Cert.Tree.hostLevelC ctx6 (xl6 V0) (childL6 (res_main_v427 V0)) (childR6 (res_main_v427 V0)) (childL6 (res_main_v429 V0)) (childR6 (res_main_v429 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v507 res_main_v501 res_main_v440 res_main_v436 res_main_v438 res_main_v432 res_main_v434 res_main_v430
  rfl

theorem stepH6 : res_main_v505 V0
    = Host.scatter scatter_S32767x512_S1_S256x512_01_n_0_0 (fun _ b => b) (res_main_v427 V0) (broadcastInDim S1 ![] bcast_S_S1 (constantI S_ 32 255#32))
        (Cert.Tree.hostLevelH ctx6 (xl6 V0) (childL6 (res_main_v427 V0)) (childR6 (res_main_v427 V0)) (childL6 (res_main_v429 V0)) (childR6 (res_main_v429 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v505 res_main_v501 res_main_v440 res_main_v436 res_main_v438 res_main_v432 res_main_v434 res_main_v430
  rfl

end Cert.ReferenceIdeal.Chain

end
-- ==== Proof.Bridge6.lean ====
/-
  The level of 256 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep6
import proofs.«110311_j37117107372689_1_alg».proof.Proof.KReg6
import proofs.«110311_j37117107372689_1_alg».proof.Proof.RStep6
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 256 nodes, they agree after it. -/
theorem level6 (hA : Agree m V0 c)
    (hH : Cert.KernelIdeal.Gen.W13 m ρ c (Proc.devRef .tc Cert.KernelIdeal.main_v123) = Cert.ReferenceIdeal.Value.res_main_v427 V0)
    (hC : Cert.KernelIdeal.Gen.W13 m ρ c (Proc.devRef .tc Cert.KernelIdeal.main_v125) = Cert.ReferenceIdeal.Value.res_main_v429 V0) :
    Cert.KernelIdeal.Gen.W15 m ρ c (Proc.devRef .tc Cert.KernelIdeal.main_v141) = Cert.ReferenceIdeal.Value.res_main_v505 V0
      ∧ Cert.KernelIdeal.Gen.W15 m ρ c (Proc.devRef .tc Cert.KernelIdeal.main_v143) = Cert.ReferenceIdeal.Value.res_main_v507 V0 := by
  constructor
  · rw [Cert.KernelIdeal.Chain.stepH6 m ρ c (Cert.KernelIdeal.Reg6.arrH (Cert.KernelIdeal.Gen.V13 m ρ) c),
      Cert.ReferenceIdeal.Chain.stepH6 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC6 m ρ c (Cert.KernelIdeal.Reg6.arrC (Cert.KernelIdeal.Gen.V13 m ρ) c),
      Cert.ReferenceIdeal.Chain.stepC6 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep7.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 7: what its scatters leave in the two heap arrays

The host stretch before the region cuts the level's 128 rows of node features out of the argument and, out of each
heap array (hidden states, cell states), the 256 rows of the level below, which it pairs up: row p's left child is
the pair's first member and its right child the second. The region computes the level's hidden and cell rows from
these five arrays and the twelve weight and bias buffers; the host stretch after it scatters the two results into the
heap arrays at row 127. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat7_h : StableHlo.after hostOps8 W (Proc.devRef .tc main_v159)
    = Host.scatter scatter_S32767x512_S1_S128x512_01_n_0_0 (fun _ b => b) (W (Proc.devRef .tc main_v141))
        (broadcastInDim S1 ![] bcast_S_S1 (constantI S_ 32 127#32)) (W (Proc.devRef .tc main_v157_0)) := by
  after_results
  rfl

/-- And the new cell heap: the old one with the region's second output scattered in. -/
theorem scat7_c : StableHlo.after hostOps8 W (Proc.devRef .tc main_v161)
    = Host.scatter scatter_S32767x512_S1_S128x512_01_n_0_0 (fun _ b => b) (W (Proc.devRef .tc main_v143))
        (broadcastInDim S1 ![] bcast_S_S1 (constantI S_ 32 127#32)) (W (Proc.devRef .tc main_v157_1)) := by
  after_results
  rfl

/-- The stretch before the region: the level's rows of node features. -/
theorem cut7_x : StableHlo.after hostOps7 W (Proc.devRef .tc main_v144)
    = extractStridedSlice S128x512 ![127, 0] (W (Proc.devRef .tc main_arg0)) slices_S32767x512_S128x512_127_0 := by
  after_results

/-- The left children's hidden rows, out of the hidden heap as this stretch itself leaves it. -/
theorem cut7_hl : StableHlo.after hostOps7 W (Proc.devRef .tc main_v150)
    = shapeCast _ (extractStridedSlice S128x1x512 ![0, 0, 0] (shapeCast _ (extractStridedSlice S256x512 ![255, 0] (StableHlo.after hostOps7 W (Proc.devRef .tc main_v141)) slices_S32767x512_S256x512_255_0) shapeCasts_S256x512_S128x2x512) slices_S128x2x512_S128x1x512_0_0_0) shapeCasts_S128x1x512_S128x512 := by
  after_results_simp
  rfl

/-- The right children's hidden rows. -/
theorem cut7_hr : StableHlo.after hostOps7 W (Proc.devRef .tc main_v152)
    = shapeCast _ (extractStridedSlice S128x1x512 ![0, 1, 0] (shapeCast _ (extractStridedSlice S256x512 ![255, 0] (StableHlo.after hostOps7 W (Proc.devRef .tc main_v141)) slices_S32767x512_S256x512_255_0) shapeCasts_S256x512_S128x2x512) slices_S128x2x512_S128x1x512_0_1_0) shapeCasts_S128x1x512_S128x512 := by
  after_results_simp
  rfl

/-- The left children's cell rows, out of the cell heap. -/
theorem cut7_cl : StableHlo.after hostOps7 W (Proc.devRef .tc main_v154)
    = shapeCast _ (extractStridedSlice S128x1x512 ![0, 0, 0] (shapeCast _ (extractStridedSlice S256x512 ![255, 0] (StableHlo.after hostOps7 W (Proc.devRef .tc main_v143)) slices_S32767x512_S256x512_255_0) shapeCasts_S256x512_S128x2x512) slices_S128x2x512_S128x1x512_0_0_0) shapeCasts_S128x1x512_S128x512 := by
  after_results_simp
  rfl

/-- The right children's cell rows. -/
theorem cut7_cr : StableHlo.after hostOps7 W (Proc.devRef .tc main_v156)
    = shapeCast _ (extractStridedSlice S128x1x512 ![0, 1, 0] (shapeCast _ (extractStridedSlice S256x512 ![255, 0] (StableHlo.after hostOps7 W (Proc.devRef .tc main_v143)) slices_S32767x512_S256x512_255_0) shapeCasts_S256x512_S128x2x512) slices_S128x2x512_S128x1x512_0_1_0) shapeCasts_S128x1x512_S128x512 := by
  after_results_simp
  rfl

end Host

/-! ## The region's five level arrays at its entry, in the run -/

theorem in7_x (c : Dev nD) : Gen.W15 m ρ c (Proc.devRef .tc main_v144)
    = extractStridedSlice S128x512 ![127, 0] (m ((c : Thread nD τ).loc main_arg0)) slices_S32767x512_S128x512_127_0 :=
  (cut7_x (Gen.W14 m ρ c)).trans (by rw [arg0_7 m ρ c])

theorem in7_hl (c : Dev nD) : Gen.W15 m ρ c (Proc.devRef .tc main_v150)
    = shapeCast _ (extractStridedSlice S128x1x512 ![0, 0, 0] (shapeCast _ (extractStridedSlice S256x512 ![255, 0] (Gen.W15 m ρ c (Proc.devRef .tc main_v141)) slices_S32767x512_S256x512_255_0) shapeCasts_S256x512_S128x2x512) slices_S128x2x512_S128x1x512_0_0_0) shapeCasts_S128x1x512_S128x512 :=
  cut7_hl (Gen.W14 m ρ c)

theorem in7_hr (c : Dev nD) : Gen.W15 m ρ c (Proc.devRef .tc main_v152)
    = shapeCast _ (extractStridedSlice S128x1x512 ![0, 1, 0] (shapeCast _ (extractStridedSlice S256x512 ![255, 0] (Gen.W15 m ρ c (Proc.devRef .tc main_v141)) slices_S32767x512_S256x512_255_0) shapeCasts_S256x512_S128x2x512) slices_S128x2x512_S128x1x512_0_1_0) shapeCasts_S128x1x512_S128x512 :=
  cut7_hr (Gen.W14 m ρ c)

theorem in7_cl (c : Dev nD) : Gen.W15 m ρ c (Proc.devRef .tc main_v154)
    = shapeCast _ (extractStridedSlice S128x1x512 ![0, 0, 0] (shapeCast _ (extractStridedSlice S256x512 ![255, 0] (Gen.W15 m ρ c (Proc.devRef .tc main_v143)) slices_S32767x512_S256x512_255_0) shapeCasts_S256x512_S128x2x512) slices_S128x2x512_S128x1x512_0_0_0) shapeCasts_S128x1x512_S128x512 :=
  cut7_cl (Gen.W14 m ρ c)

theorem in7_cr (c : Dev nD) : Gen.W15 m ρ c (Proc.devRef .tc main_v156)
    = shapeCast _ (extractStridedSlice S128x1x512 ![0, 1, 0] (shapeCast _ (extractStridedSlice S256x512 ![255, 0] (Gen.W15 m ρ c (Proc.devRef .tc main_v143)) slices_S32767x512_S256x512_255_0) shapeCasts_S256x512_S128x2x512) slices_S128x2x512_S128x1x512_0_1_0) shapeCasts_S128x1x512_S128x512 :=
  cut7_cr (Gen.W14 m ρ c)

/-! ## The region's two outputs at its exit are its proof data's arrays after the last grid point -/

theorem out7_h (c : Dev nD) : Gen.W16 m ρ c (Proc.devRef .tc main_v157_0) = (Gen.dat7 (Gen.V15 m ρ) c).arrAt 17 cfg7.N :=
  Gen.W16_arr m ρ c 17

theorem out7_c (c : Dev nD) : Gen.W16 m ρ c (Proc.devRef .tc main_v157_1) = (Gen.dat7 (Gen.V15 m ρ) c).arrAt 18 cfg7.N :=
  Gen.W16_arr m ρ c 18

/-! ## The level -/

/-- The hidden heap after the level, given that the region's first output is the level function of its entry arrays. -/
theorem stepH7 (c : Dev nD)
    (hH : (Gen.dat7 (F := Ideal) (Gen.V15 m ρ) c).arrAt 17 cfg7.N
      = Cert.Tree.levelH (n := 128) (Gen.V15 m ρ c main_v144) (Gen.V15 m ρ c main_v150) (Gen.V15 m ρ c main_v152)
          (Gen.V15 m ρ c main_v154) (Gen.V15 m ρ c main_v156)
          (Gen.V15 m ρ c main_v2) (Gen.V15 m ρ c main_v5) (Gen.V15 m ρ c main_v8) (Gen.V15 m ρ c main_v11)
          (Gen.V15 m ρ c main_v14) (Gen.V15 m ρ c main_v17) (Gen.V15 m ρ c main_v20) (Gen.V15 m ρ c main_v23)
          (Gen.V15 m ρ c main_v24) (Gen.V15 m ρ c main_v25) (Gen.V15 m ρ c main_v26) (Gen.V15 m ρ c main_v27)) :
    Gen.W17 m ρ c (Proc.devRef .tc main_v159)
      = Host.scatter scatter_S32767x512_S1_S128x512_01_n_0_0 (fun _ b => b) (Gen.W15 m ρ c (Proc.devRef .tc main_v141))
          (broadcastInDim S1 ![] bcast_S_S1 (constantI S_ 32 127#32))
          (Cert.Tree.levelH (n := 128)
            (extractStridedSlice S128x512 ![127, 0] (m ((c : Thread nD τ).loc main_arg0)) slices_S32767x512_S128x512_127_0)
            (shapeCast _ (extractStridedSlice S128x1x512 ![0, 0, 0] (shapeCast _ (extractStridedSlice S256x512 ![255, 0] (Gen.W15 m ρ c (Proc.devRef .tc main_v141)) slices_S32767x512_S256x512_255_0) shapeCasts_S256x512_S128x2x512) slices_S128x2x512_S128x1x512_0_0_0) shapeCasts_S128x1x512_S128x512)
            (shapeCast _ (extractStridedSlice S128x1x512 ![0, 1, 0] (shapeCast _ (extractStridedSlice S256x512 ![255, 0] (Gen.W15 m ρ c (Proc.devRef .tc main_v141)) slices_S32767x512_S256x512_255_0) shapeCasts_S256x512_S128x2x512) slices_S128x2x512_S128x1x512_0_1_0) shapeCasts_S128x1x512_S128x512)
            (shapeCast _ (extractStridedSlice S128x1x512 ![0, 0, 0] (shapeCast _ (extractStridedSlice S256x512 ![255, 0] (Gen.W15 m ρ c (Proc.devRef .tc main_v143)) slices_S32767x512_S256x512_255_0) shapeCasts_S256x512_S128x2x512) slices_S128x2x512_S128x1x512_0_0_0) shapeCasts_S128x1x512_S128x512)
            (shapeCast _ (extractStridedSlice S128x1x512 ![0, 1, 0] (shapeCast _ (extractStridedSlice S256x512 ![255, 0] (Gen.W15 m ρ c (Proc.devRef .tc main_v143)) slices_S32767x512_S256x512_255_0) shapeCasts_S256x512_S128x2x512) slices_S128x2x512_S128x1x512_0_1_0) shapeCasts_S128x1x512_S128x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat7 (F := Ideal) (Gen.V15 m ρ) c).arrAt 17 cfg7.N
      = Cert.Tree.levelH (n := 128) (Gen.W15 m ρ c (Proc.devRef .tc main_v144)) (Gen.W15 m ρ c (Proc.devRef .tc main_v150))
          (Gen.W15 m ρ c (Proc.devRef .tc main_v152)) (Gen.W15 m ρ c (Proc.devRef .tc main_v154))
          (Gen.W15 m ρ c (Proc.devRef .tc main_v156))
          (Gen.W15 m ρ c (Proc.devRef .tc main_v2)) (Gen.W15 m ρ c (Proc.devRef .tc main_v5))
          (Gen.W15 m ρ c (Proc.devRef .tc main_v8)) (Gen.W15 m ρ c (Proc.devRef .tc main_v11))
          (Gen.W15 m ρ c (Proc.devRef .tc main_v14)) (Gen.W15 m ρ c (Proc.devRef .tc main_v17))
          (Gen.W15 m ρ c (Proc.devRef .tc main_v20)) (Gen.W15 m ρ c (Proc.devRef .tc main_v23))
          (Gen.W15 m ρ c (Proc.devRef .tc main_v24)) (Gen.W15 m ρ c (Proc.devRef .tc main_v25))
          (Gen.W15 m ρ c (Proc.devRef .tc main_v26)) (Gen.W15 m ρ c (Proc.devRef .tc main_v27)) := hH
  rw [in7_x m ρ c, in7_hl m ρ c, in7_hr m ρ c, in7_cl m ρ c, in7_cr m ρ c,
    keep7_main_v2 m ρ c, keep7_main_v5 m ρ c, keep7_main_v8 m ρ c, keep7_main_v11 m ρ c, keep7_main_v14 m ρ c,
    keep7_main_v17 m ρ c, keep7_main_v20 m ρ c, keep7_main_v23 m ρ c, keep7_main_v24 m ρ c, keep7_main_v25 m ρ c,
    keep7_main_v26 m ρ c, keep7_main_v27 m ρ c] at hH'
  refine (scat7_h (Gen.W16 m ρ c)).trans ?_
  rw [Gen.W16_of_ne m ρ c main_v141 (by decide), out7_h m ρ c, hH']

/-- The cell heap after the level, given that the region's second output is the level's cell function of its entry arrays. -/
theorem stepC7 (c : Dev nD)
    (hC : (Gen.dat7 (F := Ideal) (Gen.V15 m ρ) c).arrAt 18 cfg7.N
      = Cert.Tree.levelC (n := 128) (Gen.V15 m ρ c main_v144) (Gen.V15 m ρ c main_v150) (Gen.V15 m ρ c main_v152)
          (Gen.V15 m ρ c main_v154) (Gen.V15 m ρ c main_v156)
          (Gen.V15 m ρ c main_v2) (Gen.V15 m ρ c main_v5) (Gen.V15 m ρ c main_v8) (Gen.V15 m ρ c main_v11)
          (Gen.V15 m ρ c main_v14) (Gen.V15 m ρ c main_v17) (Gen.V15 m ρ c main_v20) (Gen.V15 m ρ c main_v23)
          (Gen.V15 m ρ c main_v24) (Gen.V15 m ρ c main_v25) (Gen.V15 m ρ c main_v26) (Gen.V15 m ρ c main_v27)) :
    Gen.W17 m ρ c (Proc.devRef .tc main_v161)
      = Host.scatter scatter_S32767x512_S1_S128x512_01_n_0_0 (fun _ b => b) (Gen.W15 m ρ c (Proc.devRef .tc main_v143))
          (broadcastInDim S1 ![] bcast_S_S1 (constantI S_ 32 127#32))
          (Cert.Tree.levelC (n := 128)
            (extractStridedSlice S128x512 ![127, 0] (m ((c : Thread nD τ).loc main_arg0)) slices_S32767x512_S128x512_127_0)
            (shapeCast _ (extractStridedSlice S128x1x512 ![0, 0, 0] (shapeCast _ (extractStridedSlice S256x512 ![255, 0] (Gen.W15 m ρ c (Proc.devRef .tc main_v141)) slices_S32767x512_S256x512_255_0) shapeCasts_S256x512_S128x2x512) slices_S128x2x512_S128x1x512_0_0_0) shapeCasts_S128x1x512_S128x512)
            (shapeCast _ (extractStridedSlice S128x1x512 ![0, 1, 0] (shapeCast _ (extractStridedSlice S256x512 ![255, 0] (Gen.W15 m ρ c (Proc.devRef .tc main_v141)) slices_S32767x512_S256x512_255_0) shapeCasts_S256x512_S128x2x512) slices_S128x2x512_S128x1x512_0_1_0) shapeCasts_S128x1x512_S128x512)
            (shapeCast _ (extractStridedSlice S128x1x512 ![0, 0, 0] (shapeCast _ (extractStridedSlice S256x512 ![255, 0] (Gen.W15 m ρ c (Proc.devRef .tc main_v143)) slices_S32767x512_S256x512_255_0) shapeCasts_S256x512_S128x2x512) slices_S128x2x512_S128x1x512_0_0_0) shapeCasts_S128x1x512_S128x512)
            (shapeCast _ (extractStridedSlice S128x1x512 ![0, 1, 0] (shapeCast _ (extractStridedSlice S256x512 ![255, 0] (Gen.W15 m ρ c (Proc.devRef .tc main_v143)) slices_S32767x512_S256x512_255_0) shapeCasts_S256x512_S128x2x512) slices_S128x2x512_S128x1x512_0_1_0) shapeCasts_S128x1x512_S128x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat7 (F := Ideal) (Gen.V15 m ρ) c).arrAt 18 cfg7.N
      = Cert.Tree.levelC (n := 128) (Gen.W15 m ρ c (Proc.devRef .tc main_v144)) (Gen.W15 m ρ c (Proc.devRef .tc main_v150))
          (Gen.W15 m ρ c (Proc.devRef .tc main_v152)) (Gen.W15 m ρ c (Proc.devRef .tc main_v154))
          (Gen.W15 m ρ c (Proc.devRef .tc main_v156))
          (Gen.W15 m ρ c (Proc.devRef .tc main_v2)) (Gen.W15 m ρ c (Proc.devRef .tc main_v5))
          (Gen.W15 m ρ c (Proc.devRef .tc main_v8)) (Gen.W15 m ρ c (Proc.devRef .tc main_v11))
          (Gen.W15 m ρ c (Proc.devRef .tc main_v14)) (Gen.W15 m ρ c (Proc.devRef .tc main_v17))
          (Gen.W15 m ρ c (Proc.devRef .tc main_v20)) (Gen.W15 m ρ c (Proc.devRef .tc main_v23))
          (Gen.W15 m ρ c (Proc.devRef .tc main_v24)) (Gen.W15 m ρ c (Proc.devRef .tc main_v25))
          (Gen.W15 m ρ c (Proc.devRef .tc main_v26)) (Gen.W15 m ρ c (Proc.devRef .tc main_v27)) := hC
  rw [in7_x m ρ c, in7_hl m ρ c, in7_hr m ρ c, in7_cl m ρ c, in7_cr m ρ c,
    keep7_main_v2 m ρ c, keep7_main_v5 m ρ c, keep7_main_v8 m ρ c, keep7_main_v11 m ρ c, keep7_main_v14 m ρ c,
    keep7_main_v17 m ρ c, keep7_main_v20 m ρ c, keep7_main_v23 m ρ c, keep7_main_v24 m ρ c, keep7_main_v25 m ρ c,
    keep7_main_v26 m ρ c, keep7_main_v27 m ρ c] at hC'
  refine (scat7_c (Gen.W16 m ρ c)).trans ?_
  rw [Gen.W16_of_ne m ρ c main_v143 (by decide), out7_c m ρ c, hC']

end Cert.KernelIdeal.Chain

end
-- ==== Proof.KReg7.lean ====
/-
  One level of the tree on the kernel's side: 128 internal nodes, worked in blocks of 128 node rows, one block per
  grid point. What the level's two output arrays hold after the region, whatever the arrays hold when it is entered.

  Grid point t reads block t (rows 128 t … 128 t + 127) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg7

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg7.N * 128 = 128 := by decide

/-! The printed index maps, decided over the grid: a row array's block at point t is block (t, 0); a weight half or a
    bias row is one block, (0, 0). -/

theorem idx0 : ∀ t : Fin cfg7.N, win7_0.index t (0 : Fin 2) = t.val ∧ win7_0.index t (1 : Fin 2) = 0 :=
  (by decide +kernel : ∀ t : Fin grid7.N, _)
theorem idx1 : ∀ t : Fin cfg7.N, win7_1.index t (0 : Fin 2) = t.val ∧ win7_1.index t (1 : Fin 2) = 0 :=
  (by decide +kernel : ∀ t : Fin grid7.N, _)
theorem idx2 : ∀ t : Fin cfg7.N, win7_2.index t (0 : Fin 2) = t.val ∧ win7_2.index t (1 : Fin 2) = 0 :=
  (by decide +kernel : ∀ t : Fin grid7.N, _)
theorem idx3 : ∀ t : Fin cfg7.N, win7_3.index t (0 : Fin 2) = t.val ∧ win7_3.index t (1 : Fin 2) = 0 :=
  (by decide +kernel : ∀ t : Fin grid7.N, _)
theorem idx4 : ∀ t : Fin cfg7.N, win7_4.index t (0 : Fin 2) = t.val ∧ win7_4.index t (1 : Fin 2) = 0 :=
  (by decide +kernel : ∀ t : Fin grid7.N, _)
theorem idx17 : ∀ t : Fin cfg7.N, win7_17.index t (0 : Fin 2) = t.val ∧ win7_17.index t (1 : Fin 2) = 0 :=
  (by decide +kernel : ∀ t : Fin grid7.N, _)
theorem idx18 : ∀ t : Fin cfg7.N, win7_18.index t (0 : Fin 2) = t.val ∧ win7_18.index t (1 : Fin 2) = 0 :=
  (by decide +kernel : ∀ t : Fin grid7.N, _)
theorem idx5 : ∀ t : Fin cfg7.N, win7_5.index t (0 : Fin 2) = 0 ∧ win7_5.index t (1 : Fin 2) = 0 :=
  (by decide +kernel : ∀ t : Fin grid7.N, _)
theorem idx6 : ∀ t : Fin cfg7.N, win7_6.index t (0 : Fin 2) = 0 ∧ win7_6.index t (1 : Fin 2) = 0 :=
  (by decide +kernel : ∀ t : Fin grid7.N, _)
theorem idx7 : ∀ t : Fin cfg7.N, win7_7.index t (0 : Fin 2) = 0 ∧ win7_7.index t (1 : Fin 2) = 0 :=
  (by decide +kernel : ∀ t : Fin grid7.N, _)
theorem idx8 : ∀ t : Fin cfg7.N, win7_8.index t (0 : Fin 2) = 0 ∧ win7_8.index t (1 : Fin 2) = 0 :=
  (by decide +kernel : ∀ t : Fin grid7.N, _)
theorem idx9 : ∀ t : Fin cfg7.N, win7_9.index t (0 : Fin 2) = 0 ∧ win7_9.index t (1 : Fin 2) = 0 :=
  (by decide +kernel : ∀ t : Fin grid7.N, _)
theorem idx10 : ∀ t : Fin cfg7.N, win7_10.index t (0 : Fin 2) = 0 ∧ win7_10.index t (1 : Fin 2) = 0 :=
  (by decide +kernel : ∀ t : Fin grid7.N, _)
theorem idx11 : ∀ t : Fin cfg7.N, win7_11.index t (0 : Fin 2) = 0 ∧ win7_11.index t (1 : Fin 2) = 0 :=
  (by decide +kernel : ∀ t : Fin grid7.N, _)
theorem idx12 : ∀ t : Fin cfg7.N, win7_12.index t (0 : Fin 2) = 0 ∧ win7_12.index t (1 : Fin 2) = 0 :=
  (by decide +kernel : ∀ t : Fin grid7.N, _)
theorem idx13 : ∀ t : Fin cfg7.N, win7_13.index t (0 : Fin 2) = 0 ∧ win7_13.index t (1 : Fin 2) = 0 :=
  (by decide +kernel : ∀ t : Fin grid7.N, _)
theorem idx14 : ∀ t : Fin cfg7.N, win7_14.index t (0 : Fin 2) = 0 ∧ win7_14.index t (1 : Fin 2) = 0 :=
  (by decide +kernel : ∀ t : Fin grid7.N, _)
theorem idx15 : ∀ t : Fin cfg7.N, win7_15.index t (0 : Fin 2) = 0 ∧ win7_15.index t (1 : Fin 2) = 0 :=
  (by decide +kernel : ∀ t : Fin grid7.N, _)
theorem idx16 : ∀ t : Fin cfg7.N, win7_16.index t (0 : Fin 2) = 0 ∧ win7_16.index t (1 : Fin 2) = 0 :=
  (by decide +kernel : ∀ t : Fin grid7.N, _)

/-! ## The blocks the body reads

A block's entry sits in its array, on each axis, at the block index times the block's extent plus the entry's own
coordinate. So entry (p, k) of block t of a row array is the array's entry (128 t + p, k), and the one block of a weight
half or of a bias row is the array itself. -/

section Reads

variable (V : (c : Dev nD) → (b : Ref sig .tc) → Buf (Elt Ideal) ((c : Thread nD τ).loc b))
variable (c : Dev nD) (t : Fin cfg7.N)

/-- Block t of x, at an entry. -/
theorem read_x (y : S128x512.Idx) (i : S128x512.Idx) (h0 : (i 0).val = t.val * 128 + (y 0).val) (h1 : (i 1).val = (y 1).val) :
    (iblk7 V c 0 t : Vec Ideal S128x512 .f32) y = (V c main_v144 : S128x512.Idx → EReal) i := by
  obtain ⟨e0, e1⟩ := idx0 t
  unfold iblk7
  rw [View.read_apply]
  show V c main_v144 _ = V c main_v144 _
  refine congrArg (V c main_v144) (funext fun a => Fin.ext ?_)
  match a with
  | ⟨0, _⟩ => show win7_0.index t (0 : Fin 2) * 128 + 1 * (y 0).val = (i 0).val; omega
  | ⟨1, _⟩ => show win7_0.index t (1 : Fin 2) * 512 + 1 * (y 1).val = (i 1).val; omega

/-- Block t of the left children's h, at an entry. -/
theorem read_hl (y : S128x512.Idx) (i : S128x512.Idx) (h0 : (i 0).val = t.val * 128 + (y 0).val) (h1 : (i 1).val = (y 1).val) :
    (iblk7 V c 1 t : Vec Ideal S128x512 .f32) y = (V c main_v150 : S128x512.Idx → EReal) i := by
  obtain ⟨e0, e1⟩ := idx1 t
  unfold iblk7
  rw [View.read_apply]
  show V c main_v150 _ = V c main_v150 _
  refine congrArg (V c main_v150) (funext fun a => Fin.ext ?_)
  match a with
  | ⟨0, _⟩ => show win7_1.index t (0 : Fin 2) * 128 + 1 * (y 0).val = (i 0).val; omega
  | ⟨1, _⟩ => show win7_1.index t (1 : Fin 2) * 512 + 1 * (y 1).val = (i 1).val; omega

/-- Block t of the right children's h, at an entry. -/
theorem read_hr (y : S128x512.Idx) (i : S128x512.Idx) (h0 : (i 0).val = t.val * 128 + (y 0).val) (h1 : (i 1).val = (y 1).val) :
    (iblk7 V c 2 t : Vec Ideal S128x512 .f32) y = (V c main_v152 : S128x512.Idx → EReal) i := by
  obtain ⟨e0, e1⟩ := idx2 t
  unfold iblk7
  rw [View.read_apply]
  show V c main_v152 _ = V c main_v152 _
  refine congrArg (V c main_v152) (funext fun a => Fin.ext ?_)
  match a with
  | ⟨0, _⟩ => show win7_2.index t (0 : Fin 2) * 128 + 1 * (y 0).val = (i 0).val; omega
  | ⟨1, _⟩ => show win7_2.index t (1 : Fin 2) * 512 + 1 * (y 1).val = (i 1).val; omega

/-- Block t of the left children's c, at an entry. -/
theorem read_cl (y : S128x512.Idx) (i : S128x512.Idx) (h0 : (i 0).val = t.val * 128 + (y 0).val) (h1 : (i 1).val = (y 1).val) :
    (iblk7 V c 3 t : Vec Ideal S128x512 .f32) y = (V c main_v154 : S128x512.Idx → EReal) i := by
  obtain ⟨e0, e1⟩ := idx3 t
  unfold iblk7
  rw [View.read_apply]
  show V c main_v154 _ = V c main_v154 _
  refine congrArg (V c main_v154) (funext fun a => Fin.ext ?_)
  match a with
  | ⟨0, _⟩ => show win7_3.index t (0 : Fin 2) * 128 + 1 * (y 0).val = (i 0).val; omega
  | ⟨1, _⟩ => show win7_3.index t (1 : Fin 2) * 512 + 1 * (y 1).val = (i 1).val; omega

/-- Block t of the right children's c, at an entry. -/
theorem read_cr (y : S128x512.Idx) (i : S128x512.Idx) (h0 : (i 0).val = t.val * 128 + (y 0).val) (h1 : (i 1).val = (y 1).val) :
    (iblk7 V c 4 t : Vec Ideal S128x512 .f32) y = (V c main_v156 : S128x512.Idx → EReal) i := by
  obtain ⟨e0, e1⟩ := idx4 t
  unfold iblk7
  rw [View.read_apply]
  show V c main_v156 _ = V c main_v156 _
  refine congrArg (V c main_v156) (funext fun a => Fin.ext ?_)
  match a with
  | ⟨0, _⟩ => show win7_4.index t (0 : Fin 2) * 128 + 1 * (y 0).val = (i 0).val; omega
  | ⟨1, _⟩ => show win7_4.index t (1 : Fin 2) * 512 + 1 * (y 1).val = (i 1).val; omega

/-- The one block of the input gate's weights over x is the array. -/
theorem read_wix : (iblk7 V c 5 t : Vec Ideal S512x512 .bf16) = (V c main_v2 : S512x512.Idx → EReal) := by
  obtain ⟨e0, e1⟩ := idx5 t
  funext y
  unfold iblk7
  rw [View.read_apply]
  show V c main_v2 _ = V c main_v2 y
  refine congrArg (V c main_v2) (funext fun a => Fin.ext ?_)
  match a with
  | ⟨0, _⟩ => show win7_5.index t (0 : Fin 2) * 512 + 1 * (y 0).val = (y 0).val; omega
  | ⟨1, _⟩ => show win7_5.index t (1 : Fin 2) * 512 + 1 * (y 1).val = (y 1).val; omega

/-- The one block of the input gate's weights over h is the array. -/
theorem read_wih : (iblk7 V c 6 t : Vec Ideal S512x512 .bf16) = (V c main_v5 : S512x512.Idx → EReal) := by
  obtain ⟨e0, e1⟩ := idx6 t
  funext y
  unfold iblk7
  rw [View.read_apply]
  show V c main_v5 _ = V c main_v5 y
  refine congrArg (V c main_v5) (funext fun a => Fin.ext ?_)
  match a with
  | ⟨0, _⟩ => show win7_6.index t (0 : Fin 2) * 512 + 1 * (y 0).val = (y 0).val; omega
  | ⟨1, _⟩ => show win7_6.index t (1 : Fin 2) * 512 + 1 * (y 1).val = (y 1).val; omega

/-- The one block of the forget gates' weights over x is the array. -/
theorem read_wfx : (iblk7 V c 7 t : Vec Ideal S512x512 .bf16) = (V c main_v8 : S512x512.Idx → EReal) := by
  obtain ⟨e0, e1⟩ := idx7 t
  funext y
  unfold iblk7
  rw [View.read_apply]
  show V c main_v8 _ = V c main_v8 y
  refine congrArg (V c main_v8) (funext fun a => Fin.ext ?_)
  match a with
  | ⟨0, _⟩ => show win7_7.index t (0 : Fin 2) * 512 + 1 * (y 0).val = (y 0).val; omega
  | ⟨1, _⟩ => show win7_7.index t (1 : Fin 2) * 512 + 1 * (y 1).val = (y 1).val; omega

/-- The one block of the forget gates' weights over h is the array. -/
theorem read_wfh : (iblk7 V c 8 t : Vec Ideal S512x512 .bf16) = (V c main_v11 : S512x512.Idx → EReal) := by
  obtain ⟨e0, e1⟩ := idx8 t
  funext y
  unfold iblk7
  rw [View.read_apply]
  show V c main_v11 _ = V c main_v11 y
  refine congrArg (V c main_v11) (funext fun a => Fin.ext ?_)
  match a with
  | ⟨0, _⟩ => show win7_8.index t (0 : Fin 2) * 512 + 1 * (y 0).val = (y 0).val; omega
  | ⟨1, _⟩ => show win7_8.index t (1 : Fin 2) * 512 + 1 * (y 1).val = (y 1).val; omega

/-- The one block of the output gate's weights over x is the array. -/
theorem read_wox : (iblk7 V c 9 t : Vec Ideal S512x512 .bf16) = (V c main_v14 : S512x512.Idx → EReal) := by
  obtain ⟨e0, e1⟩ := idx9 t
  funext y
  unfold iblk7
  rw [View.read_apply]
  show V c main_v14 _ = V c main_v14 y
  refine congrArg (V c main_v14) (funext fun a => Fin.ext ?_)
  match a with
  | ⟨0, _⟩ => show win7_9.index t (0 : Fin 2) * 512 + 1 * (y 0).val = (y 0).val; omega
  | ⟨1, _⟩ => show win7_9.index t (1 : Fin 2) * 512 + 1 * (y 1).val = (y 1).val; omega

/-- The one block of the output gate's weights over h is the array. -/
theorem read_woh : (iblk7 V c 10 t : Vec Ideal S512x512 .bf16) = (V c main_v17 : S512x512.Idx → EReal) := by
  obtain ⟨e0, e1⟩ := idx10 t
  funext y
  unfold iblk7
  rw [View.read_apply]
  show V c main_v17 _ = V c main_v17 y
  refine congrArg (V c main_v17) (funext fun a => Fin.ext ?_)
  match a with
  | ⟨0, _⟩ => show win7_10.index t (0 : Fin 2) * 512 + 1 * (y 0).val = (y 0).val; omega
  | ⟨1, _⟩ => show win7_10.index t (1 : Fin 2) * 512 + 1 * (y 1).val = (y 1).val; omega

/-- The one block of the update gate's weights over x is the array. -/
theorem read_wux : (iblk7 V c 11 t : Vec Ideal S512x512 .bf16) = (V c main_v20 : S512x512.Idx → EReal) := by
  obtain ⟨e0, e1⟩ := idx11 t
  funext y
  unfold iblk7
  rw [View.read_apply]
  show V c main_v20 _ = V c main_v20 y
  refine congrArg (V c main_v20) (funext fun a => Fin.ext ?_)
  match a with
  | ⟨0, _⟩ => show win7_11.index t (0 : Fin 2) * 512 + 1 * (y 0).val = (y 0).val; omega
  | ⟨1, _⟩ => show win7_11.index t (1 : Fin 2) * 512 + 1 * (y 1).val = (y 1).val; omega

/-- The one block of the update gate's weights over h is the array. -/
theorem read_wuh : (iblk7 V c 12 t : Vec Ideal S512x512 .bf16) = (V c main_v23 : S512x512.Idx → EReal) := by
  obtain ⟨e0, e1⟩ := idx12 t
  funext y
  unfold iblk7
  rw [View.read_apply]
  show V c main_v23 _ = V c main_v23 y
  refine congrArg (V c main_v23) (funext fun a => Fin.ext ?_)
  match a with
  | ⟨0, _⟩ => show win7_12.index t (0 : Fin 2) * 512 + 1 * (y 0).val = (y 0).val; omega
  | ⟨1, _⟩ => show win7_12.index t (1 : Fin 2) * 512 + 1 * (y 1).val = (y 1).val; omega

/-- The one block of the input gate's bias row is the array. -/
theorem read_bi : (iblk7 V c 13 t : Vec Ideal S1x512 .f32) = (V c main_v24 : S1x512.Idx → EReal) := by
  obtain ⟨e0, e1⟩ := idx13 t
  funext y
  unfold iblk7
  rw [View.read_apply]
  show V c main_v24 _ = V c main_v24 y
  refine congrArg (V c main_v24) (funext fun a => Fin.ext ?_)
  match a with
  | ⟨0, _⟩ => show win7_13.index t (0 : Fin 2) * 1 + 1 * (y 0).val = (y 0).val; omega
  | ⟨1, _⟩ => show win7_13.index t (1 : Fin 2) * 512 + 1 * (y 1).val = (y 1).val; omega

/-- The one block of the forget gates' bias row is the array. -/
theorem read_bf : (iblk7 V c 14 t : Vec Ideal S1x512 .f32) = (V c main_v25 : S1x512.Idx → EReal) := by
  obtain ⟨e0, e1⟩ := idx14 t
  funext y
  unfold iblk7
  rw [View.read_apply]
  show V c main_v25 _ = V c main_v25 y
  refine congrArg (V c main_v25) (funext fun a => Fin.ext ?_)
  match a with
  | ⟨0, _⟩ => show win7_14.index t (0 : Fin 2) * 1 + 1 * (y 0).val = (y 0).val; omega
  | ⟨1, _⟩ => show win7_14.index t (1 : Fin 2) * 512 + 1 * (y 1).val = (y 1).val; omega

/-- The one block of the output gate's bias row is the array. -/
theorem read_bo : (iblk7 V c 15 t : Vec Ideal S1x512 .f32) = (V c main_v26 : S1x512.Idx → EReal) := by
  obtain ⟨e0, e1⟩ := idx15 t
  funext y
  unfold iblk7
  rw [View.read_apply]
  show V c main_v26 _ = V c main_v26 y
  refine congrArg (V c main_v26) (funext fun a => Fin.ext ?_)
  match a with
  | ⟨0, _⟩ => show win7_15.index t (0 : Fin 2) * 1 + 1 * (y 0).val = (y 0).val; omega
  | ⟨1, _⟩ => show win7_15.index t (1 : Fin 2) * 512 + 1 * (y 1).val = (y 1).val; omega

/-- The one block of the update gate's bias row is the array. -/
theorem read_bu : (iblk7 V c 16 t : Vec Ideal S1x512 .f32) = (V c main_v27 : S1x512.Idx → EReal) := by
  obtain ⟨e0, e1⟩ := idx16 t
  funext y
  unfold iblk7
  rw [View.read_apply]
  show V c main_v27 _ = V c main_v27 y
  refine congrArg (V c main_v27) (funext fun a => Fin.ext ?_)
  match a with
  | ⟨0, _⟩ => show win7_16.index t (0 : Fin 2) * 1 + 1 * (y 0).val = (y 0).val; omega
  | ⟨1, _⟩ => show win7_16.index t (1 : Fin 2) * 512 + 1 * (y 1).val = (y 1).val; omega

end Reads

/-! ## The block body -/

/-- What a block body of 128 rows carries besides its arrays. -/
def ctx : Cert.Tree.BodyCtx 128 :=
  ⟨dot_S128x512_S512x512_S128x512_1_0_0_1_n_n, rfl, shapeCasts_S128x512_S128x512, shapeCasts_S512x512_S512x512,
    shapeCasts_S1x512_S1x512, broadcasts_S1x512_S128x512, bitsLt_bf16_f32⟩

section Body

variable {F : FTy → Type} [FloatOps F]

/-- The value the body stores into its h block is the tree cell's h block of the seventeen blocks it loads. -/
theorem bodyH_eq (x0 x1 x2 x3 x4 : Vec F S128x512 .f32) (x5 x6 x7 x8 x9 x10 x11 x12 : Vec F S512x512 .bf16)
    (x13 x14 x15 x16 : Vec F S1x512 .f32) :
    k7_pay2 (k7_pay6 x3) (k7_pay7 x4) (k7_pay13 (k7_pay11 x0 x1 x2 x5 x6 x13)) (k7_pay14 (k7_pay12 x0 x1 x2 x9 x10) x15)
      (k7_pay15 (k7_pay3 x0) (k7_pay8 x1 x2) x11 x12 x16) (k7_pay17 (k7_pay3 x0) (k7_pay9 x1) x7 x8 x14)
      (k7_pay18 (k7_pay3 x0) (k7_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S128x512 .f32) (x5 x6 x7 x8 x9 x10 x11 x12 : Vec F S512x512 .bf16)
    (x13 x14 x15 x16 : Vec F S1x512 .f32) :
    k7_pay1 (k7_pay6 x3) (k7_pay7 x4) (k7_pay13 (k7_pay11 x0 x1 x2 x5 x6 x13))
      (k7_pay15 (k7_pay3 x0) (k7_pay8 x1 x2) x11 x12 x16) (k7_pay17 (k7_pay3 x0) (k7_pay9 x1) x7 x8 x14)
      (k7_pay18 (k7_pay3 x0) (k7_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S128x512 .f32) (x5 x6 x7 x8 x9 x10 x11 x12 : Vec Ideal S512x512 .bf16)
    (x13 x14 x15 x16 : Vec Ideal S1x512 .f32)
    (X HL HR CL CR : S128x512.Idx → EReal) (w5 w6 w7 w8 w9 w10 w11 w12 : S512x512.Idx → EReal)
    (b13 b14 b15 b16 : S1x512.Idx → EReal) (p : Fin 128) (r : Fin 128) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k7_pay2 (k7_pay6 x3) (k7_pay7 x4) (k7_pay13 (k7_pay11 x0 x1 x2 x5 x6 x13)) (k7_pay14 (k7_pay12 x0 x1 x2 x9 x10) x15)
      (k7_pay15 (k7_pay3 x0) (k7_pay8 x1 x2) x11 x12 x16) (k7_pay17 (k7_pay3 x0) (k7_pay9 x1) x7 x8 x14)
      (k7_pay18 (k7_pay3 x0) (k7_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S128x512 .f32) (x5 x6 x7 x8 x9 x10 x11 x12 : Vec Ideal S512x512 .bf16)
    (x13 x14 x15 x16 : Vec Ideal S1x512 .f32)
    (X HL HR CL CR : S128x512.Idx → EReal) (w5 w6 w7 w8 w9 w10 w11 w12 : S512x512.Idx → EReal)
    (b13 b14 b15 b16 : S1x512.Idx → EReal) (p : Fin 128) (r : Fin 128) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k7_pay1 (k7_pay6 x3) (k7_pay7 x4) (k7_pay13 (k7_pay11 x0 x1 x2 x5 x6 x13))
      (k7_pay15 (k7_pay3 x0) (k7_pay8 x1 x2) x11 x12 x16) (k7_pay17 (k7_pay3 x0) (k7_pay9 x1) x7 x8 x14)
      (k7_pay18 (k7_pay3 x0) (k7_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S128x512.Idx → EReal :=
  Cert.Tree.levelH (n := 128) (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S128x512.Idx → EReal :=
  Cert.Tree.levelC (n := 128) (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg7.N) :
    (dat7 V c).flushed 17 t = ((cfg7.win 17).blk t).view.read (Elt Ideal) (GH V c) := by
  show (cfg7.win 17).cut (grid7.coords t) ((dat7 V c).after 17 t) = _
  rw [after7_17]
  unfold out7_17
  rw [View.canon_unit_zero Cert.LibBlocks.off2_zero]
  simp only [View.ld_unit_zero (S := S128x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 128) (q : Fin 512), j = ix2 p q := ⟨j 0, j 1, eq_ix2 j⟩
  have hp : p.val < 128 := p.isLt
  have ht : t.val < cfg7.N := t.isLt
  have hN : cfg7.N * 128 = 128 := points_rows
  have hr : t.val * 128 + p.val < 128 := by omega
  obtain ⟨e0, e1⟩ := idx17 t
  refine Eq.trans (b := GH V c (ix2 (⟨t.val * 128 + p.val, hr⟩ : Fin 128) q)) ?_ ?_
  · exact bodyH_at (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t)
      (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27)
      p ⟨t.val * 128 + p.val, hr⟩ q
      (fun k => read_x V c t (ix2 p k) (ix2 ⟨t.val * 128 + p.val, hr⟩ k) rfl rfl)
      (fun k => read_hl V c t (ix2 p k) (ix2 ⟨t.val * 128 + p.val, hr⟩ k) rfl rfl)
      (fun k => read_hr V c t (ix2 p k) (ix2 ⟨t.val * 128 + p.val, hr⟩ k) rfl rfl)
      (read_cl V c t (ix2 p q) (ix2 ⟨t.val * 128 + p.val, hr⟩ q) rfl rfl)
      (read_cr V c t (ix2 p q) (ix2 ⟨t.val * 128 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg7.win 17).blk t).view.emb (ix2 p q))
    refine congrArg (GH V c) (funext fun a => Fin.ext ?_)
    match a with
    | ⟨0, _⟩ => show t.val * 128 + p.val = win7_17.index t (0 : Fin 2) * 128 + 1 * p.val; omega
    | ⟨1, _⟩ => show q.val = win7_17.index t (1 : Fin 2) * 512 + 1 * q.val; omega

/-- An entry of the h array is in point t's block iff each coordinate is in the block's range on its axis. -/
theorem mem_blkH (t : Fin cfg7.N) (i : S128x512.Idx) :
    i ∈ ((cfg7.win 17).blk t).view.set ↔ ∀ a : Fin 2, win7_17.index t a * S128x512.size a ≤ (i a).val
      ∧ (i a).val < win7_17.index t a * S128x512.size a + S128x512.size a := by
  show i ∈ ((View.whole main_v157_0).slice (win7_17.rect t)).set ↔ _
  rw [View.set_slice_whole, Rect.mem_set_unit]
  exact Iff.rfl

/-- The blocks tile the h array: row r is in the block of point r / 128. -/
theorem coverH (i : S128x512.Idx) :
    ∃ t : Fin cfg7.N, (cfg7.win 17).flush t = true ∧ i ∈ ((cfg7.win 17).blk t).view.set := by
  have hi0 : (i 0).val < 128 := (i 0).isLt
  have hi1 : (i 1).val < 512 := (i 1).isLt
  have hN : cfg7.N * 128 = 128 := points_rows
  obtain ⟨hq, hlo, hhi⟩ := Cert.LibBlocks.row_in_block (nb := cfg7.N) (bs := 128) (r := (i 0).val) (by omega) (by omega)
  obtain ⟨e0, e1⟩ := idx17 (⟨(i 0).val / 128, hq⟩ : Fin cfg7.N)
  refine ⟨⟨(i 0).val / 128, hq⟩, flush7_17 _, ?_⟩
  rw [mem_blkH]
  intro a
  match a with
  | ⟨0, _⟩ =>
    show win7_17.index ⟨(i 0).val / 128, hq⟩ (0 : Fin 2) * 128 ≤ (i 0).val
      ∧ (i 0).val < win7_17.index ⟨(i 0).val / 128, hq⟩ (0 : Fin 2) * 128 + 128
    rw [e0]
    exact ⟨hlo, hhi⟩
  | ⟨1, _⟩ =>
    show win7_17.index ⟨(i 0).val / 128, hq⟩ (1 : Fin 2) * 512 ≤ (i 1).val
      ∧ (i 1).val < win7_17.index ⟨(i 0).val / 128, hq⟩ (1 : Fin 2) * 512 + 512
    omega

/-- What point t writes back to the c array is block t of the level's c. -/
theorem flushedC (c : Dev nD) (t : Fin cfg7.N) :
    (dat7 V c).flushed 18 t = ((cfg7.win 18).blk t).view.read (Elt Ideal) (GC V c) := by
  show (cfg7.win 18).cut (grid7.coords t) ((dat7 V c).after 18 t) = _
  rw [after7_18]
  unfold out7_18
  rw [View.canon_unit_zero Cert.LibBlocks.off2_zero]
  simp only [View.ld_unit_zero (S := S128x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 128) (q : Fin 512), j = ix2 p q := ⟨j 0, j 1, eq_ix2 j⟩
  have hp : p.val < 128 := p.isLt
  have ht : t.val < cfg7.N := t.isLt
  have hN : cfg7.N * 128 = 128 := points_rows
  have hr : t.val * 128 + p.val < 128 := by omega
  obtain ⟨e0, e1⟩ := idx18 t
  refine Eq.trans (b := GC V c (ix2 (⟨t.val * 128 + p.val, hr⟩ : Fin 128) q)) ?_ ?_
  · exact bodyC_at (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) (iblk7 V c 14 t) (iblk7 V c 15 t) (iblk7 V c 16 t)
      (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27)
      p ⟨t.val * 128 + p.val, hr⟩ q
      (fun k => read_x V c t (ix2 p k) (ix2 ⟨t.val * 128 + p.val, hr⟩ k) rfl rfl)
      (fun k => read_hl V c t (ix2 p k) (ix2 ⟨t.val * 128 + p.val, hr⟩ k) rfl rfl)
      (fun k => read_hr V c t (ix2 p k) (ix2 ⟨t.val * 128 + p.val, hr⟩ k) rfl rfl)
      (read_cl V c t (ix2 p q) (ix2 ⟨t.val * 128 + p.val, hr⟩ q) rfl rfl)
      (read_cr V c t (ix2 p q) (ix2 ⟨t.val * 128 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg7.win 18).blk t).view.emb (ix2 p q))
    refine congrArg (GC V c) (funext fun a => Fin.ext ?_)
    match a with
    | ⟨0, _⟩ => show t.val * 128 + p.val = win7_18.index t (0 : Fin 2) * 128 + 1 * p.val; omega
    | ⟨1, _⟩ => show q.val = win7_18.index t (1 : Fin 2) * 512 + 1 * q.val; omega

/-- An entry of the c array is in point t's block iff each coordinate is in the block's range on its axis. -/
theorem mem_blkC (t : Fin cfg7.N) (i : S128x512.Idx) :
    i ∈ ((cfg7.win 18).blk t).view.set ↔ ∀ a : Fin 2, win7_18.index t a * S128x512.size a ≤ (i a).val
      ∧ (i a).val < win7_18.index t a * S128x512.size a + S128x512.size a := by
  show i ∈ ((View.whole main_v157_1).slice (win7_18.rect t)).set ↔ _
  rw [View.set_slice_whole, Rect.mem_set_unit]
  exact Iff.rfl

/-- The blocks tile the c array: row r is in the block of point r / 128. -/
theorem coverC (i : S128x512.Idx) :
    ∃ t : Fin cfg7.N, (cfg7.win 18).flush t = true ∧ i ∈ ((cfg7.win 18).blk t).view.set := by
  have hi0 : (i 0).val < 128 := (i 0).isLt
  have hi1 : (i 1).val < 512 := (i 1).isLt
  have hN : cfg7.N * 128 = 128 := points_rows
  obtain ⟨hq, hlo, hhi⟩ := Cert.LibBlocks.row_in_block (nb := cfg7.N) (bs := 128) (r := (i 0).val) (by omega) (by omega)
  obtain ⟨e0, e1⟩ := idx18 (⟨(i 0).val / 128, hq⟩ : Fin cfg7.N)
  refine ⟨⟨(i 0).val / 128, hq⟩, flush7_18 _, ?_⟩
  rw [mem_blkC]
  intro a
  match a with
  | ⟨0, _⟩ =>
    show win7_18.index ⟨(i 0).val / 128, hq⟩ (0 : Fin 2) * 128 ≤ (i 0).val
      ∧ (i 0).val < win7_18.index ⟨(i 0).val / 128, hq⟩ (0 : Fin 2) * 128 + 128
    rw [e0]
    exact ⟨hlo, hhi⟩
  | ⟨1, _⟩ =>
    show win7_18.index ⟨(i 0).val / 128, hq⟩ (1 : Fin 2) * 512 ≤ (i 1).val
      ∧ (i 1).val < win7_18.index ⟨(i 0).val / 128, hq⟩ (1 : Fin 2) * 512 + 512
    omega

/-- After the region the h array holds the level's h of the seventeen arrays as the region finds them. -/
theorem arrH (c : Dev nD) :
    (dat7 (F := Ideal) V c).arrAt 17 cfg7.N
      = Cert.Tree.levelH (n := 128) (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27) :=
  (dat7 V c).arrAt_eq_of_cover 17 (GH V c) (fun t _ => flushedH V c t) coverH

/-- After the region the c array holds the level's c of the seventeen arrays as the region finds them. -/
theorem arrC (c : Dev nD) :
    (dat7 (F := Ideal) V c).arrAt 18 cfg7.N
      = Cert.Tree.levelC (n := 128) (V c main_v144) (V c main_v150) (V c main_v152) (V c main_v154) (V c main_v156) (V c main_v2) (V c main_v5) (V c main_v8) (V c main_v11) (V c main_v14) (V c main_v17) (V c main_v20) (V c main_v23) (V c main_v24) (V c main_v25) (V c main_v26) (V c main_v27) :=
  (dat7 V c).arrAt_eq_of_cover 18 (GC V c) (fun t _ => flushedC V c t) coverC

end Arrays

end Cert.KernelIdeal.Reg7

end
-- ==== Proof.RStep7.lean ====
/-
  The reference's level of 128 nodes (heap rows 127 … 254), read off its run's named buffers: the h and c heap
  arrays after the level are the arrays before it with the level's rows replaced by the level function of the x rows
  and of the children's rows (the even and odd rows of heap rows 255 … 510 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx7 : Cert.Tree.HostCtx 128 :=
  ⟨dot_S128x1024_S1024x512_S128x512_1_0_0_1_n_n, rfl, concatenates_S128x512_S128x512_S128x1024_d1,
    transposes_S512x1024_S1024x512_1_0, bcast_S512_S1x512_1, bcast_S1x512_S128x512_0_1, bcast_S_S128x512⟩

variable (V0 : Valuation τ sig (Elt Ideal))

/-- The level's x rows. -/
abbrev xl7 : Vec Ideal S128x512 .f32 :=
  extractStridedSlice S128x512 ![127, 0] (V0 (Proc.devRef .tc main_arg0)) slices_S32767x512_S128x512_127_0

/-- The left (even) and right (odd) children's rows of a heap array. -/
abbrev childL7 (A : Vec Ideal S32767x512 .f32) : Vec Ideal S128x512 .f32 :=
  shapeCast _ (extractStridedSlice S128x1x512 ![0, 0, 0] (shapeCast _ (extractStridedSlice S256x512 ![255, 0] A slices_S32767x512_S256x512_255_0) shapeCasts_S256x512_S128x2x512) slices_S128x2x512_S128x1x512_0_0_0) shapeCasts_S128x1x512_S128x512

abbrev childR7 (A : Vec Ideal S32767x512 .f32) : Vec Ideal S128x512 .f32 :=
  shapeCast _ (extractStridedSlice S128x1x512 ![0, 1, 0] (shapeCast _ (extractStridedSlice S256x512 ![255, 0] A slices_S32767x512_S256x512_255_0) shapeCasts_S256x512_S128x2x512) slices_S128x2x512_S128x1x512_0_1_0) shapeCasts_S128x1x512_S128x512

theorem stepC7 : res_main_v585 V0
    = Host.scatter scatter_S32767x512_S1_S128x512_01_n_0_0 (fun _ b => b) (res_main_v507 V0) (broadcastInDim S1 ![] bcast_S_S1 (constantI S_ 32 127#32))
        (Cert.Tree.hostLevelC ctx7 (xl7 V0) (childL7 (res_main_v505 V0)) (childR7 (res_main_v505 V0)) (childL7 (res_main_v507 V0)) (childR7 (res_main_v507 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v585 res_main_v579 res_main_v518 res_main_v514 res_main_v516 res_main_v510 res_main_v512 res_main_v508
  rfl

theorem stepH7 : res_main_v583 V0
    = Host.scatter scatter_S32767x512_S1_S128x512_01_n_0_0 (fun _ b => b) (res_main_v505 V0) (broadcastInDim S1 ![] bcast_S_S1 (constantI S_ 32 127#32))
        (Cert.Tree.hostLevelH ctx7 (xl7 V0) (childL7 (res_main_v505 V0)) (childR7 (res_main_v505 V0)) (childL7 (res_main_v507 V0)) (childR7 (res_main_v507 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v583 res_main_v579 res_main_v518 res_main_v514 res_main_v516 res_main_v510 res_main_v512 res_main_v508
  rfl

end Cert.ReferenceIdeal.Chain

end
-- ==== Proof.Bridge7.lean ====
/-
  The level of 128 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep7
import proofs.«110311_j37117107372689_1_alg».proof.Proof.KReg7
import proofs.«110311_j37117107372689_1_alg».proof.Proof.RStep7
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 128 nodes, they agree after it. -/
theorem level7 (hA : Agree m V0 c)
    (hH : Cert.KernelIdeal.Gen.W15 m ρ c (Proc.devRef .tc Cert.KernelIdeal.main_v141) = Cert.ReferenceIdeal.Value.res_main_v505 V0)
    (hC : Cert.KernelIdeal.Gen.W15 m ρ c (Proc.devRef .tc Cert.KernelIdeal.main_v143) = Cert.ReferenceIdeal.Value.res_main_v507 V0) :
    Cert.KernelIdeal.Gen.W17 m ρ c (Proc.devRef .tc Cert.KernelIdeal.main_v159) = Cert.ReferenceIdeal.Value.res_main_v583 V0
      ∧ Cert.KernelIdeal.Gen.W17 m ρ c (Proc.devRef .tc Cert.KernelIdeal.main_v161) = Cert.ReferenceIdeal.Value.res_main_v585 V0 := by
  constructor
  · rw [Cert.KernelIdeal.Chain.stepH7 m ρ c (Cert.KernelIdeal.Reg7.arrH (Cert.KernelIdeal.Gen.V15 m ρ) c),
      Cert.ReferenceIdeal.Chain.stepH7 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC7 m ρ c (Cert.KernelIdeal.Reg7.arrC (Cert.KernelIdeal.Gen.V15 m ρ) c),
      Cert.ReferenceIdeal.Chain.stepC7 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep8.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 8: what its scatters leave in the two heap arrays

The host stretch before the region cuts the level's 64 rows of node features out of the argument and, out of each
heap array (hidden states, cell states), the 128 rows of the level below, which it pairs up: row p's left child is
the pair's first member and its right child the second. The region computes the level's hidden and cell rows from
these five arrays and the twelve weight and bias buffers; the host stretch after it scatters the two results into the
heap arrays at row 63. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat8_h : StableHlo.after hostOps9 W (Proc.devRef .tc main_v177)
    = Host.scatter scatter_S32767x512_S1_S64x512_01_n_0_0 (fun _ b => b) (W (Proc.devRef .tc main_v159))
        (broadcastInDim S1 ![] bcast_S_S1 (constantI S_ 32 63#32)) (W (Proc.devRef .tc main_v175_0)) := by
  after_results
  rfl

/-- And the new cell heap: the old one with the region's second output scattered in. -/
theorem scat8_c : StableHlo.after hostOps9 W (Proc.devRef .tc main_v179)
    = Host.scatter scatter_S32767x512_S1_S64x512_01_n_0_0 (fun _ b => b) (W (Proc.devRef .tc main_v161))
        (broadcastInDim S1 ![] bcast_S_S1 (constantI S_ 32 63#32)) (W (Proc.devRef .tc main_v175_1)) := by
  after_results
  rfl

/-- The stretch before the region: the level's rows of node features. -/
theorem cut8_x : StableHlo.after hostOps8 W (Proc.devRef .tc main_v162)
    = extractStridedSlice S64x512 ![63, 0] (W (Proc.devRef .tc main_arg0)) slices_S32767x512_S64x512_63_0 := by
  after_results

/-- The left children's hidden rows, out of the hidden heap as this stretch itself leaves it. -/
theorem cut8_hl : StableHlo.after hostOps8 W (Proc.devRef .tc main_v168)
    = shapeCast _ (extractStridedSlice S64x1x512 ![0, 0, 0] (shapeCast _ (extractStridedSlice S128x512 ![127, 0] (StableHlo.after hostOps8 W (Proc.devRef .tc main_v159)) slices_S32767x512_S128x512_127_0) shapeCasts_S128x512_S64x2x512) slices_S64x2x512_S64x1x512_0_0_0) shapeCasts_S64x1x512_S64x512 := by
  after_results_simp
  rfl

/-- The right children's hidden rows. -/
theorem cut8_hr : StableHlo.after hostOps8 W (Proc.devRef .tc main_v170)
    = shapeCast _ (extractStridedSlice S64x1x512 ![0, 1, 0] (shapeCast _ (extractStridedSlice S128x512 ![127, 0] (StableHlo.after hostOps8 W (Proc.devRef .tc main_v159)) slices_S32767x512_S128x512_127_0) shapeCasts_S128x512_S64x2x512) slices_S64x2x512_S64x1x512_0_1_0) shapeCasts_S64x1x512_S64x512 := by
  after_results_simp
  rfl

/-- The left children's cell rows, out of the cell heap. -/
theorem cut8_cl : StableHlo.after hostOps8 W (Proc.devRef .tc main_v172)
    = shapeCast _ (extractStridedSlice S64x1x512 ![0, 0, 0] (shapeCast _ (extractStridedSlice S128x512 ![127, 0] (StableHlo.after hostOps8 W (Proc.devRef .tc main_v161)) slices_S32767x512_S128x512_127_0) shapeCasts_S128x512_S64x2x512) slices_S64x2x512_S64x1x512_0_0_0) shapeCasts_S64x1x512_S64x512 := by
  after_results_simp
  rfl

/-- The right children's cell rows. -/
theorem cut8_cr : StableHlo.after hostOps8 W (Proc.devRef .tc main_v174)
    = shapeCast _ (extractStridedSlice S64x1x512 ![0, 1, 0] (shapeCast _ (extractStridedSlice S128x512 ![127, 0] (StableHlo.after hostOps8 W (Proc.devRef .tc main_v161)) slices_S32767x512_S128x512_127_0) shapeCasts_S128x512_S64x2x512) slices_S64x2x512_S64x1x512_0_1_0) shapeCasts_S64x1x512_S64x512 := by
  after_results_simp
  rfl

end Host

/-! ## The region's five level arrays at its entry, in the run -/

theorem in8_x (c : Dev nD) : Gen.W17 m ρ c (Proc.devRef .tc main_v162)
    = extractStridedSlice S64x512 ![63, 0] (m ((c : Thread nD τ).loc main_arg0)) slices_S32767x512_S64x512_63_0 :=
  (cut8_x (Gen.W16 m ρ c)).trans (by rw [arg0_8 m ρ c])

theorem in8_hl (c : Dev nD) : Gen.W17 m ρ c (Proc.devRef .tc main_v168)
    = shapeCast _ (extractStridedSlice S64x1x512 ![0, 0, 0] (shapeCast _ (extractStridedSlice S128x512 ![127, 0] (Gen.W17 m ρ c (Proc.devRef .tc main_v159)) slices_S32767x512_S128x512_127_0) shapeCasts_S128x512_S64x2x512) slices_S64x2x512_S64x1x512_0_0_0) shapeCasts_S64x1x512_S64x512 :=
  cut8_hl (Gen.W16 m ρ c)

theorem in8_hr (c : Dev nD) : Gen.W17 m ρ c (Proc.devRef .tc main_v170)
    = shapeCast _ (extractStridedSlice S64x1x512 ![0, 1, 0] (shapeCast _ (extractStridedSlice S128x512 ![127, 0] (Gen.W17 m ρ c (Proc.devRef .tc main_v159)) slices_S32767x512_S128x512_127_0) shapeCasts_S128x512_S64x2x512) slices_S64x2x512_S64x1x512_0_1_0) shapeCasts_S64x1x512_S64x512 :=
  cut8_hr (Gen.W16 m ρ c)

theorem in8_cl (c : Dev nD) : Gen.W17 m ρ c (Proc.devRef .tc main_v172)
    = shapeCast _ (extractStridedSlice S64x1x512 ![0, 0, 0] (shapeCast _ (extractStridedSlice S128x512 ![127, 0] (Gen.W17 m ρ c (Proc.devRef .tc main_v161)) slices_S32767x512_S128x512_127_0) shapeCasts_S128x512_S64x2x512) slices_S64x2x512_S64x1x512_0_0_0) shapeCasts_S64x1x512_S64x512 :=
  cut8_cl (Gen.W16 m ρ c)

theorem in8_cr (c : Dev nD) : Gen.W17 m ρ c (Proc.devRef .tc main_v174)
    = shapeCast _ (extractStridedSlice S64x1x512 ![0, 1, 0] (shapeCast _ (extractStridedSlice S128x512 ![127, 0] (Gen.W17 m ρ c (Proc.devRef .tc main_v161)) slices_S32767x512_S128x512_127_0) shapeCasts_S128x512_S64x2x512) slices_S64x2x512_S64x1x512_0_1_0) shapeCasts_S64x1x512_S64x512 :=
  cut8_cr (Gen.W16 m ρ c)

/-! ## The region's two outputs at its exit are its proof data's arrays after the last grid point -/

theorem out8_h (c : Dev nD) : Gen.W18 m ρ c (Proc.devRef .tc main_v175_0) = (Gen.dat8 (Gen.V17 m ρ) c).arrAt 17 cfg8.N :=
  Gen.W18_arr m ρ c 17

theorem out8_c (c : Dev nD) : Gen.W18 m ρ c (Proc.devRef .tc main_v175_1) = (Gen.dat8 (Gen.V17 m ρ) c).arrAt 18 cfg8.N :=
  Gen.W18_arr m ρ c 18

/-! ## The level -/

/-- The hidden heap after the level, given that the region's first output is the level function of its entry arrays. -/
theorem stepH8 (c : Dev nD)
    (hH : (Gen.dat8 (F := Ideal) (Gen.V17 m ρ) c).arrAt 17 cfg8.N
      = Cert.Tree.levelH (n := 64) (Gen.V17 m ρ c main_v162) (Gen.V17 m ρ c main_v168) (Gen.V17 m ρ c main_v170)
          (Gen.V17 m ρ c main_v172) (Gen.V17 m ρ c main_v174)
          (Gen.V17 m ρ c main_v2) (Gen.V17 m ρ c main_v5) (Gen.V17 m ρ c main_v8) (Gen.V17 m ρ c main_v11)
          (Gen.V17 m ρ c main_v14) (Gen.V17 m ρ c main_v17) (Gen.V17 m ρ c main_v20) (Gen.V17 m ρ c main_v23)
          (Gen.V17 m ρ c main_v24) (Gen.V17 m ρ c main_v25) (Gen.V17 m ρ c main_v26) (Gen.V17 m ρ c main_v27)) :
    Gen.W19 m ρ c (Proc.devRef .tc main_v177)
      = Host.scatter scatter_S32767x512_S1_S64x512_01_n_0_0 (fun _ b => b) (Gen.W17 m ρ c (Proc.devRef .tc main_v159))
          (broadcastInDim S1 ![] bcast_S_S1 (constantI S_ 32 63#32))
          (Cert.Tree.levelH (n := 64)
            (extractStridedSlice S64x512 ![63, 0] (m ((c : Thread nD τ).loc main_arg0)) slices_S32767x512_S64x512_63_0)
            (shapeCast _ (extractStridedSlice S64x1x512 ![0, 0, 0] (shapeCast _ (extractStridedSlice S128x512 ![127, 0] (Gen.W17 m ρ c (Proc.devRef .tc main_v159)) slices_S32767x512_S128x512_127_0) shapeCasts_S128x512_S64x2x512) slices_S64x2x512_S64x1x512_0_0_0) shapeCasts_S64x1x512_S64x512)
            (shapeCast _ (extractStridedSlice S64x1x512 ![0, 1, 0] (shapeCast _ (extractStridedSlice S128x512 ![127, 0] (Gen.W17 m ρ c (Proc.devRef .tc main_v159)) slices_S32767x512_S128x512_127_0) shapeCasts_S128x512_S64x2x512) slices_S64x2x512_S64x1x512_0_1_0) shapeCasts_S64x1x512_S64x512)
            (shapeCast _ (extractStridedSlice S64x1x512 ![0, 0, 0] (shapeCast _ (extractStridedSlice S128x512 ![127, 0] (Gen.W17 m ρ c (Proc.devRef .tc main_v161)) slices_S32767x512_S128x512_127_0) shapeCasts_S128x512_S64x2x512) slices_S64x2x512_S64x1x512_0_0_0) shapeCasts_S64x1x512_S64x512)
            (shapeCast _ (extractStridedSlice S64x1x512 ![0, 1, 0] (shapeCast _ (extractStridedSlice S128x512 ![127, 0] (Gen.W17 m ρ c (Proc.devRef .tc main_v161)) slices_S32767x512_S128x512_127_0) shapeCasts_S128x512_S64x2x512) slices_S64x2x512_S64x1x512_0_1_0) shapeCasts_S64x1x512_S64x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat8 (F := Ideal) (Gen.V17 m ρ) c).arrAt 17 cfg8.N
      = Cert.Tree.levelH (n := 64) (Gen.W17 m ρ c (Proc.devRef .tc main_v162)) (Gen.W17 m ρ c (Proc.devRef .tc main_v168))
          (Gen.W17 m ρ c (Proc.devRef .tc main_v170)) (Gen.W17 m ρ c (Proc.devRef .tc main_v172))
          (Gen.W17 m ρ c (Proc.devRef .tc main_v174))
          (Gen.W17 m ρ c (Proc.devRef .tc main_v2)) (Gen.W17 m ρ c (Proc.devRef .tc main_v5))
          (Gen.W17 m ρ c (Proc.devRef .tc main_v8)) (Gen.W17 m ρ c (Proc.devRef .tc main_v11))
          (Gen.W17 m ρ c (Proc.devRef .tc main_v14)) (Gen.W17 m ρ c (Proc.devRef .tc main_v17))
          (Gen.W17 m ρ c (Proc.devRef .tc main_v20)) (Gen.W17 m ρ c (Proc.devRef .tc main_v23))
          (Gen.W17 m ρ c (Proc.devRef .tc main_v24)) (Gen.W17 m ρ c (Proc.devRef .tc main_v25))
          (Gen.W17 m ρ c (Proc.devRef .tc main_v26)) (Gen.W17 m ρ c (Proc.devRef .tc main_v27)) := hH
  rw [in8_x m ρ c, in8_hl m ρ c, in8_hr m ρ c, in8_cl m ρ c, in8_cr m ρ c,
    keep8_main_v2 m ρ c, keep8_main_v5 m ρ c, keep8_main_v8 m ρ c, keep8_main_v11 m ρ c, keep8_main_v14 m ρ c,
    keep8_main_v17 m ρ c, keep8_main_v20 m ρ c, keep8_main_v23 m ρ c, keep8_main_v24 m ρ c, keep8_main_v25 m ρ c,
    keep8_main_v26 m ρ c, keep8_main_v27 m ρ c] at hH'
  refine (scat8_h (Gen.W18 m ρ c)).trans ?_
  rw [Gen.W18_of_ne m ρ c main_v159 (by decide), out8_h m ρ c, hH']

/-- The cell heap after the level, given that the region's second output is the level's cell function of its entry arrays. -/
theorem stepC8 (c : Dev nD)
    (hC : (Gen.dat8 (F := Ideal) (Gen.V17 m ρ) c).arrAt 18 cfg8.N
      = Cert.Tree.levelC (n := 64) (Gen.V17 m ρ c main_v162) (Gen.V17 m ρ c main_v168) (Gen.V17 m ρ c main_v170)
          (Gen.V17 m ρ c main_v172) (Gen.V17 m ρ c main_v174)
          (Gen.V17 m ρ c main_v2) (Gen.V17 m ρ c main_v5) (Gen.V17 m ρ c main_v8) (Gen.V17 m ρ c main_v11)
          (Gen.V17 m ρ c main_v14) (Gen.V17 m ρ c main_v17) (Gen.V17 m ρ c main_v20) (Gen.V17 m ρ c main_v23)
          (Gen.V17 m ρ c main_v24) (Gen.V17 m ρ c main_v25) (Gen.V17 m ρ c main_v26) (Gen.V17 m ρ c main_v27)) :
    Gen.W19 m ρ c (Proc.devRef .tc main_v179)
      = Host.scatter scatter_S32767x512_S1_S64x512_01_n_0_0 (fun _ b => b) (Gen.W17 m ρ c (Proc.devRef .tc main_v161))
          (broadcastInDim S1 ![] bcast_S_S1 (constantI S_ 32 63#32))
          (Cert.Tree.levelC (n := 64)
            (extractStridedSlice S64x512 ![63, 0] (m ((c : Thread nD τ).loc main_arg0)) slices_S32767x512_S64x512_63_0)
            (shapeCast _ (extractStridedSlice S64x1x512 ![0, 0, 0] (shapeCast _ (extractStridedSlice S128x512 ![127, 0] (Gen.W17 m ρ c (Proc.devRef .tc main_v159)) slices_S32767x512_S128x512_127_0) shapeCasts_S128x512_S64x2x512) slices_S64x2x512_S64x1x512_0_0_0) shapeCasts_S64x1x512_S64x512)
            (shapeCast _ (extractStridedSlice S64x1x512 ![0, 1, 0] (shapeCast _ (extractStridedSlice S128x512 ![127, 0] (Gen.W17 m ρ c (Proc.devRef .tc main_v159)) slices_S32767x512_S128x512_127_0) shapeCasts_S128x512_S64x2x512) slices_S64x2x512_S64x1x512_0_1_0) shapeCasts_S64x1x512_S64x512)
            (shapeCast _ (extractStridedSlice S64x1x512 ![0, 0, 0] (shapeCast _ (extractStridedSlice S128x512 ![127, 0] (Gen.W17 m ρ c (Proc.devRef .tc main_v161)) slices_S32767x512_S128x512_127_0) shapeCasts_S128x512_S64x2x512) slices_S64x2x512_S64x1x512_0_0_0) shapeCasts_S64x1x512_S64x512)
            (shapeCast _ (extractStridedSlice S64x1x512 ![0, 1, 0] (shapeCast _ (extractStridedSlice S128x512 ![127, 0] (Gen.W17 m ρ c (Proc.devRef .tc main_v161)) slices_S32767x512_S128x512_127_0) shapeCasts_S128x512_S64x2x512) slices_S64x2x512_S64x1x512_0_1_0) shapeCasts_S64x1x512_S64x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat8 (F := Ideal) (Gen.V17 m ρ) c).arrAt 18 cfg8.N
      = Cert.Tree.levelC (n := 64) (Gen.W17 m ρ c (Proc.devRef .tc main_v162)) (Gen.W17 m ρ c (Proc.devRef .tc main_v168))
          (Gen.W17 m ρ c (Proc.devRef .tc main_v170)) (Gen.W17 m ρ c (Proc.devRef .tc main_v172))
          (Gen.W17 m ρ c (Proc.devRef .tc main_v174))
          (Gen.W17 m ρ c (Proc.devRef .tc main_v2)) (Gen.W17 m ρ c (Proc.devRef .tc main_v5))
          (Gen.W17 m ρ c (Proc.devRef .tc main_v8)) (Gen.W17 m ρ c (Proc.devRef .tc main_v11))
          (Gen.W17 m ρ c (Proc.devRef .tc main_v14)) (Gen.W17 m ρ c (Proc.devRef .tc main_v17))
          (Gen.W17 m ρ c (Proc.devRef .tc main_v20)) (Gen.W17 m ρ c (Proc.devRef .tc main_v23))
          (Gen.W17 m ρ c (Proc.devRef .tc main_v24)) (Gen.W17 m ρ c (Proc.devRef .tc main_v25))
          (Gen.W17 m ρ c (Proc.devRef .tc main_v26)) (Gen.W17 m ρ c (Proc.devRef .tc main_v27)) := hC
  rw [in8_x m ρ c, in8_hl m ρ c, in8_hr m ρ c, in8_cl m ρ c, in8_cr m ρ c,
    keep8_main_v2 m ρ c, keep8_main_v5 m ρ c, keep8_main_v8 m ρ c, keep8_main_v11 m ρ c, keep8_main_v14 m ρ c,
    keep8_main_v17 m ρ c, keep8_main_v20 m ρ c, keep8_main_v23 m ρ c, keep8_main_v24 m ρ c, keep8_main_v25 m ρ c,
    keep8_main_v26 m ρ c, keep8_main_v27 m ρ c] at hC'
  refine (scat8_c (Gen.W18 m ρ c)).trans ?_
  rw [Gen.W18_of_ne m ρ c main_v161 (by decide), out8_c m ρ c, hC']

end Cert.KernelIdeal.Chain

end
-- ==== Proof.KReg8.lean ====
/-
  One level of the tree on the kernel's side: 64 internal nodes, worked in blocks of 64 node rows, one block per
  grid point. What the level's two output arrays hold after the region, whatever the arrays hold when it is entered.

  Grid point t reads block t (rows 64 t … 64 t + 63) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg8

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg8.N * 64 = 64 := by decide

/-! The printed index maps, decided over the grid: a row array's block at point t is block (t, 0); a weight half or a
    bias row is one block, (0, 0). -/

theorem idx0 : ∀ t : Fin cfg8.N, win8_0.index t (0 : Fin 2) = t.val ∧ win8_0.index t (1 : Fin 2) = 0 :=
  (by decide +kernel : ∀ t : Fin grid8.N, _)
theorem idx1 : ∀ t : Fin cfg8.N, win8_1.index t (0 : Fin 2) = t.val ∧ win8_1.index t (1 : Fin 2) = 0 :=
  (by decide +kernel : ∀ t : Fin grid8.N, _)
theorem idx2 : ∀ t : Fin cfg8.N, win8_2.index t (0 : Fin 2) = t.val ∧ win8_2.index t (1 : Fin 2) = 0 :=
  (by decide +kernel : ∀ t : Fin grid8.N, _)
theorem idx3 : ∀ t : Fin cfg8.N, win8_3.index t (0 : Fin 2) = t.val ∧ win8_3.index t (1 : Fin 2) = 0 :=
  (by decide +kernel : ∀ t : Fin grid8.N, _)
theorem idx4 : ∀ t : Fin cfg8.N, win8_4.index t (0 : Fin 2) = t.val ∧ win8_4.index t (1 : Fin 2) = 0 :=
  (by decide +kernel : ∀ t : Fin grid8.N, _)
theorem idx17 : ∀ t : Fin cfg8.N, win8_17.index t (0 : Fin 2) = t.val ∧ win8_17.index t (1 : Fin 2) = 0 :=
  (by decide +kernel : ∀ t : Fin grid8.N, _)
theorem idx18 : ∀ t : Fin cfg8.N, win8_18.index t (0 : Fin 2) = t.val ∧ win8_18.index t (1 : Fin 2) = 0 :=
  (by decide +kernel : ∀ t : Fin grid8.N, _)
theorem idx5 : ∀ t : Fin cfg8.N, win8_5.index t (0 : Fin 2) = 0 ∧ win8_5.index t (1 : Fin 2) = 0 :=
  (by decide +kernel : ∀ t : Fin grid8.N, _)
theorem idx6 : ∀ t : Fin cfg8.N, win8_6.index t (0 : Fin 2) = 0 ∧ win8_6.index t (1 : Fin 2) = 0 :=
  (by decide +kernel : ∀ t : Fin grid8.N, _)
theorem idx7 : ∀ t : Fin cfg8.N, win8_7.index t (0 : Fin 2) = 0 ∧ win8_7.index t (1 : Fin 2) = 0 :=
  (by decide +kernel : ∀ t : Fin grid8.N, _)
theorem idx8 : ∀ t : Fin cfg8.N, win8_8.index t (0 : Fin 2) = 0 ∧ win8_8.index t (1 : Fin 2) = 0 :=
  (by decide +kernel : ∀ t : Fin grid8.N, _)
theorem idx9 : ∀ t : Fin cfg8.N, win8_9.index t (0 : Fin 2) = 0 ∧ win8_9.index t (1 : Fin 2) = 0 :=
  (by decide +kernel : ∀ t : Fin grid8.N, _)
theorem idx10 : ∀ t : Fin cfg8.N, win8_10.index t (0 : Fin 2) = 0 ∧ win8_10.index t (1 : Fin 2) = 0 :=
  (by decide +kernel : ∀ t : Fin grid8.N, _)
theorem idx11 : ∀ t : Fin cfg8.N, win8_11.index t (0 : Fin 2) = 0 ∧ win8_11.index t (1 : Fin 2) = 0 :=
  (by decide +kernel : ∀ t : Fin grid8.N, _)
theorem idx12 : ∀ t : Fin cfg8.N, win8_12.index t (0 : Fin 2) = 0 ∧ win8_12.index t (1 : Fin 2) = 0 :=
  (by decide +kernel : ∀ t : Fin grid8.N, _)
theorem idx13 : ∀ t : Fin cfg8.N, win8_13.index t (0 : Fin 2) = 0 ∧ win8_13.index t (1 : Fin 2) = 0 :=
  (by decide +kernel : ∀ t : Fin grid8.N, _)
theorem idx14 : ∀ t : Fin cfg8.N, win8_14.index t (0 : Fin 2) = 0 ∧ win8_14.index t (1 : Fin 2) = 0 :=
  (by decide +kernel : ∀ t : Fin grid8.N, _)
theorem idx15 : ∀ t : Fin cfg8.N, win8_15.index t (0 : Fin 2) = 0 ∧ win8_15.index t (1 : Fin 2) = 0 :=
  (by decide +kernel : ∀ t : Fin grid8.N, _)
theorem idx16 : ∀ t : Fin cfg8.N, win8_16.index t (0 : Fin 2) = 0 ∧ win8_16.index t (1 : Fin 2) = 0 :=
  (by decide +kernel : ∀ t : Fin grid8.N, _)

/-! ## The blocks the body reads

A block's entry sits in its array, on each axis, at the block index times the block's extent plus the entry's own
coordinate. So entry (p, k) of block t of a row array is the array's entry (64 t + p, k), and the one block of a weight
half or of a bias row is the array itself. -/

section Reads

variable (V : (c : Dev nD) → (b : Ref sig .tc) → Buf (Elt Ideal) ((c : Thread nD τ).loc b))
variable (c : Dev nD) (t : Fin cfg8.N)

/-- Block t of x, at an entry. -/
theorem read_x (y : S64x512.Idx) (i : S64x512.Idx) (h0 : (i 0).val = t.val * 64 + (y 0).val) (h1 : (i 1).val = (y 1).val) :
    (iblk8 V c 0 t : Vec Ideal S64x512 .f32) y = (V c main_v162 : S64x512.Idx → EReal) i := by
  obtain ⟨e0, e1⟩ := idx0 t
  unfold iblk8
  rw [View.read_apply]
  show V c main_v162 _ = V c main_v162 _
  refine congrArg (V c main_v162) (funext fun a => Fin.ext ?_)
  match a with
  | ⟨0, _⟩ => show win8_0.index t (0 : Fin 2) * 64 + 1 * (y 0).val = (i 0).val; omega
  | ⟨1, _⟩ => show win8_0.index t (1 : Fin 2) * 512 + 1 * (y 1).val = (i 1).val; omega

/-- Block t of the left children's h, at an entry. -/
theorem read_hl (y : S64x512.Idx) (i : S64x512.Idx) (h0 : (i 0).val = t.val * 64 + (y 0).val) (h1 : (i 1).val = (y 1).val) :
    (iblk8 V c 1 t : Vec Ideal S64x512 .f32) y = (V c main_v168 : S64x512.Idx → EReal) i := by
  obtain ⟨e0, e1⟩ := idx1 t
  unfold iblk8
  rw [View.read_apply]
  show V c main_v168 _ = V c main_v168 _
  refine congrArg (V c main_v168) (funext fun a => Fin.ext ?_)
  match a with
  | ⟨0, _⟩ => show win8_1.index t (0 : Fin 2) * 64 + 1 * (y 0).val = (i 0).val; omega
  | ⟨1, _⟩ => show win8_1.index t (1 : Fin 2) * 512 + 1 * (y 1).val = (i 1).val; omega

/-- Block t of the right children's h, at an entry. -/
theorem read_hr (y : S64x512.Idx) (i : S64x512.Idx) (h0 : (i 0).val = t.val * 64 + (y 0).val) (h1 : (i 1).val = (y 1).val) :
    (iblk8 V c 2 t : Vec Ideal S64x512 .f32) y = (V c main_v170 : S64x512.Idx → EReal) i := by
  obtain ⟨e0, e1⟩ := idx2 t
  unfold iblk8
  rw [View.read_apply]
  show V c main_v170 _ = V c main_v170 _
  refine congrArg (V c main_v170) (funext fun a => Fin.ext ?_)
  match a with
  | ⟨0, _⟩ => show win8_2.index t (0 : Fin 2) * 64 + 1 * (y 0).val = (i 0).val; omega
  | ⟨1, _⟩ => show win8_2.index t (1 : Fin 2) * 512 + 1 * (y 1).val = (i 1).val; omega

/-- Block t of the left children's c, at an entry. -/
theorem read_cl (y : S64x512.Idx) (i : S64x512.Idx) (h0 : (i 0).val = t.val * 64 + (y 0).val) (h1 : (i 1).val = (y 1).val) :
    (iblk8 V c 3 t : Vec Ideal S64x512 .f32) y = (V c main_v172 : S64x512.Idx → EReal) i := by
  obtain ⟨e0, e1⟩ := idx3 t
  unfold iblk8
  rw [View.read_apply]
  show V c main_v172 _ = V c main_v172 _
  refine congrArg (V c main_v172) (funext fun a => Fin.ext ?_)
  match a with
  | ⟨0, _⟩ => show win8_3.index t (0 : Fin 2) * 64 + 1 * (y 0).val = (i 0).val; omega
  | ⟨1, _⟩ => show win8_3.index t (1 : Fin 2) * 512 + 1 * (y 1).val = (i 1).val; omega

/-- Block t of the right children's c, at an entry. -/
theorem read_cr (y : S64x512.Idx) (i : S64x512.Idx) (h0 : (i 0).val = t.val * 64 + (y 0).val) (h1 : (i 1).val = (y 1).val) :
    (iblk8 V c 4 t : Vec Ideal S64x512 .f32) y = (V c main_v174 : S64x512.Idx → EReal) i := by
  obtain ⟨e0, e1⟩ := idx4 t
  unfold iblk8
  rw [View.read_apply]
  show V c main_v174 _ = V c main_v174 _
  refine congrArg (V c main_v174) (funext fun a => Fin.ext ?_)
  match a with
  | ⟨0, _⟩ => show win8_4.index t (0 : Fin 2) * 64 + 1 * (y 0).val = (i 0).val; omega
  | ⟨1, _⟩ => show win8_4.index t (1 : Fin 2) * 512 + 1 * (y 1).val = (i 1).val; omega

/-- The one block of the input gate's weights over x is the array. -/
theorem read_wix : (iblk8 V c 5 t : Vec Ideal S512x512 .bf16) = (V c main_v2 : S512x512.Idx → EReal) := by
  obtain ⟨e0, e1⟩ := idx5 t
  funext y
  unfold iblk8
  rw [View.read_apply]
  show V c main_v2 _ = V c main_v2 y
  refine congrArg (V c main_v2) (funext fun a => Fin.ext ?_)
  match a with
  | ⟨0, _⟩ => show win8_5.index t (0 : Fin 2) * 512 + 1 * (y 0).val = (y 0).val; omega
  | ⟨1, _⟩ => show win8_5.index t (1 : Fin 2) * 512 + 1 * (y 1).val = (y 1).val; omega

/-- The one block of the input gate's weights over h is the array. -/
theorem read_wih : (iblk8 V c 6 t : Vec Ideal S512x512 .bf16) = (V c main_v5 : S512x512.Idx → EReal) := by
  obtain ⟨e0, e1⟩ := idx6 t
  funext y
  unfold iblk8
  rw [View.read_apply]
  show V c main_v5 _ = V c main_v5 y
  refine congrArg (V c main_v5) (funext fun a => Fin.ext ?_)
  match a with
  | ⟨0, _⟩ => show win8_6.index t (0 : Fin 2) * 512 + 1 * (y 0).val = (y 0).val; omega
  | ⟨1, _⟩ => show win8_6.index t (1 : Fin 2) * 512 + 1 * (y 1).val = (y 1).val; omega

/-- The one block of the forget gates' weights over x is the array. -/
theorem read_wfx : (iblk8 V c 7 t : Vec Ideal S512x512 .bf16) = (V c main_v8 : S512x512.Idx → EReal) := by
  obtain ⟨e0, e1⟩ := idx7 t
  funext y
  unfold iblk8
  rw [View.read_apply]
  show V c main_v8 _ = V c main_v8 y
  refine congrArg (V c main_v8) (funext fun a => Fin.ext ?_)
  match a with
  | ⟨0, _⟩ => show win8_7.index t (0 : Fin 2) * 512 + 1 * (y 0).val = (y 0).val; omega
  | ⟨1, _⟩ => show win8_7.index t (1 : Fin 2) * 512 + 1 * (y 1).val = (y 1).val; omega

/-- The one block of the forget gates' weights over h is the array. -/
theorem read_wfh : (iblk8 V c 8 t : Vec Ideal S512x512 .bf16) = (V c main_v11 : S512x512.Idx → EReal) := by
  obtain ⟨e0, e1⟩ := idx8 t
  funext y
  unfold iblk8
  rw [View.read_apply]
  show V c main_v11 _ = V c main_v11 y
  refine congrArg (V c main_v11) (funext fun a => Fin.ext ?_)
  match a with
  | ⟨0, _⟩ => show win8_8.index t (0 : Fin 2) * 512 + 1 * (y 0).val = (y 0).val; omega
  | ⟨1, _⟩ => show win8_8.index t (1 : Fin 2) * 512 + 1 * (y 1).val = (y 1).val; omega

/-- The one block of the output gate's weights over x is the array. -/
theorem read_wox : (iblk8 V c 9 t : Vec Ideal S512x512 .bf16) = (V c main_v14 : S512x512.Idx → EReal) := by
  obtain ⟨e0, e1⟩ := idx9 t
  funext y
  unfold iblk8
  rw [View.read_apply]
  show V c main_v14 _ = V c main_v14 y
  refine congrArg (V c main_v14) (funext fun a => Fin.ext ?_)
  match a with
  | ⟨0, _⟩ => show win8_9.index t (0 : Fin 2) * 512 + 1 * (y 0).val = (y 0).val; omega
  | ⟨1, _⟩ => show win8_9.index t (1 : Fin 2) * 512 + 1 * (y 1).val = (y 1).val; omega

/-- The one block of the output gate's weights over h is the array. -/
theorem read_woh : (iblk8 V c 10 t : Vec Ideal S512x512 .bf16) = (V c main_v17 : S512x512.Idx → EReal) := by
  obtain ⟨e0, e1⟩ := idx10 t
  funext y
  unfold iblk8
  rw [View.read_apply]
  show V c main_v17 _ = V c main_v17 y
  refine congrArg (V c main_v17) (funext fun a => Fin.ext ?_)
  match a with
  | ⟨0, _⟩ => show win8_10.index t (0 : Fin 2) * 512 + 1 * (y 0).val = (y 0).val; omega
  | ⟨1, _⟩ => show win8_10.index t (1 : Fin 2) * 512 + 1 * (y 1).val = (y 1).val; omega

/-- The one block of the update gate's weights over x is the array. -/
theorem read_wux : (iblk8 V c 11 t : Vec Ideal S512x512 .bf16) = (V c main_v20 : S512x512.Idx → EReal) := by
  obtain ⟨e0, e1⟩ := idx11 t
  funext y
  unfold iblk8
  rw [View.read_apply]
  show V c main_v20 _ = V c main_v20 y
  refine congrArg (V c main_v20) (funext fun a => Fin.ext ?_)
  match a with
  | ⟨0, _⟩ => show win8_11.index t (0 : Fin 2) * 512 + 1 * (y 0).val = (y 0).val; omega
  | ⟨1, _⟩ => show win8_11.index t (1 : Fin 2) * 512 + 1 * (y 1).val = (y 1).val; omega

/-- The one block of the update gate's weights over h is the array. -/
theorem read_wuh : (iblk8 V c 12 t : Vec Ideal S512x512 .bf16) = (V c main_v23 : S512x512.Idx → EReal) := by
  obtain ⟨e0, e1⟩ := idx12 t
  funext y
  unfold iblk8
  rw [View.read_apply]
  show V c main_v23 _ = V c main_v23 y
  refine congrArg (V c main_v23) (funext fun a => Fin.ext ?_)
  match a with
  | ⟨0, _⟩ => show win8_12.index t (0 : Fin 2) * 512 + 1 * (y 0).val = (y 0).val; omega
  | ⟨1, _⟩ => show win8_12.index t (1 : Fin 2) * 512 + 1 * (y 1).val = (y 1).val; omega

/-- The one block of the input gate's bias row is the array. -/
theorem read_bi : (iblk8 V c 13 t : Vec Ideal S1x512 .f32) = (V c main_v24 : S1x512.Idx → EReal) := by
  obtain ⟨e0, e1⟩ := idx13 t
  funext y
  unfold iblk8
  rw [View.read_apply]
  show V c main_v24 _ = V c main_v24 y
  refine congrArg (V c main_v24) (funext fun a => Fin.ext ?_)
  match a with
  | ⟨0, _⟩ => show win8_13.index t (0 : Fin 2) * 1 + 1 * (y 0).val = (y 0).val; omega
  | ⟨1, _⟩ => show win8_13.index t (1 : Fin 2) * 512 + 1 * (y 1).val = (y 1).val; omega

/-- The one block of the forget gates' bias row is the array. -/
theorem read_bf : (iblk8 V c 14 t : Vec Ideal S1x512 .f32) = (V c main_v25 : S1x512.Idx → EReal) := by
  obtain ⟨e0, e1⟩ := idx14 t
  funext y
  unfold iblk8
  rw [View.read_apply]
  show V c main_v25 _ = V c main_v25 y
  refine congrArg (V c main_v25) (funext fun a => Fin.ext ?_)
  match a with
  | ⟨0, _⟩ => show win8_14.index t (0 : Fin 2) * 1 + 1 * (y 0).val = (y 0).val; omega
  | ⟨1, _⟩ => show win8_14.index t (1 : Fin 2) * 512 + 1 * (y 1).val = (y 1).val; omega

/-- The one block of the output gate's bias row is the array. -/
theorem read_bo : (iblk8 V c 15 t : Vec Ideal S1x512 .f32) = (V c main_v26 : S1x512.Idx → EReal) := by
  obtain ⟨e0, e1⟩ := idx15 t
  funext y
  unfold iblk8
  rw [View.read_apply]
  show V c main_v26 _ = V c main_v26 y
  refine congrArg (V c main_v26) (funext fun a => Fin.ext ?_)
  match a with
  | ⟨0, _⟩ => show win8_15.index t (0 : Fin 2) * 1 + 1 * (y 0).val = (y 0).val; omega
  | ⟨1, _⟩ => show win8_15.index t (1 : Fin 2) * 512 + 1 * (y 1).val = (y 1).val; omega

/-- The one block of the update gate's bias row is the array. -/
theorem read_bu : (iblk8 V c 16 t : Vec Ideal S1x512 .f32) = (V c main_v27 : S1x512.Idx → EReal) := by
  obtain ⟨e0, e1⟩ := idx16 t
  funext y
  unfold iblk8
  rw [View.read_apply]
  show V c main_v27 _ = V c main_v27 y
  refine congrArg (V c main_v27) (funext fun a => Fin.ext ?_)
  match a with
  | ⟨0, _⟩ => show win8_16.index t (0 : Fin 2) * 1 + 1 * (y 0).val = (y 0).val; omega
  | ⟨1, _⟩ => show win8_16.index t (1 : Fin 2) * 512 + 1 * (y 1).val = (y 1).val; omega

end Reads

/-! ## The block body -/

/-- What a block body of 64 rows carries besides its arrays. -/
def ctx : Cert.Tree.BodyCtx 64 :=
  ⟨dot_S64x512_S512x512_S64x512_1_0_0_1_n_n, rfl, shapeCasts_S64x512_S64x512, shapeCasts_S512x512_S512x512,
    shapeCasts_S1x512_S1x512, broadcasts_S1x512_S64x512, bitsLt_bf16_f32⟩

section Body

variable {F : FTy → Type} [FloatOps F]

/-- The value the body stores into its h block is the tree cell's h block of the seventeen blocks it loads. -/
theorem bodyH_eq (x0 x1 x2 x3 x4 : Vec F S64x512 .f32) (x5 x6 x7 x8 x9 x10 x11 x12 : Vec F S512x512 .bf16)
    (x13 x14 x15 x16 : Vec F S1x512 .f32) :
    k8_pay2 (k8_pay6 x3) (k8_pay7 x4) (k8_pay13 (k8_pay11 x0 x1 x2 x5 x6 x13)) (k8_pay14 (k8_pay12 x0 x1 x2 x9 x10) x15)
      (k8_pay15 (k8_pay3 x0) (k8_pay8 x1 x2) x11 x12 x16) (k8_pay17 (k8_pay3 x0) (k8_pay9 x1) x7 x8 x14)
      (k8_pay18 (k8_pay3 x0) (k8_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S64x512 .f32) (x5 x6 x7 x8 x9 x10 x11 x12 : Vec F S512x512 .bf16)
    (x13 x14 x15 x16 : Vec F S1x512 .f32) :
    k8_pay1 (k8_pay6 x3) (k8_pay7 x4) (k8_pay13 (k8_pay11 x0 x1 x2 x5 x6 x13))
      (k8_pay15 (k8_pay3 x0) (k8_pay8 x1 x2) x11 x12 x16) (k8_pay17 (k8_pay3 x0) (k8_pay9 x1) x7 x8 x14)
      (k8_pay18 (k8_pay3 x0) (k8_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S64x512 .f32) (x5 x6 x7 x8 x9 x10 x11 x12 : Vec Ideal S512x512 .bf16)
    (x13 x14 x15 x16 : Vec Ideal S1x512 .f32)
    (X HL HR CL CR : S64x512.Idx → EReal) (w5 w6 w7 w8 w9 w10 w11 w12 : S512x512.Idx → EReal)
    (b13 b14 b15 b16 : S1x512.Idx → EReal) (p : Fin 64) (r : Fin 64) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k8_pay2 (k8_pay6 x3) (k8_pay7 x4) (k8_pay13 (k8_pay11 x0 x1 x2 x5 x6 x13)) (k8_pay14 (k8_pay12 x0 x1 x2 x9 x10) x15)
      (k8_pay15 (k8_pay3 x0) (k8_pay8 x1 x2) x11 x12 x16) (k8_pay17 (k8_pay3 x0) (k8_pay9 x1) x7 x8 x14)
      (k8_pay18 (k8_pay3 x0) (k8_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S64x512 .f32) (x5 x6 x7 x8 x9 x10 x11 x12 : Vec Ideal S512x512 .bf16)
    (x13 x14 x15 x16 : Vec Ideal S1x512 .f32)
    (X HL HR CL CR : S64x512.Idx → EReal) (w5 w6 w7 w8 w9 w10 w11 w12 : S512x512.Idx → EReal)
    (b13 b14 b15 b16 : S1x512.Idx → EReal) (p : Fin 64) (r : Fin 64) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k8_pay1 (k8_pay6 x3) (k8_pay7 x4) (k8_pay13 (k8_pay11 x0 x1 x2 x5 x6 x13))
      (k8_pay15 (k8_pay3 x0) (k8_pay8 x1 x2) x11 x12 x16) (k8_pay17 (k8_pay3 x0) (k8_pay9 x1) x7 x8 x14)
      (k8_pay18 (k8_pay3 x0) (k8_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S64x512.Idx → EReal :=
  Cert.Tree.levelH (n := 64) (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S64x512.Idx → EReal :=
  Cert.Tree.levelC (n := 64) (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg8.N) :
    (dat8 V c).flushed 17 t = ((cfg8.win 17).blk t).view.read (Elt Ideal) (GH V c) := by
  show (cfg8.win 17).cut (grid8.coords t) ((dat8 V c).after 17 t) = _
  rw [after8_17]
  unfold out8_17
  rw [View.canon_unit_zero Cert.LibBlocks.off2_zero]
  simp only [View.ld_unit_zero (S := S64x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 64) (q : Fin 512), j = ix2 p q := ⟨j 0, j 1, eq_ix2 j⟩
  have hp : p.val < 64 := p.isLt
  have ht : t.val < cfg8.N := t.isLt
  have hN : cfg8.N * 64 = 64 := points_rows
  have hr : t.val * 64 + p.val < 64 := by omega
  obtain ⟨e0, e1⟩ := idx17 t
  refine Eq.trans (b := GH V c (ix2 (⟨t.val * 64 + p.val, hr⟩ : Fin 64) q)) ?_ ?_
  · exact bodyH_at (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t)
      (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27)
      p ⟨t.val * 64 + p.val, hr⟩ q
      (fun k => read_x V c t (ix2 p k) (ix2 ⟨t.val * 64 + p.val, hr⟩ k) rfl rfl)
      (fun k => read_hl V c t (ix2 p k) (ix2 ⟨t.val * 64 + p.val, hr⟩ k) rfl rfl)
      (fun k => read_hr V c t (ix2 p k) (ix2 ⟨t.val * 64 + p.val, hr⟩ k) rfl rfl)
      (read_cl V c t (ix2 p q) (ix2 ⟨t.val * 64 + p.val, hr⟩ q) rfl rfl)
      (read_cr V c t (ix2 p q) (ix2 ⟨t.val * 64 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg8.win 17).blk t).view.emb (ix2 p q))
    refine congrArg (GH V c) (funext fun a => Fin.ext ?_)
    match a with
    | ⟨0, _⟩ => show t.val * 64 + p.val = win8_17.index t (0 : Fin 2) * 64 + 1 * p.val; omega
    | ⟨1, _⟩ => show q.val = win8_17.index t (1 : Fin 2) * 512 + 1 * q.val; omega

/-- An entry of the h array is in point t's block iff each coordinate is in the block's range on its axis. -/
theorem mem_blkH (t : Fin cfg8.N) (i : S64x512.Idx) :
    i ∈ ((cfg8.win 17).blk t).view.set ↔ ∀ a : Fin 2, win8_17.index t a * S64x512.size a ≤ (i a).val
      ∧ (i a).val < win8_17.index t a * S64x512.size a + S64x512.size a := by
  show i ∈ ((View.whole main_v175_0).slice (win8_17.rect t)).set ↔ _
  rw [View.set_slice_whole, Rect.mem_set_unit]
  exact Iff.rfl

/-- The blocks tile the h array: row r is in the block of point r / 64. -/
theorem coverH (i : S64x512.Idx) :
    ∃ t : Fin cfg8.N, (cfg8.win 17).flush t = true ∧ i ∈ ((cfg8.win 17).blk t).view.set := by
  have hi0 : (i 0).val < 64 := (i 0).isLt
  have hi1 : (i 1).val < 512 := (i 1).isLt
  have hN : cfg8.N * 64 = 64 := points_rows
  obtain ⟨hq, hlo, hhi⟩ := Cert.LibBlocks.row_in_block (nb := cfg8.N) (bs := 64) (r := (i 0).val) (by omega) (by omega)
  obtain ⟨e0, e1⟩ := idx17 (⟨(i 0).val / 64, hq⟩ : Fin cfg8.N)
  refine ⟨⟨(i 0).val / 64, hq⟩, flush8_17 _, ?_⟩
  rw [mem_blkH]
  intro a
  match a with
  | ⟨0, _⟩ =>
    show win8_17.index ⟨(i 0).val / 64, hq⟩ (0 : Fin 2) * 64 ≤ (i 0).val
      ∧ (i 0).val < win8_17.index ⟨(i 0).val / 64, hq⟩ (0 : Fin 2) * 64 + 64
    rw [e0]
    exact ⟨hlo, hhi⟩
  | ⟨1, _⟩ =>
    show win8_17.index ⟨(i 0).val / 64, hq⟩ (1 : Fin 2) * 512 ≤ (i 1).val
      ∧ (i 1).val < win8_17.index ⟨(i 0).val / 64, hq⟩ (1 : Fin 2) * 512 + 512
    omega

/-- What point t writes back to the c array is block t of the level's c. -/
theorem flushedC (c : Dev nD) (t : Fin cfg8.N) :
    (dat8 V c).flushed 18 t = ((cfg8.win 18).blk t).view.read (Elt Ideal) (GC V c) := by
  show (cfg8.win 18).cut (grid8.coords t) ((dat8 V c).after 18 t) = _
  rw [after8_18]
  unfold out8_18
  rw [View.canon_unit_zero Cert.LibBlocks.off2_zero]
  simp only [View.ld_unit_zero (S := S64x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 64) (q : Fin 512), j = ix2 p q := ⟨j 0, j 1, eq_ix2 j⟩
  have hp : p.val < 64 := p.isLt
  have ht : t.val < cfg8.N := t.isLt
  have hN : cfg8.N * 64 = 64 := points_rows
  have hr : t.val * 64 + p.val < 64 := by omega
  obtain ⟨e0, e1⟩ := idx18 t
  refine Eq.trans (b := GC V c (ix2 (⟨t.val * 64 + p.val, hr⟩ : Fin 64) q)) ?_ ?_
  · exact bodyC_at (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) (iblk8 V c 14 t) (iblk8 V c 15 t) (iblk8 V c 16 t)
      (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27)
      p ⟨t.val * 64 + p.val, hr⟩ q
      (fun k => read_x V c t (ix2 p k) (ix2 ⟨t.val * 64 + p.val, hr⟩ k) rfl rfl)
      (fun k => read_hl V c t (ix2 p k) (ix2 ⟨t.val * 64 + p.val, hr⟩ k) rfl rfl)
      (fun k => read_hr V c t (ix2 p k) (ix2 ⟨t.val * 64 + p.val, hr⟩ k) rfl rfl)
      (read_cl V c t (ix2 p q) (ix2 ⟨t.val * 64 + p.val, hr⟩ q) rfl rfl)
      (read_cr V c t (ix2 p q) (ix2 ⟨t.val * 64 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg8.win 18).blk t).view.emb (ix2 p q))
    refine congrArg (GC V c) (funext fun a => Fin.ext ?_)
    match a with
    | ⟨0, _⟩ => show t.val * 64 + p.val = win8_18.index t (0 : Fin 2) * 64 + 1 * p.val; omega
    | ⟨1, _⟩ => show q.val = win8_18.index t (1 : Fin 2) * 512 + 1 * q.val; omega

/-- An entry of the c array is in point t's block iff each coordinate is in the block's range on its axis. -/
theorem mem_blkC (t : Fin cfg8.N) (i : S64x512.Idx) :
    i ∈ ((cfg8.win 18).blk t).view.set ↔ ∀ a : Fin 2, win8_18.index t a * S64x512.size a ≤ (i a).val
      ∧ (i a).val < win8_18.index t a * S64x512.size a + S64x512.size a := by
  show i ∈ ((View.whole main_v175_1).slice (win8_18.rect t)).set ↔ _
  rw [View.set_slice_whole, Rect.mem_set_unit]
  exact Iff.rfl

/-- The blocks tile the c array: row r is in the block of point r / 64. -/
theorem coverC (i : S64x512.Idx) :
    ∃ t : Fin cfg8.N, (cfg8.win 18).flush t = true ∧ i ∈ ((cfg8.win 18).blk t).view.set := by
  have hi0 : (i 0).val < 64 := (i 0).isLt
  have hi1 : (i 1).val < 512 := (i 1).isLt
  have hN : cfg8.N * 64 = 64 := points_rows
  obtain ⟨hq, hlo, hhi⟩ := Cert.LibBlocks.row_in_block (nb := cfg8.N) (bs := 64) (r := (i 0).val) (by omega) (by omega)
  obtain ⟨e0, e1⟩ := idx18 (⟨(i 0).val / 64, hq⟩ : Fin cfg8.N)
  refine ⟨⟨(i 0).val / 64, hq⟩, flush8_18 _, ?_⟩
  rw [mem_blkC]
  intro a
  match a with
  | ⟨0, _⟩ =>
    show win8_18.index ⟨(i 0).val / 64, hq⟩ (0 : Fin 2) * 64 ≤ (i 0).val
      ∧ (i 0).val < win8_18.index ⟨(i 0).val / 64, hq⟩ (0 : Fin 2) * 64 + 64
    rw [e0]
    exact ⟨hlo, hhi⟩
  | ⟨1, _⟩ =>
    show win8_18.index ⟨(i 0).val / 64, hq⟩ (1 : Fin 2) * 512 ≤ (i 1).val
      ∧ (i 1).val < win8_18.index ⟨(i 0).val / 64, hq⟩ (1 : Fin 2) * 512 + 512
    omega

/-- After the region the h array holds the level's h of the seventeen arrays as the region finds them. -/
theorem arrH (c : Dev nD) :
    (dat8 (F := Ideal) V c).arrAt 17 cfg8.N
      = Cert.Tree.levelH (n := 64) (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27) :=
  (dat8 V c).arrAt_eq_of_cover 17 (GH V c) (fun t _ => flushedH V c t) coverH

/-- After the region the c array holds the level's c of the seventeen arrays as the region finds them. -/
theorem arrC (c : Dev nD) :
    (dat8 (F := Ideal) V c).arrAt 18 cfg8.N
      = Cert.Tree.levelC (n := 64) (V c main_v162) (V c main_v168) (V c main_v170) (V c main_v172) (V c main_v174) (V c main_v2) (V c main_v5) (V c main_v8) (V c main_v11) (V c main_v14) (V c main_v17) (V c main_v20) (V c main_v23) (V c main_v24) (V c main_v25) (V c main_v26) (V c main_v27) :=
  (dat8 V c).arrAt_eq_of_cover 18 (GC V c) (fun t _ => flushedC V c t) coverC

end Arrays

end Cert.KernelIdeal.Reg8

end
-- ==== Proof.RStep8.lean ====
/-
  The reference's level of 64 nodes (heap rows 63 … 126), read off its run's named buffers: the h and c heap
  arrays after the level are the arrays before it with the level's rows replaced by the level function of the x rows
  and of the children's rows (the even and odd rows of heap rows 127 … 254 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx8 : Cert.Tree.HostCtx 64 :=
  ⟨dot_S64x1024_S1024x512_S64x512_1_0_0_1_n_n, rfl, concatenates_S64x512_S64x512_S64x1024_d1,
    transposes_S512x1024_S1024x512_1_0, bcast_S512_S1x512_1, bcast_S1x512_S64x512_0_1, bcast_S_S64x512⟩

variable (V0 : Valuation τ sig (Elt Ideal))

/-- The level's x rows. -/
abbrev xl8 : Vec Ideal S64x512 .f32 :=
  extractStridedSlice S64x512 ![63, 0] (V0 (Proc.devRef .tc main_arg0)) slices_S32767x512_S64x512_63_0

/-- The left (even) and right (odd) children's rows of a heap array. -/
abbrev childL8 (A : Vec Ideal S32767x512 .f32) : Vec Ideal S64x512 .f32 :=
  shapeCast _ (extractStridedSlice S64x1x512 ![0, 0, 0] (shapeCast _ (extractStridedSlice S128x512 ![127, 0] A slices_S32767x512_S128x512_127_0) shapeCasts_S128x512_S64x2x512) slices_S64x2x512_S64x1x512_0_0_0) shapeCasts_S64x1x512_S64x512

abbrev childR8 (A : Vec Ideal S32767x512 .f32) : Vec Ideal S64x512 .f32 :=
  shapeCast _ (extractStridedSlice S64x1x512 ![0, 1, 0] (shapeCast _ (extractStridedSlice S128x512 ![127, 0] A slices_S32767x512_S128x512_127_0) shapeCasts_S128x512_S64x2x512) slices_S64x2x512_S64x1x512_0_1_0) shapeCasts_S64x1x512_S64x512

theorem stepC8 : res_main_v663 V0
    = Host.scatter scatter_S32767x512_S1_S64x512_01_n_0_0 (fun _ b => b) (res_main_v585 V0) (broadcastInDim S1 ![] bcast_S_S1 (constantI S_ 32 63#32))
        (Cert.Tree.hostLevelC ctx8 (xl8 V0) (childL8 (res_main_v583 V0)) (childR8 (res_main_v583 V0)) (childL8 (res_main_v585 V0)) (childR8 (res_main_v585 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v663 res_main_v657 res_main_v596 res_main_v592 res_main_v594 res_main_v588 res_main_v590 res_main_v586
  rfl

theorem stepH8 : res_main_v661 V0
    = Host.scatter scatter_S32767x512_S1_S64x512_01_n_0_0 (fun _ b => b) (res_main_v583 V0) (broadcastInDim S1 ![] bcast_S_S1 (constantI S_ 32 63#32))
        (Cert.Tree.hostLevelH ctx8 (xl8 V0) (childL8 (res_main_v583 V0)) (childR8 (res_main_v583 V0)) (childL8 (res_main_v585 V0)) (childR8 (res_main_v585 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v661 res_main_v657 res_main_v596 res_main_v592 res_main_v594 res_main_v588 res_main_v590 res_main_v586
  rfl

end Cert.ReferenceIdeal.Chain

end
-- ==== Proof.Bridge8.lean ====
/-
  The level of 64 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep8
import proofs.«110311_j37117107372689_1_alg».proof.Proof.KReg8
import proofs.«110311_j37117107372689_1_alg».proof.Proof.RStep8
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 64 nodes, they agree after it. -/
theorem level8 (hA : Agree m V0 c)
    (hH : Cert.KernelIdeal.Gen.W17 m ρ c (Proc.devRef .tc Cert.KernelIdeal.main_v159) = Cert.ReferenceIdeal.Value.res_main_v583 V0)
    (hC : Cert.KernelIdeal.Gen.W17 m ρ c (Proc.devRef .tc Cert.KernelIdeal.main_v161) = Cert.ReferenceIdeal.Value.res_main_v585 V0) :
    Cert.KernelIdeal.Gen.W19 m ρ c (Proc.devRef .tc Cert.KernelIdeal.main_v177) = Cert.ReferenceIdeal.Value.res_main_v661 V0
      ∧ Cert.KernelIdeal.Gen.W19 m ρ c (Proc.devRef .tc Cert.KernelIdeal.main_v179) = Cert.ReferenceIdeal.Value.res_main_v663 V0 := by
  constructor
  · rw [Cert.KernelIdeal.Chain.stepH8 m ρ c (Cert.KernelIdeal.Reg8.arrH (Cert.KernelIdeal.Gen.V17 m ρ) c),
      Cert.ReferenceIdeal.Chain.stepH8 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC8 m ρ c (Cert.KernelIdeal.Reg8.arrC (Cert.KernelIdeal.Gen.V17 m ρ) c),
      Cert.ReferenceIdeal.Chain.stepC8 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep9.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 9: what its scatters leave in the two heap arrays

The host stretch before the region cuts the level's 32 rows of node features out of the argument and, out of each
heap array (hidden states, cell states), the 64 rows of the level below, which it pairs up: row p's left child is
the pair's first member and its right child the second. The region computes the level's hidden and cell rows from
these five arrays and the twelve weight and bias buffers; the host stretch after it scatters the two results into the
heap arrays at row 31. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat9_h : StableHlo.after hostOps10 W (Proc.devRef .tc main_v195)
    = Host.scatter scatter_S32767x512_S1_S32x512_01_n_0_0 (fun _ b => b) (W (Proc.devRef .tc main_v177))
        (broadcastInDim S1 ![] bcast_S_S1 (constantI S_ 32 31#32)) (W (Proc.devRef .tc main_v193_0)) := by
  after_results
  rfl

/-- And the new cell heap: the old one with the region's second output scattered in. -/
theorem scat9_c : StableHlo.after hostOps10 W (Proc.devRef .tc main_v197)
    = Host.scatter scatter_S32767x512_S1_S32x512_01_n_0_0 (fun _ b => b) (W (Proc.devRef .tc main_v179))
        (broadcastInDim S1 ![] bcast_S_S1 (constantI S_ 32 31#32)) (W (Proc.devRef .tc main_v193_1)) := by
  after_results
  rfl

/-- The stretch before the region: the level's rows of node features. -/
theorem cut9_x : StableHlo.after hostOps9 W (Proc.devRef .tc main_v180)
    = extractStridedSlice S32x512 ![31, 0] (W (Proc.devRef .tc main_arg0)) slices_S32767x512_S32x512_31_0 := by
  after_results

/-- The left children's hidden rows, out of the hidden heap as this stretch itself leaves it. -/
theorem cut9_hl : StableHlo.after hostOps9 W (Proc.devRef .tc main_v186)
    = shapeCast _ (extractStridedSlice S32x1x512 ![0, 0, 0] (shapeCast _ (extractStridedSlice S64x512 ![63, 0] (StableHlo.after hostOps9 W (Proc.devRef .tc main_v177)) slices_S32767x512_S64x512_63_0) shapeCasts_S64x512_S32x2x512) slices_S32x2x512_S32x1x512_0_0_0) shapeCasts_S32x1x512_S32x512 := by
  after_results_simp
  rfl

/-- The right children's hidden rows. -/
theorem cut9_hr : StableHlo.after hostOps9 W (Proc.devRef .tc main_v188)
    = shapeCast _ (extractStridedSlice S32x1x512 ![0, 1, 0] (shapeCast _ (extractStridedSlice S64x512 ![63, 0] (StableHlo.after hostOps9 W (Proc.devRef .tc main_v177)) slices_S32767x512_S64x512_63_0) shapeCasts_S64x512_S32x2x512) slices_S32x2x512_S32x1x512_0_1_0) shapeCasts_S32x1x512_S32x512 := by
  after_results_simp
  rfl

/-- The left children's cell rows, out of the cell heap. -/
theorem cut9_cl : StableHlo.after hostOps9 W (Proc.devRef .tc main_v190)
    = shapeCast _ (extractStridedSlice S32x1x512 ![0, 0, 0] (shapeCast _ (extractStridedSlice S64x512 ![63, 0] (StableHlo.after hostOps9 W (Proc.devRef .tc main_v179)) slices_S32767x512_S64x512_63_0) shapeCasts_S64x512_S32x2x512) slices_S32x2x512_S32x1x512_0_0_0) shapeCasts_S32x1x512_S32x512 := by
  after_results_simp
  rfl

/-- The right children's cell rows. -/
theorem cut9_cr : StableHlo.after hostOps9 W (Proc.devRef .tc main_v192)
    = shapeCast _ (extractStridedSlice S32x1x512 ![0, 1, 0] (shapeCast _ (extractStridedSlice S64x512 ![63, 0] (StableHlo.after hostOps9 W (Proc.devRef .tc main_v179)) slices_S32767x512_S64x512_63_0) shapeCasts_S64x512_S32x2x512) slices_S32x2x512_S32x1x512_0_1_0) shapeCasts_S32x1x512_S32x512 := by
  after_results_simp
  rfl

end Host

/-! ## The region's five level arrays at its entry, in the run -/

theorem in9_x (c : Dev nD) : Gen.W19 m ρ c (Proc.devRef .tc main_v180)
    = extractStridedSlice S32x512 ![31, 0] (m ((c : Thread nD τ).loc main_arg0)) slices_S32767x512_S32x512_31_0 :=
  (cut9_x (Gen.W18 m ρ c)).trans (by rw [arg0_9 m ρ c])

theorem in9_hl (c : Dev nD) : Gen.W19 m ρ c (Proc.devRef .tc main_v186)
    = shapeCast _ (extractStridedSlice S32x1x512 ![0, 0, 0] (shapeCast _ (extractStridedSlice S64x512 ![63, 0] (Gen.W19 m ρ c (Proc.devRef .tc main_v177)) slices_S32767x512_S64x512_63_0) shapeCasts_S64x512_S32x2x512) slices_S32x2x512_S32x1x512_0_0_0) shapeCasts_S32x1x512_S32x512 :=
  cut9_hl (Gen.W18 m ρ c)

theorem in9_hr (c : Dev nD) : Gen.W19 m ρ c (Proc.devRef .tc main_v188)
    = shapeCast _ (extractStridedSlice S32x1x512 ![0, 1, 0] (shapeCast _ (extractStridedSlice S64x512 ![63, 0] (Gen.W19 m ρ c (Proc.devRef .tc main_v177)) slices_S32767x512_S64x512_63_0) shapeCasts_S64x512_S32x2x512) slices_S32x2x512_S32x1x512_0_1_0) shapeCasts_S32x1x512_S32x512 :=
  cut9_hr (Gen.W18 m ρ c)

theorem in9_cl (c : Dev nD) : Gen.W19 m ρ c (Proc.devRef .tc main_v190)
    = shapeCast _ (extractStridedSlice S32x1x512 ![0, 0, 0] (shapeCast _ (extractStridedSlice S64x512 ![63, 0] (Gen.W19 m ρ c (Proc.devRef .tc main_v179)) slices_S32767x512_S64x512_63_0) shapeCasts_S64x512_S32x2x512) slices_S32x2x512_S32x1x512_0_0_0) shapeCasts_S32x1x512_S32x512 :=
  cut9_cl (Gen.W18 m ρ c)

theorem in9_cr (c : Dev nD) : Gen.W19 m ρ c (Proc.devRef .tc main_v192)
    = shapeCast _ (extractStridedSlice S32x1x512 ![0, 1, 0] (shapeCast _ (extractStridedSlice S64x512 ![63, 0] (Gen.W19 m ρ c (Proc.devRef .tc main_v179)) slices_S32767x512_S64x512_63_0) shapeCasts_S64x512_S32x2x512) slices_S32x2x512_S32x1x512_0_1_0) shapeCasts_S32x1x512_S32x512 :=
  cut9_cr (Gen.W18 m ρ c)

/-! ## The region's two outputs at its exit are its proof data's arrays after the last grid point -/

theorem out9_h (c : Dev nD) : Gen.W20 m ρ c (Proc.devRef .tc main_v193_0) = (Gen.dat9 (Gen.V19 m ρ) c).arrAt 17 cfg9.N :=
  Gen.W20_arr m ρ c 17

theorem out9_c (c : Dev nD) : Gen.W20 m ρ c (Proc.devRef .tc main_v193_1) = (Gen.dat9 (Gen.V19 m ρ) c).arrAt 18 cfg9.N :=
  Gen.W20_arr m ρ c 18

/-! ## The level -/

/-- The hidden heap after the level, given that the region's first output is the level function of its entry arrays. -/
theorem stepH9 (c : Dev nD)
    (hH : (Gen.dat9 (F := Ideal) (Gen.V19 m ρ) c).arrAt 17 cfg9.N
      = Cert.Tree.levelH (n := 32) (Gen.V19 m ρ c main_v180) (Gen.V19 m ρ c main_v186) (Gen.V19 m ρ c main_v188)
          (Gen.V19 m ρ c main_v190) (Gen.V19 m ρ c main_v192)
          (Gen.V19 m ρ c main_v2) (Gen.V19 m ρ c main_v5) (Gen.V19 m ρ c main_v8) (Gen.V19 m ρ c main_v11)
          (Gen.V19 m ρ c main_v14) (Gen.V19 m ρ c main_v17) (Gen.V19 m ρ c main_v20) (Gen.V19 m ρ c main_v23)
          (Gen.V19 m ρ c main_v24) (Gen.V19 m ρ c main_v25) (Gen.V19 m ρ c main_v26) (Gen.V19 m ρ c main_v27)) :
    Gen.W21 m ρ c (Proc.devRef .tc main_v195)
      = Host.scatter scatter_S32767x512_S1_S32x512_01_n_0_0 (fun _ b => b) (Gen.W19 m ρ c (Proc.devRef .tc main_v177))
          (broadcastInDim S1 ![] bcast_S_S1 (constantI S_ 32 31#32))
          (Cert.Tree.levelH (n := 32)
            (extractStridedSlice S32x512 ![31, 0] (m ((c : Thread nD τ).loc main_arg0)) slices_S32767x512_S32x512_31_0)
            (shapeCast _ (extractStridedSlice S32x1x512 ![0, 0, 0] (shapeCast _ (extractStridedSlice S64x512 ![63, 0] (Gen.W19 m ρ c (Proc.devRef .tc main_v177)) slices_S32767x512_S64x512_63_0) shapeCasts_S64x512_S32x2x512) slices_S32x2x512_S32x1x512_0_0_0) shapeCasts_S32x1x512_S32x512)
            (shapeCast _ (extractStridedSlice S32x1x512 ![0, 1, 0] (shapeCast _ (extractStridedSlice S64x512 ![63, 0] (Gen.W19 m ρ c (Proc.devRef .tc main_v177)) slices_S32767x512_S64x512_63_0) shapeCasts_S64x512_S32x2x512) slices_S32x2x512_S32x1x512_0_1_0) shapeCasts_S32x1x512_S32x512)
            (shapeCast _ (extractStridedSlice S32x1x512 ![0, 0, 0] (shapeCast _ (extractStridedSlice S64x512 ![63, 0] (Gen.W19 m ρ c (Proc.devRef .tc main_v179)) slices_S32767x512_S64x512_63_0) shapeCasts_S64x512_S32x2x512) slices_S32x2x512_S32x1x512_0_0_0) shapeCasts_S32x1x512_S32x512)
            (shapeCast _ (extractStridedSlice S32x1x512 ![0, 1, 0] (shapeCast _ (extractStridedSlice S64x512 ![63, 0] (Gen.W19 m ρ c (Proc.devRef .tc main_v179)) slices_S32767x512_S64x512_63_0) shapeCasts_S64x512_S32x2x512) slices_S32x2x512_S32x1x512_0_1_0) shapeCasts_S32x1x512_S32x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat9 (F := Ideal) (Gen.V19 m ρ) c).arrAt 17 cfg9.N
      = Cert.Tree.levelH (n := 32) (Gen.W19 m ρ c (Proc.devRef .tc main_v180)) (Gen.W19 m ρ c (Proc.devRef .tc main_v186))
          (Gen.W19 m ρ c (Proc.devRef .tc main_v188)) (Gen.W19 m ρ c (Proc.devRef .tc main_v190))
          (Gen.W19 m ρ c (Proc.devRef .tc main_v192))
          (Gen.W19 m ρ c (Proc.devRef .tc main_v2)) (Gen.W19 m ρ c (Proc.devRef .tc main_v5))
          (Gen.W19 m ρ c (Proc.devRef .tc main_v8)) (Gen.W19 m ρ c (Proc.devRef .tc main_v11))
          (Gen.W19 m ρ c (Proc.devRef .tc main_v14)) (Gen.W19 m ρ c (Proc.devRef .tc main_v17))
          (Gen.W19 m ρ c (Proc.devRef .tc main_v20)) (Gen.W19 m ρ c (Proc.devRef .tc main_v23))
          (Gen.W19 m ρ c (Proc.devRef .tc main_v24)) (Gen.W19 m ρ c (Proc.devRef .tc main_v25))
          (Gen.W19 m ρ c (Proc.devRef .tc main_v26)) (Gen.W19 m ρ c (Proc.devRef .tc main_v27)) := hH
  rw [in9_x m ρ c, in9_hl m ρ c, in9_hr m ρ c, in9_cl m ρ c, in9_cr m ρ c,
    keep9_main_v2 m ρ c, keep9_main_v5 m ρ c, keep9_main_v8 m ρ c, keep9_main_v11 m ρ c, keep9_main_v14 m ρ c,
    keep9_main_v17 m ρ c, keep9_main_v20 m ρ c, keep9_main_v23 m ρ c, keep9_main_v24 m ρ c, keep9_main_v25 m ρ c,
    keep9_main_v26 m ρ c, keep9_main_v27 m ρ c] at hH'
  refine (scat9_h (Gen.W20 m ρ c)).trans ?_
  rw [Gen.W20_of_ne m ρ c main_v177 (by decide), out9_h m ρ c, hH']

/-- The cell heap after the level, given that the region's second output is the level's cell function of its entry arrays. -/
theorem stepC9 (c : Dev nD)
    (hC : (Gen.dat9 (F := Ideal) (Gen.V19 m ρ) c).arrAt 18 cfg9.N
      = Cert.Tree.levelC (n := 32) (Gen.V19 m ρ c main_v180) (Gen.V19 m ρ c main_v186) (Gen.V19 m ρ c main_v188)
          (Gen.V19 m ρ c main_v190) (Gen.V19 m ρ c main_v192)
          (Gen.V19 m ρ c main_v2) (Gen.V19 m ρ c main_v5) (Gen.V19 m ρ c main_v8) (Gen.V19 m ρ c main_v11)
          (Gen.V19 m ρ c main_v14) (Gen.V19 m ρ c main_v17) (Gen.V19 m ρ c main_v20) (Gen.V19 m ρ c main_v23)
          (Gen.V19 m ρ c main_v24) (Gen.V19 m ρ c main_v25) (Gen.V19 m ρ c main_v26) (Gen.V19 m ρ c main_v27)) :
    Gen.W21 m ρ c (Proc.devRef .tc main_v197)
      = Host.scatter scatter_S32767x512_S1_S32x512_01_n_0_0 (fun _ b => b) (Gen.W19 m ρ c (Proc.devRef .tc main_v179))
          (broadcastInDim S1 ![] bcast_S_S1 (constantI S_ 32 31#32))
          (Cert.Tree.levelC (n := 32)
            (extractStridedSlice S32x512 ![31, 0] (m ((c : Thread nD τ).loc main_arg0)) slices_S32767x512_S32x512_31_0)
            (shapeCast _ (extractStridedSlice S32x1x512 ![0, 0, 0] (shapeCast _ (extractStridedSlice S64x512 ![63, 0] (Gen.W19 m ρ c (Proc.devRef .tc main_v177)) slices_S32767x512_S64x512_63_0) shapeCasts_S64x512_S32x2x512) slices_S32x2x512_S32x1x512_0_0_0) shapeCasts_S32x1x512_S32x512)
            (shapeCast _ (extractStridedSlice S32x1x512 ![0, 1, 0] (shapeCast _ (extractStridedSlice S64x512 ![63, 0] (Gen.W19 m ρ c (Proc.devRef .tc main_v177)) slices_S32767x512_S64x512_63_0) shapeCasts_S64x512_S32x2x512) slices_S32x2x512_S32x1x512_0_1_0) shapeCasts_S32x1x512_S32x512)
            (shapeCast _ (extractStridedSlice S32x1x512 ![0, 0, 0] (shapeCast _ (extractStridedSlice S64x512 ![63, 0] (Gen.W19 m ρ c (Proc.devRef .tc main_v179)) slices_S32767x512_S64x512_63_0) shapeCasts_S64x512_S32x2x512) slices_S32x2x512_S32x1x512_0_0_0) shapeCasts_S32x1x512_S32x512)
            (shapeCast _ (extractStridedSlice S32x1x512 ![0, 1, 0] (shapeCast _ (extractStridedSlice S64x512 ![63, 0] (Gen.W19 m ρ c (Proc.devRef .tc main_v179)) slices_S32767x512_S64x512_63_0) shapeCasts_S64x512_S32x2x512) slices_S32x2x512_S32x1x512_0_1_0) shapeCasts_S32x1x512_S32x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat9 (F := Ideal) (Gen.V19 m ρ) c).arrAt 18 cfg9.N
      = Cert.Tree.levelC (n := 32) (Gen.W19 m ρ c (Proc.devRef .tc main_v180)) (Gen.W19 m ρ c (Proc.devRef .tc main_v186))
          (Gen.W19 m ρ c (Proc.devRef .tc main_v188)) (Gen.W19 m ρ c (Proc.devRef .tc main_v190))
          (Gen.W19 m ρ c (Proc.devRef .tc main_v192))
          (Gen.W19 m ρ c (Proc.devRef .tc main_v2)) (Gen.W19 m ρ c (Proc.devRef .tc main_v5))
          (Gen.W19 m ρ c (Proc.devRef .tc main_v8)) (Gen.W19 m ρ c (Proc.devRef .tc main_v11))
          (Gen.W19 m ρ c (Proc.devRef .tc main_v14)) (Gen.W19 m ρ c (Proc.devRef .tc main_v17))
          (Gen.W19 m ρ c (Proc.devRef .tc main_v20)) (Gen.W19 m ρ c (Proc.devRef .tc main_v23))
          (Gen.W19 m ρ c (Proc.devRef .tc main_v24)) (Gen.W19 m ρ c (Proc.devRef .tc main_v25))
          (Gen.W19 m ρ c (Proc.devRef .tc main_v26)) (Gen.W19 m ρ c (Proc.devRef .tc main_v27)) := hC
  rw [in9_x m ρ c, in9_hl m ρ c, in9_hr m ρ c, in9_cl m ρ c, in9_cr m ρ c,
    keep9_main_v2 m ρ c, keep9_main_v5 m ρ c, keep9_main_v8 m ρ c, keep9_main_v11 m ρ c, keep9_main_v14 m ρ c,
    keep9_main_v17 m ρ c, keep9_main_v20 m ρ c, keep9_main_v23 m ρ c, keep9_main_v24 m ρ c, keep9_main_v25 m ρ c,
    keep9_main_v26 m ρ c, keep9_main_v27 m ρ c] at hC'
  refine (scat9_c (Gen.W20 m ρ c)).trans ?_
  rw [Gen.W20_of_ne m ρ c main_v179 (by decide), out9_c m ρ c, hC']

end Cert.KernelIdeal.Chain

end
-- ==== Proof.KReg9.lean ====
/-
  One level of the tree on the kernel's side: 32 internal nodes, worked in blocks of 32 node rows, one block per
  grid point. What the level's two output arrays hold after the region, whatever the arrays hold when it is entered.

  Grid point t reads block t (rows 32 t … 32 t + 31) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg9

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg9.N * 32 = 32 := by decide

/-! The printed index maps, decided over the grid: a row array's block at point t is block (t, 0); a weight half or a
    bias row is one block, (0, 0). -/

theorem idx0 : ∀ t : Fin cfg9.N, win9_0.index t (0 : Fin 2) = t.val ∧ win9_0.index t (1 : Fin 2) = 0 :=
  (by decide +kernel : ∀ t : Fin grid9.N, _)
theorem idx1 : ∀ t : Fin cfg9.N, win9_1.index t (0 : Fin 2) = t.val ∧ win9_1.index t (1 : Fin 2) = 0 :=
  (by decide +kernel : ∀ t : Fin grid9.N, _)
theorem idx2 : ∀ t : Fin cfg9.N, win9_2.index t (0 : Fin 2) = t.val ∧ win9_2.index t (1 : Fin 2) = 0 :=
  (by decide +kernel : ∀ t : Fin grid9.N, _)
theorem idx3 : ∀ t : Fin cfg9.N, win9_3.index t (0 : Fin 2) = t.val ∧ win9_3.index t (1 : Fin 2) = 0 :=
  (by decide +kernel : ∀ t : Fin grid9.N, _)
theorem idx4 : ∀ t : Fin cfg9.N, win9_4.index t (0 : Fin 2) = t.val ∧ win9_4.index t (1 : Fin 2) = 0 :=
  (by decide +kernel : ∀ t : Fin grid9.N, _)
theorem idx17 : ∀ t : Fin cfg9.N, win9_17.index t (0 : Fin 2) = t.val ∧ win9_17.index t (1 : Fin 2) = 0 :=
  (by decide +kernel : ∀ t : Fin grid9.N, _)
theorem idx18 : ∀ t : Fin cfg9.N, win9_18.index t (0 : Fin 2) = t.val ∧ win9_18.index t (1 : Fin 2) = 0 :=
  (by decide +kernel : ∀ t : Fin grid9.N, _)
theorem idx5 : ∀ t : Fin cfg9.N, win9_5.index t (0 : Fin 2) = 0 ∧ win9_5.index t (1 : Fin 2) = 0 :=
  (by decide +kernel : ∀ t : Fin grid9.N, _)
theorem idx6 : ∀ t : Fin cfg9.N, win9_6.index t (0 : Fin 2) = 0 ∧ win9_6.index t (1 : Fin 2) = 0 :=
  (by decide +kernel : ∀ t : Fin grid9.N, _)
theorem idx7 : ∀ t : Fin cfg9.N, win9_7.index t (0 : Fin 2) = 0 ∧ win9_7.index t (1 : Fin 2) = 0 :=
  (by decide +kernel : ∀ t : Fin grid9.N, _)
theorem idx8 : ∀ t : Fin cfg9.N, win9_8.index t (0 : Fin 2) = 0 ∧ win9_8.index t (1 : Fin 2) = 0 :=
  (by decide +kernel : ∀ t : Fin grid9.N, _)
theorem idx9 : ∀ t : Fin cfg9.N, win9_9.index t (0 : Fin 2) = 0 ∧ win9_9.index t (1 : Fin 2) = 0 :=
  (by decide +kernel : ∀ t : Fin grid9.N, _)
theorem idx10 : ∀ t : Fin cfg9.N, win9_10.index t (0 : Fin 2) = 0 ∧ win9_10.index t (1 : Fin 2) = 0 :=
  (by decide +kernel : ∀ t : Fin grid9.N, _)
theorem idx11 : ∀ t : Fin cfg9.N, win9_11.index t (0 : Fin 2) = 0 ∧ win9_11.index t (1 : Fin 2) = 0 :=
  (by decide +kernel : ∀ t : Fin grid9.N, _)
theorem idx12 : ∀ t : Fin cfg9.N, win9_12.index t (0 : Fin 2) = 0 ∧ win9_12.index t (1 : Fin 2) = 0 :=
  (by decide +kernel : ∀ t : Fin grid9.N, _)
theorem idx13 : ∀ t : Fin cfg9.N, win9_13.index t (0 : Fin 2) = 0 ∧ win9_13.index t (1 : Fin 2) = 0 :=
  (by decide +kernel : ∀ t : Fin grid9.N, _)
theorem idx14 : ∀ t : Fin cfg9.N, win9_14.index t (0 : Fin 2) = 0 ∧ win9_14.index t (1 : Fin 2) = 0 :=
  (by decide +kernel : ∀ t : Fin grid9.N, _)
theorem idx15 : ∀ t : Fin cfg9.N, win9_15.index t (0 : Fin 2) = 0 ∧ win9_15.index t (1 : Fin 2) = 0 :=
  (by decide +kernel : ∀ t : Fin grid9.N, _)
theorem idx16 : ∀ t : Fin cfg9.N, win9_16.index t (0 : Fin 2) = 0 ∧ win9_16.index t (1 : Fin 2) = 0 :=
  (by decide +kernel : ∀ t : Fin grid9.N, _)

/-! ## The blocks the body reads

A block's entry sits in its array, on each axis, at the block index times the block's extent plus the entry's own
coordinate. So entry (p, k) of block t of a row array is the array's entry (32 t + p, k), and the one block of a weight
half or of a bias row is the array itself. -/

section Reads

variable (V : (c : Dev nD) → (b : Ref sig .tc) → Buf (Elt Ideal) ((c : Thread nD τ).loc b))
variable (c : Dev nD) (t : Fin cfg9.N)

/-- Block t of x, at an entry. -/
theorem read_x (y : S32x512.Idx) (i : S32x512.Idx) (h0 : (i 0).val = t.val * 32 + (y 0).val) (h1 : (i 1).val = (y 1).val) :
    (iblk9 V c 0 t : Vec Ideal S32x512 .f32) y = (V c main_v180 : S32x512.Idx → EReal) i := by
  obtain ⟨e0, e1⟩ := idx0 t
  unfold iblk9
  rw [View.read_apply]
  show V c main_v180 _ = V c main_v180 _
  refine congrArg (V c main_v180) (funext fun a => Fin.ext ?_)
  match a with
  | ⟨0, _⟩ => show win9_0.index t (0 : Fin 2) * 32 + 1 * (y 0).val = (i 0).val; omega
  | ⟨1, _⟩ => show win9_0.index t (1 : Fin 2) * 512 + 1 * (y 1).val = (i 1).val; omega

/-- Block t of the left children's h, at an entry. -/
theorem read_hl (y : S32x512.Idx) (i : S32x512.Idx) (h0 : (i 0).val = t.val * 32 + (y 0).val) (h1 : (i 1).val = (y 1).val) :
    (iblk9 V c 1 t : Vec Ideal S32x512 .f32) y = (V c main_v186 : S32x512.Idx → EReal) i := by
  obtain ⟨e0, e1⟩ := idx1 t
  unfold iblk9
  rw [View.read_apply]
  show V c main_v186 _ = V c main_v186 _
  refine congrArg (V c main_v186) (funext fun a => Fin.ext ?_)
  match a with
  | ⟨0, _⟩ => show win9_1.index t (0 : Fin 2) * 32 + 1 * (y 0).val = (i 0).val; omega
  | ⟨1, _⟩ => show win9_1.index t (1 : Fin 2) * 512 + 1 * (y 1).val = (i 1).val; omega

/-- Block t of the right children's h, at an entry. -/
theorem read_hr (y : S32x512.Idx) (i : S32x512.Idx) (h0 : (i 0).val = t.val * 32 + (y 0).val) (h1 : (i 1).val = (y 1).val) :
    (iblk9 V c 2 t : Vec Ideal S32x512 .f32) y = (V c main_v188 : S32x512.Idx → EReal) i := by
  obtain ⟨e0, e1⟩ := idx2 t
  unfold iblk9
  rw [View.read_apply]
  show V c main_v188 _ = V c main_v188 _
  refine congrArg (V c main_v188) (funext fun a => Fin.ext ?_)
  match a with
  | ⟨0, _⟩ => show win9_2.index t (0 : Fin 2) * 32 + 1 * (y 0).val = (i 0).val; omega
  | ⟨1, _⟩ => show win9_2.index t (1 : Fin 2) * 512 + 1 * (y 1).val = (i 1).val; omega

/-- Block t of the left children's c, at an entry. -/
theorem read_cl (y : S32x512.Idx) (i : S32x512.Idx) (h0 : (i 0).val = t.val * 32 + (y 0).val) (h1 : (i 1).val = (y 1).val) :
    (iblk9 V c 3 t : Vec Ideal S32x512 .f32) y = (V c main_v190 : S32x512.Idx → EReal) i := by
  obtain ⟨e0, e1⟩ := idx3 t
  unfold iblk9
  rw [View.read_apply]
  show V c main_v190 _ = V c main_v190 _
  refine congrArg (V c main_v190) (funext fun a => Fin.ext ?_)
  match a with
  | ⟨0, _⟩ => show win9_3.index t (0 : Fin 2) * 32 + 1 * (y 0).val = (i 0).val; omega
  | ⟨1, _⟩ => show win9_3.index t (1 : Fin 2) * 512 + 1 * (y 1).val = (i 1).val; omega

/-- Block t of the right children's c, at an entry. -/
theorem read_cr (y : S32x512.Idx) (i : S32x512.Idx) (h0 : (i 0).val = t.val * 32 + (y 0).val) (h1 : (i 1).val = (y 1).val) :
    (iblk9 V c 4 t : Vec Ideal S32x512 .f32) y = (V c main_v192 : S32x512.Idx → EReal) i := by
  obtain ⟨e0, e1⟩ := idx4 t
  unfold iblk9
  rw [View.read_apply]
  show V c main_v192 _ = V c main_v192 _
  refine congrArg (V c main_v192) (funext fun a => Fin.ext ?_)
  match a with
  | ⟨0, _⟩ => show win9_4.index t (0 : Fin 2) * 32 + 1 * (y 0).val = (i 0).val; omega
  | ⟨1, _⟩ => show win9_4.index t (1 : Fin 2) * 512 + 1 * (y 1).val = (i 1).val; omega

/-- The one block of the input gate's weights over x is the array. -/
theorem read_wix : (iblk9 V c 5 t : Vec Ideal S512x512 .bf16) = (V c main_v2 : S512x512.Idx → EReal) := by
  obtain ⟨e0, e1⟩ := idx5 t
  funext y
  unfold iblk9
  rw [View.read_apply]
  show V c main_v2 _ = V c main_v2 y
  refine congrArg (V c main_v2) (funext fun a => Fin.ext ?_)
  match a with
  | ⟨0, _⟩ => show win9_5.index t (0 : Fin 2) * 512 + 1 * (y 0).val = (y 0).val; omega
  | ⟨1, _⟩ => show win9_5.index t (1 : Fin 2) * 512 + 1 * (y 1).val = (y 1).val; omega

/-- The one block of the input gate's weights over h is the array. -/
theorem read_wih : (iblk9 V c 6 t : Vec Ideal S512x512 .bf16) = (V c main_v5 : S512x512.Idx → EReal) := by
  obtain ⟨e0, e1⟩ := idx6 t
  funext y
  unfold iblk9
  rw [View.read_apply]
  show V c main_v5 _ = V c main_v5 y
  refine congrArg (V c main_v5) (funext fun a => Fin.ext ?_)
  match a with
  | ⟨0, _⟩ => show win9_6.index t (0 : Fin 2) * 512 + 1 * (y 0).val = (y 0).val; omega
  | ⟨1, _⟩ => show win9_6.index t (1 : Fin 2) * 512 + 1 * (y 1).val = (y 1).val; omega

/-- The one block of the forget gates' weights over x is the array. -/
theorem read_wfx : (iblk9 V c 7 t : Vec Ideal S512x512 .bf16) = (V c main_v8 : S512x512.Idx → EReal) := by
  obtain ⟨e0, e1⟩ := idx7 t
  funext y
  unfold iblk9
  rw [View.read_apply]
  show V c main_v8 _ = V c main_v8 y
  refine congrArg (V c main_v8) (funext fun a => Fin.ext ?_)
  match a with
  | ⟨0, _⟩ => show win9_7.index t (0 : Fin 2) * 512 + 1 * (y 0).val = (y 0).val; omega
  | ⟨1, _⟩ => show win9_7.index t (1 : Fin 2) * 512 + 1 * (y 1).val = (y 1).val; omega

/-- The one block of the forget gates' weights over h is the array. -/
theorem read_wfh : (iblk9 V c 8 t : Vec Ideal S512x512 .bf16) = (V c main_v11 : S512x512.Idx → EReal) := by
  obtain ⟨e0, e1⟩ := idx8 t
  funext y
  unfold iblk9
  rw [View.read_apply]
  show V c main_v11 _ = V c main_v11 y
  refine congrArg (V c main_v11) (funext fun a => Fin.ext ?_)
  match a with
  | ⟨0, _⟩ => show win9_8.index t (0 : Fin 2) * 512 + 1 * (y 0).val = (y 0).val; omega
  | ⟨1, _⟩ => show win9_8.index t (1 : Fin 2) * 512 + 1 * (y 1).val = (y 1).val; omega

/-- The one block of the output gate's weights over x is the array. -/
theorem read_wox : (iblk9 V c 9 t : Vec Ideal S512x512 .bf16) = (V c main_v14 : S512x512.Idx → EReal) := by
  obtain ⟨e0, e1⟩ := idx9 t
  funext y
  unfold iblk9
  rw [View.read_apply]
  show V c main_v14 _ = V c main_v14 y
  refine congrArg (V c main_v14) (funext fun a => Fin.ext ?_)
  match a with
  | ⟨0, _⟩ => show win9_9.index t (0 : Fin 2) * 512 + 1 * (y 0).val = (y 0).val; omega
  | ⟨1, _⟩ => show win9_9.index t (1 : Fin 2) * 512 + 1 * (y 1).val = (y 1).val; omega

/-- The one block of the output gate's weights over h is the array. -/
theorem read_woh : (iblk9 V c 10 t : Vec Ideal S512x512 .bf16) = (V c main_v17 : S512x512.Idx → EReal) := by
  obtain ⟨e0, e1⟩ := idx10 t
  funext y
  unfold iblk9
  rw [View.read_apply]
  show V c main_v17 _ = V c main_v17 y
  refine congrArg (V c main_v17) (funext fun a => Fin.ext ?_)
  match a with
  | ⟨0, _⟩ => show win9_10.index t (0 : Fin 2) * 512 + 1 * (y 0).val = (y 0).val; omega
  | ⟨1, _⟩ => show win9_10.index t (1 : Fin 2) * 512 + 1 * (y 1).val = (y 1).val; omega

/-- The one block of the update gate's weights over x is the array. -/
theorem read_wux : (iblk9 V c 11 t : Vec Ideal S512x512 .bf16) = (V c main_v20 : S512x512.Idx → EReal) := by
  obtain ⟨e0, e1⟩ := idx11 t
  funext y
  unfold iblk9
  rw [View.read_apply]
  show V c main_v20 _ = V c main_v20 y
  refine congrArg (V c main_v20) (funext fun a => Fin.ext ?_)
  match a with
  | ⟨0, _⟩ => show win9_11.index t (0 : Fin 2) * 512 + 1 * (y 0).val = (y 0).val; omega
  | ⟨1, _⟩ => show win9_11.index t (1 : Fin 2) * 512 + 1 * (y 1).val = (y 1).val; omega

/-- The one block of the update gate's weights over h is the array. -/
theorem read_wuh : (iblk9 V c 12 t : Vec Ideal S512x512 .bf16) = (V c main_v23 : S512x512.Idx → EReal) := by
  obtain ⟨e0, e1⟩ := idx12 t
  funext y
  unfold iblk9
  rw [View.read_apply]
  show V c main_v23 _ = V c main_v23 y
  refine congrArg (V c main_v23) (funext fun a => Fin.ext ?_)
  match a with
  | ⟨0, _⟩ => show win9_12.index t (0 : Fin 2) * 512 + 1 * (y 0).val = (y 0).val; omega
  | ⟨1, _⟩ => show win9_12.index t (1 : Fin 2) * 512 + 1 * (y 1).val = (y 1).val; omega

/-- The one block of the input gate's bias row is the array. -/
theorem read_bi : (iblk9 V c 13 t : Vec Ideal S1x512 .f32) = (V c main_v24 : S1x512.Idx → EReal) := by
  obtain ⟨e0, e1⟩ := idx13 t
  funext y
  unfold iblk9
  rw [View.read_apply]
  show V c main_v24 _ = V c main_v24 y
  refine congrArg (V c main_v24) (funext fun a => Fin.ext ?_)
  match a with
  | ⟨0, _⟩ => show win9_13.index t (0 : Fin 2) * 1 + 1 * (y 0).val = (y 0).val; omega
  | ⟨1, _⟩ => show win9_13.index t (1 : Fin 2) * 512 + 1 * (y 1).val = (y 1).val; omega

/-- The one block of the forget gates' bias row is the array. -/
theorem read_bf : (iblk9 V c 14 t : Vec Ideal S1x512 .f32) = (V c main_v25 : S1x512.Idx → EReal) := by
  obtain ⟨e0, e1⟩ := idx14 t
  funext y
  unfold iblk9
  rw [View.read_apply]
  show V c main_v25 _ = V c main_v25 y
  refine congrArg (V c main_v25) (funext fun a => Fin.ext ?_)
  match a with
  | ⟨0, _⟩ => show win9_14.index t (0 : Fin 2) * 1 + 1 * (y 0).val = (y 0).val; omega
  | ⟨1, _⟩ => show win9_14.index t (1 : Fin 2) * 512 + 1 * (y 1).val = (y 1).val; omega

/-- The one block of the output gate's bias row is the array. -/
theorem read_bo : (iblk9 V c 15 t : Vec Ideal S1x512 .f32) = (V c main_v26 : S1x512.Idx → EReal) := by
  obtain ⟨e0, e1⟩ := idx15 t
  funext y
  unfold iblk9
  rw [View.read_apply]
  show V c main_v26 _ = V c main_v26 y
  refine congrArg (V c main_v26) (funext fun a => Fin.ext ?_)
  match a with
  | ⟨0, _⟩ => show win9_15.index t (0 : Fin 2) * 1 + 1 * (y 0).val = (y 0).val; omega
  | ⟨1, _⟩ => show win9_15.index t (1 : Fin 2) * 512 + 1 * (y 1).val = (y 1).val; omega

/-- The one block of the update gate's bias row is the array. -/
theorem read_bu : (iblk9 V c 16 t : Vec Ideal S1x512 .f32) = (V c main_v27 : S1x512.Idx → EReal) := by
  obtain ⟨e0, e1⟩ := idx16 t
  funext y
  unfold iblk9
  rw [View.read_apply]
  show V c main_v27 _ = V c main_v27 y
  refine congrArg (V c main_v27) (funext fun a => Fin.ext ?_)
  match a with
  | ⟨0, _⟩ => show win9_16.index t (0 : Fin 2) * 1 + 1 * (y 0).val = (y 0).val; omega
  | ⟨1, _⟩ => show win9_16.index t (1 : Fin 2) * 512 + 1 * (y 1).val = (y 1).val; omega

end Reads

/-! ## The block body -/

/-- What a block body of 32 rows carries besides its arrays. -/
def ctx : Cert.Tree.BodyCtx 32 :=
  ⟨dot_S32x512_S512x512_S32x512_1_0_0_1_n_n, rfl, shapeCasts_S32x512_S32x512, shapeCasts_S512x512_S512x512,
    shapeCasts_S1x512_S1x512, broadcasts_S1x512_S32x512, bitsLt_bf16_f32⟩

section Body

variable {F : FTy → Type} [FloatOps F]

/-- The value the body stores into its h block is the tree cell's h block of the seventeen blocks it loads. -/
theorem bodyH_eq (x0 x1 x2 x3 x4 : Vec F S32x512 .f32) (x5 x6 x7 x8 x9 x10 x11 x12 : Vec F S512x512 .bf16)
    (x13 x14 x15 x16 : Vec F S1x512 .f32) :
    k9_pay2 (k9_pay6 x3) (k9_pay7 x4) (k9_pay13 (k9_pay11 x0 x1 x2 x5 x6 x13)) (k9_pay14 (k9_pay12 x0 x1 x2 x9 x10) x15)
      (k9_pay15 (k9_pay3 x0) (k9_pay8 x1 x2) x11 x12 x16) (k9_pay17 (k9_pay3 x0) (k9_pay9 x1) x7 x8 x14)
      (k9_pay18 (k9_pay3 x0) (k9_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S32x512 .f32) (x5 x6 x7 x8 x9 x10 x11 x12 : Vec F S512x512 .bf16)
    (x13 x14 x15 x16 : Vec F S1x512 .f32) :
    k9_pay1 (k9_pay6 x3) (k9_pay7 x4) (k9_pay13 (k9_pay11 x0 x1 x2 x5 x6 x13))
      (k9_pay15 (k9_pay3 x0) (k9_pay8 x1 x2) x11 x12 x16) (k9_pay17 (k9_pay3 x0) (k9_pay9 x1) x7 x8 x14)
      (k9_pay18 (k9_pay3 x0) (k9_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S32x512 .f32) (x5 x6 x7 x8 x9 x10 x11 x12 : Vec Ideal S512x512 .bf16)
    (x13 x14 x15 x16 : Vec Ideal S1x512 .f32)
    (X HL HR CL CR : S32x512.Idx → EReal) (w5 w6 w7 w8 w9 w10 w11 w12 : S512x512.Idx → EReal)
    (b13 b14 b15 b16 : S1x512.Idx → EReal) (p : Fin 32) (r : Fin 32) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k9_pay2 (k9_pay6 x3) (k9_pay7 x4) (k9_pay13 (k9_pay11 x0 x1 x2 x5 x6 x13)) (k9_pay14 (k9_pay12 x0 x1 x2 x9 x10) x15)
      (k9_pay15 (k9_pay3 x0) (k9_pay8 x1 x2) x11 x12 x16) (k9_pay17 (k9_pay3 x0) (k9_pay9 x1) x7 x8 x14)
      (k9_pay18 (k9_pay3 x0) (k9_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S32x512 .f32) (x5 x6 x7 x8 x9 x10 x11 x12 : Vec Ideal S512x512 .bf16)
    (x13 x14 x15 x16 : Vec Ideal S1x512 .f32)
    (X HL HR CL CR : S32x512.Idx → EReal) (w5 w6 w7 w8 w9 w10 w11 w12 : S512x512.Idx → EReal)
    (b13 b14 b15 b16 : S1x512.Idx → EReal) (p : Fin 32) (r : Fin 32) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k9_pay1 (k9_pay6 x3) (k9_pay7 x4) (k9_pay13 (k9_pay11 x0 x1 x2 x5 x6 x13))
      (k9_pay15 (k9_pay3 x0) (k9_pay8 x1 x2) x11 x12 x16) (k9_pay17 (k9_pay3 x0) (k9_pay9 x1) x7 x8 x14)
      (k9_pay18 (k9_pay3 x0) (k9_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S32x512.Idx → EReal :=
  Cert.Tree.levelH (n := 32) (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S32x512.Idx → EReal :=
  Cert.Tree.levelC (n := 32) (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg9.N) :
    (dat9 V c).flushed 17 t = ((cfg9.win 17).blk t).view.read (Elt Ideal) (GH V c) := by
  show (cfg9.win 17).cut (grid9.coords t) ((dat9 V c).after 17 t) = _
  rw [after9_17]
  unfold out9_17
  rw [View.canon_unit_zero Cert.LibBlocks.off2_zero]
  simp only [View.ld_unit_zero (S := S32x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 32) (q : Fin 512), j = ix2 p q := ⟨j 0, j 1, eq_ix2 j⟩
  have hp : p.val < 32 := p.isLt
  have ht : t.val < cfg9.N := t.isLt
  have hN : cfg9.N * 32 = 32 := points_rows
  have hr : t.val * 32 + p.val < 32 := by omega
  obtain ⟨e0, e1⟩ := idx17 t
  refine Eq.trans (b := GH V c (ix2 (⟨t.val * 32 + p.val, hr⟩ : Fin 32) q)) ?_ ?_
  · exact bodyH_at (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) (iblk9 V c 15 t) (iblk9 V c 16 t)
      (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27)
      p ⟨t.val * 32 + p.val, hr⟩ q
      (fun k => read_x V c t (ix2 p k) (ix2 ⟨t.val * 32 + p.val, hr⟩ k) rfl rfl)
      (fun k => read_hl V c t (ix2 p k) (ix2 ⟨t.val * 32 + p.val, hr⟩ k) rfl rfl)
      (fun k => read_hr V c t (ix2 p k) (ix2 ⟨t.val * 32 + p.val, hr⟩ k) rfl rfl)
      (read_cl V c t (ix2 p q) (ix2 ⟨t.val * 32 + p.val, hr⟩ q) rfl rfl)
      (read_cr V c t (ix2 p q) (ix2 ⟨t.val * 32 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg9.win 17).blk t).view.emb (ix2 p q))
    refine congrArg (GH V c) (funext fun a => Fin.ext ?_)
    match a with
    | ⟨0, _⟩ => show t.val * 32 + p.val = win9_17.index t (0 : Fin 2) * 32 + 1 * p.val; omega
    | ⟨1, _⟩ => show q.val = win9_17.index t (1 : Fin 2) * 512 + 1 * q.val; omega

/-- An entry of the h array is in point t's block iff each coordinate is in the block's range on its axis. -/
theorem mem_blkH (t : Fin cfg9.N) (i : S32x512.Idx) :
    i ∈ ((cfg9.win 17).blk t).view.set ↔ ∀ a : Fin 2, win9_17.index t a * S32x512.size a ≤ (i a).val
      ∧ (i a).val < win9_17.index t a * S32x512.size a + S32x512.size a := by
  show i ∈ ((View.whole main_v193_0).slice (win9_17.rect t)).set ↔ _
  rw [View.set_slice_whole, Rect.mem_set_unit]
  exact Iff.rfl

/-- The blocks tile the h array: row r is in the block of point r / 32. -/
theorem coverH (i : S32x512.Idx) :
    ∃ t : Fin cfg9.N, (cfg9.win 17).flush t = true ∧ i ∈ ((cfg9.win 17).blk t).view.set := by
  have hi0 : (i 0).val < 32 := (i 0).isLt
  have hi1 : (i 1).val < 512 := (i 1).isLt
  have hN : cfg9.N * 32 = 32 := points_rows
  obtain ⟨hq, hlo, hhi⟩ := Cert.LibBlocks.row_in_block (nb := cfg9.N) (bs := 32) (r := (i 0).val) (by omega) (by omega)
  obtain ⟨e0, e1⟩ := idx17 (⟨(i 0).val / 32, hq⟩ : Fin cfg9.N)
  refine ⟨⟨(i 0).val / 32, hq⟩, flush9_17 _, ?_⟩
  rw [mem_blkH]
  intro a
  match a with
  | ⟨0, _⟩ =>
    show win9_17.index ⟨(i 0).val / 32, hq⟩ (0 : Fin 2) * 32 ≤ (i 0).val
      ∧ (i 0).val < win9_17.index ⟨(i 0).val / 32, hq⟩ (0 : Fin 2) * 32 + 32
    rw [e0]
    exact ⟨hlo, hhi⟩
  | ⟨1, _⟩ =>
    show win9_17.index ⟨(i 0).val / 32, hq⟩ (1 : Fin 2) * 512 ≤ (i 1).val
      ∧ (i 1).val < win9_17.index ⟨(i 0).val / 32, hq⟩ (1 : Fin 2) * 512 + 512
    omega

/-- What point t writes back to the c array is block t of the level's c. -/
theorem flushedC (c : Dev nD) (t : Fin cfg9.N) :
    (dat9 V c).flushed 18 t = ((cfg9.win 18).blk t).view.read (Elt Ideal) (GC V c) := by
  show (cfg9.win 18).cut (grid9.coords t) ((dat9 V c).after 18 t) = _
  rw [after9_18]
  unfold out9_18
  rw [View.canon_unit_zero Cert.LibBlocks.off2_zero]
  simp only [View.ld_unit_zero (S := S32x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 32) (q : Fin 512), j = ix2 p q := ⟨j 0, j 1, eq_ix2 j⟩
  have hp : p.val < 32 := p.isLt
  have ht : t.val < cfg9.N := t.isLt
  have hN : cfg9.N * 32 = 32 := points_rows
  have hr : t.val * 32 + p.val < 32 := by omega
  obtain ⟨e0, e1⟩ := idx18 t
  refine Eq.trans (b := GC V c (ix2 (⟨t.val * 32 + p.val, hr⟩ : Fin 32) q)) ?_ ?_
  · exact bodyC_at (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) (iblk9 V c 15 t) (iblk9 V c 16 t)
      (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27)
      p ⟨t.val * 32 + p.val, hr⟩ q
      (fun k => read_x V c t (ix2 p k) (ix2 ⟨t.val * 32 + p.val, hr⟩ k) rfl rfl)
      (fun k => read_hl V c t (ix2 p k) (ix2 ⟨t.val * 32 + p.val, hr⟩ k) rfl rfl)
      (fun k => read_hr V c t (ix2 p k) (ix2 ⟨t.val * 32 + p.val, hr⟩ k) rfl rfl)
      (read_cl V c t (ix2 p q) (ix2 ⟨t.val * 32 + p.val, hr⟩ q) rfl rfl)
      (read_cr V c t (ix2 p q) (ix2 ⟨t.val * 32 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg9.win 18).blk t).view.emb (ix2 p q))
    refine congrArg (GC V c) (funext fun a => Fin.ext ?_)
    match a with
    | ⟨0, _⟩ => show t.val * 32 + p.val = win9_18.index t (0 : Fin 2) * 32 + 1 * p.val; omega
    | ⟨1, _⟩ => show q.val = win9_18.index t (1 : Fin 2) * 512 + 1 * q.val; omega

/-- An entry of the c array is in point t's block iff each coordinate is in the block's range on its axis. -/
theorem mem_blkC (t : Fin cfg9.N) (i : S32x512.Idx) :
    i ∈ ((cfg9.win 18).blk t).view.set ↔ ∀ a : Fin 2, win9_18.index t a * S32x512.size a ≤ (i a).val
      ∧ (i a).val < win9_18.index t a * S32x512.size a + S32x512.size a := by
  show i ∈ ((View.whole main_v193_1).slice (win9_18.rect t)).set ↔ _
  rw [View.set_slice_whole, Rect.mem_set_unit]
  exact Iff.rfl

/-- The blocks tile the c array: row r is in the block of point r / 32. -/
theorem coverC (i : S32x512.Idx) :
    ∃ t : Fin cfg9.N, (cfg9.win 18).flush t = true ∧ i ∈ ((cfg9.win 18).blk t).view.set := by
  have hi0 : (i 0).val < 32 := (i 0).isLt
  have hi1 : (i 1).val < 512 := (i 1).isLt
  have hN : cfg9.N * 32 = 32 := points_rows
  obtain ⟨hq, hlo, hhi⟩ := Cert.LibBlocks.row_in_block (nb := cfg9.N) (bs := 32) (r := (i 0).val) (by omega) (by omega)
  obtain ⟨e0, e1⟩ := idx18 (⟨(i 0).val / 32, hq⟩ : Fin cfg9.N)
  refine ⟨⟨(i 0).val / 32, hq⟩, flush9_18 _, ?_⟩
  rw [mem_blkC]
  intro a
  match a with
  | ⟨0, _⟩ =>
    show win9_18.index ⟨(i 0).val / 32, hq⟩ (0 : Fin 2) * 32 ≤ (i 0).val
      ∧ (i 0).val < win9_18.index ⟨(i 0).val / 32, hq⟩ (0 : Fin 2) * 32 + 32
    rw [e0]
    exact ⟨hlo, hhi⟩
  | ⟨1, _⟩ =>
    show win9_18.index ⟨(i 0).val / 32, hq⟩ (1 : Fin 2) * 512 ≤ (i 1).val
      ∧ (i 1).val < win9_18.index ⟨(i 0).val / 32, hq⟩ (1 : Fin 2) * 512 + 512
    omega

/-- After the region the h array holds the level's h of the seventeen arrays as the region finds them. -/
theorem arrH (c : Dev nD) :
    (dat9 (F := Ideal) V c).arrAt 17 cfg9.N
      = Cert.Tree.levelH (n := 32) (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27) :=
  (dat9 V c).arrAt_eq_of_cover 17 (GH V c) (fun t _ => flushedH V c t) coverH

/-- After the region the c array holds the level's c of the seventeen arrays as the region finds them. -/
theorem arrC (c : Dev nD) :
    (dat9 (F := Ideal) V c).arrAt 18 cfg9.N
      = Cert.Tree.levelC (n := 32) (V c main_v180) (V c main_v186) (V c main_v188) (V c main_v190) (V c main_v192) (V c main_v2) (V c main_v5) (V c main_v8) (V c main_v11) (V c main_v14) (V c main_v17) (V c main_v20) (V c main_v23) (V c main_v24) (V c main_v25) (V c main_v26) (V c main_v27) :=
  (dat9 V c).arrAt_eq_of_cover 18 (GC V c) (fun t _ => flushedC V c t) coverC

end Arrays

end Cert.KernelIdeal.Reg9

end
-- ==== Proof.RStep9.lean ====
/-
  The reference's level of 32 nodes (heap rows 31 … 62), read off its run's named buffers: the h and c heap
  arrays after the level are the arrays before it with the level's rows replaced by the level function of the x rows
  and of the children's rows (the even and odd rows of heap rows 63 … 126 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx9 : Cert.Tree.HostCtx 32 :=
  ⟨dot_S32x1024_S1024x512_S32x512_1_0_0_1_n_n, rfl, concatenates_S32x512_S32x512_S32x1024_d1,
    transposes_S512x1024_S1024x512_1_0, bcast_S512_S1x512_1, bcast_S1x512_S32x512_0_1, bcast_S_S32x512⟩

variable (V0 : Valuation τ sig (Elt Ideal))

/-- The level's x rows. -/
abbrev xl9 : Vec Ideal S32x512 .f32 :=
  extractStridedSlice S32x512 ![31, 0] (V0 (Proc.devRef .tc main_arg0)) slices_S32767x512_S32x512_31_0

/-- The left (even) and right (odd) children's rows of a heap array. -/
abbrev childL9 (A : Vec Ideal S32767x512 .f32) : Vec Ideal S32x512 .f32 :=
  shapeCast _ (extractStridedSlice S32x1x512 ![0, 0, 0] (shapeCast _ (extractStridedSlice S64x512 ![63, 0] A slices_S32767x512_S64x512_63_0) shapeCasts_S64x512_S32x2x512) slices_S32x2x512_S32x1x512_0_0_0) shapeCasts_S32x1x512_S32x512

abbrev childR9 (A : Vec Ideal S32767x512 .f32) : Vec Ideal S32x512 .f32 :=
  shapeCast _ (extractStridedSlice S32x1x512 ![0, 1, 0] (shapeCast _ (extractStridedSlice S64x512 ![63, 0] A slices_S32767x512_S64x512_63_0) shapeCasts_S64x512_S32x2x512) slices_S32x2x512_S32x1x512_0_1_0) shapeCasts_S32x1x512_S32x512

theorem stepC9 : res_main_v741 V0
    = Host.scatter scatter_S32767x512_S1_S32x512_01_n_0_0 (fun _ b => b) (res_main_v663 V0) (broadcastInDim S1 ![] bcast_S_S1 (constantI S_ 32 31#32))
        (Cert.Tree.hostLevelC ctx9 (xl9 V0) (childL9 (res_main_v661 V0)) (childR9 (res_main_v661 V0)) (childL9 (res_main_v663 V0)) (childR9 (res_main_v663 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v741 res_main_v735 res_main_v674 res_main_v670 res_main_v672 res_main_v666 res_main_v668 res_main_v664
  rfl

theorem stepH9 : res_main_v739 V0
    = Host.scatter scatter_S32767x512_S1_S32x512_01_n_0_0 (fun _ b => b) (res_main_v661 V0) (broadcastInDim S1 ![] bcast_S_S1 (constantI S_ 32 31#32))
        (Cert.Tree.hostLevelH ctx9 (xl9 V0) (childL9 (res_main_v661 V0)) (childR9 (res_main_v661 V0)) (childL9 (res_main_v663 V0)) (childR9 (res_main_v663 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v739 res_main_v735 res_main_v674 res_main_v670 res_main_v672 res_main_v666 res_main_v668 res_main_v664
  rfl

end Cert.ReferenceIdeal.Chain

end
-- ==== Proof.Bridge9.lean ====
/-
  The level of 32 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep9
import proofs.«110311_j37117107372689_1_alg».proof.Proof.KReg9
import proofs.«110311_j37117107372689_1_alg».proof.Proof.RStep9
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 32 nodes, they agree after it. -/
theorem level9 (hA : Agree m V0 c)
    (hH : Cert.KernelIdeal.Gen.W19 m ρ c (Proc.devRef .tc Cert.KernelIdeal.main_v177) = Cert.ReferenceIdeal.Value.res_main_v661 V0)
    (hC : Cert.KernelIdeal.Gen.W19 m ρ c (Proc.devRef .tc Cert.KernelIdeal.main_v179) = Cert.ReferenceIdeal.Value.res_main_v663 V0) :
    Cert.KernelIdeal.Gen.W21 m ρ c (Proc.devRef .tc Cert.KernelIdeal.main_v195) = Cert.ReferenceIdeal.Value.res_main_v739 V0
      ∧ Cert.KernelIdeal.Gen.W21 m ρ c (Proc.devRef .tc Cert.KernelIdeal.main_v197) = Cert.ReferenceIdeal.Value.res_main_v741 V0 := by
  constructor
  · rw [Cert.KernelIdeal.Chain.stepH9 m ρ c (Cert.KernelIdeal.Reg9.arrH (Cert.KernelIdeal.Gen.V19 m ρ) c),
      Cert.ReferenceIdeal.Chain.stepH9 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC9 m ρ c (Cert.KernelIdeal.Reg9.arrC (Cert.KernelIdeal.Gen.V19 m ρ) c),
      Cert.ReferenceIdeal.Chain.stepC9 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep10.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 10: what its scatters leave in the two heap arrays

The host stretch before the region cuts the level's 16 rows of node features out of the argument and, out of each
heap array (hidden states, cell states), the 32 rows of the level below, which it pairs up: row p's left child is
the pair's first member and its right child the second. The region computes the level's hidden and cell rows from
these five arrays and the twelve weight and bias buffers; the host stretch after it scatters the two results into the
heap arrays at row 15. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat10_h : StableHlo.after hostOps11 W (Proc.devRef .tc main_v213)
    = Host.scatter scatter_S32767x512_S1_S16x512_01_n_0_0 (fun _ b => b) (W (Proc.devRef .tc main_v195))
        (broadcastInDim S1 ![] bcast_S_S1 (constantI S_ 32 15#32)) (W (Proc.devRef .tc main_v211_0)) := by
  after_results
  rfl

/-- And the new cell heap: the old one with the region's second output scattered in. -/
theorem scat10_c : StableHlo.after hostOps11 W (Proc.devRef .tc main_v215)
    = Host.scatter scatter_S32767x512_S1_S16x512_01_n_0_0 (fun _ b => b) (W (Proc.devRef .tc main_v197))
        (broadcastInDim S1 ![] bcast_S_S1 (constantI S_ 32 15#32)) (W (Proc.devRef .tc main_v211_1)) := by
  after_results
  rfl

/-- The stretch before the region: the level's rows of node features. -/
theorem cut10_x : StableHlo.after hostOps10 W (Proc.devRef .tc main_v198)
    = extractStridedSlice S16x512 ![15, 0] (W (Proc.devRef .tc main_arg0)) slices_S32767x512_S16x512_15_0 := by
  after_results

/-- The left children's hidden rows, out of the hidden heap as this stretch itself leaves it. -/
theorem cut10_hl : StableHlo.after hostOps10 W (Proc.devRef .tc main_v204)
    = shapeCast _ (extractStridedSlice S16x1x512 ![0, 0, 0] (shapeCast _ (extractStridedSlice S32x512 ![31, 0] (StableHlo.after hostOps10 W (Proc.devRef .tc main_v195)) slices_S32767x512_S32x512_31_0) shapeCasts_S32x512_S16x2x512) slices_S16x2x512_S16x1x512_0_0_0) shapeCasts_S16x1x512_S16x512 := by
  after_results_simp
  rfl

/-- The right children's hidden rows. -/
theorem cut10_hr : StableHlo.after hostOps10 W (Proc.devRef .tc main_v206)
    = shapeCast _ (extractStridedSlice S16x1x512 ![0, 1, 0] (shapeCast _ (extractStridedSlice S32x512 ![31, 0] (StableHlo.after hostOps10 W (Proc.devRef .tc main_v195)) slices_S32767x512_S32x512_31_0) shapeCasts_S32x512_S16x2x512) slices_S16x2x512_S16x1x512_0_1_0) shapeCasts_S16x1x512_S16x512 := by
  after_results_simp
  rfl

/-- The left children's cell rows, out of the cell heap. -/
theorem cut10_cl : StableHlo.after hostOps10 W (Proc.devRef .tc main_v208)
    = shapeCast _ (extractStridedSlice S16x1x512 ![0, 0, 0] (shapeCast _ (extractStridedSlice S32x512 ![31, 0] (StableHlo.after hostOps10 W (Proc.devRef .tc main_v197)) slices_S32767x512_S32x512_31_0) shapeCasts_S32x512_S16x2x512) slices_S16x2x512_S16x1x512_0_0_0) shapeCasts_S16x1x512_S16x512 := by
  after_results_simp
  rfl

/-- The right children's cell rows. -/
theorem cut10_cr : StableHlo.after hostOps10 W (Proc.devRef .tc main_v210)
    = shapeCast _ (extractStridedSlice S16x1x512 ![0, 1, 0] (shapeCast _ (extractStridedSlice S32x512 ![31, 0] (StableHlo.after hostOps10 W (Proc.devRef .tc main_v197)) slices_S32767x512_S32x512_31_0) shapeCasts_S32x512_S16x2x512) slices_S16x2x512_S16x1x512_0_1_0) shapeCasts_S16x1x512_S16x512 := by
  after_results_simp
  rfl

end Host

/-! ## The region's five level arrays at its entry, in the run -/

theorem in10_x (c : Dev nD) : Gen.W21 m ρ c (Proc.devRef .tc main_v198)
    = extractStridedSlice S16x512 ![15, 0] (m ((c : Thread nD τ).loc main_arg0)) slices_S32767x512_S16x512_15_0 :=
  (cut10_x (Gen.W20 m ρ c)).trans (by rw [arg0_10 m ρ c])

theorem in10_hl (c : Dev nD) : Gen.W21 m ρ c (Proc.devRef .tc main_v204)
    = shapeCast _ (extractStridedSlice S16x1x512 ![0, 0, 0] (shapeCast _ (extractStridedSlice S32x512 ![31, 0] (Gen.W21 m ρ c (Proc.devRef .tc main_v195)) slices_S32767x512_S32x512_31_0) shapeCasts_S32x512_S16x2x512) slices_S16x2x512_S16x1x512_0_0_0) shapeCasts_S16x1x512_S16x512 :=
  cut10_hl (Gen.W20 m ρ c)

theorem in10_hr (c : Dev nD) : Gen.W21 m ρ c (Proc.devRef .tc main_v206)
    = shapeCast _ (extractStridedSlice S16x1x512 ![0, 1, 0] (shapeCast _ (extractStridedSlice S32x512 ![31, 0] (Gen.W21 m ρ c (Proc.devRef .tc main_v195)) slices_S32767x512_S32x512_31_0) shapeCasts_S32x512_S16x2x512) slices_S16x2x512_S16x1x512_0_1_0) shapeCasts_S16x1x512_S16x512 :=
  cut10_hr (Gen.W20 m ρ c)

theorem in10_cl (c : Dev nD) : Gen.W21 m ρ c (Proc.devRef .tc main_v208)
    = shapeCast _ (extractStridedSlice S16x1x512 ![0, 0, 0] (shapeCast _ (extractStridedSlice S32x512 ![31, 0] (Gen.W21 m ρ c (Proc.devRef .tc main_v197)) slices_S32767x512_S32x512_31_0) shapeCasts_S32x512_S16x2x512) slices_S16x2x512_S16x1x512_0_0_0) shapeCasts_S16x1x512_S16x512 :=
  cut10_cl (Gen.W20 m ρ c)

theorem in10_cr (c : Dev nD) : Gen.W21 m ρ c (Proc.devRef .tc main_v210)
    = shapeCast _ (extractStridedSlice S16x1x512 ![0, 1, 0] (shapeCast _ (extractStridedSlice S32x512 ![31, 0] (Gen.W21 m ρ c (Proc.devRef .tc main_v197)) slices_S32767x512_S32x512_31_0) shapeCasts_S32x512_S16x2x512) slices_S16x2x512_S16x1x512_0_1_0) shapeCasts_S16x1x512_S16x512 :=
  cut10_cr (Gen.W20 m ρ c)

/-! ## The region's two outputs at its exit are its proof data's arrays after the last grid point -/

theorem out10_h (c : Dev nD) : Gen.W22 m ρ c (Proc.devRef .tc main_v211_0) = (Gen.dat10 (Gen.V21 m ρ) c).arrAt 17 cfg10.N :=
  Gen.W22_arr m ρ c 17

theorem out10_c (c : Dev nD) : Gen.W22 m ρ c (Proc.devRef .tc main_v211_1) = (Gen.dat10 (Gen.V21 m ρ) c).arrAt 18 cfg10.N :=
  Gen.W22_arr m ρ c 18

/-! ## The level -/

/-- The hidden heap after the level, given that the region's first output is the level function of its entry arrays. -/
theorem stepH10 (c : Dev nD)
    (hH : (Gen.dat10 (F := Ideal) (Gen.V21 m ρ) c).arrAt 17 cfg10.N
      = Cert.Tree.levelH (n := 16) (Gen.V21 m ρ c main_v198) (Gen.V21 m ρ c main_v204) (Gen.V21 m ρ c main_v206)
          (Gen.V21 m ρ c main_v208) (Gen.V21 m ρ c main_v210)
          (Gen.V21 m ρ c main_v2) (Gen.V21 m ρ c main_v5) (Gen.V21 m ρ c main_v8) (Gen.V21 m ρ c main_v11)
          (Gen.V21 m ρ c main_v14) (Gen.V21 m ρ c main_v17) (Gen.V21 m ρ c main_v20) (Gen.V21 m ρ c main_v23)
          (Gen.V21 m ρ c main_v24) (Gen.V21 m ρ c main_v25) (Gen.V21 m ρ c main_v26) (Gen.V21 m ρ c main_v27)) :
    Gen.W23 m ρ c (Proc.devRef .tc main_v213)
      = Host.scatter scatter_S32767x512_S1_S16x512_01_n_0_0 (fun _ b => b) (Gen.W21 m ρ c (Proc.devRef .tc main_v195))
          (broadcastInDim S1 ![] bcast_S_S1 (constantI S_ 32 15#32))
          (Cert.Tree.levelH (n := 16)
            (extractStridedSlice S16x512 ![15, 0] (m ((c : Thread nD τ).loc main_arg0)) slices_S32767x512_S16x512_15_0)
            (shapeCast _ (extractStridedSlice S16x1x512 ![0, 0, 0] (shapeCast _ (extractStridedSlice S32x512 ![31, 0] (Gen.W21 m ρ c (Proc.devRef .tc main_v195)) slices_S32767x512_S32x512_31_0) shapeCasts_S32x512_S16x2x512) slices_S16x2x512_S16x1x512_0_0_0) shapeCasts_S16x1x512_S16x512)
            (shapeCast _ (extractStridedSlice S16x1x512 ![0, 1, 0] (shapeCast _ (extractStridedSlice S32x512 ![31, 0] (Gen.W21 m ρ c (Proc.devRef .tc main_v195)) slices_S32767x512_S32x512_31_0) shapeCasts_S32x512_S16x2x512) slices_S16x2x512_S16x1x512_0_1_0) shapeCasts_S16x1x512_S16x512)
            (shapeCast _ (extractStridedSlice S16x1x512 ![0, 0, 0] (shapeCast _ (extractStridedSlice S32x512 ![31, 0] (Gen.W21 m ρ c (Proc.devRef .tc main_v197)) slices_S32767x512_S32x512_31_0) shapeCasts_S32x512_S16x2x512) slices_S16x2x512_S16x1x512_0_0_0) shapeCasts_S16x1x512_S16x512)
            (shapeCast _ (extractStridedSlice S16x1x512 ![0, 1, 0] (shapeCast _ (extractStridedSlice S32x512 ![31, 0] (Gen.W21 m ρ c (Proc.devRef .tc main_v197)) slices_S32767x512_S32x512_31_0) shapeCasts_S32x512_S16x2x512) slices_S16x2x512_S16x1x512_0_1_0) shapeCasts_S16x1x512_S16x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat10 (F := Ideal) (Gen.V21 m ρ) c).arrAt 17 cfg10.N
      = Cert.Tree.levelH (n := 16) (Gen.W21 m ρ c (Proc.devRef .tc main_v198)) (Gen.W21 m ρ c (Proc.devRef .tc main_v204))
          (Gen.W21 m ρ c (Proc.devRef .tc main_v206)) (Gen.W21 m ρ c (Proc.devRef .tc main_v208))
          (Gen.W21 m ρ c (Proc.devRef .tc main_v210))
          (Gen.W21 m ρ c (Proc.devRef .tc main_v2)) (Gen.W21 m ρ c (Proc.devRef .tc main_v5))
          (Gen.W21 m ρ c (Proc.devRef .tc main_v8)) (Gen.W21 m ρ c (Proc.devRef .tc main_v11))
          (Gen.W21 m ρ c (Proc.devRef .tc main_v14)) (Gen.W21 m ρ c (Proc.devRef .tc main_v17))
          (Gen.W21 m ρ c (Proc.devRef .tc main_v20)) (Gen.W21 m ρ c (Proc.devRef .tc main_v23))
          (Gen.W21 m ρ c (Proc.devRef .tc main_v24)) (Gen.W21 m ρ c (Proc.devRef .tc main_v25))
          (Gen.W21 m ρ c (Proc.devRef .tc main_v26)) (Gen.W21 m ρ c (Proc.devRef .tc main_v27)) := hH
  rw [in10_x m ρ c, in10_hl m ρ c, in10_hr m ρ c, in10_cl m ρ c, in10_cr m ρ c,
    keep10_main_v2 m ρ c, keep10_main_v5 m ρ c, keep10_main_v8 m ρ c, keep10_main_v11 m ρ c, keep10_main_v14 m ρ c,
    keep10_main_v17 m ρ c, keep10_main_v20 m ρ c, keep10_main_v23 m ρ c, keep10_main_v24 m ρ c, keep10_main_v25 m ρ c,
    keep10_main_v26 m ρ c, keep10_main_v27 m ρ c] at hH'
  refine (scat10_h (Gen.W22 m ρ c)).trans ?_
  rw [Gen.W22_of_ne m ρ c main_v195 (by decide), out10_h m ρ c, hH']

/-- The cell heap after the level, given that the region's second output is the level's cell function of its entry arrays. -/
theorem stepC10 (c : Dev nD)
    (hC : (Gen.dat10 (F := Ideal) (Gen.V21 m ρ) c).arrAt 18 cfg10.N
      = Cert.Tree.levelC (n := 16) (Gen.V21 m ρ c main_v198) (Gen.V21 m ρ c main_v204) (Gen.V21 m ρ c main_v206)
          (Gen.V21 m ρ c main_v208) (Gen.V21 m ρ c main_v210)
          (Gen.V21 m ρ c main_v2) (Gen.V21 m ρ c main_v5) (Gen.V21 m ρ c main_v8) (Gen.V21 m ρ c main_v11)
          (Gen.V21 m ρ c main_v14) (Gen.V21 m ρ c main_v17) (Gen.V21 m ρ c main_v20) (Gen.V21 m ρ c main_v23)
          (Gen.V21 m ρ c main_v24) (Gen.V21 m ρ c main_v25) (Gen.V21 m ρ c main_v26) (Gen.V21 m ρ c main_v27)) :
    Gen.W23 m ρ c (Proc.devRef .tc main_v215)
      = Host.scatter scatter_S32767x512_S1_S16x512_01_n_0_0 (fun _ b => b) (Gen.W21 m ρ c (Proc.devRef .tc main_v197))
          (broadcastInDim S1 ![] bcast_S_S1 (constantI S_ 32 15#32))
          (Cert.Tree.levelC (n := 16)
            (extractStridedSlice S16x512 ![15, 0] (m ((c : Thread nD τ).loc main_arg0)) slices_S32767x512_S16x512_15_0)
            (shapeCast _ (extractStridedSlice S16x1x512 ![0, 0, 0] (shapeCast _ (extractStridedSlice S32x512 ![31, 0] (Gen.W21 m ρ c (Proc.devRef .tc main_v195)) slices_S32767x512_S32x512_31_0) shapeCasts_S32x512_S16x2x512) slices_S16x2x512_S16x1x512_0_0_0) shapeCasts_S16x1x512_S16x512)
            (shapeCast _ (extractStridedSlice S16x1x512 ![0, 1, 0] (shapeCast _ (extractStridedSlice S32x512 ![31, 0] (Gen.W21 m ρ c (Proc.devRef .tc main_v195)) slices_S32767x512_S32x512_31_0) shapeCasts_S32x512_S16x2x512) slices_S16x2x512_S16x1x512_0_1_0) shapeCasts_S16x1x512_S16x512)
            (shapeCast _ (extractStridedSlice S16x1x512 ![0, 0, 0] (shapeCast _ (extractStridedSlice S32x512 ![31, 0] (Gen.W21 m ρ c (Proc.devRef .tc main_v197)) slices_S32767x512_S32x512_31_0) shapeCasts_S32x512_S16x2x512) slices_S16x2x512_S16x1x512_0_0_0) shapeCasts_S16x1x512_S16x512)
            (shapeCast _ (extractStridedSlice S16x1x512 ![0, 1, 0] (shapeCast _ (extractStridedSlice S32x512 ![31, 0] (Gen.W21 m ρ c (Proc.devRef .tc main_v197)) slices_S32767x512_S32x512_31_0) shapeCasts_S32x512_S16x2x512) slices_S16x2x512_S16x1x512_0_1_0) shapeCasts_S16x1x512_S16x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat10 (F := Ideal) (Gen.V21 m ρ) c).arrAt 18 cfg10.N
      = Cert.Tree.levelC (n := 16) (Gen.W21 m ρ c (Proc.devRef .tc main_v198)) (Gen.W21 m ρ c (Proc.devRef .tc main_v204))
          (Gen.W21 m ρ c (Proc.devRef .tc main_v206)) (Gen.W21 m ρ c (Proc.devRef .tc main_v208))
          (Gen.W21 m ρ c (Proc.devRef .tc main_v210))
          (Gen.W21 m ρ c (Proc.devRef .tc main_v2)) (Gen.W21 m ρ c (Proc.devRef .tc main_v5))
          (Gen.W21 m ρ c (Proc.devRef .tc main_v8)) (Gen.W21 m ρ c (Proc.devRef .tc main_v11))
          (Gen.W21 m ρ c (Proc.devRef .tc main_v14)) (Gen.W21 m ρ c (Proc.devRef .tc main_v17))
          (Gen.W21 m ρ c (Proc.devRef .tc main_v20)) (Gen.W21 m ρ c (Proc.devRef .tc main_v23))
          (Gen.W21 m ρ c (Proc.devRef .tc main_v24)) (Gen.W21 m ρ c (Proc.devRef .tc main_v25))
          (Gen.W21 m ρ c (Proc.devRef .tc main_v26)) (Gen.W21 m ρ c (Proc.devRef .tc main_v27)) := hC
  rw [in10_x m ρ c, in10_hl m ρ c, in10_hr m ρ c, in10_cl m ρ c, in10_cr m ρ c,
    keep10_main_v2 m ρ c, keep10_main_v5 m ρ c, keep10_main_v8 m ρ c, keep10_main_v11 m ρ c, keep10_main_v14 m ρ c,
    keep10_main_v17 m ρ c, keep10_main_v20 m ρ c, keep10_main_v23 m ρ c, keep10_main_v24 m ρ c, keep10_main_v25 m ρ c,
    keep10_main_v26 m ρ c, keep10_main_v27 m ρ c] at hC'
  refine (scat10_c (Gen.W22 m ρ c)).trans ?_
  rw [Gen.W22_of_ne m ρ c main_v197 (by decide), out10_c m ρ c, hC']

end Cert.KernelIdeal.Chain

end
-- ==== Proof.KReg10.lean ====
/-
  One level of the tree on the kernel's side: 16 internal nodes, worked in blocks of 16 node rows, one block per
  grid point. What the level's two output arrays hold after the region, whatever the arrays hold when it is entered.

  Grid point t reads block t (rows 16 t … 16 t + 15) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg10

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg10.N * 16 = 16 := by decide

/-! The printed index maps, decided over the grid: a row array's block at point t is block (t, 0); a weight half or a
    bias row is one block, (0, 0). -/

theorem idx0 : ∀ t : Fin cfg10.N, win10_0.index t (0 : Fin 2) = t.val ∧ win10_0.index t (1 : Fin 2) = 0 :=
  (by decide +kernel : ∀ t : Fin grid10.N, _)
theorem idx1 : ∀ t : Fin cfg10.N, win10_1.index t (0 : Fin 2) = t.val ∧ win10_1.index t (1 : Fin 2) = 0 :=
  (by decide +kernel : ∀ t : Fin grid10.N, _)
theorem idx2 : ∀ t : Fin cfg10.N, win10_2.index t (0 : Fin 2) = t.val ∧ win10_2.index t (1 : Fin 2) = 0 :=
  (by decide +kernel : ∀ t : Fin grid10.N, _)
theorem idx3 : ∀ t : Fin cfg10.N, win10_3.index t (0 : Fin 2) = t.val ∧ win10_3.index t (1 : Fin 2) = 0 :=
  (by decide +kernel : ∀ t : Fin grid10.N, _)
theorem idx4 : ∀ t : Fin cfg10.N, win10_4.index t (0 : Fin 2) = t.val ∧ win10_4.index t (1 : Fin 2) = 0 :=
  (by decide +kernel : ∀ t : Fin grid10.N, _)
theorem idx17 : ∀ t : Fin cfg10.N, win10_17.index t (0 : Fin 2) = t.val ∧ win10_17.index t (1 : Fin 2) = 0 :=
  (by decide +kernel : ∀ t : Fin grid10.N, _)
theorem idx18 : ∀ t : Fin cfg10.N, win10_18.index t (0 : Fin 2) = t.val ∧ win10_18.index t (1 : Fin 2) = 0 :=
  (by decide +kernel : ∀ t : Fin grid10.N, _)
theorem idx5 : ∀ t : Fin cfg10.N, win10_5.index t (0 : Fin 2) = 0 ∧ win10_5.index t (1 : Fin 2) = 0 :=
  (by decide +kernel : ∀ t : Fin grid10.N, _)
theorem idx6 : ∀ t : Fin cfg10.N, win10_6.index t (0 : Fin 2) = 0 ∧ win10_6.index t (1 : Fin 2) = 0 :=
  (by decide +kernel : ∀ t : Fin grid10.N, _)
theorem idx7 : ∀ t : Fin cfg10.N, win10_7.index t (0 : Fin 2) = 0 ∧ win10_7.index t (1 : Fin 2) = 0 :=
  (by decide +kernel : ∀ t : Fin grid10.N, _)
theorem idx8 : ∀ t : Fin cfg10.N, win10_8.index t (0 : Fin 2) = 0 ∧ win10_8.index t (1 : Fin 2) = 0 :=
  (by decide +kernel : ∀ t : Fin grid10.N, _)
theorem idx9 : ∀ t : Fin cfg10.N, win10_9.index t (0 : Fin 2) = 0 ∧ win10_9.index t (1 : Fin 2) = 0 :=
  (by decide +kernel : ∀ t : Fin grid10.N, _)
theorem idx10 : ∀ t : Fin cfg10.N, win10_10.index t (0 : Fin 2) = 0 ∧ win10_10.index t (1 : Fin 2) = 0 :=
  (by decide +kernel : ∀ t : Fin grid10.N, _)
theorem idx11 : ∀ t : Fin cfg10.N, win10_11.index t (0 : Fin 2) = 0 ∧ win10_11.index t (1 : Fin 2) = 0 :=
  (by decide +kernel : ∀ t : Fin grid10.N, _)
theorem idx12 : ∀ t : Fin cfg10.N, win10_12.index t (0 : Fin 2) = 0 ∧ win10_12.index t (1 : Fin 2) = 0 :=
  (by decide +kernel : ∀ t : Fin grid10.N, _)
theorem idx13 : ∀ t : Fin cfg10.N, win10_13.index t (0 : Fin 2) = 0 ∧ win10_13.index t (1 : Fin 2) = 0 :=
  (by decide +kernel : ∀ t : Fin grid10.N, _)
theorem idx14 : ∀ t : Fin cfg10.N, win10_14.index t (0 : Fin 2) = 0 ∧ win10_14.index t (1 : Fin 2) = 0 :=
  (by decide +kernel : ∀ t : Fin grid10.N, _)
theorem idx15 : ∀ t : Fin cfg10.N, win10_15.index t (0 : Fin 2) = 0 ∧ win10_15.index t (1 : Fin 2) = 0 :=
  (by decide +kernel : ∀ t : Fin grid10.N, _)
theorem idx16 : ∀ t : Fin cfg10.N, win10_16.index t (0 : Fin 2) = 0 ∧ win10_16.index t (1 : Fin 2) = 0 :=
  (by decide +kernel : ∀ t : Fin grid10.N, _)

/-! ## The blocks the body reads

A block's entry sits in its array, on each axis, at the block index times the block's extent plus the entry's own
coordinate. So entry (p, k) of block t of a row array is the array's entry (16 t + p, k), and the one block of a weight
half or of a bias row is the array itself. -/

section Reads

variable (V : (c : Dev nD) → (b : Ref sig .tc) → Buf (Elt Ideal) ((c : Thread nD τ).loc b))
variable (c : Dev nD) (t : Fin cfg10.N)

/-- Block t of x, at an entry. -/
theorem read_x (y : S16x512.Idx) (i : S16x512.Idx) (h0 : (i 0).val = t.val * 16 + (y 0).val) (h1 : (i 1).val = (y 1).val) :
    (iblk10 V c 0 t : Vec Ideal S16x512 .f32) y = (V c main_v198 : S16x512.Idx → EReal) i := by
  obtain ⟨e0, e1⟩ := idx0 t
  unfold iblk10
  rw [View.read_apply]
  show V c main_v198 _ = V c main_v198 _
  refine congrArg (V c main_v198) (funext fun a => Fin.ext ?_)
  match a with
  | ⟨0, _⟩ => show win10_0.index t (0 : Fin 2) * 16 + 1 * (y 0).val = (i 0).val; omega
  | ⟨1, _⟩ => show win10_0.index t (1 : Fin 2) * 512 + 1 * (y 1).val = (i 1).val; omega

/-- Block t of the left children's h, at an entry. -/
theorem read_hl (y : S16x512.Idx) (i : S16x512.Idx) (h0 : (i 0).val = t.val * 16 + (y 0).val) (h1 : (i 1).val = (y 1).val) :
    (iblk10 V c 1 t : Vec Ideal S16x512 .f32) y = (V c main_v204 : S16x512.Idx → EReal) i := by
  obtain ⟨e0, e1⟩ := idx1 t
  unfold iblk10
  rw [View.read_apply]
  show V c main_v204 _ = V c main_v204 _
  refine congrArg (V c main_v204) (funext fun a => Fin.ext ?_)
  match a with
  | ⟨0, _⟩ => show win10_1.index t (0 : Fin 2) * 16 + 1 * (y 0).val = (i 0).val; omega
  | ⟨1, _⟩ => show win10_1.index t (1 : Fin 2) * 512 + 1 * (y 1).val = (i 1).val; omega

/-- Block t of the right children's h, at an entry. -/
theorem read_hr (y : S16x512.Idx) (i : S16x512.Idx) (h0 : (i 0).val = t.val * 16 + (y 0).val) (h1 : (i 1).val = (y 1).val) :
    (iblk10 V c 2 t : Vec Ideal S16x512 .f32) y = (V c main_v206 : S16x512.Idx → EReal) i := by
  obtain ⟨e0, e1⟩ := idx2 t
  unfold iblk10
  rw [View.read_apply]
  show V c main_v206 _ = V c main_v206 _
  refine congrArg (V c main_v206) (funext fun a => Fin.ext ?_)
  match a with
  | ⟨0, _⟩ => show win10_2.index t (0 : Fin 2) * 16 + 1 * (y 0).val = (i 0).val; omega
  | ⟨1, _⟩ => show win10_2.index t (1 : Fin 2) * 512 + 1 * (y 1).val = (i 1).val; omega

/-- Block t of the left children's c, at an entry. -/
theorem read_cl (y : S16x512.Idx) (i : S16x512.Idx) (h0 : (i 0).val = t.val * 16 + (y 0).val) (h1 : (i 1).val = (y 1).val) :
    (iblk10 V c 3 t : Vec Ideal S16x512 .f32) y = (V c main_v208 : S16x512.Idx → EReal) i := by
  obtain ⟨e0, e1⟩ := idx3 t
  unfold iblk10
  rw [View.read_apply]
  show V c main_v208 _ = V c main_v208 _
  refine congrArg (V c main_v208) (funext fun a => Fin.ext ?_)
  match a with
  | ⟨0, _⟩ => show win10_3.index t (0 : Fin 2) * 16 + 1 * (y 0).val = (i 0).val; omega
  | ⟨1, _⟩ => show win10_3.index t (1 : Fin 2) * 512 + 1 * (y 1).val = (i 1).val; omega

/-- Block t of the right children's c, at an entry. -/
theorem read_cr (y : S16x512.Idx) (i : S16x512.Idx) (h0 : (i 0).val = t.val * 16 + (y 0).val) (h1 : (i 1).val = (y 1).val) :
    (iblk10 V c 4 t : Vec Ideal S16x512 .f32) y = (V c main_v210 : S16x512.Idx → EReal) i := by
  obtain ⟨e0, e1⟩ := idx4 t
  unfold iblk10
  rw [View.read_apply]
  show V c main_v210 _ = V c main_v210 _
  refine congrArg (V c main_v210) (funext fun a => Fin.ext ?_)
  match a with
  | ⟨0, _⟩ => show win10_4.index t (0 : Fin 2) * 16 + 1 * (y 0).val = (i 0).val; omega
  | ⟨1, _⟩ => show win10_4.index t (1 : Fin 2) * 512 + 1 * (y 1).val = (i 1).val; omega

/-- The one block of the input gate's weights over x is the array. -/
theorem read_wix : (iblk10 V c 5 t : Vec Ideal S512x512 .bf16) = (V c main_v2 : S512x512.Idx → EReal) := by
  obtain ⟨e0, e1⟩ := idx5 t
  funext y
  unfold iblk10
  rw [View.read_apply]
  show V c main_v2 _ = V c main_v2 y
  refine congrArg (V c main_v2) (funext fun a => Fin.ext ?_)
  match a with
  | ⟨0, _⟩ => show win10_5.index t (0 : Fin 2) * 512 + 1 * (y 0).val = (y 0).val; omega
  | ⟨1, _⟩ => show win10_5.index t (1 : Fin 2) * 512 + 1 * (y 1).val = (y 1).val; omega

/-- The one block of the input gate's weights over h is the array. -/
theorem read_wih : (iblk10 V c 6 t : Vec Ideal S512x512 .bf16) = (V c main_v5 : S512x512.Idx → EReal) := by
  obtain ⟨e0, e1⟩ := idx6 t
  funext y
  unfold iblk10
  rw [View.read_apply]
  show V c main_v5 _ = V c main_v5 y
  refine congrArg (V c main_v5) (funext fun a => Fin.ext ?_)
  match a with
  | ⟨0, _⟩ => show win10_6.index t (0 : Fin 2) * 512 + 1 * (y 0).val = (y 0).val; omega
  | ⟨1, _⟩ => show win10_6.index t (1 : Fin 2) * 512 + 1 * (y 1).val = (y 1).val; omega

/-- The one block of the forget gates' weights over x is the array. -/
theorem read_wfx : (iblk10 V c 7 t : Vec Ideal S512x512 .bf16) = (V c main_v8 : S512x512.Idx → EReal) := by
  obtain ⟨e0, e1⟩ := idx7 t
  funext y
  unfold iblk10
  rw [View.read_apply]
  show V c main_v8 _ = V c main_v8 y
  refine congrArg (V c main_v8) (funext fun a => Fin.ext ?_)
  match a with
  | ⟨0, _⟩ => show win10_7.index t (0 : Fin 2) * 512 + 1 * (y 0).val = (y 0).val; omega
  | ⟨1, _⟩ => show win10_7.index t (1 : Fin 2) * 512 + 1 * (y 1).val = (y 1).val; omega

/-- The one block of the forget gates' weights over h is the array. -/
theorem read_wfh : (iblk10 V c 8 t : Vec Ideal S512x512 .bf16) = (V c main_v11 : S512x512.Idx → EReal) := by
  obtain ⟨e0, e1⟩ := idx8 t
  funext y
  unfold iblk10
  rw [View.read_apply]
  show V c main_v11 _ = V c main_v11 y
  refine congrArg (V c main_v11) (funext fun a => Fin.ext ?_)
  match a with
  | ⟨0, _⟩ => show win10_8.index t (0 : Fin 2) * 512 + 1 * (y 0).val = (y 0).val; omega
  | ⟨1, _⟩ => show win10_8.index t (1 : Fin 2) * 512 + 1 * (y 1).val = (y 1).val; omega

/-- The one block of the output gate's weights over x is the array. -/
theorem read_wox : (iblk10 V c 9 t : Vec Ideal S512x512 .bf16) = (V c main_v14 : S512x512.Idx → EReal) := by
  obtain ⟨e0, e1⟩ := idx9 t
  funext y
  unfold iblk10
  rw [View.read_apply]
  show V c main_v14 _ = V c main_v14 y
  refine congrArg (V c main_v14) (funext fun a => Fin.ext ?_)
  match a with
  | ⟨0, _⟩ => show win10_9.index t (0 : Fin 2) * 512 + 1 * (y 0).val = (y 0).val; omega
  | ⟨1, _⟩ => show win10_9.index t (1 : Fin 2) * 512 + 1 * (y 1).val = (y 1).val; omega

/-- The one block of the output gate's weights over h is the array. -/
theorem read_woh : (iblk10 V c 10 t : Vec Ideal S512x512 .bf16) = (V c main_v17 : S512x512.Idx → EReal) := by
  obtain ⟨e0, e1⟩ := idx10 t
  funext y
  unfold iblk10
  rw [View.read_apply]
  show V c main_v17 _ = V c main_v17 y
  refine congrArg (V c main_v17) (funext fun a => Fin.ext ?_)
  match a with
  | ⟨0, _⟩ => show win10_10.index t (0 : Fin 2) * 512 + 1 * (y 0).val = (y 0).val; omega
  | ⟨1, _⟩ => show win10_10.index t (1 : Fin 2) * 512 + 1 * (y 1).val = (y 1).val; omega

/-- The one block of the update gate's weights over x is the array. -/
theorem read_wux : (iblk10 V c 11 t : Vec Ideal S512x512 .bf16) = (V c main_v20 : S512x512.Idx → EReal) := by
  obtain ⟨e0, e1⟩ := idx11 t
  funext y
  unfold iblk10
  rw [View.read_apply]
  show V c main_v20 _ = V c main_v20 y
  refine congrArg (V c main_v20) (funext fun a => Fin.ext ?_)
  match a with
  | ⟨0, _⟩ => show win10_11.index t (0 : Fin 2) * 512 + 1 * (y 0).val = (y 0).val; omega
  | ⟨1, _⟩ => show win10_11.index t (1 : Fin 2) * 512 + 1 * (y 1).val = (y 1).val; omega

/-- The one block of the update gate's weights over h is the array. -/
theorem read_wuh : (iblk10 V c 12 t : Vec Ideal S512x512 .bf16) = (V c main_v23 : S512x512.Idx → EReal) := by
  obtain ⟨e0, e1⟩ := idx12 t
  funext y
  unfold iblk10
  rw [View.read_apply]
  show V c main_v23 _ = V c main_v23 y
  refine congrArg (V c main_v23) (funext fun a => Fin.ext ?_)
  match a with
  | ⟨0, _⟩ => show win10_12.index t (0 : Fin 2) * 512 + 1 * (y 0).val = (y 0).val; omega
  | ⟨1, _⟩ => show win10_12.index t (1 : Fin 2) * 512 + 1 * (y 1).val = (y 1).val; omega

/-- The one block of the input gate's bias row is the array. -/
theorem read_bi : (iblk10 V c 13 t : Vec Ideal S1x512 .f32) = (V c main_v24 : S1x512.Idx → EReal) := by
  obtain ⟨e0, e1⟩ := idx13 t
  funext y
  unfold iblk10
  rw [View.read_apply]
  show V c main_v24 _ = V c main_v24 y
  refine congrArg (V c main_v24) (funext fun a => Fin.ext ?_)
  match a with
  | ⟨0, _⟩ => show win10_13.index t (0 : Fin 2) * 1 + 1 * (y 0).val = (y 0).val; omega
  | ⟨1, _⟩ => show win10_13.index t (1 : Fin 2) * 512 + 1 * (y 1).val = (y 1).val; omega

/-- The one block of the forget gates' bias row is the array. -/
theorem read_bf : (iblk10 V c 14 t : Vec Ideal S1x512 .f32) = (V c main_v25 : S1x512.Idx → EReal) := by
  obtain ⟨e0, e1⟩ := idx14 t
  funext y
  unfold iblk10
  rw [View.read_apply]
  show V c main_v25 _ = V c main_v25 y
  refine congrArg (V c main_v25) (funext fun a => Fin.ext ?_)
  match a with
  | ⟨0, _⟩ => show win10_14.index t (0 : Fin 2) * 1 + 1 * (y 0).val = (y 0).val; omega
  | ⟨1, _⟩ => show win10_14.index t (1 : Fin 2) * 512 + 1 * (y 1).val = (y 1).val; omega

/-- The one block of the output gate's bias row is the array. -/
theorem read_bo : (iblk10 V c 15 t : Vec Ideal S1x512 .f32) = (V c main_v26 : S1x512.Idx → EReal) := by
  obtain ⟨e0, e1⟩ := idx15 t
  funext y
  unfold iblk10
  rw [View.read_apply]
  show V c main_v26 _ = V c main_v26 y
  refine congrArg (V c main_v26) (funext fun a => Fin.ext ?_)
  match a with
  | ⟨0, _⟩ => show win10_15.index t (0 : Fin 2) * 1 + 1 * (y 0).val = (y 0).val; omega
  | ⟨1, _⟩ => show win10_15.index t (1 : Fin 2) * 512 + 1 * (y 1).val = (y 1).val; omega

/-- The one block of the update gate's bias row is the array. -/
theorem read_bu : (iblk10 V c 16 t : Vec Ideal S1x512 .f32) = (V c main_v27 : S1x512.Idx → EReal) := by
  obtain ⟨e0, e1⟩ := idx16 t
  funext y
  unfold iblk10
  rw [View.read_apply]
  show V c main_v27 _ = V c main_v27 y
  refine congrArg (V c main_v27) (funext fun a => Fin.ext ?_)
  match a with
  | ⟨0, _⟩ => show win10_16.index t (0 : Fin 2) * 1 + 1 * (y 0).val = (y 0).val; omega
  | ⟨1, _⟩ => show win10_16.index t (1 : Fin 2) * 512 + 1 * (y 1).val = (y 1).val; omega

end Reads

/-! ## The block body -/

/-- What a block body of 16 rows carries besides its arrays. -/
def ctx : Cert.Tree.BodyCtx 16 :=
  ⟨dot_S16x512_S512x512_S16x512_1_0_0_1_n_n, rfl, shapeCasts_S16x512_S16x512, shapeCasts_S512x512_S512x512,
    shapeCasts_S1x512_S1x512, broadcasts_S1x512_S16x512, bitsLt_bf16_f32⟩

section Body

variable {F : FTy → Type} [FloatOps F]

/-- The value the body stores into its h block is the tree cell's h block of the seventeen blocks it loads. -/
theorem bodyH_eq (x0 x1 x2 x3 x4 : Vec F S16x512 .f32) (x5 x6 x7 x8 x9 x10 x11 x12 : Vec F S512x512 .bf16)
    (x13 x14 x15 x16 : Vec F S1x512 .f32) :
    k10_pay2 (k10_pay6 x3) (k10_pay7 x4) (k10_pay13 (k10_pay11 x0 x1 x2 x5 x6 x13)) (k10_pay14 (k10_pay12 x0 x1 x2 x9 x10) x15)
      (k10_pay15 (k10_pay3 x0) (k10_pay8 x1 x2) x11 x12 x16) (k10_pay17 (k10_pay3 x0) (k10_pay9 x1) x7 x8 x14)
      (k10_pay18 (k10_pay3 x0) (k10_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S16x512 .f32) (x5 x6 x7 x8 x9 x10 x11 x12 : Vec F S512x512 .bf16)
    (x13 x14 x15 x16 : Vec F S1x512 .f32) :
    k10_pay1 (k10_pay6 x3) (k10_pay7 x4) (k10_pay13 (k10_pay11 x0 x1 x2 x5 x6 x13))
      (k10_pay15 (k10_pay3 x0) (k10_pay8 x1 x2) x11 x12 x16) (k10_pay17 (k10_pay3 x0) (k10_pay9 x1) x7 x8 x14)
      (k10_pay18 (k10_pay3 x0) (k10_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S16x512 .f32) (x5 x6 x7 x8 x9 x10 x11 x12 : Vec Ideal S512x512 .bf16)
    (x13 x14 x15 x16 : Vec Ideal S1x512 .f32)
    (X HL HR CL CR : S16x512.Idx → EReal) (w5 w6 w7 w8 w9 w10 w11 w12 : S512x512.Idx → EReal)
    (b13 b14 b15 b16 : S1x512.Idx → EReal) (p : Fin 16) (r : Fin 16) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k10_pay2 (k10_pay6 x3) (k10_pay7 x4) (k10_pay13 (k10_pay11 x0 x1 x2 x5 x6 x13)) (k10_pay14 (k10_pay12 x0 x1 x2 x9 x10) x15)
      (k10_pay15 (k10_pay3 x0) (k10_pay8 x1 x2) x11 x12 x16) (k10_pay17 (k10_pay3 x0) (k10_pay9 x1) x7 x8 x14)
      (k10_pay18 (k10_pay3 x0) (k10_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S16x512 .f32) (x5 x6 x7 x8 x9 x10 x11 x12 : Vec Ideal S512x512 .bf16)
    (x13 x14 x15 x16 : Vec Ideal S1x512 .f32)
    (X HL HR CL CR : S16x512.Idx → EReal) (w5 w6 w7 w8 w9 w10 w11 w12 : S512x512.Idx → EReal)
    (b13 b14 b15 b16 : S1x512.Idx → EReal) (p : Fin 16) (r : Fin 16) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k10_pay1 (k10_pay6 x3) (k10_pay7 x4) (k10_pay13 (k10_pay11 x0 x1 x2 x5 x6 x13))
      (k10_pay15 (k10_pay3 x0) (k10_pay8 x1 x2) x11 x12 x16) (k10_pay17 (k10_pay3 x0) (k10_pay9 x1) x7 x8 x14)
      (k10_pay18 (k10_pay3 x0) (k10_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S16x512.Idx → EReal :=
  Cert.Tree.levelH (n := 16) (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S16x512.Idx → EReal :=
  Cert.Tree.levelC (n := 16) (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg10.N) :
    (dat10 V c).flushed 17 t = ((cfg10.win 17).blk t).view.read (Elt Ideal) (GH V c) := by
  show (cfg10.win 17).cut (grid10.coords t) ((dat10 V c).after 17 t) = _
  rw [after10_17]
  unfold out10_17
  rw [View.canon_unit_zero Cert.LibBlocks.off2_zero]
  simp only [View.ld_unit_zero (S := S16x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 16) (q : Fin 512), j = ix2 p q := ⟨j 0, j 1, eq_ix2 j⟩
  have hp : p.val < 16 := p.isLt
  have ht : t.val < cfg10.N := t.isLt
  have hN : cfg10.N * 16 = 16 := points_rows
  have hr : t.val * 16 + p.val < 16 := by omega
  obtain ⟨e0, e1⟩ := idx17 t
  refine Eq.trans (b := GH V c (ix2 (⟨t.val * 16 + p.val, hr⟩ : Fin 16) q)) ?_ ?_
  · exact bodyH_at (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) (iblk10 V c 11 t) (iblk10 V c 12 t) (iblk10 V c 13 t) (iblk10 V c 14 t) (iblk10 V c 15 t) (iblk10 V c 16 t)
      (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27)
      p ⟨t.val * 16 + p.val, hr⟩ q
      (fun k => read_x V c t (ix2 p k) (ix2 ⟨t.val * 16 + p.val, hr⟩ k) rfl rfl)
      (fun k => read_hl V c t (ix2 p k) (ix2 ⟨t.val * 16 + p.val, hr⟩ k) rfl rfl)
      (fun k => read_hr V c t (ix2 p k) (ix2 ⟨t.val * 16 + p.val, hr⟩ k) rfl rfl)
      (read_cl V c t (ix2 p q) (ix2 ⟨t.val * 16 + p.val, hr⟩ q) rfl rfl)
      (read_cr V c t (ix2 p q) (ix2 ⟨t.val * 16 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg10.win 17).blk t).view.emb (ix2 p q))
    refine congrArg (GH V c) (funext fun a => Fin.ext ?_)
    match a with
    | ⟨0, _⟩ => show t.val * 16 + p.val = win10_17.index t (0 : Fin 2) * 16 + 1 * p.val; omega
    | ⟨1, _⟩ => show q.val = win10_17.index t (1 : Fin 2) * 512 + 1 * q.val; omega

/-- An entry of the h array is in point t's block iff each coordinate is in the block's range on its axis. -/
theorem mem_blkH (t : Fin cfg10.N) (i : S16x512.Idx) :
    i ∈ ((cfg10.win 17).blk t).view.set ↔ ∀ a : Fin 2, win10_17.index t a * S16x512.size a ≤ (i a).val
      ∧ (i a).val < win10_17.index t a * S16x512.size a + S16x512.size a := by
  show i ∈ ((View.whole main_v211_0).slice (win10_17.rect t)).set ↔ _
  rw [View.set_slice_whole, Rect.mem_set_unit]
  exact Iff.rfl

/-- The blocks tile the h array: row r is in the block of point r / 16. -/
theorem coverH (i : S16x512.Idx) :
    ∃ t : Fin cfg10.N, (cfg10.win 17).flush t = true ∧ i ∈ ((cfg10.win 17).blk t).view.set := by
  have hi0 : (i 0).val < 16 := (i 0).isLt
  have hi1 : (i 1).val < 512 := (i 1).isLt
  have hN : cfg10.N * 16 = 16 := points_rows
  obtain ⟨hq, hlo, hhi⟩ := Cert.LibBlocks.row_in_block (nb := cfg10.N) (bs := 16) (r := (i 0).val) (by omega) (by omega)
  obtain ⟨e0, e1⟩ := idx17 (⟨(i 0).val / 16, hq⟩ : Fin cfg10.N)
  refine ⟨⟨(i 0).val / 16, hq⟩, flush10_17 _, ?_⟩
  rw [mem_blkH]
  intro a
  match a with
  | ⟨0, _⟩ =>
    show win10_17.index ⟨(i 0).val / 16, hq⟩ (0 : Fin 2) * 16 ≤ (i 0).val
      ∧ (i 0).val < win10_17.index ⟨(i 0).val / 16, hq⟩ (0 : Fin 2) * 16 + 16
    rw [e0]
    exact ⟨hlo, hhi⟩
  | ⟨1, _⟩ =>
    show win10_17.index ⟨(i 0).val / 16, hq⟩ (1 : Fin 2) * 512 ≤ (i 1).val
      ∧ (i 1).val < win10_17.index ⟨(i 0).val / 16, hq⟩ (1 : Fin 2) * 512 + 512
    omega

/-- What point t writes back to the c array is block t of the level's c. -/
theorem flushedC (c : Dev nD) (t : Fin cfg10.N) :
    (dat10 V c).flushed 18 t = ((cfg10.win 18).blk t).view.read (Elt Ideal) (GC V c) := by
  show (cfg10.win 18).cut (grid10.coords t) ((dat10 V c).after 18 t) = _
  rw [after10_18]
  unfold out10_18
  rw [View.canon_unit_zero Cert.LibBlocks.off2_zero]
  simp only [View.ld_unit_zero (S := S16x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 16) (q : Fin 512), j = ix2 p q := ⟨j 0, j 1, eq_ix2 j⟩
  have hp : p.val < 16 := p.isLt
  have ht : t.val < cfg10.N := t.isLt
  have hN : cfg10.N * 16 = 16 := points_rows
  have hr : t.val * 16 + p.val < 16 := by omega
  obtain ⟨e0, e1⟩ := idx18 t
  refine Eq.trans (b := GC V c (ix2 (⟨t.val * 16 + p.val, hr⟩ : Fin 16) q)) ?_ ?_
  · exact bodyC_at (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) (iblk10 V c 11 t) (iblk10 V c 12 t) (iblk10 V c 13 t) (iblk10 V c 14 t) (iblk10 V c 15 t) (iblk10 V c 16 t)
      (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27)
      p ⟨t.val * 16 + p.val, hr⟩ q
      (fun k => read_x V c t (ix2 p k) (ix2 ⟨t.val * 16 + p.val, hr⟩ k) rfl rfl)
      (fun k => read_hl V c t (ix2 p k) (ix2 ⟨t.val * 16 + p.val, hr⟩ k) rfl rfl)
      (fun k => read_hr V c t (ix2 p k) (ix2 ⟨t.val * 16 + p.val, hr⟩ k) rfl rfl)
      (read_cl V c t (ix2 p q) (ix2 ⟨t.val * 16 + p.val, hr⟩ q) rfl rfl)
      (read_cr V c t (ix2 p q) (ix2 ⟨t.val * 16 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg10.win 18).blk t).view.emb (ix2 p q))
    refine congrArg (GC V c) (funext fun a => Fin.ext ?_)
    match a with
    | ⟨0, _⟩ => show t.val * 16 + p.val = win10_18.index t (0 : Fin 2) * 16 + 1 * p.val; omega
    | ⟨1, _⟩ => show q.val = win10_18.index t (1 : Fin 2) * 512 + 1 * q.val; omega

/-- An entry of the c array is in point t's block iff each coordinate is in the block's range on its axis. -/
theorem mem_blkC (t : Fin cfg10.N) (i : S16x512.Idx) :
    i ∈ ((cfg10.win 18).blk t).view.set ↔ ∀ a : Fin 2, win10_18.index t a * S16x512.size a ≤ (i a).val
      ∧ (i a).val < win10_18.index t a * S16x512.size a + S16x512.size a := by
  show i ∈ ((View.whole main_v211_1).slice (win10_18.rect t)).set ↔ _
  rw [View.set_slice_whole, Rect.mem_set_unit]
  exact Iff.rfl

/-- The blocks tile the c array: row r is in the block of point r / 16. -/
theorem coverC (i : S16x512.Idx) :
    ∃ t : Fin cfg10.N, (cfg10.win 18).flush t = true ∧ i ∈ ((cfg10.win 18).blk t).view.set := by
  have hi0 : (i 0).val < 16 := (i 0).isLt
  have hi1 : (i 1).val < 512 := (i 1).isLt
  have hN : cfg10.N * 16 = 16 := points_rows
  obtain ⟨hq, hlo, hhi⟩ := Cert.LibBlocks.row_in_block (nb := cfg10.N) (bs := 16) (r := (i 0).val) (by omega) (by omega)
  obtain ⟨e0, e1⟩ := idx18 (⟨(i 0).val / 16, hq⟩ : Fin cfg10.N)
  refine ⟨⟨(i 0).val / 16, hq⟩, flush10_18 _, ?_⟩
  rw [mem_blkC]
  intro a
  match a with
  | ⟨0, _⟩ =>
    show win10_18.index ⟨(i 0).val / 16, hq⟩ (0 : Fin 2) * 16 ≤ (i 0).val
      ∧ (i 0).val < win10_18.index ⟨(i 0).val / 16, hq⟩ (0 : Fin 2) * 16 + 16
    rw [e0]
    exact ⟨hlo, hhi⟩
  | ⟨1, _⟩ =>
    show win10_18.index ⟨(i 0).val / 16, hq⟩ (1 : Fin 2) * 512 ≤ (i 1).val
      ∧ (i 1).val < win10_18.index ⟨(i 0).val / 16, hq⟩ (1 : Fin 2) * 512 + 512
    omega

/-- After the region the h array holds the level's h of the seventeen arrays as the region finds them. -/
theorem arrH (c : Dev nD) :
    (dat10 (F := Ideal) V c).arrAt 17 cfg10.N
      = Cert.Tree.levelH (n := 16) (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27) :=
  (dat10 V c).arrAt_eq_of_cover 17 (GH V c) (fun t _ => flushedH V c t) coverH

/-- After the region the c array holds the level's c of the seventeen arrays as the region finds them. -/
theorem arrC (c : Dev nD) :
    (dat10 (F := Ideal) V c).arrAt 18 cfg10.N
      = Cert.Tree.levelC (n := 16) (V c main_v198) (V c main_v204) (V c main_v206) (V c main_v208) (V c main_v210) (V c main_v2) (V c main_v5) (V c main_v8) (V c main_v11) (V c main_v14) (V c main_v17) (V c main_v20) (V c main_v23) (V c main_v24) (V c main_v25) (V c main_v26) (V c main_v27) :=
  (dat10 V c).arrAt_eq_of_cover 18 (GC V c) (fun t _ => flushedC V c t) coverC

end Arrays

end Cert.KernelIdeal.Reg10

end
-- ==== Proof.RStep10.lean ====
/-
  The reference's level of 16 nodes (heap rows 15 … 30), read off its run's named buffers: the h and c heap
  arrays after the level are the arrays before it with the level's rows replaced by the level function of the x rows
  and of the children's rows (the even and odd rows of heap rows 31 … 62 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx10 : Cert.Tree.HostCtx 16 :=
  ⟨dot_S16x1024_S1024x512_S16x512_1_0_0_1_n_n, rfl, concatenates_S16x512_S16x512_S16x1024_d1,
    transposes_S512x1024_S1024x512_1_0, bcast_S512_S1x512_1, bcast_S1x512_S16x512_0_1, bcast_S_S16x512⟩

variable (V0 : Valuation τ sig (Elt Ideal))

/-- The level's x rows. -/
abbrev xl10 : Vec Ideal S16x512 .f32 :=
  extractStridedSlice S16x512 ![15, 0] (V0 (Proc.devRef .tc main_arg0)) slices_S32767x512_S16x512_15_0

/-- The left (even) and right (odd) children's rows of a heap array. -/
abbrev childL10 (A : Vec Ideal S32767x512 .f32) : Vec Ideal S16x512 .f32 :=
  shapeCast _ (extractStridedSlice S16x1x512 ![0, 0, 0] (shapeCast _ (extractStridedSlice S32x512 ![31, 0] A slices_S32767x512_S32x512_31_0) shapeCasts_S32x512_S16x2x512) slices_S16x2x512_S16x1x512_0_0_0) shapeCasts_S16x1x512_S16x512

abbrev childR10 (A : Vec Ideal S32767x512 .f32) : Vec Ideal S16x512 .f32 :=
  shapeCast _ (extractStridedSlice S16x1x512 ![0, 1, 0] (shapeCast _ (extractStridedSlice S32x512 ![31, 0] A slices_S32767x512_S32x512_31_0) shapeCasts_S32x512_S16x2x512) slices_S16x2x512_S16x1x512_0_1_0) shapeCasts_S16x1x512_S16x512

theorem stepC10 : res_main_v819 V0
    = Host.scatter scatter_S32767x512_S1_S16x512_01_n_0_0 (fun _ b => b) (res_main_v741 V0) (broadcastInDim S1 ![] bcast_S_S1 (constantI S_ 32 15#32))
        (Cert.Tree.hostLevelC ctx10 (xl10 V0) (childL10 (res_main_v739 V0)) (childR10 (res_main_v739 V0)) (childL10 (res_main_v741 V0)) (childR10 (res_main_v741 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v819 res_main_v813 res_main_v752 res_main_v748 res_main_v750 res_main_v744 res_main_v746 res_main_v742
  rfl

theorem stepH10 : res_main_v817 V0
    = Host.scatter scatter_S32767x512_S1_S16x512_01_n_0_0 (fun _ b => b) (res_main_v739 V0) (broadcastInDim S1 ![] bcast_S_S1 (constantI S_ 32 15#32))
        (Cert.Tree.hostLevelH ctx10 (xl10 V0) (childL10 (res_main_v739 V0)) (childR10 (res_main_v739 V0)) (childL10 (res_main_v741 V0)) (childR10 (res_main_v741 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v817 res_main_v813 res_main_v752 res_main_v748 res_main_v750 res_main_v744 res_main_v746 res_main_v742
  rfl

end Cert.ReferenceIdeal.Chain

end
-- ==== Proof.Bridge10.lean ====
/-
  The level of 16 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep10
import proofs.«110311_j37117107372689_1_alg».proof.Proof.KReg10
import proofs.«110311_j37117107372689_1_alg».proof.Proof.RStep10
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 16 nodes, they agree after it. -/
theorem level10 (hA : Agree m V0 c)
    (hH : Cert.KernelIdeal.Gen.W21 m ρ c (Proc.devRef .tc Cert.KernelIdeal.main_v195) = Cert.ReferenceIdeal.Value.res_main_v739 V0)
    (hC : Cert.KernelIdeal.Gen.W21 m ρ c (Proc.devRef .tc Cert.KernelIdeal.main_v197) = Cert.ReferenceIdeal.Value.res_main_v741 V0) :
    Cert.KernelIdeal.Gen.W23 m ρ c (Proc.devRef .tc Cert.KernelIdeal.main_v213) = Cert.ReferenceIdeal.Value.res_main_v817 V0
      ∧ Cert.KernelIdeal.Gen.W23 m ρ c (Proc.devRef .tc Cert.KernelIdeal.main_v215) = Cert.ReferenceIdeal.Value.res_main_v819 V0 := by
  constructor
  · rw [Cert.KernelIdeal.Chain.stepH10 m ρ c (Cert.KernelIdeal.Reg10.arrH (Cert.KernelIdeal.Gen.V21 m ρ) c),
      Cert.ReferenceIdeal.Chain.stepH10 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC10 m ρ c (Cert.KernelIdeal.Reg10.arrC (Cert.KernelIdeal.Gen.V21 m ρ) c),
      Cert.ReferenceIdeal.Chain.stepC10 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep11.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 11: what its scatters leave in the two heap arrays

The host stretch before the region cuts the level's 8 rows of node features out of the argument and, out of each
heap array (hidden states, cell states), the 16 rows of the level below, which it pairs up: row p's left child is
the pair's first member and its right child the second. The region computes the level's hidden and cell rows from
these five arrays and the twelve weight and bias buffers; the host stretch after it scatters the two results into the
heap arrays at row 7. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat11_h : StableHlo.after hostOps12 W (Proc.devRef .tc main_v231)
    = Host.scatter scatter_S32767x512_S1_S8x512_01_n_0_0 (fun _ b => b) (W (Proc.devRef .tc main_v213))
        (broadcastInDim S1 ![] bcast_S_S1 (constantI S_ 32 7#32)) (W (Proc.devRef .tc main_v229_0)) := by
  after_results
  rfl

/-- And the new cell heap: the old one with the region's second output scattered in. -/
theorem scat11_c : StableHlo.after hostOps12 W (Proc.devRef .tc main_v233)
    = Host.scatter scatter_S32767x512_S1_S8x512_01_n_0_0 (fun _ b => b) (W (Proc.devRef .tc main_v215))
        (broadcastInDim S1 ![] bcast_S_S1 (constantI S_ 32 7#32)) (W (Proc.devRef .tc main_v229_1)) := by
  after_results
  rfl

/-- The stretch before the region: the level's rows of node features. -/
theorem cut11_x : StableHlo.after hostOps11 W (Proc.devRef .tc main_v216)
    = extractStridedSlice S8x512 ![7, 0] (W (Proc.devRef .tc main_arg0)) slices_S32767x512_S8x512_7_0 := by
  after_results

/-- The left children's hidden rows, out of the hidden heap as this stretch itself leaves it. -/
theorem cut11_hl : StableHlo.after hostOps11 W (Proc.devRef .tc main_v222)
    = shapeCast _ (extractStridedSlice S8x1x512 ![0, 0, 0] (shapeCast _ (extractStridedSlice S16x512 ![15, 0] (StableHlo.after hostOps11 W (Proc.devRef .tc main_v213)) slices_S32767x512_S16x512_15_0) shapeCasts_S16x512_S8x2x512) slices_S8x2x512_S8x1x512_0_0_0) shapeCasts_S8x1x512_S8x512 := by
  after_results_simp
  rfl

/-- The right children's hidden rows. -/
theorem cut11_hr : StableHlo.after hostOps11 W (Proc.devRef .tc main_v224)
    = shapeCast _ (extractStridedSlice S8x1x512 ![0, 1, 0] (shapeCast _ (extractStridedSlice S16x512 ![15, 0] (StableHlo.after hostOps11 W (Proc.devRef .tc main_v213)) slices_S32767x512_S16x512_15_0) shapeCasts_S16x512_S8x2x512) slices_S8x2x512_S8x1x512_0_1_0) shapeCasts_S8x1x512_S8x512 := by
  after_results_simp
  rfl

/-- The left children's cell rows, out of the cell heap. -/
theorem cut11_cl : StableHlo.after hostOps11 W (Proc.devRef .tc main_v226)
    = shapeCast _ (extractStridedSlice S8x1x512 ![0, 0, 0] (shapeCast _ (extractStridedSlice S16x512 ![15, 0] (StableHlo.after hostOps11 W (Proc.devRef .tc main_v215)) slices_S32767x512_S16x512_15_0) shapeCasts_S16x512_S8x2x512) slices_S8x2x512_S8x1x512_0_0_0) shapeCasts_S8x1x512_S8x512 := by
  after_results_simp
  rfl

/-- The right children's cell rows. -/
theorem cut11_cr : StableHlo.after hostOps11 W (Proc.devRef .tc main_v228)
    = shapeCast _ (extractStridedSlice S8x1x512 ![0, 1, 0] (shapeCast _ (extractStridedSlice S16x512 ![15, 0] (StableHlo.after hostOps11 W (Proc.devRef .tc main_v215)) slices_S32767x512_S16x512_15_0) shapeCasts_S16x512_S8x2x512) slices_S8x2x512_S8x1x512_0_1_0) shapeCasts_S8x1x512_S8x512 := by
  after_results_simp
  rfl

end Host

/-! ## The region's five level arrays at its entry, in the run -/

theorem in11_x (c : Dev nD) : Gen.W23 m ρ c (Proc.devRef .tc main_v216)
    = extractStridedSlice S8x512 ![7, 0] (m ((c : Thread nD τ).loc main_arg0)) slices_S32767x512_S8x512_7_0 :=
  (cut11_x (Gen.W22 m ρ c)).trans (by rw [arg0_11 m ρ c])

theorem in11_hl (c : Dev nD) : Gen.W23 m ρ c (Proc.devRef .tc main_v222)
    = shapeCast _ (extractStridedSlice S8x1x512 ![0, 0, 0] (shapeCast _ (extractStridedSlice S16x512 ![15, 0] (Gen.W23 m ρ c (Proc.devRef .tc main_v213)) slices_S32767x512_S16x512_15_0) shapeCasts_S16x512_S8x2x512) slices_S8x2x512_S8x1x512_0_0_0) shapeCasts_S8x1x512_S8x512 :=
  cut11_hl (Gen.W22 m ρ c)

theorem in11_hr (c : Dev nD) : Gen.W23 m ρ c (Proc.devRef .tc main_v224)
    = shapeCast _ (extractStridedSlice S8x1x512 ![0, 1, 0] (shapeCast _ (extractStridedSlice S16x512 ![15, 0] (Gen.W23 m ρ c (Proc.devRef .tc main_v213)) slices_S32767x512_S16x512_15_0) shapeCasts_S16x512_S8x2x512) slices_S8x2x512_S8x1x512_0_1_0) shapeCasts_S8x1x512_S8x512 :=
  cut11_hr (Gen.W22 m ρ c)

theorem in11_cl (c : Dev nD) : Gen.W23 m ρ c (Proc.devRef .tc main_v226)
    = shapeCast _ (extractStridedSlice S8x1x512 ![0, 0, 0] (shapeCast _ (extractStridedSlice S16x512 ![15, 0] (Gen.W23 m ρ c (Proc.devRef .tc main_v215)) slices_S32767x512_S16x512_15_0) shapeCasts_S16x512_S8x2x512) slices_S8x2x512_S8x1x512_0_0_0) shapeCasts_S8x1x512_S8x512 :=
  cut11_cl (Gen.W22 m ρ c)

theorem in11_cr (c : Dev nD) : Gen.W23 m ρ c (Proc.devRef .tc main_v228)
    = shapeCast _ (extractStridedSlice S8x1x512 ![0, 1, 0] (shapeCast _ (extractStridedSlice S16x512 ![15, 0] (Gen.W23 m ρ c (Proc.devRef .tc main_v215)) slices_S32767x512_S16x512_15_0) shapeCasts_S16x512_S8x2x512) slices_S8x2x512_S8x1x512_0_1_0) shapeCasts_S8x1x512_S8x512 :=
  cut11_cr (Gen.W22 m ρ c)

/-! ## The region's two outputs at its exit are its proof data's arrays after the last grid point -/

theorem out11_h (c : Dev nD) : Gen.W24 m ρ c (Proc.devRef .tc main_v229_0) = (Gen.dat11 (Gen.V23 m ρ) c).arrAt 17 cfg11.N :=
  Gen.W24_arr m ρ c 17

theorem out11_c (c : Dev nD) : Gen.W24 m ρ c (Proc.devRef .tc main_v229_1) = (Gen.dat11 (Gen.V23 m ρ) c).arrAt 18 cfg11.N :=
  Gen.W24_arr m ρ c 18

/-! ## The level -/

/-- The hidden heap after the level, given that the region's first output is the level function of its entry arrays. -/
theorem stepH11 (c : Dev nD)
    (hH : (Gen.dat11 (F := Ideal) (Gen.V23 m ρ) c).arrAt 17 cfg11.N
      = Cert.Tree.levelH (n := 8) (Gen.V23 m ρ c main_v216) (Gen.V23 m ρ c main_v222) (Gen.V23 m ρ c main_v224)
          (Gen.V23 m ρ c main_v226) (Gen.V23 m ρ c main_v228)
          (Gen.V23 m ρ c main_v2) (Gen.V23 m ρ c main_v5) (Gen.V23 m ρ c main_v8) (Gen.V23 m ρ c main_v11)
          (Gen.V23 m ρ c main_v14) (Gen.V23 m ρ c main_v17) (Gen.V23 m ρ c main_v20) (Gen.V23 m ρ c main_v23)
          (Gen.V23 m ρ c main_v24) (Gen.V23 m ρ c main_v25) (Gen.V23 m ρ c main_v26) (Gen.V23 m ρ c main_v27)) :
    Gen.W25 m ρ c (Proc.devRef .tc main_v231)
      = Host.scatter scatter_S32767x512_S1_S8x512_01_n_0_0 (fun _ b => b) (Gen.W23 m ρ c (Proc.devRef .tc main_v213))
          (broadcastInDim S1 ![] bcast_S_S1 (constantI S_ 32 7#32))
          (Cert.Tree.levelH (n := 8)
            (extractStridedSlice S8x512 ![7, 0] (m ((c : Thread nD τ).loc main_arg0)) slices_S32767x512_S8x512_7_0)
            (shapeCast _ (extractStridedSlice S8x1x512 ![0, 0, 0] (shapeCast _ (extractStridedSlice S16x512 ![15, 0] (Gen.W23 m ρ c (Proc.devRef .tc main_v213)) slices_S32767x512_S16x512_15_0) shapeCasts_S16x512_S8x2x512) slices_S8x2x512_S8x1x512_0_0_0) shapeCasts_S8x1x512_S8x512)
            (shapeCast _ (extractStridedSlice S8x1x512 ![0, 1, 0] (shapeCast _ (extractStridedSlice S16x512 ![15, 0] (Gen.W23 m ρ c (Proc.devRef .tc main_v213)) slices_S32767x512_S16x512_15_0) shapeCasts_S16x512_S8x2x512) slices_S8x2x512_S8x1x512_0_1_0) shapeCasts_S8x1x512_S8x512)
            (shapeCast _ (extractStridedSlice S8x1x512 ![0, 0, 0] (shapeCast _ (extractStridedSlice S16x512 ![15, 0] (Gen.W23 m ρ c (Proc.devRef .tc main_v215)) slices_S32767x512_S16x512_15_0) shapeCasts_S16x512_S8x2x512) slices_S8x2x512_S8x1x512_0_0_0) shapeCasts_S8x1x512_S8x512)
            (shapeCast _ (extractStridedSlice S8x1x512 ![0, 1, 0] (shapeCast _ (extractStridedSlice S16x512 ![15, 0] (Gen.W23 m ρ c (Proc.devRef .tc main_v215)) slices_S32767x512_S16x512_15_0) shapeCasts_S16x512_S8x2x512) slices_S8x2x512_S8x1x512_0_1_0) shapeCasts_S8x1x512_S8x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat11 (F := Ideal) (Gen.V23 m ρ) c).arrAt 17 cfg11.N
      = Cert.Tree.levelH (n := 8) (Gen.W23 m ρ c (Proc.devRef .tc main_v216)) (Gen.W23 m ρ c (Proc.devRef .tc main_v222))
          (Gen.W23 m ρ c (Proc.devRef .tc main_v224)) (Gen.W23 m ρ c (Proc.devRef .tc main_v226))
          (Gen.W23 m ρ c (Proc.devRef .tc main_v228))
          (Gen.W23 m ρ c (Proc.devRef .tc main_v2)) (Gen.W23 m ρ c (Proc.devRef .tc main_v5))
          (Gen.W23 m ρ c (Proc.devRef .tc main_v8)) (Gen.W23 m ρ c (Proc.devRef .tc main_v11))
          (Gen.W23 m ρ c (Proc.devRef .tc main_v14)) (Gen.W23 m ρ c (Proc.devRef .tc main_v17))
          (Gen.W23 m ρ c (Proc.devRef .tc main_v20)) (Gen.W23 m ρ c (Proc.devRef .tc main_v23))
          (Gen.W23 m ρ c (Proc.devRef .tc main_v24)) (Gen.W23 m ρ c (Proc.devRef .tc main_v25))
          (Gen.W23 m ρ c (Proc.devRef .tc main_v26)) (Gen.W23 m ρ c (Proc.devRef .tc main_v27)) := hH
  rw [in11_x m ρ c, in11_hl m ρ c, in11_hr m ρ c, in11_cl m ρ c, in11_cr m ρ c,
    keep11_main_v2 m ρ c, keep11_main_v5 m ρ c, keep11_main_v8 m ρ c, keep11_main_v11 m ρ c, keep11_main_v14 m ρ c,
    keep11_main_v17 m ρ c, keep11_main_v20 m ρ c, keep11_main_v23 m ρ c, keep11_main_v24 m ρ c, keep11_main_v25 m ρ c,
    keep11_main_v26 m ρ c, keep11_main_v27 m ρ c] at hH'
  refine (scat11_h (Gen.W24 m ρ c)).trans ?_
  rw [Gen.W24_of_ne m ρ c main_v213 (by decide), out11_h m ρ c, hH']

/-- The cell heap after the level, given that the region's second output is the level's cell function of its entry arrays. -/
theorem stepC11 (c : Dev nD)
    (hC : (Gen.dat11 (F := Ideal) (Gen.V23 m ρ) c).arrAt 18 cfg11.N
      = Cert.Tree.levelC (n := 8) (Gen.V23 m ρ c main_v216) (Gen.V23 m ρ c main_v222) (Gen.V23 m ρ c main_v224)
          (Gen.V23 m ρ c main_v226) (Gen.V23 m ρ c main_v228)
          (Gen.V23 m ρ c main_v2) (Gen.V23 m ρ c main_v5) (Gen.V23 m ρ c main_v8) (Gen.V23 m ρ c main_v11)
          (Gen.V23 m ρ c main_v14) (Gen.V23 m ρ c main_v17) (Gen.V23 m ρ c main_v20) (Gen.V23 m ρ c main_v23)
          (Gen.V23 m ρ c main_v24) (Gen.V23 m ρ c main_v25) (Gen.V23 m ρ c main_v26) (Gen.V23 m ρ c main_v27)) :
    Gen.W25 m ρ c (Proc.devRef .tc main_v233)
      = Host.scatter scatter_S32767x512_S1_S8x512_01_n_0_0 (fun _ b => b) (Gen.W23 m ρ c (Proc.devRef .tc main_v215))
          (broadcastInDim S1 ![] bcast_S_S1 (constantI S_ 32 7#32))
          (Cert.Tree.levelC (n := 8)
            (extractStridedSlice S8x512 ![7, 0] (m ((c : Thread nD τ).loc main_arg0)) slices_S32767x512_S8x512_7_0)
            (shapeCast _ (extractStridedSlice S8x1x512 ![0, 0, 0] (shapeCast _ (extractStridedSlice S16x512 ![15, 0] (Gen.W23 m ρ c (Proc.devRef .tc main_v213)) slices_S32767x512_S16x512_15_0) shapeCasts_S16x512_S8x2x512) slices_S8x2x512_S8x1x512_0_0_0) shapeCasts_S8x1x512_S8x512)
            (shapeCast _ (extractStridedSlice S8x1x512 ![0, 1, 0] (shapeCast _ (extractStridedSlice S16x512 ![15, 0] (Gen.W23 m ρ c (Proc.devRef .tc main_v213)) slices_S32767x512_S16x512_15_0) shapeCasts_S16x512_S8x2x512) slices_S8x2x512_S8x1x512_0_1_0) shapeCasts_S8x1x512_S8x512)
            (shapeCast _ (extractStridedSlice S8x1x512 ![0, 0, 0] (shapeCast _ (extractStridedSlice S16x512 ![15, 0] (Gen.W23 m ρ c (Proc.devRef .tc main_v215)) slices_S32767x512_S16x512_15_0) shapeCasts_S16x512_S8x2x512) slices_S8x2x512_S8x1x512_0_0_0) shapeCasts_S8x1x512_S8x512)
            (shapeCast _ (extractStridedSlice S8x1x512 ![0, 1, 0] (shapeCast _ (extractStridedSlice S16x512 ![15, 0] (Gen.W23 m ρ c (Proc.devRef .tc main_v215)) slices_S32767x512_S16x512_15_0) shapeCasts_S16x512_S8x2x512) slices_S8x2x512_S8x1x512_0_1_0) shapeCasts_S8x1x512_S8x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat11 (F := Ideal) (Gen.V23 m ρ) c).arrAt 18 cfg11.N
      = Cert.Tree.levelC (n := 8) (Gen.W23 m ρ c (Proc.devRef .tc main_v216)) (Gen.W23 m ρ c (Proc.devRef .tc main_v222))
          (Gen.W23 m ρ c (Proc.devRef .tc main_v224)) (Gen.W23 m ρ c (Proc.devRef .tc main_v226))
          (Gen.W23 m ρ c (Proc.devRef .tc main_v228))
          (Gen.W23 m ρ c (Proc.devRef .tc main_v2)) (Gen.W23 m ρ c (Proc.devRef .tc main_v5))
          (Gen.W23 m ρ c (Proc.devRef .tc main_v8)) (Gen.W23 m ρ c (Proc.devRef .tc main_v11))
          (Gen.W23 m ρ c (Proc.devRef .tc main_v14)) (Gen.W23 m ρ c (Proc.devRef .tc main_v17))
          (Gen.W23 m ρ c (Proc.devRef .tc main_v20)) (Gen.W23 m ρ c (Proc.devRef .tc main_v23))
          (Gen.W23 m ρ c (Proc.devRef .tc main_v24)) (Gen.W23 m ρ c (Proc.devRef .tc main_v25))
          (Gen.W23 m ρ c (Proc.devRef .tc main_v26)) (Gen.W23 m ρ c (Proc.devRef .tc main_v27)) := hC
  rw [in11_x m ρ c, in11_hl m ρ c, in11_hr m ρ c, in11_cl m ρ c, in11_cr m ρ c,
    keep11_main_v2 m ρ c, keep11_main_v5 m ρ c, keep11_main_v8 m ρ c, keep11_main_v11 m ρ c, keep11_main_v14 m ρ c,
    keep11_main_v17 m ρ c, keep11_main_v20 m ρ c, keep11_main_v23 m ρ c, keep11_main_v24 m ρ c, keep11_main_v25 m ρ c,
    keep11_main_v26 m ρ c, keep11_main_v27 m ρ c] at hC'
  refine (scat11_c (Gen.W24 m ρ c)).trans ?_
  rw [Gen.W24_of_ne m ρ c main_v215 (by decide), out11_c m ρ c, hC']

end Cert.KernelIdeal.Chain

end
-- ==== Proof.KReg11.lean ====
/-
  One level of the tree on the kernel's side: 8 internal nodes, worked in blocks of 8 node rows, one block per
  grid point. What the level's two output arrays hold after the region, whatever the arrays hold when it is entered.

  Grid point t reads block t (rows 8 t … 8 t + 7) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg11

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg11.N * 8 = 8 := by decide

/-! The printed index maps, decided over the grid: a row array's block at point t is block (t, 0); a weight half or a
    bias row is one block, (0, 0). -/

theorem idx0 : ∀ t : Fin cfg11.N, win11_0.index t (0 : Fin 2) = t.val ∧ win11_0.index t (1 : Fin 2) = 0 :=
  (by decide +kernel : ∀ t : Fin grid11.N, _)
theorem idx1 : ∀ t : Fin cfg11.N, win11_1.index t (0 : Fin 2) = t.val ∧ win11_1.index t (1 : Fin 2) = 0 :=
  (by decide +kernel : ∀ t : Fin grid11.N, _)
theorem idx2 : ∀ t : Fin cfg11.N, win11_2.index t (0 : Fin 2) = t.val ∧ win11_2.index t (1 : Fin 2) = 0 :=
  (by decide +kernel : ∀ t : Fin grid11.N, _)
theorem idx3 : ∀ t : Fin cfg11.N, win11_3.index t (0 : Fin 2) = t.val ∧ win11_3.index t (1 : Fin 2) = 0 :=
  (by decide +kernel : ∀ t : Fin grid11.N, _)
theorem idx4 : ∀ t : Fin cfg11.N, win11_4.index t (0 : Fin 2) = t.val ∧ win11_4.index t (1 : Fin 2) = 0 :=
  (by decide +kernel : ∀ t : Fin grid11.N, _)
theorem idx17 : ∀ t : Fin cfg11.N, win11_17.index t (0 : Fin 2) = t.val ∧ win11_17.index t (1 : Fin 2) = 0 :=
  (by decide +kernel : ∀ t : Fin grid11.N, _)
theorem idx18 : ∀ t : Fin cfg11.N, win11_18.index t (0 : Fin 2) = t.val ∧ win11_18.index t (1 : Fin 2) = 0 :=
  (by decide +kernel : ∀ t : Fin grid11.N, _)
theorem idx5 : ∀ t : Fin cfg11.N, win11_5.index t (0 : Fin 2) = 0 ∧ win11_5.index t (1 : Fin 2) = 0 :=
  (by decide +kernel : ∀ t : Fin grid11.N, _)
theorem idx6 : ∀ t : Fin cfg11.N, win11_6.index t (0 : Fin 2) = 0 ∧ win11_6.index t (1 : Fin 2) = 0 :=
  (by decide +kernel : ∀ t : Fin grid11.N, _)
theorem idx7 : ∀ t : Fin cfg11.N, win11_7.index t (0 : Fin 2) = 0 ∧ win11_7.index t (1 : Fin 2) = 0 :=
  (by decide +kernel : ∀ t : Fin grid11.N, _)
theorem idx8 : ∀ t : Fin cfg11.N, win11_8.index t (0 : Fin 2) = 0 ∧ win11_8.index t (1 : Fin 2) = 0 :=
  (by decide +kernel : ∀ t : Fin grid11.N, _)
theorem idx9 : ∀ t : Fin cfg11.N, win11_9.index t (0 : Fin 2) = 0 ∧ win11_9.index t (1 : Fin 2) = 0 :=
  (by decide +kernel : ∀ t : Fin grid11.N, _)
theorem idx10 : ∀ t : Fin cfg11.N, win11_10.index t (0 : Fin 2) = 0 ∧ win11_10.index t (1 : Fin 2) = 0 :=
  (by decide +kernel : ∀ t : Fin grid11.N, _)
theorem idx11 : ∀ t : Fin cfg11.N, win11_11.index t (0 : Fin 2) = 0 ∧ win11_11.index t (1 : Fin 2) = 0 :=
  (by decide +kernel : ∀ t : Fin grid11.N, _)
theorem idx12 : ∀ t : Fin cfg11.N, win11_12.index t (0 : Fin 2) = 0 ∧ win11_12.index t (1 : Fin 2) = 0 :=
  (by decide +kernel : ∀ t : Fin grid11.N, _)
theorem idx13 : ∀ t : Fin cfg11.N, win11_13.index t (0 : Fin 2) = 0 ∧ win11_13.index t (1 : Fin 2) = 0 :=
  (by decide +kernel : ∀ t : Fin grid11.N, _)
theorem idx14 : ∀ t : Fin cfg11.N, win11_14.index t (0 : Fin 2) = 0 ∧ win11_14.index t (1 : Fin 2) = 0 :=
  (by decide +kernel : ∀ t : Fin grid11.N, _)
theorem idx15 : ∀ t : Fin cfg11.N, win11_15.index t (0 : Fin 2) = 0 ∧ win11_15.index t (1 : Fin 2) = 0 :=
  (by decide +kernel : ∀ t : Fin grid11.N, _)
theorem idx16 : ∀ t : Fin cfg11.N, win11_16.index t (0 : Fin 2) = 0 ∧ win11_16.index t (1 : Fin 2) = 0 :=
  (by decide +kernel : ∀ t : Fin grid11.N, _)

/-! ## The blocks the body reads

A block's entry sits in its array, on each axis, at the block index times the block's extent plus the entry's own
coordinate. So entry (p, k) of block t of a row array is the array's entry (8 t + p, k), and the one block of a weight
half or of a bias row is the array itself. -/

section Reads

variable (V : (c : Dev nD) → (b : Ref sig .tc) → Buf (Elt Ideal) ((c : Thread nD τ).loc b))
variable (c : Dev nD) (t : Fin cfg11.N)

/-- Block t of x, at an entry. -/
theorem read_x (y : S8x512.Idx) (i : S8x512.Idx) (h0 : (i 0).val = t.val * 8 + (y 0).val) (h1 : (i 1).val = (y 1).val) :
    (iblk11 V c 0 t : Vec Ideal S8x512 .f32) y = (V c main_v216 : S8x512.Idx → EReal) i := by
  obtain ⟨e0, e1⟩ := idx0 t
  unfold iblk11
  rw [View.read_apply]
  show V c main_v216 _ = V c main_v216 _
  refine congrArg (V c main_v216) (funext fun a => Fin.ext ?_)
  match a with
  | ⟨0, _⟩ => show win11_0.index t (0 : Fin 2) * 8 + 1 * (y 0).val = (i 0).val; omega
  | ⟨1, _⟩ => show win11_0.index t (1 : Fin 2) * 512 + 1 * (y 1).val = (i 1).val; omega

/-- Block t of the left children's h, at an entry. -/
theorem read_hl (y : S8x512.Idx) (i : S8x512.Idx) (h0 : (i 0).val = t.val * 8 + (y 0).val) (h1 : (i 1).val = (y 1).val) :
    (iblk11 V c 1 t : Vec Ideal S8x512 .f32) y = (V c main_v222 : S8x512.Idx → EReal) i := by
  obtain ⟨e0, e1⟩ := idx1 t
  unfold iblk11
  rw [View.read_apply]
  show V c main_v222 _ = V c main_v222 _
  refine congrArg (V c main_v222) (funext fun a => Fin.ext ?_)
  match a with
  | ⟨0, _⟩ => show win11_1.index t (0 : Fin 2) * 8 + 1 * (y 0).val = (i 0).val; omega
  | ⟨1, _⟩ => show win11_1.index t (1 : Fin 2) * 512 + 1 * (y 1).val = (i 1).val; omega

/-- Block t of the right children's h, at an entry. -/
theorem read_hr (y : S8x512.Idx) (i : S8x512.Idx) (h0 : (i 0).val = t.val * 8 + (y 0).val) (h1 : (i 1).val = (y 1).val) :
    (iblk11 V c 2 t : Vec Ideal S8x512 .f32) y = (V c main_v224 : S8x512.Idx → EReal) i := by
  obtain ⟨e0, e1⟩ := idx2 t
  unfold iblk11
  rw [View.read_apply]
  show V c main_v224 _ = V c main_v224 _
  refine congrArg (V c main_v224) (funext fun a => Fin.ext ?_)
  match a with
  | ⟨0, _⟩ => show win11_2.index t (0 : Fin 2) * 8 + 1 * (y 0).val = (i 0).val; omega
  | ⟨1, _⟩ => show win11_2.index t (1 : Fin 2) * 512 + 1 * (y 1).val = (i 1).val; omega

/-- Block t of the left children's c, at an entry. -/
theorem read_cl (y : S8x512.Idx) (i : S8x512.Idx) (h0 : (i 0).val = t.val * 8 + (y 0).val) (h1 : (i 1).val = (y 1).val) :
    (iblk11 V c 3 t : Vec Ideal S8x512 .f32) y = (V c main_v226 : S8x512.Idx → EReal) i := by
  obtain ⟨e0, e1⟩ := idx3 t
  unfold iblk11
  rw [View.read_apply]
  show V c main_v226 _ = V c main_v226 _
  refine congrArg (V c main_v226) (funext fun a => Fin.ext ?_)
  match a with
  | ⟨0, _⟩ => show win11_3.index t (0 : Fin 2) * 8 + 1 * (y 0).val = (i 0).val; omega
  | ⟨1, _⟩ => show win11_3.index t (1 : Fin 2) * 512 + 1 * (y 1).val = (i 1).val; omega

/-- Block t of the right children's c, at an entry. -/
theorem read_cr (y : S8x512.Idx) (i : S8x512.Idx) (h0 : (i 0).val = t.val * 8 + (y 0).val) (h1 : (i 1).val = (y 1).val) :
    (iblk11 V c 4 t : Vec Ideal S8x512 .f32) y = (V c main_v228 : S8x512.Idx → EReal) i := by
  obtain ⟨e0, e1⟩ := idx4 t
  unfold iblk11
  rw [View.read_apply]
  show V c main_v228 _ = V c main_v228 _
  refine congrArg (V c main_v228) (funext fun a => Fin.ext ?_)
  match a with
  | ⟨0, _⟩ => show win11_4.index t (0 : Fin 2) * 8 + 1 * (y 0).val = (i 0).val; omega
  | ⟨1, _⟩ => show win11_4.index t (1 : Fin 2) * 512 + 1 * (y 1).val = (i 1).val; omega

/-- The one block of the input gate's weights over x is the array. -/
theorem read_wix : (iblk11 V c 5 t : Vec Ideal S512x512 .bf16) = (V c main_v2 : S512x512.Idx → EReal) := by
  obtain ⟨e0, e1⟩ := idx5 t
  funext y
  unfold iblk11
  rw [View.read_apply]
  show V c main_v2 _ = V c main_v2 y
  refine congrArg (V c main_v2) (funext fun a => Fin.ext ?_)
  match a with
  | ⟨0, _⟩ => show win11_5.index t (0 : Fin 2) * 512 + 1 * (y 0).val = (y 0).val; omega
  | ⟨1, _⟩ => show win11_5.index t (1 : Fin 2) * 512 + 1 * (y 1).val = (y 1).val; omega

/-- The one block of the input gate's weights over h is the array. -/
theorem read_wih : (iblk11 V c 6 t : Vec Ideal S512x512 .bf16) = (V c main_v5 : S512x512.Idx → EReal) := by
  obtain ⟨e0, e1⟩ := idx6 t
  funext y
  unfold iblk11
  rw [View.read_apply]
  show V c main_v5 _ = V c main_v5 y
  refine congrArg (V c main_v5) (funext fun a => Fin.ext ?_)
  match a with
  | ⟨0, _⟩ => show win11_6.index t (0 : Fin 2) * 512 + 1 * (y 0).val = (y 0).val; omega
  | ⟨1, _⟩ => show win11_6.index t (1 : Fin 2) * 512 + 1 * (y 1).val = (y 1).val; omega

/-- The one block of the forget gates' weights over x is the array. -/
theorem read_wfx : (iblk11 V c 7 t : Vec Ideal S512x512 .bf16) = (V c main_v8 : S512x512.Idx → EReal) := by
  obtain ⟨e0, e1⟩ := idx7 t
  funext y
  unfold iblk11
  rw [View.read_apply]
  show V c main_v8 _ = V c main_v8 y
  refine congrArg (V c main_v8) (funext fun a => Fin.ext ?_)
  match a with
  | ⟨0, _⟩ => show win11_7.index t (0 : Fin 2) * 512 + 1 * (y 0).val = (y 0).val; omega
  | ⟨1, _⟩ => show win11_7.index t (1 : Fin 2) * 512 + 1 * (y 1).val = (y 1).val; omega

/-- The one block of the forget gates' weights over h is the array. -/
theorem read_wfh : (iblk11 V c 8 t : Vec Ideal S512x512 .bf16) = (V c main_v11 : S512x512.Idx → EReal) := by
  obtain ⟨e0, e1⟩ := idx8 t
  funext y
  unfold iblk11
  rw [View.read_apply]
  show V c main_v11 _ = V c main_v11 y
  refine congrArg (V c main_v11) (funext fun a => Fin.ext ?_)
  match a with
  | ⟨0, _⟩ => show win11_8.index t (0 : Fin 2) * 512 + 1 * (y 0).val = (y 0).val; omega
  | ⟨1, _⟩ => show win11_8.index t (1 : Fin 2) * 512 + 1 * (y 1).val = (y 1).val; omega

/-- The one block of the output gate's weights over x is the array. -/
theorem read_wox : (iblk11 V c 9 t : Vec Ideal S512x512 .bf16) = (V c main_v14 : S512x512.Idx → EReal) := by
  obtain ⟨e0, e1⟩ := idx9 t
  funext y
  unfold iblk11
  rw [View.read_apply]
  show V c main_v14 _ = V c main_v14 y
  refine congrArg (V c main_v14) (funext fun a => Fin.ext ?_)
  match a with
  | ⟨0, _⟩ => show win11_9.index t (0 : Fin 2) * 512 + 1 * (y 0).val = (y 0).val; omega
  | ⟨1, _⟩ => show win11_9.index t (1 : Fin 2) * 512 + 1 * (y 1).val = (y 1).val; omega

/-- The one block of the output gate's weights over h is the array. -/
theorem read_woh : (iblk11 V c 10 t : Vec Ideal S512x512 .bf16) = (V c main_v17 : S512x512.Idx → EReal) := by
  obtain ⟨e0, e1⟩ := idx10 t
  funext y
  unfold iblk11
  rw [View.read_apply]
  show V c main_v17 _ = V c main_v17 y
  refine congrArg (V c main_v17) (funext fun a => Fin.ext ?_)
  match a with
  | ⟨0, _⟩ => show win11_10.index t (0 : Fin 2) * 512 + 1 * (y 0).val = (y 0).val; omega
  | ⟨1, _⟩ => show win11_10.index t (1 : Fin 2) * 512 + 1 * (y 1).val = (y 1).val; omega

/-- The one block of the update gate's weights over x is the array. -/
theorem read_wux : (iblk11 V c 11 t : Vec Ideal S512x512 .bf16) = (V c main_v20 : S512x512.Idx → EReal) := by
  obtain ⟨e0, e1⟩ := idx11 t
  funext y
  unfold iblk11
  rw [View.read_apply]
  show V c main_v20 _ = V c main_v20 y
  refine congrArg (V c main_v20) (funext fun a => Fin.ext ?_)
  match a with
  | ⟨0, _⟩ => show win11_11.index t (0 : Fin 2) * 512 + 1 * (y 0).val = (y 0).val; omega
  | ⟨1, _⟩ => show win11_11.index t (1 : Fin 2) * 512 + 1 * (y 1).val = (y 1).val; omega

/-- The one block of the update gate's weights over h is the array. -/
theorem read_wuh : (iblk11 V c 12 t : Vec Ideal S512x512 .bf16) = (V c main_v23 : S512x512.Idx → EReal) := by
  obtain ⟨e0, e1⟩ := idx12 t
  funext y
  unfold iblk11
  rw [View.read_apply]
  show V c main_v23 _ = V c main_v23 y
  refine congrArg (V c main_v23) (funext fun a => Fin.ext ?_)
  match a with
  | ⟨0, _⟩ => show win11_12.index t (0 : Fin 2) * 512 + 1 * (y 0).val = (y 0).val; omega
  | ⟨1, _⟩ => show win11_12.index t (1 : Fin 2) * 512 + 1 * (y 1).val = (y 1).val; omega

/-- The one block of the input gate's bias row is the array. -/
theorem read_bi : (iblk11 V c 13 t : Vec Ideal S1x512 .f32) = (V c main_v24 : S1x512.Idx → EReal) := by
  obtain ⟨e0, e1⟩ := idx13 t
  funext y
  unfold iblk11
  rw [View.read_apply]
  show V c main_v24 _ = V c main_v24 y
  refine congrArg (V c main_v24) (funext fun a => Fin.ext ?_)
  match a with
  | ⟨0, _⟩ => show win11_13.index t (0 : Fin 2) * 1 + 1 * (y 0).val = (y 0).val; omega
  | ⟨1, _⟩ => show win11_13.index t (1 : Fin 2) * 512 + 1 * (y 1).val = (y 1).val; omega

/-- The one block of the forget gates' bias row is the array. -/
theorem read_bf : (iblk11 V c 14 t : Vec Ideal S1x512 .f32) = (V c main_v25 : S1x512.Idx → EReal) := by
  obtain ⟨e0, e1⟩ := idx14 t
  funext y
  unfold iblk11
  rw [View.read_apply]
  show V c main_v25 _ = V c main_v25 y
  refine congrArg (V c main_v25) (funext fun a => Fin.ext ?_)
  match a with
  | ⟨0, _⟩ => show win11_14.index t (0 : Fin 2) * 1 + 1 * (y 0).val = (y 0).val; omega
  | ⟨1, _⟩ => show win11_14.index t (1 : Fin 2) * 512 + 1 * (y 1).val = (y 1).val; omega

/-- The one block of the output gate's bias row is the array. -/
theorem read_bo : (iblk11 V c 15 t : Vec Ideal S1x512 .f32) = (V c main_v26 : S1x512.Idx → EReal) := by
  obtain ⟨e0, e1⟩ := idx15 t
  funext y
  unfold iblk11
  rw [View.read_apply]
  show V c main_v26 _ = V c main_v26 y
  refine congrArg (V c main_v26) (funext fun a => Fin.ext ?_)
  match a with
  | ⟨0, _⟩ => show win11_15.index t (0 : Fin 2) * 1 + 1 * (y 0).val = (y 0).val; omega
  | ⟨1, _⟩ => show win11_15.index t (1 : Fin 2) * 512 + 1 * (y 1).val = (y 1).val; omega

/-- The one block of the update gate's bias row is the array. -/
theorem read_bu : (iblk11 V c 16 t : Vec Ideal S1x512 .f32) = (V c main_v27 : S1x512.Idx → EReal) := by
  obtain ⟨e0, e1⟩ := idx16 t
  funext y
  unfold iblk11
  rw [View.read_apply]
  show V c main_v27 _ = V c main_v27 y
  refine congrArg (V c main_v27) (funext fun a => Fin.ext ?_)
  match a with
  | ⟨0, _⟩ => show win11_16.index t (0 : Fin 2) * 1 + 1 * (y 0).val = (y 0).val; omega
  | ⟨1, _⟩ => show win11_16.index t (1 : Fin 2) * 512 + 1 * (y 1).val = (y 1).val; omega

end Reads

/-! ## The block body -/

/-- What a block body of 8 rows carries besides its arrays. -/
def ctx : Cert.Tree.BodyCtx 8 :=
  ⟨dot_S8x512_S512x512_S8x512_1_0_0_1_n_n, rfl, shapeCasts_S8x512_S8x512, shapeCasts_S512x512_S512x512,
    shapeCasts_S1x512_S1x512, broadcasts_S1x512_S8x512, bitsLt_bf16_f32⟩

section Body

variable {F : FTy → Type} [FloatOps F]

/-- The value the body stores into its h block is the tree cell's h block of the seventeen blocks it loads. -/
theorem bodyH_eq (x0 x1 x2 x3 x4 : Vec F S8x512 .f32) (x5 x6 x7 x8 x9 x10 x11 x12 : Vec F S512x512 .bf16)
    (x13 x14 x15 x16 : Vec F S1x512 .f32) :
    k11_pay2 (k11_pay6 x3) (k11_pay7 x4) (k11_pay13 (k11_pay11 x0 x1 x2 x5 x6 x13)) (k11_pay14 (k11_pay12 x0 x1 x2 x9 x10) x15)
      (k11_pay15 (k11_pay3 x0) (k11_pay8 x1 x2) x11 x12 x16) (k11_pay17 (k11_pay3 x0) (k11_pay9 x1) x7 x8 x14)
      (k11_pay18 (k11_pay3 x0) (k11_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S8x512 .f32) (x5 x6 x7 x8 x9 x10 x11 x12 : Vec F S512x512 .bf16)
    (x13 x14 x15 x16 : Vec F S1x512 .f32) :
    k11_pay1 (k11_pay6 x3) (k11_pay7 x4) (k11_pay13 (k11_pay11 x0 x1 x2 x5 x6 x13))
      (k11_pay15 (k11_pay3 x0) (k11_pay8 x1 x2) x11 x12 x16) (k11_pay17 (k11_pay3 x0) (k11_pay9 x1) x7 x8 x14)
      (k11_pay18 (k11_pay3 x0) (k11_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S8x512 .f32) (x5 x6 x7 x8 x9 x10 x11 x12 : Vec Ideal S512x512 .bf16)
    (x13 x14 x15 x16 : Vec Ideal S1x512 .f32)
    (X HL HR CL CR : S8x512.Idx → EReal) (w5 w6 w7 w8 w9 w10 w11 w12 : S512x512.Idx → EReal)
    (b13 b14 b15 b16 : S1x512.Idx → EReal) (p : Fin 8) (r : Fin 8) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k11_pay2 (k11_pay6 x3) (k11_pay7 x4) (k11_pay13 (k11_pay11 x0 x1 x2 x5 x6 x13)) (k11_pay14 (k11_pay12 x0 x1 x2 x9 x10) x15)
      (k11_pay15 (k11_pay3 x0) (k11_pay8 x1 x2) x11 x12 x16) (k11_pay17 (k11_pay3 x0) (k11_pay9 x1) x7 x8 x14)
      (k11_pay18 (k11_pay3 x0) (k11_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S8x512 .f32) (x5 x6 x7 x8 x9 x10 x11 x12 : Vec Ideal S512x512 .bf16)
    (x13 x14 x15 x16 : Vec Ideal S1x512 .f32)
    (X HL HR CL CR : S8x512.Idx → EReal) (w5 w6 w7 w8 w9 w10 w11 w12 : S512x512.Idx → EReal)
    (b13 b14 b15 b16 : S1x512.Idx → EReal) (p : Fin 8) (r : Fin 8) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k11_pay1 (k11_pay6 x3) (k11_pay7 x4) (k11_pay13 (k11_pay11 x0 x1 x2 x5 x6 x13))
      (k11_pay15 (k11_pay3 x0) (k11_pay8 x1 x2) x11 x12 x16) (k11_pay17 (k11_pay3 x0) (k11_pay9 x1) x7 x8 x14)
      (k11_pay18 (k11_pay3 x0) (k11_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S8x512.Idx → EReal :=
  Cert.Tree.levelH (n := 8) (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S8x512.Idx → EReal :=
  Cert.Tree.levelC (n := 8) (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg11.N) :
    (dat11 V c).flushed 17 t = ((cfg11.win 17).blk t).view.read (Elt Ideal) (GH V c) := by
  show (cfg11.win 17).cut (grid11.coords t) ((dat11 V c).after 17 t) = _
  rw [after11_17]
  unfold out11_17
  rw [View.canon_unit_zero Cert.LibBlocks.off2_zero]
  simp only [View.ld_unit_zero (S := S8x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 8) (q : Fin 512), j = ix2 p q := ⟨j 0, j 1, eq_ix2 j⟩
  have hp : p.val < 8 := p.isLt
  have ht : t.val < cfg11.N := t.isLt
  have hN : cfg11.N * 8 = 8 := points_rows
  have hr : t.val * 8 + p.val < 8 := by omega
  obtain ⟨e0, e1⟩ := idx17 t
  refine Eq.trans (b := GH V c (ix2 (⟨t.val * 8 + p.val, hr⟩ : Fin 8) q)) ?_ ?_
  · exact bodyH_at (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (iblk11 V c 11 t) (iblk11 V c 12 t) (iblk11 V c 13 t) (iblk11 V c 14 t) (iblk11 V c 15 t) (iblk11 V c 16 t)
      (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27)
      p ⟨t.val * 8 + p.val, hr⟩ q
      (fun k => read_x V c t (ix2 p k) (ix2 ⟨t.val * 8 + p.val, hr⟩ k) rfl rfl)
      (fun k => read_hl V c t (ix2 p k) (ix2 ⟨t.val * 8 + p.val, hr⟩ k) rfl rfl)
      (fun k => read_hr V c t (ix2 p k) (ix2 ⟨t.val * 8 + p.val, hr⟩ k) rfl rfl)
      (read_cl V c t (ix2 p q) (ix2 ⟨t.val * 8 + p.val, hr⟩ q) rfl rfl)
      (read_cr V c t (ix2 p q) (ix2 ⟨t.val * 8 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg11.win 17).blk t).view.emb (ix2 p q))
    refine congrArg (GH V c) (funext fun a => Fin.ext ?_)
    match a with
    | ⟨0, _⟩ => show t.val * 8 + p.val = win11_17.index t (0 : Fin 2) * 8 + 1 * p.val; omega
    | ⟨1, _⟩ => show q.val = win11_17.index t (1 : Fin 2) * 512 + 1 * q.val; omega

/-- An entry of the h array is in point t's block iff each coordinate is in the block's range on its axis. -/
theorem mem_blkH (t : Fin cfg11.N) (i : S8x512.Idx) :
    i ∈ ((cfg11.win 17).blk t).view.set ↔ ∀ a : Fin 2, win11_17.index t a * S8x512.size a ≤ (i a).val
      ∧ (i a).val < win11_17.index t a * S8x512.size a + S8x512.size a := by
  show i ∈ ((View.whole main_v229_0).slice (win11_17.rect t)).set ↔ _
  rw [View.set_slice_whole, Rect.mem_set_unit]
  exact Iff.rfl

/-- The blocks tile the h array: row r is in the block of point r / 8. -/
theorem coverH (i : S8x512.Idx) :
    ∃ t : Fin cfg11.N, (cfg11.win 17).flush t = true ∧ i ∈ ((cfg11.win 17).blk t).view.set := by
  have hi0 : (i 0).val < 8 := (i 0).isLt
  have hi1 : (i 1).val < 512 := (i 1).isLt
  have hN : cfg11.N * 8 = 8 := points_rows
  obtain ⟨hq, hlo, hhi⟩ := Cert.LibBlocks.row_in_block (nb := cfg11.N) (bs := 8) (r := (i 0).val) (by omega) (by omega)
  obtain ⟨e0, e1⟩ := idx17 (⟨(i 0).val / 8, hq⟩ : Fin cfg11.N)
  refine ⟨⟨(i 0).val / 8, hq⟩, flush11_17 _, ?_⟩
  rw [mem_blkH]
  intro a
  match a with
  | ⟨0, _⟩ =>
    show win11_17.index ⟨(i 0).val / 8, hq⟩ (0 : Fin 2) * 8 ≤ (i 0).val
      ∧ (i 0).val < win11_17.index ⟨(i 0).val / 8, hq⟩ (0 : Fin 2) * 8 + 8
    rw [e0]
    exact ⟨hlo, hhi⟩
  | ⟨1, _⟩ =>
    show win11_17.index ⟨(i 0).val / 8, hq⟩ (1 : Fin 2) * 512 ≤ (i 1).val
      ∧ (i 1).val < win11_17.index ⟨(i 0).val / 8, hq⟩ (1 : Fin 2) * 512 + 512
    omega

/-- What point t writes back to the c array is block t of the level's c. -/
theorem flushedC (c : Dev nD) (t : Fin cfg11.N) :
    (dat11 V c).flushed 18 t = ((cfg11.win 18).blk t).view.read (Elt Ideal) (GC V c) := by
  show (cfg11.win 18).cut (grid11.coords t) ((dat11 V c).after 18 t) = _
  rw [after11_18]
  unfold out11_18
  rw [View.canon_unit_zero Cert.LibBlocks.off2_zero]
  simp only [View.ld_unit_zero (S := S8x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 8) (q : Fin 512), j = ix2 p q := ⟨j 0, j 1, eq_ix2 j⟩
  have hp : p.val < 8 := p.isLt
  have ht : t.val < cfg11.N := t.isLt
  have hN : cfg11.N * 8 = 8 := points_rows
  have hr : t.val * 8 + p.val < 8 := by omega
  obtain ⟨e0, e1⟩ := idx18 t
  refine Eq.trans (b := GC V c (ix2 (⟨t.val * 8 + p.val, hr⟩ : Fin 8) q)) ?_ ?_
  · exact bodyC_at (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (iblk11 V c 11 t) (iblk11 V c 12 t) (iblk11 V c 13 t) (iblk11 V c 14 t) (iblk11 V c 15 t) (iblk11 V c 16 t)
      (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27)
      p ⟨t.val * 8 + p.val, hr⟩ q
      (fun k => read_x V c t (ix2 p k) (ix2 ⟨t.val * 8 + p.val, hr⟩ k) rfl rfl)
      (fun k => read_hl V c t (ix2 p k) (ix2 ⟨t.val * 8 + p.val, hr⟩ k) rfl rfl)
      (fun k => read_hr V c t (ix2 p k) (ix2 ⟨t.val * 8 + p.val, hr⟩ k) rfl rfl)
      (read_cl V c t (ix2 p q) (ix2 ⟨t.val * 8 + p.val, hr⟩ q) rfl rfl)
      (read_cr V c t (ix2 p q) (ix2 ⟨t.val * 8 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg11.win 18).blk t).view.emb (ix2 p q))
    refine congrArg (GC V c) (funext fun a => Fin.ext ?_)
    match a with
    | ⟨0, _⟩ => show t.val * 8 + p.val = win11_18.index t (0 : Fin 2) * 8 + 1 * p.val; omega
    | ⟨1, _⟩ => show q.val = win11_18.index t (1 : Fin 2) * 512 + 1 * q.val; omega

/-- An entry of the c array is in point t's block iff each coordinate is in the block's range on its axis. -/
theorem mem_blkC (t : Fin cfg11.N) (i : S8x512.Idx) :
    i ∈ ((cfg11.win 18).blk t).view.set ↔ ∀ a : Fin 2, win11_18.index t a * S8x512.size a ≤ (i a).val
      ∧ (i a).val < win11_18.index t a * S8x512.size a + S8x512.size a := by
  show i ∈ ((View.whole main_v229_1).slice (win11_18.rect t)).set ↔ _
  rw [View.set_slice_whole, Rect.mem_set_unit]
  exact Iff.rfl

/-- The blocks tile the c array: row r is in the block of point r / 8. -/
theorem coverC (i : S8x512.Idx) :
    ∃ t : Fin cfg11.N, (cfg11.win 18).flush t = true ∧ i ∈ ((cfg11.win 18).blk t).view.set := by
  have hi0 : (i 0).val < 8 := (i 0).isLt
  have hi1 : (i 1).val < 512 := (i 1).isLt
  have hN : cfg11.N * 8 = 8 := points_rows
  obtain ⟨hq, hlo, hhi⟩ := Cert.LibBlocks.row_in_block (nb := cfg11.N) (bs := 8) (r := (i 0).val) (by omega) (by omega)
  obtain ⟨e0, e1⟩ := idx18 (⟨(i 0).val / 8, hq⟩ : Fin cfg11.N)
  refine ⟨⟨(i 0).val / 8, hq⟩, flush11_18 _, ?_⟩
  rw [mem_blkC]
  intro a
  match a with
  | ⟨0, _⟩ =>
    show win11_18.index ⟨(i 0).val / 8, hq⟩ (0 : Fin 2) * 8 ≤ (i 0).val
      ∧ (i 0).val < win11_18.index ⟨(i 0).val / 8, hq⟩ (0 : Fin 2) * 8 + 8
    rw [e0]
    exact ⟨hlo, hhi⟩
  | ⟨1, _⟩ =>
    show win11_18.index ⟨(i 0).val / 8, hq⟩ (1 : Fin 2) * 512 ≤ (i 1).val
      ∧ (i 1).val < win11_18.index ⟨(i 0).val / 8, hq⟩ (1 : Fin 2) * 512 + 512
    omega

/-- After the region the h array holds the level's h of the seventeen arrays as the region finds them. -/
theorem arrH (c : Dev nD) :
    (dat11 (F := Ideal) V c).arrAt 17 cfg11.N
      = Cert.Tree.levelH (n := 8) (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27) :=
  (dat11 V c).arrAt_eq_of_cover 17 (GH V c) (fun t _ => flushedH V c t) coverH

/-- After the region the c array holds the level's c of the seventeen arrays as the region finds them. -/
theorem arrC (c : Dev nD) :
    (dat11 (F := Ideal) V c).arrAt 18 cfg11.N
      = Cert.Tree.levelC (n := 8) (V c main_v216) (V c main_v222) (V c main_v224) (V c main_v226) (V c main_v228) (V c main_v2) (V c main_v5) (V c main_v8) (V c main_v11) (V c main_v14) (V c main_v17) (V c main_v20) (V c main_v23) (V c main_v24) (V c main_v25) (V c main_v26) (V c main_v27) :=
  (dat11 V c).arrAt_eq_of_cover 18 (GC V c) (fun t _ => flushedC V c t) coverC

end Arrays

end Cert.KernelIdeal.Reg11

end
-- ==== Proof.RStep11.lean ====
/-
  The reference's level of 8 nodes (heap rows 7 … 14), read off its run's named buffers: the h and c heap
  arrays after the level are the arrays before it with the level's rows replaced by the level function of the x rows
  and of the children's rows (the even and odd rows of heap rows 15 … 30 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx11 : Cert.Tree.HostCtx 8 :=
  ⟨dot_S8x1024_S1024x512_S8x512_1_0_0_1_n_n, rfl, concatenates_S8x512_S8x512_S8x1024_d1,
    transposes_S512x1024_S1024x512_1_0, bcast_S512_S1x512_1, bcast_S1x512_S8x512_0_1, bcast_S_S8x512⟩

variable (V0 : Valuation τ sig (Elt Ideal))

/-- The level's x rows. -/
abbrev xl11 : Vec Ideal S8x512 .f32 :=
  extractStridedSlice S8x512 ![7, 0] (V0 (Proc.devRef .tc main_arg0)) slices_S32767x512_S8x512_7_0

/-- The left (even) and right (odd) children's rows of a heap array. -/
abbrev childL11 (A : Vec Ideal S32767x512 .f32) : Vec Ideal S8x512 .f32 :=
  shapeCast _ (extractStridedSlice S8x1x512 ![0, 0, 0] (shapeCast _ (extractStridedSlice S16x512 ![15, 0] A slices_S32767x512_S16x512_15_0) shapeCasts_S16x512_S8x2x512) slices_S8x2x512_S8x1x512_0_0_0) shapeCasts_S8x1x512_S8x512

abbrev childR11 (A : Vec Ideal S32767x512 .f32) : Vec Ideal S8x512 .f32 :=
  shapeCast _ (extractStridedSlice S8x1x512 ![0, 1, 0] (shapeCast _ (extractStridedSlice S16x512 ![15, 0] A slices_S32767x512_S16x512_15_0) shapeCasts_S16x512_S8x2x512) slices_S8x2x512_S8x1x512_0_1_0) shapeCasts_S8x1x512_S8x512

theorem stepC11 : res_main_v897 V0
    = Host.scatter scatter_S32767x512_S1_S8x512_01_n_0_0 (fun _ b => b) (res_main_v819 V0) (broadcastInDim S1 ![] bcast_S_S1 (constantI S_ 32 7#32))
        (Cert.Tree.hostLevelC ctx11 (xl11 V0) (childL11 (res_main_v817 V0)) (childR11 (res_main_v817 V0)) (childL11 (res_main_v819 V0)) (childR11 (res_main_v819 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v897 res_main_v891 res_main_v830 res_main_v826 res_main_v828 res_main_v822 res_main_v824 res_main_v820
  rfl

theorem stepH11 : res_main_v895 V0
    = Host.scatter scatter_S32767x512_S1_S8x512_01_n_0_0 (fun _ b => b) (res_main_v817 V0) (broadcastInDim S1 ![] bcast_S_S1 (constantI S_ 32 7#32))
        (Cert.Tree.hostLevelH ctx11 (xl11 V0) (childL11 (res_main_v817 V0)) (childR11 (res_main_v817 V0)) (childL11 (res_main_v819 V0)) (childR11 (res_main_v819 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v895 res_main_v891 res_main_v830 res_main_v826 res_main_v828 res_main_v822 res_main_v824 res_main_v820
  rfl

end Cert.ReferenceIdeal.Chain

end
-- ==== Proof.Bridge11.lean ====
/-
  The level of 8 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep11
import proofs.«110311_j37117107372689_1_alg».proof.Proof.KReg11
import proofs.«110311_j37117107372689_1_alg».proof.Proof.RStep11
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 8 nodes, they agree after it. -/
theorem level11 (hA : Agree m V0 c)
    (hH : Cert.KernelIdeal.Gen.W23 m ρ c (Proc.devRef .tc Cert.KernelIdeal.main_v213) = Cert.ReferenceIdeal.Value.res_main_v817 V0)
    (hC : Cert.KernelIdeal.Gen.W23 m ρ c (Proc.devRef .tc Cert.KernelIdeal.main_v215) = Cert.ReferenceIdeal.Value.res_main_v819 V0) :
    Cert.KernelIdeal.Gen.W25 m ρ c (Proc.devRef .tc Cert.KernelIdeal.main_v231) = Cert.ReferenceIdeal.Value.res_main_v895 V0
      ∧ Cert.KernelIdeal.Gen.W25 m ρ c (Proc.devRef .tc Cert.KernelIdeal.main_v233) = Cert.ReferenceIdeal.Value.res_main_v897 V0 := by
  constructor
  · rw [Cert.KernelIdeal.Chain.stepH11 m ρ c (Cert.KernelIdeal.Reg11.arrH (Cert.KernelIdeal.Gen.V23 m ρ) c),
      Cert.ReferenceIdeal.Chain.stepH11 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC11 m ρ c (Cert.KernelIdeal.Reg11.arrC (Cert.KernelIdeal.Gen.V23 m ρ) c),
      Cert.ReferenceIdeal.Chain.stepC11 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep12.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 12: what its scatters leave in the two heap arrays

The host stretch before the region cuts the level's 4 rows of node features out of the argument and, out of each
heap array (hidden states, cell states), the 8 rows of the level below, which it pairs up: row p's left child is
the pair's first member and its right child the second. The region computes the level's hidden and cell rows from
these five arrays and the twelve weight and bias buffers; the host stretch after it scatters the two results into the
heap arrays at row 3. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat12_h : StableHlo.after hostOps13 W (Proc.devRef .tc main_v249)
    = Host.scatter scatter_S32767x512_S1_S4x512_01_n_0_0 (fun _ b => b) (W (Proc.devRef .tc main_v231))
        (broadcastInDim S1 ![] bcast_S_S1 (constantI S_ 32 3#32)) (W (Proc.devRef .tc main_v247_0)) := by
  after_results
  rfl

/-- And the new cell heap: the old one with the region's second output scattered in. -/
theorem scat12_c : StableHlo.after hostOps13 W (Proc.devRef .tc main_v251)
    = Host.scatter scatter_S32767x512_S1_S4x512_01_n_0_0 (fun _ b => b) (W (Proc.devRef .tc main_v233))
        (broadcastInDim S1 ![] bcast_S_S1 (constantI S_ 32 3#32)) (W (Proc.devRef .tc main_v247_1)) := by
  after_results
  rfl

/-- The stretch before the region: the level's rows of node features. -/
theorem cut12_x : StableHlo.after hostOps12 W (Proc.devRef .tc main_v234)
    = extractStridedSlice S4x512 ![3, 0] (W (Proc.devRef .tc main_arg0)) slices_S32767x512_S4x512_3_0 := by
  after_results

/-- The left children's hidden rows, out of the hidden heap as this stretch itself leaves it. -/
theorem cut12_hl : StableHlo.after hostOps12 W (Proc.devRef .tc main_v240)
    = shapeCast _ (extractStridedSlice S4x1x512 ![0, 0, 0] (shapeCast _ (extractStridedSlice S8x512 ![7, 0] (StableHlo.after hostOps12 W (Proc.devRef .tc main_v231)) slices_S32767x512_S8x512_7_0) shapeCasts_S8x512_S4x2x512) slices_S4x2x512_S4x1x512_0_0_0) shapeCasts_S4x1x512_S4x512 := by
  after_results_simp
  rfl

/-- The right children's hidden rows. -/
theorem cut12_hr : StableHlo.after hostOps12 W (Proc.devRef .tc main_v242)
    = shapeCast _ (extractStridedSlice S4x1x512 ![0, 1, 0] (shapeCast _ (extractStridedSlice S8x512 ![7, 0] (StableHlo.after hostOps12 W (Proc.devRef .tc main_v231)) slices_S32767x512_S8x512_7_0) shapeCasts_S8x512_S4x2x512) slices_S4x2x512_S4x1x512_0_1_0) shapeCasts_S4x1x512_S4x512 := by
  after_results_simp
  rfl

/-- The left children's cell rows, out of the cell heap. -/
theorem cut12_cl : StableHlo.after hostOps12 W (Proc.devRef .tc main_v244)
    = shapeCast _ (extractStridedSlice S4x1x512 ![0, 0, 0] (shapeCast _ (extractStridedSlice S8x512 ![7, 0] (StableHlo.after hostOps12 W (Proc.devRef .tc main_v233)) slices_S32767x512_S8x512_7_0) shapeCasts_S8x512_S4x2x512) slices_S4x2x512_S4x1x512_0_0_0) shapeCasts_S4x1x512_S4x512 := by
  after_results_simp
  rfl

/-- The right children's cell rows. -/
theorem cut12_cr : StableHlo.after hostOps12 W (Proc.devRef .tc main_v246)
    = shapeCast _ (extractStridedSlice S4x1x512 ![0, 1, 0] (shapeCast _ (extractStridedSlice S8x512 ![7, 0] (StableHlo.after hostOps12 W (Proc.devRef .tc main_v233)) slices_S32767x512_S8x512_7_0) shapeCasts_S8x512_S4x2x512) slices_S4x2x512_S4x1x512_0_1_0) shapeCasts_S4x1x512_S4x512 := by
  after_results_simp
  rfl

end Host

/-! ## The region's five level arrays at its entry, in the run -/

theorem in12_x (c : Dev nD) : Gen.W25 m ρ c (Proc.devRef .tc main_v234)
    = extractStridedSlice S4x512 ![3, 0] (m ((c : Thread nD τ).loc main_arg0)) slices_S32767x512_S4x512_3_0 :=
  (cut12_x (Gen.W24 m ρ c)).trans (by rw [arg0_12 m ρ c])

theorem in12_hl (c : Dev nD) : Gen.W25 m ρ c (Proc.devRef .tc main_v240)
    = shapeCast _ (extractStridedSlice S4x1x512 ![0, 0, 0] (shapeCast _ (extractStridedSlice S8x512 ![7, 0] (Gen.W25 m ρ c (Proc.devRef .tc main_v231)) slices_S32767x512_S8x512_7_0) shapeCasts_S8x512_S4x2x512) slices_S4x2x512_S4x1x512_0_0_0) shapeCasts_S4x1x512_S4x512 :=
  cut12_hl (Gen.W24 m ρ c)

theorem in12_hr (c : Dev nD) : Gen.W25 m ρ c (Proc.devRef .tc main_v242)
    = shapeCast _ (extractStridedSlice S4x1x512 ![0, 1, 0] (shapeCast _ (extractStridedSlice S8x512 ![7, 0] (Gen.W25 m ρ c (Proc.devRef .tc main_v231)) slices_S32767x512_S8x512_7_0) shapeCasts_S8x512_S4x2x512) slices_S4x2x512_S4x1x512_0_1_0) shapeCasts_S4x1x512_S4x512 :=
  cut12_hr (Gen.W24 m ρ c)

theorem in12_cl (c : Dev nD) : Gen.W25 m ρ c (Proc.devRef .tc main_v244)
    = shapeCast _ (extractStridedSlice S4x1x512 ![0, 0, 0] (shapeCast _ (extractStridedSlice S8x512 ![7, 0] (Gen.W25 m ρ c (Proc.devRef .tc main_v233)) slices_S32767x512_S8x512_7_0) shapeCasts_S8x512_S4x2x512) slices_S4x2x512_S4x1x512_0_0_0) shapeCasts_S4x1x512_S4x512 :=
  cut12_cl (Gen.W24 m ρ c)

theorem in12_cr (c : Dev nD) : Gen.W25 m ρ c (Proc.devRef .tc main_v246)
    = shapeCast _ (extractStridedSlice S4x1x512 ![0, 1, 0] (shapeCast _ (extractStridedSlice S8x512 ![7, 0] (Gen.W25 m ρ c (Proc.devRef .tc main_v233)) slices_S32767x512_S8x512_7_0) shapeCasts_S8x512_S4x2x512) slices_S4x2x512_S4x1x512_0_1_0) shapeCasts_S4x1x512_S4x512 :=
  cut12_cr (Gen.W24 m ρ c)

/-! ## The region's two outputs at its exit are its proof data's arrays after the last grid point -/

theorem out12_h (c : Dev nD) : Gen.W26 m ρ c (Proc.devRef .tc main_v247_0) = (Gen.dat12 (Gen.V25 m ρ) c).arrAt 17 cfg12.N :=
  Gen.W26_arr m ρ c 17

theorem out12_c (c : Dev nD) : Gen.W26 m ρ c (Proc.devRef .tc main_v247_1) = (Gen.dat12 (Gen.V25 m ρ) c).arrAt 18 cfg12.N :=
  Gen.W26_arr m ρ c 18

/-! ## The level -/

/-- The hidden heap after the level, given that the region's first output is the level function of its entry arrays. -/
theorem stepH12 (c : Dev nD)
    (hH : (Gen.dat12 (F := Ideal) (Gen.V25 m ρ) c).arrAt 17 cfg12.N
      = Cert.Tree.levelH (n := 4) (Gen.V25 m ρ c main_v234) (Gen.V25 m ρ c main_v240) (Gen.V25 m ρ c main_v242)
          (Gen.V25 m ρ c main_v244) (Gen.V25 m ρ c main_v246)
          (Gen.V25 m ρ c main_v2) (Gen.V25 m ρ c main_v5) (Gen.V25 m ρ c main_v8) (Gen.V25 m ρ c main_v11)
          (Gen.V25 m ρ c main_v14) (Gen.V25 m ρ c main_v17) (Gen.V25 m ρ c main_v20) (Gen.V25 m ρ c main_v23)
          (Gen.V25 m ρ c main_v24) (Gen.V25 m ρ c main_v25) (Gen.V25 m ρ c main_v26) (Gen.V25 m ρ c main_v27)) :
    Gen.W27 m ρ c (Proc.devRef .tc main_v249)
      = Host.scatter scatter_S32767x512_S1_S4x512_01_n_0_0 (fun _ b => b) (Gen.W25 m ρ c (Proc.devRef .tc main_v231))
          (broadcastInDim S1 ![] bcast_S_S1 (constantI S_ 32 3#32))
          (Cert.Tree.levelH (n := 4)
            (extractStridedSlice S4x512 ![3, 0] (m ((c : Thread nD τ).loc main_arg0)) slices_S32767x512_S4x512_3_0)
            (shapeCast _ (extractStridedSlice S4x1x512 ![0, 0, 0] (shapeCast _ (extractStridedSlice S8x512 ![7, 0] (Gen.W25 m ρ c (Proc.devRef .tc main_v231)) slices_S32767x512_S8x512_7_0) shapeCasts_S8x512_S4x2x512) slices_S4x2x512_S4x1x512_0_0_0) shapeCasts_S4x1x512_S4x512)
            (shapeCast _ (extractStridedSlice S4x1x512 ![0, 1, 0] (shapeCast _ (extractStridedSlice S8x512 ![7, 0] (Gen.W25 m ρ c (Proc.devRef .tc main_v231)) slices_S32767x512_S8x512_7_0) shapeCasts_S8x512_S4x2x512) slices_S4x2x512_S4x1x512_0_1_0) shapeCasts_S4x1x512_S4x512)
            (shapeCast _ (extractStridedSlice S4x1x512 ![0, 0, 0] (shapeCast _ (extractStridedSlice S8x512 ![7, 0] (Gen.W25 m ρ c (Proc.devRef .tc main_v233)) slices_S32767x512_S8x512_7_0) shapeCasts_S8x512_S4x2x512) slices_S4x2x512_S4x1x512_0_0_0) shapeCasts_S4x1x512_S4x512)
            (shapeCast _ (extractStridedSlice S4x1x512 ![0, 1, 0] (shapeCast _ (extractStridedSlice S8x512 ![7, 0] (Gen.W25 m ρ c (Proc.devRef .tc main_v233)) slices_S32767x512_S8x512_7_0) shapeCasts_S8x512_S4x2x512) slices_S4x2x512_S4x1x512_0_1_0) shapeCasts_S4x1x512_S4x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat12 (F := Ideal) (Gen.V25 m ρ) c).arrAt 17 cfg12.N
      = Cert.Tree.levelH (n := 4) (Gen.W25 m ρ c (Proc.devRef .tc main_v234)) (Gen.W25 m ρ c (Proc.devRef .tc main_v240))
          (Gen.W25 m ρ c (Proc.devRef .tc main_v242)) (Gen.W25 m ρ c (Proc.devRef .tc main_v244))
          (Gen.W25 m ρ c (Proc.devRef .tc main_v246))
          (Gen.W25 m ρ c (Proc.devRef .tc main_v2)) (Gen.W25 m ρ c (Proc.devRef .tc main_v5))
          (Gen.W25 m ρ c (Proc.devRef .tc main_v8)) (Gen.W25 m ρ c (Proc.devRef .tc main_v11))
          (Gen.W25 m ρ c (Proc.devRef .tc main_v14)) (Gen.W25 m ρ c (Proc.devRef .tc main_v17))
          (Gen.W25 m ρ c (Proc.devRef .tc main_v20)) (Gen.W25 m ρ c (Proc.devRef .tc main_v23))
          (Gen.W25 m ρ c (Proc.devRef .tc main_v24)) (Gen.W25 m ρ c (Proc.devRef .tc main_v25))
          (Gen.W25 m ρ c (Proc.devRef .tc main_v26)) (Gen.W25 m ρ c (Proc.devRef .tc main_v27)) := hH
  rw [in12_x m ρ c, in12_hl m ρ c, in12_hr m ρ c, in12_cl m ρ c, in12_cr m ρ c,
    keep12_main_v2 m ρ c, keep12_main_v5 m ρ c, keep12_main_v8 m ρ c, keep12_main_v11 m ρ c, keep12_main_v14 m ρ c,
    keep12_main_v17 m ρ c, keep12_main_v20 m ρ c, keep12_main_v23 m ρ c, keep12_main_v24 m ρ c, keep12_main_v25 m ρ c,
    keep12_main_v26 m ρ c, keep12_main_v27 m ρ c] at hH'
  refine (scat12_h (Gen.W26 m ρ c)).trans ?_
  rw [Gen.W26_of_ne m ρ c main_v231 (by decide), out12_h m ρ c, hH']

/-- The cell heap after the level, given that the region's second output is the level's cell function of its entry arrays. -/
theorem stepC12 (c : Dev nD)
    (hC : (Gen.dat12 (F := Ideal) (Gen.V25 m ρ) c).arrAt 18 cfg12.N
      = Cert.Tree.levelC (n := 4) (Gen.V25 m ρ c main_v234) (Gen.V25 m ρ c main_v240) (Gen.V25 m ρ c main_v242)
          (Gen.V25 m ρ c main_v244) (Gen.V25 m ρ c main_v246)
          (Gen.V25 m ρ c main_v2) (Gen.V25 m ρ c main_v5) (Gen.V25 m ρ c main_v8) (Gen.V25 m ρ c main_v11)
          (Gen.V25 m ρ c main_v14) (Gen.V25 m ρ c main_v17) (Gen.V25 m ρ c main_v20) (Gen.V25 m ρ c main_v23)
          (Gen.V25 m ρ c main_v24) (Gen.V25 m ρ c main_v25) (Gen.V25 m ρ c main_v26) (Gen.V25 m ρ c main_v27)) :
    Gen.W27 m ρ c (Proc.devRef .tc main_v251)
      = Host.scatter scatter_S32767x512_S1_S4x512_01_n_0_0 (fun _ b => b) (Gen.W25 m ρ c (Proc.devRef .tc main_v233))
          (broadcastInDim S1 ![] bcast_S_S1 (constantI S_ 32 3#32))
          (Cert.Tree.levelC (n := 4)
            (extractStridedSlice S4x512 ![3, 0] (m ((c : Thread nD τ).loc main_arg0)) slices_S32767x512_S4x512_3_0)
            (shapeCast _ (extractStridedSlice S4x1x512 ![0, 0, 0] (shapeCast _ (extractStridedSlice S8x512 ![7, 0] (Gen.W25 m ρ c (Proc.devRef .tc main_v231)) slices_S32767x512_S8x512_7_0) shapeCasts_S8x512_S4x2x512) slices_S4x2x512_S4x1x512_0_0_0) shapeCasts_S4x1x512_S4x512)
            (shapeCast _ (extractStridedSlice S4x1x512 ![0, 1, 0] (shapeCast _ (extractStridedSlice S8x512 ![7, 0] (Gen.W25 m ρ c (Proc.devRef .tc main_v231)) slices_S32767x512_S8x512_7_0) shapeCasts_S8x512_S4x2x512) slices_S4x2x512_S4x1x512_0_1_0) shapeCasts_S4x1x512_S4x512)
            (shapeCast _ (extractStridedSlice S4x1x512 ![0, 0, 0] (shapeCast _ (extractStridedSlice S8x512 ![7, 0] (Gen.W25 m ρ c (Proc.devRef .tc main_v233)) slices_S32767x512_S8x512_7_0) shapeCasts_S8x512_S4x2x512) slices_S4x2x512_S4x1x512_0_0_0) shapeCasts_S4x1x512_S4x512)
            (shapeCast _ (extractStridedSlice S4x1x512 ![0, 1, 0] (shapeCast _ (extractStridedSlice S8x512 ![7, 0] (Gen.W25 m ρ c (Proc.devRef .tc main_v233)) slices_S32767x512_S8x512_7_0) shapeCasts_S8x512_S4x2x512) slices_S4x2x512_S4x1x512_0_1_0) shapeCasts_S4x1x512_S4x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat12 (F := Ideal) (Gen.V25 m ρ) c).arrAt 18 cfg12.N
      = Cert.Tree.levelC (n := 4) (Gen.W25 m ρ c (Proc.devRef .tc main_v234)) (Gen.W25 m ρ c (Proc.devRef .tc main_v240))
          (Gen.W25 m ρ c (Proc.devRef .tc main_v242)) (Gen.W25 m ρ c (Proc.devRef .tc main_v244))
          (Gen.W25 m ρ c (Proc.devRef .tc main_v246))
          (Gen.W25 m ρ c (Proc.devRef .tc main_v2)) (Gen.W25 m ρ c (Proc.devRef .tc main_v5))
          (Gen.W25 m ρ c (Proc.devRef .tc main_v8)) (Gen.W25 m ρ c (Proc.devRef .tc main_v11))
          (Gen.W25 m ρ c (Proc.devRef .tc main_v14)) (Gen.W25 m ρ c (Proc.devRef .tc main_v17))
          (Gen.W25 m ρ c (Proc.devRef .tc main_v20)) (Gen.W25 m ρ c (Proc.devRef .tc main_v23))
          (Gen.W25 m ρ c (Proc.devRef .tc main_v24)) (Gen.W25 m ρ c (Proc.devRef .tc main_v25))
          (Gen.W25 m ρ c (Proc.devRef .tc main_v26)) (Gen.W25 m ρ c (Proc.devRef .tc main_v27)) := hC
  rw [in12_x m ρ c, in12_hl m ρ c, in12_hr m ρ c, in12_cl m ρ c, in12_cr m ρ c,
    keep12_main_v2 m ρ c, keep12_main_v5 m ρ c, keep12_main_v8 m ρ c, keep12_main_v11 m ρ c, keep12_main_v14 m ρ c,
    keep12_main_v17 m ρ c, keep12_main_v20 m ρ c, keep12_main_v23 m ρ c, keep12_main_v24 m ρ c, keep12_main_v25 m ρ c,
    keep12_main_v26 m ρ c, keep12_main_v27 m ρ c] at hC'
  refine (scat12_c (Gen.W26 m ρ c)).trans ?_
  rw [Gen.W26_of_ne m ρ c main_v233 (by decide), out12_c m ρ c, hC']

end Cert.KernelIdeal.Chain

end
-- ==== Proof.KReg12.lean ====
/-
  One level of the tree on the kernel's side: 4 internal nodes, worked in blocks of 4 node rows, one block per
  grid point. What the level's two output arrays hold after the region, whatever the arrays hold when it is entered.

  Grid point t reads block t (rows 4 t … 4 t + 3) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg12

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg12.N * 4 = 4 := by decide

/-! The printed index maps, decided over the grid: a row array's block at point t is block (t, 0); a weight half or a
    bias row is one block, (0, 0). -/

theorem idx0 : ∀ t : Fin cfg12.N, win12_0.index t (0 : Fin 2) = t.val ∧ win12_0.index t (1 : Fin 2) = 0 :=
  (by decide +kernel : ∀ t : Fin grid12.N, _)
theorem idx1 : ∀ t : Fin cfg12.N, win12_1.index t (0 : Fin 2) = t.val ∧ win12_1.index t (1 : Fin 2) = 0 :=
  (by decide +kernel : ∀ t : Fin grid12.N, _)
theorem idx2 : ∀ t : Fin cfg12.N, win12_2.index t (0 : Fin 2) = t.val ∧ win12_2.index t (1 : Fin 2) = 0 :=
  (by decide +kernel : ∀ t : Fin grid12.N, _)
theorem idx3 : ∀ t : Fin cfg12.N, win12_3.index t (0 : Fin 2) = t.val ∧ win12_3.index t (1 : Fin 2) = 0 :=
  (by decide +kernel : ∀ t : Fin grid12.N, _)
theorem idx4 : ∀ t : Fin cfg12.N, win12_4.index t (0 : Fin 2) = t.val ∧ win12_4.index t (1 : Fin 2) = 0 :=
  (by decide +kernel : ∀ t : Fin grid12.N, _)
theorem idx17 : ∀ t : Fin cfg12.N, win12_17.index t (0 : Fin 2) = t.val ∧ win12_17.index t (1 : Fin 2) = 0 :=
  (by decide +kernel : ∀ t : Fin grid12.N, _)
theorem idx18 : ∀ t : Fin cfg12.N, win12_18.index t (0 : Fin 2) = t.val ∧ win12_18.index t (1 : Fin 2) = 0 :=
  (by decide +kernel : ∀ t : Fin grid12.N, _)
theorem idx5 : ∀ t : Fin cfg12.N, win12_5.index t (0 : Fin 2) = 0 ∧ win12_5.index t (1 : Fin 2) = 0 :=
  (by decide +kernel : ∀ t : Fin grid12.N, _)
theorem idx6 : ∀ t : Fin cfg12.N, win12_6.index t (0 : Fin 2) = 0 ∧ win12_6.index t (1 : Fin 2) = 0 :=
  (by decide +kernel : ∀ t : Fin grid12.N, _)
theorem idx7 : ∀ t : Fin cfg12.N, win12_7.index t (0 : Fin 2) = 0 ∧ win12_7.index t (1 : Fin 2) = 0 :=
  (by decide +kernel : ∀ t : Fin grid12.N, _)
theorem idx8 : ∀ t : Fin cfg12.N, win12_8.index t (0 : Fin 2) = 0 ∧ win12_8.index t (1 : Fin 2) = 0 :=
  (by decide +kernel : ∀ t : Fin grid12.N, _)
theorem idx9 : ∀ t : Fin cfg12.N, win12_9.index t (0 : Fin 2) = 0 ∧ win12_9.index t (1 : Fin 2) = 0 :=
  (by decide +kernel : ∀ t : Fin grid12.N, _)
theorem idx10 : ∀ t : Fin cfg12.N, win12_10.index t (0 : Fin 2) = 0 ∧ win12_10.index t (1 : Fin 2) = 0 :=
  (by decide +kernel : ∀ t : Fin grid12.N, _)
theorem idx11 : ∀ t : Fin cfg12.N, win12_11.index t (0 : Fin 2) = 0 ∧ win12_11.index t (1 : Fin 2) = 0 :=
  (by decide +kernel : ∀ t : Fin grid12.N, _)
theorem idx12 : ∀ t : Fin cfg12.N, win12_12.index t (0 : Fin 2) = 0 ∧ win12_12.index t (1 : Fin 2) = 0 :=
  (by decide +kernel : ∀ t : Fin grid12.N, _)
theorem idx13 : ∀ t : Fin cfg12.N, win12_13.index t (0 : Fin 2) = 0 ∧ win12_13.index t (1 : Fin 2) = 0 :=
  (by decide +kernel : ∀ t : Fin grid12.N, _)
theorem idx14 : ∀ t : Fin cfg12.N, win12_14.index t (0 : Fin 2) = 0 ∧ win12_14.index t (1 : Fin 2) = 0 :=
  (by decide +kernel : ∀ t : Fin grid12.N, _)
theorem idx15 : ∀ t : Fin cfg12.N, win12_15.index t (0 : Fin 2) = 0 ∧ win12_15.index t (1 : Fin 2) = 0 :=
  (by decide +kernel : ∀ t : Fin grid12.N, _)
theorem idx16 : ∀ t : Fin cfg12.N, win12_16.index t (0 : Fin 2) = 0 ∧ win12_16.index t (1 : Fin 2) = 0 :=
  (by decide +kernel : ∀ t : Fin grid12.N, _)

/-! ## The blocks the body reads

A block's entry sits in its array, on each axis, at the block index times the block's extent plus the entry's own
coordinate. So entry (p, k) of block t of a row array is the array's entry (4 t + p, k), and the one block of a weight
half or of a bias row is the array itself. -/

section Reads

variable (V : (c : Dev nD) → (b : Ref sig .tc) → Buf (Elt Ideal) ((c : Thread nD τ).loc b))
variable (c : Dev nD) (t : Fin cfg12.N)

/-- Block t of x, at an entry. -/
theorem read_x (y : S4x512.Idx) (i : S4x512.Idx) (h0 : (i 0).val = t.val * 4 + (y 0).val) (h1 : (i 1).val = (y 1).val) :
    (iblk12 V c 0 t : Vec Ideal S4x512 .f32) y = (V c main_v234 : S4x512.Idx → EReal) i := by
  obtain ⟨e0, e1⟩ := idx0 t
  unfold iblk12
  rw [View.read_apply]
  show V c main_v234 _ = V c main_v234 _
  refine congrArg (V c main_v234) (funext fun a => Fin.ext ?_)
  match a with
  | ⟨0, _⟩ => show win12_0.index t (0 : Fin 2) * 4 + 1 * (y 0).val = (i 0).val; omega
  | ⟨1, _⟩ => show win12_0.index t (1 : Fin 2) * 512 + 1 * (y 1).val = (i 1).val; omega

/-- Block t of the left children's h, at an entry. -/
theorem read_hl (y : S4x512.Idx) (i : S4x512.Idx) (h0 : (i 0).val = t.val * 4 + (y 0).val) (h1 : (i 1).val = (y 1).val) :
    (iblk12 V c 1 t : Vec Ideal S4x512 .f32) y = (V c main_v240 : S4x512.Idx → EReal) i := by
  obtain ⟨e0, e1⟩ := idx1 t
  unfold iblk12
  rw [View.read_apply]
  show V c main_v240 _ = V c main_v240 _
  refine congrArg (V c main_v240) (funext fun a => Fin.ext ?_)
  match a with
  | ⟨0, _⟩ => show win12_1.index t (0 : Fin 2) * 4 + 1 * (y 0).val = (i 0).val; omega
  | ⟨1, _⟩ => show win12_1.index t (1 : Fin 2) * 512 + 1 * (y 1).val = (i 1).val; omega

/-- Block t of the right children's h, at an entry. -/
theorem read_hr (y : S4x512.Idx) (i : S4x512.Idx) (h0 : (i 0).val = t.val * 4 + (y 0).val) (h1 : (i 1).val = (y 1).val) :
    (iblk12 V c 2 t : Vec Ideal S4x512 .f32) y = (V c main_v242 : S4x512.Idx → EReal) i := by
  obtain ⟨e0, e1⟩ := idx2 t
  unfold iblk12
  rw [View.read_apply]
  show V c main_v242 _ = V c main_v242 _
  refine congrArg (V c main_v242) (funext fun a => Fin.ext ?_)
  match a with
  | ⟨0, _⟩ => show win12_2.index t (0 : Fin 2) * 4 + 1 * (y 0).val = (i 0).val; omega
  | ⟨1, _⟩ => show win12_2.index t (1 : Fin 2) * 512 + 1 * (y 1).val = (i 1).val; omega

/-- Block t of the left children's c, at an entry. -/
theorem read_cl (y : S4x512.Idx) (i : S4x512.Idx) (h0 : (i 0).val = t.val * 4 + (y 0).val) (h1 : (i 1).val = (y 1).val) :
    (iblk12 V c 3 t : Vec Ideal S4x512 .f32) y = (V c main_v244 : S4x512.Idx → EReal) i := by
  obtain ⟨e0, e1⟩ := idx3 t
  unfold iblk12
  rw [View.read_apply]
  show V c main_v244 _ = V c main_v244 _
  refine congrArg (V c main_v244) (funext fun a => Fin.ext ?_)
  match a with
  | ⟨0, _⟩ => show win12_3.index t (0 : Fin 2) * 4 + 1 * (y 0).val = (i 0).val; omega
  | ⟨1, _⟩ => show win12_3.index t (1 : Fin 2) * 512 + 1 * (y 1).val = (i 1).val; omega

/-- Block t of the right children's c, at an entry. -/
theorem read_cr (y : S4x512.Idx) (i : S4x512.Idx) (h0 : (i 0).val = t.val * 4 + (y 0).val) (h1 : (i 1).val = (y 1).val) :
    (iblk12 V c 4 t : Vec Ideal S4x512 .f32) y = (V c main_v246 : S4x512.Idx → EReal) i := by
  obtain ⟨e0, e1⟩ := idx4 t
  unfold iblk12
  rw [View.read_apply]
  show V c main_v246 _ = V c main_v246 _
  refine congrArg (V c main_v246) (funext fun a => Fin.ext ?_)
  match a with
  | ⟨0, _⟩ => show win12_4.index t (0 : Fin 2) * 4 + 1 * (y 0).val = (i 0).val; omega
  | ⟨1, _⟩ => show win12_4.index t (1 : Fin 2) * 512 + 1 * (y 1).val = (i 1).val; omega

/-- The one block of the input gate's weights over x is the array. -/
theorem read_wix : (iblk12 V c 5 t : Vec Ideal S512x512 .bf16) = (V c main_v2 : S512x512.Idx → EReal) := by
  obtain ⟨e0, e1⟩ := idx5 t
  funext y
  unfold iblk12
  rw [View.read_apply]
  show V c main_v2 _ = V c main_v2 y
  refine congrArg (V c main_v2) (funext fun a => Fin.ext ?_)
  match a with
  | ⟨0, _⟩ => show win12_5.index t (0 : Fin 2) * 512 + 1 * (y 0).val = (y 0).val; omega
  | ⟨1, _⟩ => show win12_5.index t (1 : Fin 2) * 512 + 1 * (y 1).val = (y 1).val; omega

/-- The one block of the input gate's weights over h is the array. -/
theorem read_wih : (iblk12 V c 6 t : Vec Ideal S512x512 .bf16) = (V c main_v5 : S512x512.Idx → EReal) := by
  obtain ⟨e0, e1⟩ := idx6 t
  funext y
  unfold iblk12
  rw [View.read_apply]
  show V c main_v5 _ = V c main_v5 y
  refine congrArg (V c main_v5) (funext fun a => Fin.ext ?_)
  match a with
  | ⟨0, _⟩ => show win12_6.index t (0 : Fin 2) * 512 + 1 * (y 0).val = (y 0).val; omega
  | ⟨1, _⟩ => show win12_6.index t (1 : Fin 2) * 512 + 1 * (y 1).val = (y 1).val; omega

/-- The one block of the forget gates' weights over x is the array. -/
theorem read_wfx : (iblk12 V c 7 t : Vec Ideal S512x512 .bf16) = (V c main_v8 : S512x512.Idx → EReal) := by
  obtain ⟨e0, e1⟩ := idx7 t
  funext y
  unfold iblk12
  rw [View.read_apply]
  show V c main_v8 _ = V c main_v8 y
  refine congrArg (V c main_v8) (funext fun a => Fin.ext ?_)
  match a with
  | ⟨0, _⟩ => show win12_7.index t (0 : Fin 2) * 512 + 1 * (y 0).val = (y 0).val; omega
  | ⟨1, _⟩ => show win12_7.index t (1 : Fin 2) * 512 + 1 * (y 1).val = (y 1).val; omega

/-- The one block of the forget gates' weights over h is the array. -/
theorem read_wfh : (iblk12 V c 8 t : Vec Ideal S512x512 .bf16) = (V c main_v11 : S512x512.Idx → EReal) := by
  obtain ⟨e0, e1⟩ := idx8 t
  funext y
  unfold iblk12
  rw [View.read_apply]
  show V c main_v11 _ = V c main_v11 y
  refine congrArg (V c main_v11) (funext fun a => Fin.ext ?_)
  match a with
  | ⟨0, _⟩ => show win12_8.index t (0 : Fin 2) * 512 + 1 * (y 0).val = (y 0).val; omega
  | ⟨1, _⟩ => show win12_8.index t (1 : Fin 2) * 512 + 1 * (y 1).val = (y 1).val; omega

/-- The one block of the output gate's weights over x is the array. -/
theorem read_wox : (iblk12 V c 9 t : Vec Ideal S512x512 .bf16) = (V c main_v14 : S512x512.Idx → EReal) := by
  obtain ⟨e0, e1⟩ := idx9 t
  funext y
  unfold iblk12
  rw [View.read_apply]
  show V c main_v14 _ = V c main_v14 y
  refine congrArg (V c main_v14) (funext fun a => Fin.ext ?_)
  match a with
  | ⟨0, _⟩ => show win12_9.index t (0 : Fin 2) * 512 + 1 * (y 0).val = (y 0).val; omega
  | ⟨1, _⟩ => show win12_9.index t (1 : Fin 2) * 512 + 1 * (y 1).val = (y 1).val; omega

/-- The one block of the output gate's weights over h is the array. -/
theorem read_woh : (iblk12 V c 10 t : Vec Ideal S512x512 .bf16) = (V c main_v17 : S512x512.Idx → EReal) := by
  obtain ⟨e0, e1⟩ := idx10 t
  funext y
  unfold iblk12
  rw [View.read_apply]
  show V c main_v17 _ = V c main_v17 y
  refine congrArg (V c main_v17) (funext fun a => Fin.ext ?_)
  match a with
  | ⟨0, _⟩ => show win12_10.index t (0 : Fin 2) * 512 + 1 * (y 0).val = (y 0).val; omega
  | ⟨1, _⟩ => show win12_10.index t (1 : Fin 2) * 512 + 1 * (y 1).val = (y 1).val; omega

/-- The one block of the update gate's weights over x is the array. -/
theorem read_wux : (iblk12 V c 11 t : Vec Ideal S512x512 .bf16) = (V c main_v20 : S512x512.Idx → EReal) := by
  obtain ⟨e0, e1⟩ := idx11 t
  funext y
  unfold iblk12
  rw [View.read_apply]
  show V c main_v20 _ = V c main_v20 y
  refine congrArg (V c main_v20) (funext fun a => Fin.ext ?_)
  match a with
  | ⟨0, _⟩ => show win12_11.index t (0 : Fin 2) * 512 + 1 * (y 0).val = (y 0).val; omega
  | ⟨1, _⟩ => show win12_11.index t (1 : Fin 2) * 512 + 1 * (y 1).val = (y 1).val; omega

/-- The one block of the update gate's weights over h is the array. -/
theorem read_wuh : (iblk12 V c 12 t : Vec Ideal S512x512 .bf16) = (V c main_v23 : S512x512.Idx → EReal) := by
  obtain ⟨e0, e1⟩ := idx12 t
  funext y
  unfold iblk12
  rw [View.read_apply]
  show V c main_v23 _ = V c main_v23 y
  refine congrArg (V c main_v23) (funext fun a => Fin.ext ?_)
  match a with
  | ⟨0, _⟩ => show win12_12.index t (0 : Fin 2) * 512 + 1 * (y 0).val = (y 0).val; omega
  | ⟨1, _⟩ => show win12_12.index t (1 : Fin 2) * 512 + 1 * (y 1).val = (y 1).val; omega

/-- The one block of the input gate's bias row is the array. -/
theorem read_bi : (iblk12 V c 13 t : Vec Ideal S1x512 .f32) = (V c main_v24 : S1x512.Idx → EReal) := by
  obtain ⟨e0, e1⟩ := idx13 t
  funext y
  unfold iblk12
  rw [View.read_apply]
  show V c main_v24 _ = V c main_v24 y
  refine congrArg (V c main_v24) (funext fun a => Fin.ext ?_)
  match a with
  | ⟨0, _⟩ => show win12_13.index t (0 : Fin 2) * 1 + 1 * (y 0).val = (y 0).val; omega
  | ⟨1, _⟩ => show win12_13.index t (1 : Fin 2) * 512 + 1 * (y 1).val = (y 1).val; omega

/-- The one block of the forget gates' bias row is the array. -/
theorem read_bf : (iblk12 V c 14 t : Vec Ideal S1x512 .f32) = (V c main_v25 : S1x512.Idx → EReal) := by
  obtain ⟨e0, e1⟩ := idx14 t
  funext y
  unfold iblk12
  rw [View.read_apply]
  show V c main_v25 _ = V c main_v25 y
  refine congrArg (V c main_v25) (funext fun a => Fin.ext ?_)
  match a with
  | ⟨0, _⟩ => show win12_14.index t (0 : Fin 2) * 1 + 1 * (y 0).val = (y 0).val; omega
  | ⟨1, _⟩ => show win12_14.index t (1 : Fin 2) * 512 + 1 * (y 1).val = (y 1).val; omega

/-- The one block of the output gate's bias row is the array. -/
theorem read_bo : (iblk12 V c 15 t : Vec Ideal S1x512 .f32) = (V c main_v26 : S1x512.Idx → EReal) := by
  obtain ⟨e0, e1⟩ := idx15 t
  funext y
  unfold iblk12
  rw [View.read_apply]
  show V c main_v26 _ = V c main_v26 y
  refine congrArg (V c main_v26) (funext fun a => Fin.ext ?_)
  match a with
  | ⟨0, _⟩ => show win12_15.index t (0 : Fin 2) * 1 + 1 * (y 0).val = (y 0).val; omega
  | ⟨1, _⟩ => show win12_15.index t (1 : Fin 2) * 512 + 1 * (y 1).val = (y 1).val; omega

/-- The one block of the update gate's bias row is the array. -/
theorem read_bu : (iblk12 V c 16 t : Vec Ideal S1x512 .f32) = (V c main_v27 : S1x512.Idx → EReal) := by
  obtain ⟨e0, e1⟩ := idx16 t
  funext y
  unfold iblk12
  rw [View.read_apply]
  show V c main_v27 _ = V c main_v27 y
  refine congrArg (V c main_v27) (funext fun a => Fin.ext ?_)
  match a with
  | ⟨0, _⟩ => show win12_16.index t (0 : Fin 2) * 1 + 1 * (y 0).val = (y 0).val; omega
  | ⟨1, _⟩ => show win12_16.index t (1 : Fin 2) * 512 + 1 * (y 1).val = (y 1).val; omega

end Reads

/-! ## The block body -/

/-- What a block body of 4 rows carries besides its arrays. -/
def ctx : Cert.Tree.BodyCtx 4 :=
  ⟨dot_S4x512_S512x512_S4x512_1_0_0_1_n_n, rfl, shapeCasts_S4x512_S4x512, shapeCasts_S512x512_S512x512,
    shapeCasts_S1x512_S1x512, broadcasts_S1x512_S4x512, bitsLt_bf16_f32⟩

section Body

variable {F : FTy → Type} [FloatOps F]

/-- The value the body stores into its h block is the tree cell's h block of the seventeen blocks it loads. -/
theorem bodyH_eq (x0 x1 x2 x3 x4 : Vec F S4x512 .f32) (x5 x6 x7 x8 x9 x10 x11 x12 : Vec F S512x512 .bf16)
    (x13 x14 x15 x16 : Vec F S1x512 .f32) :
    k12_pay2 (k12_pay6 x3) (k12_pay7 x4) (k12_pay13 (k12_pay11 x0 x1 x2 x5 x6 x13)) (k12_pay14 (k12_pay12 x0 x1 x2 x9 x10) x15)
      (k12_pay15 (k12_pay3 x0) (k12_pay8 x1 x2) x11 x12 x16) (k12_pay17 (k12_pay3 x0) (k12_pay9 x1) x7 x8 x14)
      (k12_pay18 (k12_pay3 x0) (k12_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S4x512 .f32) (x5 x6 x7 x8 x9 x10 x11 x12 : Vec F S512x512 .bf16)
    (x13 x14 x15 x16 : Vec F S1x512 .f32) :
    k12_pay1 (k12_pay6 x3) (k12_pay7 x4) (k12_pay13 (k12_pay11 x0 x1 x2 x5 x6 x13))
      (k12_pay15 (k12_pay3 x0) (k12_pay8 x1 x2) x11 x12 x16) (k12_pay17 (k12_pay3 x0) (k12_pay9 x1) x7 x8 x14)
      (k12_pay18 (k12_pay3 x0) (k12_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S4x512 .f32) (x5 x6 x7 x8 x9 x10 x11 x12 : Vec Ideal S512x512 .bf16)
    (x13 x14 x15 x16 : Vec Ideal S1x512 .f32)
    (X HL HR CL CR : S4x512.Idx → EReal) (w5 w6 w7 w8 w9 w10 w11 w12 : S512x512.Idx → EReal)
    (b13 b14 b15 b16 : S1x512.Idx → EReal) (p : Fin 4) (r : Fin 4) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k12_pay2 (k12_pay6 x3) (k12_pay7 x4) (k12_pay13 (k12_pay11 x0 x1 x2 x5 x6 x13)) (k12_pay14 (k12_pay12 x0 x1 x2 x9 x10) x15)
      (k12_pay15 (k12_pay3 x0) (k12_pay8 x1 x2) x11 x12 x16) (k12_pay17 (k12_pay3 x0) (k12_pay9 x1) x7 x8 x14)
      (k12_pay18 (k12_pay3 x0) (k12_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S4x512 .f32) (x5 x6 x7 x8 x9 x10 x11 x12 : Vec Ideal S512x512 .bf16)
    (x13 x14 x15 x16 : Vec Ideal S1x512 .f32)
    (X HL HR CL CR : S4x512.Idx → EReal) (w5 w6 w7 w8 w9 w10 w11 w12 : S512x512.Idx → EReal)
    (b13 b14 b15 b16 : S1x512.Idx → EReal) (p : Fin 4) (r : Fin 4) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k12_pay1 (k12_pay6 x3) (k12_pay7 x4) (k12_pay13 (k12_pay11 x0 x1 x2 x5 x6 x13))
      (k12_pay15 (k12_pay3 x0) (k12_pay8 x1 x2) x11 x12 x16) (k12_pay17 (k12_pay3 x0) (k12_pay9 x1) x7 x8 x14)
      (k12_pay18 (k12_pay3 x0) (k12_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S4x512.Idx → EReal :=
  Cert.Tree.levelH (n := 4) (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S4x512.Idx → EReal :=
  Cert.Tree.levelC (n := 4) (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg12.N) :
    (dat12 V c).flushed 17 t = ((cfg12.win 17).blk t).view.read (Elt Ideal) (GH V c) := by
  show (cfg12.win 17).cut (grid12.coords t) ((dat12 V c).after 17 t) = _
  rw [after12_17]
  unfold out12_17
  rw [View.canon_unit_zero Cert.LibBlocks.off2_zero]
  simp only [View.ld_unit_zero (S := S4x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 4) (q : Fin 512), j = ix2 p q := ⟨j 0, j 1, eq_ix2 j⟩
  have hp : p.val < 4 := p.isLt
  have ht : t.val < cfg12.N := t.isLt
  have hN : cfg12.N * 4 = 4 := points_rows
  have hr : t.val * 4 + p.val < 4 := by omega
  obtain ⟨e0, e1⟩ := idx17 t
  refine Eq.trans (b := GH V c (ix2 (⟨t.val * 4 + p.val, hr⟩ : Fin 4) q)) ?_ ?_
  · exact bodyH_at (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) (iblk12 V c 15 t) (iblk12 V c 16 t)
      (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27)
      p ⟨t.val * 4 + p.val, hr⟩ q
      (fun k => read_x V c t (ix2 p k) (ix2 ⟨t.val * 4 + p.val, hr⟩ k) rfl rfl)
      (fun k => read_hl V c t (ix2 p k) (ix2 ⟨t.val * 4 + p.val, hr⟩ k) rfl rfl)
      (fun k => read_hr V c t (ix2 p k) (ix2 ⟨t.val * 4 + p.val, hr⟩ k) rfl rfl)
      (read_cl V c t (ix2 p q) (ix2 ⟨t.val * 4 + p.val, hr⟩ q) rfl rfl)
      (read_cr V c t (ix2 p q) (ix2 ⟨t.val * 4 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg12.win 17).blk t).view.emb (ix2 p q))
    refine congrArg (GH V c) (funext fun a => Fin.ext ?_)
    match a with
    | ⟨0, _⟩ => show t.val * 4 + p.val = win12_17.index t (0 : Fin 2) * 4 + 1 * p.val; omega
    | ⟨1, _⟩ => show q.val = win12_17.index t (1 : Fin 2) * 512 + 1 * q.val; omega

/-- An entry of the h array is in point t's block iff each coordinate is in the block's range on its axis. -/
theorem mem_blkH (t : Fin cfg12.N) (i : S4x512.Idx) :
    i ∈ ((cfg12.win 17).blk t).view.set ↔ ∀ a : Fin 2, win12_17.index t a * S4x512.size a ≤ (i a).val
      ∧ (i a).val < win12_17.index t a * S4x512.size a + S4x512.size a := by
  show i ∈ ((View.whole main_v247_0).slice (win12_17.rect t)).set ↔ _
  rw [View.set_slice_whole, Rect.mem_set_unit]
  exact Iff.rfl

/-- The blocks tile the h array: row r is in the block of point r / 4. -/
theorem coverH (i : S4x512.Idx) :
    ∃ t : Fin cfg12.N, (cfg12.win 17).flush t = true ∧ i ∈ ((cfg12.win 17).blk t).view.set := by
  have hi0 : (i 0).val < 4 := (i 0).isLt
  have hi1 : (i 1).val < 512 := (i 1).isLt
  have hN : cfg12.N * 4 = 4 := points_rows
  obtain ⟨hq, hlo, hhi⟩ := Cert.LibBlocks.row_in_block (nb := cfg12.N) (bs := 4) (r := (i 0).val) (by omega) (by omega)
  obtain ⟨e0, e1⟩ := idx17 (⟨(i 0).val / 4, hq⟩ : Fin cfg12.N)
  refine ⟨⟨(i 0).val / 4, hq⟩, flush12_17 _, ?_⟩
  rw [mem_blkH]
  intro a
  match a with
  | ⟨0, _⟩ =>
    show win12_17.index ⟨(i 0).val / 4, hq⟩ (0 : Fin 2) * 4 ≤ (i 0).val
      ∧ (i 0).val < win12_17.index ⟨(i 0).val / 4, hq⟩ (0 : Fin 2) * 4 + 4
    rw [e0]
    exact ⟨hlo, hhi⟩
  | ⟨1, _⟩ =>
    show win12_17.index ⟨(i 0).val / 4, hq⟩ (1 : Fin 2) * 512 ≤ (i 1).val
      ∧ (i 1).val < win12_17.index ⟨(i 0).val / 4, hq⟩ (1 : Fin 2) * 512 + 512
    omega

/-- What point t writes back to the c array is block t of the level's c. -/
theorem flushedC (c : Dev nD) (t : Fin cfg12.N) :
    (dat12 V c).flushed 18 t = ((cfg12.win 18).blk t).view.read (Elt Ideal) (GC V c) := by
  show (cfg12.win 18).cut (grid12.coords t) ((dat12 V c).after 18 t) = _
  rw [after12_18]
  unfold out12_18
  rw [View.canon_unit_zero Cert.LibBlocks.off2_zero]
  simp only [View.ld_unit_zero (S := S4x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 4) (q : Fin 512), j = ix2 p q := ⟨j 0, j 1, eq_ix2 j⟩
  have hp : p.val < 4 := p.isLt
  have ht : t.val < cfg12.N := t.isLt
  have hN : cfg12.N * 4 = 4 := points_rows
  have hr : t.val * 4 + p.val < 4 := by omega
  obtain ⟨e0, e1⟩ := idx18 t
  refine Eq.trans (b := GC V c (ix2 (⟨t.val * 4 + p.val, hr⟩ : Fin 4) q)) ?_ ?_
  · exact bodyC_at (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) (iblk12 V c 15 t) (iblk12 V c 16 t)
      (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27)
      p ⟨t.val * 4 + p.val, hr⟩ q
      (fun k => read_x V c t (ix2 p k) (ix2 ⟨t.val * 4 + p.val, hr⟩ k) rfl rfl)
      (fun k => read_hl V c t (ix2 p k) (ix2 ⟨t.val * 4 + p.val, hr⟩ k) rfl rfl)
      (fun k => read_hr V c t (ix2 p k) (ix2 ⟨t.val * 4 + p.val, hr⟩ k) rfl rfl)
      (read_cl V c t (ix2 p q) (ix2 ⟨t.val * 4 + p.val, hr⟩ q) rfl rfl)
      (read_cr V c t (ix2 p q) (ix2 ⟨t.val * 4 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg12.win 18).blk t).view.emb (ix2 p q))
    refine congrArg (GC V c) (funext fun a => Fin.ext ?_)
    match a with
    | ⟨0, _⟩ => show t.val * 4 + p.val = win12_18.index t (0 : Fin 2) * 4 + 1 * p.val; omega
    | ⟨1, _⟩ => show q.val = win12_18.index t (1 : Fin 2) * 512 + 1 * q.val; omega

/-- An entry of the c array is in point t's block iff each coordinate is in the block's range on its axis. -/
theorem mem_blkC (t : Fin cfg12.N) (i : S4x512.Idx) :
    i ∈ ((cfg12.win 18).blk t).view.set ↔ ∀ a : Fin 2, win12_18.index t a * S4x512.size a ≤ (i a).val
      ∧ (i a).val < win12_18.index t a * S4x512.size a + S4x512.size a := by
  show i ∈ ((View.whole main_v247_1).slice (win12_18.rect t)).set ↔ _
  rw [View.set_slice_whole, Rect.mem_set_unit]
  exact Iff.rfl

/-- The blocks tile the c array: row r is in the block of point r / 4. -/
theorem coverC (i : S4x512.Idx) :
    ∃ t : Fin cfg12.N, (cfg12.win 18).flush t = true ∧ i ∈ ((cfg12.win 18).blk t).view.set := by
  have hi0 : (i 0).val < 4 := (i 0).isLt
  have hi1 : (i 1).val < 512 := (i 1).isLt
  have hN : cfg12.N * 4 = 4 := points_rows
  obtain ⟨hq, hlo, hhi⟩ := Cert.LibBlocks.row_in_block (nb := cfg12.N) (bs := 4) (r := (i 0).val) (by omega) (by omega)
  obtain ⟨e0, e1⟩ := idx18 (⟨(i 0).val / 4, hq⟩ : Fin cfg12.N)
  refine ⟨⟨(i 0).val / 4, hq⟩, flush12_18 _, ?_⟩
  rw [mem_blkC]
  intro a
  match a with
  | ⟨0, _⟩ =>
    show win12_18.index ⟨(i 0).val / 4, hq⟩ (0 : Fin 2) * 4 ≤ (i 0).val
      ∧ (i 0).val < win12_18.index ⟨(i 0).val / 4, hq⟩ (0 : Fin 2) * 4 + 4
    rw [e0]
    exact ⟨hlo, hhi⟩
  | ⟨1, _⟩ =>
    show win12_18.index ⟨(i 0).val / 4, hq⟩ (1 : Fin 2) * 512 ≤ (i 1).val
      ∧ (i 1).val < win12_18.index ⟨(i 0).val / 4, hq⟩ (1 : Fin 2) * 512 + 512
    omega

/-- After the region the h array holds the level's h of the seventeen arrays as the region finds them. -/
theorem arrH (c : Dev nD) :
    (dat12 (F := Ideal) V c).arrAt 17 cfg12.N
      = Cert.Tree.levelH (n := 4) (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27) :=
  (dat12 V c).arrAt_eq_of_cover 17 (GH V c) (fun t _ => flushedH V c t) coverH

/-- After the region the c array holds the level's c of the seventeen arrays as the region finds them. -/
theorem arrC (c : Dev nD) :
    (dat12 (F := Ideal) V c).arrAt 18 cfg12.N
      = Cert.Tree.levelC (n := 4) (V c main_v234) (V c main_v240) (V c main_v242) (V c main_v244) (V c main_v246) (V c main_v2) (V c main_v5) (V c main_v8) (V c main_v11) (V c main_v14) (V c main_v17) (V c main_v20) (V c main_v23) (V c main_v24) (V c main_v25) (V c main_v26) (V c main_v27) :=
  (dat12 V c).arrAt_eq_of_cover 18 (GC V c) (fun t _ => flushedC V c t) coverC

end Arrays

end Cert.KernelIdeal.Reg12

end
-- ==== Proof.RStep12.lean ====
/-
  The reference's level of 4 nodes (heap rows 3 … 6), read off its run's named buffers: the h and c heap
  arrays after the level are the arrays before it with the level's rows replaced by the level function of the x rows
  and of the children's rows (the even and odd rows of heap rows 7 … 14 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx12 : Cert.Tree.HostCtx 4 :=
  ⟨dot_S4x1024_S1024x512_S4x512_1_0_0_1_n_n, rfl, concatenates_S4x512_S4x512_S4x1024_d1,
    transposes_S512x1024_S1024x512_1_0, bcast_S512_S1x512_1, bcast_S1x512_S4x512_0_1, bcast_S_S4x512⟩

variable (V0 : Valuation τ sig (Elt Ideal))

/-- The level's x rows. -/
abbrev xl12 : Vec Ideal S4x512 .f32 :=
  extractStridedSlice S4x512 ![3, 0] (V0 (Proc.devRef .tc main_arg0)) slices_S32767x512_S4x512_3_0

/-- The left (even) and right (odd) children's rows of a heap array. -/
abbrev childL12 (A : Vec Ideal S32767x512 .f32) : Vec Ideal S4x512 .f32 :=
  shapeCast _ (extractStridedSlice S4x1x512 ![0, 0, 0] (shapeCast _ (extractStridedSlice S8x512 ![7, 0] A slices_S32767x512_S8x512_7_0) shapeCasts_S8x512_S4x2x512) slices_S4x2x512_S4x1x512_0_0_0) shapeCasts_S4x1x512_S4x512

abbrev childR12 (A : Vec Ideal S32767x512 .f32) : Vec Ideal S4x512 .f32 :=
  shapeCast _ (extractStridedSlice S4x1x512 ![0, 1, 0] (shapeCast _ (extractStridedSlice S8x512 ![7, 0] A slices_S32767x512_S8x512_7_0) shapeCasts_S8x512_S4x2x512) slices_S4x2x512_S4x1x512_0_1_0) shapeCasts_S4x1x512_S4x512

theorem stepC12 : res_main_v975 V0
    = Host.scatter scatter_S32767x512_S1_S4x512_01_n_0_0 (fun _ b => b) (res_main_v897 V0) (broadcastInDim S1 ![] bcast_S_S1 (constantI S_ 32 3#32))
        (Cert.Tree.hostLevelC ctx12 (xl12 V0) (childL12 (res_main_v895 V0)) (childR12 (res_main_v895 V0)) (childL12 (res_main_v897 V0)) (childR12 (res_main_v897 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v975 res_main_v969 res_main_v908 res_main_v904 res_main_v906 res_main_v900 res_main_v902 res_main_v898
  rfl

theorem stepH12 : res_main_v973 V0
    = Host.scatter scatter_S32767x512_S1_S4x512_01_n_0_0 (fun _ b => b) (res_main_v895 V0) (broadcastInDim S1 ![] bcast_S_S1 (constantI S_ 32 3#32))
        (Cert.Tree.hostLevelH ctx12 (xl12 V0) (childL12 (res_main_v895 V0)) (childR12 (res_main_v895 V0)) (childL12 (res_main_v897 V0)) (childR12 (res_main_v897 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v973 res_main_v969 res_main_v908 res_main_v904 res_main_v906 res_main_v900 res_main_v902 res_main_v898
  rfl

end Cert.ReferenceIdeal.Chain

end
-- ==== Proof.Bridge12.lean ====
/-
  The level of 4 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep12
import proofs.«110311_j37117107372689_1_alg».proof.Proof.KReg12
import proofs.«110311_j37117107372689_1_alg».proof.Proof.RStep12
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 4 nodes, they agree after it. -/
theorem level12 (hA : Agree m V0 c)
    (hH : Cert.KernelIdeal.Gen.W25 m ρ c (Proc.devRef .tc Cert.KernelIdeal.main_v231) = Cert.ReferenceIdeal.Value.res_main_v895 V0)
    (hC : Cert.KernelIdeal.Gen.W25 m ρ c (Proc.devRef .tc Cert.KernelIdeal.main_v233) = Cert.ReferenceIdeal.Value.res_main_v897 V0) :
    Cert.KernelIdeal.Gen.W27 m ρ c (Proc.devRef .tc Cert.KernelIdeal.main_v249) = Cert.ReferenceIdeal.Value.res_main_v973 V0
      ∧ Cert.KernelIdeal.Gen.W27 m ρ c (Proc.devRef .tc Cert.KernelIdeal.main_v251) = Cert.ReferenceIdeal.Value.res_main_v975 V0 := by
  constructor
  · rw [Cert.KernelIdeal.Chain.stepH12 m ρ c (Cert.KernelIdeal.Reg12.arrH (Cert.KernelIdeal.Gen.V25 m ρ) c),
      Cert.ReferenceIdeal.Chain.stepH12 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC12 m ρ c (Cert.KernelIdeal.Reg12.arrC (Cert.KernelIdeal.Gen.V25 m ρ) c),
      Cert.ReferenceIdeal.Chain.stepC12 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep13.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 13: what its scatters leave in the two heap arrays

The host stretch before the region cuts the level's 2 rows of node features out of the argument and, out of each
heap array (hidden states, cell states), the 4 rows of the level below, which it pairs up: row p's left child is
the pair's first member and its right child the second. The region computes the level's hidden and cell rows from
these five arrays and the twelve weight and bias buffers; the host stretch after it scatters the two results into the
heap arrays at row 1. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat13_h : StableHlo.after hostOps14 W (Proc.devRef .tc main_v267)
    = Host.scatter scatter_S32767x512_S1_S2x512_01_n_0_0 (fun _ b => b) (W (Proc.devRef .tc main_v249))
        (broadcastInDim S1 ![] bcast_S_S1 (constantI S_ 32 1#32)) (W (Proc.devRef .tc main_v265_0)) := by
  after_results
  rfl

/-- And the new cell heap: the old one with the region's second output scattered in. -/
theorem scat13_c : StableHlo.after hostOps14 W (Proc.devRef .tc main_v269)
    = Host.scatter scatter_S32767x512_S1_S2x512_01_n_0_0 (fun _ b => b) (W (Proc.devRef .tc main_v251))
        (broadcastInDim S1 ![] bcast_S_S1 (constantI S_ 32 1#32)) (W (Proc.devRef .tc main_v265_1)) := by
  after_results
  rfl

/-- The stretch before the region: the level's rows of node features. -/
theorem cut13_x : StableHlo.after hostOps13 W (Proc.devRef .tc main_v252)
    = extractStridedSlice S2x512 ![1, 0] (W (Proc.devRef .tc main_arg0)) slices_S32767x512_S2x512_1_0 := by
  after_results

/-- The left children's hidden rows, out of the hidden heap as this stretch itself leaves it. -/
theorem cut13_hl : StableHlo.after hostOps13 W (Proc.devRef .tc main_v258)
    = shapeCast _ (extractStridedSlice S2x1x512 ![0, 0, 0] (shapeCast _ (extractStridedSlice S4x512 ![3, 0] (StableHlo.after hostOps13 W (Proc.devRef .tc main_v249)) slices_S32767x512_S4x512_3_0) shapeCasts_S4x512_S2x2x512) slices_S2x2x512_S2x1x512_0_0_0) shapeCasts_S2x1x512_S2x512 := by
  after_results_simp
  rfl

/-- The right children's hidden rows. -/
theorem cut13_hr : StableHlo.after hostOps13 W (Proc.devRef .tc main_v260)
    = shapeCast _ (extractStridedSlice S2x1x512 ![0, 1, 0] (shapeCast _ (extractStridedSlice S4x512 ![3, 0] (StableHlo.after hostOps13 W (Proc.devRef .tc main_v249)) slices_S32767x512_S4x512_3_0) shapeCasts_S4x512_S2x2x512) slices_S2x2x512_S2x1x512_0_1_0) shapeCasts_S2x1x512_S2x512 := by
  after_results_simp
  rfl

/-- The left children's cell rows, out of the cell heap. -/
theorem cut13_cl : StableHlo.after hostOps13 W (Proc.devRef .tc main_v262)
    = shapeCast _ (extractStridedSlice S2x1x512 ![0, 0, 0] (shapeCast _ (extractStridedSlice S4x512 ![3, 0] (StableHlo.after hostOps13 W (Proc.devRef .tc main_v251)) slices_S32767x512_S4x512_3_0) shapeCasts_S4x512_S2x2x512) slices_S2x2x512_S2x1x512_0_0_0) shapeCasts_S2x1x512_S2x512 := by
  after_results_simp
  rfl

/-- The right children's cell rows. -/
theorem cut13_cr : StableHlo.after hostOps13 W (Proc.devRef .tc main_v264)
    = shapeCast _ (extractStridedSlice S2x1x512 ![0, 1, 0] (shapeCast _ (extractStridedSlice S4x512 ![3, 0] (StableHlo.after hostOps13 W (Proc.devRef .tc main_v251)) slices_S32767x512_S4x512_3_0) shapeCasts_S4x512_S2x2x512) slices_S2x2x512_S2x1x512_0_1_0) shapeCasts_S2x1x512_S2x512 := by
  after_results_simp
  rfl

end Host

/-! ## The region's five level arrays at its entry, in the run -/

theorem in13_x (c : Dev nD) : Gen.W27 m ρ c (Proc.devRef .tc main_v252)
    = extractStridedSlice S2x512 ![1, 0] (m ((c : Thread nD τ).loc main_arg0)) slices_S32767x512_S2x512_1_0 :=
  (cut13_x (Gen.W26 m ρ c)).trans (by rw [arg0_13 m ρ c])

theorem in13_hl (c : Dev nD) : Gen.W27 m ρ c (Proc.devRef .tc main_v258)
    = shapeCast _ (extractStridedSlice S2x1x512 ![0, 0, 0] (shapeCast _ (extractStridedSlice S4x512 ![3, 0] (Gen.W27 m ρ c (Proc.devRef .tc main_v249)) slices_S32767x512_S4x512_3_0) shapeCasts_S4x512_S2x2x512) slices_S2x2x512_S2x1x512_0_0_0) shapeCasts_S2x1x512_S2x512 :=
  cut13_hl (Gen.W26 m ρ c)

theorem in13_hr (c : Dev nD) : Gen.W27 m ρ c (Proc.devRef .tc main_v260)
    = shapeCast _ (extractStridedSlice S2x1x512 ![0, 1, 0] (shapeCast _ (extractStridedSlice S4x512 ![3, 0] (Gen.W27 m ρ c (Proc.devRef .tc main_v249)) slices_S32767x512_S4x512_3_0) shapeCasts_S4x512_S2x2x512) slices_S2x2x512_S2x1x512_0_1_0) shapeCasts_S2x1x512_S2x512 :=
  cut13_hr (Gen.W26 m ρ c)

theorem in13_cl (c : Dev nD) : Gen.W27 m ρ c (Proc.devRef .tc main_v262)
    = shapeCast _ (extractStridedSlice S2x1x512 ![0, 0, 0] (shapeCast _ (extractStridedSlice S4x512 ![3, 0] (Gen.W27 m ρ c (Proc.devRef .tc main_v251)) slices_S32767x512_S4x512_3_0) shapeCasts_S4x512_S2x2x512) slices_S2x2x512_S2x1x512_0_0_0) shapeCasts_S2x1x512_S2x512 :=
  cut13_cl (Gen.W26 m ρ c)

theorem in13_cr (c : Dev nD) : Gen.W27 m ρ c (Proc.devRef .tc main_v264)
    = shapeCast _ (extractStridedSlice S2x1x512 ![0, 1, 0] (shapeCast _ (extractStridedSlice S4x512 ![3, 0] (Gen.W27 m ρ c (Proc.devRef .tc main_v251)) slices_S32767x512_S4x512_3_0) shapeCasts_S4x512_S2x2x512) slices_S2x2x512_S2x1x512_0_1_0) shapeCasts_S2x1x512_S2x512 :=
  cut13_cr (Gen.W26 m ρ c)

/-! ## The region's two outputs at its exit are its proof data's arrays after the last grid point -/

theorem out13_h (c : Dev nD) : Gen.W28 m ρ c (Proc.devRef .tc main_v265_0) = (Gen.dat13 (Gen.V27 m ρ) c).arrAt 17 cfg13.N :=
  Gen.W28_arr m ρ c 17

theorem out13_c (c : Dev nD) : Gen.W28 m ρ c (Proc.devRef .tc main_v265_1) = (Gen.dat13 (Gen.V27 m ρ) c).arrAt 18 cfg13.N :=
  Gen.W28_arr m ρ c 18

/-! ## The level -/

/-- The hidden heap after the level, given that the region's first output is the level function of its entry arrays. -/
theorem stepH13 (c : Dev nD)
    (hH : (Gen.dat13 (F := Ideal) (Gen.V27 m ρ) c).arrAt 17 cfg13.N
      = Cert.Tree.levelH (n := 2) (Gen.V27 m ρ c main_v252) (Gen.V27 m ρ c main_v258) (Gen.V27 m ρ c main_v260)
          (Gen.V27 m ρ c main_v262) (Gen.V27 m ρ c main_v264)
          (Gen.V27 m ρ c main_v2) (Gen.V27 m ρ c main_v5) (Gen.V27 m ρ c main_v8) (Gen.V27 m ρ c main_v11)
          (Gen.V27 m ρ c main_v14) (Gen.V27 m ρ c main_v17) (Gen.V27 m ρ c main_v20) (Gen.V27 m ρ c main_v23)
          (Gen.V27 m ρ c main_v24) (Gen.V27 m ρ c main_v25) (Gen.V27 m ρ c main_v26) (Gen.V27 m ρ c main_v27)) :
    Gen.W29 m ρ c (Proc.devRef .tc main_v267)
      = Host.scatter scatter_S32767x512_S1_S2x512_01_n_0_0 (fun _ b => b) (Gen.W27 m ρ c (Proc.devRef .tc main_v249))
          (broadcastInDim S1 ![] bcast_S_S1 (constantI S_ 32 1#32))
          (Cert.Tree.levelH (n := 2)
            (extractStridedSlice S2x512 ![1, 0] (m ((c : Thread nD τ).loc main_arg0)) slices_S32767x512_S2x512_1_0)
            (shapeCast _ (extractStridedSlice S2x1x512 ![0, 0, 0] (shapeCast _ (extractStridedSlice S4x512 ![3, 0] (Gen.W27 m ρ c (Proc.devRef .tc main_v249)) slices_S32767x512_S4x512_3_0) shapeCasts_S4x512_S2x2x512) slices_S2x2x512_S2x1x512_0_0_0) shapeCasts_S2x1x512_S2x512)
            (shapeCast _ (extractStridedSlice S2x1x512 ![0, 1, 0] (shapeCast _ (extractStridedSlice S4x512 ![3, 0] (Gen.W27 m ρ c (Proc.devRef .tc main_v249)) slices_S32767x512_S4x512_3_0) shapeCasts_S4x512_S2x2x512) slices_S2x2x512_S2x1x512_0_1_0) shapeCasts_S2x1x512_S2x512)
            (shapeCast _ (extractStridedSlice S2x1x512 ![0, 0, 0] (shapeCast _ (extractStridedSlice S4x512 ![3, 0] (Gen.W27 m ρ c (Proc.devRef .tc main_v251)) slices_S32767x512_S4x512_3_0) shapeCasts_S4x512_S2x2x512) slices_S2x2x512_S2x1x512_0_0_0) shapeCasts_S2x1x512_S2x512)
            (shapeCast _ (extractStridedSlice S2x1x512 ![0, 1, 0] (shapeCast _ (extractStridedSlice S4x512 ![3, 0] (Gen.W27 m ρ c (Proc.devRef .tc main_v251)) slices_S32767x512_S4x512_3_0) shapeCasts_S4x512_S2x2x512) slices_S2x2x512_S2x1x512_0_1_0) shapeCasts_S2x1x512_S2x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat13 (F := Ideal) (Gen.V27 m ρ) c).arrAt 17 cfg13.N
      = Cert.Tree.levelH (n := 2) (Gen.W27 m ρ c (Proc.devRef .tc main_v252)) (Gen.W27 m ρ c (Proc.devRef .tc main_v258))
          (Gen.W27 m ρ c (Proc.devRef .tc main_v260)) (Gen.W27 m ρ c (Proc.devRef .tc main_v262))
          (Gen.W27 m ρ c (Proc.devRef .tc main_v264))
          (Gen.W27 m ρ c (Proc.devRef .tc main_v2)) (Gen.W27 m ρ c (Proc.devRef .tc main_v5))
          (Gen.W27 m ρ c (Proc.devRef .tc main_v8)) (Gen.W27 m ρ c (Proc.devRef .tc main_v11))
          (Gen.W27 m ρ c (Proc.devRef .tc main_v14)) (Gen.W27 m ρ c (Proc.devRef .tc main_v17))
          (Gen.W27 m ρ c (Proc.devRef .tc main_v20)) (Gen.W27 m ρ c (Proc.devRef .tc main_v23))
          (Gen.W27 m ρ c (Proc.devRef .tc main_v24)) (Gen.W27 m ρ c (Proc.devRef .tc main_v25))
          (Gen.W27 m ρ c (Proc.devRef .tc main_v26)) (Gen.W27 m ρ c (Proc.devRef .tc main_v27)) := hH
  rw [in13_x m ρ c, in13_hl m ρ c, in13_hr m ρ c, in13_cl m ρ c, in13_cr m ρ c,
    keep13_main_v2 m ρ c, keep13_main_v5 m ρ c, keep13_main_v8 m ρ c, keep13_main_v11 m ρ c, keep13_main_v14 m ρ c,
    keep13_main_v17 m ρ c, keep13_main_v20 m ρ c, keep13_main_v23 m ρ c, keep13_main_v24 m ρ c, keep13_main_v25 m ρ c,
    keep13_main_v26 m ρ c, keep13_main_v27 m ρ c] at hH'
  refine (scat13_h (Gen.W28 m ρ c)).trans ?_
  rw [Gen.W28_of_ne m ρ c main_v249 (by decide), out13_h m ρ c, hH']

/-- The cell heap after the level, given that the region's second output is the level's cell function of its entry arrays. -/
theorem stepC13 (c : Dev nD)
    (hC : (Gen.dat13 (F := Ideal) (Gen.V27 m ρ) c).arrAt 18 cfg13.N
      = Cert.Tree.levelC (n := 2) (Gen.V27 m ρ c main_v252) (Gen.V27 m ρ c main_v258) (Gen.V27 m ρ c main_v260)
          (Gen.V27 m ρ c main_v262) (Gen.V27 m ρ c main_v264)
          (Gen.V27 m ρ c main_v2) (Gen.V27 m ρ c main_v5) (Gen.V27 m ρ c main_v8) (Gen.V27 m ρ c main_v11)
          (Gen.V27 m ρ c main_v14) (Gen.V27 m ρ c main_v17) (Gen.V27 m ρ c main_v20) (Gen.V27 m ρ c main_v23)
          (Gen.V27 m ρ c main_v24) (Gen.V27 m ρ c main_v25) (Gen.V27 m ρ c main_v26) (Gen.V27 m ρ c main_v27)) :
    Gen.W29 m ρ c (Proc.devRef .tc main_v269)
      = Host.scatter scatter_S32767x512_S1_S2x512_01_n_0_0 (fun _ b => b) (Gen.W27 m ρ c (Proc.devRef .tc main_v251))
          (broadcastInDim S1 ![] bcast_S_S1 (constantI S_ 32 1#32))
          (Cert.Tree.levelC (n := 2)
            (extractStridedSlice S2x512 ![1, 0] (m ((c : Thread nD τ).loc main_arg0)) slices_S32767x512_S2x512_1_0)
            (shapeCast _ (extractStridedSlice S2x1x512 ![0, 0, 0] (shapeCast _ (extractStridedSlice S4x512 ![3, 0] (Gen.W27 m ρ c (Proc.devRef .tc main_v249)) slices_S32767x512_S4x512_3_0) shapeCasts_S4x512_S2x2x512) slices_S2x2x512_S2x1x512_0_0_0) shapeCasts_S2x1x512_S2x512)
            (shapeCast _ (extractStridedSlice S2x1x512 ![0, 1, 0] (shapeCast _ (extractStridedSlice S4x512 ![3, 0] (Gen.W27 m ρ c (Proc.devRef .tc main_v249)) slices_S32767x512_S4x512_3_0) shapeCasts_S4x512_S2x2x512) slices_S2x2x512_S2x1x512_0_1_0) shapeCasts_S2x1x512_S2x512)
            (shapeCast _ (extractStridedSlice S2x1x512 ![0, 0, 0] (shapeCast _ (extractStridedSlice S4x512 ![3, 0] (Gen.W27 m ρ c (Proc.devRef .tc main_v251)) slices_S32767x512_S4x512_3_0) shapeCasts_S4x512_S2x2x512) slices_S2x2x512_S2x1x512_0_0_0) shapeCasts_S2x1x512_S2x512)
            (shapeCast _ (extractStridedSlice S2x1x512 ![0, 1, 0] (shapeCast _ (extractStridedSlice S4x512 ![3, 0] (Gen.W27 m ρ c (Proc.devRef .tc main_v251)) slices_S32767x512_S4x512_3_0) shapeCasts_S4x512_S2x2x512) slices_S2x2x512_S2x1x512_0_1_0) shapeCasts_S2x1x512_S2x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat13 (F := Ideal) (Gen.V27 m ρ) c).arrAt 18 cfg13.N
      = Cert.Tree.levelC (n := 2) (Gen.W27 m ρ c (Proc.devRef .tc main_v252)) (Gen.W27 m ρ c (Proc.devRef .tc main_v258))
          (Gen.W27 m ρ c (Proc.devRef .tc main_v260)) (Gen.W27 m ρ c (Proc.devRef .tc main_v262))
          (Gen.W27 m ρ c (Proc.devRef .tc main_v264))
          (Gen.W27 m ρ c (Proc.devRef .tc main_v2)) (Gen.W27 m ρ c (Proc.devRef .tc main_v5))
          (Gen.W27 m ρ c (Proc.devRef .tc main_v8)) (Gen.W27 m ρ c (Proc.devRef .tc main_v11))
          (Gen.W27 m ρ c (Proc.devRef .tc main_v14)) (Gen.W27 m ρ c (Proc.devRef .tc main_v17))
          (Gen.W27 m ρ c (Proc.devRef .tc main_v20)) (Gen.W27 m ρ c (Proc.devRef .tc main_v23))
          (Gen.W27 m ρ c (Proc.devRef .tc main_v24)) (Gen.W27 m ρ c (Proc.devRef .tc main_v25))
          (Gen.W27 m ρ c (Proc.devRef .tc main_v26)) (Gen.W27 m ρ c (Proc.devRef .tc main_v27)) := hC
  rw [in13_x m ρ c, in13_hl m ρ c, in13_hr m ρ c, in13_cl m ρ c, in13_cr m ρ c,
    keep13_main_v2 m ρ c, keep13_main_v5 m ρ c, keep13_main_v8 m ρ c, keep13_main_v11 m ρ c, keep13_main_v14 m ρ c,
    keep13_main_v17 m ρ c, keep13_main_v20 m ρ c, keep13_main_v23 m ρ c, keep13_main_v24 m ρ c, keep13_main_v25 m ρ c,
    keep13_main_v26 m ρ c, keep13_main_v27 m ρ c] at hC'
  refine (scat13_c (Gen.W28 m ρ c)).trans ?_
  rw [Gen.W28_of_ne m ρ c main_v251 (by decide), out13_c m ρ c, hC']

end Cert.KernelIdeal.Chain

end
-- ==== Proof.KReg13.lean ====
/-
  One level of the tree on the kernel's side: 2 internal nodes, worked in blocks of 2 node rows, one block per
  grid point. What the level's two output arrays hold after the region, whatever the arrays hold when it is entered.

  Grid point t reads block t (rows 2 t … 2 t + 1) of the five row arrays — x and the children's h and c —, the
  whole of the eight weight halves and of the four bias rows, and writes block t of h and of c. The block body is the
  tree cell over the block's own arrays, a row of the cell reads only that row of its inputs, and the blocks tile the
  level: so the h array ends at the level's h of the seventeen arrays as the region finds them, and the c array at the
  level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg13

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid's points times the rows of a block are the level's rows. -/
theorem points_rows : cfg13.N * 2 = 2 := by decide

/-! The printed index maps, decided over the grid: a row array's block at point t is block (t, 0); a weight half or a
    bias row is one block, (0, 0). -/

theorem idx0 : ∀ t : Fin cfg13.N, win13_0.index t (0 : Fin 2) = t.val ∧ win13_0.index t (1 : Fin 2) = 0 :=
  (by decide +kernel : ∀ t : Fin grid13.N, _)
theorem idx1 : ∀ t : Fin cfg13.N, win13_1.index t (0 : Fin 2) = t.val ∧ win13_1.index t (1 : Fin 2) = 0 :=
  (by decide +kernel : ∀ t : Fin grid13.N, _)
theorem idx2 : ∀ t : Fin cfg13.N, win13_2.index t (0 : Fin 2) = t.val ∧ win13_2.index t (1 : Fin 2) = 0 :=
  (by decide +kernel : ∀ t : Fin grid13.N, _)
theorem idx3 : ∀ t : Fin cfg13.N, win13_3.index t (0 : Fin 2) = t.val ∧ win13_3.index t (1 : Fin 2) = 0 :=
  (by decide +kernel : ∀ t : Fin grid13.N, _)
theorem idx4 : ∀ t : Fin cfg13.N, win13_4.index t (0 : Fin 2) = t.val ∧ win13_4.index t (1 : Fin 2) = 0 :=
  (by decide +kernel : ∀ t : Fin grid13.N, _)
theorem idx17 : ∀ t : Fin cfg13.N, win13_17.index t (0 : Fin 2) = t.val ∧ win13_17.index t (1 : Fin 2) = 0 :=
  (by decide +kernel : ∀ t : Fin grid13.N, _)
theorem idx18 : ∀ t : Fin cfg13.N, win13_18.index t (0 : Fin 2) = t.val ∧ win13_18.index t (1 : Fin 2) = 0 :=
  (by decide +kernel : ∀ t : Fin grid13.N, _)
theorem idx5 : ∀ t : Fin cfg13.N, win13_5.index t (0 : Fin 2) = 0 ∧ win13_5.index t (1 : Fin 2) = 0 :=
  (by decide +kernel : ∀ t : Fin grid13.N, _)
theorem idx6 : ∀ t : Fin cfg13.N, win13_6.index t (0 : Fin 2) = 0 ∧ win13_6.index t (1 : Fin 2) = 0 :=
  (by decide +kernel : ∀ t : Fin grid13.N, _)
theorem idx7 : ∀ t : Fin cfg13.N, win13_7.index t (0 : Fin 2) = 0 ∧ win13_7.index t (1 : Fin 2) = 0 :=
  (by decide +kernel : ∀ t : Fin grid13.N, _)
theorem idx8 : ∀ t : Fin cfg13.N, win13_8.index t (0 : Fin 2) = 0 ∧ win13_8.index t (1 : Fin 2) = 0 :=
  (by decide +kernel : ∀ t : Fin grid13.N, _)
theorem idx9 : ∀ t : Fin cfg13.N, win13_9.index t (0 : Fin 2) = 0 ∧ win13_9.index t (1 : Fin 2) = 0 :=
  (by decide +kernel : ∀ t : Fin grid13.N, _)
theorem idx10 : ∀ t : Fin cfg13.N, win13_10.index t (0 : Fin 2) = 0 ∧ win13_10.index t (1 : Fin 2) = 0 :=
  (by decide +kernel : ∀ t : Fin grid13.N, _)
theorem idx11 : ∀ t : Fin cfg13.N, win13_11.index t (0 : Fin 2) = 0 ∧ win13_11.index t (1 : Fin 2) = 0 :=
  (by decide +kernel : ∀ t : Fin grid13.N, _)
theorem idx12 : ∀ t : Fin cfg13.N, win13_12.index t (0 : Fin 2) = 0 ∧ win13_12.index t (1 : Fin 2) = 0 :=
  (by decide +kernel : ∀ t : Fin grid13.N, _)
theorem idx13 : ∀ t : Fin cfg13.N, win13_13.index t (0 : Fin 2) = 0 ∧ win13_13.index t (1 : Fin 2) = 0 :=
  (by decide +kernel : ∀ t : Fin grid13.N, _)
theorem idx14 : ∀ t : Fin cfg13.N, win13_14.index t (0 : Fin 2) = 0 ∧ win13_14.index t (1 : Fin 2) = 0 :=
  (by decide +kernel : ∀ t : Fin grid13.N, _)
theorem idx15 : ∀ t : Fin cfg13.N, win13_15.index t (0 : Fin 2) = 0 ∧ win13_15.index t (1 : Fin 2) = 0 :=
  (by decide +kernel : ∀ t : Fin grid13.N, _)
theorem idx16 : ∀ t : Fin cfg13.N, win13_16.index t (0 : Fin 2) = 0 ∧ win13_16.index t (1 : Fin 2) = 0 :=
  (by decide +kernel : ∀ t : Fin grid13.N, _)

/-! ## The blocks the body reads

A block's entry sits in its array, on each axis, at the block index times the block's extent plus the entry's own
coordinate. So entry (p, k) of block t of a row array is the array's entry (2 t + p, k), and the one block of a weight
half or of a bias row is the array itself. -/

section Reads

variable (V : (c : Dev nD) → (b : Ref sig .tc) → Buf (Elt Ideal) ((c : Thread nD τ).loc b))
variable (c : Dev nD) (t : Fin cfg13.N)

/-- Block t of x, at an entry. -/
theorem read_x (y : S2x512.Idx) (i : S2x512.Idx) (h0 : (i 0).val = t.val * 2 + (y 0).val) (h1 : (i 1).val = (y 1).val) :
    (iblk13 V c 0 t : Vec Ideal S2x512 .f32) y = (V c main_v252 : S2x512.Idx → EReal) i := by
  obtain ⟨e0, e1⟩ := idx0 t
  unfold iblk13
  rw [View.read_apply]
  show V c main_v252 _ = V c main_v252 _
  refine congrArg (V c main_v252) (funext fun a => Fin.ext ?_)
  match a with
  | ⟨0, _⟩ => show win13_0.index t (0 : Fin 2) * 2 + 1 * (y 0).val = (i 0).val; omega
  | ⟨1, _⟩ => show win13_0.index t (1 : Fin 2) * 512 + 1 * (y 1).val = (i 1).val; omega

/-- Block t of the left children's h, at an entry. -/
theorem read_hl (y : S2x512.Idx) (i : S2x512.Idx) (h0 : (i 0).val = t.val * 2 + (y 0).val) (h1 : (i 1).val = (y 1).val) :
    (iblk13 V c 1 t : Vec Ideal S2x512 .f32) y = (V c main_v258 : S2x512.Idx → EReal) i := by
  obtain ⟨e0, e1⟩ := idx1 t
  unfold iblk13
  rw [View.read_apply]
  show V c main_v258 _ = V c main_v258 _
  refine congrArg (V c main_v258) (funext fun a => Fin.ext ?_)
  match a with
  | ⟨0, _⟩ => show win13_1.index t (0 : Fin 2) * 2 + 1 * (y 0).val = (i 0).val; omega
  | ⟨1, _⟩ => show win13_1.index t (1 : Fin 2) * 512 + 1 * (y 1).val = (i 1).val; omega

/-- Block t of the right children's h, at an entry. -/
theorem read_hr (y : S2x512.Idx) (i : S2x512.Idx) (h0 : (i 0).val = t.val * 2 + (y 0).val) (h1 : (i 1).val = (y 1).val) :
    (iblk13 V c 2 t : Vec Ideal S2x512 .f32) y = (V c main_v260 : S2x512.Idx → EReal) i := by
  obtain ⟨e0, e1⟩ := idx2 t
  unfold iblk13
  rw [View.read_apply]
  show V c main_v260 _ = V c main_v260 _
  refine congrArg (V c main_v260) (funext fun a => Fin.ext ?_)
  match a with
  | ⟨0, _⟩ => show win13_2.index t (0 : Fin 2) * 2 + 1 * (y 0).val = (i 0).val; omega
  | ⟨1, _⟩ => show win13_2.index t (1 : Fin 2) * 512 + 1 * (y 1).val = (i 1).val; omega

/-- Block t of the left children's c, at an entry. -/
theorem read_cl (y : S2x512.Idx) (i : S2x512.Idx) (h0 : (i 0).val = t.val * 2 + (y 0).val) (h1 : (i 1).val = (y 1).val) :
    (iblk13 V c 3 t : Vec Ideal S2x512 .f32) y = (V c main_v262 : S2x512.Idx → EReal) i := by
  obtain ⟨e0, e1⟩ := idx3 t
  unfold iblk13
  rw [View.read_apply]
  show V c main_v262 _ = V c main_v262 _
  refine congrArg (V c main_v262) (funext fun a => Fin.ext ?_)
  match a with
  | ⟨0, _⟩ => show win13_3.index t (0 : Fin 2) * 2 + 1 * (y 0).val = (i 0).val; omega
  | ⟨1, _⟩ => show win13_3.index t (1 : Fin 2) * 512 + 1 * (y 1).val = (i 1).val; omega

/-- Block t of the right children's c, at an entry. -/
theorem read_cr (y : S2x512.Idx) (i : S2x512.Idx) (h0 : (i 0).val = t.val * 2 + (y 0).val) (h1 : (i 1).val = (y 1).val) :
    (iblk13 V c 4 t : Vec Ideal S2x512 .f32) y = (V c main_v264 : S2x512.Idx → EReal) i := by
  obtain ⟨e0, e1⟩ := idx4 t
  unfold iblk13
  rw [View.read_apply]
  show V c main_v264 _ = V c main_v264 _
  refine congrArg (V c main_v264) (funext fun a => Fin.ext ?_)
  match a with
  | ⟨0, _⟩ => show win13_4.index t (0 : Fin 2) * 2 + 1 * (y 0).val = (i 0).val; omega
  | ⟨1, _⟩ => show win13_4.index t (1 : Fin 2) * 512 + 1 * (y 1).val = (i 1).val; omega

/-- The one block of the input gate's weights over x is the array. -/
theorem read_wix : (iblk13 V c 5 t : Vec Ideal S512x512 .bf16) = (V c main_v2 : S512x512.Idx → EReal) := by
  obtain ⟨e0, e1⟩ := idx5 t
  funext y
  unfold iblk13
  rw [View.read_apply]
  show V c main_v2 _ = V c main_v2 y
  refine congrArg (V c main_v2) (funext fun a => Fin.ext ?_)
  match a with
  | ⟨0, _⟩ => show win13_5.index t (0 : Fin 2) * 512 + 1 * (y 0).val = (y 0).val; omega
  | ⟨1, _⟩ => show win13_5.index t (1 : Fin 2) * 512 + 1 * (y 1).val = (y 1).val; omega

/-- The one block of the input gate's weights over h is the array. -/
theorem read_wih : (iblk13 V c 6 t : Vec Ideal S512x512 .bf16) = (V c main_v5 : S512x512.Idx → EReal) := by
  obtain ⟨e0, e1⟩ := idx6 t
  funext y
  unfold iblk13
  rw [View.read_apply]
  show V c main_v5 _ = V c main_v5 y
  refine congrArg (V c main_v5) (funext fun a => Fin.ext ?_)
  match a with
  | ⟨0, _⟩ => show win13_6.index t (0 : Fin 2) * 512 + 1 * (y 0).val = (y 0).val; omega
  | ⟨1, _⟩ => show win13_6.index t (1 : Fin 2) * 512 + 1 * (y 1).val = (y 1).val; omega

/-- The one block of the forget gates' weights over x is the array. -/
theorem read_wfx : (iblk13 V c 7 t : Vec Ideal S512x512 .bf16) = (V c main_v8 : S512x512.Idx → EReal) := by
  obtain ⟨e0, e1⟩ := idx7 t
  funext y
  unfold iblk13
  rw [View.read_apply]
  show V c main_v8 _ = V c main_v8 y
  refine congrArg (V c main_v8) (funext fun a => Fin.ext ?_)
  match a with
  | ⟨0, _⟩ => show win13_7.index t (0 : Fin 2) * 512 + 1 * (y 0).val = (y 0).val; omega
  | ⟨1, _⟩ => show win13_7.index t (1 : Fin 2) * 512 + 1 * (y 1).val = (y 1).val; omega

/-- The one block of the forget gates' weights over h is the array. -/
theorem read_wfh : (iblk13 V c 8 t : Vec Ideal S512x512 .bf16) = (V c main_v11 : S512x512.Idx → EReal) := by
  obtain ⟨e0, e1⟩ := idx8 t
  funext y
  unfold iblk13
  rw [View.read_apply]
  show V c main_v11 _ = V c main_v11 y
  refine congrArg (V c main_v11) (funext fun a => Fin.ext ?_)
  match a with
  | ⟨0, _⟩ => show win13_8.index t (0 : Fin 2) * 512 + 1 * (y 0).val = (y 0).val; omega
  | ⟨1, _⟩ => show win13_8.index t (1 : Fin 2) * 512 + 1 * (y 1).val = (y 1).val; omega

/-- The one block of the output gate's weights over x is the array. -/
theorem read_wox : (iblk13 V c 9 t : Vec Ideal S512x512 .bf16) = (V c main_v14 : S512x512.Idx → EReal) := by
  obtain ⟨e0, e1⟩ := idx9 t
  funext y
  unfold iblk13
  rw [View.read_apply]
  show V c main_v14 _ = V c main_v14 y
  refine congrArg (V c main_v14) (funext fun a => Fin.ext ?_)
  match a with
  | ⟨0, _⟩ => show win13_9.index t (0 : Fin 2) * 512 + 1 * (y 0).val = (y 0).val; omega
  | ⟨1, _⟩ => show win13_9.index t (1 : Fin 2) * 512 + 1 * (y 1).val = (y 1).val; omega

/-- The one block of the output gate's weights over h is the array. -/
theorem read_woh : (iblk13 V c 10 t : Vec Ideal S512x512 .bf16) = (V c main_v17 : S512x512.Idx → EReal) := by
  obtain ⟨e0, e1⟩ := idx10 t
  funext y
  unfold iblk13
  rw [View.read_apply]
  show V c main_v17 _ = V c main_v17 y
  refine congrArg (V c main_v17) (funext fun a => Fin.ext ?_)
  match a with
  | ⟨0, _⟩ => show win13_10.index t (0 : Fin 2) * 512 + 1 * (y 0).val = (y 0).val; omega
  | ⟨1, _⟩ => show win13_10.index t (1 : Fin 2) * 512 + 1 * (y 1).val = (y 1).val; omega

/-- The one block of the update gate's weights over x is the array. -/
theorem read_wux : (iblk13 V c 11 t : Vec Ideal S512x512 .bf16) = (V c main_v20 : S512x512.Idx → EReal) := by
  obtain ⟨e0, e1⟩ := idx11 t
  funext y
  unfold iblk13
  rw [View.read_apply]
  show V c main_v20 _ = V c main_v20 y
  refine congrArg (V c main_v20) (funext fun a => Fin.ext ?_)
  match a with
  | ⟨0, _⟩ => show win13_11.index t (0 : Fin 2) * 512 + 1 * (y 0).val = (y 0).val; omega
  | ⟨1, _⟩ => show win13_11.index t (1 : Fin 2) * 512 + 1 * (y 1).val = (y 1).val; omega

/-- The one block of the update gate's weights over h is the array. -/
theorem read_wuh : (iblk13 V c 12 t : Vec Ideal S512x512 .bf16) = (V c main_v23 : S512x512.Idx → EReal) := by
  obtain ⟨e0, e1⟩ := idx12 t
  funext y
  unfold iblk13
  rw [View.read_apply]
  show V c main_v23 _ = V c main_v23 y
  refine congrArg (V c main_v23) (funext fun a => Fin.ext ?_)
  match a with
  | ⟨0, _⟩ => show win13_12.index t (0 : Fin 2) * 512 + 1 * (y 0).val = (y 0).val; omega
  | ⟨1, _⟩ => show win13_12.index t (1 : Fin 2) * 512 + 1 * (y 1).val = (y 1).val; omega

/-- The one block of the input gate's bias row is the array. -/
theorem read_bi : (iblk13 V c 13 t : Vec Ideal S1x512 .f32) = (V c main_v24 : S1x512.Idx → EReal) := by
  obtain ⟨e0, e1⟩ := idx13 t
  funext y
  unfold iblk13
  rw [View.read_apply]
  show V c main_v24 _ = V c main_v24 y
  refine congrArg (V c main_v24) (funext fun a => Fin.ext ?_)
  match a with
  | ⟨0, _⟩ => show win13_13.index t (0 : Fin 2) * 1 + 1 * (y 0).val = (y 0).val; omega
  | ⟨1, _⟩ => show win13_13.index t (1 : Fin 2) * 512 + 1 * (y 1).val = (y 1).val; omega

/-- The one block of the forget gates' bias row is the array. -/
theorem read_bf : (iblk13 V c 14 t : Vec Ideal S1x512 .f32) = (V c main_v25 : S1x512.Idx → EReal) := by
  obtain ⟨e0, e1⟩ := idx14 t
  funext y
  unfold iblk13
  rw [View.read_apply]
  show V c main_v25 _ = V c main_v25 y
  refine congrArg (V c main_v25) (funext fun a => Fin.ext ?_)
  match a with
  | ⟨0, _⟩ => show win13_14.index t (0 : Fin 2) * 1 + 1 * (y 0).val = (y 0).val; omega
  | ⟨1, _⟩ => show win13_14.index t (1 : Fin 2) * 512 + 1 * (y 1).val = (y 1).val; omega

/-- The one block of the output gate's bias row is the array. -/
theorem read_bo : (iblk13 V c 15 t : Vec Ideal S1x512 .f32) = (V c main_v26 : S1x512.Idx → EReal) := by
  obtain ⟨e0, e1⟩ := idx15 t
  funext y
  unfold iblk13
  rw [View.read_apply]
  show V c main_v26 _ = V c main_v26 y
  refine congrArg (V c main_v26) (funext fun a => Fin.ext ?_)
  match a with
  | ⟨0, _⟩ => show win13_15.index t (0 : Fin 2) * 1 + 1 * (y 0).val = (y 0).val; omega
  | ⟨1, _⟩ => show win13_15.index t (1 : Fin 2) * 512 + 1 * (y 1).val = (y 1).val; omega

/-- The one block of the update gate's bias row is the array. -/
theorem read_bu : (iblk13 V c 16 t : Vec Ideal S1x512 .f32) = (V c main_v27 : S1x512.Idx → EReal) := by
  obtain ⟨e0, e1⟩ := idx16 t
  funext y
  unfold iblk13
  rw [View.read_apply]
  show V c main_v27 _ = V c main_v27 y
  refine congrArg (V c main_v27) (funext fun a => Fin.ext ?_)
  match a with
  | ⟨0, _⟩ => show win13_16.index t (0 : Fin 2) * 1 + 1 * (y 0).val = (y 0).val; omega
  | ⟨1, _⟩ => show win13_16.index t (1 : Fin 2) * 512 + 1 * (y 1).val = (y 1).val; omega

end Reads

/-! ## The block body -/

/-- What a block body of 2 rows carries besides its arrays. -/
def ctx : Cert.Tree.BodyCtx 2 :=
  ⟨dot_S2x512_S512x512_S2x512_1_0_0_1_n_n, rfl, shapeCasts_S2x512_S2x512, shapeCasts_S512x512_S512x512,
    shapeCasts_S1x512_S1x512, broadcasts_S1x512_S2x512, bitsLt_bf16_f32⟩

section Body

variable {F : FTy → Type} [FloatOps F]

/-- The value the body stores into its h block is the tree cell's h block of the seventeen blocks it loads. -/
theorem bodyH_eq (x0 x1 x2 x3 x4 : Vec F S2x512 .f32) (x5 x6 x7 x8 x9 x10 x11 x12 : Vec F S512x512 .bf16)
    (x13 x14 x15 x16 : Vec F S1x512 .f32) :
    k13_pay2 (k13_pay6 x3) (k13_pay7 x4) (k13_pay13 (k13_pay11 x0 x1 x2 x5 x6 x13)) (k13_pay14 (k13_pay12 x0 x1 x2 x9 x10) x15)
      (k13_pay15 (k13_pay3 x0) (k13_pay8 x1 x2) x11 x12 x16) (k13_pay17 (k13_pay3 x0) (k13_pay9 x1) x7 x8 x14)
      (k13_pay18 (k13_pay3 x0) (k13_pay10 x2) x7 x8 x14)
      = Cert.Tree.payH ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S2x512 .f32) (x5 x6 x7 x8 x9 x10 x11 x12 : Vec F S512x512 .bf16)
    (x13 x14 x15 x16 : Vec F S1x512 .f32) :
    k13_pay1 (k13_pay6 x3) (k13_pay7 x4) (k13_pay13 (k13_pay11 x0 x1 x2 x5 x6 x13))
      (k13_pay15 (k13_pay3 x0) (k13_pay8 x1 x2) x11 x12 x16) (k13_pay17 (k13_pay3 x0) (k13_pay9 x1) x7 x8 x14)
      (k13_pay18 (k13_pay3 x0) (k13_pay10 x2) x7 x8 x14)
      = Cert.Tree.payC ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S2x512 .f32) (x5 x6 x7 x8 x9 x10 x11 x12 : Vec Ideal S512x512 .bf16)
    (x13 x14 x15 x16 : Vec Ideal S1x512 .f32)
    (X HL HR CL CR : S2x512.Idx → EReal) (w5 w6 w7 w8 w9 w10 w11 w12 : S512x512.Idx → EReal)
    (b13 b14 b15 b16 : S1x512.Idx → EReal) (p : Fin 2) (r : Fin 2) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k13_pay2 (k13_pay6 x3) (k13_pay7 x4) (k13_pay13 (k13_pay11 x0 x1 x2 x5 x6 x13)) (k13_pay14 (k13_pay12 x0 x1 x2 x9 x10) x15)
      (k13_pay15 (k13_pay3 x0) (k13_pay8 x1 x2) x11 x12 x16) (k13_pay17 (k13_pay3 x0) (k13_pay9 x1) x7 x8 x14)
      (k13_pay18 (k13_pay3 x0) (k13_pay10 x2) x7 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payH_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S2x512 .f32) (x5 x6 x7 x8 x9 x10 x11 x12 : Vec Ideal S512x512 .bf16)
    (x13 x14 x15 x16 : Vec Ideal S1x512 .f32)
    (X HL HR CL CR : S2x512.Idx → EReal) (w5 w6 w7 w8 w9 w10 w11 w12 : S512x512.Idx → EReal)
    (b13 b14 b15 b16 : S1x512.Idx → EReal) (p : Fin 2) (r : Fin 2) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k13_pay1 (k13_pay6 x3) (k13_pay7 x4) (k13_pay13 (k13_pay11 x0 x1 x2 x5 x6 x13))
      (k13_pay15 (k13_pay3 x0) (k13_pay8 x1 x2) x11 x12 x16) (k13_pay17 (k13_pay3 x0) (k13_pay9 x1) x7 x8 x14)
      (k13_pay18 (k13_pay3 x0) (k13_pay10 x2) x7 x8 x14)) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payC_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S2x512.Idx → EReal :=
  Cert.Tree.levelH (n := 2) (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S2x512.Idx → EReal :=
  Cert.Tree.levelC (n := 2) (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg13.N) :
    (dat13 V c).flushed 17 t = ((cfg13.win 17).blk t).view.read (Elt Ideal) (GH V c) := by
  show (cfg13.win 17).cut (grid13.coords t) ((dat13 V c).after 17 t) = _
  rw [after13_17]
  unfold out13_17
  rw [View.canon_unit_zero Cert.LibBlocks.off2_zero]
  simp only [View.ld_unit_zero (S := S2x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 2) (q : Fin 512), j = ix2 p q := ⟨j 0, j 1, eq_ix2 j⟩
  have hp : p.val < 2 := p.isLt
  have ht : t.val < cfg13.N := t.isLt
  have hN : cfg13.N * 2 = 2 := points_rows
  have hr : t.val * 2 + p.val < 2 := by omega
  obtain ⟨e0, e1⟩ := idx17 t
  refine Eq.trans (b := GH V c (ix2 (⟨t.val * 2 + p.val, hr⟩ : Fin 2) q)) ?_ ?_
  · exact bodyH_at (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) (iblk13 V c 10 t) (iblk13 V c 11 t) (iblk13 V c 12 t) (iblk13 V c 13 t) (iblk13 V c 14 t) (iblk13 V c 15 t) (iblk13 V c 16 t)
      (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27)
      p ⟨t.val * 2 + p.val, hr⟩ q
      (fun k => read_x V c t (ix2 p k) (ix2 ⟨t.val * 2 + p.val, hr⟩ k) rfl rfl)
      (fun k => read_hl V c t (ix2 p k) (ix2 ⟨t.val * 2 + p.val, hr⟩ k) rfl rfl)
      (fun k => read_hr V c t (ix2 p k) (ix2 ⟨t.val * 2 + p.val, hr⟩ k) rfl rfl)
      (read_cl V c t (ix2 p q) (ix2 ⟨t.val * 2 + p.val, hr⟩ q) rfl rfl)
      (read_cr V c t (ix2 p q) (ix2 ⟨t.val * 2 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg13.win 17).blk t).view.emb (ix2 p q))
    refine congrArg (GH V c) (funext fun a => Fin.ext ?_)
    match a with
    | ⟨0, _⟩ => show t.val * 2 + p.val = win13_17.index t (0 : Fin 2) * 2 + 1 * p.val; omega
    | ⟨1, _⟩ => show q.val = win13_17.index t (1 : Fin 2) * 512 + 1 * q.val; omega

/-- An entry of the h array is in point t's block iff each coordinate is in the block's range on its axis. -/
theorem mem_blkH (t : Fin cfg13.N) (i : S2x512.Idx) :
    i ∈ ((cfg13.win 17).blk t).view.set ↔ ∀ a : Fin 2, win13_17.index t a * S2x512.size a ≤ (i a).val
      ∧ (i a).val < win13_17.index t a * S2x512.size a + S2x512.size a := by
  show i ∈ ((View.whole main_v265_0).slice (win13_17.rect t)).set ↔ _
  rw [View.set_slice_whole, Rect.mem_set_unit]
  exact Iff.rfl

/-- The blocks tile the h array: row r is in the block of point r / 2. -/
theorem coverH (i : S2x512.Idx) :
    ∃ t : Fin cfg13.N, (cfg13.win 17).flush t = true ∧ i ∈ ((cfg13.win 17).blk t).view.set := by
  have hi0 : (i 0).val < 2 := (i 0).isLt
  have hi1 : (i 1).val < 512 := (i 1).isLt
  have hN : cfg13.N * 2 = 2 := points_rows
  obtain ⟨hq, hlo, hhi⟩ := Cert.LibBlocks.row_in_block (nb := cfg13.N) (bs := 2) (r := (i 0).val) (by omega) (by omega)
  obtain ⟨e0, e1⟩ := idx17 (⟨(i 0).val / 2, hq⟩ : Fin cfg13.N)
  refine ⟨⟨(i 0).val / 2, hq⟩, flush13_17 _, ?_⟩
  rw [mem_blkH]
  intro a
  match a with
  | ⟨0, _⟩ =>
    show win13_17.index ⟨(i 0).val / 2, hq⟩ (0 : Fin 2) * 2 ≤ (i 0).val
      ∧ (i 0).val < win13_17.index ⟨(i 0).val / 2, hq⟩ (0 : Fin 2) * 2 + 2
    rw [e0]
    exact ⟨hlo, hhi⟩
  | ⟨1, _⟩ =>
    show win13_17.index ⟨(i 0).val / 2, hq⟩ (1 : Fin 2) * 512 ≤ (i 1).val
      ∧ (i 1).val < win13_17.index ⟨(i 0).val / 2, hq⟩ (1 : Fin 2) * 512 + 512
    omega

/-- What point t writes back to the c array is block t of the level's c. -/
theorem flushedC (c : Dev nD) (t : Fin cfg13.N) :
    (dat13 V c).flushed 18 t = ((cfg13.win 18).blk t).view.read (Elt Ideal) (GC V c) := by
  show (cfg13.win 18).cut (grid13.coords t) ((dat13 V c).after 18 t) = _
  rw [after13_18]
  unfold out13_18
  rw [View.canon_unit_zero Cert.LibBlocks.off2_zero]
  simp only [View.ld_unit_zero (S := S2x512) Cert.LibBlocks.off2_zero, View.ld_unit_zero (S := S512x512) Cert.LibBlocks.off2_zero,
    View.ld_unit_zero (S := S1x512) Cert.LibBlocks.off2_zero]
  funext j
  obtain ⟨p, q, rfl⟩ : ∃ (p : Fin 2) (q : Fin 512), j = ix2 p q := ⟨j 0, j 1, eq_ix2 j⟩
  have hp : p.val < 2 := p.isLt
  have ht : t.val < cfg13.N := t.isLt
  have hN : cfg13.N * 2 = 2 := points_rows
  have hr : t.val * 2 + p.val < 2 := by omega
  obtain ⟨e0, e1⟩ := idx18 t
  refine Eq.trans (b := GC V c (ix2 (⟨t.val * 2 + p.val, hr⟩ : Fin 2) q)) ?_ ?_
  · exact bodyC_at (iblk13 V c 0 t) (iblk13 V c 1 t) (iblk13 V c 2 t) (iblk13 V c 3 t) (iblk13 V c 4 t) (iblk13 V c 5 t) (iblk13 V c 6 t) (iblk13 V c 7 t) (iblk13 V c 8 t) (iblk13 V c 9 t) (iblk13 V c 10 t) (iblk13 V c 11 t) (iblk13 V c 12 t) (iblk13 V c 13 t) (iblk13 V c 14 t) (iblk13 V c 15 t) (iblk13 V c 16 t)
      (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27)
      p ⟨t.val * 2 + p.val, hr⟩ q
      (fun k => read_x V c t (ix2 p k) (ix2 ⟨t.val * 2 + p.val, hr⟩ k) rfl rfl)
      (fun k => read_hl V c t (ix2 p k) (ix2 ⟨t.val * 2 + p.val, hr⟩ k) rfl rfl)
      (fun k => read_hr V c t (ix2 p k) (ix2 ⟨t.val * 2 + p.val, hr⟩ k) rfl rfl)
      (read_cl V c t (ix2 p q) (ix2 ⟨t.val * 2 + p.val, hr⟩ q) rfl rfl)
      (read_cr V c t (ix2 p q) (ix2 ⟨t.val * 2 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg13.win 18).blk t).view.emb (ix2 p q))
    refine congrArg (GC V c) (funext fun a => Fin.ext ?_)
    match a with
    | ⟨0, _⟩ => show t.val * 2 + p.val = win13_18.index t (0 : Fin 2) * 2 + 1 * p.val; omega
    | ⟨1, _⟩ => show q.val = win13_18.index t (1 : Fin 2) * 512 + 1 * q.val; omega

/-- An entry of the c array is in point t's block iff each coordinate is in the block's range on its axis. -/
theorem mem_blkC (t : Fin cfg13.N) (i : S2x512.Idx) :
    i ∈ ((cfg13.win 18).blk t).view.set ↔ ∀ a : Fin 2, win13_18.index t a * S2x512.size a ≤ (i a).val
      ∧ (i a).val < win13_18.index t a * S2x512.size a + S2x512.size a := by
  show i ∈ ((View.whole main_v265_1).slice (win13_18.rect t)).set ↔ _
  rw [View.set_slice_whole, Rect.mem_set_unit]
  exact Iff.rfl

/-- The blocks tile the c array: row r is in the block of point r / 2. -/
theorem coverC (i : S2x512.Idx) :
    ∃ t : Fin cfg13.N, (cfg13.win 18).flush t = true ∧ i ∈ ((cfg13.win 18).blk t).view.set := by
  have hi0 : (i 0).val < 2 := (i 0).isLt
  have hi1 : (i 1).val < 512 := (i 1).isLt
  have hN : cfg13.N * 2 = 2 := points_rows
  obtain ⟨hq, hlo, hhi⟩ := Cert.LibBlocks.row_in_block (nb := cfg13.N) (bs := 2) (r := (i 0).val) (by omega) (by omega)
  obtain ⟨e0, e1⟩ := idx18 (⟨(i 0).val / 2, hq⟩ : Fin cfg13.N)
  refine ⟨⟨(i 0).val / 2, hq⟩, flush13_18 _, ?_⟩
  rw [mem_blkC]
  intro a
  match a with
  | ⟨0, _⟩ =>
    show win13_18.index ⟨(i 0).val / 2, hq⟩ (0 : Fin 2) * 2 ≤ (i 0).val
      ∧ (i 0).val < win13_18.index ⟨(i 0).val / 2, hq⟩ (0 : Fin 2) * 2 + 2
    rw [e0]
    exact ⟨hlo, hhi⟩
  | ⟨1, _⟩ =>
    show win13_18.index ⟨(i 0).val / 2, hq⟩ (1 : Fin 2) * 512 ≤ (i 1).val
      ∧ (i 1).val < win13_18.index ⟨(i 0).val / 2, hq⟩ (1 : Fin 2) * 512 + 512
    omega

/-- After the region the h array holds the level's h of the seventeen arrays as the region finds them. -/
theorem arrH (c : Dev nD) :
    (dat13 (F := Ideal) V c).arrAt 17 cfg13.N
      = Cert.Tree.levelH (n := 2) (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27) :=
  (dat13 V c).arrAt_eq_of_cover 17 (GH V c) (fun t _ => flushedH V c t) coverH

/-- After the region the c array holds the level's c of the seventeen arrays as the region finds them. -/
theorem arrC (c : Dev nD) :
    (dat13 (F := Ideal) V c).arrAt 18 cfg13.N
      = Cert.Tree.levelC (n := 2) (V c main_v252) (V c main_v258) (V c main_v260) (V c main_v262) (V c main_v264) (V c main_v2) (V c main_v5) (V c main_v8) (V c main_v11) (V c main_v14) (V c main_v17) (V c main_v20) (V c main_v23) (V c main_v24) (V c main_v25) (V c main_v26) (V c main_v27) :=
  (dat13 V c).arrAt_eq_of_cover 18 (GC V c) (fun t _ => flushedC V c t) coverC

end Arrays

end Cert.KernelIdeal.Reg13

end
-- ==== Proof.RStep13.lean ====
/-
  The reference's level of 2 nodes (heap rows 1 … 2), read off its run's named buffers: the h and c heap
  arrays after the level are the arrays before it with the level's rows replaced by the level function of the x rows
  and of the children's rows (the even and odd rows of heap rows 3 … 6 of the arrays before).
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions. -/
def ctx13 : Cert.Tree.HostCtx 2 :=
  ⟨dot_S2x1024_S1024x512_S2x512_1_0_0_1_n_n, rfl, concatenates_S2x512_S2x512_S2x1024_d1,
    transposes_S512x1024_S1024x512_1_0, bcast_S512_S1x512_1, bcast_S1x512_S2x512_0_1, bcast_S_S2x512⟩

variable (V0 : Valuation τ sig (Elt Ideal))

/-- The level's x rows. -/
abbrev xl13 : Vec Ideal S2x512 .f32 :=
  extractStridedSlice S2x512 ![1, 0] (V0 (Proc.devRef .tc main_arg0)) slices_S32767x512_S2x512_1_0

/-- The left (even) and right (odd) children's rows of a heap array. -/
abbrev childL13 (A : Vec Ideal S32767x512 .f32) : Vec Ideal S2x512 .f32 :=
  shapeCast _ (extractStridedSlice S2x1x512 ![0, 0, 0] (shapeCast _ (extractStridedSlice S4x512 ![3, 0] A slices_S32767x512_S4x512_3_0) shapeCasts_S4x512_S2x2x512) slices_S2x2x512_S2x1x512_0_0_0) shapeCasts_S2x1x512_S2x512

abbrev childR13 (A : Vec Ideal S32767x512 .f32) : Vec Ideal S2x512 .f32 :=
  shapeCast _ (extractStridedSlice S2x1x512 ![0, 1, 0] (shapeCast _ (extractStridedSlice S4x512 ![3, 0] A slices_S32767x512_S4x512_3_0) shapeCasts_S4x512_S2x2x512) slices_S2x2x512_S2x1x512_0_1_0) shapeCasts_S2x1x512_S2x512

theorem stepC13 : res_main_v1053 V0
    = Host.scatter scatter_S32767x512_S1_S2x512_01_n_0_0 (fun _ b => b) (res_main_v975 V0) (broadcastInDim S1 ![] bcast_S_S1 (constantI S_ 32 1#32))
        (Cert.Tree.hostLevelC ctx13 (xl13 V0) (childL13 (res_main_v973 V0)) (childR13 (res_main_v973 V0)) (childL13 (res_main_v975 V0)) (childR13 (res_main_v975 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v1053 res_main_v1047 res_main_v986 res_main_v982 res_main_v984 res_main_v978 res_main_v980 res_main_v976
  rfl

theorem stepH13 : res_main_v1051 V0
    = Host.scatter scatter_S32767x512_S1_S2x512_01_n_0_0 (fun _ b => b) (res_main_v973 V0) (broadcastInDim S1 ![] bcast_S_S1 (constantI S_ 32 1#32))
        (Cert.Tree.hostLevelH ctx13 (xl13 V0) (childL13 (res_main_v973 V0)) (childR13 (res_main_v973 V0)) (childL13 (res_main_v975 V0)) (childR13 (res_main_v975 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8))) := by
  unfold res_main_v1051 res_main_v1047 res_main_v986 res_main_v982 res_main_v984 res_main_v978 res_main_v980 res_main_v976
  rfl

end Cert.ReferenceIdeal.Chain

end
-- ==== Proof.Bridge13.lean ====
/-
  The level of 2 nodes, compared across the two programs. Each program's heap arrays after the level are the arrays
  before it with the level's rows replaced by a level function of the same rows of x and of the arrays before: the
  kernel's over its split weights, the reference's over the weights as given. The two level functions agree because the
  split weights are the halves of the given ones, so heap arrays that agree before the level agree after it.
-/
import proofs.«110311_j37117107372689_1_alg».proof.Proof.BridgeBase
import proofs.«110311_j37117107372689_1_alg».proof.Proof.KStep13
import proofs.«110311_j37117107372689_1_alg».proof.Proof.KReg13
import proofs.«110311_j37117107372689_1_alg».proof.Proof.RStep13
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the level of 2 nodes, they agree after it. -/
theorem level13 (hA : Agree m V0 c)
    (hH : Cert.KernelIdeal.Gen.W27 m ρ c (Proc.devRef .tc Cert.KernelIdeal.main_v249) = Cert.ReferenceIdeal.Value.res_main_v973 V0)
    (hC : Cert.KernelIdeal.Gen.W27 m ρ c (Proc.devRef .tc Cert.KernelIdeal.main_v251) = Cert.ReferenceIdeal.Value.res_main_v975 V0) :
    Cert.KernelIdeal.Gen.W29 m ρ c (Proc.devRef .tc Cert.KernelIdeal.main_v267) = Cert.ReferenceIdeal.Value.res_main_v1051 V0
      ∧ Cert.KernelIdeal.Gen.W29 m ρ c (Proc.devRef .tc Cert.KernelIdeal.main_v269) = Cert.ReferenceIdeal.Value.res_main_v1053 V0 := by
  constructor
  · rw [Cert.KernelIdeal.Chain.stepH13 m ρ c (Cert.KernelIdeal.Reg13.arrH (Cert.KernelIdeal.Gen.V27 m ρ) c),
      Cert.ReferenceIdeal.Chain.stepH13 V0, hH, hC, Cert.Tree.hostLevelH_eq,
      ← Cert.Tree.levelH_eq _ _ _ _ _ (halves_i' ρ hA) (halves_f' ρ hA) (halves_o' ρ hA) (halves_u' ρ hA), ← hA.a0]
    rfl
  · rw [Cert.KernelIdeal.Chain.stepC13 m ρ c (Cert.KernelIdeal.Reg13.arrC (Cert.KernelIdeal.Gen.V27 m ρ) c),
      Cert.ReferenceIdeal.Chain.stepC13 V0, hH, hC, Cert.Tree.hostLevelC_eq,
      ← Cert.Tree.levelC_eq _ _ _ _ _ (halves_i' ρ hA) (halves_f' ρ hA) (halves_o' ρ hA) (halves_u' ρ hA), ← hA.a0]
    rfl

end Cert.Bridge

end
-- ==== Proof.KStep14.lean ====
/-
  One level of the tree above the leaves, read off the run: the heap arrays after the level's scatters as the level
  function of the node features, the heap arrays before it and the weights.
-/
import proofs.«110311_j37117107372689_1_alg».proof.Proof.Gen.KernelIdeal.Frame
import proofs.«110311_j37117107372689_1_alg».proof.Proof.KKeep
import proofs.«110311_j37117107372689_1_alg».proof.Proof.LibTree
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The level of region 14: what its scatters leave in the two heap arrays

The host stretch before the region cuts the level's 1 rows of node features out of the argument and, out of each
heap array (hidden states, cell states), the 2 rows of the level below, which it pairs up: row p's left child is
the pair's first member and its right child the second. The region computes the level's hidden and cell rows from
these five arrays and the twelve weight and bias buffers; the host stretch after it scatters the two results into the
heap arrays at row 0. Read through the run's boundaries, each heap array after the level is the scatter, into the
heap array before it, of the level function over the features, the two heap arrays before it and the weights as the
first host stretch left them. -/

/-! ## The two host stretches, over any contents `W` of the buffers -/

section Host
variable (W : Valuation τ sig (Elt Ideal))

/-- The stretch after the region writes the new hidden heap: the old one with the region's first output scattered in. -/
theorem scat14_h : StableHlo.after hostOps15 W (Proc.devRef .tc main_v285)
    = Host.scatter scatter_S32767x512_S1_S1x512_01_n_0_0 (fun _ b => b) (W (Proc.devRef .tc main_v267))
        (broadcastInDim S1 ![] bcast_S_S1 (constantI S_ 32 0#32)) (W (Proc.devRef .tc main_v283_0)) := by
  after_results
  rfl

/-- And the new cell heap: the old one with the region's second output scattered in. -/
theorem scat14_c : StableHlo.after hostOps15 W (Proc.devRef .tc main_v287)
    = Host.scatter scatter_S32767x512_S1_S1x512_01_n_0_0 (fun _ b => b) (W (Proc.devRef .tc main_v269))
        (broadcastInDim S1 ![] bcast_S_S1 (constantI S_ 32 0#32)) (W (Proc.devRef .tc main_v283_1)) := by
  after_results
  rfl

/-- The stretch before the region: the level's rows of node features. -/
theorem cut14_x : StableHlo.after hostOps14 W (Proc.devRef .tc main_v270)
    = extractStridedSlice S1x512 ![0, 0] (W (Proc.devRef .tc main_arg0)) slices_S32767x512_S1x512_0_0 := by
  after_results

/-- The left children's hidden rows, out of the hidden heap as this stretch itself leaves it. -/
theorem cut14_hl : StableHlo.after hostOps14 W (Proc.devRef .tc main_v276)
    = shapeCast _ (extractStridedSlice S1x1x512 ![0, 0, 0] (shapeCast _ (extractStridedSlice S2x512 ![1, 0] (StableHlo.after hostOps14 W (Proc.devRef .tc main_v267)) slices_S32767x512_S2x512_1_0) shapeCasts_S2x512_S1x2x512) slices_S1x2x512_S1x1x512_0_0_0) shapeCasts_S1x1x512_S1x512 := by
  after_results_simp
  rfl

/-- The right children's hidden rows. -/
theorem cut14_hr : StableHlo.after hostOps14 W (Proc.devRef .tc main_v278)
    = shapeCast _ (extractStridedSlice S1x1x512 ![0, 1, 0] (shapeCast _ (extractStridedSlice S2x512 ![1, 0] (StableHlo.after hostOps14 W (Proc.devRef .tc main_v267)) slices_S32767x512_S2x512_1_0) shapeCasts_S2x512_S1x2x512) slices_S1x2x512_S1x1x512_0_1_0) shapeCasts_S1x1x512_S1x512 := by
  after_results_simp
  rfl

/-- The left children's cell rows, out of the cell heap. -/
theorem cut14_cl : StableHlo.after hostOps14 W (Proc.devRef .tc main_v280)
    = shapeCast _ (extractStridedSlice S1x1x512 ![0, 0, 0] (shapeCast _ (extractStridedSlice S2x512 ![1, 0] (StableHlo.after hostOps14 W (Proc.devRef .tc main_v269)) slices_S32767x512_S2x512_1_0) shapeCasts_S2x512_S1x2x512) slices_S1x2x512_S1x1x512_0_0_0) shapeCasts_S1x1x512_S1x512 := by
  after_results_simp
  rfl

/-- The right children's cell rows. -/
theorem cut14_cr : StableHlo.after hostOps14 W (Proc.devRef .tc main_v282)
    = shapeCast _ (extractStridedSlice S1x1x512 ![0, 1, 0] (shapeCast _ (extractStridedSlice S2x512 ![1, 0] (StableHlo.after hostOps14 W (Proc.devRef .tc main_v269)) slices_S32767x512_S2x512_1_0) shapeCasts_S2x512_S1x2x512) slices_S1x2x512_S1x1x512_0_1_0) shapeCasts_S1x1x512_S1x512 := by
  after_results_simp
  rfl

end Host

/-! ## The region's five level arrays at its entry, in the run -/

theorem in14_x (c : Dev nD) : Gen.W29 m ρ c (Proc.devRef .tc main_v270)
    = extractStridedSlice S1x512 ![0, 0] (m ((c : Thread nD τ).loc main_arg0)) slices_S32767x512_S1x512_0_0 :=
  (cut14_x (Gen.W28 m ρ c)).trans (by rw [arg0_14 m ρ c])

theorem in14_hl (c : Dev nD) : Gen.W29 m ρ c (Proc.devRef .tc main_v276)
    = shapeCast _ (extractStridedSlice S1x1x512 ![0, 0, 0] (shapeCast _ (extractStridedSlice S2x512 ![1, 0] (Gen.W29 m ρ c (Proc.devRef .tc main_v267)) slices_S32767x512_S2x512_1_0) shapeCasts_S2x512_S1x2x512) slices_S1x2x512_S1x1x512_0_0_0) shapeCasts_S1x1x512_S1x512 :=
  cut14_hl (Gen.W28 m ρ c)

theorem in14_hr (c : Dev nD) : Gen.W29 m ρ c (Proc.devRef .tc main_v278)
    = shapeCast _ (extractStridedSlice S1x1x512 ![0, 1, 0] (shapeCast _ (extractStridedSlice S2x512 ![1, 0] (Gen.W29 m ρ c (Proc.devRef .tc main_v267)) slices_S32767x512_S2x512_1_0) shapeCasts_S2x512_S1x2x512) slices_S1x2x512_S1x1x512_0_1_0) shapeCasts_S1x1x512_S1x512 :=
  cut14_hr (Gen.W28 m ρ c)

theorem in14_cl (c : Dev nD) : Gen.W29 m ρ c (Proc.devRef .tc main_v280)
    = shapeCast _ (extractStridedSlice S1x1x512 ![0, 0, 0] (shapeCast _ (extractStridedSlice S2x512 ![1, 0] (Gen.W29 m ρ c (Proc.devRef .tc main_v269)) slices_S32767x512_S2x512_1_0) shapeCasts_S2x512_S1x2x512) slices_S1x2x512_S1x1x512_0_0_0) shapeCasts_S1x1x512_S1x512 :=
  cut14_cl (Gen.W28 m ρ c)

theorem in14_cr (c : Dev nD) : Gen.W29 m ρ c (Proc.devRef .tc main_v282)
    = shapeCast _ (extractStridedSlice S1x1x512 ![0, 1, 0] (shapeCast _ (extractStridedSlice S2x512 ![1, 0] (Gen.W29 m ρ c (Proc.devRef .tc main_v269)) slices_S32767x512_S2x512_1_0) shapeCasts_S2x512_S1x2x512) slices_S1x2x512_S1x1x512_0_1_0) shapeCasts_S1x1x512_S1x512 :=
  cut14_cr (Gen.W28 m ρ c)

/-! ## The region's two outputs at its exit are its proof data's arrays after the last grid point -/

theorem out14_h (c : Dev nD) : Gen.W30 m ρ c (Proc.devRef .tc main_v283_0) = (Gen.dat14 (Gen.V29 m ρ) c).arrAt 17 cfg14.N :=
  Gen.W30_arr m ρ c 17

theorem out14_c (c : Dev nD) : Gen.W30 m ρ c (Proc.devRef .tc main_v283_1) = (Gen.dat14 (Gen.V29 m ρ) c).arrAt 18 cfg14.N :=
  Gen.W30_arr m ρ c 18

/-! ## The level -/

/-- The hidden heap after the level, given that the region's first output is the level function of its entry arrays. -/
theorem stepH14 (c : Dev nD)
    (hH : (Gen.dat14 (F := Ideal) (Gen.V29 m ρ) c).arrAt 17 cfg14.N
      = Cert.Tree.levelH (n := 1) (Gen.V29 m ρ c main_v270) (Gen.V29 m ρ c main_v276) (Gen.V29 m ρ c main_v278)
          (Gen.V29 m ρ c main_v280) (Gen.V29 m ρ c main_v282)
          (Gen.V29 m ρ c main_v2) (Gen.V29 m ρ c main_v5) (Gen.V29 m ρ c main_v8) (Gen.V29 m ρ c main_v11)
          (Gen.V29 m ρ c main_v14) (Gen.V29 m ρ c main_v17) (Gen.V29 m ρ c main_v20) (Gen.V29 m ρ c main_v23)
          (Gen.V29 m ρ c main_v24) (Gen.V29 m ρ c main_v25) (Gen.V29 m ρ c main_v26) (Gen.V29 m ρ c main_v27)) :
    Gen.W31 m ρ c (Proc.devRef .tc main_v285)
      = Host.scatter scatter_S32767x512_S1_S1x512_01_n_0_0 (fun _ b => b) (Gen.W29 m ρ c (Proc.devRef .tc main_v267))
          (broadcastInDim S1 ![] bcast_S_S1 (constantI S_ 32 0#32))
          (Cert.Tree.levelH (n := 1)
            (extractStridedSlice S1x512 ![0, 0] (m ((c : Thread nD τ).loc main_arg0)) slices_S32767x512_S1x512_0_0)
            (shapeCast _ (extractStridedSlice S1x1x512 ![0, 0, 0] (shapeCast _ (extractStridedSlice S2x512 ![1, 0] (Gen.W29 m ρ c (Proc.devRef .tc main_v267)) slices_S32767x512_S2x512_1_0) shapeCasts_S2x512_S1x2x512) slices_S1x2x512_S1x1x512_0_0_0) shapeCasts_S1x1x512_S1x512)
            (shapeCast _ (extractStridedSlice S1x1x512 ![0, 1, 0] (shapeCast _ (extractStridedSlice S2x512 ![1, 0] (Gen.W29 m ρ c (Proc.devRef .tc main_v267)) slices_S32767x512_S2x512_1_0) shapeCasts_S2x512_S1x2x512) slices_S1x2x512_S1x1x512_0_1_0) shapeCasts_S1x1x512_S1x512)
            (shapeCast _ (extractStridedSlice S1x1x512 ![0, 0, 0] (shapeCast _ (extractStridedSlice S2x512 ![1, 0] (Gen.W29 m ρ c (Proc.devRef .tc main_v269)) slices_S32767x512_S2x512_1_0) shapeCasts_S2x512_S1x2x512) slices_S1x2x512_S1x1x512_0_0_0) shapeCasts_S1x1x512_S1x512)
            (shapeCast _ (extractStridedSlice S1x1x512 ![0, 1, 0] (shapeCast _ (extractStridedSlice S2x512 ![1, 0] (Gen.W29 m ρ c (Proc.devRef .tc main_v269)) slices_S32767x512_S2x512_1_0) shapeCasts_S2x512_S1x2x512) slices_S1x2x512_S1x1x512_0_1_0) shapeCasts_S1x1x512_S1x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hH' : (Gen.dat14 (F := Ideal) (Gen.V29 m ρ) c).arrAt 17 cfg14.N
      = Cert.Tree.levelH (n := 1) (Gen.W29 m ρ c (Proc.devRef .tc main_v270)) (Gen.W29 m ρ c (Proc.devRef .tc main_v276))
          (Gen.W29 m ρ c (Proc.devRef .tc main_v278)) (Gen.W29 m ρ c (Proc.devRef .tc main_v280))
          (Gen.W29 m ρ c (Proc.devRef .tc main_v282))
          (Gen.W29 m ρ c (Proc.devRef .tc main_v2)) (Gen.W29 m ρ c (Proc.devRef .tc main_v5))
          (Gen.W29 m ρ c (Proc.devRef .tc main_v8)) (Gen.W29 m ρ c (Proc.devRef .tc main_v11))
          (Gen.W29 m ρ c (Proc.devRef .tc main_v14)) (Gen.W29 m ρ c (Proc.devRef .tc main_v17))
          (Gen.W29 m ρ c (Proc.devRef .tc main_v20)) (Gen.W29 m ρ c (Proc.devRef .tc main_v23))
          (Gen.W29 m ρ c (Proc.devRef .tc main_v24)) (Gen.W29 m ρ c (Proc.devRef .tc main_v25))
          (Gen.W29 m ρ c (Proc.devRef .tc main_v26)) (Gen.W29 m ρ c (Proc.devRef .tc main_v27)) := hH
  rw [in14_x m ρ c, in14_hl m ρ c, in14_hr m ρ c, in14_cl m ρ c, in14_cr m ρ c,
    keep14_main_v2 m ρ c, keep14_main_v5 m ρ c, keep14_main_v8 m ρ c, keep14_main_v11 m ρ c, keep14_main_v14 m ρ c,
    keep14_main_v17 m ρ c, keep14_main_v20 m ρ c, keep14_main_v23 m ρ c, keep14_main_v24 m ρ c, keep14_main_v25 m ρ c,
    keep14_main_v26 m ρ c, keep14_main_v27 m ρ c] at hH'
  refine (scat14_h (Gen.W30 m ρ c)).trans ?_
  rw [Gen.W30_of_ne m ρ c main_v267 (by decide), out14_h m ρ c, hH']

/-- The cell heap after the level, given that the region's second output is the level's cell function of its entry arrays. -/
theorem stepC14 (c : Dev nD)
    (hC : (Gen.dat14 (F := Ideal) (Gen.V29 m ρ) c).arrAt 18 cfg14.N
      = Cert.Tree.levelC (n := 1) (Gen.V29 m ρ c main_v270) (Gen.V29 m ρ c main_v276) (Gen.V29 m ρ c main_v278)
          (Gen.V29 m ρ c main_v280) (Gen.V29 m ρ c main_v282)
          (Gen.V29 m ρ c main_v2) (Gen.V29 m ρ c main_v5) (Gen.V29 m ρ c main_v8) (Gen.V29 m ρ c main_v11)
          (Gen.V29 m ρ c main_v14) (Gen.V29 m ρ c main_v17) (Gen.V29 m ρ c main_v20) (Gen.V29 m ρ c main_v23)
          (Gen.V29 m ρ c main_v24) (Gen.V29 m ρ c main_v25) (Gen.V29 m ρ c main_v26) (Gen.V29 m ρ c main_v27)) :
    Gen.W31 m ρ c (Proc.devRef .tc main_v287)
      = Host.scatter scatter_S32767x512_S1_S1x512_01_n_0_0 (fun _ b => b) (Gen.W29 m ρ c (Proc.devRef .tc main_v269))
          (broadcastInDim S1 ![] bcast_S_S1 (constantI S_ 32 0#32))
          (Cert.Tree.levelC (n := 1)
            (extractStridedSlice S1x512 ![0, 0] (m ((c : Thread nD τ).loc main_arg0)) slices_S32767x512_S1x512_0_0)
            (shapeCast _ (extractStridedSlice S1x1x512 ![0, 0, 0] (shapeCast _ (extractStridedSlice S2x512 ![1, 0] (Gen.W29 m ρ c (Proc.devRef .tc main_v267)) slices_S32767x512_S2x512_1_0) shapeCasts_S2x512_S1x2x512) slices_S1x2x512_S1x1x512_0_0_0) shapeCasts_S1x1x512_S1x512)
            (shapeCast _ (extractStridedSlice S1x1x512 ![0, 1, 0] (shapeCast _ (extractStridedSlice S2x512 ![1, 0] (Gen.W29 m ρ c (Proc.devRef .tc main_v267)) slices_S32767x512_S2x512_1_0) shapeCasts_S2x512_S1x2x512) slices_S1x2x512_S1x1x512_0_1_0) shapeCasts_S1x1x512_S1x512)
            (shapeCast _ (extractStridedSlice S1x1x512 ![0, 0, 0] (shapeCast _ (extractStridedSlice S2x512 ![1, 0] (Gen.W29 m ρ c (Proc.devRef .tc main_v269)) slices_S32767x512_S2x512_1_0) shapeCasts_S2x512_S1x2x512) slices_S1x2x512_S1x1x512_0_0_0) shapeCasts_S1x1x512_S1x512)
            (shapeCast _ (extractStridedSlice S1x1x512 ![0, 1, 0] (shapeCast _ (extractStridedSlice S2x512 ![1, 0] (Gen.W29 m ρ c (Proc.devRef .tc main_v269)) slices_S32767x512_S2x512_1_0) shapeCasts_S2x512_S1x2x512) slices_S1x2x512_S1x1x512_0_1_0) shapeCasts_S1x1x512_S1x512)
            (Gen.W1 m ρ c (Proc.devRef .tc main_v2)) (Gen.W1 m ρ c (Proc.devRef .tc main_v5))
            (Gen.W1 m ρ c (Proc.devRef .tc main_v8)) (Gen.W1 m ρ c (Proc.devRef .tc main_v11))
            (Gen.W1 m ρ c (Proc.devRef .tc main_v14)) (Gen.W1 m ρ c (Proc.devRef .tc main_v17))
            (Gen.W1 m ρ c (Proc.devRef .tc main_v20)) (Gen.W1 m ρ c (Proc.devRef .tc main_v23))
            (Gen.W1 m ρ c (Proc.devRef .tc main_v24)) (Gen.W1 m ρ c (Proc.devRef .tc main_v25))
            (Gen.W1 m ρ c (Proc.devRef .tc main_v26)) (Gen.W1 m ρ c (Proc.devRef .tc main_v27))) := by
  have hC' : (Gen.dat14 (F := Ideal) (Gen.V29 m ρ) c).arrAt 18 cfg14.N
      = Cert.Tree.levelC (n := 1) (Gen.W29 m ρ c (Proc.devRef .tc main_v270)) (Gen.W29 m ρ c (Proc.devRef .tc main_v276))
          (Gen.W29 m ρ c (Proc.devRef .tc main_v278)) (Gen.W29 m ρ c (Proc.devRef .tc main_v280))
          (Gen.W29 m ρ c (Proc.devRef .tc main_v282))
          (Gen.W29 m ρ c (Proc.devRef .tc main_v2)) (Gen.W29 m ρ c (Proc.devRef .tc main_v5))
          (Gen.W29 m ρ c (Proc.devRef .tc main_v8)) (Gen.W29 m ρ c (Proc.devRef .tc main_v11))
          (Gen.W29 m ρ c (Proc.devRef .tc main_v14)) (Gen.W29 m ρ c (Proc.devRef .tc main_v17))
          (Gen.W29 m ρ c (Proc.devRef .tc main_v20)) (Gen.W29 m ρ c (Proc.devRef .tc main_v23))
          (Gen.W29 m ρ c (Proc.devRef .tc main_v24)) (Gen.W29 m ρ c (Proc.devRef .tc main_v25))
          (Gen.W29 m ρ c (Proc.devRef .tc main_v26)) (Gen.W29 m ρ c (Proc.devRef .tc main_v27)) := hC
  rw [in14_x m ρ c, in14_hl m ρ c, in14_hr m ρ c, in14_cl m ρ c, in14_cr m ρ c,
    keep14_main_v2 m ρ c, keep14_main_v5 m ρ c, keep14_main_v8 m ρ c, keep14_main_v11 m ρ c, keep14_main_v14 m ρ c,
    keep14_main_v17 m ρ c, keep14_main_v20 m ρ c, keep14_main_v23 m ρ c, keep14_main_v24 m ρ c, keep14_main_v25 m ρ c,
    keep14_main_v26 m ρ c, keep14_main_v27 m ρ c] at hC'
  refine (scat14_c (Gen.W30 m ρ c)).trans ?_
  rw [Gen.W30_of_ne m ρ c main_v269 (by decide), out14_c m ρ c, hC']

end Cert.KernelIdeal.Chain

end
-- ==== Proof.KEnd.lean ====
/-
  The run's two results read off its last boundary: each is row 0 of a heap array after the root level's scatter.
-/
import proofs.«110311_j37117107372689_1_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! # The two results: the root's row of each heap array, as a vector

The last host stretch scatters the root level into the heap arrays and then reads row 0 of each back as a vector of 512
entries. -/

section Host
variable (W : Valuation τ sig (Elt Ideal))

theorem host15_v289 : StableHlo.after hostOps15 W (Proc.devRef .tc main_v289)
    = shapeCast _ (extractStridedSlice S1x512 ![0, 0] (StableHlo.after hostOps15 W (Proc.devRef .tc main_v285)) slices_S32767x512_S1x512_0_0) shapeCasts_S1x512_S512 := by
  after_results
  rfl

theorem host15_v291 : StableHlo.after hostOps15 W (Proc.devRef .tc main_v291)
    = shapeCast _ (extractStridedSlice S1x512 ![0, 0] (StableHlo.after hostOps15 W (Proc.devRef .tc main_v287)) slices_S32767x512_S1x512_0_0) shapeCasts_S1x512_S512 := by
  after_results
  rfl

end Host

/-- The hidden result is row 0 of the hidden heap at the run's end. -/
theorem end_h (c : Dev nD) : Gen.W31 m ρ c (Proc.devRef .tc main_v289)
    = shapeCast _ (extractStridedSlice S1x512 ![0, 0] (Gen.W31 m ρ c (Proc.devRef .tc main_v285)) slices_S32767x512_S1x512_0_0) shapeCasts_S1x512_S512 :=
  host15_v289 (Gen.W30 m ρ c)

/-- The cell result is row 0 of the cell heap at the run's end. -/
theorem end_c (c : Dev nD) : Gen.W31 m ρ c (Proc.devRef .tc main_v291)
    = shapeCast _ (extractStridedSlice S1x512 ![0, 0] (Gen.W31 m ρ c (Proc.devRef .tc main_v287)) slices_S32767x512_S1x512_0_0) shapeCasts_S1x512_S512 :=
  host15_v291 (Gen.W30 m ρ c)

end Cert.KernelIdeal.Chain

end
-- ==== Proof.KReg14.lean ====
/-
  The top level of the tree on the kernel's side: the root alone, a level of 1 node worked as one block of 1 row at
  the grid's one point. What the level's two output arrays hold after the region, whatever the arrays hold when it is
  entered.

  The point reads the one row of the five row arrays — x and the children's h and c —, the whole of the eight weight
  halves and of the four bias rows, and writes the one row of h and of c. A block of one row has the bias rows' own
  shape, so this body adds each bias row as it is, with no broadcast down the rows; otherwise it is the tree cell over
  the block's own arrays. So the h array ends at the level's h of the seventeen arrays as the region finds them, and
  the c array at the level's c.
-/
import proofs.«110311_j37117107372689_1_alg».proof.Proof.Gen.KernelIdeal.Frame
import proofs.«110311_j37117107372689_1_alg».proof.Proof.LibCell
import Idealize.ShloMosaic.Lib.Pipeline.Value

set_option maxRecDepth 16384

noncomputable section

namespace Cert.KernelIdeal.Reg14

open Cert.KernelIdeal Cert.KernelIdeal.Gen Idealize.ShloMosaic Idealize.ShloMosaic.TcCoe Idealize.ShloMosaic.ValueIdx
open Idealize.ShloMosaic.Pipeline (Dat)

/-! ## The grid and the index maps -/

/-- The grid has one point, and its block one row: the level's one row. -/
theorem points_rows : cfg14.N * 1 = 1 := by decide

/-! The printed index maps, decided over the grid: a row array's block at point t is block (t, 0); a weight half or a
    bias row is one block, (0, 0). -/

theorem idx0 : ∀ t : Fin cfg14.N, win14_0.index t (0 : Fin 2) = t.val ∧ win14_0.index t (1 : Fin 2) = 0 :=
  (by decide +kernel : ∀ t : Fin grid14.N, _)
theorem idx1 : ∀ t : Fin cfg14.N, win14_1.index t (0 : Fin 2) = t.val ∧ win14_1.index t (1 : Fin 2) = 0 :=
  (by decide +kernel : ∀ t : Fin grid14.N, _)
theorem idx2 : ∀ t : Fin cfg14.N, win14_2.index t (0 : Fin 2) = t.val ∧ win14_2.index t (1 : Fin 2) = 0 :=
  (by decide +kernel : ∀ t : Fin grid14.N, _)
theorem idx3 : ∀ t : Fin cfg14.N, win14_3.index t (0 : Fin 2) = t.val ∧ win14_3.index t (1 : Fin 2) = 0 :=
  (by decide +kernel : ∀ t : Fin grid14.N, _)
theorem idx4 : ∀ t : Fin cfg14.N, win14_4.index t (0 : Fin 2) = t.val ∧ win14_4.index t (1 : Fin 2) = 0 :=
  (by decide +kernel : ∀ t : Fin grid14.N, _)
theorem idx17 : ∀ t : Fin cfg14.N, win14_17.index t (0 : Fin 2) = t.val ∧ win14_17.index t (1 : Fin 2) = 0 :=
  (by decide +kernel : ∀ t : Fin grid14.N, _)
theorem idx18 : ∀ t : Fin cfg14.N, win14_18.index t (0 : Fin 2) = t.val ∧ win14_18.index t (1 : Fin 2) = 0 :=
  (by decide +kernel : ∀ t : Fin grid14.N, _)
theorem idx5 : ∀ t : Fin cfg14.N, win14_5.index t (0 : Fin 2) = 0 ∧ win14_5.index t (1 : Fin 2) = 0 :=
  (by decide +kernel : ∀ t : Fin grid14.N, _)
theorem idx6 : ∀ t : Fin cfg14.N, win14_6.index t (0 : Fin 2) = 0 ∧ win14_6.index t (1 : Fin 2) = 0 :=
  (by decide +kernel : ∀ t : Fin grid14.N, _)
theorem idx7 : ∀ t : Fin cfg14.N, win14_7.index t (0 : Fin 2) = 0 ∧ win14_7.index t (1 : Fin 2) = 0 :=
  (by decide +kernel : ∀ t : Fin grid14.N, _)
theorem idx8 : ∀ t : Fin cfg14.N, win14_8.index t (0 : Fin 2) = 0 ∧ win14_8.index t (1 : Fin 2) = 0 :=
  (by decide +kernel : ∀ t : Fin grid14.N, _)
theorem idx9 : ∀ t : Fin cfg14.N, win14_9.index t (0 : Fin 2) = 0 ∧ win14_9.index t (1 : Fin 2) = 0 :=
  (by decide +kernel : ∀ t : Fin grid14.N, _)
theorem idx10 : ∀ t : Fin cfg14.N, win14_10.index t (0 : Fin 2) = 0 ∧ win14_10.index t (1 : Fin 2) = 0 :=
  (by decide +kernel : ∀ t : Fin grid14.N, _)
theorem idx11 : ∀ t : Fin cfg14.N, win14_11.index t (0 : Fin 2) = 0 ∧ win14_11.index t (1 : Fin 2) = 0 :=
  (by decide +kernel : ∀ t : Fin grid14.N, _)
theorem idx12 : ∀ t : Fin cfg14.N, win14_12.index t (0 : Fin 2) = 0 ∧ win14_12.index t (1 : Fin 2) = 0 :=
  (by decide +kernel : ∀ t : Fin grid14.N, _)
theorem idx13 : ∀ t : Fin cfg14.N, win14_13.index t (0 : Fin 2) = 0 ∧ win14_13.index t (1 : Fin 2) = 0 :=
  (by decide +kernel : ∀ t : Fin grid14.N, _)
theorem idx14 : ∀ t : Fin cfg14.N, win14_14.index t (0 : Fin 2) = 0 ∧ win14_14.index t (1 : Fin 2) = 0 :=
  (by decide +kernel : ∀ t : Fin grid14.N, _)
theorem idx15 : ∀ t : Fin cfg14.N, win14_15.index t (0 : Fin 2) = 0 ∧ win14_15.index t (1 : Fin 2) = 0 :=
  (by decide +kernel : ∀ t : Fin grid14.N, _)
theorem idx16 : ∀ t : Fin cfg14.N, win14_16.index t (0 : Fin 2) = 0 ∧ win14_16.index t (1 : Fin 2) = 0 :=
  (by decide +kernel : ∀ t : Fin grid14.N, _)

/-! ## The blocks the body reads

A block's entry sits in its array, on each axis, at the block index times the block's extent plus the entry's own
coordinate. So entry (p, k) of block t of a row array is the array's entry (t + p, k) — here t = p = 0 —, and the one
block of a weight half or of a bias row is the array itself. -/

section Reads

variable (V : (c : Dev nD) → (b : Ref sig .tc) → Buf (Elt Ideal) ((c : Thread nD τ).loc b))
variable (c : Dev nD) (t : Fin cfg14.N)

/-- Block t of x, at an entry. -/
theorem read_x (y : S1x512.Idx) (i : S1x512.Idx) (h0 : (i 0).val = t.val * 1 + (y 0).val) (h1 : (i 1).val = (y 1).val) :
    (iblk14 V c 0 t : Vec Ideal S1x512 .f32) y = (V c main_v270 : S1x512.Idx → EReal) i := by
  obtain ⟨e0, e1⟩ := idx0 t
  unfold iblk14
  rw [View.read_apply]
  show V c main_v270 _ = V c main_v270 _
  refine congrArg (V c main_v270) (funext fun a => Fin.ext ?_)
  match a with
  | ⟨0, _⟩ => show win14_0.index t (0 : Fin 2) * 1 + 1 * (y 0).val = (i 0).val; omega
  | ⟨1, _⟩ => show win14_0.index t (1 : Fin 2) * 512 + 1 * (y 1).val = (i 1).val; omega

/-- Block t of the left children's h, at an entry. -/
theorem read_hl (y : S1x512.Idx) (i : S1x512.Idx) (h0 : (i 0).val = t.val * 1 + (y 0).val) (h1 : (i 1).val = (y 1).val) :
    (iblk14 V c 1 t : Vec Ideal S1x512 .f32) y = (V c main_v276 : S1x512.Idx → EReal) i := by
  obtain ⟨e0, e1⟩ := idx1 t
  unfold iblk14
  rw [View.read_apply]
  show V c main_v276 _ = V c main_v276 _
  refine congrArg (V c main_v276) (funext fun a => Fin.ext ?_)
  match a with
  | ⟨0, _⟩ => show win14_1.index t (0 : Fin 2) * 1 + 1 * (y 0).val = (i 0).val; omega
  | ⟨1, _⟩ => show win14_1.index t (1 : Fin 2) * 512 + 1 * (y 1).val = (i 1).val; omega

/-- Block t of the right children's h, at an entry. -/
theorem read_hr (y : S1x512.Idx) (i : S1x512.Idx) (h0 : (i 0).val = t.val * 1 + (y 0).val) (h1 : (i 1).val = (y 1).val) :
    (iblk14 V c 2 t : Vec Ideal S1x512 .f32) y = (V c main_v278 : S1x512.Idx → EReal) i := by
  obtain ⟨e0, e1⟩ := idx2 t
  unfold iblk14
  rw [View.read_apply]
  show V c main_v278 _ = V c main_v278 _
  refine congrArg (V c main_v278) (funext fun a => Fin.ext ?_)
  match a with
  | ⟨0, _⟩ => show win14_2.index t (0 : Fin 2) * 1 + 1 * (y 0).val = (i 0).val; omega
  | ⟨1, _⟩ => show win14_2.index t (1 : Fin 2) * 512 + 1 * (y 1).val = (i 1).val; omega

/-- Block t of the left children's c, at an entry. -/
theorem read_cl (y : S1x512.Idx) (i : S1x512.Idx) (h0 : (i 0).val = t.val * 1 + (y 0).val) (h1 : (i 1).val = (y 1).val) :
    (iblk14 V c 3 t : Vec Ideal S1x512 .f32) y = (V c main_v280 : S1x512.Idx → EReal) i := by
  obtain ⟨e0, e1⟩ := idx3 t
  unfold iblk14
  rw [View.read_apply]
  show V c main_v280 _ = V c main_v280 _
  refine congrArg (V c main_v280) (funext fun a => Fin.ext ?_)
  match a with
  | ⟨0, _⟩ => show win14_3.index t (0 : Fin 2) * 1 + 1 * (y 0).val = (i 0).val; omega
  | ⟨1, _⟩ => show win14_3.index t (1 : Fin 2) * 512 + 1 * (y 1).val = (i 1).val; omega

/-- Block t of the right children's c, at an entry. -/
theorem read_cr (y : S1x512.Idx) (i : S1x512.Idx) (h0 : (i 0).val = t.val * 1 + (y 0).val) (h1 : (i 1).val = (y 1).val) :
    (iblk14 V c 4 t : Vec Ideal S1x512 .f32) y = (V c main_v282 : S1x512.Idx → EReal) i := by
  obtain ⟨e0, e1⟩ := idx4 t
  unfold iblk14
  rw [View.read_apply]
  show V c main_v282 _ = V c main_v282 _
  refine congrArg (V c main_v282) (funext fun a => Fin.ext ?_)
  match a with
  | ⟨0, _⟩ => show win14_4.index t (0 : Fin 2) * 1 + 1 * (y 0).val = (i 0).val; omega
  | ⟨1, _⟩ => show win14_4.index t (1 : Fin 2) * 512 + 1 * (y 1).val = (i 1).val; omega

/-- The one block of the input gate's weights over x is the array. -/
theorem read_wix : (iblk14 V c 5 t : Vec Ideal S512x512 .bf16) = (V c main_v2 : S512x512.Idx → EReal) := by
  obtain ⟨e0, e1⟩ := idx5 t
  funext y
  unfold iblk14
  rw [View.read_apply]
  show V c main_v2 _ = V c main_v2 y
  refine congrArg (V c main_v2) (funext fun a => Fin.ext ?_)
  match a with
  | ⟨0, _⟩ => show win14_5.index t (0 : Fin 2) * 512 + 1 * (y 0).val = (y 0).val; omega
  | ⟨1, _⟩ => show win14_5.index t (1 : Fin 2) * 512 + 1 * (y 1).val = (y 1).val; omega

/-- The one block of the input gate's weights over h is the array. -/
theorem read_wih : (iblk14 V c 6 t : Vec Ideal S512x512 .bf16) = (V c main_v5 : S512x512.Idx → EReal) := by
  obtain ⟨e0, e1⟩ := idx6 t
  funext y
  unfold iblk14
  rw [View.read_apply]
  show V c main_v5 _ = V c main_v5 y
  refine congrArg (V c main_v5) (funext fun a => Fin.ext ?_)
  match a with
  | ⟨0, _⟩ => show win14_6.index t (0 : Fin 2) * 512 + 1 * (y 0).val = (y 0).val; omega
  | ⟨1, _⟩ => show win14_6.index t (1 : Fin 2) * 512 + 1 * (y 1).val = (y 1).val; omega

/-- The one block of the forget gates' weights over x is the array. -/
theorem read_wfx : (iblk14 V c 7 t : Vec Ideal S512x512 .bf16) = (V c main_v8 : S512x512.Idx → EReal) := by
  obtain ⟨e0, e1⟩ := idx7 t
  funext y
  unfold iblk14
  rw [View.read_apply]
  show V c main_v8 _ = V c main_v8 y
  refine congrArg (V c main_v8) (funext fun a => Fin.ext ?_)
  match a with
  | ⟨0, _⟩ => show win14_7.index t (0 : Fin 2) * 512 + 1 * (y 0).val = (y 0).val; omega
  | ⟨1, _⟩ => show win14_7.index t (1 : Fin 2) * 512 + 1 * (y 1).val = (y 1).val; omega

/-- The one block of the forget gates' weights over h is the array. -/
theorem read_wfh : (iblk14 V c 8 t : Vec Ideal S512x512 .bf16) = (V c main_v11 : S512x512.Idx → EReal) := by
  obtain ⟨e0, e1⟩ := idx8 t
  funext y
  unfold iblk14
  rw [View.read_apply]
  show V c main_v11 _ = V c main_v11 y
  refine congrArg (V c main_v11) (funext fun a => Fin.ext ?_)
  match a with
  | ⟨0, _⟩ => show win14_8.index t (0 : Fin 2) * 512 + 1 * (y 0).val = (y 0).val; omega
  | ⟨1, _⟩ => show win14_8.index t (1 : Fin 2) * 512 + 1 * (y 1).val = (y 1).val; omega

/-- The one block of the output gate's weights over x is the array. -/
theorem read_wox : (iblk14 V c 9 t : Vec Ideal S512x512 .bf16) = (V c main_v14 : S512x512.Idx → EReal) := by
  obtain ⟨e0, e1⟩ := idx9 t
  funext y
  unfold iblk14
  rw [View.read_apply]
  show V c main_v14 _ = V c main_v14 y
  refine congrArg (V c main_v14) (funext fun a => Fin.ext ?_)
  match a with
  | ⟨0, _⟩ => show win14_9.index t (0 : Fin 2) * 512 + 1 * (y 0).val = (y 0).val; omega
  | ⟨1, _⟩ => show win14_9.index t (1 : Fin 2) * 512 + 1 * (y 1).val = (y 1).val; omega

/-- The one block of the output gate's weights over h is the array. -/
theorem read_woh : (iblk14 V c 10 t : Vec Ideal S512x512 .bf16) = (V c main_v17 : S512x512.Idx → EReal) := by
  obtain ⟨e0, e1⟩ := idx10 t
  funext y
  unfold iblk14
  rw [View.read_apply]
  show V c main_v17 _ = V c main_v17 y
  refine congrArg (V c main_v17) (funext fun a => Fin.ext ?_)
  match a with
  | ⟨0, _⟩ => show win14_10.index t (0 : Fin 2) * 512 + 1 * (y 0).val = (y 0).val; omega
  | ⟨1, _⟩ => show win14_10.index t (1 : Fin 2) * 512 + 1 * (y 1).val = (y 1).val; omega

/-- The one block of the update gate's weights over x is the array. -/
theorem read_wux : (iblk14 V c 11 t : Vec Ideal S512x512 .bf16) = (V c main_v20 : S512x512.Idx → EReal) := by
  obtain ⟨e0, e1⟩ := idx11 t
  funext y
  unfold iblk14
  rw [View.read_apply]
  show V c main_v20 _ = V c main_v20 y
  refine congrArg (V c main_v20) (funext fun a => Fin.ext ?_)
  match a with
  | ⟨0, _⟩ => show win14_11.index t (0 : Fin 2) * 512 + 1 * (y 0).val = (y 0).val; omega
  | ⟨1, _⟩ => show win14_11.index t (1 : Fin 2) * 512 + 1 * (y 1).val = (y 1).val; omega

/-- The one block of the update gate's weights over h is the array. -/
theorem read_wuh : (iblk14 V c 12 t : Vec Ideal S512x512 .bf16) = (V c main_v23 : S512x512.Idx → EReal) := by
  obtain ⟨e0, e1⟩ := idx12 t
  funext y
  unfold iblk14
  rw [View.read_apply]
  show V c main_v23 _ = V c main_v23 y
  refine congrArg (V c main_v23) (funext fun a => Fin.ext ?_)
  match a with
  | ⟨0, _⟩ => show win14_12.index t (0 : Fin 2) * 512 + 1 * (y 0).val = (y 0).val; omega
  | ⟨1, _⟩ => show win14_12.index t (1 : Fin 2) * 512 + 1 * (y 1).val = (y 1).val; omega

/-- The one block of the input gate's bias row is the array. -/
theorem read_bi : (iblk14 V c 13 t : Vec Ideal S1x512 .f32) = (V c main_v24 : S1x512.Idx → EReal) := by
  obtain ⟨e0, e1⟩ := idx13 t
  funext y
  unfold iblk14
  rw [View.read_apply]
  show V c main_v24 _ = V c main_v24 y
  refine congrArg (V c main_v24) (funext fun a => Fin.ext ?_)
  match a with
  | ⟨0, _⟩ => show win14_13.index t (0 : Fin 2) * 1 + 1 * (y 0).val = (y 0).val; omega
  | ⟨1, _⟩ => show win14_13.index t (1 : Fin 2) * 512 + 1 * (y 1).val = (y 1).val; omega

/-- The one block of the forget gates' bias row is the array. -/
theorem read_bf : (iblk14 V c 14 t : Vec Ideal S1x512 .f32) = (V c main_v25 : S1x512.Idx → EReal) := by
  obtain ⟨e0, e1⟩ := idx14 t
  funext y
  unfold iblk14
  rw [View.read_apply]
  show V c main_v25 _ = V c main_v25 y
  refine congrArg (V c main_v25) (funext fun a => Fin.ext ?_)
  match a with
  | ⟨0, _⟩ => show win14_14.index t (0 : Fin 2) * 1 + 1 * (y 0).val = (y 0).val; omega
  | ⟨1, _⟩ => show win14_14.index t (1 : Fin 2) * 512 + 1 * (y 1).val = (y 1).val; omega

/-- The one block of the output gate's bias row is the array. -/
theorem read_bo : (iblk14 V c 15 t : Vec Ideal S1x512 .f32) = (V c main_v26 : S1x512.Idx → EReal) := by
  obtain ⟨e0, e1⟩ := idx15 t
  funext y
  unfold iblk14
  rw [View.read_apply]
  show V c main_v26 _ = V c main_v26 y
  refine congrArg (V c main_v26) (funext fun a => Fin.ext ?_)
  match a with
  | ⟨0, _⟩ => show win14_15.index t (0 : Fin 2) * 1 + 1 * (y 0).val = (y 0).val; omega
  | ⟨1, _⟩ => show win14_15.index t (1 : Fin 2) * 512 + 1 * (y 1).val = (y 1).val; omega

/-- The one block of the update gate's bias row is the array. -/
theorem read_bu : (iblk14 V c 16 t : Vec Ideal S1x512 .f32) = (V c main_v27 : S1x512.Idx → EReal) := by
  obtain ⟨e0, e1⟩ := idx16 t
  funext y
  unfold iblk14
  rw [View.read_apply]
  show V c main_v27 _ = V c main_v27 y
  refine congrArg (V c main_v27) (funext fun a => Fin.ext ?_)
  match a with
  | ⟨0, _⟩ => show win14_16.index t (0 : Fin 2) * 1 + 1 * (y 0).val = (y 0).val; omega
  | ⟨1, _⟩ => show win14_16.index t (1 : Fin 2) * 512 + 1 * (y 1).val = (y 1).val; omega

end Reads

/-! ## The block body -/

/-- What a block body of one row carries besides its arrays (the broadcast of a bias row down one row is never used). -/
def ctx : Cert.Tree.BodyCtx 1 :=
  ⟨dot_S1x512_S512x512_S1x512_1_0_0_1_n_n, rfl, shapeCasts_S1x512_S1x512, shapeCasts_S512x512_S512x512,
    shapeCasts_S1x512_S1x512, by decide, bitsLt_bf16_f32⟩

section Body

variable {F : FTy → Type} [FloatOps F]

/-- The value the body stores into its h block is the tree cell's h block of the seventeen blocks it loads. -/
theorem bodyH_eq (x0 x1 x2 x3 x4 : Vec F S1x512 .f32) (x5 x6 x7 x8 x9 x10 x11 x12 : Vec F S512x512 .bf16)
    (x13 x14 x15 x16 : Vec F S1x512 .f32) :
    k14_pay1 (k14_pay12 (k14_pay11 x0 x1 x2 x9 x10) x15)
      (k14_pay13 (k14_pay2 x0) (k14_pay5 x3) (k14_pay6 x4) (k14_pay7 x1 x2) (k14_pay8 x1) (k14_pay9 x2)
        (k14_pay10 x0 x1 x2 x5 x6 x13) x11 x12 x16 x7 x8 x14 x8 x14)
      = Cert.Tree.payHRow ctx x0 x1 x2 x3 x4 x5 x6 x7 x8 x9 x10 x11 x12 x13 x14 x15 x16 := rfl

/-- The value the body stores into its c block is the tree cell's c block of the seventeen blocks it loads. -/
theorem bodyC_eq (x0 x1 x2 x3 x4 : Vec F S1x512 .f32) (x5 x6 x7 x8 x9 x10 x11 x12 : Vec F S512x512 .bf16)
    (x13 x14 x15 x16 : Vec F S1x512 .f32) :
    k14_pay13 (k14_pay2 x0) (k14_pay5 x3) (k14_pay6 x4) (k14_pay7 x1 x2) (k14_pay8 x1) (k14_pay9 x2)
      (k14_pay10 x0 x1 x2 x5 x6 x13) x11 x12 x16 x7 x8 x14 x8 x14
      = Cert.Tree.payCRow ctx x0 x1 x2 x3 x4 x5 x6 x7 x8 x9 x10 x11 x12 x13 x14 x15 x16 := rfl

end Body

/-- Entry (p, q) of the body's h block, when row p of the five row blocks is row r of the level's arrays and the weight and
    bias blocks are the arrays: the level's h at (r, q). -/
theorem bodyH_at (x0 x1 x2 x3 x4 : Vec Ideal S1x512 .f32) (x5 x6 x7 x8 x9 x10 x11 x12 : Vec Ideal S512x512 .bf16)
    (x13 x14 x15 x16 : Vec Ideal S1x512 .f32)
    (X HL HR CL CR : S1x512.Idx → EReal) (w5 w6 w7 w8 w9 w10 w11 w12 : S512x512.Idx → EReal)
    (b13 b14 b15 b16 : S1x512.Idx → EReal) (p : Fin 1) (r : Fin 1) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k14_pay1 (k14_pay12 (k14_pay11 x0 x1 x2 x9 x10) x15)
      (k14_pay13 (k14_pay2 x0) (k14_pay5 x3) (k14_pay6 x4) (k14_pay7 x1 x2) (k14_pay8 x1) (k14_pay9 x2)
        (k14_pay10 x0 x1 x2 x5 x6 x13) x11 x12 x16 x7 x8 x14 x8 x14)) (ix2 p q)
      = Cert.Tree.levelH X HL HR CL CR w5 w6 w7 w8 w9 w10 w11 w12 b13 b14 b15 b16 (ix2 r q) := by
  subst e5 e6 e7 e8 e9 e10 e11 e12 e13 e14 e15 e16
  exact (congrFun (bodyH_eq x0 x1 x2 x3 x4 x5 x6 x7 x8 x9 x10 x11 x12 x13 x14 x15 x16) (ix2 p q)).trans
    ((congrFun (Cert.Tree.payHRow_eq ctx x0 x1 x2 x3 x4 x5 x6 x7 x8 x9 x10 x11 x12 x13 x14 x15 x16) (ix2 p q)).trans
      (Cert.Tree.levelH_rows x0 x1 x2 x3 x4 X HL HR CL CR x5 x6 x7 x8 x9 x10 x11 x12 x13 x14 x15 x16 p r q h0 h1 h2 h3 h4))

/-- Entry (p, q) of the body's c block, when row p of the five row blocks is row r of the level's arrays and the weight and
    bias blocks are the arrays: the level's c at (r, q). -/
theorem bodyC_at (x0 x1 x2 x3 x4 : Vec Ideal S1x512 .f32) (x5 x6 x7 x8 x9 x10 x11 x12 : Vec Ideal S512x512 .bf16)
    (x13 x14 x15 x16 : Vec Ideal S1x512 .f32)
    (X HL HR CL CR : S1x512.Idx → EReal) (w5 w6 w7 w8 w9 w10 w11 w12 : S512x512.Idx → EReal)
    (b13 b14 b15 b16 : S1x512.Idx → EReal) (p : Fin 1) (r : Fin 1) (q : Fin 512)
    (h0 : ∀ k : Fin 512, x0 (ix2 p k) = X (ix2 r k)) (h1 : ∀ k : Fin 512, x1 (ix2 p k) = HL (ix2 r k))
    (h2 : ∀ k : Fin 512, x2 (ix2 p k) = HR (ix2 r k)) (h3 : x3 (ix2 p q) = CL (ix2 r q)) (h4 : x4 (ix2 p q) = CR (ix2 r q))
    (e5 : x5 = w5) (e6 : x6 = w6) (e7 : x7 = w7) (e8 : x8 = w8) (e9 : x9 = w9) (e10 : x10 = w10) (e11 : x11 = w11)
    (e12 : x12 = w12) (e13 : x13 = b13) (e14 : x14 = b14) (e15 : x15 = b15) (e16 : x16 = b16) :
    (k14_pay13 (k14_pay2 x0) (k14_pay5 x3) (k14_pay6 x4) (k14_pay7 x1 x2) (k14_pay8 x1) (k14_pay9 x2)
      (k14_pay10 x0 x1 x2 x5 x6 x13) x11 x12 x16 x7 x8 x14 x8 x14) (ix2 p q)
      = Cert.Tree.levelC X HL HR CL CR w5 w6 w7 w8 w9 w10 w11 w12 b13 b14 b15 b16 (ix2 r q) := by
  subst e5 e6 e7 e8 e9 e10 e11 e12 e13 e14 e15 e16
  exact (congrFun (bodyC_eq x0 x1 x2 x3 x4 x5 x6 x7 x8 x9 x10 x11 x12 x13 x14 x15 x16) (ix2 p q)).trans
    ((congrFun (Cert.Tree.payCRow_eq ctx x0 x1 x2 x3 x4 x5 x6 x7 x8 x9 x10 x11 x12 x13 x14 x15 x16) (ix2 p q)).trans
      (Cert.Tree.levelC_rows x0 x1 x2 x3 x4 X HL HR CL CR x5 x6 x7 x8 x9 x10 x11 x12 x13 x14 x15 x16 p r q h0 h1 h2 h3 h4))

/-! ## From the blocks to the arrays -/

section Arrays

variable (V : (c : Dev nD) → (b : Ref sig .tc) → Buf (Elt Ideal) ((c : Thread nD τ).loc b))

/-- The level's h of the seventeen arrays as the region finds them. -/
def GH (c : Dev nD) : S1x512.Idx → EReal :=
  Cert.Tree.levelH (n := 1) (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27)

/-- The level's c of the seventeen arrays as the region finds them. -/
def GC (c : Dev nD) : S1x512.Idx → EReal :=
  Cert.Tree.levelC (n := 1) (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27)

/-- What point t writes back to the h array is block t of the level's h. -/
theorem flushedH (c : Dev nD) (t : Fin cfg14.N) :
    (dat14 V c).flushed 17 t = ((cfg14.win 17).blk t).view.read (Elt Ideal) (GH V c) := by
  show (cfg14.win 17).cut (grid14.coords t) ((dat14 V c).after 17 t) = _
  rw [after14_17]
  unfold out14_17
  rw [View.canon_unit_zero Cert.LibBlocks.off2_zero]
  simp only [View.ld_unit_zero (S := S1x512) Cert.LibBlocks.off2_zero, View.ld_unit_zero (S := S512x512) Cert.LibBlocks.off2_zero]
  funext j
  obtain ⟨p, q, rfl⟩ : ∃ (p : Fin 1) (q : Fin 512), j = ix2 p q := ⟨j 0, j 1, eq_ix2 j⟩
  have hp : p.val < 1 := p.isLt
  have ht : t.val < cfg14.N := t.isLt
  have hN : cfg14.N * 1 = 1 := points_rows
  have hr : t.val * 1 + p.val < 1 := by omega
  obtain ⟨e0, e1⟩ := idx17 t
  refine Eq.trans (b := GH V c (ix2 (⟨t.val * 1 + p.val, hr⟩ : Fin 1) q)) ?_ ?_
  · exact bodyH_at (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) (iblk14 V c 14 t) (iblk14 V c 15 t) (iblk14 V c 16 t)
      (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27)
      p ⟨t.val * 1 + p.val, hr⟩ q
      (fun k => read_x V c t (ix2 p k) (ix2 ⟨t.val * 1 + p.val, hr⟩ k) rfl rfl)
      (fun k => read_hl V c t (ix2 p k) (ix2 ⟨t.val * 1 + p.val, hr⟩ k) rfl rfl)
      (fun k => read_hr V c t (ix2 p k) (ix2 ⟨t.val * 1 + p.val, hr⟩ k) rfl rfl)
      (read_cl V c t (ix2 p q) (ix2 ⟨t.val * 1 + p.val, hr⟩ q) rfl rfl)
      (read_cr V c t (ix2 p q) (ix2 ⟨t.val * 1 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GH V c _ = GH V c (((cfg14.win 17).blk t).view.emb (ix2 p q))
    refine congrArg (GH V c) (funext fun a => Fin.ext ?_)
    match a with
    | ⟨0, _⟩ => show t.val * 1 + p.val = win14_17.index t (0 : Fin 2) * 1 + 1 * p.val; omega
    | ⟨1, _⟩ => show q.val = win14_17.index t (1 : Fin 2) * 512 + 1 * q.val; omega

/-- An entry of the h array is in point t's block iff each coordinate is in the block's range on its axis. -/
theorem mem_blkH (t : Fin cfg14.N) (i : S1x512.Idx) :
    i ∈ ((cfg14.win 17).blk t).view.set ↔ ∀ a : Fin 2, win14_17.index t a * S1x512.size a ≤ (i a).val
      ∧ (i a).val < win14_17.index t a * S1x512.size a + S1x512.size a := by
  show i ∈ ((View.whole main_v283_0).slice (win14_17.rect t)).set ↔ _
  rw [View.set_slice_whole, Rect.mem_set_unit]
  exact Iff.rfl

/-- The one block is the h array. -/
theorem coverH (i : S1x512.Idx) :
    ∃ t : Fin cfg14.N, (cfg14.win 17).flush t = true ∧ i ∈ ((cfg14.win 17).blk t).view.set := by
  have hi0 : (i 0).val < 1 := (i 0).isLt
  have hi1 : (i 1).val < 512 := (i 1).isLt
  have hN : cfg14.N * 1 = 1 := points_rows
  obtain ⟨hq, hlo, hhi⟩ := Cert.LibBlocks.row_in_block (nb := cfg14.N) (bs := 1) (r := (i 0).val) (by omega) (by omega)
  obtain ⟨e0, e1⟩ := idx17 (⟨(i 0).val / 1, hq⟩ : Fin cfg14.N)
  refine ⟨⟨(i 0).val / 1, hq⟩, flush14_17 _, ?_⟩
  rw [mem_blkH]
  intro a
  match a with
  | ⟨0, _⟩ =>
    show win14_17.index ⟨(i 0).val / 1, hq⟩ (0 : Fin 2) * 1 ≤ (i 0).val
      ∧ (i 0).val < win14_17.index ⟨(i 0).val / 1, hq⟩ (0 : Fin 2) * 1 + 1
    rw [e0]
    exact ⟨hlo, hhi⟩
  | ⟨1, _⟩ =>
    show win14_17.index ⟨(i 0).val / 1, hq⟩ (1 : Fin 2) * 512 ≤ (i 1).val
      ∧ (i 1).val < win14_17.index ⟨(i 0).val / 1, hq⟩ (1 : Fin 2) * 512 + 512
    omega

/-- What point t writes back to the c array is block t of the level's c. -/
theorem flushedC (c : Dev nD) (t : Fin cfg14.N) :
    (dat14 V c).flushed 18 t = ((cfg14.win 18).blk t).view.read (Elt Ideal) (GC V c) := by
  show (cfg14.win 18).cut (grid14.coords t) ((dat14 V c).after 18 t) = _
  rw [after14_18]
  unfold out14_18
  rw [View.canon_unit_zero Cert.LibBlocks.off2_zero]
  simp only [View.ld_unit_zero (S := S1x512) Cert.LibBlocks.off2_zero, View.ld_unit_zero (S := S512x512) Cert.LibBlocks.off2_zero]
  funext j
  obtain ⟨p, q, rfl⟩ : ∃ (p : Fin 1) (q : Fin 512), j = ix2 p q := ⟨j 0, j 1, eq_ix2 j⟩
  have hp : p.val < 1 := p.isLt
  have ht : t.val < cfg14.N := t.isLt
  have hN : cfg14.N * 1 = 1 := points_rows
  have hr : t.val * 1 + p.val < 1 := by omega
  obtain ⟨e0, e1⟩ := idx18 t
  refine Eq.trans (b := GC V c (ix2 (⟨t.val * 1 + p.val, hr⟩ : Fin 1) q)) ?_ ?_
  · exact bodyC_at (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) (iblk14 V c 14 t) (iblk14 V c 15 t) (iblk14 V c 16 t)
      (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27)
      p ⟨t.val * 1 + p.val, hr⟩ q
      (fun k => read_x V c t (ix2 p k) (ix2 ⟨t.val * 1 + p.val, hr⟩ k) rfl rfl)
      (fun k => read_hl V c t (ix2 p k) (ix2 ⟨t.val * 1 + p.val, hr⟩ k) rfl rfl)
      (fun k => read_hr V c t (ix2 p k) (ix2 ⟨t.val * 1 + p.val, hr⟩ k) rfl rfl)
      (read_cl V c t (ix2 p q) (ix2 ⟨t.val * 1 + p.val, hr⟩ q) rfl rfl)
      (read_cr V c t (ix2 p q) (ix2 ⟨t.val * 1 + p.val, hr⟩ q) rfl rfl)
      (read_wix V c t) (read_wih V c t) (read_wfx V c t) (read_wfh V c t) (read_wox V c t) (read_woh V c t) (read_wux V c t) (read_wuh V c t) (read_bi V c t) (read_bf V c t) (read_bo V c t) (read_bu V c t)
  · show GC V c _ = GC V c (((cfg14.win 18).blk t).view.emb (ix2 p q))
    refine congrArg (GC V c) (funext fun a => Fin.ext ?_)
    match a with
    | ⟨0, _⟩ => show t.val * 1 + p.val = win14_18.index t (0 : Fin 2) * 1 + 1 * p.val; omega
    | ⟨1, _⟩ => show q.val = win14_18.index t (1 : Fin 2) * 512 + 1 * q.val; omega

/-- An entry of the c array is in point t's block iff each coordinate is in the block's range on its axis. -/
theorem mem_blkC (t : Fin cfg14.N) (i : S1x512.Idx) :
    i ∈ ((cfg14.win 18).blk t).view.set ↔ ∀ a : Fin 2, win14_18.index t a * S1x512.size a ≤ (i a).val
      ∧ (i a).val < win14_18.index t a * S1x512.size a + S1x512.size a := by
  show i ∈ ((View.whole main_v283_1).slice (win14_18.rect t)).set ↔ _
  rw [View.set_slice_whole, Rect.mem_set_unit]
  exact Iff.rfl

/-- The one block is the c array. -/
theorem coverC (i : S1x512.Idx) :
    ∃ t : Fin cfg14.N, (cfg14.win 18).flush t = true ∧ i ∈ ((cfg14.win 18).blk t).view.set := by
  have hi0 : (i 0).val < 1 := (i 0).isLt
  have hi1 : (i 1).val < 512 := (i 1).isLt
  have hN : cfg14.N * 1 = 1 := points_rows
  obtain ⟨hq, hlo, hhi⟩ := Cert.LibBlocks.row_in_block (nb := cfg14.N) (bs := 1) (r := (i 0).val) (by omega) (by omega)
  obtain ⟨e0, e1⟩ := idx18 (⟨(i 0).val / 1, hq⟩ : Fin cfg14.N)
  refine ⟨⟨(i 0).val / 1, hq⟩, flush14_18 _, ?_⟩
  rw [mem_blkC]
  intro a
  match a with
  | ⟨0, _⟩ =>
    show win14_18.index ⟨(i 0).val / 1, hq⟩ (0 : Fin 2) * 1 ≤ (i 0).val
      ∧ (i 0).val < win14_18.index ⟨(i 0).val / 1, hq⟩ (0 : Fin 2) * 1 + 1
    rw [e0]
    exact ⟨hlo, hhi⟩
  | ⟨1, _⟩ =>
    show win14_18.index ⟨(i 0).val / 1, hq⟩ (1 : Fin 2) * 512 ≤ (i 1).val
      ∧ (i 1).val < win14_18.index ⟨(i 0).val / 1, hq⟩ (1 : Fin 2) * 512 + 512
    omega

/-- After the region the h array holds the level's h of the seventeen arrays as the region finds them. -/
theorem arrH (c : Dev nD) :
    (dat14 (F := Ideal) V c).arrAt 17 cfg14.N
      = Cert.Tree.levelH (n := 1) (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27) :=
  (dat14 V c).arrAt_eq_of_cover 17 (GH V c) (fun t _ => flushedH V c t) coverH

/-- After the region the c array holds the level's c of the seventeen arrays as the region finds them. -/
theorem arrC (c : Dev nD) :
    (dat14 (F := Ideal) V c).arrAt 18 cfg14.N
      = Cert.Tree.levelC (n := 1) (V c main_v270) (V c main_v276) (V c main_v278) (V c main_v280) (V c main_v282) (V c main_v2) (V c main_v5) (V c main_v8) (V c main_v11) (V c main_v14) (V c main_v17) (V c main_v20) (V c main_v23) (V c main_v24) (V c main_v25) (V c main_v26) (V c main_v27) :=
  (dat14 V c).arrAt_eq_of_cover 18 (GC V c) (fun t _ => flushedC V c t) coverC

end Arrays

end Cert.KernelIdeal.Reg14

end
-- ==== Proof.RStep14.lean ====
/-
  The reference's root level (one node, heap row 0), read off its run: each result is row 0 of the heap array after
  the level, which is the array before it with row 0 replaced by the level function of x's row 0 and of heap rows 1
  and 2 (the root's children) of the arrays before.
-/
import proofs.«110311_j37117107372689_1_alg».proof.Proof.RunP0
import proofs.«110311_j37117107372689_1_alg».proof.Proof.LibRefLevel

set_option maxRecDepth 20000

noncomputable section

namespace Cert.ReferenceIdeal.Chain

open Cert.ReferenceIdeal Cert.ReferenceIdeal.Gen Cert.ReferenceIdeal.Value Idealize.ShloMosaic Idealize.ShloMosaic.TcCoe Idealize.ShloMosaic.StableHlo

/-- The level's dimension record and side conditions (the bias row needs no broadcast down one row). -/
def ctx14 : Cert.Tree.HostCtx 1 :=
  ⟨dot_S1x1024_S1024x512_S1x512_1_0_0_1_n_n, rfl, concatenates_S1x512_S1x512_S1x1024_d1,
    transposes_S512x1024_S1024x512_1_0, bcast_S512_S1x512_1, by decide, bcast_S_S1x512⟩

/-- The c result as the run states it. -/
abbrev runC {F : FTy → Type} [FloatOps F] (V0 : Valuation τ sig (Elt F)) : Vec F S512 .f32 :=
  shapeCast _ (extractStridedSlice S1x512 ![0, 0] (Host.scatter scatter_S32767x512_S1_S1x512_01_n_0_0 (fun _ b => b) (res_main_v1053 V0) (broadcastInDim S1 ![] bcast_S_S1 (constantI S_ 32 0#32)) (res_main_v1120 V0)) slices_S32767x512_S1x512_0_0) shapeCasts_S1x512_S512

/-- The h result as the run states it. -/
abbrev runH {F : FTy → Type} [FloatOps F] (V0 : Valuation τ sig (Elt F)) : Vec F S512 .f32 :=
  shapeCast _ (extractStridedSlice S1x512 ![0, 0] (Host.scatter scatter_S32767x512_S1_S1x512_01_n_0_0 (fun _ b => b) (res_main_v1051 V0) (broadcastInDim S1 ![] bcast_S_S1 (constantI S_ 32 0#32)) (mulf (Host.divf (broadcastInDim S1x512 ![] bcast_S_S1x512 (constant S_ .f32 0x3F800000#32)) (addf (broadcastInDim S1x512 ![] bcast_S_S1x512 (constant S_ .f32 0x3F800000#32)) (Host.exp (Host.negf (addf (Host.dotGeneral dot_S1x1024_S1024x512_S1x512_1_0_0_1_n_n none (res_main_v1064 V0) (transpose S1024x512 [1, 0] (V0 (Proc.devRef .tc main_arg5)) transposes_S512x1024_S1024x512_1_0)) (broadcastInDim S1x512 ![1] bcast_S512_S1x512_1 (V0 (Proc.devRef .tc main_arg6)))))))) (Host.tanh (res_main_v1120 V0)))) slices_S32767x512_S1x512_0_0) shapeCasts_S1x512_S512

variable (V0 : Valuation τ sig (Elt Ideal))

/-- The root's x row. -/
abbrev xl14 : Vec Ideal S1x512 .f32 :=
  extractStridedSlice S1x512 ![0, 0] (V0 (Proc.devRef .tc main_arg0)) slices_S32767x512_S1x512_0_0

/-- The left (row 1) and right (row 2) child's row of a heap array. -/
abbrev childL14 (A : Vec Ideal S32767x512 .f32) : Vec Ideal S1x512 .f32 :=
  shapeCast _ (extractStridedSlice S1x1x512 ![0, 0, 0] (shapeCast _ (extractStridedSlice S2x512 ![1, 0] A slices_S32767x512_S2x512_1_0) shapeCasts_S2x512_S1x2x512) slices_S1x2x512_S1x1x512_0_0_0) shapeCasts_S1x1x512_S1x512

abbrev childR14 (A : Vec Ideal S32767x512 .f32) : Vec Ideal S1x512 .f32 :=
  shapeCast _ (extractStridedSlice S1x1x512 ![0, 1, 0] (shapeCast _ (extractStridedSlice S2x512 ![1, 0] A slices_S32767x512_S2x512_1_0) shapeCasts_S2x512_S1x2x512) slices_S1x2x512_S1x1x512_0_1_0) shapeCasts_S1x1x512_S1x512

theorem resC : runC V0
    = shapeCast _ (extractStridedSlice S1x512 ![0, 0] (Host.scatter scatter_S32767x512_S1_S1x512_01_n_0_0 (fun _ b => b) (res_main_v1053 V0) (broadcastInDim S1 ![] bcast_S_S1 (constantI S_ 32 0#32))
        (Cert.Tree.hostLevelCRow ctx14 (xl14 V0) (childL14 (res_main_v1051 V0)) (childR14 (res_main_v1051 V0)) (childL14 (res_main_v1053 V0)) (childR14 (res_main_v1053 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8)))) slices_S32767x512_S1x512_0_0) shapeCasts_S1x512_S512 := by
  unfold runC res_main_v1120 res_main_v1064 res_main_v1060 res_main_v1062 res_main_v1056 res_main_v1058 res_main_v1054
  rfl

theorem resH : runH V0
    = shapeCast _ (extractStridedSlice S1x512 ![0, 0] (Host.scatter scatter_S32767x512_S1_S1x512_01_n_0_0 (fun _ b => b) (res_main_v1051 V0) (broadcastInDim S1 ![] bcast_S_S1 (constantI S_ 32 0#32))
        (Cert.Tree.hostLevelHRow ctx14 (xl14 V0) (childL14 (res_main_v1051 V0)) (childR14 (res_main_v1051 V0)) (childL14 (res_main_v1053 V0)) (childR14 (res_main_v1053 V0))
          (V0 (Proc.devRef .tc main_arg1)) (V0 (Proc.devRef .tc main_arg3)) (V0 (Proc.devRef .tc main_arg5)) (V0 (Proc.devRef .tc main_arg7))
          (V0 (Proc.devRef .tc main_arg2)) (V0 (Proc.devRef .tc main_arg4)) (V0 (Proc.devRef .tc main_arg6)) (V0 (Proc.devRef .tc main_arg8)))) slices_S32767x512_S1x512_0_0) shapeCasts_S1x512_S512 := by
  unfold runH res_main_v1120 res_main_v1064 res_main_v1060 res_main_v1062 res_main_v1056 res_main_v1058 res_main_v1054
  rfl

end Cert.ReferenceIdeal.Chain

end
-- ==== Proof.Bridge14.lean ====
/-
  The root level, compared across the two programs, and the results. Each program's result is row 0 of a heap array
  after the root's scatter; the scattered row is a level function of x's row 0 and of heap rows 1 and 2 of the arrays
  before: the kernel's over its split weights, the reference's the host's one-row level over the weights as given. The
  two agree because the split weights are the halves of the given ones, so heap arrays that agree before the root
  level give equal results.
-/
import proofs.«110311_j37117107372689_1_alg».proof.Proof.BridgeBase
import proofs.«110311_j37117107372689_1_alg».proof.Proof.KStep14
import proofs.«110311_j37117107372689_1_alg».proof.Proof.KEnd
import proofs.«110311_j37117107372689_1_alg».proof.Proof.KReg14
import proofs.«110311_j37117107372689_1_alg».proof.Proof.RStep14
import proofs.«110311_j37117107372689_1_alg».proof.Proof.LibRefLevel
import proofs.«110311_j37117107372689_1_alg».proof.Proof.LibTree

set_option maxRecDepth 16384

noncomputable section

namespace Cert.Bridge

open Idealize.ShloMosaic Idealize.ShloMosaic.TcCoe

variable {m : (ℓ : Loc Cert.KernelIdeal.nD Cert.KernelIdeal.τ Cert.KernelIdeal.sig) → Buf (Elt Ideal) ℓ}
  (ρ : Dev Cert.KernelIdeal.nD → PrngReg)
  {V0 : Valuation Cert.ReferenceIdeal.τ Cert.ReferenceIdeal.sig (Elt Ideal)}
  {c : Dev Cert.KernelIdeal.nD}

/-- If the two heap arrays agree before the root level, the two programs' results agree: each result is row 0 of a
    heap array after the root's scatter, the kernel's root level is the level function over the split weights and the
    reference's the host's one-row level over the weights as given, and the two are the same function of the same
    rows. -/
theorem level14 (hA : Agree m V0 c)
    (hH : Cert.KernelIdeal.Gen.W29 m ρ c (Proc.devRef .tc Cert.KernelIdeal.main_v267) = Cert.ReferenceIdeal.Value.res_main_v1051 V0)
    (hC : Cert.KernelIdeal.Gen.W29 m ρ c (Proc.devRef .tc Cert.KernelIdeal.main_v269) = Cert.ReferenceIdeal.Value.res_main_v1053 V0) :
    Cert.KernelIdeal.Gen.W31 m ρ c (Proc.devRef .tc Cert.KernelIdeal.main_v289) = Cert.ReferenceIdeal.Chain.runH V0
      ∧ Cert.KernelIdeal.Gen.W31 m ρ c (Proc.devRef .tc Cert.KernelIdeal.main_v291) = Cert.ReferenceIdeal.Chain.runC V0 := by
  constructor
  · rw [Cert.KernelIdeal.Chain.end_h m ρ c,
      Cert.KernelIdeal.Chain.stepH14 m ρ c (Cert.KernelIdeal.Reg14.arrH (Cert.KernelIdeal.Gen.V29 m ρ) c),
      Cert.ReferenceIdeal.Chain.resH V0, hH, hC, Cert.Tree.hostLevelHRow_eq,
      ← Cert.Tree.levelH_eq _ _ _ _ _ (halves_i' ρ hA) (halves_f' ρ hA) (halves_o' ρ hA) (halves_u' ρ hA), ← hA.a0]
    rfl
  · rw [Cert.KernelIdeal.Chain.end_c m ρ c,
      Cert.KernelIdeal.Chain.stepC14 m ρ c (Cert.KernelIdeal.Reg14.arrC (Cert.KernelIdeal.Gen.V29 m ρ) c),
      Cert.ReferenceIdeal.Chain.resC V0, hH, hC, Cert.Tree.hostLevelCRow_eq,
      ← Cert.Tree.levelC_eq _ _ _ _ _ (halves_i' ρ hA) (halves_f' ρ hA) (halves_o' ρ hA) (halves_u' ρ hA), ← hA.a0]
    rfl

end Cert.Bridge

end
-- ==== Proof.BridgeEnd.lean ====
/-
  The whole tree, compared across the two programs: from memories that agree on the nine arguments the heap arrays
  agree after the leaves, every level carries the agreement one level up, and the root level turns it into equal
  results.
-/
import proofs.«110311_j37117107372689_1_alg».proof.Proof.BridgeBase
import proofs.«110311_j37117107372689_1_alg».proof.Proof.Bridge0
import proofs.«110311_j37117107372689_1_alg».proof.Proof.Bridge1
import proofs.«110311_j37117107372689_1_alg».proof.Proof.Bridge2
import proofs.«110311_j37117107372689_1_alg».proof.Proof.Bridge3
import proofs.«110311_j37117107372689_1_alg».proof.Proof.Bridge4
import proofs.«110311_j37117107372689_1_alg».proof.Proof.Bridge5
import proofs.«110311_j37117107372689_1_alg».proof.Proof.Bridge6
import proofs.«110311_j37117107372689_1_alg».proof.Proof.Bridge7
import proofs.«110311_j37117107372689_1_alg».proof.Proof.Bridge8
import proofs.«110311_j37117107372689_1_alg».proof.Proof.Bridge9
import proofs.«110311_j37117107372689_1_alg».proof.Proof.Bridge10
import proofs.«110311_j37117107372689_1_alg».proof.Proof.Bridge11
import proofs.«110311_j37117107372689_1_alg».proof.Proof.Bridge12
import proofs.«110311_j37117107372689_1_alg».proof.Proof.Bridge13
import proofs.«110311_j37117107372689_1_alg».proof.Proof.Bridge14
import proofs.«110311_j37117107372689_1_alg».proof.Proof.RStep14
import Idealize.ShloMosaic.Lib.StableHlo.Run

set_option maxRecDepth 16384

noncomputable section

namespace Cert.Bridge

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From memories that agree on the nine arguments, the kernel's two result buffers at the run's end hold the
    reference run's two result terms: the heap arrays agree after the leaves, each level carries the agreement up, and
    the root level gives the results. -/
theorem results
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W31 m ρ c (Proc.devRef .tc Cert.KernelIdeal.main_v289) = Cert.ReferenceIdeal.Chain.runH (launchContents m' c)
      ∧ Cert.KernelIdeal.Gen.W31 m ρ c (Proc.devRef .tc Cert.KernelIdeal.main_v291) = Cert.ReferenceIdeal.Chain.runC (launchContents m' c) := by
  have hA : Agree m (launchContents m' c) c :=
    ⟨hag.1, hag.2.1, hag.2.2.1, hag.2.2.2.1, hag.2.2.2.2.1, hag.2.2.2.2.2.1, hag.2.2.2.2.2.2.1, hag.2.2.2.2.2.2.2.1, hag.2.2.2.2.2.2.2.2⟩
  have h0 := level0 ρ hA
  have h1 := level1 ρ hA h0.1 h0.2
  have h2 := level2 ρ hA h1.1 h1.2
  have h3 := level3 ρ hA h2.1 h2.2
  have h4 := level4 ρ hA h3.1 h3.2
  have h5 := level5 ρ hA h4.1 h4.2
  have h6 := level6 ρ hA h5.1 h5.2
  have h7 := level7 ρ hA h6.1 h6.2
  have h8 := level8 ρ hA h7.1 h7.2
  have h9 := level9 ρ hA h8.1 h8.2
  have h10 := level10 ρ hA h9.1 h9.2
  have h11 := level11 ρ hA h10.1 h10.2
  have h12 := level12 ρ hA h11.1 h11.2
  have h13 := level13 ρ hA h12.1 h12.2
  exact level14 ρ hA h13.1 h13.2

/-- The hidden result. -/
theorem resultH
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W31 m ρ c (Proc.devRef .tc Cert.KernelIdeal.main_v289) = Cert.ReferenceIdeal.Chain.runH (launchContents m' c) :=
  (results m ρ m' c hag).1

/-- The cell result. -/
theorem resultC
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W31 m ρ c (Proc.devRef .tc Cert.KernelIdeal.main_v291) = Cert.ReferenceIdeal.Chain.runC (launchContents m' c) :=
  (results m ρ m' c hag).2

end Cert.Bridge

end
-- ==== Proof.lean ====
/-
  The certificate of the child-sum tree cell over a complete binary tree of depth 15 in heap layout: a kernel that
  runs one Pallas call per tree level, leaves first, against the plain host program.

  Both programs keep two heap arrays h and c of 32767 rows, start them at zero, and for each level, bottom up, replace
  the level's rows by the cell function of the level's x rows and of the children's rows of the arrays so far; the
  results are row 0 of each array. The glue between levels (slices, reshapes, the scatter that replaces a level's rows)
  is the same in both programs, so the two runs are compared level by level: if the heap arrays agree before a level
  they agree after it, provided the level's function is the same. The kernel computes a level in blocks of at most 1024
  rows, multiplying the narrowed x block with the first half of each gate's weights and a children's block with the
  second half on the matrix unit; the host program multiplies the concatenated [x ; h] with the whole weights. At the
  extended reals narrowing is the identity, both products are plain sums, and a sum over 1024 positions is the sum over
  its first 512 plus the sum over its last 512: the two level functions are one function, and no input needs to be
  finite. The kernel's logistic operation and the host's 1 / (1 + exp (-z)) denote one function at the extended reals.

  The frames of the two kernel programs are the generated frame certificates; the reference's frame is its run with the
  results dropped; the idealization changed nothing that needs a statement.
-/
import proofs.«110311_j37117107372689_1_alg».proof.Defs
import proofs.«110311_j37117107372689_1_alg».proof.Proof.Gen.Kernel
import proofs.«110311_j37117107372689_1_alg».proof.Proof.Gen.Kernel.Frame
import proofs.«110311_j37117107372689_1_alg».proof.Proof.Gen.KernelIdeal
import proofs.«110311_j37117107372689_1_alg».proof.Proof.Gen.KernelIdeal.Frame
import proofs.«110311_j37117107372689_1_alg».proof.Proof.Gen.ReferenceIdeal
import proofs.«110311_j37117107372689_1_alg».proof.Proof.RunP23
import proofs.«110311_j37117107372689_1_alg».proof.Proof.Gen.Pre_finite_inputs
import proofs.«110311_j37117107372689_1_alg».proof.Proof.KRun
import proofs.«110311_j37117107372689_1_alg».proof.Proof.BridgeEnd
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the two results dropped from its post. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end; the kernel's two results are what its last boundary holds, and the reference's two results are
    those same arrays: the level-by-level comparison, ended at row 0. -/
theorem algebraic : Cert.algebraic_KernelIdeal_ReferenceIdeal := by
  intro m ρ m' ρ' _ hagree
  refine ⟨fun c => Cert.KernelIdeal.Gen.W31 m ρ c (Proc.devRef .tc Cert.KernelIdeal.main_v289),
    fun c => Cert.KernelIdeal.Gen.W31 m ρ c (Proc.devRef .tc Cert.KernelIdeal.main_v291),
    Cert.KernelIdeal.Gen.valueRun m ρ, ?_⟩
  exact (θ_run Cert.ReferenceIdeal.defs _ _).mono
    (fun _ h c => ⟨(h c).1.trans (Cert.Bridge.resultH m ρ m' c (hagree c)).symm,
      (h c).2.1.trans (Cert.Bridge.resultC m ρ m' c (hagree c)).symm, (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
